-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x4096 : Shape := ⟨2, ![512, 4096]⟩
abbrev S4096x8192 : Shape := ⟨2, ![4096, 8192]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S512x4096 .f32) (main_arg1 : FVec F S4096x8192 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S14x512x512 : Shape := ⟨3, ![14, 512, 512]⟩
abbrev S2 : Shape := ⟨1, ![2]⟩
abbrev S14 : Shape := ⟨1, ![14]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S14x512x512, .bf16⟩
  | .local _ .vmem, ⟨4, _⟩ => ⟨S14x512x512, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_off1 (d0 : Dev nD) (c1_i32_26 : BitVec 32) (c0_i32_33 : BitVec 32) : Fin 2 → Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v20 : BitVec 32 := Scalar.addi v2 c1_i32_26
  let c8_i32_27 : BitVec 32 := 8#32
  let c0_i32_28 : BitVec 32 := 0#32
  let v21 : BitVec 1 := Scalar.cmpi .eq c8_i32_27 c0_i32_28
  let c1_i32_29 : BitVec 32 := 1#32
  let v22 : BitVec 32 := Scalar.select v21 c1_i32_29 c8_i32_27
  let v23 : BitVec 32 := Scalar.remsi v20 v22
  let c0_i32_31 : BitVec 32 := 0#32
  let v25 : BitVec 1 := Scalar.cmpi .slt v23 c0_i32_31
  let c0_i32_32 : BitVec 32 := 0#32
  let v26 : BitVec 1 := Scalar.cmpi .slt v22 c0_i32_32
  let v27 : BitVec 1 := Scalar.xori v25 v26
  let c0_i32_30 : BitVec 32 := 0#32
  let v24 : BitVec 1 := Scalar.cmpi .ne v23 c0_i32_30
  let v28 : BitVec 1 := Scalar.andi v27 v24
  let v29 : BitVec 32 := Scalar.addi v23 v22
  let v30 : BitVec 32 := Scalar.select v28 v29 v23
  let c1024_i32 : BitVec 32 := 1024#32
  let v31 : BitVec 32 := Scalar.muli v30 c1024_i32
  let v32 : BitVec 32 := Scalar.addi v31 c0_i32_33
  ![0, v32.toNat]
def k0_dev9 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_65 : BitVec 32 := 1#32
  let v72 : BitVec 32 := Scalar.addi v2 c1_i32_65
  let c8_i32_66 : BitVec 32 := 8#32
  let c0_i32_67 : BitVec 32 := 0#32
  let v73 : BitVec 1 := Scalar.cmpi .eq c8_i32_66 c0_i32_67
  let c1_i32_68 : BitVec 32 := 1#32
  let v74 : BitVec 32 := Scalar.select v73 c1_i32_68 c8_i32_66
  let v75 : BitVec 32 := Scalar.remsi v72 v74
  let c0_i32_70 : BitVec 32 := 0#32
  let v77 : BitVec 1 := Scalar.cmpi .slt v75 c0_i32_70
  let c0_i32_71 : BitVec 32 := 0#32
  let v78 : BitVec 1 := Scalar.cmpi .slt v74 c0_i32_71
  let v79 : BitVec 1 := Scalar.xori v77 v78
  let c0_i32_69 : BitVec 32 := 0#32
  let v76 : BitVec 1 := Scalar.cmpi .ne v75 c0_i32_69
  let v80 : BitVec 1 := Scalar.andi v79 v76
  let v81 : BitVec 32 := Scalar.addi v75 v74
  let v82 : BitVec 32 := Scalar.select v80 v81 v75
  let c1_i32_76 : BitVec 32 := 1#32
  let v83 : BitVec 32 := Scalar.muli v82 c1_i32_76
  let v84 : BitVec 32 := Scalar.addi c0_i32_77 v83
  v84.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v127 : BitVec 32 := Scalar.addi v2 c1_i32_110
  let c8_i32_111 : BitVec 32 := 8#32
  let c0_i32_112 : BitVec 32 := 0#32
  let v128 : BitVec 1 := Scalar.cmpi .eq c8_i32_111 c0_i32_112
  let c1_i32_113 : BitVec 32 := 1#32
  let v129 : BitVec 32 := Scalar.select v128 c1_i32_113 c8_i32_111
  let v130 : BitVec 32 := Scalar.remsi v127 v129
  let c0_i32_115 : BitVec 32 := 0#32
  let v132 : BitVec 1 := Scalar.cmpi .slt v130 c0_i32_115
  let c0_i32_116 : BitVec 32 := 0#32
  let v133 : BitVec 1 := Scalar.cmpi .slt v129 c0_i32_116
  let v134 : BitVec 1 := Scalar.xori v132 v133
  let c0_i32_114 : BitVec 32 := 0#32
  let v131 : BitVec 1 := Scalar.cmpi .ne v130 c0_i32_114
  let v135 : BitVec 1 := Scalar.andi v134 v131
  let v136 : BitVec 32 := Scalar.addi v130 v129
  let v137 : BitVec 32 := Scalar.select v135 v136 v130
  let c1_i32_121 : BitVec 32 := 1#32
  let v138 : BitVec 32 := Scalar.muli v137 c1_i32_121
  let v139 : BitVec 32 := Scalar.addi c0_i32_122 v138
  v139.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v182 : BitVec 32 := Scalar.addi v2 c2_i32_155
  let c8_i32_156 : BitVec 32 := 8#32
  let c0_i32_157 : BitVec 32 := 0#32
  let v183 : BitVec 1 := Scalar.cmpi .eq c8_i32_156 c0_i32_157
  let c1_i32_158 : BitVec 32 := 1#32
  let v184 : BitVec 32 := Scalar.select v183 c1_i32_158 c8_i32_156
  let v185 : BitVec 32 := Scalar.remsi v182 v184
  let c0_i32_160 : BitVec 32 := 0#32
  let v187 : BitVec 1 := Scalar.cmpi .slt v185 c0_i32_160
  let c0_i32_161 : BitVec 32 := 0#32
  let v188 : BitVec 1 := Scalar.cmpi .slt v184 c0_i32_161
  let v189 : BitVec 1 := Scalar.xori v187 v188
  let c0_i32_159 : BitVec 32 := 0#32
  let v186 : BitVec 1 := Scalar.cmpi .ne v185 c0_i32_159
  let v190 : BitVec 1 := Scalar.andi v189 v186
  let v191 : BitVec 32 := Scalar.addi v185 v184
  let v192 : BitVec 32 := Scalar.select v190 v191 v185
  let c1_i32_166 : BitVec 32 := 1#32
  let v193 : BitVec 32 := Scalar.muli v192 c1_i32_166
  let v194 : BitVec 32 := Scalar.addi c0_i32_167 v193
  v194.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_200 : BitVec 32 := 2#32
  let v237 : BitVec 32 := Scalar.addi v2 c2_i32_200
  let c8_i32_201 : BitVec 32 := 8#32
  let c0_i32_202 : BitVec 32 := 0#32
  let v238 : BitVec 1 := Scalar.cmpi .eq c8_i32_201 c0_i32_202
  let c1_i32_203 : BitVec 32 := 1#32
  let v239 : BitVec 32 := Scalar.select v238 c1_i32_203 c8_i32_201
  let v240 : BitVec 32 := Scalar.remsi v237 v239
  let c0_i32_205 : BitVec 32 := 0#32
  let v242 : BitVec 1 := Scalar.cmpi .slt v240 c0_i32_205
  let c0_i32_206 : BitVec 32 := 0#32
  let v243 : BitVec 1 := Scalar.cmpi .slt v239 c0_i32_206
  let v244 : BitVec 1 := Scalar.xori v242 v243
  let c0_i32_204 : BitVec 32 := 0#32
  let v241 : BitVec 1 := Scalar.cmpi .ne v240 c0_i32_204
  let v245 : BitVec 1 := Scalar.andi v244 v241
  let v246 : BitVec 32 := Scalar.addi v240 v239
  let v247 : BitVec 32 := Scalar.select v245 v246 v240
  let c1_i32_211 : BitVec 32 := 1#32
  let v248 : BitVec 32 := Scalar.muli v247 c1_i32_211
  let v249 : BitVec 32 := Scalar.addi c0_i32_212 v248
  v249.toNat
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_245 : BitVec 32 := 3#32
  let v292 : BitVec 32 := Scalar.addi v2 c3_i32_245
  let c8_i32_246 : BitVec 32 := 8#32
  let c0_i32_247 : BitVec 32 := 0#32
  let v293 : BitVec 1 := Scalar.cmpi .eq c8_i32_246 c0_i32_247
  let c1_i32_248 : BitVec 32 := 1#32
  let v294 : BitVec 32 := Scalar.select v293 c1_i32_248 c8_i32_246
  let v295 : BitVec 32 := Scalar.remsi v292 v294
  let c0_i32_250 : BitVec 32 := 0#32
  let v297 : BitVec 1 := Scalar.cmpi .slt v295 c0_i32_250
  let c0_i32_251 : BitVec 32 := 0#32
  let v298 : BitVec 1 := Scalar.cmpi .slt v294 c0_i32_251
  let v299 : BitVec 1 := Scalar.xori v297 v298
  let c0_i32_249 : BitVec 32 := 0#32
  let v296 : BitVec 1 := Scalar.cmpi .ne v295 c0_i32_249
  let v300 : BitVec 1 := Scalar.andi v299 v296
  let v301 : BitVec 32 := Scalar.addi v295 v294
  let v302 : BitVec 32 := Scalar.select v300 v301 v295
  let c1_i32_256 : BitVec 32 := 1#32
  let v303 : BitVec 32 := Scalar.muli v302 c1_i32_256
  let v304 : BitVec 32 := Scalar.addi c0_i32_257 v303
  v304.toNat
def k0_dev14 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_290 : BitVec 32 := 3#32
  let v347 : BitVec 32 := Scalar.addi v2 c3_i32_290
  let c8_i32_291 : BitVec 32 := 8#32
  let c0_i32_292 : BitVec 32 := 0#32
  let v348 : BitVec 1 := Scalar.cmpi .eq c8_i32_291 c0_i32_292
  let c1_i32_293 : BitVec 32 := 1#32
  let v349 : BitVec 32 := Scalar.select v348 c1_i32_293 c8_i32_291
  let v350 : BitVec 32 := Scalar.remsi v347 v349
  let c0_i32_295 : BitVec 32 := 0#32
  let v352 : BitVec 1 := Scalar.cmpi .slt v350 c0_i32_295
  let c0_i32_296 : BitVec 32 := 0#32
  let v353 : BitVec 1 := Scalar.cmpi .slt v349 c0_i32_296
  let v354 : BitVec 1 := Scalar.xori v352 v353
  let c0_i32_294 : BitVec 32 := 0#32
  let v351 : BitVec 1 := Scalar.cmpi .ne v350 c0_i32_294
  let v355 : BitVec 1 := Scalar.andi v354 v351
  let v356 : BitVec 32 := Scalar.addi v350 v349
  let v357 : BitVec 32 := Scalar.select v355 v356 v350
  let c1_i32_301 : BitVec 32 := 1#32
  let v358 : BitVec 32 := Scalar.muli v357 c1_i32_301
  let v359 : BitVec 32 := Scalar.addi c0_i32_302 v358
  v359.toNat
def k0_dev15 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_335 : BitVec 32 := 4#32
  let v402 : BitVec 32 := Scalar.addi v2 c4_i32_335
  let c8_i32_336 : BitVec 32 := 8#32
  let c0_i32_337 : BitVec 32 := 0#32
  let v403 : BitVec 1 := Scalar.cmpi .eq c8_i32_336 c0_i32_337
  let c1_i32_338 : BitVec 32 := 1#32
  let v404 : BitVec 32 := Scalar.select v403 c1_i32_338 c8_i32_336
  let v405 : BitVec 32 := Scalar.remsi v402 v404
  let c0_i32_340 : BitVec 32 := 0#32
  let v407 : BitVec 1 := Scalar.cmpi .slt v405 c0_i32_340
  let c0_i32_341 : BitVec 32 := 0#32
  let v408 : BitVec 1 := Scalar.cmpi .slt v404 c0_i32_341
  let v409 : BitVec 1 := Scalar.xori v407 v408
  let c0_i32_339 : BitVec 32 := 0#32
  let v406 : BitVec 1 := Scalar.cmpi .ne v405 c0_i32_339
  let v410 : BitVec 1 := Scalar.andi v409 v406
  let v411 : BitVec 32 := Scalar.addi v405 v404
  let v412 : BitVec 32 := Scalar.select v410 v411 v405
  let c1_i32_346 : BitVec 32 := 1#32
  let v413 : BitVec 32 := Scalar.muli v412 c1_i32_346
  let v414 : BitVec 32 := Scalar.addi c0_i32_347 v413
  v414.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_380 : BitVec 32 := 4#32
  let v457 : BitVec 32 := Scalar.addi v2 c4_i32_380
  let c8_i32_381 : BitVec 32 := 8#32
  let c0_i32_382 : BitVec 32 := 0#32
  let v458 : BitVec 1 := Scalar.cmpi .eq c8_i32_381 c0_i32_382
  let c1_i32_383 : BitVec 32 := 1#32
  let v459 : BitVec 32 := Scalar.select v458 c1_i32_383 c8_i32_381
  let v460 : BitVec 32 := Scalar.remsi v457 v459
  let c0_i32_385 : BitVec 32 := 0#32
  let v462 : BitVec 1 := Scalar.cmpi .slt v460 c0_i32_385
  let c0_i32_386 : BitVec 32 := 0#32
  let v463 : BitVec 1 := Scalar.cmpi .slt v459 c0_i32_386
  let v464 : BitVec 1 := Scalar.xori v462 v463
  let c0_i32_384 : BitVec 32 := 0#32
  let v461 : BitVec 1 := Scalar.cmpi .ne v460 c0_i32_384
  let v465 : BitVec 1 := Scalar.andi v464 v461
  let v466 : BitVec 32 := Scalar.addi v460 v459
  let v467 : BitVec 32 := Scalar.select v465 v466 v460
  let c1_i32_391 : BitVec 32 := 1#32
  let v468 : BitVec 32 := Scalar.muli v467 c1_i32_391
  let v469 : BitVec 32 := Scalar.addi c0_i32_392 v468
  v469.toNat
def k0_dev17 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_425 : BitVec 32 := 5#32
  let v512 : BitVec 32 := Scalar.addi v2 c5_i32_425
  let c8_i32_426 : BitVec 32 := 8#32
  let c0_i32_427 : BitVec 32 := 0#32
  let v513 : BitVec 1 := Scalar.cmpi .eq c8_i32_426 c0_i32_427
  let c1_i32_428 : BitVec 32 := 1#32
  let v514 : BitVec 32 := Scalar.select v513 c1_i32_428 c8_i32_426
  let v515 : BitVec 32 := Scalar.remsi v512 v514
  let c0_i32_430 : BitVec 32 := 0#32
  let v517 : BitVec 1 := Scalar.cmpi .slt v515 c0_i32_430
  let c0_i32_431 : BitVec 32 := 0#32
  let v518 : BitVec 1 := Scalar.cmpi .slt v514 c0_i32_431
  let v519 : BitVec 1 := Scalar.xori v517 v518
  let c0_i32_429 : BitVec 32 := 0#32
  let v516 : BitVec 1 := Scalar.cmpi .ne v515 c0_i32_429
  let v520 : BitVec 1 := Scalar.andi v519 v516
  let v521 : BitVec 32 := Scalar.addi v515 v514
  let v522 : BitVec 32 := Scalar.select v520 v521 v515
  let c1_i32_436 : BitVec 32 := 1#32
  let v523 : BitVec 32 := Scalar.muli v522 c1_i32_436
  let v524 : BitVec 32 := Scalar.addi c0_i32_437 v523
  v524.toNat
def k0_dev18 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_470 : BitVec 32 := 5#32
  let v567 : BitVec 32 := Scalar.addi v2 c5_i32_470
  let c8_i32_471 : BitVec 32 := 8#32
  let c0_i32_472 : BitVec 32 := 0#32
  let v568 : BitVec 1 := Scalar.cmpi .eq c8_i32_471 c0_i32_472
  let c1_i32_473 : BitVec 32 := 1#32
  let v569 : BitVec 32 := Scalar.select v568 c1_i32_473 c8_i32_471
  let v570 : BitVec 32 := Scalar.remsi v567 v569
  let c0_i32_475 : BitVec 32 := 0#32
  let v572 : BitVec 1 := Scalar.cmpi .slt v570 c0_i32_475
  let c0_i32_476 : BitVec 32 := 0#32
  let v573 : BitVec 1 := Scalar.cmpi .slt v569 c0_i32_476
  let v574 : BitVec 1 := Scalar.xori v572 v573
  let c0_i32_474 : BitVec 32 := 0#32
  let v571 : BitVec 1 := Scalar.cmpi .ne v570 c0_i32_474
  let v575 : BitVec 1 := Scalar.andi v574 v571
  let v576 : BitVec 32 := Scalar.addi v570 v569
  let v577 : BitVec 32 := Scalar.select v575 v576 v570
  let c1_i32_480 : BitVec 32 := 1#32
  let v578 : BitVec 32 := Scalar.muli v577 c1_i32_480
  let v579 : BitVec 32 := Scalar.addi c0_i32_481 v578
  v579.toNat
def k0_dev19 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_514 : BitVec 32 := 6#32
  let v622 : BitVec 32 := Scalar.addi v2 c6_i32_514
  let c8_i32_515 : BitVec 32 := 8#32
  let c0_i32_516 : BitVec 32 := 0#32
  let v623 : BitVec 1 := Scalar.cmpi .eq c8_i32_515 c0_i32_516
  let c1_i32_517 : BitVec 32 := 1#32
  let v624 : BitVec 32 := Scalar.select v623 c1_i32_517 c8_i32_515
  let v625 : BitVec 32 := Scalar.remsi v622 v624
  let c0_i32_519 : BitVec 32 := 0#32
  let v627 : BitVec 1 := Scalar.cmpi .slt v625 c0_i32_519
  let c0_i32_520 : BitVec 32 := 0#32
  let v628 : BitVec 1 := Scalar.cmpi .slt v624 c0_i32_520
  let v629 : BitVec 1 := Scalar.xori v627 v628
  let c0_i32_518 : BitVec 32 := 0#32
  let v626 : BitVec 1 := Scalar.cmpi .ne v625 c0_i32_518
  let v630 : BitVec 1 := Scalar.andi v629 v626
  let v631 : BitVec 32 := Scalar.addi v625 v624
  let v632 : BitVec 32 := Scalar.select v630 v631 v625
  let c1_i32_524 : BitVec 32 := 1#32
  let v633 : BitVec 32 := Scalar.muli v632 c1_i32_524
  let v634 : BitVec 32 := Scalar.addi c0_i32_525 v633
  v634.toNat
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_558 : BitVec 32 := 6#32
  let v677 : BitVec 32 := Scalar.addi v2 c6_i32_558
  let c8_i32_559 : BitVec 32 := 8#32
  let c0_i32_560 : BitVec 32 := 0#32
  let v678 : BitVec 1 := Scalar.cmpi .eq c8_i32_559 c0_i32_560
  let c1_i32_561 : BitVec 32 := 1#32
  let v679 : BitVec 32 := Scalar.select v678 c1_i32_561 c8_i32_559
  let v680 : BitVec 32 := Scalar.remsi v677 v679
  let c0_i32_563 : BitVec 32 := 0#32
  let v682 : BitVec 1 := Scalar.cmpi .slt v680 c0_i32_563
  let c0_i32_564 : BitVec 32 := 0#32
  let v683 : BitVec 1 := Scalar.cmpi .slt v679 c0_i32_564
  let v684 : BitVec 1 := Scalar.xori v682 v683
  let c0_i32_562 : BitVec 32 := 0#32
  let v681 : BitVec 1 := Scalar.cmpi .ne v680 c0_i32_562
  let v685 : BitVec 1 := Scalar.andi v684 v681
  let v686 : BitVec 32 := Scalar.addi v680 v679
  let v687 : BitVec 32 := Scalar.select v685 v686 v680
  let c1_i32_568 : BitVec 32 := 1#32
  let v688 : BitVec 32 := Scalar.muli v687 c1_i32_568
  let v689 : BitVec 32 := Scalar.addi c0_i32_569 v688
  v689.toNat
def k0_dev21 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_602 : BitVec 32 := 7#32
  let v732 : BitVec 32 := Scalar.addi v2 c7_i32_602
  let c8_i32_603 : BitVec 32 := 8#32
  let c0_i32_604 : BitVec 32 := 0#32
  let v733 : BitVec 1 := Scalar.cmpi .eq c8_i32_603 c0_i32_604
  let c1_i32_605 : BitVec 32 := 1#32
  let v734 : BitVec 32 := Scalar.select v733 c1_i32_605 c8_i32_603
  let v735 : BitVec 32 := Scalar.remsi v732 v734
  let c0_i32_607 : BitVec 32 := 0#32
  let v737 : BitVec 1 := Scalar.cmpi .slt v735 c0_i32_607
  let c0_i32_608 : BitVec 32 := 0#32
  let v738 : BitVec 1 := Scalar.cmpi .slt v734 c0_i32_608
  let v739 : BitVec 1 := Scalar.xori v737 v738
  let c0_i32_606 : BitVec 32 := 0#32
  let v736 : BitVec 1 := Scalar.cmpi .ne v735 c0_i32_606
  let v740 : BitVec 1 := Scalar.andi v739 v736
  let v741 : BitVec 32 := Scalar.addi v735 v734
  let v742 : BitVec 32 := Scalar.select v740 v741 v735
  let c1_i32_612 : BitVec 32 := 1#32
  let v743 : BitVec 32 := Scalar.muli v742 c1_i32_612
  let v744 : BitVec 32 := Scalar.addi c0_i32_613 v743
  v744.toNat
def k0_dev22 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_646 : BitVec 32 := 7#32
  let v787 : BitVec 32 := Scalar.addi v2 c7_i32_646
  let c8_i32_647 : BitVec 32 := 8#32
  let c0_i32_648 : BitVec 32 := 0#32
  let v788 : BitVec 1 := Scalar.cmpi .eq c8_i32_647 c0_i32_648
  let c1_i32_649 : BitVec 32 := 1#32
  let v789 : BitVec 32 := Scalar.select v788 c1_i32_649 c8_i32_647
  let v790 : BitVec 32 := Scalar.remsi v787 v789
  let c0_i32_651 : BitVec 32 := 0#32
  let v792 : BitVec 1 := Scalar.cmpi .slt v790 c0_i32_651
  let c0_i32_652 : BitVec 32 := 0#32
  let v793 : BitVec 1 := Scalar.cmpi .slt v789 c0_i32_652
  let v794 : BitVec 1 := Scalar.xori v792 v793
  let c0_i32_650 : BitVec 32 := 0#32
  let v791 : BitVec 1 := Scalar.cmpi .ne v790 c0_i32_650
  let v795 : BitVec 1 := Scalar.andi v794 v791
  let v796 : BitVec 32 := Scalar.addi v790 v789
  let v797 : BitVec 32 := Scalar.select v795 v796 v790
  let c1_i32_656 : BitVec 32 := 1#32
  let v798 : BitVec 32 := Scalar.muli v797 c1_i32_656
  let v799 : BitVec 32 := Scalar.addi c0_i32_657 v798
  v799.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_688 : BitVec 32 := 512#32
  let v838 : BitVec 32 := Scalar.muli v2 c512_i32_688
  let v839 : Index := Scalar.indexCast v838
  let c0_689 : Index := 0#32
  ![v839.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_702 : BitVec 32 := 512#32
  let v853 : BitVec 32 := Scalar.muli v2 c512_i32_702
  let v854 : Index := Scalar.indexCast v853
  let c512 : Index := 512#32
  ![v854.toNat, 512]
def k0_off4 (d0 : Dev nD) (c1_i32_712 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v862 : BitVec 32 := Scalar.subi v2 c1_i32_712
  let c8_i32_713 : BitVec 32 := 8#32
  let c0_i32_714 : BitVec 32 := 0#32
  let v863 : BitVec 1 := Scalar.cmpi .eq c8_i32_713 c0_i32_714
  let c1_i32_715 : BitVec 32 := 1#32
  let v864 : BitVec 32 := Scalar.select v863 c1_i32_715 c8_i32_713
  let v865 : BitVec 32 := Scalar.remsi v862 v864
  let c0_i32_717 : BitVec 32 := 0#32
  let v867 : BitVec 1 := Scalar.cmpi .slt v865 c0_i32_717
  let c0_i32_718 : BitVec 32 := 0#32
  let v868 : BitVec 1 := Scalar.cmpi .slt v864 c0_i32_718
  let v869 : BitVec 1 := Scalar.xori v867 v868
  let c0_i32_716 : BitVec 32 := 0#32
  let v866 : BitVec 1 := Scalar.cmpi .ne v865 c0_i32_716
  let v870 : BitVec 1 := Scalar.andi v869 v866
  let v871 : BitVec 32 := Scalar.addi v865 v864
  let v872 : BitVec 32 := Scalar.select v870 v871 v865
  let c512_i32_732 : BitVec 32 := 512#32
  let v884 : BitVec 32 := Scalar.muli v872 c512_i32_732
  let v885 : Index := Scalar.indexCast v884
  let c0_733 : Index := 0#32
  ![v885.toNat, 0]
def k0_off5 (d0 : Dev nD) (c1_i32_743 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v893 : BitVec 32 := Scalar.subi v2 c1_i32_743
  let c8_i32_744 : BitVec 32 := 8#32
  let c0_i32_745 : BitVec 32 := 0#32
  let v894 : BitVec 1 := Scalar.cmpi .eq c8_i32_744 c0_i32_745
  let c1_i32_746 : BitVec 32 := 1#32
  let v895 : BitVec 32 := Scalar.select v894 c1_i32_746 c8_i32_744
  let v896 : BitVec 32 := Scalar.remsi v893 v895
  let c0_i32_748 : BitVec 32 := 0#32
  let v898 : BitVec 1 := Scalar.cmpi .slt v896 c0_i32_748
  let c0_i32_749 : BitVec 32 := 0#32
  let v899 : BitVec 1 := Scalar.cmpi .slt v895 c0_i32_749
  let v900 : BitVec 1 := Scalar.xori v898 v899
  let c0_i32_747 : BitVec 32 := 0#32
  let v897 : BitVec 1 := Scalar.cmpi .ne v896 c0_i32_747
  let v901 : BitVec 1 := Scalar.andi v900 v897
  let v902 : BitVec 32 := Scalar.addi v896 v895
  let v903 : BitVec 32 := Scalar.select v901 v902 v896
  let c512_i32_763 : BitVec 32 := 512#32
  let v915 : BitVec 32 := Scalar.muli v903 c512_i32_763
  let v916 : Index := Scalar.indexCast v915
  let c512_764 : Index := 512#32
  ![v916.toNat, 512]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_8 : (8#32 : BitVec 32).msb = false
  inb_S2_S1_0 : ∀ a, (![0] : Fin 1 → Nat) a + S1.size a ≤ S2.size a
  squeezes_S1_S_ : S1.Squeezes S_
  inb_S2x4096x512_S1x4096x512_0_0_0 : ∀ a, (![0, 0, 0] : Fin 3 → Nat) a + S1x4096x512.size a ≤ S2x4096x512.size a
  squeezes_S1x4096x512_S4096x512 : S1x4096x512.Squeezes S4096x512
  inb_S2_S1_1 : ∀ a, (![1] : Fin 1 → Nat) a + S1.size a ≤ S2.size a
  inb_S2x4096x512_S1x4096x512_1_0_0 : ∀ a, (![1, 0, 0] : Fin 3 → Nat) a + S1x4096x512.size a ≤ S2x4096x512.size a
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  h_S1x4096x512 : 0 < S1x4096x512.numel
  shapeCasts_S1x4096x512_S4096x512 : S1x4096x512.ShapeCasts S4096x512
  bitsLt_bf16_f32 : FTy.bits .bf16 < FTy.bits .f32
  inb_S14x512x512_S1x512x512_0_0_0 : ∀ a, (![0, 0, 0] : Fin 3 → Nat) a + S1x512x512.size a ≤ S14x512x512.size a
  h_S1x512x512 : 0 < S1x512x512.numel
  shapeCasts_S1x512x512_S512x512 : S1x512x512.ShapeCasts S512x512
  shapeCasts_S512x512_S1x512x512 : S512x512.ShapeCasts S1x512x512
  packedbf16_S14x512x512_S1x512x512_0_0_0 : (Rect.unit (s := S14x512x512) ![0, 0, 0] S1x512x512.size inb_S14x512x512_S1x512x512_0_0_0).PackedRows (EltTy.packing .bf16)
  inb_S14_S1_0 : ∀ a, (![0] : Fin 1 → Nat) a + S1.size a ≤ S14.size a
  squeezes_S1x512x512_S512x512 : S1x512x512.Squeezes S512x512
  wordsbf16_S14x512x512_S1x512x512_0_0_0 : (Rect.unit (s := S14x512x512) ![0, 0, 0] S1x512x512.size inb_S14x512x512_S1x512x512_0_0_0).WholeWords (EltTy.packing .bf16)
  inb_S14x512x512_S1x512x512_1_0_0 : ∀ a, (![1, 0, 0] : Fin 3 → Nat) a + S1x512x512.size a ≤ S14x512x512.size a
  packedbf16_S14x512x512_S1x512x512_1_0_0 : (Rect.unit (s := S14x512x512) ![1, 0, 0] S1x512x512.size inb_S14x512x512_S1x512x512_1_0_0).PackedRows (EltTy.packing .bf16)
  inb_S14_S1_1 : ∀ a, (![1] : Fin 1 → Nat) a + S1.size a ≤ S14.size a
  wordsbf16_S14x512x512_S1x512x512_1_0_0 : (Rect.unit (s := S14x512x512) ![1, 0, 0] S1x512x512.size inb_S14x512x512_S1x512x512_1_0_0).WholeWords (EltTy.packing .bf16)
  inb_S14x512x512_S1x512x512_2_0_0 : ∀ a, (![2, 0, 0] : Fin 3 → Nat) a + S1x512x512.size a ≤ S14x512x512.size a
  packedbf16_S14x512x512_S1x512x512_2_0_0 : (Rect.unit (s := S14x512x512) ![2, 0, 0] S1x512x512.size inb_S14x512x512_S1x512x512_2_0_0).PackedRows (EltTy.packing .bf16)
  inb_S14_S1_2 : ∀ a, (![2] : Fin 1 → Nat) a + S1.size a ≤ S14.size a
  wordsbf16_S14x512x512_S1x512x512_2_0_0 : (Rect.unit (s := S14x512x512) ![2, 0, 0] S1x512x512.size inb_S14x512x512_S1x512x512_2_0_0).WholeWords (EltTy.packing .bf16)
  inb_S14x512x512_S1x512x512_3_0_0 : ∀ a, (![3, 0, 0] : Fin 3 → Nat) a + S1x512x512.size a ≤ S14x512x512.size a
  packedbf16_S14x512x512_S1x512x512_3_0_0 : (Rect.unit (s := S14x512x512) ![3, 0, 0] S1x512x512.size inb_S14x512x512_S1x512x512_3_0_0).PackedRows (EltTy.packing .bf16)
  inb_S14_S1_3 : ∀ a, (![3] : Fin 1 → Nat) a + S1.size a ≤ S14.size a
  wordsbf16_S14x512x512_S1x512x512_3_0_0 : (Rect.unit (s := S14x512x512) ![3, 0, 0] S1x512x512.size inb_S14x512x512_S1x512x512_3_0_0).WholeWords (EltTy.packing .bf16)
  inb_S14x512x512_S1x512x512_4_0_0 : ∀ a, (![4, 0, 0] : Fin 3 → Nat) a + S1x512x512.size a ≤ S14x512x512.size a
  packedbf16_S14x512x512_S1x512x512_4_0_0 : (Rect.unit (s := S14x512x512) ![4, 0, 0] S1x512x512.size inb_S14x512x512_S1x512x512_4_0_0).PackedRows (EltTy.packing .bf16)
  inb_S14_S1_4 : ∀ a, (![4] : Fin 1 → Nat) a + S1.size a ≤ S14.size a
  wordsbf16_S14x512x512_S1x512x512_4_0_0 : (Rect.unit (s := S14x512x512) ![4, 0, 0] S1x512x512.size inb_S14x512x512_S1x512x512_4_0_0).WholeWords (EltTy.packing .bf16)
  inb_S14x512x512_S1x512x512_5_0_0 : ∀ a, (![5, 0, 0] : Fin 3 → Nat) a + S1x512x512.size a ≤ S14x512x512.size a
  packedbf16_S14x512x512_S1x512x512_5_0_0 : (Rect.unit (s := S14x512x512) ![5, 0, 0] S1x512x512.size inb_S14x512x512_S1x512x512_5_0_0).PackedRows (EltTy.packing .bf16)
  inb_S14_S1_5 : ∀ a, (![5] : Fin 1 → Nat) a + S1.size a ≤ S14.size a
  wordsbf16_S14x512x512_S1x512x512_5_0_0 : (Rect.unit (s := S14x512x512) ![5, 0, 0] S1x512x512.size inb_S14x512x512_S1x512x512_5_0_0).WholeWords (EltTy.packing .bf16)
  inb_S14x512x512_S1x512x512_6_0_0 : ∀ a, (![6, 0, 0] : Fin 3 → Nat) a + S1x512x512.size a ≤ S14x512x512.size a
  packedbf16_S14x512x512_S1x512x512_6_0_0 : (Rect.unit (s := S14x512x512) ![6, 0, 0] S1x512x512.size inb_S14x512x512_S1x512x512_6_0_0).PackedRows (EltTy.packing .bf16)
  inb_S14_S1_6 : ∀ a, (![6] : Fin 1 → Nat) a + S1.size a ≤ S14.size a
  wordsbf16_S14x512x512_S1x512x512_6_0_0 : (Rect.unit (s := S14x512x512) ![6, 0, 0] S1x512x512.size inb_S14x512x512_S1x512x512_6_0_0).WholeWords (EltTy.packing .bf16)
  inb_S14x512x512_S1x512x512_7_0_0 : ∀ a, (![7, 0, 0] : Fin 3 → Nat) a + S1x512x512.size a ≤ S14x512x512.size a
  packedbf16_S14x512x512_S1x512x512_7_0_0 : (Rect.unit (s := S14x512x512) ![7, 0, 0] S1x512x512.size inb_S14x512x512_S1x512x512_7_0_0).PackedRows (EltTy.packing .bf16)
  inb_S14_S1_7 : ∀ a, (![7] : Fin 1 → Nat) a + S1.size a ≤ S14.size a
  wordsbf16_S14x512x512_S1x512x512_7_0_0 : (Rect.unit (s := S14x512x512) ![7, 0, 0] S1x512x512.size inb_S14x512x512_S1x512x512_7_0_0).WholeWords (EltTy.packing .bf16)
  inb_S14x512x512_S1x512x512_8_0_0 : ∀ a, (![8, 0, 0] : Fin 3 → Nat) a + S1x512x512.size a ≤ S14x512x512.size a
  packedbf16_S14x512x512_S1x512x512_8_0_0 : (Rect.unit (s := S14x512x512) ![8, 0, 0] S1x512x512.size inb_S14x512x512_S1x512x512_8_0_0).PackedRows (EltTy.packing .bf16)
  inb_S14_S1_8 : ∀ a, (![8] : Fin 1 → Nat) a + S1.size a ≤ S14.size a
  wordsbf16_S14x512x512_S1x512x512_8_0_0 : (Rect.unit (s := S14x512x512) ![8, 0, 0] S1x512x512.size inb_S14x512x512_S1x512x512_8_0_0).WholeWords (EltTy.packing .bf16)
  inb_S14x512x512_S1x512x512_9_0_0 : ∀ a, (![9, 0, 0] : Fin 3 → Nat) a + S1x512x512.size a ≤ S14x512x512.size a
  packedbf16_S14x512x512_S1x512x512_9_0_0 : (Rect.unit (s := S14x512x512) ![9, 0, 0] S1x512x512.size inb_S14x512x512_S1x512x512_9_0_0).PackedRows (EltTy.packing .bf16)
  inb_S14_S1_9 : ∀ a, (![9] : Fin 1 → Nat) a + S1.size a ≤ S14.size a
  wordsbf16_S14x512x512_S1x512x512_9_0_0 : (Rect.unit (s := S14x512x512) ![9, 0, 0] S1x512x512.size inb_S14x512x512_S1x512x512_9_0_0).WholeWords (EltTy.packing .bf16)
  inb_S14x512x512_S1x512x512_10_0_0 : ∀ a, (![10, 0, 0] : Fin 3 → Nat) a + S1x512x512.size a ≤ S14x512x512.size a
  packedbf16_S14x512x512_S1x512x512_10_0_0 : (Rect.unit (s := S14x512x512) ![10, 0, 0] S1x512x512.size inb_S14x512x512_S1x512x512_10_0_0).PackedRows (EltTy.packing .bf16)
  inb_S14_S1_10 : ∀ a, (![10] : Fin 1 → Nat) a + S1.size a ≤ S14.size a
  wordsbf16_S14x512x512_S1x512x512_10_0_0 : (Rect.unit (s := S14x512x512) ![10, 0, 0] S1x512x512.size inb_S14x512x512_S1x512x512_10_0_0).WholeWords (EltTy.packing .bf16)
  inb_S14x512x512_S1x512x512_11_0_0 : ∀ a, (![11, 0, 0] : Fin 3 → Nat) a + S1x512x512.size a ≤ S14x512x512.size a
  packedbf16_S14x512x512_S1x512x512_11_0_0 : (Rect.unit (s := S14x512x512) ![11, 0, 0] S1x512x512.size inb_S14x512x512_S1x512x512_11_0_0).PackedRows (EltTy.packing .bf16)
  inb_S14_S1_11 : ∀ a, (![11] : Fin 1 → Nat) a + S1.size a ≤ S14.size a
  wordsbf16_S14x512x512_S1x512x512_11_0_0 : (Rect.unit (s := S14x512x512) ![11, 0, 0] S1x512x512.size inb_S14x512x512_S1x512x512_11_0_0).WholeWords (EltTy.packing .bf16)
  inb_S14x512x512_S1x512x512_12_0_0 : ∀ a, (![12, 0, 0] : Fin 3 → Nat) a + S1x512x512.size a ≤ S14x512x512.size a
  packedbf16_S14x512x512_S1x512x512_12_0_0 : (Rect.unit (s := S14x512x512) ![12, 0, 0] S1x512x512.size inb_S14x512x512_S1x512x512_12_0_0).PackedRows (EltTy.packing .bf16)
  inb_S14_S1_12 : ∀ a, (![12] : Fin 1 → Nat) a + S1.size a ≤ S14.size a
  wordsbf16_S14x512x512_S1x512x512_12_0_0 : (Rect.unit (s := S14x512x512) ![12, 0, 0] S1x512x512.size inb_S14x512x512_S1x512x512_12_0_0).WholeWords (EltTy.packing .bf16)
  inb_S14x512x512_S1x512x512_13_0_0 : ∀ a, (![13, 0, 0] : Fin 3 → Nat) a + S1x512x512.size a ≤ S14x512x512.size a
  packedbf16_S14x512x512_S1x512x512_13_0_0 : (Rect.unit (s := S14x512x512) ![13, 0, 0] S1x512x512.size inb_S14x512x512_S1x512x512_13_0_0).PackedRows (EltTy.packing .bf16)
  inb_S14_S1_13 : ∀ a, (![13] : Fin 1 → Nat) a + S1.size a ≤ S14.size a
  wordsbf16_S14x512x512_S1x512x512_13_0_0 : (Rect.unit (s := S14x512x512) ![13, 0, 0] S1x512x512.size inb_S14x512x512_S1x512x512_13_0_0).WholeWords (EltTy.packing .bf16)
  h_S512x512 : 0 < S512x512.numel
  dot_S512x4096_S4096x512_S512x512_1_0_0_1_n_n_wf : DotDims.WF S512x4096 S4096x512 S512x512 [1] [0] [0] [1] [] []
  hcc0_scratch3 : 2 + S2.numel ≤ 32
  hcc0_scratch4 : 4 + S14.numel ≤ 32
  hcc0_scratch5 : 18 + S14.numel ≤ 32
  k0_dev1_lt : k0_dev1 < nD
  k0_dev2_lt : k0_dev2 < nD
  k0_dev3_lt : k0_dev3 < nD
  k0_dev4_lt : k0_dev4 < nD
  k0_dev5_lt : k0_dev5 < nD
  k0_dev6_lt : k0_dev6 < nD
  k0_dev7_lt : k0_dev7 < nD
  k0_dev8_lt : k0_dev8 < nD
  k0_off1_inb : ∀ d0 : Dev nD, ∀ (r₁ : Fin 8) (r₂ : Fin 2), ∀ a, (k0_off1 d0 (BitVec.ofNat 32 r₁.val) (BitVec.ofNat 32 (512 * r₂.val))) a + S4096x512.size a ≤ S4096x8192.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_off2_inb : ∀ d0 : Dev nD, ∀ a, (k0_off2 d0) a + S512x512.size a ≤ S4096x1024.size a
  k0_off3_inb : ∀ d0 : Dev nD, ∀ a, (k0_off3 d0) a + S512x512.size a ≤ S4096x1024.size a
  k0_off4_inb : ∀ d0 : Dev nD, ∀ (r : Fin 7), ∀ a, (k0_off4 d0 (BitVec.ofNat 32 (1 + r.val))) a + S512x512.size a ≤ S4096x1024.size a
  k0_off5_inb : ∀ d0 : Dev nD, ∀ (r : Fin 7), ∀ a, (k0_off5 d0 (BitVec.ofNat 32 (1 + r.val))) a + S512x512.size a ≤ S4096x1024.size a
  hstage0_0 : ∀ j, (stage0_0 j).IsWhole
  hstage0_1 : ∀ j, (stage0_1 j).IsWhole

variable [Facts₀]

abbrev cc0_scratch3 : DmaSems sig S2 := SemArray.consecutive 2 S2 hcc0_scratch3
abbrev cc0_scratch4 : DmaSems sig S14 := SemArray.consecutive 4 S14 hcc0_scratch4
abbrev cc0_scratch5 : DmaSems sig S14 := SemArray.consecutive 18 S14 hcc0_scratch5
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Spec.lean ====
/-
  What each device's result array holds when the kernel returns, entry by entry, as a function of every
  device's rows of `x` and copy of the weights.

  Device `c` ends with the 4096 × 1024 array whose rows [512·p, 512·p + 512) are device `p`'s 512 rows of `x`
  multiplied by the weights' columns [1024·c + 512·t, +512) (t = 0, 1 the half of the 1024 columns), then
  max(·, 0). The row block p = c is computed on the device itself and stays in f32; every other row block was
  computed on device `p`, rounded to bf16 for the wire and widened again on arrival.
-/
import proofs.«900797_g7700000000000798_dist_gemm_a2a_m4096_k4096_n8192_f32_relu_v7x_i8_1_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Columns [1024·j + 512·t, +512) of a weight array, as the 1 × 4096 × 512 slab one sub-step multiplies by. -/
def wslab (W : Vec F S4096x8192 .f32) (j : Fin 8) (t : Fin 2) : Vec F S1x4096x512 .f32 :=
  fun i => W (ix2 (n0 := 4096) (n1 := 8192) ⟨(i 1).val, (i 1).isLt⟩
    ⟨1024 * j.val + 512 * t.val + (i 2).val, by
      have hj := j.isLt; have ht := t.isLt; have hq : (i 2).val < 512 := (i 2).isLt; omega⟩)

/-- Device `c`'s result array: entry (512·p + r, 512·t + q) is relu of row r of device p's `x` against column
    1024·c + 512·t + q of device p's weights; through bf16 unless p = c. -/
def outAt (X : Dev nD → Vec F S512x4096 .f32) (W : Dev nD → Vec F S4096x8192 .f32) (c : Dev nD) : Vec F S4096x1024 .f32 :=
  fun i =>
    have h0 : (i 0).val < 4096 := (i 0).isLt
    have h1 : (i 1).val < 1024 := (i 1).isLt
    let p : Fin 8 := ⟨(i 0).val / 512, by omega⟩
    let r : Fin 512 := ⟨(i 0).val % 512, Nat.mod_lt _ (by decide)⟩
    let t : Fin 2 := ⟨(i 1).val / 512, by omega⟩
    let q : Fin 512 := ⟨(i 1).val % 512, Nat.mod_lt _ (by decide)⟩
    if p = c then k0_pay21 (X c) (wslab (W c) c t) (ix2 r q)
    else k0_pay1 (k0_pay2 (X p) (wslab (W p) c t)) (ix2 r q)

end Cert.KernelIdeal.Spec

end
-- ==== Proof.Proto.lean ====
/-
  The cross-device protocol of the fused matmul / all-to-all kernel on the mesh of eight devices, as data:
  which semaphore cells exist, who pays each, how much, and what each payment hands the cell's owner.

  Per device c:
  * ONE barrier cell (the runtime's barrier semaphore): every device d, c included, signals it one unit at
    kernel entry, and c waits for all eight. Device d's unit hands c the two receive slots of d that c will
    write into (none when d = c).
  * FOURTEEN send cells and FOURTEEN receive cells, slot v = 2 (s - 1) + t for the shift s = 1 … 7 and the
    column half t = 0, 1: c's transfer of slot v goes to device c + s (mod 8), credits c's send cell v when the
    source slot has been read and the target's receive cell v when the slot has been written. A send cell
    hands back the source slot; a receive cell hands its owner the slot holding what the sender computed.
  * TWO copy semaphores for the double-buffered fetch of weight columns: local, one transfer in flight on
    each at a time; they are no shared cells and have no duties here.
-/
import proofs.«900797_g7700000000000798_dist_gemm_a2a_m4096_k4096_n8192_f32_relu_v7x_i8_1_alg».proof.Proof.Spec
import proofs.«900797_g7700000000000798_dist_gemm_a2a_m4096_k4096_n8192_f32_relu_v7x_i8_1_alg».proof.Proof.Gen.KernelIdeal.Launch
import proofs.«900797_g7700000000000798_dist_gemm_a2a_m4096_k4096_n8192_f32_relu_v7x_i8_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties named by Fin 8), the local transfers' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-! ## The mesh: who sends to whom -/

/-- The device s places after c on the ring of eight. -/
def peer (c : Dev nD) (s : Fin 8) : Dev nD := ⟨(c.val + s.val) % 8, Nat.mod_lt _ (by decide)⟩
/-- The device s places before c. -/
def back (c : Dev nD) (s : Fin 8) : Dev nD := ⟨(c.val + (8 - s.val)) % 8, Nat.mod_lt _ (by decide)⟩

theorem back_peer (c : Dev nD) (s : Fin 8) : back (peer c s) s = c := by revert c s; decide
theorem peer_back (c : Dev nD) (s : Fin 8) : peer (back c s) s = c := by revert c s; decide
theorem peer_zero (c : Dev nD) : peer c 0 = c := by revert c; decide

/-- The shift of slot v: slots 0,1 travel one device on, 2,3 two, … 12,13 seven. -/
def shiftOf (v : Fin 14) : Fin 8 := ⟨v.val / 2 + 1, by have := v.isLt; omega⟩
/-- The column half of slot v. -/
def halfOf (v : Fin 14) : Fin 2 := ⟨v.val % 2, Nat.mod_lt _ (by decide)⟩

/-! ## Semaphores and cells -/

abbrev barS : Sem sig := (SemArray.scalar (sig.barrier 0 rfl) : Sems sig S_).sem
abbrev copySem (i : Fin 2) : DmaSem sig := ⟨2 + i.val, by show 2 + i.val < 32; have := i.isLt; omega⟩
abbrev sendSem (v : Fin 14) : DmaSem sig := ⟨4 + v.val, by show 4 + v.val < 32; have := v.isLt; omega⟩
abbrev recvSem (v : Fin 14) : DmaSem sig := ⟨18 + v.val, by show 18 + v.val < 32; have := v.isLt; omega⟩

abbrev barCell (c : Dev nD) : GSem nD τ sig := ((c : Thread nD τ), .reg barS)
abbrev sendCell (c : Dev nD) (v : Fin 14) : GSem nD τ sig := ((c : Thread nD τ), .dma (sendSem v))
abbrev recvCell (c : Dev nD) (v : Fin 14) : GSem nD τ sig := ((c : Thread nD τ), .dma (recvSem v))
abbrev copyCell (c : Dev nD) (i : Fin 2) : GSem nD τ sig := ((c : Thread nD τ), .dma (copySem i))

/-! ## The buffers and their slots -/

abbrev xM : Memref sig .tc .vmem S512x4096 .f32 := Memref.whole cc0_stg0_0
abbrev oM : Memref sig .tc .vmem S4096x1024 .f32 := Memref.whole cc0_stg1_0
abbrev wM : Memref sig .tc .hbm S4096x8192 .f32 := Memref.whole main_arg1
abbrev kM : Memref sig .tc .vmem S2x4096x512 .f32 := Memref.whole cc0_scratch0
abbrev sM : Memref sig .tc .vmem S14x512x512 .bf16 := Memref.whole cc0_scratch1
abbrev rM : Memref sig .tc .vmem S14x512x512 .bf16 := Memref.whole cc0_scratch2

theorem inb_slot (v : Fin 14) : ∀ a, (![v.val, 0, 0] : Fin 3 → Nat) a + S1x512x512.size a ≤ S14x512x512.size a := by
  intro a; have := v.isLt; fin_cases a <;> simp <;> omega

/-- Slot v of a 14 × 512 × 512 buffer, as the 512 × 512 memref the transfers name. -/
abbrev slotOf (M : Memref sig .tc .vmem S14x512x512 .bf16) (v : Fin 14) : Memref sig .tc .vmem S512x512 .bf16 :=
  (M.slice (Rect.unit (s := S14x512x512) ![v.val, 0, 0] S1x512x512.size (inb_slot v)) (fun _ => rfl)).squeeze S512x512 squeezes_S1x512x512_S512x512

abbrev sSlot (v : Fin 14) : Memref sig .tc .vmem S512x512 .bf16 := slotOf sM v
abbrev rSlot (v : Fin 14) : Memref sig .tc .vmem S512x512 .bf16 := slotOf rM v

abbrev N : ℕ := (rSlot 0).view.dmaCredit

theorem N_pos : 0 < N := View.dmaCredit_pos _ (by decide)

/-! ## Contents -/

/-- Device c's 512 rows of x, and its copy of the weights, as launched. -/
def xs (c : Dev nD) : Vec F S512x4096 .f32 := m ((c : Thread nD τ).loc main_arg0)
def ws (c : Dev nD) : Vec F S4096x8192 .f32 := m ((c : Thread nD τ).loc main_arg1)

/-- What device c computes for its send slot v: relu of its rows against the weight columns of the device the
    slot travels to, in bf16. -/
def sent (c : Dev nD) (v : Fin 14) : FVec F S1x512x512 .bf16 :=
  k0_pay2 (xs m c) (wslab (ws m c) (peer c (shiftOf v)) (halfOf v))

/-- A 1 × 512 × 512 block read at every slot index alike: the contents of a 14-slot buffer that agree with the
    block on whichever slot is looked at. -/
def slotBuf (g : FVec F S1x512x512 .bf16) : Vec F S14x512x512 .bf16 :=
  fun i => g (ValueIdx.ix3 (n0 := 1) (n1 := 512) (n2 := 512) 0 ⟨(i 1).val, (i 1).isLt⟩ ⟨(i 2).val, (i 2).isLt⟩)

/-- Slot v of buffer M on device c, held whole at contents f. -/
def slotPts (M : Memref sig .tc .vmem S14x512x512 .bf16) (c : Dev nD) (v : Fin 14)
    (f : Buf (Elt F) ((slotOf M v).view.loc (c : Thread nD τ))) : sProp 𝕄 :=
  (slotOf M v).view.loc (c : Thread nD τ) ↦[(slotOf M v).view.set]{fullShare} f

omit [FloatOps F] in
instance slotPts_storable (M : Memref sig .tc .vmem S14x512x512 .bf16) (c : Dev nD) (v : Fin 14) (f) :
    BI.Storable (upEmb : UEmb _ 𝕄) (slotPts (F := F) M c v f) := by unfold slotPts; infer_instance

/-! ## Payloads -/

/-- The two receive slots a device hands the device d places before it at the barrier, for the shift d ≥ 1. -/
def slotLo (d : Fin 8) : Fin 14 := ⟨2 * (d.val - 1), by have := d.isLt; omega⟩
def slotHi (d : Fin 8) : Fin 14 := ⟨2 * (d.val - 1) + 1, by have := d.isLt; omega⟩

/-- Duty d of device c's barrier cell, paid by the device d places after c: its two receive slots for c's
    transfers at shift d; nothing when d = 0 (c's own unit). -/
def barPay (c : Dev nD) (d : Fin 8) : sProp 𝕄 :=
  if d.val = 0 then iprop(emp)
  else iprop((∃ f, slotPts rM (peer c d) (slotLo d) f) ∗ (∃ f, slotPts rM (peer c d) (slotHi d) f))

/-- A receive cell hands its owner the slot holding what the device shiftOf v places before it computed. -/
def recvPay (c : Dev nD) (v : Fin 14) : sProp 𝕄 := slotPts rM c v (slotBuf (sent m (back c (shiftOf v)) v))
/-- A send cell hands back the source slot. -/
def sendPay (c : Dev nD) (v : Fin 14) : sProp 𝕄 := iprop(∃ f, slotPts sM c v f)

/-! ## The schedule: one round -/

def sched : Rounds.Schedule (GSem nD τ sig) (Fin 8) 𝕄 where
  duties g r := if r = 0 ∧ g.1.2 = .tc then
      (match g.2 with
        | .reg _ => Finset.univ
        | .dma q => if 4 ≤ q.val then {0} else ∅)
    else ∅
  amount g _ _ := match g.2 with
    | .reg _ => 1
    | .dma _ => N
  payload g _ d := match g.2 with
    | .reg _ => barPay g.1.1 d
    | .dma q =>
      if h : 18 ≤ q.val then recvPay m g.1.1 ⟨q.val - 18, by have : q.val < 32 := q.isLt; omega⟩
      else if h' : 4 ≤ q.val then sendPay g.1.1 ⟨q.val - 4, by have : q.val < 32 := q.isLt; omega⟩
      else iprop(emp)
  amount_pos g _ _ _ := by
    cases g.2 with
    | reg _ => exact Nat.one_pos
    | dma _ => exact N_pos

instance sched_payload_storable (g : GSem nD τ sig) (r : ℕ) (d : Fin 8) :
    BI.Storable (upEmb : UEmb _ 𝕄) ((sched (F := F) m).payload g r d) := by
  obtain ⟨th, sm⟩ := g
  cases sm with
  | reg s => show BI.Storable upEmb (barPay th.1 d); unfold barPay; split <;> infer_instance
  | dma q =>
    show BI.Storable upEmb (if h : 18 ≤ q.val then recvPay m th.1 _ else if h' : 4 ≤ q.val then sendPay th.1 _ else iprop(emp))
    unfold recvPay sendPay
    (repeat' split) <;> infer_instance

/-! ## The schedule's tables -/

section Tables
variable (c : Dev nD) (v : Fin 14)

theorem duties_bar : (sched (F := F) m).duties (barCell c) 0 = Finset.univ := by dsimp only [sched]; exact if_pos ⟨rfl, rfl⟩
theorem duties_send : (sched (F := F) m).duties (sendCell c v) 0 = {0} := by
  dsimp only [sched]; rw [if_pos ⟨rfl, rfl⟩]; exact if_pos (by show 4 ≤ 4 + v.val; omega)
theorem duties_recv : (sched (F := F) m).duties (recvCell c v) 0 = {0} := by
  dsimp only [sched]; rw [if_pos ⟨rfl, rfl⟩]; exact if_pos (by show 4 ≤ 18 + v.val; omega)
theorem duties_later (g : GSem nD τ sig) : ∀ r, 1 ≤ r → (sched (F := F) m).duties g r = ∅ :=
  fun r hr => by dsimp only [sched]; rw [if_neg fun h => by omega]

theorem amount_bar (d : Fin 8) : (sched (F := F) m).amount (barCell c) 0 d = 1 := rfl
theorem amount_send (d : Fin 8) : (sched (F := F) m).amount (sendCell c v) 0 d = N := rfl
theorem amount_recv (d : Fin 8) : (sched (F := F) m).amount (recvCell c v) 0 d = N := rfl

theorem expect_bar : (sched (F := F) m).expect (barCell c) 0 = 8 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c v) 0 = N := by
  unfold Schedule.expect Schedule.amountOf; rw [duties_send, Finset.sum_singleton, amount_send]
theorem expect_recv : (sched (F := F) m).expect (recvCell c v) 0 = N := by
  unfold Schedule.expect Schedule.amountOf; rw [duties_recv, Finset.sum_singleton, amount_recv]

theorem payload_bar (d : Fin 8) : (sched (F := F) m).payload (barCell c) 0 d = barPay c d := rfl
theorem payload_send (d : Fin 8) : (sched (F := F) m).payload (sendCell c v) 0 d = sendPay c v := by
  dsimp only [sched]
  rw [dif_neg (by show ¬ 18 ≤ 4 + v.val; have := v.isLt; omega), dif_pos (by show 4 ≤ 4 + v.val; omega)]
  exact congrArg (sendPay c) (Fin.ext (by show 4 + v.val - 4 = v.val; omega))
theorem payload_recv (d : Fin 8) : (sched (F := F) m).payload (recvCell c v) 0 d = recvPay m c v := by
  dsimp only [sched]
  rw [dif_pos (by show 18 ≤ 18 + v.val; omega)]
  exact congrArg (recvPay m c) (Fin.ext (by show 18 + v.val - 18 = v.val; omega))

/-- The rest of a send or receive cell's round, no duty taken: its one payload. -/
theorem rest_send : bigSep ((sched (F := F) m).duties (sendCell c v) 0 \ ∅) (fun d => (sched (F := F) m).payload (sendCell c v) 0 d) = sendPay c v := by
  rw [Finset.sdiff_empty, duties_send, bigSep_singleton, payload_send]
theorem rest_recv : bigSep ((sched (F := F) m).duties (recvCell c v) 0 \ ∅) (fun d => (sched (F := F) m).payload (recvCell c v) 0 d) = recvPay m c v := by
  rw [Finset.sdiff_empty, duties_recv, bigSep_singleton, payload_recv]
/-- The rest of the barrier cell's round: every device's gift. -/
theorem rest_bar : bigSep ((sched (F := F) m).duties (barCell c) 0 \ ∅) (fun d => (sched (F := F) m).payload (barCell c) 0 d) = bigSep Finset.univ (barPay (F := F) c) := by
  rw [Finset.sdiff_empty, duties_bar]; rfl

end Tables

/-! ## What each device owes at launch; the levels -/

/-- The duty of device k's barrier cell that device c pays: c is that many places after k. -/
def dutyTo (c k : Dev nD) : Fin 8 := ⟨(c.val + (8 - k.val)) % 8, Nat.mod_lt _ (by decide)⟩
theorem peer_dutyTo (c k : Dev nD) : peer k (dutyTo c k) = c := by revert c k; decide

/-- The receive credit of slot v's transfer, owed to the device it travels to; one barrier unit owed to device k. -/
abbrev rT (c : Dev nD) (v : Fin 14) : CellTallies nD τ sig Unit := tallyAt (recvCell (peer c (shiftOf v)) v) () N
abbrev bT (k : Dev nD) : CellTallies nD τ sig Unit := tallyAt (barCell k) () 1

/-- After the barrier a device owes its fourteen transfers' receive credits; summed so that slot 0's, sent first, is
    the last summand, slot 1's the one before it, and so on. -/
def OR (c : Dev nD) : CellTallies nD τ sig Unit :=
  0 + rT c 13 + rT c 12 + rT c 11 + rT c 10 + rT c 9 + rT c 8 + rT c 7 + rT c 6 + rT c 5 + rT c 4 + rT c 3 + rT c 2 + rT c 1 + rT c 0
/-- At launch also one unit to every device's barrier cell, device 0's signalled first. -/
def O₀ (c : Dev nD) : CellTallies nD τ sig Unit :=
  OR c + bT 7 + bT 6 + bT 5 + bT 4 + bT 3 + bT 2 + bT 1 + bT 0

def L (g : GSem nD τ sig) : Finset Unit := if g.1.2 = .tc then {()} else ∅
/-- Barrier cells at level 1, receive cells at 2, everything else (staging, copy, send cells) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The names the cells' invariants were allocated at: per device, 0 the barrier cell, 1 + v send cell v, 15 + v receive cell v. -/
abbrev bIx : Fin 29 := 0
abbrev sIx (v : Fin 14) : Fin 29 := ⟨1 + v.val, by have := v.isLt; omega⟩
abbrev rIx (v : Fin 14) : Fin 29 := ⟨15 + v.val, by have := v.isLt; omega⟩

/-- What device c holds of the protocol's ghost state: every barrier cell's invariant, that it stands at round 0 and
    the token of the duty c pays on it; per slot v, the invariants of its own send and receive cell and of the receive
    cell its transfer credits, its positions on its own two, that the three stand at round 0, and the tokens of its send
    duty and of the arrival it pays; its position on its own barrier cell. -/
def ghost (K : Dev nD × Fin 29 → ℕ) (c : Dev nD) : sProp 𝕄 :=
  iprop((bigSep Finset.univ fun k : Dev nD => iprop(cellInv ER (sched m) (K (k, bIx)) (barCell k) ∗ reached ER (barCell k) 0
          ∗ dutyTok ER (barCell k) 0 (dutyTo c k)))
    ∗ (bigSep Finset.univ fun v : Fin 14 => iprop(cellInv ER (sched m) (K (c, sIx v)) (sendCell c v) ∗ cellInv ER (sched m) (K (c, rIx v)) (recvCell c v)
          ∗ cellInv ER (sched m) (K (peer c (shiftOf v), rIx v)) (recvCell (peer c (shiftOf v)) v)
          ∗ atPos ER (sendCell c v) 0 ∅ 0 ∗ atPos ER (recvCell c v) 0 ∅ 0
          ∗ reached ER (sendCell c v) 0 ∗ reached ER (recvCell c v) 0 ∗ reached ER (recvCell (peer c (shiftOf v)) v) 0
          ∗ dutyTok ER (sendCell c v) 0 0 ∗ dutyTok ER (recvCell (peer c (shiftOf v)) v) 0 0))
    ∗ atPos ER (barCell c) 0 ∅ 0)

/-- The kernel's own (scoped) semaphores, as the launch indexes them: the two copy semaphores, the fourteen send, the fourteen receive. -/
abbrev osem : Fin 30 → SemLoc sig := fun i => .dma ⟨2 + i.val, by show 2 + i.val < 32; have := i.isLt; omega⟩

/-- What device c's body starts from besides the scoped buffers: the ghost state at some names, the credit tokens of
    its barrier cell (eight units) and of its fourteen receive cells, the level facts, the two copy semaphores at
    zero, and its copy of the weights. -/
def start (c : Dev nD) : sProp 𝕄 :=
  iprop((∃ K, ghost m K c) ∗ cred (tallyAt (barCell c) () 8) ∗ (bigSep Finset.univ fun v : Fin 14 => cred (tallyAt (recvCell c v) () N))
    ∗ levAts L lv ∗ semVal (copyCell c 0) 0 ∗ semVal (copyCell c 1) 0
    ∗ (((c : Thread nD τ).loc main_arg1) ↦{fullShare} ws m c))

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- After the body: the scratch buffers, all thirty own semaphores back at zero, the weights untouched. -/
def Φ₁ (c : Dev nD) : sProp 𝕄 :=
  iprop(scratch c ∗ Pipeline.ownSems0 (Ix := Unit) (Name := ℕ) (U := UU) (Lvl := ℕ) (Val := Elt F) (τ := τ) osem c
    ∗ (((c : Thread nD τ).loc main_arg1) ↦{fullShare} ws m c))

/-! ## The pipeline's proof data -/

/-- The staged block of x: the whole array (no grid). -/
def xstg (c : Dev nD) : (cc0_stg0_0 : Ref sig .tc).ty.Contents (Elt F) :=
  (win0_0.blk (0 : Fin 1)).view.read (Elt F) (m ((c : Thread nD τ).loc main_arg0))

/-- The result staging buffer after the body: the specification's array. -/
def outC (c : Dev nD) : (cc0_stg1_0 : Ref sig .tc).ty.Contents (Elt F) := outAt (xs m) (ws m) c

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.Levels.lean ====
/-
  A wait is allowed below everything the waiter still owes: the copy, send and staging cells (level 0) under any part
  of what a device owes at launch, the barrier cell (level 1) under any part of the receive credits (level 2).
-/
import proofs.«900797_g7700000000000798_dist_gemm_a2a_m4096_k4096_n8192_f32_relu_v7x_i8_1_alg».proof.Proof.Proto

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A tally that is positive at a cell of a sum with a single-cell tally is positive there already in the other
    summand, or the cell is the single one. -/
theorem pos_add_tallyAt {A : CellTallies nD τ sig Unit} {g' g : GSem nD τ sig} {k : ℕ} {u : Unit}
    (h : 0 < (A + tallyAt g' () k) g u) : 0 < A g u ∨ g = g' := by
  rw [Pi.add_apply, Finsupp.add_apply, tallyAt_apply] at h
  by_cases hg : g = g'
  · exact Or.inr hg
  · rw [if_neg (fun h' => hg h'.1), Nat.add_zero] at h; exact Or.inl h

/-- Every cell a device owes after the barrier is the receive cell of one of its fourteen transfers. -/
theorem OR_pos {c : Dev nD} {g : GSem nD τ sig} {u : Unit} (h : 0 < OR c g u) :
    ∃ v : Fin 14, g = recvCell (peer c (shiftOf v)) v := by
  unfold OR at h
  rcases pos_add_tallyAt h with h | rfl; swap; exact ⟨0, rfl⟩
  rcases pos_add_tallyAt h with h | rfl; swap; exact ⟨1, rfl⟩
  rcases pos_add_tallyAt h with h | rfl; swap; exact ⟨2, rfl⟩
  rcases pos_add_tallyAt h with h | rfl; swap; exact ⟨3, rfl⟩
  rcases pos_add_tallyAt h with h | rfl; swap; exact ⟨4, rfl⟩
  rcases pos_add_tallyAt h with h | rfl; swap; exact ⟨5, rfl⟩
  rcases pos_add_tallyAt h with h | rfl; swap; exact ⟨6, rfl⟩
  rcases pos_add_tallyAt h with h | rfl; swap; exact ⟨7, rfl⟩
  rcases pos_add_tallyAt h with h | rfl; swap; exact ⟨8, rfl⟩
  rcases pos_add_tallyAt h with h | rfl; swap; exact ⟨9, rfl⟩
  rcases pos_add_tallyAt h with h | rfl; swap; exact ⟨10, rfl⟩
  rcases pos_add_tallyAt h with h | rfl; swap; exact ⟨11, rfl⟩
  rcases pos_add_tallyAt h with h | rfl; swap; exact ⟨12, rfl⟩
  rcases pos_add_tallyAt h with h | rfl; swap; exact ⟨13, rfl⟩
  exact absurd h (Nat.lt_irrefl 0)

/-- Every cell a device owes at launch is such a receive cell or some device's barrier cell. -/
theorem O₀_pos {c : Dev nD} {g : GSem nD τ sig} {u : Unit} (h : 0 < O₀ c g u) :
    (∃ v : Fin 14, g = recvCell (peer c (shiftOf v)) v) ∨ ∃ k : Dev nD, g = barCell k := by
  unfold O₀ at h
  rcases pos_add_tallyAt h with h | rfl; swap; exact Or.inr ⟨0, rfl⟩
  rcases pos_add_tallyAt h with h | rfl; swap; exact Or.inr ⟨1, rfl⟩
  rcases pos_add_tallyAt h with h | rfl; swap; exact Or.inr ⟨2, rfl⟩
  rcases pos_add_tallyAt h with h | rfl; swap; exact Or.inr ⟨3, rfl⟩
  rcases pos_add_tallyAt h with h | rfl; swap; exact Or.inr ⟨4, rfl⟩
  rcases pos_add_tallyAt h with h | rfl; swap; exact Or.inr ⟨5, rfl⟩
  rcases pos_add_tallyAt h with h | rfl; swap; exact Or.inr ⟨6, rfl⟩
  rcases pos_add_tallyAt h with h | rfl; swap; exact Or.inr ⟨7, rfl⟩
  exact Or.inl (OR_pos h)

theorem lv_bar (k : Dev nD) (u : Unit) : lv (barCell k) u = 1 := rfl
theorem lv_recv (k : Dev nD) (v : Fin 14) (u : Unit) : lv (recvCell k v) u = 2 := by
  dsimp only [lv]; exact if_pos (by show 18 ≤ 18 + v.val; omega)
theorem lv_low (c : Dev nD) (q : DmaSem sig) (hq : q.val < 18) (u : Unit) : lv ((c : Thread nD τ), .dma q) u = 0 := by
  dsimp only [lv]; exact if_neg (by omega)

/-- The copy, send and staging semaphores under the whole launch debt. -/
theorem mayWait_low_O₀ (c : Dev nD) (q : DmaSem sig) (hq : q.val < 18) :
    (levAts L lv : sProp 𝕄) ⊢ MayWait (c : Thread nD τ) (.dma q) () (O₀ c) :=
  MayOwe.of_cut (L := L) (lev := lv) 0
    (fun p hp => by rw [Finset.mem_singleton.mp hp, L_tc]; exact Finset.mem_singleton_self _)
    (fun g u hg => by
      rcases O₀_pos hg with ⟨v, rfl⟩ | ⟨k, rfl⟩ <;> (rw [L_tc]; exact Finset.mem_singleton_self _))
    (fun p hp => by rw [Finset.mem_singleton.mp hp, lv_low c q hq])
    (fun g u hg => by
      rcases O₀_pos hg with ⟨v, rfl⟩ | ⟨k, rfl⟩
      · rw [lv_recv]; decide
      · rw [lv_bar]; decide)

/-- The barrier cell under the whole of the receive credits. -/
theorem mayWait_bar_OR (c : Dev nD) :
    (levAts L lv : sProp 𝕄) ⊢ MayWait (c : Thread nD τ) (.reg barS) () (OR c) :=
  MayOwe.of_cut (L := L) (lev := lv) 1
    (fun p hp => by rw [Finset.mem_singleton.mp hp, L_tc]; exact Finset.mem_singleton_self _)
    (fun g u hg => by obtain ⟨v, rfl⟩ := OR_pos hg; rw [L_tc]; exact Finset.mem_singleton_self _)
    (fun p hp => by rw [Finset.mem_singleton.mp hp]; exact le_of_eq (lv_bar c ()))
    (fun g u hg => by obtain ⟨v, rfl⟩ := OR_pos hg; rw [lv_recv]; decide)

/-- Waiting on a copy, send or staging semaphore (any DMA semaphore below the receive ones) while owing any part of the
    launch debt: barrier units (level 1) and receive credits (level 2) all lie above level 0. -/
theorem mayWait_low (c : Dev nD) (q : DmaSem sig) (hq : q.val < 18) (O : CellTallies nD τ sig Unit) (hO : O ≤ O₀ c) :
    (levAts L lv : sProp 𝕄) ⊢ MayWait (c : Thread nD τ) (.dma q) () O :=
  (mayWait_low_O₀ c q hq).trans (MayOwe.mono (Finset.Subset.refl _) hO)

/-- Waiting on the barrier cell while owing any part of the receive credits. -/
theorem mayWait_bar (c : Dev nD) (O : CellTallies nD τ sig Unit) (hO : O ≤ OR c) :
    (levAts L lv : sProp 𝕄) ⊢ MayWait (c : Thread nD τ) (.reg barS) () O :=
  (mayWait_bar_OR c).trans (MayOwe.mono (Finset.Subset.refl _) hO)

end Cert.KernelIdeal.A2A

end
-- ==== Proof.Launch.lean ====
/-
  The launch: every device's body proved, the whole mesh runs to the end with each result array at the specification's
  contents and both argument arrays unchanged.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells and duty tokens, indexed -/

/-- The semaphore of index k among a device's twenty-nine protocol cells: the barrier semaphore, then the
    fourteen send and the fourteen receive semaphores, which are the DMA semaphores 4 … 31 in order. -/
def csem (k : Fin 29) : SemLoc sig :=
  if k.val = 0 then .reg barS else .dma ⟨3 + k.val, by show 3 + k.val < 32; have := k.isLt; omega⟩

theorem csem_b : csem bIx = .reg barS := if_pos rfl
theorem csem_s (v : Fin 14) : csem (sIx v) = .dma (sendSem v) := by
  unfold csem; rw [if_neg (by show ¬ (1 + v.val = 0); omega)]
  exact congrArg SemLoc.dma (Fin.ext (by show 3 + (1 + v.val) = 4 + v.val; omega))
theorem csem_r (v : Fin 14) : csem (rIx v) = .dma (recvSem v) := by
  unfold csem; rw [if_neg (by show ¬ (15 + v.val = 0); omega)]
  exact congrArg SemLoc.dma (Fin.ext (by show 3 + (15 + v.val) = 18 + v.val; omega))

theorem csem_injective : Function.Injective csem := by
  intro k k' h
  unfold csem at h
  by_cases a : k.val = 0 <;> by_cases b : k'.val = 0
  · exact Fin.ext (a.trans b.symm)
  · rw [if_pos a, if_neg b] at h; cases h
  · rw [if_neg a, if_pos b] at h; cases h
  · rw [if_neg a, if_neg b] at h
    have e : 3 + k.val = 3 + k'.val := congrArg Fin.val (SemLoc.dma.inj h)
    exact Fin.ext (by omega)

def kcell (ck : Dev nD × Fin 29) : GSem nD τ sig := ((ck.1 : Thread nD τ), csem ck.2)

theorem kcell_b (c : Dev nD) : kcell (c, bIx) = barCell c := congrArg (Prod.mk _) csem_b
theorem kcell_s (c : Dev nD) (v : Fin 14) : kcell (c, sIx v) = sendCell c v := congrArg (Prod.mk _) (csem_s v)
theorem kcell_r (c : Dev nD) (v : Fin 14) : kcell (c, rIx v) = recvCell c v := congrArg (Prod.mk _) (csem_r v)

theorem kcell_injective : Function.Injective (kcell : Dev nD × Fin 29 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def ringCells : Finset (GSem nD τ sig) := Finset.univ.map ⟨kcell, kcell_injective⟩

/-- The index of a device's minted duty tokens: the eight duties of its barrier cell, the one duty of each send
    cell, the one duty of each receive cell. -/
abbrev TI : Type := Fin 8 ⊕ Fin 14 ⊕ Fin 14

def tokOf (cj : Dev nD × TI) : GSem nD τ sig × ℕ × Fin 8 := match cj.2 with
  | .inl d => (barCell cj.1, 0, d)
  | .inr (.inl v) => (sendCell cj.1 v, 0, 0)
  | .inr (.inr v) => (recvCell cj.1 v, 0, 0)

theorem tokOf_injective : Function.Injective (tokOf : Dev nD × TI → GSem nD τ sig × ℕ × Fin 8) := by
  rintro ⟨c, j⟩ ⟨c', j'⟩ h
  have h1 : c = c' := by
    have := congrArg (fun x : GSem nD τ sig × ℕ × Fin 8 => x.1.1.1) h
    rcases j with d | v | v <;> rcases j' with d' | v' | v' <;> exact this
  subst h1
  have hs := congrArg (fun x : GSem nD τ sig × ℕ × Fin 8 => x.1.2) h
  have hd := congrArg (fun x : GSem nD τ sig × ℕ × Fin 8 => x.2.2) h
  rcases j with d | v | v <;> rcases j' with d' | v' | v'
  · have e : d = d' := hd
    subst e; rfl
  · exact absurd hs (fun h' => by cases h')
  · exact absurd hs (fun h' => by cases h')
  · exact absurd hs (fun h' => by cases h')
  · have e : 4 + v.val = 4 + v'.val := congrArg Fin.val (SemLoc.dma.inj hs)
    have e' : v = v' := Fin.ext (by omega)
    subst e'; rfl
  · have e : 4 + v.val = 18 + v'.val := congrArg Fin.val (SemLoc.dma.inj hs)
    have := v.isLt; omega
  · exact absurd hs (fun h' => by cases h')
  · have e : 18 + v.val = 4 + v'.val := congrArg Fin.val (SemLoc.dma.inj hs)
    have := v'.isLt; omega
  · have e : 18 + v.val = 18 + v'.val := congrArg Fin.val (SemLoc.dma.inj hs)
    have e' : v = v' := Fin.ext (by omega)
    subst e'; rfl

def ringToks : Finset (GSem nD τ sig × ℕ × Fin 8) := Finset.univ.map ⟨tokOf, tokOf_injective⟩

/-- The launch element: the pipeline's cells and tokens, the protocol's, and nothing for the local transfers' counters. -/
def u₀ : UU :=
  (initOf (Pipeline.cells cfgs cellOf_inj) (Pipeline.launchToks cfgs cellOf_inj), (initOf ringCells ringToks, 1))

/-- The duty tokens of device c's own cells, as minted. -/
def toks (c : Dev nD) : sProp 𝕄 :=
  iprop((bigSep Finset.univ fun d : Fin 8 => dutyTok ER (barCell c) 0 d)
    ∗ (bigSep Finset.univ fun v : Fin 14 => dutyTok ER (sendCell c v) 0 0)
    ∗ (bigSep Finset.univ fun v : Fin 14 => dutyTok ER (recvCell c v) 0 0))

/-- What the launch element deals device c. -/
def G (c : Dev nD) : sProp 𝕄 :=
  iprop((bigSep Finset.univ fun k : Fin 29 => roundState ER (sched m) (kcell (c, k)) 0)
    ∗ (bigSep Finset.univ fun k : Fin 29 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Index types cut into their groups -/

/-- The twenty-nine cell indices: the barrier's, the fourteen send, the fourteen receive. -/
def e29 : (Unit ⊕ Fin 14 ⊕ Fin 14) ≃ Fin 29 where
  toFun := fun
    | .inl _ => bIx
    | .inr (.inl v) => sIx v
    | .inr (.inr v) => rIx v
  invFun k := if h : k.val = 0 then .inl () else if h' : k.val < 15 then .inr (.inl ⟨k.val - 1, by omega⟩)
    else .inr (.inr ⟨k.val - 15, by have := k.isLt; omega⟩)
  left_inv := by decide
  right_inv := by decide

/-- The thirty own semaphores: the two copy semaphores, the fourteen send, the fourteen receive. -/
def e30 : (Fin 2 ⊕ Fin 14 ⊕ Fin 14) ≃ Fin 30 where
  toFun := fun
    | .inl i => ⟨i.val, by have := i.isLt; omega⟩
    | .inr (.inl v) => ⟨2 + v.val, by have := v.isLt; omega⟩
    | .inr (.inr v) => ⟨16 + v.val, by have := v.isLt; omega⟩
  invFun k := if h : k.val < 2 then .inl ⟨k.val, h⟩ else if h' : k.val < 16 then .inr (.inl ⟨k.val - 2, by omega⟩)
    else .inr (.inr ⟨k.val - 16, by have := k.isLt; omega⟩)
  left_inv := by decide
  right_inv := by decide

theorem bigSep_fin29 {M : Type} [URA M] (Φ : Fin 29 → sProp M) :
    bigSep Finset.univ Φ = iprop(Φ bIx ∗ (bigSep Finset.univ fun v : Fin 14 => Φ (sIx v)) ∗ bigSep Finset.univ fun v : Fin 14 => Φ (rIx v)) := by
  rw [bigSep_univ_equiv e29 Φ, bigSep_univ_sum, bigSep_univ_sum, bigSep_univ_of_subsingleton ()]; rfl

/-- A device's twenty-nine cells, by kind. -/
theorem bigSep_cells {M : Type} [URA M] (c : Dev nD) (Φ : GSem nD τ sig → sProp M) :
    (bigSep Finset.univ fun k : Fin 29 => Φ (kcell (c, k)))
      = iprop(Φ (barCell c) ∗ (bigSep Finset.univ fun v : Fin 14 => Φ (sendCell c v)) ∗ bigSep Finset.univ fun v : Fin 14 => Φ (recvCell c v)) := by
  rw [bigSep_fin29 (fun k => Φ (kcell (c, k)))]
  simp only [kcell_b, kcell_s, kcell_r]

theorem osem_s (v : Fin 14) : osem (e30 (.inr (.inl v))) = .dma (sendSem v) :=
  congrArg SemLoc.dma (Fin.ext (by show 2 + (2 + v.val) = 4 + v.val; omega))
theorem osem_r (v : Fin 14) : osem (e30 (.inr (.inr v))) = .dma (recvSem v) :=
  congrArg SemLoc.dma (Fin.ext (by show 2 + (16 + v.val) = 18 + v.val; omega))

theorem ownSemFacts : Pipeline.OwnSemFacts cfg0.spec osem := by decide

/-- The kernel's own semaphores at zero: the two copy semaphores, the send cells, the receive cells. -/
theorem ownSems0_eq (c : Dev nD) : (Pipeline.ownSems0 (Ix := Unit) (Name := ℕ) (U := UU) (Lvl := ℕ) (Val := Elt F) (τ := τ) osem c : sProp 𝕄)
    = iprop((semVal (copyCell c 0) 0 ∗ semVal (copyCell c 1) 0) ∗ (bigSep Finset.univ fun v : Fin 14 => semVal (sendCell c v) 0)
        ∗ bigSep Finset.univ fun v : Fin 14 => semVal (recvCell c v) 0) := by
  unfold Pipeline.ownSems0
  rw [bigSep_univ_equiv e30 (fun i : Fin 30 => (semVal ((c.tc : Thread nD τ), osem i) 0 : sProp 𝕄)), bigSep_univ_sum, bigSep_univ_sum, bigSep_univ_two]
  simp only [osem_s, osem_r]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 29 => semVal (kcell (c, k)) 0) ∗ semVal (copyCell c 0) 0 ∗ semVal (copyCell c 1) 0) : sProp 𝕄) := by
  rw [ownSems0_eq, unscopedSems0_eq, bigSep_cells c (fun g => (semVal g 0 : sProp 𝕄))]
  iintro ⟨⟨⟨H0, H1⟩, HS, HV⟩, HB⟩
  isplitl [HB HS HV]
  · isplitl [HB]; · iexact HB
    isplitl [HS] <;> iassumption
  isplitl [H0] <;> iassumption

/-! ## The cells' invariants allocated, the tokens dealt -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c
          ∗ semVal (copyCell c 0) 0 ∗ semVal (copyCell c 1) 0) := by
  unfold G
  iintro ⟨Hos, Hus, Hst, Hat, Htok⟩
  ihave Hv := (sems0_eq (F := F) c) $$ [Hos Hus]
  · isplitl [Hos] <;> iassumption
  icases Hv with ⟨Hv, Hc0, Hc1⟩
  imod (show iprop((bigSep Finset.univ fun k : Fin 29 => semVal (kcell (c, k)) 0) ∗ bigSep Finset.univ fun k : Fin 29 => roundState ER (sched m) (kcell (c, k)) 0)
      ⊢ (|={Set.univ}=> bigSep Finset.univ fun k : Fin 29 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hc0] <;> iassumption

/-- Every cell's invariant, at the names K, and that every cell stands at round 0. -/
def records (K : Dev nD × Fin 29 → ℕ) : sProp 𝕄 :=
  iprop((bigSep Finset.univ fun ck : Dev nD × Fin 29 => cellInv ER (sched m) (K ck) (kcell ck))
    ∗ bigSep Finset.univ fun ck : Dev nD × Fin 29 => reached ER (kcell ck) 0)

instance records_persistent (K : Dev nD × Fin 29 → ℕ) : BI.Persistent (records m K) := by unfold records; infer_instance

theorem inv_at (K : Dev nD × Fin 29 → ℕ) (ck : Dev nD × Fin 29) : records m K ⊢ cellInv ER (sched m) (K ck) (kcell ck) := by
  unfold records; exact sep_elim_left.trans (bigSep_elim (Finset.mem_univ ck))
theorem reached_at (K : Dev nD × Fin 29 → ℕ) (ck : Dev nD × Fin 29) : records m K ⊢ reached ER (kcell ck) 0 := by
  unfold records; exact sep_elim_right.trans (bigSep_elim (Finset.mem_univ ck))

theorem inv_b (K : Dev nD × Fin 29 → ℕ) (k : Dev nD) : records m K ⊢ cellInv ER (sched m) (K (k, bIx)) (barCell k) := by
  have h := inv_at m K (k, bIx); rwa [kcell_b] at h
theorem inv_s (K : Dev nD × Fin 29 → ℕ) (k : Dev nD) (v : Fin 14) : records m K ⊢ cellInv ER (sched m) (K (k, sIx v)) (sendCell k v) := by
  have h := inv_at m K (k, sIx v); rwa [kcell_s] at h
theorem inv_r (K : Dev nD × Fin 29 → ℕ) (k : Dev nD) (v : Fin 14) : records m K ⊢ cellInv ER (sched m) (K (k, rIx v)) (recvCell k v) := by
  have h := inv_at m K (k, rIx v); rwa [kcell_r] at h
theorem reached_b (K : Dev nD × Fin 29 → ℕ) (k : Dev nD) : records m K ⊢ reached ER (barCell k) 0 := by
  have h := reached_at m K (k, bIx); rwa [kcell_b] at h
theorem reached_s (K : Dev nD × Fin 29 → ℕ) (k : Dev nD) (v : Fin 14) : records m K ⊢ reached ER (sendCell k v) 0 := by
  have h := reached_at m K (k, sIx v); rwa [kcell_s] at h
theorem reached_r (K : Dev nD × Fin 29 → ℕ) (k : Dev nD) (v : Fin 14) : records m K ⊢ reached ER (recvCell k v) 0 := by
  have h := reached_at m K (k, rIx v); rwa [kcell_r] at h

/-- The tokens of the duties device c pays: on every barrier cell the duty it is that many places after, its own
    send duties, the arrival on the receive cell each of its transfers credits. -/
def payToks (c : Dev nD) : sProp 𝕄 :=
  iprop((bigSep Finset.univ fun k : Dev nD => dutyTok ER (barCell k) 0 (dutyTo c k))
    ∗ (bigSep Finset.univ fun v : Fin 14 => dutyTok ER (sendCell c v) 0 0)
    ∗ (bigSep Finset.univ fun v : Fin 14 => dutyTok ER (recvCell (peer c (shiftOf v)) v) 0 0))

/-- What stays with device c: its positions on its own cells, the tokens of the duties it pays, its two copy semaphores. -/
def linear (c : Dev nD) : sProp 𝕄 :=
  iprop((bigSep Finset.univ fun k : Fin 29 => atPos ER (kcell (c, k)) 0 ∅ 0) ∗ payToks c ∗ semVal (copyCell c 0) 0 ∗ semVal (copyCell c 1) 0)

/-- What the global step makes of the launch element and the semaphores. -/
def G' (c : Dev nD) : sProp 𝕄 := iprop((∃ K, ghost m K c) ∗ semVal (copyCell c 0) 0 ∗ semVal (copyCell c 1) 0)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_bar (K : Dev nD × Fin 29 → ℕ) (c k : Dev nD) :
    iprop(records m K ∗ dutyTok ER (barCell k) 0 (dutyTo c k))
      ⊢ iprop(cellInv ER (sched m) (K (k, bIx)) (barCell k) ∗ reached ER (barCell k) 0 ∗ dutyTok ER (barCell k) 0 (dutyTo c k)) := by
  iintro ⟨#HR, Ht⟩
  isplitr; · iapply (inv_b m K k); iexact HR
  isplitr; · iapply (reached_b m K k); iexact HR
  iexact Ht

theorem ghost_slot (K : Dev nD × Fin 29 → ℕ) (c : Dev nD) (v : Fin 14) :
    iprop(records m K ∗ (atPos ER (sendCell c v) 0 ∅ 0 ∗ atPos ER (recvCell c v) 0 ∅ 0 ∗ dutyTok ER (sendCell c v) 0 0
        ∗ dutyTok ER (recvCell (peer c (shiftOf v)) v) 0 0))
      ⊢ iprop(cellInv ER (sched m) (K (c, sIx v)) (sendCell c v) ∗ cellInv ER (sched m) (K (c, rIx v)) (recvCell c v)
          ∗ cellInv ER (sched m) (K (peer c (shiftOf v), rIx v)) (recvCell (peer c (shiftOf v)) v)
          ∗ atPos ER (sendCell c v) 0 ∅ 0 ∗ atPos ER (recvCell c v) 0 ∅ 0
          ∗ reached ER (sendCell c v) 0 ∗ reached ER (recvCell c v) 0 ∗ reached ER (recvCell (peer c (shiftOf v)) v) 0
          ∗ dutyTok ER (sendCell c v) 0 0 ∗ dutyTok ER (recvCell (peer c (shiftOf v)) v) 0 0) := by
  iintro ⟨#HR, HaS, HaV, HtS, HtV⟩
  isplitr; · iapply (inv_s m K c v); iexact HR
  isplitr; · iapply (inv_r m K c v); iexact HR
  isplitr; · iapply (inv_r m K (peer c (shiftOf v)) v); iexact HR
  isplitl [HaS]; · iexact HaS
  isplitl [HaV]; · iexact HaV
  isplitr; · iapply (reached_s m K c v); iexact HR
  isplitr; · iapply (reached_r m K c v); iexact HR
  isplitr; · iapply (reached_r m K (peer c (shiftOf v)) v); iexact HR
  isplitl [HtS]; · iexact HtS
  iexact HtV

theorem ghost_intro (K : Dev nD × Fin 29 → ℕ) (c : Dev nD) : iprop(records m K ∗ linear c) ⊢ G' m c := by
  unfold linear payToks G'
  rw [bigSep_cells c (fun g => (atPos ER g 0 ∅ 0 : sProp 𝕄))]
  iintro ⟨#HR, ⟨HaB, HaS, HaV⟩, ⟨HtB, HtS, HtV⟩, Hc0, Hc1⟩
  isplitr [Hc0 Hc1]
  · iexists K
    unfold ghost
    isplitl [HtB]
    · iapply (bigSep_with_persistent (R := records m K) fun k _ => ghost_bar m K c k)
      isplitr; · iexact HR
      iexact HtB
    isplitr [HaB]
    · iapply (bigSep_with_persistent (R := records m K) fun v _ => ghost_slot m K c v)
      isplitr; · iexact HR
      rw [bigSep_sep', bigSep_sep', bigSep_sep']
      isplitl [HaS]; · iexact HaS
      isplitl [HaV]; · iexact HaV
      isplitl [HtS]; · iexact HtS
      iexact HtV
    iexact HaB
  isplitl [Hc0] <;> iassumption

/-! ## The tokens around the mesh -/

theorem dutyTo_peer (k : Dev nD) (d : Fin 8) : dutyTo (peer k d) k = d := by revert k d; decide

/-- For a barrier cell's owner k: the devices and the duties of the cell correspond, device c paying duty dutyTo c k. -/
def eDuty (k : Dev nD) : Dev nD ≃ Fin 8 := ⟨fun c => dutyTo c k, fun d => peer k d, fun c => peer_dutyTo c k, fun d => dutyTo_peer k d⟩
/-- Shifting by s places is a permutation of the devices. -/
def ePeer (s : Fin 8) : Dev nD ≃ Dev nD := ⟨fun c => peer c s, fun c => back c s, fun c => back_peer c s, fun c => peer_back c s⟩

/-- Every barrier cell's eight duty tokens, grouped by owner, are the same tokens grouped by payer. -/
theorem toks_bar : (bigSep Finset.univ fun c : Dev nD => bigSep Finset.univ fun d : Fin 8 => (dutyTok ER (barCell c) 0 d : sProp 𝕄))
    = bigSep Finset.univ fun c : Dev nD => bigSep Finset.univ fun k : Dev nD => dutyTok ER (barCell k) 0 (dutyTo c k) :=
  (bigSep_congr fun k _ => bigSep_univ_equiv (eDuty k) (fun d => (dutyTok ER (barCell k) 0 d : sProp 𝕄))).trans
    (bigSep_univ_comm (fun (k c : Dev nD) => (dutyTok ER (barCell k) 0 (dutyTo c k) : sProp 𝕄)))

/-- The receive cells' tokens, grouped by owner, are the same tokens grouped by the device whose transfer credits the cell. -/
theorem toks_recv : (bigSep Finset.univ fun c : Dev nD => bigSep Finset.univ fun v : Fin 14 => (dutyTok ER (recvCell c v) 0 0 : sProp 𝕄))
    = bigSep Finset.univ fun c : Dev nD => bigSep Finset.univ fun v : Fin 14 => dutyTok ER (recvCell (peer c (shiftOf v)) v) 0 0 :=
  (bigSep_univ_comm (fun (c : Dev nD) (v : Fin 14) => (dutyTok ER (recvCell c v) 0 0 : sProp 𝕄))).trans
    ((bigSep_congr fun v _ => bigSep_univ_equiv (ePeer (shiftOf v)) (fun c => (dutyTok ER (recvCell c v) 0 0 : sProp 𝕄))).trans
      (bigSep_univ_comm (fun (v : Fin 14) (c : Dev nD) => (dutyTok ER (recvCell (peer c (shiftOf v)) v) 0 0 : sProp 𝕄))))

theorem toks_around : (bigSep Finset.univ fun c : Dev nD => (toks c : sProp 𝕄)) ⊢ bigSep Finset.univ fun c : Dev nD => payToks c := by
  unfold toks payToks
  rw [bigSep_sep', bigSep_sep', bigSep_sep', bigSep_sep', toks_bar, toks_recv]
  all_goals exact .rfl

theorem regroup :
    (bigSep Finset.univ fun c : Dev nD => iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c
          ∗ semVal (copyCell c 0) 0 ∗ semVal (copyCell c 1) 0) : sProp 𝕄)
      ⊢ bigSep Finset.univ (G' m) := by
  rw [bigSep_sep', bigSep_sep', bigSep_sep', bigSep_sep', ← bigSep_univ_prod (fun ck : Dev nD × Fin 29 => iprop(∃ κ : ℕ, cellInv ER (sched m) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok, Hc0, Hc1⟩
  ihave HK := (BI.bigSep_exists_pi Finset.univ (fun (ck : Dev nD × Fin 29) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep', bigSep_sep']
    isplitl [Hat]; · iexact Hat
    isplitl [Htk]; · iexact Htk
    isplitl [Hc0] <;> iassumption

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {v v' : Fin 14} : Iff (recvCell a v = recvCell b v') (a = b ∧ v = v') := by
  constructor
  · intro h
    have h1 : a = b := congrArg (fun g : GSem nD τ sig => g.1.1) h
    have h2 : 18 + v.val = 18 + v'.val := congrArg Fin.val (SemLoc.dma.inj (congrArg Prod.snd h))
    exact ⟨h1, Fin.ext (by omega)⟩
  · rintro ⟨rfl, rfl⟩; rfl
theorem bar_ne_recv (a b : Dev nD) (v : Fin 14) : barCell a ≠ recvCell b v := fun h => by cases congrArg Prod.snd h
theorem recv_ne_bar (a b : Dev nD) (v : Fin 14) : recvCell b v ≠ barCell a := fun h => by cases congrArg Prod.snd h

theorem peer_eq_iff (c d : Dev nD) (s : Fin 8) : Iff (c = peer d s) (d = back c s) := by revert c d s; decide

/-- A sum with a single-cell tally, read at a cell. -/
theorem add_tallyAt_apply (A : CellTallies nD τ sig Unit) (g' g : GSem nD τ sig) (k : ℕ) :
    (A + tallyAt g' () k) g () = A g () + (if g = g' then k else 0) := by
  rw [Pi.add_apply, Finsupp.add_apply, tallyAt_apply]
  by_cases h : g = g'
  · rw [if_pos ⟨h, rfl⟩, if_pos h]
  · rw [if_neg (fun h' => h h'.1), if_neg h]

/-- No receive credit is owed to a barrier cell. -/
theorem OR_bar (d c : Dev nD) : OR d (barCell c) () = 0 := by
  have hz : ∀ (k : Dev nD) (v : Fin 14), (if barCell c = recvCell k v then N else 0) = 0 := fun k v => if_neg (bar_ne_recv c k v)
  unfold OR
  simp only [add_tallyAt_apply, hz]
  rfl

/-- Every device owes every barrier cell one unit. -/
theorem owed_bar (d c : Dev nD) : O₀ d (barCell c) () = 1 := by
  unfold O₀
  simp only [add_tallyAt_apply, OR_bar, bar_eq_iff]
  revert c; decide

/-- A receive cell is owed its slot's credit by the one device whose transfer lands there. -/
theorem owed_recv (d c : Dev nD) (v : Fin 14) : O₀ d (recvCell c v) () = if d = back c (shiftOf v) then N else 0 := by
  have hz : ∀ k : Dev nD, (if recvCell c v = barCell k then 1 else 0) = 0 := fun k => if_neg (recv_ne_bar k c v)
  unfold O₀ OR
  simp only [add_tallyAt_apply, hz, recv_eq_iff, ← peer_eq_iff c d (shiftOf v)]
  generalize N = n
  fin_cases v <;> simp <;> rfl

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ,
    Fintype.card_fin, smul_eq_mul]
  rfl

theorem launch_recv (c : Dev nD) (v : Fin 14) :
    tallyOn (recvCell c v) (launchCredit (Pipeline.owing O₀) 0 (recvCell c v)) = (tallyAt (recvCell c v) () N : CellTallies nD τ sig Unit) := by
  unfold tallyAt; refine congrArg _ (Finsupp.ext fun u => ?_); cases u
  rw [Pipeline.launchCredit_owing, Finsupp.single_eq_same, Finset.sum_congr rfl fun d _ => owed_recv d c v,
    Finset.sum_ite_eq' Finset.univ (back c (shiftOf v)) fun _ => N, if_pos (Finset.mem_univ _)]

/-- The receive semaphores among a device's semaphores. -/
def recvEmb : Fin 14 ↪ SemLoc sig :=
  ⟨fun v => .dma (recvSem v), fun v v' h => by
    have e : 18 + v.val = 18 + v'.val := congrArg Fin.val (SemLoc.dma.inj h)
    exact Fin.ext (by omega)⟩

/-- Of the launch's credit tokens a device takes those of its barrier cell (eight units) and of its fourteen receive cells. -/
theorem creds (c : Dev nD) :
    (Pipeline.launchCred O₀ c : sProp 𝕄) ⊢ iprop(cred (tallyAt (barCell c) () 8) ∗ bigSep Finset.univ fun v : Fin 14 => cred (tallyAt (recvCell c v) () N)) := by
  unfold Pipeline.launchCred
  rw [bigSep_univ_at _ (SemLoc.reg barS), launch_bar]
  refine sep_mono_right ?_
  refine (bigSep_subset (t := Finset.univ.map recvEmb) ?_).trans ?_
  · intro sm hsm
    obtain ⟨v, -, rfl⟩ := Finset.mem_map.mp hsm
    exact Finset.mem_erase.mpr ⟨fun h => (by cases h), Finset.mem_univ _⟩
  · rw [bigSep_map]
    exact Entails.of_eq (bigSep_congr fun v _ => congrArg cred (launch_recv c v))

/-! ## The launch theorem's side conditions -/

theorem share_eq (c : Dev nD) (w : Fin cfg0.W) : (dats m 0 c).share w = fullShare := by unfold Dat.share; split <;> rfl

/-- What the launch hands a device makes its starting resources: the weights' array among the unscoped buffers, the
    levels, the credit tokens of its barrier and receive cells, the ghost state and the two copy semaphores. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨H8, HN⟩
  unfold G'
  icases HG with ⟨HG, Hc0, Hc1⟩
  imodintro
  unfold start ws
  isplitl
  · isplitl [HG]; · iexact HG
    isplitl [H8]; · iexact H8
    isplitl [HN]; · iexact HN
    isplitl [Hlev]; · iexact Hlev
    isplitl [Hc0]; · iexact Hc0
    isplitl [Hc1]; · iexact Hc1
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N)
      ⊢ iprop((((c : Thread nD τ).loc main_arg1) ↦{fullShare} ws m c) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hos, Hw⟩
  isplitl [Hw]; · iexact Hw
  isplitl [Hos]; · iexact Hos
  iexact Hr

/-- The pipeline's two staging semaphores lie below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact le_refl _
      · exact zero_le)

/-! ## The arrays after the run -/

/-- The result array after the run: the one write-back, of what the body left in the result staging buffer. -/
theorem final_out (c : Dev nD) : (dats (F := F) m 0 c).arrAt (1 : Fin 2) cfg0.N = outC m c := by
  have ho : ((cfg0.win (1 : Fin 2)).blk t0_0).view.read (Elt F) ((dats (F := F) m 0 c).arrAt (1 : Fin 2) cfg0.N)
      = (dats (F := F) m 0 c).flushed (1 : Fin 2) t0_0 := by
    rw [show cfg0.N = (t0_0 : Fin cfg0.N).val + 1 from rfl, (dats (F := F) m 0 c).arrAt_succ (1 : Fin 2) t0_0, flush0_1 t0_0, if_pos rfl]
    exact View.read_write_univ _ _
  have hz : (fun a => (win0_1.index t0_0) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-- The array of x is never written. -/
theorem final_x (c : Dev nD) : (dats (F := F) m 0 c).arrAt (0 : Fin 2) cfg0.N = m ((c : Thread nD τ).loc main_arg0) :=
  (dats (F := F) m 0 c).arrAt_in (0 : Fin 2) rfl _

/-- What every final state satisfies. -/
def QC : PUnit × MemSt nD τ sig (Elt F) → Prop := fun r => ∀ c : Dev nD,
  r.2.mem ((c.tc : Thread nD τ).loc main_v1) = outC m c
  ∧ r.2.mem ((c.tc : Thread nD τ).loc main_arg0) = m ((c.tc : Thread nD τ).loc main_arg0)
  ∧ r.2.mem ((c.tc : Thread nD τ).loc main_arg1) = m ((c.tc : Thread nD τ).loc main_arg1)

theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring m) $$ HR with HG
      imodintro
      isplitl [HP] <;> iassumption)
    (hglob := glob m)
    (hA := fun _ _ => rfl) (hpf := fun _ k => k.elim0)
    (X := start m) (Y := fun c => iprop(((c : Thread nD τ).loc main_arg1) ↦{fullShare} ws m c)) (Z := fun _ => iprop(emp))
    (hX := start_intro m ρ) (hin := phi0_intro m) (hout := phi1_exit m)
    (QY := fun c s => s.mem ((c : Thread nD τ).loc main_arg1) = m ((c : Thread nD τ).loc main_arg1))
    (hY := fun c s' => by
      iintro ⟨HY, -, HSI⟩
      icombine HSI HY gives %hx
      imodintro
      isplitr; · ipureintro; exact Buf.eq_of_forall_mem_univ hx
      iexact HSI)
    (hQ := fun s h c => ⟨((h c).1 1).trans (final_out m c), ((h c).1 0).trans (final_x m c), (h c).2.2⟩)

end Cert.KernelIdeal.A2A

end
-- ==== Proof.Gift.lean ====
/-
  The receive buffer as fourteen slots, and the slots as barrier gifts: what a device hands each peer when it signals the
  peer's barrier cell, and what the eight units it waits for hand it.
-/
import proofs.«900797_g7700000000000798_dist_gemm_a2a_m4096_k4096_n8192_f32_relu_v7x_i8_1_alg».proof.Proof.Proto

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot v in the buffer's 14 × 512 × 512 index space: first coordinate v, the other two free. -/
abbrev slotRect (v : Fin 14) : Rect S14x512x512 := Rect.unit (s := S14x512x512) ![v.val, 0, 0] S1x512x512.size (inb_slot v)

/-- The buffer elements under slot v of M, as elements of M's own location. -/
def slotSet (M : Memref sig .tc .vmem S14x512x512 .bf16) (c : Dev nD) (v : Fin 14) : Finset (Idx (M.view.loc (c : Thread nD τ))) :=
  (slotOf M v).view.set

/-- They are the image of the slot's rectangle under the buffer's placement. -/
theorem slotSet_eq (M : Memref sig .tc .vmem S14x512x512 .bf16) (c : Dev nD) (v : Fin 14) :
    slotSet M c v = (slotRect v).set.map M.view.emb := by
  show ((M.view.slice (slotRect v)).reshape S512x512 _).set = _
  rw [View.set_reshape, View.set_slice]

/-- An index lies in slot v's rectangle exactly when its first coordinate is v. -/
theorem mem_slotRect (v : Fin 14) (i : S14x512x512.Idx) : i ∈ (slotRect v).set ↔ (i 0).val = v.val := by
  rw [Rect.mem_set_unit]
  have h1 : (i 1).val < 512 := (i 1).isLt
  have h2 : (i 2).val < 512 := (i 2).isLt
  constructor
  · intro h
    have h0 := h 0
    simp at h0
    omega
  · intro h a
    fin_cases a <;> simp <;> omega

/-- Different slots share no element. -/
theorem slotSet_disjoint (M : Memref sig .tc .vmem S14x512x512 .bf16) (c : Dev nD) {v v' : Fin 14} (h : v ≠ v') :
    Disjoint (slotSet M c v) (slotSet M c v') := by
  rw [slotSet_eq, slotSet_eq, Finset.disjoint_map]
  refine Finset.disjoint_left.mpr fun i hi hi' => h (Fin.ext ?_)
  rw [← (mem_slotRect v i).mp hi, ← (mem_slotRect v' i).mp hi']

/-- Every element under the buffer is under exactly the slot its first coordinate names. -/
theorem slotSet_cover (M : Memref sig .tc .vmem S14x512x512 .bf16) (c : Dev nD) :
    (M.view.set : Finset (Idx (M.view.loc (c : Thread nD τ)))) = Finset.univ.biUnion (slotSet M c) := by
  ext x
  constructor
  · intro hx
    obtain ⟨i, -, rfl⟩ := Finset.mem_map.mp hx
    have h0 : (i 0).val < 14 := (i 0).isLt
    refine Finset.mem_biUnion.mpr ⟨⟨(i 0).val, h0⟩, Finset.mem_univ _, ?_⟩
    rw [slotSet_eq]
    exact Finset.mem_map_of_mem _ ((mem_slotRect _ i).mpr rfl)
  · intro hx
    obtain ⟨v, -, hv⟩ := Finset.mem_biUnion.mp hx
    rw [slotSet_eq] at hv
    obtain ⟨i, -, rfl⟩ := Finset.mem_map.mp hv
    exact Finset.mem_map_of_mem _ (Finset.mem_univ i)

/-- A whole 14-slot buffer held at contents f is its fourteen slots, each held at f. -/
theorem slots_split (M : Memref sig .tc .vmem S14x512x512 .bf16) (hM : M.IsWhole) (c : Dev nD) (f : Buf (Elt F) (M.view.loc (c : Thread nD τ))) :
    (M.view.loc (c : Thread nD τ) ↦[M.view.set]{fullShare} f : sProp 𝕄) ⊣⊢ bigSep Finset.univ fun v : Fin 14 => slotPts M c v f := by
  rw [slotSet_cover M c, pointsTo_biUnion Finset.univ (slotSet M c) fun v _ v' _ h => slotSet_disjoint M c h]
  exact ⟨Entails.of_eq rfl, Entails.of_eq rfl⟩

/-- Fourteen slots held at whatever contents are the buffer whole at some contents. -/
theorem slots_join (M : Memref sig .tc .vmem S14x512x512 .bf16) (hM : M.IsWhole) (c : Dev nD) (fv : Fin 14 → Buf (Elt F) (M.view.loc (c : Thread nD τ))) :
    (bigSep Finset.univ fun v : Fin 14 => slotPts M c v (fv v) : sProp 𝕄) ⊢ iprop(∃ f, M.view.loc (c : Thread nD τ) ↦[M.view.set]{fullShare} f) := by
  refine (show _ ⊢ (iprop(∃ g, ⌜∀ t ∈ Finset.univ, ∀ i ∈ slotSet M c t, g i = fv t i⌝
      ∗ M.view.loc (c : Thread nD τ) ↦[Finset.univ.biUnion (slotSet M c)]{fullShare} g) : sProp 𝕄) from
    pointsTo_biUnion_join Finset.univ (slotSet M c) fv (fv 0) fun v _ v' _ h => slotSet_disjoint M c h).trans ?_
  rw [← slotSet_cover M c]
  iintro ⟨%g, %hg, H⟩
  iexists g
  iexact H

/-- The eight duties of one barrier cell against the fourteen slots: duty 0 hands nothing, duty d ≥ 1 the two slots
    2 (d - 1) and 2 (d - 1) + 1, whose shift is d; so a family over the slots, indexed also by the slot's shift, is the
    same family grouped by duty. -/
theorem gifts_eq (Ψ : Fin 8 → Fin 14 → sProp 𝕄) :
    (bigSep Finset.univ fun d : Fin 8 => if d.val = 0 then (BI.emp : sProp 𝕄) else BI.sep (Ψ d (slotLo d)) (Ψ d (slotHi d)))
      = bigSep Finset.univ fun v : Fin 14 => Ψ (shiftOf v) v := by
  rw [bigSep_univ_eq_bigSepL [0, 1, 2, 3, 4, 5, 6, 7] (by decide) (by decide),
    bigSep_univ_eq_bigSepL [0, 1, 2, 3, 4, 5, 6, 7, 8, 9, 10, 11, 12, 13] (by decide) (by decide)]
  show BI.sep (BI.emp : sProp 𝕄) (BI.sep (BI.sep (Ψ 1 0) (Ψ 1 1)) (BI.sep (BI.sep (Ψ 2 2) (Ψ 2 3)) (BI.sep (BI.sep (Ψ 3 4) (Ψ 3 5))
      (BI.sep (BI.sep (Ψ 4 6) (Ψ 4 7)) (BI.sep (BI.sep (Ψ 5 8) (Ψ 5 9)) (BI.sep (BI.sep (Ψ 6 10) (Ψ 6 11)) (BI.sep (Ψ 7 12) (Ψ 7 13))))))))
    = BI.sep (Ψ 1 0) (BI.sep (Ψ 1 1) (BI.sep (Ψ 2 2) (BI.sep (Ψ 2 3) (BI.sep (Ψ 3 4) (BI.sep (Ψ 3 5) (BI.sep (Ψ 4 6) (BI.sep (Ψ 4 7)
      (BI.sep (Ψ 5 8) (BI.sep (Ψ 5 9) (BI.sep (Ψ 6 10) (BI.sep (Ψ 6 11) (BI.sep (Ψ 7 12) (Ψ 7 13)))))))))))))
  rw [equiv_iff.mp emp_sep]
  ac_rfl

/-- The device d places before c, as a renaming of the eight devices by the duty c pays on each one's barrier cell. -/
def dutyEquiv (c : Dev nD) : Fin 8 ≃ Dev nD where
  toFun d := back c d
  invFun k := dutyTo c k
  left_inv d := by revert c d; decide
  right_inv k := by revert c k; decide

/-- A device's fourteen receive slots, regrouped by the device each pair goes to: device k gets the duty-(dutyTo c k)
    payload of ITS barrier cell. -/
theorem own_gifts (c : Dev nD) :
    (bigSep Finset.univ fun v : Fin 14 => iprop(∃ f, slotPts (F := F) rM c v f) : sProp 𝕄)
      ⊢ bigSep Finset.univ fun k : Dev nD => barPay (F := F) k (dutyTo c k) := by
  have e : ∀ d : Fin 8, barPay (F := F) (dutyEquiv c d) (dutyTo c (dutyEquiv c d))
      = if d.val = 0 then (BI.emp : sProp 𝕄)
        else BI.sep (iprop(∃ f, slotPts (F := F) rM c (slotLo d) f)) (iprop(∃ f, slotPts (F := F) rM c (slotHi d) f)) := by
    intro d
    rw [show dutyTo c (dutyEquiv c d) = d from (dutyEquiv c).left_inv d]
    show barPay (F := F) (back c d) d = _
    unfold barPay
    rw [peer_back]
    rfl
  refine Entails.of_eq ?_
  rw [bigSep_univ_equiv (dutyEquiv c) (fun k : Dev nD => barPay (F := F) k (dutyTo c k)),
    bigSep_congr (s := Finset.univ) fun d _ => e d,
    gifts_eq (fun _ v => iprop(∃ f, slotPts (F := F) rM c v f))]

/-- The eight payloads of a device's barrier cell are, slot by slot, the receive slot v of the device shiftOf v places on. -/
theorem got_gifts (c : Dev nD) :
    (bigSep Finset.univ (barPay (F := F) c) : sProp 𝕄)
      ⊢ bigSep Finset.univ fun v : Fin 14 => iprop(∃ f, slotPts (F := F) rM (peer c (shiftOf v)) v f) := by
  exact Entails.of_eq (gifts_eq (fun d v => iprop(∃ f, slotPts (F := F) rM (peer c d) v f)))

end Cert.KernelIdeal.A2A

end
-- ==== Proof.Facts.lean ====
/-
  Pure facts about one device's body: the closed forms of the printed device and offset chains over the mesh of
  eight, and what the slot, slab and result views read and write.
-/
import proofs.«900797_g7700000000000798_dist_gemm_a2a_m4096_k4096_n8192_f32_relu_v7x_i8_1_alg».proof.Proof.Proto
import Idealize.ShloMosaic.Lib.Pipeline.Value

set_option Elab.async false

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device chains in closed form

  The barrier's eight signals address the devices 0 … 7 in turn; the transfer of slot v addresses the device
  v / 2 + 1 places on (the chain computes (c + s) mod 8 in words). -/

@[sl_canon] theorem dev1_eq : (⟨k0_dev1, k0_dev1_lt⟩ : Dev nD) = 0 := Fin.ext k0_dev1_eq
@[sl_canon] theorem dev2_eq : (⟨k0_dev2, k0_dev2_lt⟩ : Dev nD) = 1 := Fin.ext k0_dev2_eq
@[sl_canon] theorem dev3_eq : (⟨k0_dev3, k0_dev3_lt⟩ : Dev nD) = 2 := Fin.ext k0_dev3_eq
@[sl_canon] theorem dev4_eq : (⟨k0_dev4, k0_dev4_lt⟩ : Dev nD) = 3 := Fin.ext k0_dev4_eq
@[sl_canon] theorem dev5_eq : (⟨k0_dev5, k0_dev5_lt⟩ : Dev nD) = 4 := Fin.ext k0_dev5_eq
@[sl_canon] theorem dev6_eq : (⟨k0_dev6, k0_dev6_lt⟩ : Dev nD) = 5 := Fin.ext k0_dev6_eq
@[sl_canon] theorem dev7_eq : (⟨k0_dev7, k0_dev7_lt⟩ : Dev nD) = 6 := Fin.ext k0_dev7_eq
@[sl_canon] theorem dev8_eq : (⟨k0_dev8, k0_dev8_lt⟩ : Dev nD) = 7 := Fin.ext k0_dev8_eq

@[sl_canon] theorem dev9_eq (c : Dev nD) : (⟨k0_dev9 c, k0_dev9_lt c⟩ : Dev nD) = peer c 1 := by revert c; decide +kernel
@[sl_canon] theorem dev10_eq (c : Dev nD) : (⟨k0_dev10 c, k0_dev10_lt c⟩ : Dev nD) = peer c 1 := by revert c; decide +kernel
@[sl_canon] theorem dev11_eq (c : Dev nD) : (⟨k0_dev11 c, k0_dev11_lt c⟩ : Dev nD) = peer c 2 := by revert c; decide +kernel
@[sl_canon] theorem dev12_eq (c : Dev nD) : (⟨k0_dev12 c, k0_dev12_lt c⟩ : Dev nD) = peer c 2 := by revert c; decide +kernel
@[sl_canon] theorem dev13_eq (c : Dev nD) : (⟨k0_dev13 c, k0_dev13_lt c⟩ : Dev nD) = peer c 3 := by revert c; decide +kernel
@[sl_canon] theorem dev14_eq (c : Dev nD) : (⟨k0_dev14 c, k0_dev14_lt c⟩ : Dev nD) = peer c 3 := by revert c; decide +kernel
@[sl_canon] theorem dev15_eq (c : Dev nD) : (⟨k0_dev15 c, k0_dev15_lt c⟩ : Dev nD) = peer c 4 := by revert c; decide +kernel
@[sl_canon] theorem dev16_eq (c : Dev nD) : (⟨k0_dev16 c, k0_dev16_lt c⟩ : Dev nD) = peer c 4 := by revert c; decide +kernel
@[sl_canon] theorem dev17_eq (c : Dev nD) : (⟨k0_dev17 c, k0_dev17_lt c⟩ : Dev nD) = peer c 5 := by revert c; decide +kernel
@[sl_canon] theorem dev18_eq (c : Dev nD) : (⟨k0_dev18 c, k0_dev18_lt c⟩ : Dev nD) = peer c 5 := by revert c; decide +kernel
@[sl_canon] theorem dev19_eq (c : Dev nD) : (⟨k0_dev19 c, k0_dev19_lt c⟩ : Dev nD) = peer c 6 := by revert c; decide +kernel
@[sl_canon] theorem dev20_eq (c : Dev nD) : (⟨k0_dev20 c, k0_dev20_lt c⟩ : Dev nD) = peer c 6 := by revert c; decide +kernel
@[sl_canon] theorem dev21_eq (c : Dev nD) : (⟨k0_dev21 c, k0_dev21_lt c⟩ : Dev nD) = peer c 7 := by revert c; decide +kernel
@[sl_canon] theorem dev22_eq (c : Dev nD) : (⟨k0_dev22 c, k0_dev22_lt c⟩ : Dev nD) = peer c 7 := by revert c; decide +kernel

/-- The transfer of slot v addresses the device shiftOf v places on. -/
theorem shiftOf_lit : shiftOf 0 = 1 ∧ shiftOf 1 = 1 ∧ shiftOf 2 = 2 ∧ shiftOf 3 = 2 ∧ shiftOf 4 = 3 ∧ shiftOf 5 = 3 ∧ shiftOf 6 = 4
    ∧ shiftOf 7 = 4 ∧ shiftOf 8 = 5 ∧ shiftOf 9 = 5 ∧ shiftOf 10 = 6 ∧ shiftOf 11 = 6 ∧ shiftOf 12 = 7 ∧ shiftOf 13 = 7 := by decide

/-! ## The offset chains in closed form -/

/-- The weight columns a fetch reads: those of the device s places on, half t. -/
theorem off1_eq (c : Dev nD) (s : Fin 8) (t : Fin 2) :
    k0_off1 c (BitVec.ofNat 32 s.val) (BitVec.ofNat 32 (512 * t.val)) = ![0, 1024 * (peer c s).val + 512 * t.val] := by
  revert c s t; decide +kernel

/-- The rows a received block is stored at: those of the device s places back. -/
theorem off4_eq (c : Dev nD) (s : Fin 8) : k0_off4 c (BitVec.ofNat 32 s.val) = ![512 * (back c s).val, 0] := by
  revert c s; decide +kernel
theorem off5_eq (c : Dev nD) (s : Fin 8) : k0_off5 c (BitVec.ofNat 32 s.val) = ![512 * (back c s).val, 512] := by
  revert c s; decide +kernel

/-- The shifts and halves as the printed words spell them. -/
theorem back_val (c : Dev nD) (s : Fin 8) : (back c s).val = (c.val + (8 - s.val)) % 8 := rfl
theorem peer_val (c : Dev nD) (s : Fin 8) : (peer c s).val = (c.val + s.val) % 8 := rfl

theorem off1_0_0 (c : Dev nD) : k0_off1 c 0#32 0#32 = ![0, 1024 * (peer c 0).val] := off1_eq c 0 0
theorem off1_0_1 (c : Dev nD) : k0_off1 c 0#32 512#32 = ![0, 1024 * (peer c 0).val + 512] := off1_eq c 0 1
theorem off1_1_0 (c : Dev nD) : k0_off1 c 1#32 0#32 = ![0, 1024 * (peer c 1).val] := off1_eq c 1 0
theorem off1_1_1 (c : Dev nD) : k0_off1 c 1#32 512#32 = ![0, 1024 * (peer c 1).val + 512] := off1_eq c 1 1
theorem off1_2_0 (c : Dev nD) : k0_off1 c 2#32 0#32 = ![0, 1024 * (peer c 2).val] := off1_eq c 2 0
theorem off1_2_1 (c : Dev nD) : k0_off1 c 2#32 512#32 = ![0, 1024 * (peer c 2).val + 512] := off1_eq c 2 1
theorem off1_3_0 (c : Dev nD) : k0_off1 c 3#32 0#32 = ![0, 1024 * (peer c 3).val] := off1_eq c 3 0
theorem off1_3_1 (c : Dev nD) : k0_off1 c 3#32 512#32 = ![0, 1024 * (peer c 3).val + 512] := off1_eq c 3 1
theorem off1_4_0 (c : Dev nD) : k0_off1 c 4#32 0#32 = ![0, 1024 * (peer c 4).val] := off1_eq c 4 0
theorem off1_4_1 (c : Dev nD) : k0_off1 c 4#32 512#32 = ![0, 1024 * (peer c 4).val + 512] := off1_eq c 4 1
theorem off1_5_0 (c : Dev nD) : k0_off1 c 5#32 0#32 = ![0, 1024 * (peer c 5).val] := off1_eq c 5 0
theorem off1_5_1 (c : Dev nD) : k0_off1 c 5#32 512#32 = ![0, 1024 * (peer c 5).val + 512] := off1_eq c 5 1
theorem off1_6_0 (c : Dev nD) : k0_off1 c 6#32 0#32 = ![0, 1024 * (peer c 6).val] := off1_eq c 6 0
theorem off1_6_1 (c : Dev nD) : k0_off1 c 6#32 512#32 = ![0, 1024 * (peer c 6).val + 512] := off1_eq c 6 1
theorem off1_7_0 (c : Dev nD) : k0_off1 c 7#32 0#32 = ![0, 1024 * (peer c 7).val] := off1_eq c 7 0
theorem off1_7_1 (c : Dev nD) : k0_off1 c 7#32 512#32 = ![0, 1024 * (peer c 7).val + 512] := off1_eq c 7 1

theorem off4_1 (c : Dev nD) : k0_off4 c 1#32 = ![512 * (back c 1).val, 0] := off4_eq c 1
theorem off5_1 (c : Dev nD) : k0_off5 c 1#32 = ![512 * (back c 1).val, 512] := off5_eq c 1
theorem off4_2 (c : Dev nD) : k0_off4 c 2#32 = ![512 * (back c 2).val, 0] := off4_eq c 2
theorem off5_2 (c : Dev nD) : k0_off5 c 2#32 = ![512 * (back c 2).val, 512] := off5_eq c 2
theorem off4_3 (c : Dev nD) : k0_off4 c 3#32 = ![512 * (back c 3).val, 0] := off4_eq c 3
theorem off5_3 (c : Dev nD) : k0_off5 c 3#32 = ![512 * (back c 3).val, 512] := off5_eq c 3
theorem off4_4 (c : Dev nD) : k0_off4 c 4#32 = ![512 * (back c 4).val, 0] := off4_eq c 4
theorem off5_4 (c : Dev nD) : k0_off5 c 4#32 = ![512 * (back c 4).val, 512] := off5_eq c 4
theorem off4_5 (c : Dev nD) : k0_off4 c 5#32 = ![512 * (back c 5).val, 0] := off4_eq c 5
theorem off5_5 (c : Dev nD) : k0_off5 c 5#32 = ![512 * (back c 5).val, 512] := off5_eq c 5
theorem off4_6 (c : Dev nD) : k0_off4 c 6#32 = ![512 * (back c 6).val, 0] := off4_eq c 6
theorem off5_6 (c : Dev nD) : k0_off5 c 6#32 = ![512 * (back c 6).val, 512] := off5_eq c 6
theorem off4_7 (c : Dev nD) : k0_off4 c 7#32 = ![512 * (back c 7).val, 0] := off4_eq c 7
theorem off5_7 (c : Dev nD) : k0_off5 c 7#32 = ![512 * (back c 7).val, 512] := off5_eq c 7

/-- The offsets' closed forms, as instances. -/
instance closedOff_k0_off1_0_0 (c : Dev nD) : ClosedOff (k0_off1 c 0#32 0#32) := ⟨![0, 1024 * (peer c 0).val], off1_0_0 c⟩
instance closedOff_k0_off1_0_1 (c : Dev nD) : ClosedOff (k0_off1 c 0#32 512#32) := ⟨![0, 1024 * (peer c 0).val + 512], off1_0_1 c⟩
instance closedOff_k0_off1_1_0 (c : Dev nD) : ClosedOff (k0_off1 c 1#32 0#32) := ⟨![0, 1024 * (peer c 1).val], off1_1_0 c⟩
instance closedOff_k0_off1_1_1 (c : Dev nD) : ClosedOff (k0_off1 c 1#32 512#32) := ⟨![0, 1024 * (peer c 1).val + 512], off1_1_1 c⟩
instance closedOff_k0_off1_2_0 (c : Dev nD) : ClosedOff (k0_off1 c 2#32 0#32) := ⟨![0, 1024 * (peer c 2).val], off1_2_0 c⟩
instance closedOff_k0_off1_2_1 (c : Dev nD) : ClosedOff (k0_off1 c 2#32 512#32) := ⟨![0, 1024 * (peer c 2).val + 512], off1_2_1 c⟩
instance closedOff_k0_off1_3_0 (c : Dev nD) : ClosedOff (k0_off1 c 3#32 0#32) := ⟨![0, 1024 * (peer c 3).val], off1_3_0 c⟩
instance closedOff_k0_off1_3_1 (c : Dev nD) : ClosedOff (k0_off1 c 3#32 512#32) := ⟨![0, 1024 * (peer c 3).val + 512], off1_3_1 c⟩
instance closedOff_k0_off1_4_0 (c : Dev nD) : ClosedOff (k0_off1 c 4#32 0#32) := ⟨![0, 1024 * (peer c 4).val], off1_4_0 c⟩
instance closedOff_k0_off1_4_1 (c : Dev nD) : ClosedOff (k0_off1 c 4#32 512#32) := ⟨![0, 1024 * (peer c 4).val + 512], off1_4_1 c⟩
instance closedOff_k0_off1_5_0 (c : Dev nD) : ClosedOff (k0_off1 c 5#32 0#32) := ⟨![0, 1024 * (peer c 5).val], off1_5_0 c⟩
instance closedOff_k0_off1_5_1 (c : Dev nD) : ClosedOff (k0_off1 c 5#32 512#32) := ⟨![0, 1024 * (peer c 5).val + 512], off1_5_1 c⟩
instance closedOff_k0_off1_6_0 (c : Dev nD) : ClosedOff (k0_off1 c 6#32 0#32) := ⟨![0, 1024 * (peer c 6).val], off1_6_0 c⟩
instance closedOff_k0_off1_6_1 (c : Dev nD) : ClosedOff (k0_off1 c 6#32 512#32) := ⟨![0, 1024 * (peer c 6).val + 512], off1_6_1 c⟩
instance closedOff_k0_off1_7_0 (c : Dev nD) : ClosedOff (k0_off1 c 7#32 0#32) := ⟨![0, 1024 * (peer c 7).val], off1_7_0 c⟩
instance closedOff_k0_off1_7_1 (c : Dev nD) : ClosedOff (k0_off1 c 7#32 512#32) := ⟨![0, 1024 * (peer c 7).val + 512], off1_7_1 c⟩
instance closedOff_k0_off4_1 (c : Dev nD) : ClosedOff (k0_off4 c 1#32) := ⟨![512 * (back c 1).val, 0], off4_1 c⟩
instance closedOff_k0_off5_1 (c : Dev nD) : ClosedOff (k0_off5 c 1#32) := ⟨![512 * (back c 1).val, 512], off5_1 c⟩
instance closedOff_k0_off4_2 (c : Dev nD) : ClosedOff (k0_off4 c 2#32) := ⟨![512 * (back c 2).val, 0], off4_2 c⟩
instance closedOff_k0_off5_2 (c : Dev nD) : ClosedOff (k0_off5 c 2#32) := ⟨![512 * (back c 2).val, 512], off5_2 c⟩
instance closedOff_k0_off4_3 (c : Dev nD) : ClosedOff (k0_off4 c 3#32) := ⟨![512 * (back c 3).val, 0], off4_3 c⟩
instance closedOff_k0_off5_3 (c : Dev nD) : ClosedOff (k0_off5 c 3#32) := ⟨![512 * (back c 3).val, 512], off5_3 c⟩
instance closedOff_k0_off4_4 (c : Dev nD) : ClosedOff (k0_off4 c 4#32) := ⟨![512 * (back c 4).val, 0], off4_4 c⟩
instance closedOff_k0_off5_4 (c : Dev nD) : ClosedOff (k0_off5 c 4#32) := ⟨![512 * (back c 4).val, 512], off5_4 c⟩
instance closedOff_k0_off4_5 (c : Dev nD) : ClosedOff (k0_off4 c 5#32) := ⟨![512 * (back c 5).val, 0], off4_5 c⟩
instance closedOff_k0_off5_5 (c : Dev nD) : ClosedOff (k0_off5 c 5#32) := ⟨![512 * (back c 5).val, 512], off5_5 c⟩
instance closedOff_k0_off4_6 (c : Dev nD) : ClosedOff (k0_off4 c 6#32) := ⟨![512 * (back c 6).val, 0], off4_6 c⟩
instance closedOff_k0_off5_6 (c : Dev nD) : ClosedOff (k0_off5 c 6#32) := ⟨![512 * (back c 6).val, 512], off5_6 c⟩
instance closedOff_k0_off4_7 (c : Dev nD) : ClosedOff (k0_off4 c 7#32) := ⟨![512 * (back c 7).val, 0], off4_7 c⟩
instance closedOff_k0_off5_7 (c : Dev nD) : ClosedOff (k0_off5 c 7#32) := ⟨![512 * (back c 7).val, 512], off5_7 c⟩

/-! ## The payloads: one product in bf16, one in f32, one widening

  The printed body names each sub-step's value separately; they are the same three functions. -/

theorem pay3_eq (x : Vec F S512x4096 .f32) (w : Vec F S1x4096x512 .f32) : k0_pay3 x w = k0_pay2 x w := rfl
theorem pay6_eq (x : Vec F S512x4096 .f32) (w : Vec F S1x4096x512 .f32) : k0_pay6 x w = k0_pay2 x w := rfl
theorem pay7_eq (x : Vec F S512x4096 .f32) (w : Vec F S1x4096x512 .f32) : k0_pay7 x w = k0_pay2 x w := rfl
theorem pay8_eq (x : Vec F S512x4096 .f32) (w : Vec F S1x4096x512 .f32) : k0_pay8 x w = k0_pay2 x w := rfl
theorem pay11_eq (x : Vec F S512x4096 .f32) (w : Vec F S1x4096x512 .f32) : k0_pay11 x w = k0_pay2 x w := rfl
theorem pay12_eq (x : Vec F S512x4096 .f32) (w : Vec F S1x4096x512 .f32) : k0_pay12 x w = k0_pay2 x w := rfl
theorem pay13_eq (x : Vec F S512x4096 .f32) (w : Vec F S1x4096x512 .f32) : k0_pay13 x w = k0_pay2 x w := rfl
theorem pay16_eq (x : Vec F S512x4096 .f32) (w : Vec F S1x4096x512 .f32) : k0_pay16 x w = k0_pay2 x w := rfl
theorem pay17_eq (x : Vec F S512x4096 .f32) (w : Vec F S1x4096x512 .f32) : k0_pay17 x w = k0_pay2 x w := rfl
theorem pay18_eq (x : Vec F S512x4096 .f32) (w : Vec F S1x4096x512 .f32) : k0_pay18 x w = k0_pay2 x w := rfl
theorem pay5_eq (x : Vec F S512x4096 .f32) (w : Vec F S1x4096x512 .f32) : k0_pay5 (k0_pay4 x) w = k0_pay2 x w := rfl
theorem pay10_eq (x : Vec F S512x4096 .f32) (w : Vec F S1x4096x512 .f32) : k0_pay10 (k0_pay9 x) w = k0_pay2 x w := rfl
theorem pay15_eq (x : Vec F S512x4096 .f32) (w : Vec F S1x4096x512 .f32) : k0_pay15 (k0_pay14 x) w = k0_pay2 x w := rfl
theorem pay20_eq (x : Vec F S512x4096 .f32) (w : Vec F S1x4096x512 .f32) : k0_pay20 (k0_pay19 x) w = k0_pay21 x w := rfl
theorem pay22_eq (g : Vec F S1x512x512 .bf16) : k0_pay22 g = k0_pay1 g := rfl
theorem pay23_eq (g : Vec F S1x512x512 .bf16) : k0_pay23 g = k0_pay1 g := rfl
theorem pay24_eq (g : Vec F S1x512x512 .bf16) : k0_pay24 g = k0_pay1 g := rfl
theorem pay25_eq (g : Vec F S1x512x512 .bf16) : k0_pay25 g = k0_pay1 g := rfl
theorem pay26_eq (g : Vec F S1x512x512 .bf16) : k0_pay26 g = k0_pay1 g := rfl
theorem pay27_eq (g : Vec F S1x512x512 .bf16) : k0_pay27 g = k0_pay1 g := rfl
theorem pay28_eq (g : Vec F S1x512x512 .bf16) : k0_pay28 g = k0_pay1 g := rfl
theorem pay29_eq (g : Vec F S1x512x512 .bf16) : k0_pay29 g = k0_pay1 g := rfl
theorem pay30_eq (g : Vec F S1x512x512 .bf16) : k0_pay30 g = k0_pay1 g := rfl
theorem pay31_eq (g : Vec F S1x512x512 .bf16) : k0_pay31 g = k0_pay1 g := rfl
theorem pay32_eq (g : Vec F S1x512x512 .bf16) : k0_pay32 g = k0_pay1 g := rfl
theorem pay33_eq (g : Vec F S1x512x512 .bf16) : k0_pay33 g = k0_pay1 g := rfl
theorem pay34_eq (g : Vec F S1x512x512 .bf16) : k0_pay34 g = k0_pay1 g := rfl

/-! ## Where a slot's elements sit

  Slot v of a fourteen-slot buffer, viewed 512 × 512, holds index (a, b) at the buffer's (v, a, b). -/

open Idealize.ShloMosaic.ValueIdx in
/-- Dropping the unit axis: index (a, b) of 512 × 512 is index (0, a, b) of 1 × 512 × 512. -/
theorem squeeze_idx (h : S512x512.numel = S1x512x512.numel) (x : S512x512.Idx) :
    Shape.reshapeEquiv h x = (ix3 (n0 := 1) (n1 := 512) (n2 := 512) 0 (x 0) (x 1) : S1x512x512.Idx) := by
  apply Shape.reshapeEquiv_eq_of_rowMajor
  rw [Shape.rowMajor_val_three, Shape.rowMajor_val_two]
  show ((0 : ℕ) * 512 + (x 0).val) * 512 + (x 1).val = (x 0).val * 512 + (x 1).val
  omega

open Idealize.ShloMosaic.ValueIdx in
/-- The unit rectangle at slot v places (0, a, b) at (v, a, b). -/
theorem slotRect_emb (v : Fin 14) (inb) (y : S1x512x512.Idx) :
    (Rect.unit (s := S14x512x512) ![v.val, 0, 0] S1x512x512.size inb).emb y
      = (ix3 (n0 := 14) (n1 := 512) (n2 := 512) v ⟨(y 1).val, (y 1).isLt⟩ ⟨(y 2).val, (y 2).isLt⟩ : S14x512x512.Idx) := by
  have h0 : (y 0).val = 0 := by have := (y 0).isLt; change (y 0).val < 1 at this; omega
  funext a
  apply Fin.ext
  rw [Rect.emb_apply]
  match a with
  | ⟨0, _⟩ => show v.val + 1 * (y 0).val = v.val; omega
  | ⟨1, _⟩ => show 0 + 1 * (y 1).val = (y 1).val; omega
  | ⟨2, _⟩ => show 0 + 1 * (y 2).val = (y 2).val; omega

open Idealize.ShloMosaic.ValueIdx in
/-- Slot v of the send buffer: index x of its 512 × 512 view is the buffer's (v, x 0, x 1). -/
theorem sSlot_emb (v : Fin 14) (x : S512x512.Idx) :
    ((sSlot v).view.emb x : S14x512x512.Idx) = ix3 (n0 := 14) (n1 := 512) (n2 := 512) v (x 0) (x 1) := by
  show (Rect.unit (s := S14x512x512) ![v.val, 0, 0] S1x512x512.size (inb_slot v)).emb (Shape.reshapeEquiv _ x) = _
  rw [squeeze_idx, slotRect_emb]; rfl

open Idealize.ShloMosaic.ValueIdx in
/-- The same of the receive buffer. -/
theorem rSlot_emb (v : Fin 14) (x : S512x512.Idx) :
    ((rSlot v).view.emb x : S14x512x512.Idx) = ix3 (n0 := 14) (n1 := 512) (n2 := 512) v (x 0) (x 1) := by
  show (Rect.unit (s := S14x512x512) ![v.val, 0, 0] S1x512x512.size (inb_slot v)).emb (Shape.reshapeEquiv _ x) = _
  rw [squeeze_idx, slotRect_emb]; rfl

open Idealize.ShloMosaic.ValueIdx in
/-- A block read at every slot alike, at (v, a, b), is the block at (0, a, b). -/
theorem slotBuf_ix3 (g : FVec F S1x512x512 .bf16) (v : Fin 14) (a b : Fin 512) :
    slotBuf g (ix3 (n0 := 14) (n1 := 512) (n2 := 512) v a b) = g (ix3 (n0 := 1) (n1 := 512) (n2 := 512) 0 a b) := rfl

/-! ## What a landing, a store and a load of a slot do -/

/-- The transfer of slot v lands the sender's block: where the sender's slot holds the block g, the target's
    slot, whatever it held, holds g after the write. -/
theorem slot_landing (v : Fin 14) (g : FVec F S1x512x512 .bf16)
    (fd : (rSlot v).view.ty.Contents (Elt F)) (fs : (sSlot v).view.ty.Contents (Elt F))
    (hfs : ∀ i ∈ (sSlot v).view.set, fs i = slotBuf g i) :
    ∀ i ∈ (rSlot v).view.set,
      ((rSlot v).view.write (Elt F) fd ((sSlot v).view.read (Elt F) fs) Finset.univ) i = slotBuf g i := by
  intro i hi
  obtain ⟨x, rfl⟩ := View.exists_emb_of_mem_set _ hi
  rw [View.write_emb_of_mem _ _ (Finset.mem_univ x), View.read_apply, hfs _ ((sSlot v).view.emb_mem_set x)]
  rw [cast_cast, cast_eq]
  exact (congrArg (slotBuf g) (sSlot_emb v x)).trans (congrArg (slotBuf g) (rSlot_emb v x)).symm

open Idealize.ShloMosaic.ValueIdx in
/-- A store of the block g through the unit rectangle at slot v leaves the send buffer holding g on slot v. -/
theorem slot_store (v : Fin 14) (inb) (f : sM.view.ty.Contents (Elt F)) (g : FVec F S1x512x512 .bf16) :
    ∀ i ∈ (sSlot v).view.set,
      ((sM.access (Rect.unit (s := S14x512x512) ![v.val, 0, 0] S1x512x512.size inb)).write (Elt F) f g Finset.univ) i = slotBuf g i := by
  intro i hi
  obtain ⟨x, rfl⟩ := View.exists_emb_of_mem_set _ hi
  have hx : ((sSlot v).view.emb x : S14x512x512.Idx)
      = (sM.access (Rect.unit (s := S14x512x512) ![v.val, 0, 0] S1x512x512.size inb)).emb
          (ix3 (n0 := 1) (n1 := 512) (n2 := 512) 0 (x 0) (x 1)) := by
    rw [sSlot_emb]
    show _ = (Rect.unit (s := S14x512x512) ![v.val, 0, 0] S1x512x512.size inb).emb _
    rw [slotRect_emb]; rfl
  rw [hx, View.write_emb_of_mem _ _ (Finset.mem_univ _), ← hx, sSlot_emb, cast_eq]
  rfl

open Idealize.ShloMosaic.ValueIdx in
/-- A load through the unit rectangle at slot v reads, at (0, a, b), the receive buffer's (v, a, b). -/
theorem rM_readAt_slot (v : Fin 14) (inb) (f : Vec F S14x512x512 .bf16) (y : S1x512x512.Idx) :
    rM.view.readAt (Elt F) (Rect.unit (s := S14x512x512) ![v.val, 0, 0] S1x512x512.size inb).toLoadRect f y
      = f (ix3 (n0 := 14) (n1 := 512) (n2 := 512) v ⟨(y 1).val, (y 1).isLt⟩ ⟨(y 2).val, (y 2).isLt⟩) := by
  rw [View.readAt_apply, View.read_apply, cast_eq]
  exact congrArg f (slotRect_emb v inb y)

open Idealize.ShloMosaic.ValueIdx in
/-- An index of 1 × 512 × 512 is (0, its second, its third coordinate). -/
theorem eq_ix3_unit (y : S1x512x512.Idx) :
    y = (ix3 (n0 := 1) (n1 := 512) (n2 := 512) 0 ⟨(y 1).val, (y 1).isLt⟩ ⟨(y 2).val, (y 2).isLt⟩ : S1x512x512.Idx) := by
  have h0 : (y 0).val = 0 := by have := (y 0).isLt; change (y 0).val < 1 at this; omega
  funext a
  match a with
  | ⟨0, _⟩ => exact Fin.ext h0
  | ⟨1, _⟩ => rfl
  | ⟨2, _⟩ => rfl

/-- A load through the unit rectangle at slot v of a receive buffer that holds the block g at every slot reads g. -/
theorem slot_load (v : Fin 14) (inb) (g : FVec F S1x512x512 .bf16) :
    rM.view.readAt (Elt F) (Rect.unit (s := S14x512x512) ![v.val, 0, 0] S1x512x512.size inb).toLoadRect (slotBuf g) = g := by
  funext y
  rw [rM_readAt_slot, slotBuf_ix3]
  exact congrArg g (eq_ix3_unit y).symm

open Idealize.ShloMosaic.ValueIdx in
/-- The same of any contents that agree with the block on slot v. -/
theorem slot_load_of (v : Fin 14) (inb) (g : FVec F S1x512x512 .bf16) (f : Vec F S14x512x512 .bf16)
    (hf : ∀ i ∈ (rSlot v).view.set, f i = slotBuf g i) :
    rM.view.readAt (Elt F) (Rect.unit (s := S14x512x512) ![v.val, 0, 0] S1x512x512.size inb).toLoadRect f = g := by
  rw [← slot_load v inb g]
  funext y
  rw [rM_readAt_slot, rM_readAt_slot]
  apply hf
  have h := (rSlot v).view.emb_mem_set (ix2 (n0 := 512) (n1 := 512) ⟨(y 1).val, (y 1).isLt⟩ ⟨(y 2).val, (y 2).isLt⟩)
  rw [rSlot_emb] at h
  exact h

/-! ## The weight slab

  A fetch copies columns [1024 j + 512 t, + 512) of the weights into one of the two 4096 × 512 scratch slots;
  the slot read back as a 1 × 4096 × 512 block is the slab of the specification. -/

open Idealize.ShloMosaic.ValueIdx in
/-- Dropping the unit axis: index (a, b) of 4096 × 512 is index (0, a, b) of 1 × 4096 × 512. -/
theorem squeezeK_idx (h : S4096x512.numel = S1x4096x512.numel) (x : S4096x512.Idx) :
    Shape.reshapeEquiv h x = (ix3 (n0 := 1) (n1 := 4096) (n2 := 512) 0 (x 0) (x 1) : S1x4096x512.Idx) := by
  apply Shape.reshapeEquiv_eq_of_rowMajor
  rw [Shape.rowMajor_val_three, Shape.rowMajor_val_two]
  show ((0 : ℕ) * 4096 + (x 0).val) * 512 + (x 1).val = (x 0).val * 512 + (x 1).val
  omega

open Idealize.ShloMosaic.ValueIdx in
/-- The unit rectangle at scratch slot i places (0, a, b) at (i, a, b). -/
theorem slabRect_emb (i : Fin 2) (inb) (y : S1x4096x512.Idx) :
    (Rect.unit (s := S2x4096x512) ![i.val, 0, 0] S1x4096x512.size inb).emb y
      = (ix3 (n0 := 2) (n1 := 4096) (n2 := 512) i ⟨(y 1).val, (y 1).isLt⟩ ⟨(y 2).val, (y 2).isLt⟩ : S2x4096x512.Idx) := by
  have h0 : (y 0).val = 0 := by have := (y 0).isLt; change (y 0).val < 1 at this; omega
  funext a
  apply Fin.ext
  rw [Rect.emb_apply]
  match a with
  | ⟨0, _⟩ => show i.val + 1 * (y 0).val = i.val; omega
  | ⟨1, _⟩ => show 0 + 1 * (y 1).val = (y 1).val; omega
  | ⟨2, _⟩ => show 0 + 1 * (y 2).val = (y 2).val; omega

/-- The rectangle of 512 weight columns from column k places (a, b) at (a, k + b). -/
theorem wRect_emb_val {off : Fin 2 → ℕ} {k : ℕ} (hoff : off = ![0, k]) (inb) (x : S4096x512.Idx) :
    (((Rect.unit (s := S4096x8192) off S4096x512.size inb).emb x 0).val = (x 0).val)
    ∧ (((Rect.unit (s := S4096x8192) off S4096x512.size inb).emb x 1).val = k + (x 1).val) := by
  subst hoff
  refine ⟨?_, ?_⟩
  · rw [Rect.emb_apply]; show 0 + 1 * (x 0).val = (x 0).val; omega
  · rw [Rect.emb_apply]; show k + 1 * (x 1).val = k + (x 1).val; omega

open Idealize.ShloMosaic.ValueIdx in
/-- Scratch slot i after columns [1024 j + 512 t, + 512) of W were copied into it, read back as a block: the slab. -/
theorem slab_read (i : Fin 2) (j : Fin 8) (t : Fin 2) {off : Fin 2 → ℕ} (hoff : off = ![0, 1024 * j.val + 512 * t.val])
    (inbW) (inbK) (inbK') (fd : Vec F S2x4096x512 .f32) (W : Vec F S4096x8192 .f32) :
    kM.view.readAt (Elt F) (Rect.unit (s := S2x4096x512) ![i.val, 0, 0] S1x4096x512.size inbK').toLoadRect
      (((kM.slice (Rect.unit (s := S2x4096x512) ![i.val, 0, 0] S1x4096x512.size inbK) (fun _ => rfl)).squeeze S4096x512
          squeezes_S1x4096x512_S4096x512).view.write (Elt F) fd
        ((wM.slice (Rect.unit (s := S4096x8192) off S4096x512.size inbW) (fun _ => rfl)).view.read (Elt F) W) Finset.univ)
      = wslab W j t := by
  funext y
  rw [View.readAt_apply, View.read_apply, cast_eq]
  have hy : (kM.view.emb ((Rect.unit (s := S2x4096x512) ![i.val, 0, 0] S1x4096x512.size inbK').toLoadRect.idx y) : S2x4096x512.Idx)
      = ((kM.slice (Rect.unit (s := S2x4096x512) ![i.val, 0, 0] S1x4096x512.size inbK) (fun _ => rfl)).squeeze S4096x512
          squeezes_S1x4096x512_S4096x512).view.emb (ix2 (n0 := 4096) (n1 := 512) ⟨(y 1).val, (y 1).isLt⟩ ⟨(y 2).val, (y 2).isLt⟩) := by
    show (Rect.unit (s := S2x4096x512) ![i.val, 0, 0] S1x4096x512.size inbK').emb y
      = (Rect.unit (s := S2x4096x512) ![i.val, 0, 0] S1x4096x512.size inbK).emb (Shape.reshapeEquiv _ _)
    rw [squeezeK_idx, slabRect_emb, slabRect_emb]
  rw [hy, View.write_emb_of_mem _ _ (Finset.mem_univ _), cast_eq, View.read_apply, cast_eq]
  obtain ⟨h0, h1⟩ := wRect_emb_val hoff inbW (ix2 (n0 := 4096) (n1 := 512) ⟨(y 1).val, (y 1).isLt⟩ ⟨(y 2).val, (y 2).isLt⟩)
  unfold wslab
  refine congrArg W (funext fun a => Fin.ext ?_)
  match a with
  | ⟨0, _⟩ => exact h0
  | ⟨1, _⟩ => exact h1

/-! ## The result buffer

  Device c's 4096 × 1024 result array is tiled by sixteen 512 × 512 blocks: rows 512 c hold its own two products in
  f32; rows 512 p, for p the device s places back (s = 1 … 7), hold the two blocks p sent, widened. -/

/-- What the transfer of slot v carries to device c: the block the device shiftOf v places back computed against
    c's columns. -/
theorem sent_back (c : Dev nD) (v : Fin 14) :
    sent m (back c (shiftOf v)) v
      = k0_pay2 (xs m (back c (shiftOf v))) (wslab (ws m (back c (shiftOf v))) c (halfOf v)) := by
  unfold sent; rw [peer_back]

theorem back_ne (c : Dev nD) (s : Fin 8) (hs : s ≠ 0) : back c s ≠ c := by revert c s; decide

/-- Every device is some number of places back from c; c itself only at zero places. -/
theorem exists_back (c p : Dev nD) : ∃ s : Fin 8, back c s = p ∧ (s = 0 ↔ p = c) := by revert c p; decide

/-- A 512 × 512 rectangle of the result array from row r, column k places (a, b) at (r + a, k + b). -/
theorem outRect_emb_val {off : Fin 2 → ℕ} {r k : ℕ} (hoff : off = ![r, k]) (inb) (x : S512x512.Idx) :
    (((Rect.unit (s := S4096x1024) off S512x512.size inb).emb x 0).val = r + (x 0).val)
    ∧ (((Rect.unit (s := S4096x1024) off S512x512.size inb).emb x 1).val = k + (x 1).val) := by
  subst hoff
  refine ⟨?_, ?_⟩
  · rw [Rect.emb_apply]; show r + 1 * (x 0).val = r + (x 0).val; omega
  · rw [Rect.emb_apply]; show k + 1 * (x 1).val = k + (x 1).val; omega

open Idealize.ShloMosaic.ValueIdx in
/-- The specification's array on the device's own row block. -/
theorem outAt_own (X : Dev nD → Vec F S512x4096 .f32) (W : Dev nD → Vec F S4096x8192 .f32) (c : Dev nD) (t : Fin 2)
    (i : S4096x1024.Idx) (x : S512x512.Idx)
    (h0 : (i 0).val = 512 * c.val + (x 0).val) (h1 : (i 1).val = 512 * t.val + (x 1).val) :
    outAt X W c i = k0_pay21 (X c) (wslab (W c) c t) x := by
  have hx0 : (x 0).val < 512 := (x 0).isLt
  have hx1 : (x 1).val < 512 := (x 1).isLt
  have hp : (⟨(i 0).val / 512, by have := (i 0).isLt; change (i 0).val < 4096 at this; omega⟩ : Fin 8) = c := Fin.ext (by show (i 0).val / 512 = c.val; omega)
  have ht : (⟨(i 1).val / 512, by have := (i 1).isLt; change (i 1).val < 1024 at this; omega⟩ : Fin 2) = t := Fin.ext (by show (i 1).val / 512 = t.val; omega)
  have hr : (ix2 (n0 := 512) (n1 := 512) ⟨(i 0).val % 512, Nat.mod_lt _ (by decide)⟩ ⟨(i 1).val % 512, Nat.mod_lt _ (by decide)⟩ : S512x512.Idx) = x := by
    funext a
    match a with
    | ⟨0, _⟩ => exact Fin.ext (by show (i 0).val % 512 = (x 0).val; omega)
    | ⟨1, _⟩ => exact Fin.ext (by show (i 1).val % 512 = (x 1).val; omega)
  show (if (⟨(i 0).val / 512, _⟩ : Fin 8) = c then k0_pay21 (X c) (wslab (W c) c ⟨(i 1).val / 512, _⟩) (ix2 ⟨(i 0).val % 512, _⟩ ⟨(i 1).val % 512, _⟩) else _) = _
  rw [if_pos hp, ht, hr]

open Idealize.ShloMosaic.ValueIdx in
/-- The specification's array on the row block of another device p. -/
theorem outAt_recv (X : Dev nD → Vec F S512x4096 .f32) (W : Dev nD → Vec F S4096x8192 .f32) (c p : Dev nD) (hpc : p ≠ c) (t : Fin 2)
    (i : S4096x1024.Idx) (x : S512x512.Idx)
    (h0 : (i 0).val = 512 * p.val + (x 0).val) (h1 : (i 1).val = 512 * t.val + (x 1).val) :
    outAt X W c i = k0_pay1 (k0_pay2 (X p) (wslab (W p) c t)) x := by
  have hx0 : (x 0).val < 512 := (x 0).isLt
  have hx1 : (x 1).val < 512 := (x 1).isLt
  have hp : (⟨(i 0).val / 512, by have := (i 0).isLt; change (i 0).val < 4096 at this; omega⟩ : Fin 8) = p := Fin.ext (by show (i 0).val / 512 = p.val; omega)
  have ht : (⟨(i 1).val / 512, by have := (i 1).isLt; change (i 1).val < 1024 at this; omega⟩ : Fin 2) = t := Fin.ext (by show (i 1).val / 512 = t.val; omega)
  have hr : (ix2 (n0 := 512) (n1 := 512) ⟨(i 0).val % 512, Nat.mod_lt _ (by decide)⟩ ⟨(i 1).val % 512, Nat.mod_lt _ (by decide)⟩ : S512x512.Idx) = x := by
    funext a
    match a with
    | ⟨0, _⟩ => exact Fin.ext (by show (i 0).val % 512 = (x 0).val; omega)
    | ⟨1, _⟩ => exact Fin.ext (by show (i 1).val % 512 = (x 1).val; omega)
  show (if (⟨(i 0).val / 512, _⟩ : Fin 8) = c then _ else k0_pay1 (k0_pay2 (X ⟨(i 0).val / 512, _⟩) (wslab (W ⟨(i 0).val / 512, _⟩) c ⟨(i 1).val / 512, _⟩)) (ix2 ⟨(i 0).val % 512, _⟩ ⟨(i 1).val % 512, _⟩)) = _
  rw [if_neg (by rw [hp]; exact hpc), hp, ht, hr]

open Idealize.ShloMosaic.ValueIdx in
/-- A block stored at rows 512 c, columns 512 t holding the device's own product is the specification's there. -/
theorem own_piece (c : Dev nD) (t : Fin 2) {off : Fin 2 → ℕ} (hoff : off = ![512 * c.val, 512 * t.val]) (inb) (x : S512x512.Idx) :
    k0_pay21 (xs m c) (wslab (ws m c) c t) x
      = outC m c ((Rect.unit (s := S4096x1024) off S512x512.size inb).emb x) := by
  obtain ⟨h0, h1⟩ := outRect_emb_val hoff inb x
  exact (outAt_own (xs m) (ws m) c t _ x h0 h1).symm

/-- A block stored at rows 512 p, columns 512 t, p the device s ≠ 0 places back, holding what p sent, widened, is the
    specification's there. -/
theorem recv_piece (c : Dev nD) (s : Fin 8) (hs : s ≠ 0) (t : Fin 2) {off : Fin 2 → ℕ}
    (hoff : off = ![512 * (back c s).val, 512 * t.val]) (inb) (x : S512x512.Idx) :
    k0_pay1 (k0_pay2 (xs m (back c s)) (wslab (ws m (back c s)) c t)) x
      = outC m c ((Rect.unit (s := S4096x1024) off S512x512.size inb).emb x) := by
  obtain ⟨h0, h1⟩ := outRect_emb_val hoff inb x
  exact (outAt_recv (xs m) (ws m) c (back c s) (back_ne c s hs) t _ x h0 h1).symm

/-- Fourteen blocks — for every shift s ≠ 0 the two of the device s places back — cover the result array off the
    device's own row block. -/
theorem out_cover (c : Dev nD) (L : List (View.Piece (Elt F) S4096x1024 .f32))
    (hL : ∀ s : Fin 8, s ≠ 0 → ∀ t : Fin 2, ∃ p ∈ L, ∃ inb, p.1 = Rect.unit (s := S4096x1024) ![512 * (back c s).val, 512 * t.val] S512x512.size inb) :
    ∀ y : S4096x1024.Idx, (y 0).val / 512 ≠ c.val → ∃ p ∈ L, y ∈ p.1.set := by
  intro y hyc
  have hy0 : (y 0).val < 4096 := (y 0).isLt
  have hy1 : (y 1).val < 1024 := (y 1).isLt
  obtain ⟨s, hs, hs0⟩ := exists_back c ⟨(y 0).val / 512, by show (y 0).val / 512 < 8; omega⟩
  have hsne : s ≠ 0 := fun h => hyc (congrArg Fin.val (hs0.mp h))
  obtain ⟨p, hp, inb, hr⟩ := hL s hsne ⟨(y 1).val / 512, by omega⟩
  refine ⟨p, hp, ?_⟩
  rw [hr, Rect.mem_set_unit]
  have hsv : (back c s).val = (y 0).val / 512 := congrArg Fin.val hs
  intro a
  match a with
  | ⟨0, _⟩ =>
    show 512 * (back c s).val ≤ (y 0).val ∧ (y 0).val < 512 * (back c s).val + 512
    omega
  | ⟨1, _⟩ =>
    show 512 * ((y 1).val / 512) ≤ (y 1).val ∧ (y 1).val < 512 * ((y 1).val / 512) + 512
    omega

/-- Stores into the result buffer, each holding the specification's values under its rectangle, over contents that are
    the specification's wherever no store reaches, leave the specification's array. -/
theorem out_assemble (c : Dev nD) (fo : Vec F S4096x1024 .f32) (L : List (View.Piece (Elt F) S4096x1024 .f32))
    (hpieces : ∀ p ∈ L, ∀ x : p.1.shape.Idx, p.2 x = outC m c (p.1.emb x))
    (hrest : ∀ y : S4096x1024.Idx, (∀ p ∈ L, y ∉ p.1.set) → fo y = outC m c y) :
    oM.view.writes (Elt F) fo L = outC m c := by
  funext y
  by_cases h : ∃ p ∈ L, y ∈ p.1.set
  · exact View.read_writes_apply_of_pieces oM.view fo (outC m c) L hpieces y h
  · have h' : ∀ p ∈ L, y ∉ p.1.set := fun p hp hy => h ⟨p, hp, hy⟩
    exact (View.read_writes_apply_of_forall_not_mem oM.view fo y L h').trans (hrest y h')

/-- An element some store covers, after stores into the result buffer that all agree with one array, holds that array's value. -/
theorem oM_writes_apply_of_pieces (f : Vec F S4096x1024 .f32) (G : Vec F S4096x1024 .f32) (L : List (View.Piece (Elt F) S4096x1024 .f32))
    (hpieces : ∀ p ∈ L, ∀ x : p.1.shape.Idx, p.2 x = G (p.1.emb x)) (y : S4096x1024.Idx) (hc : ∃ p ∈ L, y ∈ p.1.set) :
    oM.view.writes (Elt F) f L y = G y :=
  View.read_writes_apply_of_pieces oM.view f G L hpieces y hc

/-- The device's own two products, stored at its own row block over any contents, make that row block the
    specification's. The offsets are any equal to the closed forms. -/
theorem own_blocks_aux (c : Dev nD) (f : Vec F S4096x1024 .f32) {o2 o3 : Fin 2 → ℕ}
    (inb2 : ∀ a, o2 a + S512x512.size a ≤ S4096x1024.size a) (inb3 : ∀ a, o3 a + S512x512.size a ≤ S4096x1024.size a)
    (h2 : o2 = ![512 * c.val, 0]) (h3 : o3 = ![512 * c.val, 512]) :
    ∀ i : S4096x1024.Idx, (i 0).val / 512 = c.val →
      oM.view.writes (Elt F) f
        [(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] i
        = outC m c i := by
  intro i hi
  have hi0 : (i 0).val < 4096 := (i 0).isLt
  have hi1 : (i 1).val < 1024 := (i 1).isLt
  have hpieces : ∀ p ∈ ([(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] : List (View.Piece (Elt F) S4096x1024 .f32)), ∀ x : p.1.shape.Idx, p.2 x = outC m c (p.1.emb x) := by
    intro p hp x
    simp only [List.mem_cons, List.not_mem_nil, _root_.or_false] at hp
    rcases hp with rfl | rfl
    · exact own_piece m c 1 h3 inb3 x
    · exact own_piece m c 0 h2 inb2 x
  have hcov : ∃ p ∈ ([(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] : List (View.Piece (Elt F) S4096x1024 .f32)), i ∈ p.1.set := by
    subst h2 h3
    by_cases ht : (i 1).val < 512
    · refine ⟨_, .tail _ (.head _), ?_⟩
      rw [Rect.mem_set_unit]
      intro a
      match a with
      | ⟨0, _⟩ => show 512 * c.val ≤ (i 0).val ∧ (i 0).val < 512 * c.val + 512; omega
      | ⟨1, _⟩ => show 0 ≤ (i 1).val ∧ (i 1).val < 0 + 512; omega
    · refine ⟨_, .head _, ?_⟩
      rw [Rect.mem_set_unit]
      intro a
      match a with
      | ⟨0, _⟩ => show 512 * c.val ≤ (i 0).val ∧ (i 0).val < 512 * c.val + 512; omega
      | ⟨1, _⟩ => show 512 ≤ (i 1).val ∧ (i 1).val < 512 + 512; omega
  exact oM_writes_apply_of_pieces f (outC m c) _ hpieces i hcov

/-- The same at the printed offsets. -/
theorem own_blocks (c : Dev nD) (f : Vec F S4096x1024 .f32) :
    ∀ i : S4096x1024.Idx, (i 0).val / 512 = c.val →
      ((oM.access (Rect.unit (s := S4096x1024) (k0_off3 c) S512x512.size (k0_off3_inb c))).write (Elt F)
        ((oM.access (Rect.unit (s := S4096x1024) (k0_off2 c) S512x512.size (k0_off2_inb c))).write (Elt F) f
          (k0_pay21 (xs m c) (wslab (ws m c) c 0)) Finset.univ)
        (k0_pay21 (xs m c) (wslab (ws m c) c 1)) Finset.univ) i = outC m c i :=
  own_blocks_aux m c f (k0_off2_inb c) (k0_off3_inb c) (k0_off2_eq c) (k0_off3_eq c)

/-- The fourteen stores of the received blocks — for each shift s = 1 … 7 the two widened blocks of the device s places
    back, at rows 512 (back c s) — over contents that are the specification's on the device's own row block, leave the
    specification's array; the last store heads the list. The offsets and payloads are any equal to the closed forms. -/
theorem out_final_aux (c : Dev nD) (fo : Vec F S4096x1024 .f32)
    (hown : ∀ i : S4096x1024.Idx, (i 0).val / 512 = c.val → fo i = outC m c i)
    {o2 o3 o4 o5 o6 o7 o8 o9 o10 o11 o12 o13 o14 o15 : Fin 2 → ℕ}
    (inb2 : ∀ a, o2 a + S512x512.size a ≤ S4096x1024.size a)
    (inb3 : ∀ a, o3 a + S512x512.size a ≤ S4096x1024.size a)
    (inb4 : ∀ a, o4 a + S512x512.size a ≤ S4096x1024.size a)
    (inb5 : ∀ a, o5 a + S512x512.size a ≤ S4096x1024.size a)
    (inb6 : ∀ a, o6 a + S512x512.size a ≤ S4096x1024.size a)
    (inb7 : ∀ a, o7 a + S512x512.size a ≤ S4096x1024.size a)
    (inb8 : ∀ a, o8 a + S512x512.size a ≤ S4096x1024.size a)
    (inb9 : ∀ a, o9 a + S512x512.size a ≤ S4096x1024.size a)
    (inb10 : ∀ a, o10 a + S512x512.size a ≤ S4096x1024.size a)
    (inb11 : ∀ a, o11 a + S512x512.size a ≤ S4096x1024.size a)
    (inb12 : ∀ a, o12 a + S512x512.size a ≤ S4096x1024.size a)
    (inb13 : ∀ a, o13 a + S512x512.size a ≤ S4096x1024.size a)
    (inb14 : ∀ a, o14 a + S512x512.size a ≤ S4096x1024.size a)
    (inb15 : ∀ a, o15 a + S512x512.size a ≤ S4096x1024.size a)
    {w2 w3 w4 w5 w6 w7 w8 w9 w10 w11 w12 w13 w14 w15 : FVec F S512x512 .f32}
    (ho2 : o2 = ![512 * (back c 1).val, 0])
    (ho3 : o3 = ![512 * (back c 1).val, 512])
    (ho4 : o4 = ![512 * (back c 2).val, 0])
    (ho5 : o5 = ![512 * (back c 2).val, 512])
    (ho6 : o6 = ![512 * (back c 3).val, 0])
    (ho7 : o7 = ![512 * (back c 3).val, 512])
    (ho8 : o8 = ![512 * (back c 4).val, 0])
    (ho9 : o9 = ![512 * (back c 4).val, 512])
    (ho10 : o10 = ![512 * (back c 5).val, 0])
    (ho11 : o11 = ![512 * (back c 5).val, 512])
    (ho12 : o12 = ![512 * (back c 6).val, 0])
    (ho13 : o13 = ![512 * (back c 6).val, 512])
    (ho14 : o14 = ![512 * (back c 7).val, 0])
    (ho15 : o15 = ![512 * (back c 7).val, 512])
    (hw2 : w2 = k0_pay1 (sent m (back c (shiftOf 0)) 0))
    (hw3 : w3 = k0_pay1 (sent m (back c (shiftOf 1)) 1))
    (hw4 : w4 = k0_pay1 (sent m (back c (shiftOf 2)) 2))
    (hw5 : w5 = k0_pay1 (sent m (back c (shiftOf 3)) 3))
    (hw6 : w6 = k0_pay1 (sent m (back c (shiftOf 4)) 4))
    (hw7 : w7 = k0_pay1 (sent m (back c (shiftOf 5)) 5))
    (hw8 : w8 = k0_pay1 (sent m (back c (shiftOf 6)) 6))
    (hw9 : w9 = k0_pay1 (sent m (back c (shiftOf 7)) 7))
    (hw10 : w10 = k0_pay1 (sent m (back c (shiftOf 8)) 8))
    (hw11 : w11 = k0_pay1 (sent m (back c (shiftOf 9)) 9))
    (hw12 : w12 = k0_pay1 (sent m (back c (shiftOf 10)) 10))
    (hw13 : w13 = k0_pay1 (sent m (back c (shiftOf 11)) 11))
    (hw14 : w14 = k0_pay1 (sent m (back c (shiftOf 12)) 12))
    (hw15 : w15 = k0_pay1 (sent m (back c (shiftOf 13)) 13)) :
    oM.view.writes (Elt F) fo
      [(⟨Rect.unit (s := S4096x1024) o15 S512x512.size inb15, w15⟩ : View.Piece (Elt F) S4096x1024 .f32),
       (⟨Rect.unit (s := S4096x1024) o14 S512x512.size inb14, w14⟩ : View.Piece (Elt F) S4096x1024 .f32),
       (⟨Rect.unit (s := S4096x1024) o13 S512x512.size inb13, w13⟩ : View.Piece (Elt F) S4096x1024 .f32),
       (⟨Rect.unit (s := S4096x1024) o12 S512x512.size inb12, w12⟩ : View.Piece (Elt F) S4096x1024 .f32),
       (⟨Rect.unit (s := S4096x1024) o11 S512x512.size inb11, w11⟩ : View.Piece (Elt F) S4096x1024 .f32),
       (⟨Rect.unit (s := S4096x1024) o10 S512x512.size inb10, w10⟩ : View.Piece (Elt F) S4096x1024 .f32),
       (⟨Rect.unit (s := S4096x1024) o9 S512x512.size inb9, w9⟩ : View.Piece (Elt F) S4096x1024 .f32),
       (⟨Rect.unit (s := S4096x1024) o8 S512x512.size inb8, w8⟩ : View.Piece (Elt F) S4096x1024 .f32),
       (⟨Rect.unit (s := S4096x1024) o7 S512x512.size inb7, w7⟩ : View.Piece (Elt F) S4096x1024 .f32),
       (⟨Rect.unit (s := S4096x1024) o6 S512x512.size inb6, w6⟩ : View.Piece (Elt F) S4096x1024 .f32),
       (⟨Rect.unit (s := S4096x1024) o5 S512x512.size inb5, w5⟩ : View.Piece (Elt F) S4096x1024 .f32),
       (⟨Rect.unit (s := S4096x1024) o4 S512x512.size inb4, w4⟩ : View.Piece (Elt F) S4096x1024 .f32),
       (⟨Rect.unit (s := S4096x1024) o3 S512x512.size inb3, w3⟩ : View.Piece (Elt F) S4096x1024 .f32),
       (⟨Rect.unit (s := S4096x1024) o2 S512x512.size inb2, w2⟩ : View.Piece (Elt F) S4096x1024 .f32)]
      = outC m c := by
  apply out_assemble
  · intro p hp x
    simp only [List.mem_cons, List.not_mem_nil, _root_.or_false] at hp
    subst hw2
    subst hw3
    subst hw4
    subst hw5
    subst hw6
    subst hw7
    subst hw8
    subst hw9
    subst hw10
    subst hw11
    subst hw12
    subst hw13
    subst hw14
    subst hw15
    rcases hp with rfl | rfl | rfl | rfl | rfl | rfl | rfl | rfl | rfl | rfl | rfl | rfl | rfl | rfl
    · exact (congrArg (fun g => k0_pay1 g x) (sent_back m c 13)).trans (recv_piece m c (shiftOf 13) (by decide) (halfOf 13) ho15 inb15 x)
    · exact (congrArg (fun g => k0_pay1 g x) (sent_back m c 12)).trans (recv_piece m c (shiftOf 12) (by decide) (halfOf 12) ho14 inb14 x)
    · exact (congrArg (fun g => k0_pay1 g x) (sent_back m c 11)).trans (recv_piece m c (shiftOf 11) (by decide) (halfOf 11) ho13 inb13 x)
    · exact (congrArg (fun g => k0_pay1 g x) (sent_back m c 10)).trans (recv_piece m c (shiftOf 10) (by decide) (halfOf 10) ho12 inb12 x)
    · exact (congrArg (fun g => k0_pay1 g x) (sent_back m c 9)).trans (recv_piece m c (shiftOf 9) (by decide) (halfOf 9) ho11 inb11 x)
    · exact (congrArg (fun g => k0_pay1 g x) (sent_back m c 8)).trans (recv_piece m c (shiftOf 8) (by decide) (halfOf 8) ho10 inb10 x)
    · exact (congrArg (fun g => k0_pay1 g x) (sent_back m c 7)).trans (recv_piece m c (shiftOf 7) (by decide) (halfOf 7) ho9 inb9 x)
    · exact (congrArg (fun g => k0_pay1 g x) (sent_back m c 6)).trans (recv_piece m c (shiftOf 6) (by decide) (halfOf 6) ho8 inb8 x)
    · exact (congrArg (fun g => k0_pay1 g x) (sent_back m c 5)).trans (recv_piece m c (shiftOf 5) (by decide) (halfOf 5) ho7 inb7 x)
    · exact (congrArg (fun g => k0_pay1 g x) (sent_back m c 4)).trans (recv_piece m c (shiftOf 4) (by decide) (halfOf 4) ho6 inb6 x)
    · exact (congrArg (fun g => k0_pay1 g x) (sent_back m c 3)).trans (recv_piece m c (shiftOf 3) (by decide) (halfOf 3) ho5 inb5 x)
    · exact (congrArg (fun g => k0_pay1 g x) (sent_back m c 2)).trans (recv_piece m c (shiftOf 2) (by decide) (halfOf 2) ho4 inb4 x)
    · exact (congrArg (fun g => k0_pay1 g x) (sent_back m c 1)).trans (recv_piece m c (shiftOf 1) (by decide) (halfOf 1) ho3 inb3 x)
    · exact (congrArg (fun g => k0_pay1 g x) (sent_back m c 0)).trans (recv_piece m c (shiftOf 0) (by decide) (halfOf 0) ho2 inb2 x)
  · intro y hy
    refine hown y (Classical.byContradiction fun hne => ?_)
    refine absurd (out_cover (F := F) c _ (fun s hs t => ?_) y hne) (fun h => h.elim fun p hp => hy p hp.1 hp.2)
    subst ho2
    subst ho3
    subst ho4
    subst ho5
    subst ho6
    subst ho7
    subst ho8
    subst ho9
    subst ho10
    subst ho11
    subst ho12
    subst ho13
    subst ho14
    subst ho15
    fin_cases s <;> fin_cases t
    · exact absurd rfl hs
    · exact absurd rfl hs
    · exact ⟨⟨Rect.unit _ S512x512.size inb2, w2⟩, (.tail _ (.tail _ (.tail _ (.tail _ (.tail _ (.tail _ (.tail _ (.tail _ (.tail _ (.tail _ (.tail _ (.tail _ (.tail _ (.head _)))))))))))))), inb2, rfl⟩
    · exact ⟨⟨Rect.unit _ S512x512.size inb3, w3⟩, (.tail _ (.tail _ (.tail _ (.tail _ (.tail _ (.tail _ (.tail _ (.tail _ (.tail _ (.tail _ (.tail _ (.tail _ (.head _))))))))))))), inb3, rfl⟩
    · exact ⟨⟨Rect.unit _ S512x512.size inb4, w4⟩, (.tail _ (.tail _ (.tail _ (.tail _ (.tail _ (.tail _ (.tail _ (.tail _ (.tail _ (.tail _ (.tail _ (.head _)))))))))))), inb4, rfl⟩
    · exact ⟨⟨Rect.unit _ S512x512.size inb5, w5⟩, (.tail _ (.tail _ (.tail _ (.tail _ (.tail _ (.tail _ (.tail _ (.tail _ (.tail _ (.tail _ (.head _))))))))))), inb5, rfl⟩
    · exact ⟨⟨Rect.unit _ S512x512.size inb6, w6⟩, (.tail _ (.tail _ (.tail _ (.tail _ (.tail _ (.tail _ (.tail _ (.tail _ (.tail _ (.head _)))))))))), inb6, rfl⟩
    · exact ⟨⟨Rect.unit _ S512x512.size inb7, w7⟩, (.tail _ (.tail _ (.tail _ (.tail _ (.tail _ (.tail _ (.tail _ (.tail _ (.head _))))))))), inb7, rfl⟩
    · exact ⟨⟨Rect.unit _ S512x512.size inb8, w8⟩, (.tail _ (.tail _ (.tail _ (.tail _ (.tail _ (.tail _ (.tail _ (.head _)))))))), inb8, rfl⟩
    · exact ⟨⟨Rect.unit _ S512x512.size inb9, w9⟩, (.tail _ (.tail _ (.tail _ (.tail _ (.tail _ (.tail _ (.head _))))))), inb9, rfl⟩
    · exact ⟨⟨Rect.unit _ S512x512.size inb10, w10⟩, (.tail _ (.tail _ (.tail _ (.tail _ (.tail _ (.head _)))))), inb10, rfl⟩
    · exact ⟨⟨Rect.unit _ S512x512.size inb11, w11⟩, (.tail _ (.tail _ (.tail _ (.tail _ (.head _))))), inb11, rfl⟩
    · exact ⟨⟨Rect.unit _ S512x512.size inb12, w12⟩, (.tail _ (.tail _ (.tail _ (.head _)))), inb12, rfl⟩
    · exact ⟨⟨Rect.unit _ S512x512.size inb13, w13⟩, (.tail _ (.tail _ (.head _))), inb13, rfl⟩
    · exact ⟨⟨Rect.unit _ S512x512.size inb14, w14⟩, (.tail _ (.head _)), inb14, rfl⟩
    · exact ⟨⟨Rect.unit _ S512x512.size inb15, w15⟩, (.head _), inb15, rfl⟩

/-- The same at the printed offsets and payloads, as nested writes: slot 0's block stored first, slot 13's last. -/
theorem out_final (c : Dev nD) (fo : Vec F S4096x1024 .f32)
    (hown : ∀ i : S4096x1024.Idx, (i 0).val / 512 = c.val → fo i = outC m c i) :
    ((oM.access (Rect.unit (s := S4096x1024) (k0_off5 c 7#32) S512x512.size (k0_off5_inb c 6))).write (Elt F)
      ((oM.access (Rect.unit (s := S4096x1024) (k0_off4 c 7#32) S512x512.size (k0_off4_inb c 6))).write (Elt F)
      ((oM.access (Rect.unit (s := S4096x1024) (k0_off5 c 6#32) S512x512.size (k0_off5_inb c 5))).write (Elt F)
      ((oM.access (Rect.unit (s := S4096x1024) (k0_off4 c 6#32) S512x512.size (k0_off4_inb c 5))).write (Elt F)
      ((oM.access (Rect.unit (s := S4096x1024) (k0_off5 c 5#32) S512x512.size (k0_off5_inb c 4))).write (Elt F)
      ((oM.access (Rect.unit (s := S4096x1024) (k0_off4 c 5#32) S512x512.size (k0_off4_inb c 4))).write (Elt F)
      ((oM.access (Rect.unit (s := S4096x1024) (k0_off5 c 4#32) S512x512.size (k0_off5_inb c 3))).write (Elt F)
      ((oM.access (Rect.unit (s := S4096x1024) (k0_off4 c 4#32) S512x512.size (k0_off4_inb c 3))).write (Elt F)
      ((oM.access (Rect.unit (s := S4096x1024) (k0_off5 c 3#32) S512x512.size (k0_off5_inb c 2))).write (Elt F)
      ((oM.access (Rect.unit (s := S4096x1024) (k0_off4 c 3#32) S512x512.size (k0_off4_inb c 2))).write (Elt F)
      ((oM.access (Rect.unit (s := S4096x1024) (k0_off5 c 2#32) S512x512.size (k0_off5_inb c 1))).write (Elt F)
      ((oM.access (Rect.unit (s := S4096x1024) (k0_off4 c 2#32) S512x512.size (k0_off4_inb c 1))).write (Elt F)
      ((oM.access (Rect.unit (s := S4096x1024) (k0_off5 c 1#32) S512x512.size (k0_off5_inb c 0))).write (Elt F)
      ((oM.access (Rect.unit (s := S4096x1024) (k0_off4 c 1#32) S512x512.size (k0_off4_inb c 0))).write (Elt F)
      fo
      (k0_pay1 (sent m (back c (shiftOf 0)) 0)) Finset.univ)
      (k0_pay1 (sent m (back c (shiftOf 1)) 1)) Finset.univ)
      (k0_pay1 (sent m (back c (shiftOf 2)) 2)) Finset.univ)
      (k0_pay1 (sent m (back c (shiftOf 3)) 3)) Finset.univ)
      (k0_pay1 (sent m (back c (shiftOf 4)) 4)) Finset.univ)
      (k0_pay1 (sent m (back c (shiftOf 5)) 5)) Finset.univ)
      (k0_pay1 (sent m (back c (shiftOf 6)) 6)) Finset.univ)
      (k0_pay1 (sent m (back c (shiftOf 7)) 7)) Finset.univ)
      (k0_pay1 (sent m (back c (shiftOf 8)) 8)) Finset.univ)
      (k0_pay1 (sent m (back c (shiftOf 9)) 9)) Finset.univ)
      (k0_pay1 (sent m (back c (shiftOf 10)) 10)) Finset.univ)
      (k0_pay1 (sent m (back c (shiftOf 11)) 11)) Finset.univ)
      (k0_pay1 (sent m (back c (shiftOf 12)) 12)) Finset.univ)
      (k0_pay1 (sent m (back c (shiftOf 13)) 13)) Finset.univ)
      = outC m c :=
  out_final_aux m c fo hown
    (k0_off4_inb c 0) (k0_off5_inb c 0) (k0_off4_inb c 1) (k0_off5_inb c 1) (k0_off4_inb c 2) (k0_off5_inb c 2) (k0_off4_inb c 3) (k0_off5_inb c 3) (k0_off4_inb c 4) (k0_off5_inb c 4) (k0_off4_inb c 5) (k0_off5_inb c 5) (k0_off4_inb c 6) (k0_off5_inb c 6)
    (off4_1 c) (off5_1 c) (off4_2 c) (off5_2 c) (off4_3 c) (off5_3 c) (off4_4 c) (off5_4 c) (off4_5 c) (off5_5 c) (off4_6 c) (off5_6 c) (off4_7 c) (off5_7 c)
    rfl rfl rfl rfl rfl rfl rfl rfl rfl rfl rfl rfl rfl rfl

/-! ## Two fetches read disjoint columns of the weights -/

theorem peer_inj (c : Dev nD) (s s' : Fin 8) (h : peer c s = peer c s') : s = s' := by revert c s s'; decide

/-- Two 512-column rectangles of the weights starting 512 or more apart share no element. -/
theorem wRect_disjoint {off off' : Fin 2 → ℕ} {k k' : ℕ} (hoff : off = ![0, k]) (hoff' : off' = ![0, k'])
    (inb : ∀ a, off a + S4096x512.size a ≤ S4096x8192.size a) (inb' : ∀ a, off' a + S4096x512.size a ≤ S4096x8192.size a)
    (hk : k + 512 ≤ k' ∨ k' + 512 ≤ k) :
    Disjoint (wM.slice (Rect.unit (s := S4096x8192) off S4096x512.size inb) (fun _ => rfl)).view.set
      (wM.slice (Rect.unit (s := S4096x8192) off' S4096x512.size inb') (fun _ => rfl)).view.set := by
  subst hoff hoff'
  show Disjoint ((View.whole main_arg1).slice (Rect.unit (s := S4096x8192) ![0, k] S4096x512.size inb)).set
    ((View.whole main_arg1).slice (Rect.unit (s := S4096x8192) ![0, k'] S4096x512.size inb')).set
  rw [View.set_slice_whole, View.set_slice_whole]
  exact Rect.unit_disjoint 1 hk

/-- The fetches of different (shift, half) read disjoint columns. -/
theorem wslice_disjoint (c : Dev nD) (s s' : Fin 8) (t t' : Fin 2) (h : s ≠ s' ∨ t ≠ t') :
    Disjoint (wM.slice (Rect.unit (s := S4096x8192) (k0_off1 c (BitVec.ofNat 32 s.val) (BitVec.ofNat 32 (512 * t.val))) S4096x512.size (k0_off1_inb c s t)) (fun _ => rfl)).view.set
      (wM.slice (Rect.unit (s := S4096x8192) (k0_off1 c (BitVec.ofNat 32 s'.val) (BitVec.ofNat 32 (512 * t'.val))) S4096x512.size (k0_off1_inb c s' t')) (fun _ => rfl)).view.set := by
  refine wRect_disjoint (off1_eq c s t) (off1_eq c s' t') _ _ ?_
  have hp : (peer c s).val < 8 := (peer c s).isLt
  have hp' : (peer c s').val < 8 := (peer c s').isLt
  have ht : t.val < 2 := t.isLt
  have ht' : t'.val < 2 := t'.isLt
  by_cases hs : s = s'
  · subst hs
    have htt : t.val ≠ t'.val := fun e => h.elim (fun h => h rfl) (fun h => h (Fin.ext e))
    omega
  · have hpp : (peer c s).val ≠ (peer c s').val := fun e => hs (peer_inj c s s' (Fin.ext e))
    omega

theorem wslice_disj_1 (c : Dev nD) :
    Disjoint (wM.slice (Rect.unit (s := S4096x8192) (k0_off1 c 2#32 0#32) S4096x512.size (k0_off1_inb c 2 0)) (fun _ => rfl)).view.set
      (wM.slice (Rect.unit (s := S4096x8192) (k0_off1 c 1#32 512#32) S4096x512.size (k0_off1_inb c 1 1)) (fun _ => rfl)).view.set :=
  wslice_disjoint c 2 1 0 1 (by decide)
theorem wslice_disj_2 (c : Dev nD) :
    Disjoint (wM.slice (Rect.unit (s := S4096x8192) (k0_off1 c 3#32 0#32) S4096x512.size (k0_off1_inb c 3 0)) (fun _ => rfl)).view.set
      (wM.slice (Rect.unit (s := S4096x8192) (k0_off1 c 2#32 512#32) S4096x512.size (k0_off1_inb c 2 1)) (fun _ => rfl)).view.set :=
  wslice_disjoint c 3 2 0 1 (by decide)
theorem wslice_disj_3 (c : Dev nD) :
    Disjoint (wM.slice (Rect.unit (s := S4096x8192) (k0_off1 c 4#32 0#32) S4096x512.size (k0_off1_inb c 4 0)) (fun _ => rfl)).view.set
      (wM.slice (Rect.unit (s := S4096x8192) (k0_off1 c 3#32 512#32) S4096x512.size (k0_off1_inb c 3 1)) (fun _ => rfl)).view.set :=
  wslice_disjoint c 4 3 0 1 (by decide)
theorem wslice_disj_4 (c : Dev nD) :
    Disjoint (wM.slice (Rect.unit (s := S4096x8192) (k0_off1 c 5#32 0#32) S4096x512.size (k0_off1_inb c 5 0)) (fun _ => rfl)).view.set
      (wM.slice (Rect.unit (s := S4096x8192) (k0_off1 c 4#32 512#32) S4096x512.size (k0_off1_inb c 4 1)) (fun _ => rfl)).view.set :=
  wslice_disjoint c 5 4 0 1 (by decide)
theorem wslice_disj_5 (c : Dev nD) :
    Disjoint (wM.slice (Rect.unit (s := S4096x8192) (k0_off1 c 6#32 0#32) S4096x512.size (k0_off1_inb c 6 0)) (fun _ => rfl)).view.set
      (wM.slice (Rect.unit (s := S4096x8192) (k0_off1 c 5#32 512#32) S4096x512.size (k0_off1_inb c 5 1)) (fun _ => rfl)).view.set :=
  wslice_disjoint c 6 5 0 1 (by decide)
theorem wslice_disj_6 (c : Dev nD) :
    Disjoint (wM.slice (Rect.unit (s := S4096x8192) (k0_off1 c 7#32 0#32) S4096x512.size (k0_off1_inb c 7 0)) (fun _ => rfl)).view.set
      (wM.slice (Rect.unit (s := S4096x8192) (k0_off1 c 6#32 512#32) S4096x512.size (k0_off1_inb c 6 1)) (fun _ => rfl)).view.set :=
  wslice_disjoint c 7 6 0 1 (by decide)
theorem wslice_disj_7 (c : Dev nD) :
    Disjoint (wM.slice (Rect.unit (s := S4096x8192) (k0_off1 c 0#32 0#32) S4096x512.size (k0_off1_inb c 0 0)) (fun _ => rfl)).view.set
      (wM.slice (Rect.unit (s := S4096x8192) (k0_off1 c 7#32 512#32) S4096x512.size (k0_off1_inb c 7 1)) (fun _ => rfl)).view.set :=
  wslice_disjoint c 0 7 0 1 (by decide)
theorem wslice_disj_same_0 (c : Dev nD) :
    Disjoint (wM.slice (Rect.unit (s := S4096x8192) (k0_off1 c 0#32 512#32) S4096x512.size (k0_off1_inb c 0 1)) (fun _ => rfl)).view.set
      (wM.slice (Rect.unit (s := S4096x8192) (k0_off1 c 0#32 0#32) S4096x512.size (k0_off1_inb c 0 0)) (fun _ => rfl)).view.set :=
  wslice_disjoint c 0 0 1 0 (by decide)
theorem wslice_disj_same_1 (c : Dev nD) :
    Disjoint (wM.slice (Rect.unit (s := S4096x8192) (k0_off1 c 1#32 512#32) S4096x512.size (k0_off1_inb c 1 1)) (fun _ => rfl)).view.set
      (wM.slice (Rect.unit (s := S4096x8192) (k0_off1 c 1#32 0#32) S4096x512.size (k0_off1_inb c 1 0)) (fun _ => rfl)).view.set :=
  wslice_disjoint c 1 1 1 0 (by decide)
theorem wslice_disj_same_2 (c : Dev nD) :
    Disjoint (wM.slice (Rect.unit (s := S4096x8192) (k0_off1 c 2#32 512#32) S4096x512.size (k0_off1_inb c 2 1)) (fun _ => rfl)).view.set
      (wM.slice (Rect.unit (s := S4096x8192) (k0_off1 c 2#32 0#32) S4096x512.size (k0_off1_inb c 2 0)) (fun _ => rfl)).view.set :=
  wslice_disjoint c 2 2 1 0 (by decide)
theorem wslice_disj_same_3 (c : Dev nD) :
    Disjoint (wM.slice (Rect.unit (s := S4096x8192) (k0_off1 c 3#32 512#32) S4096x512.size (k0_off1_inb c 3 1)) (fun _ => rfl)).view.set
      (wM.slice (Rect.unit (s := S4096x8192) (k0_off1 c 3#32 0#32) S4096x512.size (k0_off1_inb c 3 0)) (fun _ => rfl)).view.set :=
  wslice_disjoint c 3 3 1 0 (by decide)
theorem wslice_disj_same_4 (c : Dev nD) :
    Disjoint (wM.slice (Rect.unit (s := S4096x8192) (k0_off1 c 4#32 512#32) S4096x512.size (k0_off1_inb c 4 1)) (fun _ => rfl)).view.set
      (wM.slice (Rect.unit (s := S4096x8192) (k0_off1 c 4#32 0#32) S4096x512.size (k0_off1_inb c 4 0)) (fun _ => rfl)).view.set :=
  wslice_disjoint c 4 4 1 0 (by decide)
theorem wslice_disj_same_5 (c : Dev nD) :
    Disjoint (wM.slice (Rect.unit (s := S4096x8192) (k0_off1 c 5#32 512#32) S4096x512.size (k0_off1_inb c 5 1)) (fun _ => rfl)).view.set
      (wM.slice (Rect.unit (s := S4096x8192) (k0_off1 c 5#32 0#32) S4096x512.size (k0_off1_inb c 5 0)) (fun _ => rfl)).view.set :=
  wslice_disjoint c 5 5 1 0 (by decide)
theorem wslice_disj_same_6 (c : Dev nD) :
    Disjoint (wM.slice (Rect.unit (s := S4096x8192) (k0_off1 c 6#32 512#32) S4096x512.size (k0_off1_inb c 6 1)) (fun _ => rfl)).view.set
      (wM.slice (Rect.unit (s := S4096x8192) (k0_off1 c 6#32 0#32) S4096x512.size (k0_off1_inb c 6 0)) (fun _ => rfl)).view.set :=
  wslice_disjoint c 6 6 1 0 (by decide)
theorem wslice_disj_same_7 (c : Dev nD) :
    Disjoint (wM.slice (Rect.unit (s := S4096x8192) (k0_off1 c 7#32 512#32) S4096x512.size (k0_off1_inb c 7 1)) (fun _ => rfl)).view.set
      (wM.slice (Rect.unit (s := S4096x8192) (k0_off1 c 7#32 0#32) S4096x512.size (k0_off1_inb c 7 0)) (fun _ => rfl)).view.set :=
  wslice_disjoint c 7 7 1 0 (by decide)

/-! ## The device's rows of x as the body finds them -/

/-- The staged block of x is the device's rows: the window is the whole array. -/
theorem xstg_eq (c : Dev nD) : xstg m c = xs m c := by
  funext x
  unfold xstg xs
  rw [View.read_apply, cast_eq]
  refine congrArg (m ((c : Thread nD τ).loc main_arg0)) (funext fun a => Fin.ext ?_)
  exact Window.rect_emb_val_of_index_zero win0_0 (0 : Fin 1) a rfl x

/-- What the staging buffer of x holds when the body runs: the device's rows, whatever it held before the fetch. -/
theorem x_before (c : Dev nD) (d) : (dats (F := F) m 0 c).before (0 : Fin 2) t0_0 d = xs m c := by
  unfold Dat.before
  rw [if_pos (fetch0_0 t0_0)]
  exact xstg_eq m c

/-- A load of the whole staging buffer of x reads its contents. -/
theorem x_readAt (f : Vec F S512x4096 .f32) :
    View.readAt (Elt F) xM.view (Rect.unit (s := S512x4096) ![0, 0] S512x4096.size inb_S512x4096_S512x4096_0_0).toLoadRect f = f :=
  Memref.readAt_unit_zero (Elt F) cc0_stg0_0 (funext fun a => by fin_cases a <;> rfl) _ f

/-- The block g stored at slot v last, after any earlier stores, leaves the send buffer holding g on slot v. -/
theorem slot_store_writes (v : Fin 14) (inb) (f : sM.view.ty.Contents (Elt F)) (g : FVec F S1x512x512 .bf16)
    (L : List (View.Piece (Elt F) S14x512x512 .bf16)) :
    ∀ i ∈ (sSlot v).view.set,
      (sM.view.writes (Elt F) f ((⟨Rect.unit (s := S14x512x512) ![v.val, 0, 0] S1x512x512.size inb, g⟩ : View.Piece (Elt F) S14x512x512 .bf16) :: L)) i
        = slotBuf g i :=
  slot_store v inb (sM.view.writes (Elt F) f L) g

end Cert.KernelIdeal.A2A

end
-- ==== Proof.Steps.lean ====
/-
  The rounds rules at this protocol's cells: the barrier signal and the barrier wait, the transfer of one slot, and the
  waits on a slot's send cell and receive cell, each with the schedule's side conditions discharged from the tables, so
  that a step of the body at one of these operations is a single application.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Facts

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

/-- The credit a wait on a slot consumes is the slot's, whichever of the two buffers it names. -/
theorem credit_sSlot (v : Fin 14) : (sSlot v).view.dmaCredit = N := rfl
theorem credit_rSlot (v : Fin 14) : (rSlot v).view.dmaCredit = N := rfl

/-- The signal of one unit to device k's barrier cell, paying the duty dutyTo c k with its payload. -/
theorem wp_signal_bar (K : Dev nD × Fin 29 → ℕ) (c k dst : Dev nD) (hdst : dst = k)
    {α : Type} {Q : α → sProp 𝕄} {cont : PUnit → Prog (TpuEff nD τ sig (Elt F) Λ₀ .tc) α}
    (O : CellTallies nD τ sig Unit) (W : Waits sig Unit) :
    iprop(cellInv ER (sched m) (K (k, bIx)) (barCell k) ∗ owes (c : Thread nD τ) (O + bT k) W ∗ dutyTok ER (barCell k) 0 (dutyTo c k)
        ∗ barPay (F := F) k (dutyTo c k) ∗ reached ER (barCell k) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (dst : Thread nD τ) barS 1) cont) Q) := by
  subst hdst
  exact Rounds.wp_signal 𝒱₀ ER (sched m) (c : Thread nD τ) none (dst := (dst : Thread nD τ)) (sem := barS) (r := 0) (d := dutyTo c dst)
    (κ := K (dst, bIx)) (by rw [duties_bar]; exact Finset.mem_univ _) (amount_bar m dst _) () O rfl

/-- The wait for the eight units of the own barrier cell, owing the fourteen receive credits: every slot a transfer will
    write into comes with it. -/
theorem wp_wait_bar (K : Dev nD × Fin 29 → ℕ) (c : Dev nD)
    {α : Type} {Q : α → sProp 𝕄} {cont : PUnit → Prog (TpuEff nD τ sig (Elt F) Λ₀ .tc) α}
    (W : Waits sig Unit) :
    iprop(cellInv ER (sched m) (K (c, bIx)) (barCell c) ∗ cred (tallyAt (barCell c) () 8) ∗ owes (c : Thread nD τ) (OR c) W ∗ levAts L lv
        ∗ atPos ER (barCell c) 0 ∅ 0)
      ⊢ iprop(((owes (c : Thread nD τ) (OR c) (insert (.reg barS, ()) W) ∗ atPos ER (barCell c) (0 + 1) ∅ 0 ∗ reached ER (barCell c) (0 + 1)
              ∗ bigSep Finset.univ fun v : Fin 14 => iprop(∃ f, slotPts (F := F) rM (peer c (shiftOf v)) v f))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS 8) cont) Q) := by
  iintro ⟨Hg, Hc, HO, #Hlev, Hat⟩ Hk
  iapply (Rounds.wp_wait_rest_token 𝒱₀ ER (sched m) (c : Thread nD τ) none (κ := K (c, bIx))
      (wpE_semWait_eq 𝒱₀ (c : Thread nD τ) none Set.univ) (Set.mem_univ _) () (O := OR c) (W := W) (R := 0) (m := 0) (T := ∅)
      (by rw [expect_bar])) $$ [Hg Hc HO Hat]
  · isplitl [Hg]; · iexact Hg
    isplitl [Hc]; · iexact Hc
    isplitl [HO]; · iexact HO
    isplitr; · iapply (mayWait_bar_OR c); iexact Hlev
    iexact Hat
  iintro ⟨HO, Hat, Hr, Hpay⟩
  ihave Hp := (Entails.of_eq (rest_bar m c)) $$ Hpay
  ihave Hs := (got_gifts c) $$ Hp
  iapply Hk
  isplitl [HO]; · iexact HO
  isplitl [Hat]; · iexact Hat
  isplitl [Hr]; · iexact Hr
  iexact Hs

/-! ## The waits on a slot's two cells -/

/-- The wait on the send cell of slot v, nothing owed: the source slot comes back. -/
theorem wp_wait_send_slot (K : Dev nD × Fin 29 → ℕ) (c : Dev nD) (v : Fin 14)
    {hsrc : (rSlot v).view.WordExact} {hdst : (sSlot v).view.WordExact}
    {α : Type} {Q : α → sProp 𝕄} {cont : PUnit → Prog (TpuEff nD τ sig (Elt F) Λ₀ .tc) α}
    (W : Waits sig Unit) :
    iprop(cellInv ER (sched m) (K (c, sIx v)) (sendCell c v) ∗ cred (tallyAt (sendCell c v) () N) ∗ owes (c : Thread nD τ) 0 W
        ∗ atPos ER (sendCell c v) 0 ∅ 0)
      ⊢ iprop(((owes (c : Thread nD τ) 0 (insert (.dma (sendSem v), ()) W) ∗ atPos ER (sendCell c v) (0 + 1) ∅ 0
              ∗ ∃ f, slotPts (F := F) sM c v f)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendSem v) (rSlot v) (sSlot v) hsrc hdst) cont) Q) := by
  iintro ⟨Hg, Hc, HO, Hat⟩ Hk
  iapply (Rounds.wp_wait_rest_token 𝒱₀ ER (sched m) (c : Thread nD τ) none (κ := K (c, sIx v))
      (wpE_waitDma2_eq 𝒱₀ (c : Thread nD τ) none Set.univ) (Set.mem_univ _) () (O := 0) (W := W) (R := 0) (m := 0) (T := ∅)
      (by rw [Nat.zero_add, expect_send])) $$ [Hg Hc HO Hat]
  · isplitl [Hg]; · iexact Hg
    isplitl [Hc]; · iexact Hc
    isplitl [HO]; · iexact HO
    isplitr; · rw [MayWait_zero]; iempintro
    iexact Hat
  iintro ⟨HO, Hat, -, Hpay⟩
  ihave Hp := (Entails.of_eq (rest_send m c v)) $$ Hpay
  iapply Hk
  isplitl [HO]; · iexact HO
  isplitl [Hat]; · iexact Hat
  unfold sendPay
  iexact Hp

/-- The same while still owing any part of the launch debt: the send cells lie below all of it. -/
theorem wp_wait_send_slot_owing (K : Dev nD × Fin 29 → ℕ) (c : Dev nD) (v : Fin 14)
    {hsrc : (rSlot v).view.WordExact} {hdst : (sSlot v).view.WordExact}
    {α : Type} {Q : α → sProp 𝕄} {cont : PUnit → Prog (TpuEff nD τ sig (Elt F) Λ₀ .tc) α}
    (O : CellTallies nD τ sig Unit) (hO : O ≤ O₀ c) (W : Waits sig Unit) :
    iprop(cellInv ER (sched m) (K (c, sIx v)) (sendCell c v) ∗ cred (tallyAt (sendCell c v) () N) ∗ owes (c : Thread nD τ) O W ∗ levAts L lv
        ∗ atPos ER (sendCell c v) 0 ∅ 0)
      ⊢ iprop(((owes (c : Thread nD τ) O (insert (.dma (sendSem v), ()) W) ∗ atPos ER (sendCell c v) (0 + 1) ∅ 0
              ∗ ∃ f, slotPts (F := F) sM c v f)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendSem v) (rSlot v) (sSlot v) hsrc hdst) cont) Q) := by
  iintro ⟨Hg, Hc, HO, #Hlev, Hat⟩ Hk
  iapply (Rounds.wp_wait_rest_token 𝒱₀ ER (sched m) (c : Thread nD τ) none (κ := K (c, sIx v))
      (wpE_waitDma2_eq 𝒱₀ (c : Thread nD τ) none Set.univ) (Set.mem_univ _) () (O := O) (W := W) (R := 0) (m := 0) (T := ∅)
      (by rw [Nat.zero_add, expect_send])) $$ [Hg Hc HO Hat]
  · isplitl [Hg]; · iexact Hg
    isplitl [Hc]; · iexact Hc
    isplitl [HO]; · iexact HO
    isplitr; · iapply (mayWait_low c (sendSem v) (by show 4 + v.val < 18; have := v.isLt; omega) O hO); iexact Hlev
    iexact Hat
  iintro ⟨HO, Hat, -, Hpay⟩
  ihave Hp := (Entails.of_eq (rest_send m c v)) $$ Hpay
  iapply Hk
  isplitl [HO]; · iexact HO
  isplitl [Hat]; · iexact Hat
  unfold sendPay
  iexact Hp

/-- The wait on the receive cell of slot v, nothing owed: the slot comes holding what the device shiftOf v places before
    computed for it. -/
theorem wp_wait_recv_slot (K : Dev nD × Fin 29 → ℕ) (c : Dev nD) (v : Fin 14)
    {hsrc : (sSlot v).view.WordExact} {hdst : (rSlot v).view.WordExact}
    {α : Type} {Q : α → sProp 𝕄} {cont : PUnit → Prog (TpuEff nD τ sig (Elt F) Λ₀ .tc) α}
    (W : Waits sig Unit) :
    iprop(cellInv ER (sched m) (K (c, rIx v)) (recvCell c v) ∗ cred (tallyAt (recvCell c v) () N) ∗ owes (c : Thread nD τ) 0 W
        ∗ atPos ER (recvCell c v) 0 ∅ 0)
      ⊢ iprop(((owes (c : Thread nD τ) 0 (insert (.dma (recvSem v), ()) W) ∗ atPos ER (recvCell c v) (0 + 1) ∅ 0
              ∗ slotPts rM c v (slotBuf (sent m (back c (shiftOf v)) v)))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvSem v) (sSlot v) (rSlot v) hsrc hdst) cont) Q) := by
  iintro ⟨Hg, Hc, HO, Hat⟩ Hk
  iapply (Rounds.wp_wait_rest_token 𝒱₀ ER (sched m) (c : Thread nD τ) none (κ := K (c, rIx v))
      (wpE_waitDma2_eq 𝒱₀ (c : Thread nD τ) none Set.univ) (Set.mem_univ _) () (O := 0) (W := W) (R := 0) (m := 0) (T := ∅)
      (by rw [Nat.zero_add, expect_recv])) $$ [Hg Hc HO Hat]
  · isplitl [Hg]; · iexact Hg
    isplitl [Hc]; · iexact Hc
    isplitl [HO]; · iexact HO
    isplitr; · rw [MayWait_zero]; iempintro
    iexact Hat
  iintro ⟨HO, Hat, -, Hpay⟩
  ihave Hp := (Entails.of_eq (rest_recv m c v)) $$ Hpay
  iapply Hk
  isplitl [HO]; · iexact HO
  isplitl [Hat]; · iexact Hat
  unfold recvPay
  iexact Hp

/-! ## The transfer of one slot -/

/-- The transfer of slot v to the device shiftOf v places on, given what lands there: the send cell's duty is paid with
    the source slot, the target's receive cell's with the slot written. -/
theorem wp_send_slot_of (K : Dev nD × Fin 29 → ℕ) (c n : Dev nD) (v : Fin 14) (hn : n = peer c (shiftOf v))
    {hsc : (rSlot v : Memref sig (Dev.tc n : Thread nD τ).2.kind .vmem S512x512 .bf16).view.ref.isScScratch = false}
    {hsrc : (sSlot v).view.WordExact} {hdst : (rSlot v).view.WordExact}
    {hsem : DmaTarget.Typed .vmem (.dma (recvSem v)) (.remote (Dev.tc n : Thread nD τ) (rSlot v) (.dma (sendSem v)) hsc)}
    {α : Type} {Q : α → sProp 𝕄} {cont : PUnit → Prog (TpuEff nD τ sig (Elt F) Λ₀ .tc) α}
    (fs : Buf (Elt F) ((sSlot v).view.loc (c : Thread nD τ))) (fn : Buf (Elt F) ((rSlot v).view.loc (peer c (shiftOf v) : Thread nD τ)))
    (hland : ∀ i ∈ (rSlot v).view.set, (rSlot v).view.write (Elt F) fn ((sSlot v).view.read (Elt F) fs) Finset.univ i = slotBuf (sent m c v) i)
    (O : CellTallies nD τ sig Unit) (W : Waits sig Unit) :
    iprop(cellInv ER (sched m) (K (c, sIx v)) (sendCell c v) ∗ cellInv ER (sched m) (K (peer c (shiftOf v), rIx v)) (recvCell (peer c (shiftOf v)) v)
        ∗ slotPts sM c v fs ∗ slotPts rM (peer c (shiftOf v)) v fn
        ∗ owes (c : Thread nD τ) (O + rT c v) W
        ∗ dutyTok ER (sendCell c v) 0 0 ∗ reached ER (sendCell c v) 0
        ∗ dutyTok ER (recvCell (peer c (shiftOf v)) v) 0 0 ∗ reached ER (recvCell (peer c (shiftOf v)) v) 0)
      ⊢ iprop(((cred (tallyAt (sendCell c v) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (sSlot v) (.remote (Dev.tc n : Thread nD τ) (rSlot v) (.dma (sendSem v)) hsc) (.dma (recvSem v)) hsrc hdst hsem) cont) Q) := by
  subst hn
  unfold slotPts
  exact Rounds.wp_send_pointsTo 𝒱₀ ER (sched m) (c : Thread nD τ) none (κ₁ := K (c, sIx v)) (κ₂ := K (peer c (shiftOf v), rIx v))
    (r₁ := 0) (r₂ := 0) (d₁ := 0) (d₂ := 0) (fs := fs) (fd := fn)
    (by rw [duties_send]; exact Finset.mem_singleton_self _) (by rw [duties_recv]; exact Finset.mem_singleton_self _)
    () () N rfl (amount_send m c v 0) (amount_recv m (peer c (shiftOf v)) v 0) O rfl (W := W)
    (by rw [payload_send]; unfold sendPay slotPts; iintro H; iexists fs; iexact H)
    (by rw [payload_recv]; unfold recvPay slotPts; rw [back_peer]; exact Entails.of_eq (pointsTo_congr hland))

/-- The transfer of slot v when the source slot holds, on its elements, what the device computed for it. -/
theorem wp_send_slot (K : Dev nD × Fin 29 → ℕ) (c n : Dev nD) (v : Fin 14) (hn : n = peer c (shiftOf v))
    {hsc : (rSlot v : Memref sig (Dev.tc n : Thread nD τ).2.kind .vmem S512x512 .bf16).view.ref.isScScratch = false}
    {hsrc : (sSlot v).view.WordExact} {hdst : (rSlot v).view.WordExact}
    {hsem : DmaTarget.Typed .vmem (.dma (recvSem v)) (.remote (Dev.tc n : Thread nD τ) (rSlot v) (.dma (sendSem v)) hsc)}
    {α : Type} {Q : α → sProp 𝕄} {cont : PUnit → Prog (TpuEff nD τ sig (Elt F) Λ₀ .tc) α}
    (fs : Buf (Elt F) ((sSlot v).view.loc (c : Thread nD τ))) (fn : Buf (Elt F) ((rSlot v).view.loc (peer c (shiftOf v) : Thread nD τ)))
    (hfs : ∀ i ∈ (sSlot v).view.set, fs i = slotBuf (sent m c v) i)
    (O : CellTallies nD τ sig Unit) (W : Waits sig Unit) :
    iprop(cellInv ER (sched m) (K (c, sIx v)) (sendCell c v) ∗ cellInv ER (sched m) (K (peer c (shiftOf v), rIx v)) (recvCell (peer c (shiftOf v)) v)
        ∗ slotPts sM c v fs ∗ slotPts rM (peer c (shiftOf v)) v fn
        ∗ owes (c : Thread nD τ) (O + rT c v) W
        ∗ dutyTok ER (sendCell c v) 0 0 ∗ reached ER (sendCell c v) 0
        ∗ dutyTok ER (recvCell (peer c (shiftOf v)) v) 0 0 ∗ reached ER (recvCell (peer c (shiftOf v)) v) 0)
      ⊢ iprop(((cred (tallyAt (sendCell c v) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (sSlot v) (.remote (Dev.tc n : Thread nD τ) (rSlot v) (.dma (sendSem v)) hsc) (.dma (recvSem v)) hsrc hdst hsem) cont) Q) :=
  wp_send_slot_of m K c n v hn fs fn (slot_landing v (sent m c v) fn fs hfs) O W

/-! ## The barrier's two operations with their amounts spelt as the printed words -/

theorem wp_signal_bar_word (K : Dev nD × Fin 29 → ℕ) (c k dst : Dev nD) (hdst : dst = k)
    {α : Type} {Q : α → sProp 𝕄} {cont : PUnit → Prog (TpuEff nD τ sig (Elt F) Λ₀ .tc) α}
    (O : CellTallies nD τ sig Unit) (W : Waits sig Unit) :
    iprop(cellInv ER (sched m) (K (k, bIx)) (barCell k) ∗ owes (c : Thread nD τ) (O + bT k) W ∗ dutyTok ER (barCell k) 0 (dutyTo c k)
        ∗ barPay (F := F) k (dutyTo c k) ∗ reached ER (barCell k) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (dst : Thread nD τ) barS (1#32).toNat) cont) Q) :=
  wp_signal_bar m K c k dst hdst O W

theorem wp_wait_bar_word (K : Dev nD × Fin 29 → ℕ) (c : Dev nD)
    {α : Type} {Q : α → sProp 𝕄} {cont : PUnit → Prog (TpuEff nD τ sig (Elt F) Λ₀ .tc) α}
    (W : Waits sig Unit) :
    iprop(cellInv ER (sched m) (K (c, bIx)) (barCell c) ∗ cred (tallyAt (barCell c) () 8) ∗ owes (c : Thread nD τ) (OR c) W ∗ levAts L lv
        ∗ atPos ER (barCell c) 0 ∅ 0)
      ⊢ iprop(((owes (c : Thread nD τ) (OR c) (insert (.reg barS, ()) W) ∗ atPos ER (barCell c) (0 + 1) ∅ 0 ∗ reached ER (barCell c) (0 + 1)
              ∗ bigSep Finset.univ fun v : Fin 14 => iprop(∃ f, slotPts (F := F) rM (peer c (shiftOf v)) v f))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (8#32).toNat) cont) Q) :=
  wp_wait_bar m K c W

end Cert.KernelIdeal.A2A

end
-- ==== Proof.Slab.lean ====
/-
  Pure facts about the two weight-slab slots and the launch debt that the run of one sub-step of the body uses: a device
  that still owes its receive credits owes part of its launch debt; a load of one scratch slot sees nothing of a write
  through the other; and so the slab a sub-step loads is the specification's, although the copy of the NEXT slab into the
  other slot was issued before the wait for this one.
-/
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Facts

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The debt after the barrier is part of the launch debt -/

/-- What a device owes after the barrier, its fourteen receive credits, is part of what it owes at launch. -/
theorem OR_le_O₀ (c : Dev nD) : OR c ≤ O₀ c := by
  unfold O₀
  iterate 8 (refine le_trans ?_ le_self_add)
  exact le_rfl

/-! ## The two slots of the weight scratch -/

open Idealize.ShloMosaic.ValueIdx in
/-- A load of scratch slot i reads nothing of a write through scratch slot i' ≠ i: the load's elements have first
    coordinate i, the write's i'. -/
theorem slab_read_under (i i' : Fin 2) (hne : i ≠ i') (inbK') (inbK1) (g : Vec F S2x4096x512 .f32) (p : S4096x512.Idx → Elt F .f32) :
    kM.view.readAt (Elt F) (Rect.unit (s := S2x4096x512) ![i.val, 0, 0] S1x4096x512.size inbK').toLoadRect
      (((kM.slice (Rect.unit (s := S2x4096x512) ![i'.val, 0, 0] S1x4096x512.size inbK1) (fun _ => rfl)).squeeze S4096x512
          squeezes_S1x4096x512_S4096x512).view.write (Elt F) g p Finset.univ)
    = kM.view.readAt (Elt F) (Rect.unit (s := S2x4096x512) ![i.val, 0, 0] S1x4096x512.size inbK').toLoadRect g := by
  funext y
  rw [View.readAt_apply, View.read_apply, View.readAt_apply, View.read_apply, cast_eq, cast_eq]
  refine View.write_of_not_mem _ _ _ ?_
  rw [View.setOn_univ]
  intro hmem
  obtain ⟨x, hx⟩ := View.exists_emb_of_mem_set _ hmem
  have h1 : (kM.view.emb ((Rect.unit (s := S2x4096x512) ![i.val, 0, 0] S1x4096x512.size inbK').toLoadRect.idx y) : S2x4096x512.Idx)
      = (Rect.unit (s := S2x4096x512) ![i.val, 0, 0] S1x4096x512.size inbK').emb y := rfl
  have h2 : (((kM.slice (Rect.unit (s := S2x4096x512) ![i'.val, 0, 0] S1x4096x512.size inbK1) (fun _ => rfl)).squeeze S4096x512
          squeezes_S1x4096x512_S4096x512).view.emb x : S2x4096x512.Idx)
      = (Rect.unit (s := S2x4096x512) ![i'.val, 0, 0] S1x4096x512.size inbK1).emb (Shape.reshapeEquiv _ x) := rfl
  rw [h1, slabRect_emb] at hx
  rw [h2, squeezeK_idx, slabRect_emb] at hx
  have h0 := congrArg (fun j : S2x4096x512.Idx => (j 0).val) hx
  exact hne (Fin.ext h0.symm)

/-- Scratch slot i after columns [1024 j + 512 t, + 512) of W were copied into it, read back as a block while a later
    write through the other slot i' sits over it: the slab all the same. -/
theorem slab_read_next (i i' : Fin 2) (hne : i ≠ i') (j : Fin 8) (t : Fin 2) {off : Fin 2 → ℕ} (hoff : off = ![0, 1024 * j.val + 512 * t.val])
    (inbW) (inbK) (inbK') (inbK1) (fd : Vec F S2x4096x512 .f32) (W : Vec F S4096x8192 .f32) (p : S4096x512.Idx → Elt F .f32) :
    kM.view.readAt (Elt F) (Rect.unit (s := S2x4096x512) ![i.val, 0, 0] S1x4096x512.size inbK').toLoadRect
      (((kM.slice (Rect.unit (s := S2x4096x512) ![i'.val, 0, 0] S1x4096x512.size inbK1) (fun _ => rfl)).squeeze S4096x512
          squeezes_S1x4096x512_S4096x512).view.write (Elt F)
        (((kM.slice (Rect.unit (s := S2x4096x512) ![i.val, 0, 0] S1x4096x512.size inbK) (fun _ => rfl)).squeeze S4096x512
            squeezes_S1x4096x512_S4096x512).view.write (Elt F) fd
          (ReadAs.same.apply ((wM.slice (Rect.unit (s := S4096x8192) off S4096x512.size inbW) (fun _ => rfl)).view.read (Elt F) W))
          Finset.univ)
        p Finset.univ)
      = wslab W j t :=
  (slab_read_under i i' hne inbK' inbK1 _ p).trans (slab_read i j t hoff inbW inbK inbK' fd W)

/-- The first sub-step's slab: slot 0 holds the columns of the device one place on, half 0, under the copy of half 1
    into slot 1. -/
theorem slab_read_1_0 (c : Dev nD) (fk : Vec F S2x4096x512 .f32) (p : S4096x512.Idx → Elt F .f32) (inbK') (inbK0) (inbK1) :
    kM.view.readAt (Elt F) (Rect.unit (s := S2x4096x512) ![0, 0, 0] S1x4096x512.size inbK').toLoadRect
      (((kM.slice (Rect.unit (s := S2x4096x512) ![1, 0, 0] S1x4096x512.size inbK1) (fun _ => rfl)).squeeze S4096x512
          squeezes_S1x4096x512_S4096x512).view.write (Elt F)
        (((kM.slice (Rect.unit (s := S2x4096x512) ![0, 0, 0] S1x4096x512.size inbK0) (fun _ => rfl)).squeeze S4096x512
            squeezes_S1x4096x512_S4096x512).view.write (Elt F) fk
          (ReadAs.same.apply ((wM.slice (Rect.unit (s := S4096x8192) (k0_off1 c 1#32 0#32) S4096x512.size (k0_off1_inb c 1 0)) (fun _ => rfl)).view.read (Elt F) (ws m c)))
          Finset.univ)
        p Finset.univ)
    = wslab (ws m c) (peer c 1) 0 :=
  slab_read_next (0 : Fin 2) (1 : Fin 2) (by decide) (peer c 1) (0 : Fin 2) (off1_eq c 1 0) _ inbK0 inbK' inbK1 fk (ws m c) p

end Cert.KernelIdeal.A2A

end
-- ==== Proof.Arrive.lean ====
/-
  The fourteen arrivals at the end of a device's body: for each slot, the wait on its send cell (the source slot comes
  back), the wait on its receive cell (the slot comes holding the sender's block), the load of the block, and its
  store, widened, into the rows of the result that belong to the sender.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Facts
import proofs.«900797_g7700000000000798_dist_gemm_a2a_m4096_k4096_n8192_f32_relu_v7x_i8_1_alg».proof.Proof.Steps
import proofs.«900797_g7700000000000798_dist_gemm_a2a_m4096_k4096_n8192_f32_relu_v7x_i8_1_alg».proof.Proof.Gen.KernelIdeal.Skeleton

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two memory steps of an arrival -/

/-- The elements a load of slot v's rectangle reads are the slot's. -/
theorem load_slot_subset (v : Fin 14) (inb : ∀ a, (![v.val, 0, 0] : Fin 3 → Nat) a + S1x512x512.size a ≤ S14x512x512.size a) :
    rM.view.setOn (Rect.unit (s := S14x512x512) ![v.val, 0, 0] S1x512x512.size inb).toLoadRect.set ⊆ (rSlot v).view.set :=
  Finset.Subset.trans (Finset.Subset.refl _) (le_of_eq (slotSet_eq rM (0 : Dev nD) v).symm)

/-- The load of slot v of the receive buffer, the slot held at a block read at every slot alike: the block. -/
theorem wp_load_slot (c : Dev nD) (v : Fin 14) {inb : ∀ a, (![v.val, 0, 0] : Fin 3 → Nat) a + S1x512x512.size a ≤ S14x512x512.size a}
    {hl : rM.view.LoadsAt (Rect.unit (s := S14x512x512) ![v.val, 0, 0] S1x512x512.size inb).toLoadRect}
    {α : Type} {Q : α → sProp 𝕄}
    {k : ((Rect.unit (s := S14x512x512) ![v.val, 0, 0] S1x512x512.size inb).toLoadRect.shape.Idx → Elt F .bf16) → Prog (TpuEff nD τ sig (Elt F) Λ₀ .tc) α}
    (g : FVec F S1x512x512 .bf16) :
    (slotPts rM c v (slotBuf g) : sProp 𝕄)
      ⊢ iprop((slotPts rM c v (slotBuf g) -∗ wp frame (wpE (defs₀ (F := F)) 𝒱₀ (c : Thread nD τ) none) Set.univ (k g) Q)
          -∗ wp frame (wpE (defs₀ (F := F)) 𝒱₀ (c : Thread nD τ) none) Set.univ (.op (.load rM (Rect.unit (s := S14x512x512) ![v.val, 0, 0] S1x512x512.size inb).toLoadRect hl) k) Q) := by
  unfold slotPts
  have h := wp_load (Q := Q) (Γ := .empty) 𝒱₀ (c : Thread nD τ) none Set.univ (defs := defs₀ (F := F)) (m := rM) (hl := hl) (k := k)
    (S := ((rSlot v).view.set : Finset (Idx (rM.view.loc (c : Thread nD τ))))) (q := fullShare) (f := slotBuf g) (load_slot_subset v inb)
  rw [slot_load v inb g] at h
  exact h

/-- The swap into the result: the load of a rectangle of the result staging buffer (its value unused) and the store of a
    block there, the buffer held whole. -/
theorem wp_swap_out (c : Dev nD) {r : Rect S4096x1024} {hl : oM.view.LoadsAt r.toLoadRect} {w : r.shape.Idx → Elt F .f32}
    {hx : (oM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (fo : Buf (Elt F) (oM.view.loc (c : Thread nD τ))) :
    (oM.view.loc (c : Thread nD τ) ↦[oM.view.set]{fullShare} fo : sProp 𝕄)
      ⊢ iprop(((oM.view.loc (c : Thread nD τ) ↦[oM.view.set]{fullShare} ((oM.access r).write (Elt F) fo w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.load oM r.toLoadRect hl) fun _ => .op (.store oM r w Finset.univ hx hm) k) Q) := by
  have h1 := wp_load (Q := Q) (Γ := .empty) 𝒱₀ (c : Thread nD τ) none Set.univ (defs := defs₀ (F := F)) (m := oM) (r := r.toLoadRect) (hl := hl)
    (k := fun _ => .op (.store oM r w Finset.univ hx hm) k)
    (S := (oM.view.set : Finset (Idx (oM.view.loc (c : Thread nD τ))))) (q := fullShare) (f := fo) (View.setOn_subset_set _ _)
  have h2 := wp_store (Q := Q) (Γ := .empty) 𝒱₀ (c : Thread nD τ) none Set.univ (defs := defs₀ (F := F)) (m := oM) (r := r) (w := w) (Mk := Finset.univ)
    (hx := hx) (hm := hm) (k := k)
    (S := (oM.view.set : Finset (Idx ((oM.access r).loc (c : Thread nD τ))))) (f := fo)
    ((View.setOn_subset_set _ _).trans (View.set_slice_subset _ _))
  iintro Ho Hk
  iapply h1 $$ Ho
  iintro Ho
  iapply h2 $$ Ho
  iexact Hk

/-! ## The parts -/

/-- Part 29 of the body: the wait on slot 0's receive cell, the load of slot 0's block, its store into the result. -/
theorem arrive_29 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, rIx 0)) (recvCell c 0)
        ∗ owes (c : Thread nD τ) 0 W
        ∗ cred (tallyAt (recvCell c 0) () N)
        ∗ atPos ER (recvCell c 0) 0 ∅ 0
        ∗ (oM.view.loc (c : Thread nD τ) ↦[oM.view.set]{fullShare} fo))
      ⊢ iprop(((owes (c : Thread nD τ) 0 (insert (.dma (recvSem 0), ()) (W))
            ∗ atPos ER (recvCell c 0) (0 + 1) ∅ 0
            ∗ slotPts rM c 0 (slotBuf (sent m (back c (shiftOf 0)) 0))
            ∗ (oM.view.loc (c : Thread nD τ) ↦[oM.view.set]{fullShare}
                ((oM.access (Rect.unit (s := S4096x1024) (k0_off4 c 1#32) S512x512.size (k0_off4_inb c 0))).write (Elt F) fo (k0_pay1 (sent m (back c (shiftOf 0)) 0)) Finset.univ)))
          -∗ Kt ⟨⟩)
        -∗ wp frame (wpE (defs₀ (F := F)) 𝒱₀ (c : Thread nD τ) none) Set.univ (k0_part29 a0 h0 a1 h1 oM h2 a3 h3 sM h4 rM h5 a6 cc0_scratch4 cc0_scratch5 c v2) Kt) := by
  rw [k0_part29_eq_skeleton]; unfold k0_part29_skel
  simp only [Prog.lift, Prog.bind_op, Prog.bind_ret, Prog.pure_eq_ret]
  iintro ⟨#HiR0, HO, HcR0, HaR0, Ho⟩ Hk
  iapply (wp_wait_recv_slot m K c 0 (W)) $$ [HcR0 HO HaR0]
  · isplitr; · iexact HiR0
    isplitl [HcR0]; · iexact HcR0
    isplitl [HO]; · iexact HO
    iexact HaR0
  iintro ⟨HO, HaR0, Hr0⟩
  iapply (wp_load_slot c 0 (sent m (back c (shiftOf 0)) 0)) $$ Hr0
  iintro Hr0
  iapply (wp_swap_out c fo) $$ Ho
  iintro Ho
  rw [wp_ret]; imodintro
  iapply Hk
  isplitl [HO]; · iexact HO
  isplitl [HaR0]; · iexact HaR0
  isplitl [Hr0]; · iexact Hr0
  iexact Ho

/-- Part 30 of the body: the wait on slot 1's send cell, the wait on slot 1's receive cell, the load of slot 1's block, its store into the result. -/
theorem arrive_30 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, sIx 1)) (sendCell c 1)
        ∗ cellInv ER (sched m) (K (c, rIx 1)) (recvCell c 1)
        ∗ owes (c : Thread nD τ) 0 W
        ∗ cred (tallyAt (sendCell c 1) () N)
        ∗ atPos ER (sendCell c 1) 0 ∅ 0
        ∗ cred (tallyAt (recvCell c 1) () N)
        ∗ atPos ER (recvCell c 1) 0 ∅ 0
        ∗ (oM.view.loc (c : Thread nD τ) ↦[oM.view.set]{fullShare} fo))
      ⊢ iprop(((owes (c : Thread nD τ) 0 (insert (.dma (recvSem 1), ()) (insert (.dma (sendSem 1), ()) (W)))
            ∗ atPos ER (sendCell c 1) (0 + 1) ∅ 0
            ∗ (∃ f, slotPts (F := F) sM c 1 f)
            ∗ atPos ER (recvCell c 1) (0 + 1) ∅ 0
            ∗ slotPts rM c 1 (slotBuf (sent m (back c (shiftOf 1)) 1))
            ∗ (oM.view.loc (c : Thread nD τ) ↦[oM.view.set]{fullShare}
                ((oM.access (Rect.unit (s := S4096x1024) (k0_off5 c 1#32) S512x512.size (k0_off5_inb c 0))).write (Elt F) fo (k0_pay1 (sent m (back c (shiftOf 1)) 1)) Finset.univ)))
          -∗ Kt ⟨⟩)
        -∗ wp frame (wpE (defs₀ (F := F)) 𝒱₀ (c : Thread nD τ) none) Set.univ (k0_part30 a0 h0 a1 h1 oM h2 a3 h3 sM h4 rM h5 a6 cc0_scratch4 cc0_scratch5 c v2) Kt) := by
  rw [k0_part30_eq_skeleton]; unfold k0_part30_skel
  simp only [Prog.lift, Prog.bind_op, Prog.bind_ret, Prog.pure_eq_ret]
  iintro ⟨#HiS1, #HiR1, HO, HcS1, HaS1, HcR1, HaR1, Ho⟩ Hk
  iapply (wp_wait_send_slot m K c 1 (W)) $$ [HcS1 HO HaS1]
  · isplitr; · iexact HiS1
    isplitl [HcS1]; · iexact HcS1
    isplitl [HO]; · iexact HO
    iexact HaS1
  iintro ⟨HO, HaS1, Hs1⟩
  iapply (wp_wait_recv_slot m K c 1 (insert (.dma (sendSem 1), ()) (W))) $$ [HcR1 HO HaR1]
  · isplitr; · iexact HiR1
    isplitl [HcR1]; · iexact HcR1
    isplitl [HO]; · iexact HO
    iexact HaR1
  iintro ⟨HO, HaR1, Hr1⟩
  iapply (wp_load_slot c 1 (sent m (back c (shiftOf 1)) 1)) $$ Hr1
  iintro Hr1
  iapply (wp_swap_out c fo) $$ Ho
  iintro Ho
  rw [wp_ret]; imodintro
  iapply Hk
  isplitl [HO]; · iexact HO
  isplitl [HaS1]; · iexact HaS1
  isplitl [Hs1]; · iexact Hs1
  isplitl [HaR1]; · iexact HaR1
  isplitl [Hr1]; · iexact Hr1
  iexact Ho

/-- Part 31 of the body: the wait on slot 2's send cell, the wait on slot 2's receive cell, the load of slot 2's block, its store into the result. -/
theorem arrive_31 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, sIx 2)) (sendCell c 2)
        ∗ cellInv ER (sched m) (K (c, rIx 2)) (recvCell c 2)
        ∗ owes (c : Thread nD τ) 0 W
        ∗ cred (tallyAt (sendCell c 2) () N)
        ∗ atPos ER (sendCell c 2) 0 ∅ 0
        ∗ cred (tallyAt (recvCell c 2) () N)
        ∗ atPos ER (recvCell c 2) 0 ∅ 0
        ∗ (oM.view.loc (c : Thread nD τ) ↦[oM.view.set]{fullShare} fo))
      ⊢ iprop(((owes (c : Thread nD τ) 0 (insert (.dma (recvSem 2), ()) (insert (.dma (sendSem 2), ()) (W)))
            ∗ atPos ER (sendCell c 2) (0 + 1) ∅ 0
            ∗ (∃ f, slotPts (F := F) sM c 2 f)
            ∗ atPos ER (recvCell c 2) (0 + 1) ∅ 0
            ∗ slotPts rM c 2 (slotBuf (sent m (back c (shiftOf 2)) 2))
            ∗ (oM.view.loc (c : Thread nD τ) ↦[oM.view.set]{fullShare}
                ((oM.access (Rect.unit (s := S4096x1024) (k0_off4 c 2#32) S512x512.size (k0_off4_inb c 1))).write (Elt F) fo (k0_pay1 (sent m (back c (shiftOf 2)) 2)) Finset.univ)))
          -∗ Kt ⟨⟩)
        -∗ wp frame (wpE (defs₀ (F := F)) 𝒱₀ (c : Thread nD τ) none) Set.univ (k0_part31 a0 h0 a1 h1 oM h2 a3 h3 sM h4 rM h5 a6 cc0_scratch4 cc0_scratch5 c v2) Kt) := by
  rw [k0_part31_eq_skeleton]; unfold k0_part31_skel
  simp only [Prog.lift, Prog.bind_op, Prog.bind_ret, Prog.pure_eq_ret]
  iintro ⟨#HiS2, #HiR2, HO, HcS2, HaS2, HcR2, HaR2, Ho⟩ Hk
  iapply (wp_wait_send_slot m K c 2 (W)) $$ [HcS2 HO HaS2]
  · isplitr; · iexact HiS2
    isplitl [HcS2]; · iexact HcS2
    isplitl [HO]; · iexact HO
    iexact HaS2
  iintro ⟨HO, HaS2, Hs2⟩
  iapply (wp_wait_recv_slot m K c 2 (insert (.dma (sendSem 2), ()) (W))) $$ [HcR2 HO HaR2]
  · isplitr; · iexact HiR2
    isplitl [HcR2]; · iexact HcR2
    isplitl [HO]; · iexact HO
    iexact HaR2
  iintro ⟨HO, HaR2, Hr2⟩
  iapply (wp_load_slot c 2 (sent m (back c (shiftOf 2)) 2)) $$ Hr2
  iintro Hr2
  iapply (wp_swap_out c fo) $$ Ho
  iintro Ho
  rw [wp_ret]; imodintro
  iapply Hk
  isplitl [HO]; · iexact HO
  isplitl [HaS2]; · iexact HaS2
  isplitl [Hs2]; · iexact Hs2
  isplitl [HaR2]; · iexact HaR2
  isplitl [Hr2]; · iexact Hr2
  iexact Ho

/-- Part 32 of the body: the wait on slot 3's send cell, the wait on slot 3's receive cell, the load of slot 3's block. -/
theorem arrive_32 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (Kt : (Σ' (_ : FVec F S512x512 .f32), BitVec 32) → sProp 𝕄) :
    iprop(cellInv ER (sched m) (K (c, sIx 3)) (sendCell c 3)
        ∗ cellInv ER (sched m) (K (c, rIx 3)) (recvCell c 3)
        ∗ owes (c : Thread nD τ) 0 W
        ∗ cred (tallyAt (sendCell c 3) () N)
        ∗ atPos ER (sendCell c 3) 0 ∅ 0
        ∗ cred (tallyAt (recvCell c 3) () N)
        ∗ atPos ER (recvCell c 3) 0 ∅ 0)
      ⊢ iprop((∀ w : BitVec 32, (owes (c : Thread nD τ) 0 (insert (.dma (recvSem 3), ()) (insert (.dma (sendSem 3), ()) (W)))
            ∗ atPos ER (sendCell c 3) (0 + 1) ∅ 0
            ∗ (∃ f, slotPts (F := F) sM c 3 f)
            ∗ atPos ER (recvCell c 3) (0 + 1) ∅ 0
            ∗ slotPts rM c 3 (slotBuf (sent m (back c (shiftOf 3)) 3)))
          -∗ Kt ⟨k0_pay1 (sent m (back c (shiftOf 3)) 3), w⟩)
        -∗ wp frame (wpE (defs₀ (F := F)) 𝒱₀ (c : Thread nD τ) none) Set.univ (k0_part32 a0 h0 a1 h1 oM h2 a3 h3 sM h4 rM h5 a6 cc0_scratch4 cc0_scratch5 v2) Kt) := by
  rw [k0_part32_eq_skeleton]; unfold k0_part32_skel
  simp only [Prog.lift, Prog.bind_op, Prog.bind_ret, Prog.pure_eq_ret]
  iintro ⟨#HiS3, #HiR3, HO, HcS3, HaS3, HcR3, HaR3⟩ Hk
  iapply (wp_wait_send_slot m K c 3 (W)) $$ [HcS3 HO HaS3]
  · isplitr; · iexact HiS3
    isplitl [HcS3]; · iexact HcS3
    isplitl [HO]; · iexact HO
    iexact HaS3
  iintro ⟨HO, HaS3, Hs3⟩
  iapply (wp_wait_recv_slot m K c 3 (insert (.dma (sendSem 3), ()) (W))) $$ [HcR3 HO HaR3]
  · isplitr; · iexact HiR3
    isplitl [HcR3]; · iexact HcR3
    isplitl [HO]; · iexact HO
    iexact HaR3
  iintro ⟨HO, HaR3, Hr3⟩
  iapply (wp_load_slot c 3 (sent m (back c (shiftOf 3)) 3)) $$ Hr3
  iintro Hr3
  rw [wp_ret, pay25_eq]; imodintro
  iapply Hk
  isplitl [HO]; · iexact HO
  isplitl [HaS3]; · iexact HaS3
  isplitl [Hs3]; · iexact Hs3
  isplitl [HaR3]; · iexact HaR3
  iexact Hr3

/-- Part 33 of the body: the store of the block handed in into the result, the wait on slot 4's send cell, the wait on slot 4's receive cell. -/
theorem arrive_33 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (v976 : FVec F S512x512 .f32) (v977 : BitVec 32) (W : Waits sig Unit) (fo : Buf (Elt F) (oM.view.loc (c : Thread nD τ))) (Kt : BitVec 32 → sProp 𝕄) :
    iprop(cellInv ER (sched m) (K (c, sIx 4)) (sendCell c 4)
        ∗ cellInv ER (sched m) (K (c, rIx 4)) (recvCell c 4)
        ∗ owes (c : Thread nD τ) 0 W
        ∗ cred (tallyAt (sendCell c 4) () N)
        ∗ atPos ER (sendCell c 4) 0 ∅ 0
        ∗ cred (tallyAt (recvCell c 4) () N)
        ∗ atPos ER (recvCell c 4) 0 ∅ 0
        ∗ (oM.view.loc (c : Thread nD τ) ↦[oM.view.set]{fullShare} fo))
      ⊢ iprop((∀ r : BitVec 32, (owes (c : Thread nD τ) 0 (insert (.dma (recvSem 4), ()) (insert (.dma (sendSem 4), ()) (W)))
            ∗ atPos ER (sendCell c 4) (0 + 1) ∅ 0
            ∗ (∃ f, slotPts (F := F) sM c 4 f)
            ∗ atPos ER (recvCell c 4) (0 + 1) ∅ 0
            ∗ slotPts rM c 4 (slotBuf (sent m (back c (shiftOf 4)) 4))
            ∗ (oM.view.loc (c : Thread nD τ) ↦[oM.view.set]{fullShare}
                ((oM.access (Rect.unit (s := S4096x1024) (k0_off5 c 2#32) S512x512.size (k0_off5_inb c 1))).write (Elt F) fo v976 Finset.univ)))
          -∗ Kt r)
        -∗ wp frame (wpE (defs₀ (F := F)) 𝒱₀ (c : Thread nD τ) none) Set.univ (k0_part33 a0 h0 a1 h1 oM h2 a3 h3 sM h4 rM h5 a6 cc0_scratch4 cc0_scratch5 c v2 v976 v977) Kt) := by
  rw [k0_part33_eq_skeleton]; unfold k0_part33_skel
  simp only [Prog.lift, Prog.bind_op, Prog.bind_ret, Prog.pure_eq_ret]
  iintro ⟨#HiS4, #HiR4, HO, HcS4, HaS4, HcR4, HaR4, Ho⟩ Hk
  iapply (wp_swap_out c fo) $$ Ho
  iintro Ho
  iapply (wp_wait_send_slot m K c 4 (W)) $$ [HcS4 HO HaS4]
  · isplitr; · iexact HiS4
    isplitl [HcS4]; · iexact HcS4
    isplitl [HO]; · iexact HO
    iexact HaS4
  iintro ⟨HO, HaS4, Hs4⟩
  iapply (wp_wait_recv_slot m K c 4 (insert (.dma (sendSem 4), ()) (W))) $$ [HcR4 HO HaR4]
  · isplitr; · iexact HiR4
    isplitl [HcR4]; · iexact HcR4
    isplitl [HO]; · iexact HO
    iexact HaR4
  iintro ⟨HO, HaR4, Hr4⟩
  rw [wp_ret]; imodintro
  iapply Hk
  isplitl [HO]; · iexact HO
  isplitl [HaS4]; · iexact HaS4
  isplitl [Hs4]; · iexact Hs4
  isplitl [HaR4]; · iexact HaR4
  isplitl [Hr4]; · iexact Hr4
  iexact Ho

/-- Part 34 of the body: the load of slot 4's block, its store into the result, the wait on slot 5's send cell. -/
theorem arrive_34 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : BitVec 32 → sProp 𝕄) :
    iprop(cellInv ER (sched m) (K (c, sIx 5)) (sendCell c 5)
        ∗ owes (c : Thread nD τ) 0 W
        ∗ slotPts rM c 4 (slotBuf (sent m (back c (shiftOf 4)) 4))
        ∗ cred (tallyAt (sendCell c 5) () N)
        ∗ atPos ER (sendCell c 5) 0 ∅ 0
        ∗ (oM.view.loc (c : Thread nD τ) ↦[oM.view.set]{fullShare} fo))
      ⊢ iprop((∀ r : BitVec 32, (owes (c : Thread nD τ) 0 (insert (.dma (sendSem 5), ()) (W))
            ∗ slotPts rM c 4 (slotBuf (sent m (back c (shiftOf 4)) 4))
            ∗ atPos ER (sendCell c 5) (0 + 1) ∅ 0
            ∗ (∃ f, slotPts (F := F) sM c 5 f)
            ∗ (oM.view.loc (c : Thread nD τ) ↦[oM.view.set]{fullShare}
                ((oM.access (Rect.unit (s := S4096x1024) (k0_off4 c 3#32) S512x512.size (k0_off4_inb c 2))).write (Elt F) fo (k0_pay1 (sent m (back c (shiftOf 4)) 4)) Finset.univ)))
          -∗ Kt r)
        -∗ wp frame (wpE (defs₀ (F := F)) 𝒱₀ (c : Thread nD τ) none) Set.univ (k0_part34 a0 h0 a1 h1 oM h2 a3 h3 sM h4 rM h5 a6 cc0_scratch4 cc0_scratch5 c v2 w1) Kt) := by
  rw [k0_part34_eq_skeleton]; unfold k0_part34_skel
  simp only [Prog.lift, Prog.bind_op, Prog.bind_ret, Prog.pure_eq_ret]
  iintro ⟨#HiS5, HO, Hr4, HcS5, HaS5, Ho⟩ Hk
  iapply (wp_load_slot c 4 (sent m (back c (shiftOf 4)) 4)) $$ Hr4
  iintro Hr4
  iapply (wp_swap_out c fo) $$ Ho
  iintro Ho
  iapply (wp_wait_send_slot m K c 5 (W)) $$ [HcS5 HO HaS5]
  · isplitr; · iexact HiS5
    isplitl [HcS5]; · iexact HcS5
    isplitl [HO]; · iexact HO
    iexact HaS5
  iintro ⟨HO, HaS5, Hs5⟩
  rw [wp_ret]; imodintro
  iapply Hk
  isplitl [HO]; · iexact HO
  isplitl [Hr4]; · iexact Hr4
  isplitl [HaS5]; · iexact HaS5
  isplitl [Hs5]; · iexact Hs5
  iexact Ho

/-- Part 35 of the body: the wait on slot 5's receive cell, the load of slot 5's block, its store into the result, the wait on slot 6's send cell. -/
theorem arrive_35 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : BitVec 32 → sProp 𝕄) :
    iprop(cellInv ER (sched m) (K (c, rIx 5)) (recvCell c 5)
        ∗ cellInv ER (sched m) (K (c, sIx 6)) (sendCell c 6)
        ∗ owes (c : Thread nD τ) 0 W
        ∗ cred (tallyAt (recvCell c 5) () N)
        ∗ atPos ER (recvCell c 5) 0 ∅ 0
        ∗ cred (tallyAt (sendCell c 6) () N)
        ∗ atPos ER (sendCell c 6) 0 ∅ 0
        ∗ (oM.view.loc (c : Thread nD τ) ↦[oM.view.set]{fullShare} fo))
      ⊢ iprop((∀ r : BitVec 32, (owes (c : Thread nD τ) 0 (insert (.dma (sendSem 6), ()) (insert (.dma (recvSem 5), ()) (W)))
            ∗ atPos ER (recvCell c 5) (0 + 1) ∅ 0
            ∗ slotPts rM c 5 (slotBuf (sent m (back c (shiftOf 5)) 5))
            ∗ atPos ER (sendCell c 6) (0 + 1) ∅ 0
            ∗ (∃ f, slotPts (F := F) sM c 6 f)
            ∗ (oM.view.loc (c : Thread nD τ) ↦[oM.view.set]{fullShare}
                ((oM.access (Rect.unit (s := S4096x1024) (k0_off5 c 3#32) S512x512.size (k0_off5_inb c 2))).write (Elt F) fo (k0_pay1 (sent m (back c (shiftOf 5)) 5)) Finset.univ)))
          -∗ Kt r)
        -∗ wp frame (wpE (defs₀ (F := F)) 𝒱₀ (c : Thread nD τ) none) Set.univ (k0_part35 a0 h0 a1 h1 oM h2 a3 h3 sM h4 rM h5 a6 cc0_scratch4 cc0_scratch5 c v2 w1) Kt) := by
  rw [k0_part35_eq_skeleton]; unfold k0_part35_skel
  simp only [Prog.lift, Prog.bind_op, Prog.bind_ret, Prog.pure_eq_ret]
  iintro ⟨#HiR5, #HiS6, HO, HcR5, HaR5, HcS6, HaS6, Ho⟩ Hk
  iapply (wp_wait_recv_slot m K c 5 (W)) $$ [HcR5 HO HaR5]
  · isplitr; · iexact HiR5
    isplitl [HcR5]; · iexact HcR5
    isplitl [HO]; · iexact HO
    iexact HaR5
  iintro ⟨HO, HaR5, Hr5⟩
  iapply (wp_load_slot c 5 (sent m (back c (shiftOf 5)) 5)) $$ Hr5
  iintro Hr5
  iapply (wp_swap_out c fo) $$ Ho
  iintro Ho
  iapply (wp_wait_send_slot m K c 6 (insert (.dma (recvSem 5), ()) (W))) $$ [HcS6 HO HaS6]
  · isplitr; · iexact HiS6
    isplitl [HcS6]; · iexact HcS6
    isplitl [HO]; · iexact HO
    iexact HaS6
  iintro ⟨HO, HaS6, Hs6⟩
  rw [wp_ret]; imodintro
  iapply Hk
  isplitl [HO]; · iexact HO
  isplitl [HaR5]; · iexact HaR5
  isplitl [Hr5]; · iexact Hr5
  isplitl [HaS6]; · iexact HaS6
  isplitl [Hs6]; · iexact Hs6
  iexact Ho

/-- Part 36 of the body: the wait on slot 6's receive cell, the load of slot 6's block, its store into the result, the wait on slot 7's send cell. -/
theorem arrive_36 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : (Σ' (_ : BitVec 32) (_ : BitVec 32), BitVec 32) → sProp 𝕄) :
    iprop(cellInv ER (sched m) (K (c, rIx 6)) (recvCell c 6)
        ∗ cellInv ER (sched m) (K (c, sIx 7)) (sendCell c 7)
        ∗ owes (c : Thread nD τ) 0 W
        ∗ cred (tallyAt (recvCell c 6) () N)
        ∗ atPos ER (recvCell c 6) 0 ∅ 0
        ∗ cred (tallyAt (sendCell c 7) () N)
        ∗ atPos ER (sendCell c 7) 0 ∅ 0
        ∗ (oM.view.loc (c : Thread nD τ) ↦[oM.view.set]{fullShare} fo))
      ⊢ iprop((∀ r : (Σ' (_ : BitVec 32) (_ : BitVec 32), BitVec 32), (owes (c : Thread nD τ) 0 (insert (.dma (sendSem 7), ()) (insert (.dma (recvSem 6), ()) (W)))
            ∗ atPos ER (recvCell c 6) (0 + 1) ∅ 0
            ∗ slotPts rM c 6 (slotBuf (sent m (back c (shiftOf 6)) 6))
            ∗ atPos ER (sendCell c 7) (0 + 1) ∅ 0
            ∗ (∃ f, slotPts (F := F) sM c 7 f)
            ∗ (oM.view.loc (c : Thread nD τ) ↦[oM.view.set]{fullShare}
                ((oM.access (Rect.unit (s := S4096x1024) (k0_off4 c 4#32) S512x512.size (k0_off4_inb c 3))).write (Elt F) fo (k0_pay1 (sent m (back c (shiftOf 6)) 6)) Finset.univ)))
          -∗ Kt r)
        -∗ wp frame (wpE (defs₀ (F := F)) 𝒱₀ (c : Thread nD τ) none) Set.univ (k0_part36 a0 h0 a1 h1 oM h2 a3 h3 sM h4 rM h5 a6 cc0_scratch4 cc0_scratch5 c v2 w1) Kt) := by
  rw [k0_part36_eq_skeleton]; unfold k0_part36_skel
  simp only [Prog.lift, Prog.bind_op, Prog.bind_ret, Prog.pure_eq_ret]
  iintro ⟨#HiR6, #HiS7, HO, HcR6, HaR6, HcS7, HaS7, Ho⟩ Hk
  iapply (wp_wait_recv_slot m K c 6 (W)) $$ [HcR6 HO HaR6]
  · isplitr; · iexact HiR6
    isplitl [HcR6]; · iexact HcR6
    isplitl [HO]; · iexact HO
    iexact HaR6
  iintro ⟨HO, HaR6, Hr6⟩
  iapply (wp_load_slot c 6 (sent m (back c (shiftOf 6)) 6)) $$ Hr6
  iintro Hr6
  iapply (wp_swap_out c fo) $$ Ho
  iintro Ho
  iapply (wp_wait_send_slot m K c 7 (insert (.dma (recvSem 6), ()) (W))) $$ [HcS7 HO HaS7]
  · isplitr; · iexact HiS7
    isplitl [HcS7]; · iexact HcS7
    isplitl [HO]; · iexact HO
    iexact HaS7
  iintro ⟨HO, HaS7, Hs7⟩
  rw [wp_ret]; imodintro
  iapply Hk
  isplitl [HO]; · iexact HO
  isplitl [HaR6]; · iexact HaR6
  isplitl [Hr6]; · iexact Hr6
  isplitl [HaS7]; · iexact HaS7
  isplitl [Hs7]; · iexact Hs7
  iexact Ho

/-- Part 37 of the body: the wait on slot 7's receive cell, the load of slot 7's block, its store into the result, the wait on slot 8's send cell. -/
theorem arrive_37 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 32) (W : Waits sig Unit) (fo : Buf (Elt F) (oM.view.loc (c : Thread nD τ))) (Kt : BitVec 32 → sProp 𝕄) :
    iprop(cellInv ER (sched m) (K (c, rIx 7)) (recvCell c 7)
        ∗ cellInv ER (sched m) (K (c, sIx 8)) (sendCell c 8)
        ∗ owes (c : Thread nD τ) 0 W
        ∗ cred (tallyAt (recvCell c 7) () N)
        ∗ atPos ER (recvCell c 7) 0 ∅ 0
        ∗ cred (tallyAt (sendCell c 8) () N)
        ∗ atPos ER (sendCell c 8) 0 ∅ 0
        ∗ (oM.view.loc (c : Thread nD τ) ↦[oM.view.set]{fullShare} fo))
      ⊢ iprop((∀ r : BitVec 32, (owes (c : Thread nD τ) 0 (insert (.dma (sendSem 8), ()) (insert (.dma (recvSem 7), ()) (W)))
            ∗ atPos ER (recvCell c 7) (0 + 1) ∅ 0
            ∗ slotPts rM c 7 (slotBuf (sent m (back c (shiftOf 7)) 7))
            ∗ atPos ER (sendCell c 8) (0 + 1) ∅ 0
            ∗ (∃ f, slotPts (F := F) sM c 8 f)
            ∗ (oM.view.loc (c : Thread nD τ) ↦[oM.view.set]{fullShare}
                ((oM.access (Rect.unit (s := S4096x1024) (k0_off5 c 4#32) S512x512.size (k0_off5_inb c 3))).write (Elt F) fo (k0_pay1 (sent m (back c (shiftOf 7)) 7)) Finset.univ)))
          -∗ Kt r)
        -∗ wp frame (wpE (defs₀ (F := F)) 𝒱₀ (c : Thread nD τ) none) Set.univ (k0_part37 a0 h0 a1 h1 oM h2 a3 h3 sM h4 rM h5 a6 cc0_scratch4 cc0_scratch5 c v2 w1 w2 w3) Kt) := by
  rw [k0_part37_eq_skeleton]; unfold k0_part37_skel
  simp only [Prog.lift, Prog.bind_op, Prog.bind_ret, Prog.pure_eq_ret]
  iintro ⟨#HiR7, #HiS8, HO, HcR7, HaR7, HcS8, HaS8, Ho⟩ Hk
  iapply (wp_wait_recv_slot m K c 7 (W)) $$ [HcR7 HO HaR7]
  · isplitr; · iexact HiR7
    isplitl [HcR7]; · iexact HcR7
    isplitl [HO]; · iexact HO
    iexact HaR7
  iintro ⟨HO, HaR7, Hr7⟩
  iapply (wp_load_slot c 7 (sent m (back c (shiftOf 7)) 7)) $$ Hr7
  iintro Hr7
  iapply (wp_swap_out c fo) $$ Ho
  iintro Ho
  iapply (wp_wait_send_slot m K c 8 (insert (.dma (recvSem 7), ()) (W))) $$ [HcS8 HO HaS8]
  · isplitr; · iexact HiS8
    isplitl [HcS8]; · iexact HcS8
    isplitl [HO]; · iexact HO
    iexact HaS8
  iintro ⟨HO, HaS8, Hs8⟩
  rw [wp_ret]; imodintro
  iapply Hk
  isplitl [HO]; · iexact HO
  isplitl [HaR7]; · iexact HaR7
  isplitl [Hr7]; · iexact Hr7
  isplitl [HaS8]; · iexact HaS8
  isplitl [Hs8]; · iexact Hs8
  iexact Ho

/-- Part 38 of the body: the wait on slot 8's receive cell, the load of slot 8's block, its store into the result, the wait on slot 9's send cell. -/
theorem arrive_38 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : (Σ' (_ : BitVec 32) (_ : BitVec 32) (_ : BitVec 1), BitVec 1) → sProp 𝕄) :
    iprop(cellInv ER (sched m) (K (c, rIx 8)) (recvCell c 8)
        ∗ cellInv ER (sched m) (K (c, sIx 9)) (sendCell c 9)
        ∗ owes (c : Thread nD τ) 0 W
        ∗ cred (tallyAt (recvCell c 8) () N)
        ∗ atPos ER (recvCell c 8) 0 ∅ 0
        ∗ cred (tallyAt (sendCell c 9) () N)
        ∗ atPos ER (sendCell c 9) 0 ∅ 0
        ∗ (oM.view.loc (c : Thread nD τ) ↦[oM.view.set]{fullShare} fo))
      ⊢ iprop((∀ r : (Σ' (_ : BitVec 32) (_ : BitVec 32) (_ : BitVec 1), BitVec 1), (owes (c : Thread nD τ) 0 (insert (.dma (sendSem 9), ()) (insert (.dma (recvSem 8), ()) (W)))
            ∗ atPos ER (recvCell c 8) (0 + 1) ∅ 0
            ∗ slotPts rM c 8 (slotBuf (sent m (back c (shiftOf 8)) 8))
            ∗ atPos ER (sendCell c 9) (0 + 1) ∅ 0
            ∗ (∃ f, slotPts (F := F) sM c 9 f)
            ∗ (oM.view.loc (c : Thread nD τ) ↦[oM.view.set]{fullShare}
                ((oM.access (Rect.unit (s := S4096x1024) (k0_off4 c 5#32) S512x512.size (k0_off4_inb c 4))).write (Elt F) fo (k0_pay1 (sent m (back c (shiftOf 8)) 8)) Finset.univ)))
          -∗ Kt r)
        -∗ wp frame (wpE (defs₀ (F := F)) 𝒱₀ (c : Thread nD τ) none) Set.univ (k0_part38 a0 h0 a1 h1 oM h2 a3 h3 sM h4 rM h5 a6 cc0_scratch4 cc0_scratch5 c v2 w1) Kt) := by
  rw [k0_part38_eq_skeleton]; unfold k0_part38_skel
  simp only [Prog.lift, Prog.bind_op, Prog.bind_ret, Prog.pure_eq_ret]
  iintro ⟨#HiR8, #HiS9, HO, HcR8, HaR8, HcS9, HaS9, Ho⟩ Hk
  iapply (wp_wait_recv_slot m K c 8 (W)) $$ [HcR8 HO HaR8]
  · isplitr; · iexact HiR8
    isplitl [HcR8]; · iexact HcR8
    isplitl [HO]; · iexact HO
    iexact HaR8
  iintro ⟨HO, HaR8, Hr8⟩
  iapply (wp_load_slot c 8 (sent m (back c (shiftOf 8)) 8)) $$ Hr8
  iintro Hr8
  iapply (wp_swap_out c fo) $$ Ho
  iintro Ho
  iapply (wp_wait_send_slot m K c 9 (insert (.dma (recvSem 8), ()) (W))) $$ [HcS9 HO HaS9]
  · isplitr; · iexact HiS9
    isplitl [HcS9]; · iexact HcS9
    isplitl [HO]; · iexact HO
    iexact HaS9
  iintro ⟨HO, HaS9, Hs9⟩
  rw [wp_ret]; imodintro
  iapply Hk
  isplitl [HO]; · iexact HO
  isplitl [HaR8]; · iexact HaR8
  isplitl [Hr8]; · iexact Hr8
  isplitl [HaS9]; · iexact HaS9
  isplitl [Hs9]; · iexact Hs9
  iexact Ho

/-- Part 39 of the body: the wait on slot 9's receive cell, the load of slot 9's block, its store into the result, the wait on slot 10's send cell. -/
theorem arrive_39 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (w4 : BitVec 1) (W : Waits sig Unit) (fo : Buf (Elt F) (oM.view.loc (c : Thread nD τ))) (Kt : (Σ' (_ : BitVec 32) (_ : BitVec 32), BitVec 1) → sProp 𝕄) :
    iprop(cellInv ER (sched m) (K (c, rIx 9)) (recvCell c 9)
        ∗ cellInv ER (sched m) (K (c, sIx 10)) (sendCell c 10)
        ∗ owes (c : Thread nD τ) 0 W
        ∗ cred (tallyAt (recvCell c 9) () N)
        ∗ atPos ER (recvCell c 9) 0 ∅ 0
        ∗ cred (tallyAt (sendCell c 10) () N)
        ∗ atPos ER (sendCell c 10) 0 ∅ 0
        ∗ (oM.view.loc (c : Thread nD τ) ↦[oM.view.set]{fullShare} fo))
      ⊢ iprop((∀ r : (Σ' (_ : BitVec 32) (_ : BitVec 32), BitVec 1), (owes (c : Thread nD τ) 0 (insert (.dma (sendSem 10), ()) (insert (.dma (recvSem 9), ()) (W)))
            ∗ atPos ER (recvCell c 9) (0 + 1) ∅ 0
            ∗ slotPts rM c 9 (slotBuf (sent m (back c (shiftOf 9)) 9))
            ∗ atPos ER (sendCell c 10) (0 + 1) ∅ 0
            ∗ (∃ f, slotPts (F := F) sM c 10 f)
            ∗ (oM.view.loc (c : Thread nD τ) ↦[oM.view.set]{fullShare}
                ((oM.access (Rect.unit (s := S4096x1024) (k0_off5 c 5#32) S512x512.size (k0_off5_inb c 4))).write (Elt F) fo (k0_pay1 (sent m (back c (shiftOf 9)) 9)) Finset.univ)))
          -∗ Kt r)
        -∗ wp frame (wpE (defs₀ (F := F)) 𝒱₀ (c : Thread nD τ) none) Set.univ (k0_part39 a0 h0 a1 h1 oM h2 a3 h3 sM h4 rM h5 a6 cc0_scratch4 cc0_scratch5 c v2 w1 w2 w3 w4) Kt) := by
  rw [k0_part39_eq_skeleton]; unfold k0_part39_skel
  simp only [Prog.lift, Prog.bind_op, Prog.bind_ret, Prog.pure_eq_ret]
  iintro ⟨#HiR9, #HiS10, HO, HcR9, HaR9, HcS10, HaS10, Ho⟩ Hk
  iapply (wp_wait_recv_slot m K c 9 (W)) $$ [HcR9 HO HaR9]
  · isplitr; · iexact HiR9
    isplitl [HcR9]; · iexact HcR9
    isplitl [HO]; · iexact HO
    iexact HaR9
  iintro ⟨HO, HaR9, Hr9⟩
  iapply (wp_load_slot c 9 (sent m (back c (shiftOf 9)) 9)) $$ Hr9
  iintro Hr9
  iapply (wp_swap_out c fo) $$ Ho
  iintro Ho
  iapply (wp_wait_send_slot m K c 10 (insert (.dma (recvSem 9), ()) (W))) $$ [HcS10 HO HaS10]
  · isplitr; · iexact HiS10
    isplitl [HcS10]; · iexact HcS10
    isplitl [HO]; · iexact HO
    iexact HaS10
  iintro ⟨HO, HaS10, Hs10⟩
  rw [wp_ret]; imodintro
  iapply Hk
  isplitl [HO]; · iexact HO
  isplitl [HaR9]; · iexact HaR9
  isplitl [Hr9]; · iexact Hr9
  isplitl [HaS10]; · iexact HaS10
  isplitl [Hs10]; · iexact Hs10
  iexact Ho

/-- Part 40 of the body: the wait on slot 10's receive cell, the load of slot 10's block, its store into the result, the wait on slot 11's send cell. -/
theorem arrive_40 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (W : Waits sig Unit) (fo : Buf (Elt F) (oM.view.loc (c : Thread nD τ))) (Kt : (Σ' (_ : BitVec 32) (_ : BitVec 32), BitVec 1) → sProp 𝕄) :
    iprop(cellInv ER (sched m) (K (c, rIx 10)) (recvCell c 10)
        ∗ cellInv ER (sched m) (K (c, sIx 11)) (sendCell c 11)
        ∗ owes (c : Thread nD τ) 0 W
        ∗ cred (tallyAt (recvCell c 10) () N)
        ∗ atPos ER (recvCell c 10) 0 ∅ 0
        ∗ cred (tallyAt (sendCell c 11) () N)
        ∗ atPos ER (sendCell c 11) 0 ∅ 0
        ∗ (oM.view.loc (c : Thread nD τ) ↦[oM.view.set]{fullShare} fo))
      ⊢ iprop((∀ r : (Σ' (_ : BitVec 32) (_ : BitVec 32), BitVec 1), (owes (c : Thread nD τ) 0 (insert (.dma (sendSem 11), ()) (insert (.dma (recvSem 10), ()) (W)))
            ∗ atPos ER (recvCell c 10) (0 + 1) ∅ 0
            ∗ slotPts rM c 10 (slotBuf (sent m (back c (shiftOf 10)) 10))
            ∗ atPos ER (sendCell c 11) (0 + 1) ∅ 0
            ∗ (∃ f, slotPts (F := F) sM c 11 f)
            ∗ (oM.view.loc (c : Thread nD τ) ↦[oM.view.set]{fullShare}
                ((oM.access (Rect.unit (s := S4096x1024) (k0_off4 c 6#32) S512x512.size (k0_off4_inb c 5))).write (Elt F) fo (k0_pay1 (sent m (back c (shiftOf 10)) 10)) Finset.univ)))
          -∗ Kt r)
        -∗ wp frame (wpE (defs₀ (F := F)) 𝒱₀ (c : Thread nD τ) none) Set.univ (k0_part40 a0 h0 a1 h1 oM h2 a3 h3 sM h4 rM h5 a6 cc0_scratch4 cc0_scratch5 c v2 w1 w2 w3) Kt) := by
  rw [k0_part40_eq_skeleton]; unfold k0_part40_skel
  simp only [Prog.lift, Prog.bind_op, Prog.bind_ret, Prog.pure_eq_ret]
  iintro ⟨#HiR10, #HiS11, HO, HcR10, HaR10, HcS11, HaS11, Ho⟩ Hk
  iapply (wp_wait_recv_slot m K c 10 (W)) $$ [HcR10 HO HaR10]
  · isplitr; · iexact HiR10
    isplitl [HcR10]; · iexact HcR10
    isplitl [HO]; · iexact HO
    iexact HaR10
  iintro ⟨HO, HaR10, Hr10⟩
  iapply (wp_load_slot c 10 (sent m (back c (shiftOf 10)) 10)) $$ Hr10
  iintro Hr10
  iapply (wp_swap_out c fo) $$ Ho
  iintro Ho
  iapply (wp_wait_send_slot m K c 11 (insert (.dma (recvSem 10), ()) (W))) $$ [HcS11 HO HaS11]
  · isplitr; · iexact HiS11
    isplitl [HcS11]; · iexact HcS11
    isplitl [HO]; · iexact HO
    iexact HaS11
  iintro ⟨HO, HaS11, Hs11⟩
  rw [wp_ret]; imodintro
  iapply Hk
  isplitl [HO]; · iexact HO
  isplitl [HaR10]; · iexact HaR10
  isplitl [Hr10]; · iexact Hr10
  isplitl [HaS11]; · iexact HaS11
  isplitl [Hs11]; · iexact Hs11
  iexact Ho

/-- Part 41 of the body: the wait on slot 11's receive cell, the load of slot 11's block, its store into the result, the wait on slot 12's send cell. -/
theorem arrive_41 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (W : Waits sig Unit) (fo : Buf (Elt F) (oM.view.loc (c : Thread nD τ))) (Kt : PUnit → sProp 𝕄) :
    iprop(cellInv ER (sched m) (K (c, rIx 11)) (recvCell c 11)
        ∗ cellInv ER (sched m) (K (c, sIx 12)) (sendCell c 12)
        ∗ owes (c : Thread nD τ) 0 W
        ∗ cred (tallyAt (recvCell c 11) () N)
        ∗ atPos ER (recvCell c 11) 0 ∅ 0
        ∗ cred (tallyAt (sendCell c 12) () N)
        ∗ atPos ER (sendCell c 12) 0 ∅ 0
        ∗ (oM.view.loc (c : Thread nD τ) ↦[oM.view.set]{fullShare} fo))
      ⊢ iprop(((owes (c : Thread nD τ) 0 (insert (.dma (sendSem 12), ()) (insert (.dma (recvSem 11), ()) (W)))
            ∗ atPos ER (recvCell c 11) (0 + 1) ∅ 0
            ∗ slotPts rM c 11 (slotBuf (sent m (back c (shiftOf 11)) 11))
            ∗ atPos ER (sendCell c 12) (0 + 1) ∅ 0
            ∗ (∃ f, slotPts (F := F) sM c 12 f)
            ∗ (oM.view.loc (c : Thread nD τ) ↦[oM.view.set]{fullShare}
                ((oM.access (Rect.unit (s := S4096x1024) (k0_off5 c 6#32) S512x512.size (k0_off5_inb c 5))).write (Elt F) fo (k0_pay1 (sent m (back c (shiftOf 11)) 11)) Finset.univ)))
          -∗ Kt ⟨⟩)
        -∗ wp frame (wpE (defs₀ (F := F)) 𝒱₀ (c : Thread nD τ) none) Set.univ (k0_part41 a0 h0 a1 h1 oM h2 a3 h3 sM h4 rM h5 a6 cc0_scratch4 cc0_scratch5 c v2 w1 w2 w3) Kt) := by
  rw [k0_part41_eq_skeleton]; unfold k0_part41_skel
  simp only [Prog.lift, Prog.bind_op, Prog.bind_ret, Prog.pure_eq_ret]
  iintro ⟨#HiR11, #HiS12, HO, HcR11, HaR11, HcS12, HaS12, Ho⟩ Hk
  iapply (wp_wait_recv_slot m K c 11 (W)) $$ [HcR11 HO HaR11]
  · isplitr; · iexact HiR11
    isplitl [HcR11]; · iexact HcR11
    isplitl [HO]; · iexact HO
    iexact HaR11
  iintro ⟨HO, HaR11, Hr11⟩
  iapply (wp_load_slot c 11 (sent m (back c (shiftOf 11)) 11)) $$ Hr11
  iintro Hr11
  iapply (wp_swap_out c fo) $$ Ho
  iintro Ho
  iapply (wp_wait_send_slot m K c 12 (insert (.dma (recvSem 11), ()) (W))) $$ [HcS12 HO HaS12]
  · isplitr; · iexact HiS12
    isplitl [HcS12]; · iexact HcS12
    isplitl [HO]; · iexact HO
    iexact HaS12
  iintro ⟨HO, HaS12, Hs12⟩
  rw [wp_ret]; imodintro
  iapply Hk
  isplitl [HO]; · iexact HO
  isplitl [HaR11]; · iexact HaR11
  isplitl [Hr11]; · iexact Hr11
  isplitl [HaS12]; · iexact HaS12
  isplitl [Hs12]; · iexact Hs12
  iexact Ho

/-- Part 42 of the body: the wait on slot 12's receive cell, the load of slot 12's block, its store into the result. -/
theorem arrive_42 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, rIx 12)) (recvCell c 12)
        ∗ owes (c : Thread nD τ) 0 W
        ∗ cred (tallyAt (recvCell c 12) () N)
        ∗ atPos ER (recvCell c 12) 0 ∅ 0
        ∗ (oM.view.loc (c : Thread nD τ) ↦[oM.view.set]{fullShare} fo))
      ⊢ iprop(((owes (c : Thread nD τ) 0 (insert (.dma (recvSem 12), ()) (W))
            ∗ atPos ER (recvCell c 12) (0 + 1) ∅ 0
            ∗ slotPts rM c 12 (slotBuf (sent m (back c (shiftOf 12)) 12))
            ∗ (oM.view.loc (c : Thread nD τ) ↦[oM.view.set]{fullShare}
                ((oM.access (Rect.unit (s := S4096x1024) (k0_off4 c 7#32) S512x512.size (k0_off4_inb c 6))).write (Elt F) fo (k0_pay1 (sent m (back c (shiftOf 12)) 12)) Finset.univ)))
          -∗ Kt ⟨⟩)
        -∗ wp frame (wpE (defs₀ (F := F)) 𝒱₀ (c : Thread nD τ) none) Set.univ (k0_part42 a0 h0 a1 h1 oM h2 a3 h3 sM h4 rM h5 a6 cc0_scratch4 cc0_scratch5 c v2) Kt) := by
  rw [k0_part42_eq_skeleton]; unfold k0_part42_skel
  simp only [Prog.lift, Prog.bind_op, Prog.bind_ret, Prog.pure_eq_ret]
  iintro ⟨#HiR12, HO, HcR12, HaR12, Ho⟩ Hk
  iapply (wp_wait_recv_slot m K c 12 (W)) $$ [HcR12 HO HaR12]
  · isplitr; · iexact HiR12
    isplitl [HcR12]; · iexact HcR12
    isplitl [HO]; · iexact HO
    iexact HaR12
  iintro ⟨HO, HaR12, Hr12⟩
  iapply (wp_load_slot c 12 (sent m (back c (shiftOf 12)) 12)) $$ Hr12
  iintro Hr12
  iapply (wp_swap_out c fo) $$ Ho
  iintro Ho
  rw [wp_ret]; imodintro
  iapply Hk
  isplitl [HO]; · iexact HO
  isplitl [HaR12]; · iexact HaR12
  isplitl [Hr12]; · iexact Hr12
  iexact Ho

end Cert.KernelIdeal.A2A

end
-- ==== Proof.Close.lean ====
/-
  The end of a device's body: its fourteen send cells and fourteen receive cells, each past its one round with nothing
  taken, are closed, which gives their counters back at zero; with the two copy semaphores, already at zero, these are the
  thirty semaphores of its own that the launch wants back.
-/
import proofs.«900797_g7700000000000798_dist_gemm_a2a_m4096_k4096_n8192_f32_relu_v7x_i8_1_alg».proof.Proof.Proto

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The thirty own semaphores as the launch indexes them: the two copy semaphores first, then the fourteen send, then the
    fourteen receive semaphores. -/
def ownIx : Fin 2 ⊕ (Fin 14 ⊕ Fin 14) ≃ Fin 30 where
  toFun
    | .inl i => ⟨i.val, by have := i.isLt; omega⟩
    | .inr (.inl v) => ⟨2 + v.val, by have := v.isLt; omega⟩
    | .inr (.inr v) => ⟨16 + v.val, by have := v.isLt; omega⟩
  invFun k :=
    if h : k.val < 2 then .inl ⟨k.val, h⟩
    else if h' : k.val < 16 then .inr (.inl ⟨k.val - 2, by omega⟩)
    else .inr (.inr ⟨k.val - 16, by have := k.isLt; omega⟩)
  left_inv := by decide
  right_inv := by decide

theorem osem_send (v : Fin 14) : osem (ownIx (.inr (.inl v))) = .dma (sendSem v) :=
  congrArg SemLoc.dma (Fin.ext (by show 2 + (2 + v.val) = 4 + v.val; omega))
theorem osem_recv (v : Fin 14) : osem (ownIx (.inr (.inr v))) = .dma (recvSem v) :=
  congrArg SemLoc.dma (Fin.ext (by show 2 + (16 + v.val) = 18 + v.val; omega))

/-- A device's thirty own semaphores at zero are its two copy semaphores, its send cells and its receive cells at zero. -/
theorem ownSems0_split (c : Dev nD) :
    (Pipeline.ownSems0 (Ix := Unit) (Name := ℕ) (U := UU) (Lvl := ℕ) (Val := Elt F) (τ := τ) osem c : sProp 𝕄)
      = iprop((semVal (copyCell c 0) 0 ∗ semVal (copyCell c 1) 0)
          ∗ (bigSep Finset.univ fun v : Fin 14 => semVal (sendCell c v) 0) ∗ bigSep Finset.univ fun v : Fin 14 => semVal (recvCell c v) 0) := by
  unfold Pipeline.ownSems0
  rw [bigSep_univ_equiv ownIx (fun k : Fin 30 => (semVal (((c : Dev nD).tc : Thread nD τ), osem k) 0 : sProp 𝕄)),
    bigSep_univ_sum, bigSep_univ_sum, bigSep_univ_two]
  simp only [osem_send, osem_recv]
  rfl

/-- One slot's send and receive cell closed. -/
theorem close_slot (K : Dev nD × Fin 29 → ℕ) (c : Dev nD) (v : Fin 14) :
    iprop(cellInv ER (sched m) (K (c, sIx v)) (sendCell c v) ∗ cellInv ER (sched m) (K (c, rIx v)) (recvCell c v)
        ∗ atPos ER (sendCell c v) 1 ∅ 0 ∗ atPos ER (recvCell c v) 1 ∅ 0)
      ⊢ |={Set.univ}=> (iprop(semVal (sendCell c v) 0 ∗ semVal (recvCell c v) 0) : sProp 𝕄) := by
  iintro ⟨HiS, HiR, HaS, HaR⟩
  imod (Rounds.cell_close ER (sched m) (Set.mem_univ (K (c, sIx v))) (fun h => h) (R := 1) (duties_later m (sendCell c v))) $$ [HiS HaS] with HzS
  · isplitl [HiS]; · iexact HiS
    iexact HaS
  imod (Rounds.cell_close ER (sched m) (Set.mem_univ (K (c, rIx v))) (fun h => h) (R := 1) (duties_later m (recvCell c v))) $$ [HiR HaR] with HzR
  · isplitl [HiR]; · iexact HiR
    iexact HaR
  imodintro
  isplitl [HzS]; · iexact HzS
  iexact HzR

/-- All twenty-eight cells closed under one update; with the copy semaphores, the thirty own semaphores at zero. -/
theorem close_own (K : Dev nD × Fin 29 → ℕ) (c : Dev nD) :
    iprop((bigSep Finset.univ fun v : Fin 14 => iprop(cellInv ER (sched m) (K (c, sIx v)) (sendCell c v) ∗ cellInv ER (sched m) (K (c, rIx v)) (recvCell c v)
              ∗ atPos ER (sendCell c v) 1 ∅ 0 ∗ atPos ER (recvCell c v) 1 ∅ 0))
        ∗ semVal (copyCell c 0) 0 ∗ semVal (copyCell c 1) 0)
      ⊢ |={Set.univ}=> (Pipeline.ownSems0 (Ix := Unit) (Name := ℕ) (U := UU) (Lvl := ℕ) (Val := Elt F) (τ := τ) osem c : sProp 𝕄) := by
  have hall : (bigSep Finset.univ fun v : Fin 14 => iprop(cellInv ER (sched m) (K (c, sIx v)) (sendCell c v) ∗ cellInv ER (sched m) (K (c, rIx v)) (recvCell c v)
        ∗ atPos ER (sendCell c v) 1 ∅ 0 ∗ atPos ER (recvCell c v) 1 ∅ 0) : sProp 𝕄)
      ⊢ |={Set.univ}=> iprop((bigSep Finset.univ fun v : Fin 14 => semVal (sendCell c v) 0) ∗ bigSep Finset.univ fun v : Fin 14 => semVal (recvCell c v) 0) := by
    rw [← bigSep_sep']
    exact (bigSep_mono (s := Finset.univ) fun v _ => close_slot m K c v).trans (bigSep_fupd Finset.univ _)
  rw [ownSems0_split]
  iintro ⟨H, Hc0, Hc1⟩
  imod hall $$ H with ⟨HS, HR⟩
  imodintro
  isplitl [Hc0 Hc1]
  · isplitl [Hc0]; · iexact Hc0
    iexact Hc1
  isplitl [HS]; · iexact HS
  iexact HR

/-- The same with the round spelt as the step past round 0. -/
theorem close_own' (K : Dev nD × Fin 29 → ℕ) (c : Dev nD) :
    iprop((bigSep Finset.univ fun v : Fin 14 => iprop(cellInv ER (sched m) (K (c, sIx v)) (sendCell c v) ∗ cellInv ER (sched m) (K (c, rIx v)) (recvCell c v)
              ∗ atPos ER (sendCell c v) (0 + 1) ∅ 0 ∗ atPos ER (recvCell c v) (0 + 1) ∅ 0))
        ∗ semVal (copyCell c 0) 0 ∗ semVal (copyCell c 1) 0)
      ⊢ |={Set.univ}=> (Pipeline.ownSems0 (Ix := Unit) (Name := ℕ) (U := UU) (Lvl := ℕ) (Val := Elt F) (τ := τ) osem c : sProp 𝕄) :=
  close_own m K c

end Cert.KernelIdeal.A2A

end
-- ==== Proof.Finish.lean ====
/-
  After the last arrival: the twenty-eight own cells are closed, the fourteen send slots and the fourteen receive slots
  are joined back into their two buffers, and with the slab buffer, the two copy semaphores and the weights this is what
  the launch wants back from a device's body.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Close
import proofs.«900797_g7700000000000798_dist_gemm_a2a_m4096_k4096_n8192_f32_relu_v7x_i8_1_alg».proof.Proof.Facts

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over the fourteen slots, written out. -/
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- Fourteen slots, each held at some contents, are the buffer whole at some contents. -/
theorem slots_join_ex (M : Memref sig .tc .vmem S14x512x512 .bf16) (hM : M.IsWhole) (c : Dev nD) :
    (bigSep Finset.univ fun v : Fin 14 => iprop(∃ f, slotPts (F := F) M c v f) : sProp 𝕄)
      ⊢ iprop(∃ f, M.view.loc (c : Thread nD τ) ↦[M.view.set]{fullShare} f) := by
  refine (bigSep_exists_pi Finset.univ
    (fun (v : Fin 14) (f : Buf (Elt F) (M.view.loc (c : Thread nD τ))) => slotPts (F := F) M c v f)).trans ?_
  iintro ⟨%fv, H⟩
  iapply (slots_join M hM c fv)
  iexact H

/-- The two slot buffers, whole at some contents, as the launch names them. -/
theorem sM_whole (c : Dev nD) (f : Buf (Elt F) (sM.view.loc (c : Thread nD τ))) :
    (sM.view.loc (c : Thread nD τ) ↦[sM.view.set]{fullShare} f : sProp 𝕄) = (((c : Thread nD τ).loc cc0_scratch1) ↦{fullShare} f) := by
  rw [show (sM : Memref sig .tc .vmem S14x512x512 .bf16).view.set = Finset.univ from View.set_whole _]
theorem rM_whole (c : Dev nD) (f : Buf (Elt F) (rM.view.loc (c : Thread nD τ))) :
    (rM.view.loc (c : Thread nD τ) ↦[rM.view.set]{fullShare} f : sProp 𝕄) = (((c : Thread nD τ).loc cc0_scratch2) ↦{fullShare} f) := by
  rw [show (rM : Memref sig .tc .vmem S14x512x512 .bf16).view.set = Finset.univ from View.set_whole _]
theorem oM_whole (c : Dev nD) (f : Buf (Elt F) (oM.view.loc (c : Thread nD τ))) :
    (oM.view.loc (c : Thread nD τ) ↦[oM.view.set]{fullShare} f : sProp 𝕄) = (((c : Thread nD τ).loc cc0_stg1_0) ↦{fullShare} f) := by
  rw [show (oM : Memref sig .tc .vmem S4096x1024 .f32).view.set = Finset.univ from View.set_whole _]

/-- What a device's body hands back: from every slot's two cells past their round, the slots themselves, the two copy
    semaphores at zero, the slab buffer and the weights. -/
theorem close_phi1 (K : Dev nD × Fin 29 → ℕ) (c : Dev nD) (fk : Buf (Elt F) ((c : Thread nD τ).loc cc0_scratch0)) :
    iprop((bigSep Finset.univ fun v : Fin 14 => iprop(cellInv ER (sched m) (K (c, sIx v)) (sendCell c v) ∗ cellInv ER (sched m) (K (c, rIx v)) (recvCell c v)
              ∗ atPos ER (sendCell c v) (0 + 1) ∅ 0 ∗ atPos ER (recvCell c v) (0 + 1) ∅ 0))
        ∗ (bigSep Finset.univ fun v : Fin 14 => iprop(∃ f, slotPts (F := F) sM c v f))
        ∗ (bigSep Finset.univ fun v : Fin 14 => iprop(∃ f, slotPts (F := F) rM c v f))
        ∗ semVal (copyCell c 0) 0 ∗ semVal (copyCell c 1) 0
        ∗ (((c : Thread nD τ).loc cc0_scratch0) ↦{fullShare} fk)
        ∗ (((c : Thread nD τ).loc main_arg1) ↦{fullShare} ws m c))
      ⊢ |={Set.univ}=> (Φ₁ m c : sProp 𝕄) := by
  unfold Φ₁ scratch
  iintro ⟨Hcells, HsS, HsR, Hc0, Hc1, Hk, Hw⟩
  imod (close_own' m K c) $$ [Hcells Hc0 Hc1] with Hown
  · isplitl [Hcells]; · iexact Hcells
    isplitl [Hc0]; · iexact Hc0
    iexact Hc1
  ihave Hs := (slots_join_ex sM (Memref.isWhole_whole _) c) $$ HsS
  icases Hs with ⟨%fs, Hs⟩
  ihave Hr := (slots_join_ex rM (Memref.isWhole_whole _) c) $$ HsR
  icases Hr with ⟨%fr, Hr⟩
  ihave Hs := (Entails.of_eq (sM_whole c fs)) $$ Hs
  ihave Hr := (Entails.of_eq (rM_whole c fr)) $$ Hr
  imodintro
  isplitl [Hk Hs Hr]
  · isplitl [Hk]; · iexists fk; iexact Hk
    isplitl [Hs]; · iexists fs; iexact Hs
    iexists fr; iexact Hr
  isplitl [Hown]; · iexact Hown
  iexact Hw

/-- Owing nothing is what the launch asks of a device after its body. -/
theorem owesAt_done (c : Dev nD) (W : Waits sig Unit) :
    (owes (c : Thread nD τ) 0 W : sProp 𝕄) ⊢ (dats (F := F) m 0 c).owesAt () t0_0.succ := by
  unfold Dat.owesAt Pipeline.owesWithin
  rw [show (dats (F := F) m 0 c).owed t0_0.succ = 0 from rfl]
  iintro HO
  iexists W
  isplitr; · ipureintro; exact fun _ _ => Or.inl trivial
  iexact HO

/-- The closing entailment of a device's body after the last arrival. -/
theorem close_body (K : Dev nD × Fin 29 → ℕ) (c : Dev nD) (W : Waits sig Unit)
    (g0 : Buf (Elt F) (xM.view.loc (c : Thread nD τ))) (hx : g0 = xs m c)
    (fk : Buf (Elt F) (kM.view.loc (c : Thread nD τ)))
    (fo : Buf (Elt F) (oM.view.loc (c : Thread nD τ))) (hfo : fo = outC m c)
    (fsv0 : Buf (Elt F) (sM.view.loc (c : Thread nD τ))) (fsv1 : Buf (Elt F) (sM.view.loc (c : Thread nD τ))) (fsv2 : Buf (Elt F) (sM.view.loc (c : Thread nD τ))) (fsv3 : Buf (Elt F) (sM.view.loc (c : Thread nD τ))) (fsv4 : Buf (Elt F) (sM.view.loc (c : Thread nD τ))) (fsv5 : Buf (Elt F) (sM.view.loc (c : Thread nD τ))) (fsv6 : Buf (Elt F) (sM.view.loc (c : Thread nD τ))) (fsv7 : Buf (Elt F) (sM.view.loc (c : Thread nD τ))) (fsv8 : Buf (Elt F) (sM.view.loc (c : Thread nD τ))) (fsv9 : Buf (Elt F) (sM.view.loc (c : Thread nD τ))) (fsv10 : Buf (Elt F) (sM.view.loc (c : Thread nD τ))) (fsv11 : Buf (Elt F) (sM.view.loc (c : Thread nD τ))) (fsv12 : Buf (Elt F) (sM.view.loc (c : Thread nD τ))) (fsv13 : Buf (Elt F) (sM.view.loc (c : Thread nD τ))) :
    iprop(((cellInv ER (sched m) (K (c, sIx 0)) (sendCell c 0) ∗ cellInv ER (sched m) (K (c, rIx 0)) (recvCell c 0) ∗ atPos ER (sendCell c 0) (0 + 1) ∅ 0 ∗ atPos ER (recvCell c 0) (0 + 1) ∅ 0)
        ∗ (cellInv ER (sched m) (K (c, sIx 1)) (sendCell c 1) ∗ cellInv ER (sched m) (K (c, rIx 1)) (recvCell c 1) ∗ atPos ER (sendCell c 1) (0 + 1) ∅ 0 ∗ atPos ER (recvCell c 1) (0 + 1) ∅ 0)
        ∗ (cellInv ER (sched m) (K (c, sIx 2)) (sendCell c 2) ∗ cellInv ER (sched m) (K (c, rIx 2)) (recvCell c 2) ∗ atPos ER (sendCell c 2) (0 + 1) ∅ 0 ∗ atPos ER (recvCell c 2) (0 + 1) ∅ 0)
        ∗ (cellInv ER (sched m) (K (c, sIx 3)) (sendCell c 3) ∗ cellInv ER (sched m) (K (c, rIx 3)) (recvCell c 3) ∗ atPos ER (sendCell c 3) (0 + 1) ∅ 0 ∗ atPos ER (recvCell c 3) (0 + 1) ∅ 0)
        ∗ (cellInv ER (sched m) (K (c, sIx 4)) (sendCell c 4) ∗ cellInv ER (sched m) (K (c, rIx 4)) (recvCell c 4) ∗ atPos ER (sendCell c 4) (0 + 1) ∅ 0 ∗ atPos ER (recvCell c 4) (0 + 1) ∅ 0)
        ∗ (cellInv ER (sched m) (K (c, sIx 5)) (sendCell c 5) ∗ cellInv ER (sched m) (K (c, rIx 5)) (recvCell c 5) ∗ atPos ER (sendCell c 5) (0 + 1) ∅ 0 ∗ atPos ER (recvCell c 5) (0 + 1) ∅ 0)
        ∗ (cellInv ER (sched m) (K (c, sIx 6)) (sendCell c 6) ∗ cellInv ER (sched m) (K (c, rIx 6)) (recvCell c 6) ∗ atPos ER (sendCell c 6) (0 + 1) ∅ 0 ∗ atPos ER (recvCell c 6) (0 + 1) ∅ 0)
        ∗ (cellInv ER (sched m) (K (c, sIx 7)) (sendCell c 7) ∗ cellInv ER (sched m) (K (c, rIx 7)) (recvCell c 7) ∗ atPos ER (sendCell c 7) (0 + 1) ∅ 0 ∗ atPos ER (recvCell c 7) (0 + 1) ∅ 0)
        ∗ (cellInv ER (sched m) (K (c, sIx 8)) (sendCell c 8) ∗ cellInv ER (sched m) (K (c, rIx 8)) (recvCell c 8) ∗ atPos ER (sendCell c 8) (0 + 1) ∅ 0 ∗ atPos ER (recvCell c 8) (0 + 1) ∅ 0)
        ∗ (cellInv ER (sched m) (K (c, sIx 9)) (sendCell c 9) ∗ cellInv ER (sched m) (K (c, rIx 9)) (recvCell c 9) ∗ atPos ER (sendCell c 9) (0 + 1) ∅ 0 ∗ atPos ER (recvCell c 9) (0 + 1) ∅ 0)
        ∗ (cellInv ER (sched m) (K (c, sIx 10)) (sendCell c 10) ∗ cellInv ER (sched m) (K (c, rIx 10)) (recvCell c 10) ∗ atPos ER (sendCell c 10) (0 + 1) ∅ 0 ∗ atPos ER (recvCell c 10) (0 + 1) ∅ 0)
        ∗ (cellInv ER (sched m) (K (c, sIx 11)) (sendCell c 11) ∗ cellInv ER (sched m) (K (c, rIx 11)) (recvCell c 11) ∗ atPos ER (sendCell c 11) (0 + 1) ∅ 0 ∗ atPos ER (recvCell c 11) (0 + 1) ∅ 0)
        ∗ (cellInv ER (sched m) (K (c, sIx 12)) (sendCell c 12) ∗ cellInv ER (sched m) (K (c, rIx 12)) (recvCell c 12) ∗ atPos ER (sendCell c 12) (0 + 1) ∅ 0 ∗ atPos ER (recvCell c 12) (0 + 1) ∅ 0)
        ∗ (cellInv ER (sched m) (K (c, sIx 13)) (sendCell c 13) ∗ cellInv ER (sched m) (K (c, rIx 13)) (recvCell c 13) ∗ atPos ER (sendCell c 13) (0 + 1) ∅ 0 ∗ atPos ER (recvCell c 13) (0 + 1) ∅ 0))
      ∗ semVal (copyCell c 0) 0 ∗ semVal (copyCell c 1) 0
      ∗ (wM.view.loc (c : Thread nD τ) ↦{fullShare} ws m c)
      ∗ (kM.view.loc (c : Thread nD τ) ↦{fullShare} fk)
      ∗ (slotPts sM c 0 fsv0 ∗ slotPts sM c 1 fsv1 ∗ slotPts sM c 2 fsv2 ∗ slotPts sM c 3 fsv3 ∗ slotPts sM c 4 fsv4 ∗ slotPts sM c 5 fsv5 ∗ slotPts sM c 6 fsv6 ∗ slotPts sM c 7 fsv7 ∗ slotPts sM c 8 fsv8 ∗ slotPts sM c 9 fsv9 ∗ slotPts sM c 10 fsv10 ∗ slotPts sM c 11 fsv11 ∗ slotPts sM c 12 fsv12 ∗ slotPts sM c 13 fsv13)
      ∗ (slotPts rM c 0 (slotBuf (sent m (back c (shiftOf 0)) 0)) ∗ slotPts rM c 1 (slotBuf (sent m (back c (shiftOf 1)) 1)) ∗ slotPts rM c 2 (slotBuf (sent m (back c (shiftOf 2)) 2)) ∗ slotPts rM c 3 (slotBuf (sent m (back c (shiftOf 3)) 3)) ∗ slotPts rM c 4 (slotBuf (sent m (back c (shiftOf 4)) 4)) ∗ slotPts rM c 5 (slotBuf (sent m (back c (shiftOf 5)) 5)) ∗ slotPts rM c 6 (slotBuf (sent m (back c (shiftOf 6)) 6)) ∗ slotPts rM c 7 (slotBuf (sent m (back c (shiftOf 7)) 7)) ∗ slotPts rM c 8 (slotBuf (sent m (back c (shiftOf 8)) 8)) ∗ slotPts rM c 9 (slotBuf (sent m (back c (shiftOf 9)) 9)) ∗ slotPts rM c 10 (slotBuf (sent m (back c (shiftOf 10)) 10)) ∗ slotPts rM c 11 (slotBuf (sent m (back c (shiftOf 11)) 11)) ∗ slotPts rM c 12 (slotBuf (sent m (back c (shiftOf 12)) 12)) ∗ slotPts rM c 13 (slotBuf (sent m (back c (shiftOf 13)) 13)))
      ∗ owes (c : Thread nD τ) 0 W
      ∗ (xM.view.loc (c : Thread nD τ) ↦{fullShare} g0)
      ∗ (oM.view.loc (c : Thread nD τ) ↦[oM.view.set]{fullShare} fo))
    ⊢ iprop(|={Set.univ}=> (Φ₁ m c ∗ (dats m 0 c).owesAt () t0_0.succ
        ∗ (∃ f : Buf (Elt F) ((c : Thread nD τ).loc cc0_stg0_0), ⌜f = xstg m c⌝ ∗ (((c : Thread nD τ).loc cc0_stg0_0) ↦{fullShare} f))
        ∗ (∃ f : Buf (Elt F) ((c : Thread nD τ).loc cc0_stg1_0), ⌜f = outC m c⌝ ∗ (((c : Thread nD τ).loc cc0_stg1_0) ↦{fullShare} f)))) := by
  subst hx hfo
  have h := close_phi1 m K c fk
  rw [bigSep_fin14, bigSep_fin14, bigSep_fin14] at h
  iintro ⟨HG, Hc0, Hc1, Hw, Hk, ⟨S0, S1, S2, S3, S4, S5, S6, S7, S8, S9, S10, S11, S12, S13⟩, ⟨R0, R1, R2, R3, R4, R5, R6, R7, R8, R9, R10, R11, R12, R13⟩, HO, Hx, Ho⟩
  imod h $$ [HG Hc0 Hc1 Hw Hk S0 S1 S2 S3 S4 S5 S6 S7 S8 S9 S10 S11 S12 S13 R0 R1 R2 R3 R4 R5 R6 R7 R8 R9 R10 R11 R12 R13] with HΦ
  · isplitl [HG]; · iexact HG
    isplitl [S0 S1 S2 S3 S4 S5 S6 S7 S8 S9 S10 S11 S12 S13]
    ·
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      isplitl [S12]; · iexists _; iexact S12
      iexists _; iexact S13
    isplitl [R0 R1 R2 R3 R4 R5 R6 R7 R8 R9 R10 R11 R12 R13]
    ·
      isplitl [R0]; · iexists _; iexact R0
      isplitl [R1]; · iexists _; iexact R1
      isplitl [R2]; · iexists _; iexact R2
      isplitl [R3]; · iexists _; iexact R3
      isplitl [R4]; · iexists _; iexact R4
      isplitl [R5]; · iexists _; iexact R5
      isplitl [R6]; · iexists _; iexact R6
      isplitl [R7]; · iexists _; iexact R7
      isplitl [R8]; · iexists _; iexact R8
      isplitl [R9]; · iexists _; iexact R9
      isplitl [R10]; · iexists _; iexact R10
      isplitl [R11]; · iexists _; iexact R11
      isplitl [R12]; · iexists _; iexact R12
      iexists _; iexact R13
    isplitl [Hc0]; · iexact Hc0
    isplitl [Hc1]; · iexact Hc1
    isplitl [Hk]; · iexact Hk
    iexact Hw
  ihave HO := (owesAt_done m c W) $$ HO
  ihave Ho := (Entails.of_eq (oM_whole c (outC m c))) $$ Ho
  imodintro
  isplitl [HΦ]; · iexact HΦ
  isplitl [HO]; · iexact HO
  isplitl [Hx]
  · iexists (xs m c)
    isplitr; · ipureintro; exact (xstg_eq m c).symm
    iexact Hx
  iexists (outC m c)
  isplitr; · ipureintro; rfl
  iexact Ho

end Cert.KernelIdeal.A2A

end
-- ==== Proof.Local.lean ====
/-
  The local effects of a device's body over slot hypotheses: the fetch of a slab of weight columns into one of the two
  scratch slots and its wait, the loads of the x block and of a slab, and the dead load and the store of a send slot.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Facts
import proofs.«900797_g7700000000000798_dist_gemm_a2a_m4096_k4096_n8192_f32_relu_v7x_i8_1_alg».proof.Proof.Steps
import proofs.«900797_g7700000000000798_dist_gemm_a2a_m4096_k4096_n8192_f32_relu_v7x_i8_1_alg».proof.Proof.Slab

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is still owed after the first transfers -/

/-- The receive credits of the last n slots, slot 13's first. -/
def owedTop (c : Dev nD) : ℕ → CellTallies nD τ sig Unit
  | 0 => 0
  | n + 1 => owedTop c n + rT c ⟨13 - n, by omega⟩

/-- What a device still owes when the transfers of slots 0 … k - 1 have been issued. -/
def owedAfter (c : Dev nD) (k : ℕ) : CellTallies nD τ sig Unit := owedTop c (14 - k)

theorem owedAfter_zero (c : Dev nD) : owedAfter c 0 = OR c := by
  rfl
theorem owedAfter_last (c : Dev nD) : owedAfter c 14 = 0 := rfl
theorem owedAfter_step (c : Dev nD) (v : Fin 14) : owedAfter c v.val = owedAfter c (v.val + 1) + rT c v := by
  fin_cases v <;> rfl
theorem owedAfter_le (c : Dev nD) (k : ℕ) : owedAfter c k ≤ O₀ c := by
  have mono : ∀ n k', owedTop c n ≤ owedTop c (n + k') := by
    intro n k'
    induction k' with
    | zero => exact le_rfl
    | succ k' ih => exact ih.trans (show owedTop c (n + k') ≤ owedTop c (n + k') + rT c ⟨13 - (n + k'), by omega⟩ from le_self_add)
  have h14 : owedTop c (14 - k) ≤ owedTop c 14 := by
    have := mono (14 - k) (14 - (14 - k))
    rwa [show 14 - k + (14 - (14 - k)) = 14 by omega] at this
  exact h14.trans ((le_of_eq (owedAfter_zero c)).trans (OR_le_O₀ c))

/-! ## The two scratch slots of weight columns -/

theorem inb_kslot (i : Fin 2) : ∀ a, (![i.val, 0, 0] : Fin 3 → Nat) a + S1x4096x512.size a ≤ S2x4096x512.size a := by
  intro a; have := i.isLt; fin_cases a <;> simp <;> omega

/-- Slot i of the 2 × 4096 × 512 scratch buffer, as the 4096 × 512 memref the fetches name. -/
abbrev kSlot (i : Fin 2) : Memref sig .tc .vmem S4096x512 .f32 :=
  (kM.slice (Rect.unit (s := S2x4096x512) ![i.val, 0, 0] S1x4096x512.size (inb_kslot i)) (fun _ => rfl)).squeeze S4096x512 squeezes_S1x4096x512_S4096x512

/-- Scratch slot i on device c, held whole at contents f. -/
def kPts (c : Dev nD) (i : Fin 2) (f : Buf (Elt F) ((kSlot i).view.loc (c : Thread nD τ))) : sProp 𝕄 :=
  (kSlot i).view.loc (c : Thread nD τ) ↦[(kSlot i).view.set]{fullShare} f

/-- A 1 × 4096 × 512 block read at either slot index alike. -/
def slabBuf (g : Vec F S1x4096x512 .f32) : Vec F S2x4096x512 .f32 :=
  fun j => g (ValueIdx.ix3 (n0 := 1) (n1 := 4096) (n2 := 512) 0 ⟨(j 1).val, (j 1).isLt⟩ ⟨(j 2).val, (j 2).isLt⟩)

/-! ## The weights: the columns a fetch reads, and the two half shares -/

/-- The 512 weight columns of the device s places on, half t, as the memref a fetch names. -/
abbrev wCols (c : Dev nD) (s : Fin 8) (t : Fin 2) : Memref sig .tc .hbm S4096x512 .f32 :=
  wM.slice (Rect.unit (s := S4096x8192) (k0_off1 c (BitVec.ofNat 32 s.val) (BitVec.ofNat 32 (512 * t.val))) S4096x512.size (k0_off1_inb c s t)) (fun _ => rfl)

/-- The share of the weights the fetch into scratch slot i reads with: the two slots' fetches never compete. -/
def half (i : Fin 2) : PosShare TreeShare := if i.val = 0 then fullShare.left else fullShare.right

/-- The device's copy of the weights at the share of slot i's fetches. -/
def wHalf (c : Dev nD) (i : Fin 2) : sProp 𝕄 := wM.view.loc (c : Thread nD τ) ↦[wM.view.set]{half i} ws m c

theorem w_halve (c : Dev nD) :
    ((((c : Thread nD τ).loc main_arg1) ↦{fullShare} ws m c) : sProp 𝕄) ⊣⊢ iprop(wHalf m c 0 ∗ wHalf m c 1) := by
  unfold wHalf
  rw [show (wM : Memref sig .tc .hbm S4096x8192 .f32).view.set = Finset.univ from View.set_whole _,
    show half 0 = fullShare.left from if_pos rfl, show half 1 = fullShare.right from if_neg (by decide)]
  exact pointsTo_share (PosShare.mem_left_op_right fullShare)

/-- The credit of a fetch: the scratch slot's. -/
abbrev Nk : ℕ := (kSlot 0).view.dmaCredit

/-- What the issue of the fetch of columns (s, t) into scratch slot i leaves: the transfer in flight, to deliver the slot
    holding the slab and the columns' share back, and the rest of the weights at that share. -/
def Fetching (c : Dev nD) (i : Fin 2) (s : Fin 8) (t : Fin 2) : sProp 𝕄 :=
  iprop(Transfers.Flight countersEmb (c : Thread nD τ) (.dma (copySem i)) () Nk
      iprop(kPts c i (slabBuf (wslab (ws m c) (peer c s) t))
        ∗ ((wCols c s t).view.loc (c : Thread nD τ) ↦[(wCols c s t).view.set]{half i} ws m c))
    ∗ (wM.view.loc (c : Thread nD τ) ↦[wM.view.set \ (wCols c s t).view.set]{half i} ws m c))

open Idealize.ShloMosaic.ValueIdx in
/-- Scratch slot i's placement: (a, b) of 4096 × 512 sits at (i, a, b). -/
theorem kSlot_emb (i : Fin 2) (x : S4096x512.Idx) :
    ((kSlot i).view.emb x : S2x4096x512.Idx) = ix3 (n0 := 2) (n1 := 4096) (n2 := 512) i (x 0) (x 1) := by
  show (Rect.unit (s := S2x4096x512) ![i.val, 0, 0] S1x4096x512.size (inb_kslot i)).emb (Shape.reshapeEquiv _ x) = _
  rw [squeezeK_idx, slabRect_emb]; rfl

open Idealize.ShloMosaic.ValueIdx in
/-- Any contents of the scratch buffer are, on slot i, the block a load of slot i reads, placed back. -/
theorem kSlot_eq_readAt (i : Fin 2) (Fc : Vec F S2x4096x512 .f32) :
    ∀ j ∈ (kSlot i).view.set, Fc j
      = slabBuf (kM.view.readAt (Elt F) (Rect.unit (s := S2x4096x512) ![i.val, 0, 0] S1x4096x512.size (inb_kslot i)).toLoadRect Fc) j := by
  intro j hj
  obtain ⟨x, rfl⟩ := View.exists_emb_of_mem_set _ hj
  have hx := kSlot_emb i x
  show Fc ((kSlot i).view.emb x) = _
  rw [hx]
  show Fc _ = kM.view.readAt (Elt F) (Rect.unit (s := S2x4096x512) ![i.val, 0, 0] S1x4096x512.size (inb_kslot i)).toLoadRect Fc
    (ix3 (n0 := 1) (n1 := 4096) (n2 := 512) 0 (x 0) (x 1))
  rw [View.readAt_apply, View.read_apply, cast_eq]
  exact (congrArg Fc (slabRect_emb i (inb_kslot i) (ix3 (n0 := 1) (n1 := 4096) (n2 := 512) 0 (x 0) (x 1)))).symm

/-- The fetch of columns (s, t) lands the slab of the device s places on, half t, in scratch slot i, whatever the slot held. -/
theorem kslab_landing (c : Dev nD) (i : Fin 2) (s : Fin 8) (t : Fin 2) (fd : Buf (Elt F) ((kSlot i).view.loc (c : Thread nD τ))) :
    ∀ j ∈ (kSlot i).view.set,
      (kSlot i).view.write (Elt F) fd ((wCols c s t).view.read (Elt F) (ws m c)) Finset.univ j
        = slabBuf (wslab (ws m c) (peer c s) t) j := by
  intro j hj
  refine (kSlot_eq_readAt i _ j hj).trans ?_
  rw [slab_read i (peer c s) t (off1_eq c s t) (k0_off1_inb c s t) (inb_kslot i) (inb_kslot i) fd (ws m c)]

open Idealize.ShloMosaic.ValueIdx in
/-- A load through the unit rectangle at scratch slot i reads, at (0, a, b), the buffer's (i, a, b). -/
theorem kM_readAt_slot (i : Fin 2) (inb) (f : Vec F S2x4096x512 .f32) (y : S1x4096x512.Idx) :
    kM.view.readAt (Elt F) (Rect.unit (s := S2x4096x512) ![i.val, 0, 0] S1x4096x512.size inb).toLoadRect f y
      = f (ix3 (n0 := 2) (n1 := 4096) (n2 := 512) i ⟨(y 1).val, (y 1).isLt⟩ ⟨(y 2).val, (y 2).isLt⟩) := by
  rw [View.readAt_apply, View.read_apply, cast_eq]
  exact congrArg f (slabRect_emb i inb y)

open Idealize.ShloMosaic.ValueIdx in
/-- An index of 1 × 4096 × 512 is (0, its second, its third coordinate). -/
theorem eq_ix3_unitK (y : S1x4096x512.Idx) :
    y = (ix3 (n0 := 1) (n1 := 4096) (n2 := 512) 0 ⟨(y 1).val, (y 1).isLt⟩ ⟨(y 2).val, (y 2).isLt⟩ : S1x4096x512.Idx) := by
  have h0 : (y 0).val = 0 := by have := (y 0).isLt; change (y 0).val < 1 at this; omega
  funext a
  match a with
  | ⟨0, _⟩ => exact Fin.ext h0
  | ⟨1, _⟩ => rfl
  | ⟨2, _⟩ => rfl

/-- A load of scratch slot i of a buffer that holds the block g at either slot reads g. -/
theorem slab_load (i : Fin 2) (inb) (g : Vec F S1x4096x512 .f32) :
    kM.view.readAt (Elt F) (Rect.unit (s := S2x4096x512) ![i.val, 0, 0] S1x4096x512.size inb).toLoadRect (slabBuf g) = g := by
  funext y
  rw [kM_readAt_slot]
  exact congrArg g (eq_ix3_unitK y).symm

/-! ## The scratch buffer as its two slots -/

/-- The rectangle of scratch slot i. -/
abbrev kRect (i : Fin 2) : Rect S2x4096x512 := Rect.unit (s := S2x4096x512) ![i.val, 0, 0] S1x4096x512.size (inb_kslot i)

/-- The buffer elements under scratch slot i, as elements of the buffer's own location. -/
def kSet (c : Dev nD) (i : Fin 2) : Finset (Idx (kM.view.loc (c : Thread nD τ))) := (kSlot i).view.set

theorem kSet_eq (c : Dev nD) (i : Fin 2) : kSet c i = (kRect i).set.map kM.view.emb := by
  show ((kM.view.slice (kRect i)).reshape S4096x512 _).set = _
  rw [View.set_reshape, View.set_slice]

theorem mem_kRect (i : Fin 2) (y : S2x4096x512.Idx) : y ∈ (kRect i).set ↔ (y 0).val = i.val := by
  rw [Rect.mem_set_unit]
  have h1 : (y 1).val < 4096 := (y 1).isLt
  have h2 : (y 2).val < 512 := (y 2).isLt
  constructor
  · intro h
    have h0 := h 0
    simp at h0
    omega
  · intro h a
    fin_cases a <;> simp <;> omega

theorem kSet_disjoint (c : Dev nD) {i i' : Fin 2} (h : i ≠ i') : Disjoint (kSet c i) (kSet c i') := by
  rw [kSet_eq, kSet_eq, Finset.disjoint_map]
  refine Finset.disjoint_left.mpr fun y hy hy' => h (Fin.ext ?_)
  rw [← (mem_kRect i y).mp hy, ← (mem_kRect i' y).mp hy']

theorem kSet_cover (c : Dev nD) :
    (kM.view.set : Finset (Idx (kM.view.loc (c : Thread nD τ)))) = Finset.univ.biUnion (kSet c) := by
  ext x
  constructor
  · intro hx
    obtain ⟨y, -, rfl⟩ := Finset.mem_map.mp hx
    have h0 : (y 0).val < 2 := (y 0).isLt
    refine Finset.mem_biUnion.mpr ⟨⟨(y 0).val, h0⟩, Finset.mem_univ _, ?_⟩
    rw [kSet_eq]
    exact Finset.mem_map_of_mem _ ((mem_kRect _ y).mpr rfl)
  · intro hx
    obtain ⟨i, -, hi⟩ := Finset.mem_biUnion.mp hx
    rw [kSet_eq] at hi
    obtain ⟨y, -, rfl⟩ := Finset.mem_map.mp hi
    exact Finset.mem_map_of_mem _ (Finset.mem_univ y)

/-- The elements a load of scratch slot i's rectangle reads are the slot's. -/
theorem load_kslot_subset (i : Fin 2) (inb : ∀ a, (![i.val, 0, 0] : Fin 3 → Nat) a + S1x4096x512.size a ≤ S2x4096x512.size a) :
    kM.view.setOn (Rect.unit (s := S2x4096x512) ![i.val, 0, 0] S1x4096x512.size inb).toLoadRect.set ⊆ (kSlot i).view.set :=
  le_of_eq (kSet_eq (0 : Dev nD) i).symm

/-- The elements a load or a store of send slot v's rectangle touches are the slot's. -/
theorem load_sslot_subset (v : Fin 14) (inb : ∀ a, (![v.val, 0, 0] : Fin 3 → Nat) a + S1x512x512.size a ≤ S14x512x512.size a) :
    sM.view.setOn (Rect.unit (s := S14x512x512) ![v.val, 0, 0] S1x512x512.size inb).toLoadRect.set ⊆ (sSlot v).view.set :=
  le_of_eq (slotSet_eq sM (0 : Dev nD) v).symm

/-- The scratch buffer held whole is its two slots. -/
theorem k_split (c : Dev nD) (f : Buf (Elt F) (kM.view.loc (c : Thread nD τ))) :
    (kM.view.loc (c : Thread nD τ) ↦[kM.view.set]{fullShare} f : sProp 𝕄) ⊣⊢ iprop(kPts c 0 f ∗ kPts c 1 f) := by
  rw [kSet_cover c, pointsTo_biUnion Finset.univ (kSet c) fun i _ i' _ h => kSet_disjoint c h, bigSep_fin_two]
  exact ⟨Entails.of_eq rfl, Entails.of_eq rfl⟩

/-- Two slots at whatever contents are the scratch buffer whole at some contents. -/
theorem k_join (c : Dev nD) (f0 f1 : Buf (Elt F) (kM.view.loc (c : Thread nD τ))) :
    (iprop(kPts c 0 f0 ∗ kPts c 1 f1) : sProp 𝕄) ⊢ iprop(∃ f, kM.view.loc (c : Thread nD τ) ↦[kM.view.set]{fullShare} f) := by
  have hj : (bigSep Finset.univ fun i : Fin 2 => (kM.view.loc (c : Thread nD τ) ↦[kSet c i]{fullShare} (if i.val = 0 then f0 else f1)) : sProp 𝕄)
      ⊢ iprop(∃ g, ⌜∀ t ∈ Finset.univ, ∀ j ∈ kSet c t, g j = (if t.val = 0 then f0 else f1) j⌝
          ∗ kM.view.loc (c : Thread nD τ) ↦[Finset.univ.biUnion (kSet c)]{fullShare} g) :=
    pointsTo_biUnion_join Finset.univ (kSet c) (fun i : Fin 2 => if i.val = 0 then f0 else f1) f0 fun i _ i' _ h => kSet_disjoint c h
  rw [bigSep_univ_two, ← kSet_cover c] at hj
  iintro ⟨H0, H1⟩
  ihave H := hj $$ [H0 H1]
  · isplitl [H0]; · unfold kPts; iexact H0
    unfold kPts; iexact H1
  icases H with ⟨%g, %hg, H⟩
  iexists g
  iexact H

/-! ## The wrappers -/

/-- (L1) The fetch of columns (s, t) into scratch slot i, its semaphore at zero. -/
theorem wp_fetch (c : Dev nD) (i : Fin 2) (s : Fin 8) (t : Fin 2)
    {hsrc : (wCols c s t).view.WordExact} {hdst : (kSlot i).view.WordExact}
    {hsem : DmaTarget.Typed .hbm (.dma (copySem i)) (.here (kSlot i) : DmaTarget nD τ sig .tc .vmem S4096x512 .f32)}
    {α : Type} {Q : α → sProp 𝕄} {cont : PUnit → Prog (TpuEff nD τ sig (Elt F) Λ₀ .tc) α} :
    iprop(semVal (copyCell c i) 0 ∗ (∃ f, kPts (F := F) c i f) ∗ wHalf m c i)
      ⊢ iprop((Fetching m c i s t -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (wCols c s t) (.here (kSlot i)) (.dma (copySem i)) hsrc hdst hsem) cont) Q) := by
  unfold Fetching wHalf
  iintro ⟨Hv, ⟨%fd, Hd⟩, Hw⟩ Hk
  ihave Hw' := (pointsTo_split_subset (S := wM.view.set) (I := ((wCols c s t).view.set : Finset (Idx (wM.view.loc (c : Thread nD τ)))))
    (View.set_slice_subset _ _)).1 $$ Hw
  icases Hw' with ⟨Hs, Hrest⟩
  iapply (Transfers.wp_dmaLocal countersEmb 𝒱₀ (c : Thread nD τ) none (src := wCols c s t) (via := .same) (dst := kSlot i) (q := half i)
      (fs := ws m c) (fd := fd) (Sd := (kSlot i).view.set) () Nk rfl (View.dmaCredit_pos _ (by decide)) subset_rfl) $$ [Hs Hd Hv]
  · isplitl [Hs]; · iexact Hs
    isplitl [Hd]; · unfold kPts; iexact Hd
    iexact Hv
  iintro Hf
  iapply Hk
  isplitl [Hf]
  · iapply (Transfers.Flight_mono countersEmb (c : Thread nD τ) (sep_mono_left (Entails.of_eq (pointsTo_congr (kslab_landing m c i s t fd))))) $$ Hf
  iexact Hrest

/-- (L2) The wait for that fetch, owing any part of the launch debt: the slot holds the slab. -/
theorem wp_fetch_wait (c : Dev nD) (i : Fin 2) (s : Fin 8) (t : Fin 2)
    {hsrc : (wCols c s t).view.WordExact} {hdst : (kSlot i).view.WordExact}
    {α : Type} {Q : α → sProp 𝕄} {cont : PUnit → Prog (TpuEff nD τ sig (Elt F) Λ₀ .tc) α}
    (O : CellTallies nD τ sig Unit) (hO : O ≤ O₀ c) (W : Waits sig Unit) :
    iprop(Fetching m c i s t ∗ owes (c : Thread nD τ) O W ∗ levAts L lv)
      ⊢ iprop(((kPts c i (slabBuf (wslab (ws m c) (peer c s) t)) ∗ semVal (copyCell c i) 0 ∗ wHalf m c i
              ∗ owes (c : Thread nD τ) O (insert (.dma (copySem i), ()) W)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (copySem i) (wCols c s t) (kSlot i) hsrc hdst) cont) Q) := by
  unfold Fetching
  iintro ⟨⟨Hf, Hrest⟩, HO, #Hlev⟩ Hk
  have hw := Transfers.wp_waitLocalO (Q := Q) countersEmb 𝒱₀ (c : Thread nD τ) none (defs := defs₀ (F := F)) (sem := copySem i)
    (srcw := wCols c s t) (dstw := kSlot i) (hsrc := hsrc) (hdst := hdst) (k := cont) () (N := Nk) rfl
    (D := iprop(kPts c i (slabBuf (wslab (ws m c) (peer c s) t))
        ∗ ((wCols c s t).view.loc (c : Thread nD τ) ↦[(wCols c s t).view.set]{half i} ws m c))) (O := O) (W := W)
  iapply hw $$ [Hf HO]
  · isplitl [Hf]; · iexact Hf
    isplitl [HO]; · iexact HO
    iapply (mayWait_low c (copySem i) (by show 2 + i.val < 18; have := i.isLt; omega) O hO); iexact Hlev
  iintro ⟨⟨Hsl, Hs⟩, Hv, HO⟩
  iapply Hk
  isplitl [Hsl]; · iexact Hsl
  isplitl [Hv]; · iexact Hv
  isplitl [Hs Hrest]
  · unfold wHalf
    iapply (pointsTo_split_subset (S := wM.view.set) (I := ((wCols c s t).view.set : Finset (Idx (wM.view.loc (c : Thread nD τ)))))
      (View.set_slice_subset _ _)).2
    isplitl [Hs]; · iexact Hs
    iexact Hrest
  iexact HO

/-- (L3) The load of the staged x block, whole. -/
theorem wp_load_x (c : Dev nD)
    {hl : xM.view.LoadsAt (Rect.unit (s := S512x4096) ![0, 0] S512x4096.size inb_S512x4096_S512x4096_0_0).toLoadRect}
    {α : Type} {Q : α → sProp 𝕄}
    {cont : ((Rect.unit (s := S512x4096) ![0, 0] S512x4096.size inb_S512x4096_S512x4096_0_0).toLoadRect.shape.Idx → Elt F .f32) → Prog (TpuEff nD τ sig (Elt F) Λ₀ .tc) α}
    (f : Vec F S512x4096 .f32) :
    (xM.view.loc (c : Thread nD τ) ↦[xM.view.set]{fullShare} f : sProp 𝕄)
      ⊢ iprop(((xM.view.loc (c : Thread nD τ) ↦[xM.view.set]{fullShare} f) -∗ wp frame (wpE (defs₀ (F := F)) 𝒱₀ (c : Thread nD τ) none) Set.univ (cont f) Q)
          -∗ wp frame (wpE (defs₀ (F := F)) 𝒱₀ (c : Thread nD τ) none) Set.univ (.op (.load xM (Rect.unit (s := S512x4096) ![0, 0] S512x4096.size inb_S512x4096_S512x4096_0_0).toLoadRect hl) cont) Q) := by
  have h := wp_load (Q := Q) (Γ := .empty) 𝒱₀ (c : Thread nD τ) none Set.univ (defs := defs₀ (F := F)) (m := xM) (hl := hl) (k := cont)
    (S := (xM.view.set : Finset (Idx (xM.view.loc (c : Thread nD τ))))) (q := fullShare) (f := f) (View.setOn_subset_set _ _)
  rw [x_readAt f] at h
  exact h

/-- (L4) The load of scratch slot i, held at a block read at either slot alike: the block. -/
theorem wp_load_k (c : Dev nD) (i : Fin 2) {inb : ∀ a, (![i.val, 0, 0] : Fin 3 → Nat) a + S1x4096x512.size a ≤ S2x4096x512.size a}
    {hl : kM.view.LoadsAt (Rect.unit (s := S2x4096x512) ![i.val, 0, 0] S1x4096x512.size inb).toLoadRect}
    {α : Type} {Q : α → sProp 𝕄}
    {cont : ((Rect.unit (s := S2x4096x512) ![i.val, 0, 0] S1x4096x512.size inb).toLoadRect.shape.Idx → Elt F .f32) → Prog (TpuEff nD τ sig (Elt F) Λ₀ .tc) α}
    (g : Vec F S1x4096x512 .f32) :
    (kPts c i (slabBuf g) : sProp 𝕄)
      ⊢ iprop((kPts c i (slabBuf g) -∗ wp frame (wpE (defs₀ (F := F)) 𝒱₀ (c : Thread nD τ) none) Set.univ (cont g) Q)
          -∗ wp frame (wpE (defs₀ (F := F)) 𝒱₀ (c : Thread nD τ) none) Set.univ (.op (.load kM (Rect.unit (s := S2x4096x512) ![i.val, 0, 0] S1x4096x512.size inb).toLoadRect hl) cont) Q) := by
  unfold kPts
  have h := wp_load (Q := Q) (Γ := .empty) 𝒱₀ (c : Thread nD τ) none Set.univ (defs := defs₀ (F := F)) (m := kM) (hl := hl) (k := cont)
    (S := ((kSlot i).view.set : Finset (Idx (kM.view.loc (c : Thread nD τ))))) (q := fullShare) (f := slabBuf g) (load_kslot_subset i inb)
  rw [slab_load i inb g] at h
  exact h

/-- (L5) The dead load of send slot v (the swap's): whatever it reads. -/
theorem wp_load_s_dead (c : Dev nD) (v : Fin 14) {inb : ∀ a, (![v.val, 0, 0] : Fin 3 → Nat) a + S1x512x512.size a ≤ S14x512x512.size a}
    {hl : sM.view.LoadsAt (Rect.unit (s := S14x512x512) ![v.val, 0, 0] S1x512x512.size inb).toLoadRect}
    {α : Type} {Q : α → sProp 𝕄}
    {cont : ((Rect.unit (s := S14x512x512) ![v.val, 0, 0] S1x512x512.size inb).toLoadRect.shape.Idx → Elt F .bf16) → Prog (TpuEff nD τ sig (Elt F) Λ₀ .tc) α}
    (f : Buf (Elt F) ((sSlot v).view.loc (c : Thread nD τ))) :
    (slotPts sM c v f : sProp 𝕄)
      ⊢ iprop((slotPts sM c v f -∗ ∀ r, wp frame (wpE (defs₀ (F := F)) 𝒱₀ (c : Thread nD τ) none) Set.univ (cont r) Q)
          -∗ wp frame (wpE (defs₀ (F := F)) 𝒱₀ (c : Thread nD τ) none) Set.univ (.op (.load sM (Rect.unit (s := S14x512x512) ![v.val, 0, 0] S1x512x512.size inb).toLoadRect hl) cont) Q) := by
  unfold slotPts
  have h := wp_load (Q := Q) (Γ := .empty) 𝒱₀ (c : Thread nD τ) none Set.univ (defs := defs₀ (F := F)) (m := sM) (hl := hl) (k := cont)
    (S := ((sSlot v).view.set : Finset (Idx (sM.view.loc (c : Thread nD τ))))) (q := fullShare) (f := f) (load_sslot_subset v inb)
  iintro Hs Hk
  iapply h $$ Hs
  iintro Hs
  ihave Hk' := Hk $$ Hs
  iapply Hk'

/-- (L6) The store of a block into send slot v: the slot holds it. -/
theorem wp_store_s (c : Dev nD) (v : Fin 14) {inb : ∀ a, (![v.val, 0, 0] : Fin 3 → Nat) a + S1x512x512.size a ≤ S14x512x512.size a}
    {hx : (sM.access (Rect.unit (s := S14x512x512) ![v.val, 0, 0] S1x512x512.size inb)).Stores Finset.univ}
    {hm : (Finset.univ : Finset (Rect.unit (s := S14x512x512) ![v.val, 0, 0] S1x512x512.size inb).shape.Idx) = Finset.univ ∨ ∀ a, (Rect.unit (s := S14x512x512) ![v.val, 0, 0] S1x512x512.size inb).stride a = 1}
    {α : Type} {Q : α → sProp 𝕄} {cont : PUnit → Prog (TpuEff nD τ sig (Elt F) Λ₀ .tc) α}
    (f : Buf (Elt F) ((sSlot v).view.loc (c : Thread nD τ))) (g : FVec F S1x512x512 .bf16) :
    (slotPts sM c v f : sProp 𝕄)
      ⊢ iprop((slotPts sM c v (slotBuf g) -∗ wp frame (wpE (defs₀ (F := F)) 𝒱₀ (c : Thread nD τ) none) Set.univ (cont ⟨⟩) Q)
          -∗ wp frame (wpE (defs₀ (F := F)) 𝒱₀ (c : Thread nD τ) none) Set.univ (.op (.store sM (Rect.unit (s := S14x512x512) ![v.val, 0, 0] S1x512x512.size inb) g Finset.univ hx hm) cont) Q) := by
  unfold slotPts
  have h := wp_store (Q := Q) (Γ := .empty) 𝒱₀ (c : Thread nD τ) none Set.univ (defs := defs₀ (F := F)) (m := sM)
    (r := Rect.unit (s := S14x512x512) ![v.val, 0, 0] S1x512x512.size inb) (w := g) (Mk := Finset.univ) (hx := hx) (hm := hm) (k := cont)
    (S := ((sSlot v).view.set : Finset (Idx ((sM.access (Rect.unit (s := S14x512x512) ![v.val, 0, 0] S1x512x512.size inb)).loc (c : Thread nD τ)))))
    (f := f) (by rw [View.setOn_univ]; exact le_of_eq ((View.set_slice _ _).trans (slotSet_eq sM (0 : Dev nD) v).symm))
  iintro Hs Hk
  iapply h $$ Hs
  iintro Hs
  iapply Hk
  ihave Hs := (Entails.of_eq (pointsTo_congr (slot_store v inb f g))) $$ Hs
  iexact Hs

end Cert.KernelIdeal.A2A

end
-- ==== Proof.SubA.lean ====
/-
  The first fifteen parts of a device's body, each as a step from what it touches to what it leaves: the entry barrier
  (the eight signals and the wait for eight), the first fetch of weight columns, and the sub-steps that follow — the next
  fetch issued, the current one awaited, the product of the device's rows with the fetched columns stored into a send
  slot, the slot's transfer to the device it is for.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Facts
import proofs.«900797_g7700000000000798_dist_gemm_a2a_m4096_k4096_n8192_f32_relu_v7x_i8_1_alg».proof.Proof.Steps
import proofs.«900797_g7700000000000798_dist_gemm_a2a_m4096_k4096_n8192_f32_relu_v7x_i8_1_alg».proof.Proof.Slab
import proofs.«900797_g7700000000000798_dist_gemm_a2a_m4096_k4096_n8192_f32_relu_v7x_i8_1_alg».proof.Proof.Arrive
import proofs.«900797_g7700000000000798_dist_gemm_a2a_m4096_k4096_n8192_f32_relu_v7x_i8_1_alg».proof.Proof.Local
import proofs.«900797_g7700000000000798_dist_gemm_a2a_m4096_k4096_n8192_f32_relu_v7x_i8_1_alg».proof.Proof.Gen.KernelIdeal.Skeleton

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts -/

/-- Part 1 of the body: the device reads which one it is, then signals one unit to the barrier cells of the devices
    0 … 6, paying on each the duty it is that many places after, with the two receive slots it hands that device. -/
theorem sub_1 (K : Dev nD × Fin 29 → ℕ) (c : Dev nD)
    (a0 : Memref sig .tc .vmem S512x4096 .f32) (h0 : a0.IsWhole) (a1 : Memref sig .tc .hbm S4096x8192 .f32) (h1 : a1.IsWhole)
    (a2 : Memref sig .tc .vmem S4096x1024 .f32) (h2 : a2.IsWhole) (a3 : Memref sig .tc .vmem S2x4096x512 .f32) (h3 : a3.IsWhole)
    (a4 : Memref sig .tc .vmem S14x512x512 .bf16) (h4 : a4.IsWhole) (a5 : Memref sig .tc .vmem S14x512x512 .bf16) (h5 : a5.IsWhole)
    (a6 : DmaSems sig S2) (a7 : DmaSems sig S14) (a8 : DmaSems sig S14)
    (W : Waits sig Unit) (Kt : (Σ' (d0 : Dev nD) (v2 : BitVec 32) (v3 : Sems sig S_), BitVec 32) → sProp 𝕄) :
    iprop(cellInv ER (sched m) (K (0, bIx)) (barCell 0) ∗ reached ER (barCell 0) 0
        ∗ cellInv ER (sched m) (K (1, bIx)) (barCell 1) ∗ reached ER (barCell 1) 0
        ∗ cellInv ER (sched m) (K (2, bIx)) (barCell 2) ∗ reached ER (barCell 2) 0
        ∗ cellInv ER (sched m) (K (3, bIx)) (barCell 3) ∗ reached ER (barCell 3) 0
        ∗ cellInv ER (sched m) (K (4, bIx)) (barCell 4) ∗ reached ER (barCell 4) 0
        ∗ cellInv ER (sched m) (K (5, bIx)) (barCell 5) ∗ reached ER (barCell 5) 0
        ∗ cellInv ER (sched m) (K (6, bIx)) (barCell 6) ∗ reached ER (barCell 6) 0
        ∗ owes (c : Thread nD τ) (O₀ c) W
        ∗ dutyTok ER (barCell 0) 0 (dutyTo c 0) ∗ barPay (F := F) 0 (dutyTo c 0)
        ∗ dutyTok ER (barCell 1) 0 (dutyTo c 1) ∗ barPay (F := F) 1 (dutyTo c 1)
        ∗ dutyTok ER (barCell 2) 0 (dutyTo c 2) ∗ barPay (F := F) 2 (dutyTo c 2)
        ∗ dutyTok ER (barCell 3) 0 (dutyTo c 3) ∗ barPay (F := F) 3 (dutyTo c 3)
        ∗ dutyTok ER (barCell 4) 0 (dutyTo c 4) ∗ barPay (F := F) 4 (dutyTo c 4)
        ∗ dutyTok ER (barCell 5) 0 (dutyTo c 5) ∗ barPay (F := F) 5 (dutyTo c 5)
        ∗ dutyTok ER (barCell 6) 0 (dutyTo c 6) ∗ barPay (F := F) 6 (dutyTo c 6))
      ⊢ iprop((∀ v2 v18, owes (c : Thread nD τ) (OR c + bT 7) W -∗ Kt ⟨c, v2, SemArray.scalar (sig.barrier 0 rfl), v18⟩)
        -∗ wp frame (wpE (defs₀ (F := F)) 𝒱₀ (c : Thread nD τ) none) Set.univ (k0_part1 a0 h0 a1 h1 a2 h2 a3 h3 a4 h4 a5 h5 a6 a7 a8) Kt) := by
  rw [k0_part1_eq_skeleton]; unfold k0_part1_skel
  simp only [semSignalWord, Prog.lift, Prog.bind_op, Prog.bind_ret, Prog.pure_eq_ret, wp_deviceId]
  iintro ⟨#Hi0, #Hr0, #Hi1, #Hr1, #Hi2, #Hr2, #Hi3, #Hr3, #Hi4, #Hr4, #Hi5, #Hr5, #Hi6, #Hr6, HO, Ht0, Hp0, Ht1, Hp1, Ht2, Hp2, Ht3, Hp3, Ht4, Hp4, Ht5, Hp5, Ht6, Hp6⟩ Hk
  unfold O₀
  iapply (wp_signal_bar_word m K c 0 _ dev1_eq (OR c + bT 7 + bT 6 + bT 5 + bT 4 + bT 3 + bT 2 + bT 1) W) $$ [HO Ht0 Hp0]
  · isplitr; · iexact Hi0
    isplitl [HO]; · iexact HO
    isplitl [Ht0]; · iexact Ht0
    isplitl [Hp0]; · iexact Hp0
    iexact Hr0
  iintro HO
  iapply (wp_signal_bar_word m K c 1 _ dev2_eq (OR c + bT 7 + bT 6 + bT 5 + bT 4 + bT 3 + bT 2) W) $$ [HO Ht1 Hp1]
  · isplitr; · iexact Hi1
    isplitl [HO]; · iexact HO
    isplitl [Ht1]; · iexact Ht1
    isplitl [Hp1]; · iexact Hp1
    iexact Hr1
  iintro HO
  iapply (wp_signal_bar_word m K c 2 _ dev3_eq (OR c + bT 7 + bT 6 + bT 5 + bT 4 + bT 3) W) $$ [HO Ht2 Hp2]
  · isplitr; · iexact Hi2
    isplitl [HO]; · iexact HO
    isplitl [Ht2]; · iexact Ht2
    isplitl [Hp2]; · iexact Hp2
    iexact Hr2
  iintro HO
  iapply (wp_signal_bar_word m K c 3 _ dev4_eq (OR c + bT 7 + bT 6 + bT 5 + bT 4) W) $$ [HO Ht3 Hp3]
  · isplitr; · iexact Hi3
    isplitl [HO]; · iexact HO
    isplitl [Ht3]; · iexact Ht3
    isplitl [Hp3]; · iexact Hp3
    iexact Hr3
  iintro HO
  iapply (wp_signal_bar_word m K c 4 _ dev5_eq (OR c + bT 7 + bT 6 + bT 5) W) $$ [HO Ht4 Hp4]
  · isplitr; · iexact Hi4
    isplitl [HO]; · iexact HO
    isplitl [Ht4]; · iexact Ht4
    isplitl [Hp4]; · iexact Hp4
    iexact Hr4
  iintro HO
  iapply (wp_signal_bar_word m K c 5 _ dev6_eq (OR c + bT 7 + bT 6) W) $$ [HO Ht5 Hp5]
  · isplitr; · iexact Hi5
    isplitl [HO]; · iexact HO
    isplitl [Ht5]; · iexact Ht5
    isplitl [Hp5]; · iexact Hp5
    iexact Hr5
  iintro HO
  iapply (wp_signal_bar_word m K c 6 _ dev7_eq (OR c + bT 7) W) $$ [HO Ht6 Hp6]
  · isplitr; · iexact Hi6
    isplitl [HO]; · iexact HO
    isplitl [Ht6]; · iexact Ht6
    isplitl [Hp6]; · iexact Hp6
    iexact Hr6
  iintro HO
  rw [wp_ret]; imodintro
  iapply Hk
  iexact HO

/-- Part 2 of the body: the eighth signal, to device 7's barrier cell; the wait for the eight units of the device's own,
    which hand it the receive slot of every transfer it will make; and the first fetch, of the first half of the columns
    of the device one place on, into scratch slot 0. -/
theorem sub_2 (K : Dev nD × Fin 29 → ℕ) (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 v18 : BitVec 32) (W : Waits sig Unit) (Kt : (Σ' (v49 : BitVec 32), BitVec 32) → sProp 𝕄) :
    iprop(cellInv ER (sched m) (K (7, bIx)) (barCell 7) ∗ reached ER (barCell 7) 0
        ∗ cellInv ER (sched m) (K (c, bIx)) (barCell c)
        ∗ levAts L lv
        ∗ owes (c : Thread nD τ) (OR c + bT 7) W
        ∗ dutyTok ER (barCell 7) 0 (dutyTo c 7) ∗ barPay (F := F) 7 (dutyTo c 7)
        ∗ cred (tallyAt (barCell c) () 8)
        ∗ atPos ER (barCell c) 0 ∅ 0
        ∗ semVal (copyCell c 0) 0
        ∗ (∃ f, kPts (F := F) c 0 f)
        ∗ wHalf m c 0)
      ⊢ iprop((∀ r, (owes (c : Thread nD τ) (OR c) (insert (.reg barS, ()) W)
            ∗ atPos ER (barCell c) (0 + 1) ∅ 0
            ∗ reached ER (barCell c) (0 + 1)
            ∗ (bigSep Finset.univ fun v : Fin 14 => iprop(∃ f, slotPts (F := F) rM (peer c (shiftOf v)) v f))
            ∗ Fetching m c 0 1 0) -∗ Kt r)
        -∗ wp frame (wpE (defs₀ (F := F)) 𝒱₀ (c : Thread nD τ) none) Set.univ (k0_part2 xM h0 wM h1 oM h2 kM h3 sM h4 rM h5 cc0_scratch3 cc0_scratch4 cc0_scratch5 c v2 (SemArray.scalar (sig.barrier 0 rfl)) v18) Kt) := by
  rw [k0_part2_eq_skeleton]; unfold k0_part2_skel
  simp only [semSignalWord, semWaitWord, Prog.lift, Prog.bind_op, Prog.bind_ret, Prog.pure_eq_ret]
  iintro ⟨#Hi7, #Hr7, #HiB, #Hlev, HO, Ht7, Hp7, HcB, HaB, Hc0, HK0, Hw0⟩ Hk
  iapply (wp_signal_bar_word m K c 7 _ dev8_eq (OR c) W) $$ [HO Ht7 Hp7]
  · isplitr; · iexact Hi7
    isplitl [HO]; · iexact HO
    isplitl [Ht7]; · iexact Ht7
    isplitl [Hp7]; · iexact Hp7
    iexact Hr7
  iintro HO
  iapply (wp_wait_bar_word m K c W) $$ [HcB HO HaB]
  · isplitr; · iexact HiB
    isplitl [HcB]; · iexact HcB
    isplitl [HO]; · iexact HO
    isplitr; · iexact Hlev
    iexact HaB
  iintro ⟨HO, HaB, HrB, Hsl⟩
  iapply (wp_fetch m c 0 1 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HaB]; · iexact HaB
  isplitl [HrB]; · iexact HrB
  isplitl [Hsl]; · iexact Hsl
  iexact HF0

/-- Part 3 of the body: the fetch of the second half of the columns of the device one place on is issued, the fetch of the first half awaited, and the product of the device's rows with it stored into send slot 0. -/
theorem sub_3 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v49 : BitVec 32) (c512 : BitVec 32)
    (O : CellTallies nD τ sig Unit)
    (hO : O ≤ O₀ c)
    (W : Waits sig Unit)
    (fs0 : Buf (Elt F) ((sSlot 0).view.loc (c : Thread nD τ)))
    (Kt : (Σ' (v74 : BitVec 32) (v75 : BitVec 32) (v76 : BitVec 1), BitVec 1) → sProp 𝕄) :
    iprop(levAts L lv
        ∗ semVal (copyCell c 1) 0
        ∗ (∃ f, kPts (F := F) c 1 f)
        ∗ wHalf m c 1
        ∗ owes (c : Thread nD τ) (O) W
        ∗ Fetching m c 0 1 0
        ∗ (xM.view.loc (c : Thread nD τ) ↦[xM.view.set]{fullShare} xs m c)
        ∗ slotPts sM c 0 fs0)
      ⊢ iprop((∀ r, (owes (c : Thread nD τ) (O) (insert (.dma (copySem 0), ()) W)
            ∗ Fetching m c 1 1 1
            ∗ kPts c 0 (slabBuf (wslab (ws m c) (peer c 1) 0))
            ∗ semVal (copyCell c 0) 0
            ∗ wHalf m c 0
            ∗ (xM.view.loc (c : Thread nD τ) ↦[xM.view.set]{fullShare} xs m c)
            ∗ slotPts sM c 0 (slotBuf (sent m c 0))) -∗ Kt r)
        -∗ wp frame (wpE (defs₀ (F := F)) 𝒱₀ (c : Thread nD τ) none) Set.univ (k0_part3 xM h0 wM h1 oM h2 kM h3 sM h4 rM h5 cc0_scratch3 cc0_scratch4 cc0_scratch5 c v2 v49 c512) Kt) := by
  rw [k0_part3_eq_skeleton]; unfold k0_part3_skel
  simp only [Prog.lift, Prog.bind_op, Prog.bind_ret, Prog.pure_eq_ret]
  iintro ⟨#Hlev, Hc1, HK1, Hw1, HO, HF0, HX, HS0⟩ Hk
  iapply (wp_fetch m c 1 1 1) $$ [Hc1 HK1 Hw1]
  · isplitl [Hc1]; · iexact Hc1
    isplitl [HK1]; · iexact HK1
    iexact Hw1
  iintro HF1
  iapply (wp_fetch_wait m c 0 1 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  iapply (wp_load_k c 0 (wslab (ws m c) (peer c 1) 0)) $$ HK0
  iintro HK0
  iapply (wp_load_s_dead c 0 fs0) $$ HS0
  iintro HS0
  iintro %_r0
  iapply (wp_store_s c 0 fs0 (k0_pay2 (xs m c) (wslab (ws m c) (peer c 1) 0))) $$ HS0
  iintro HS0
  rw [wp_ret]; imodintro
  iapply Hk
  isplitl [HO]; · iexact HO
  isplitl [HF1]; · iexact HF1
  isplitl [HK0]; · iexact HK0
  isplitl [Hc0]; · iexact Hc0
  isplitl [Hw0]; · iexact Hw0
  isplitl [HX]; · iexact HX
  iexact HS0

/-- Part 4 of the body: the transfer of slot 0 to the device one place on, and the next fetch into scratch slot 0. -/
theorem sub_4 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v74 : BitVec 32) (v75 : BitVec 32) (v76 v79 : BitVec 1)
    (O : CellTallies nD τ sig Unit)
    (W : Waits sig Unit)
    (Kt : PUnit → sProp 𝕄) :
    iprop(cellInv ER (sched m) (K (c, sIx 0)) (sendCell c 0)
        ∗ cellInv ER (sched m) (K (peer c (shiftOf 0), rIx 0)) (recvCell (peer c (shiftOf 0)) 0)
        ∗ reached ER (sendCell c 0) 0
        ∗ reached ER (recvCell (peer c (shiftOf 0)) 0) 0
        ∗ owes (c : Thread nD τ) (O + rT c 0) W
        ∗ slotPts sM c 0 (slotBuf (sent m c 0))
        ∗ (∃ f, slotPts (F := F) rM (peer c (shiftOf 0)) 0 f)
        ∗ dutyTok ER (sendCell c 0) 0 0
        ∗ dutyTok ER (recvCell (peer c (shiftOf 0)) 0) 0 0
        ∗ semVal (copyCell c 0) 0
        ∗ (∃ f, kPts (F := F) c 0 f)
        ∗ wHalf m c 0)
      ⊢ iprop(((owes (c : Thread nD τ) (O) W
            ∗ cred (tallyAt (sendCell c 0) () N)
            ∗ Fetching m c 0 2 0) -∗ Kt ⟨⟩)
        -∗ wp frame (wpE (defs₀ (F := F)) 𝒱₀ (c : Thread nD τ) none) Set.univ (k0_part4 xM h0 wM h1 oM h2 kM h3 sM h4 rM h5 cc0_scratch3 cc0_scratch4 cc0_scratch5 c v2 v74 v75 v76 v79) Kt) := by
  rw [k0_part4_eq_skeleton]; unfold k0_part4_skel
  simp only [Prog.lift, Prog.bind_op, Prog.bind_ret, Prog.pure_eq_ret]
  iintro ⟨#HiS0, #HiR0, #HrS0, #HrR0, HO, HS0, Hn0, HtS0, HtR0, Hc0, HK0, Hw0⟩ Hk
  icases Hn0 with ⟨%fn0, Hn0⟩
  iapply (wp_send_slot m K c _ 0 (dev9_eq c) (slotBuf (sent m c 0)) fn0 (fun _ _ => rfl) O W) $$ [HS0 Hn0 HO HtS0 HtR0]
  · isplitr; · iexact HiS0
    isplitr; · iexact HiR0
    isplitl [HS0]; · iexact HS0
    isplitl [Hn0]; · iexact Hn0
    isplitl [HO]; · iexact HO
    isplitl [HtS0]; · iexact HtS0
    isplitr; · iexact HrS0
    isplitl [HtR0]; · iexact HtR0
    iexact HrR0
  iintro ⟨HcS0, HO⟩
  iapply (wp_fetch m c 0 2 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HcS0]; · iexact HcS0
  iexact HF0

/-- Part 5 of the body: the fetch into scratch slot 1 awaited, and the product stored into send slot 1. -/
theorem sub_5 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (fs1 : Buf (Elt F) ((sSlot 1).view.loc (c : Thread nD τ)))
    (Kt : PUnit → sProp 𝕄) :
    iprop(levAts L lv
        ∗ owes (c : Thread nD τ) (O) W
        ∗ Fetching m c 1 1 1
        ∗ (xM.view.loc (c : Thread nD τ) ↦[xM.view.set]{fullShare} xs m c)
        ∗ slotPts sM c 1 fs1)
      ⊢ iprop(((owes (c : Thread nD τ) (O) (insert (.dma (copySem 1), ()) W)
            ∗ kPts c 1 (slabBuf (wslab (ws m c) (peer c 1) 1))
            ∗ semVal (copyCell c 1) 0
            ∗ wHalf m c 1
            ∗ (xM.view.loc (c : Thread nD τ) ↦[xM.view.set]{fullShare} xs m c)
            ∗ slotPts sM c 1 (slotBuf (sent m c 1))) -∗ Kt ⟨⟩)
        -∗ wp frame (wpE (defs₀ (F := F)) 𝒱₀ (c : Thread nD τ) none) Set.univ (k0_part5 xM h0 wM h1 oM h2 kM h3 sM h4 rM h5 cc0_scratch3 cc0_scratch4 cc0_scratch5 c v2) Kt) := by
  rw [k0_part5_eq_skeleton]; unfold k0_part5_skel
  simp only [Prog.lift, Prog.bind_op, Prog.bind_ret, Prog.pure_eq_ret]
  iintro ⟨#Hlev, HO, HF1, HX, HS1⟩ Hk
  iapply (wp_fetch_wait m c 1 1 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 1) 1)) $$ HK1
  iintro HK1
  iapply (wp_load_s_dead c 1 fs1) $$ HS1
  iintro HS1
  iintro %_r1
  iapply (wp_store_s c 1 fs1 (k0_pay3 (xs m c) (wslab (ws m c) (peer c 1) 1))) $$ HS1
  iintro HS1
  rw [wp_ret]; imodintro
  iapply Hk
  isplitl [HO]; · iexact HO
  isplitl [HK1]; · iexact HK1
  isplitl [Hc1]; · iexact Hc1
  isplitl [Hw1]; · iexact Hw1
  isplitl [HX]; · iexact HX
  iexact HS1

/-- Part 6 of the body: the transfer of slot 1, the next fetch into scratch slot 1, the fetch into slot 0 awaited, and the device's rows loaded. -/
theorem sub_6 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (Kt : FVec F S512x4096 .f32 → sProp 𝕄) :
    iprop(cellInv ER (sched m) (K (c, sIx 1)) (sendCell c 1)
        ∗ cellInv ER (sched m) (K (peer c (shiftOf 1), rIx 1)) (recvCell (peer c (shiftOf 1)) 1)
        ∗ reached ER (sendCell c 1) 0
        ∗ reached ER (recvCell (peer c (shiftOf 1)) 1) 0
        ∗ levAts L lv
        ∗ owes (c : Thread nD τ) (O + rT c 1) W
        ∗ slotPts sM c 1 (slotBuf (sent m c 1))
        ∗ (∃ f, slotPts (F := F) rM (peer c (shiftOf 1)) 1 f)
        ∗ dutyTok ER (sendCell c 1) 0 0
        ∗ dutyTok ER (recvCell (peer c (shiftOf 1)) 1) 0 0
        ∗ semVal (copyCell c 1) 0
        ∗ (∃ f, kPts (F := F) c 1 f)
        ∗ wHalf m c 1
        ∗ Fetching m c 0 2 0
        ∗ (xM.view.loc (c : Thread nD τ) ↦[xM.view.set]{fullShare} xs m c))
      ⊢ iprop(((owes (c : Thread nD τ) (O) (insert (.dma (copySem 0), ()) W)
            ∗ cred (tallyAt (sendCell c 1) () N)
            ∗ Fetching m c 1 2 1
            ∗ kPts c 0 (slabBuf (wslab (ws m c) (peer c 2) 0))
            ∗ semVal (copyCell c 0) 0
            ∗ wHalf m c 0
            ∗ (xM.view.loc (c : Thread nD τ) ↦[xM.view.set]{fullShare} xs m c)) -∗ Kt (k0_pay4 (xs m c)))
        -∗ wp frame (wpE (defs₀ (F := F)) 𝒱₀ (c : Thread nD τ) none) Set.univ (k0_part6 xM h0 wM h1 oM h2 kM h3 sM h4 rM h5 cc0_scratch3 cc0_scratch4 cc0_scratch5 c v2) Kt) := by
  rw [k0_part6_eq_skeleton]; unfold k0_part6_skel
  simp only [Prog.lift, Prog.bind_op, Prog.bind_ret, Prog.pure_eq_ret]
  iintro ⟨#HiS1, #HiR1, #HrS1, #HrR1, #Hlev, HO, HS1, Hn1, HtS1, HtR1, Hc1, HK1, Hw1, HF0, HX⟩ Hk
  icases Hn1 with ⟨%fn1, Hn1⟩
  iapply (wp_send_slot m K c _ 1 (dev10_eq c) (slotBuf (sent m c 1)) fn1 (fun _ _ => rfl) O W) $$ [HS1 Hn1 HO HtS1 HtR1]
  · isplitr; · iexact HiS1
    isplitr; · iexact HiR1
    isplitl [HS1]; · iexact HS1
    isplitl [Hn1]; · iexact Hn1
    isplitl [HO]; · iexact HO
    isplitl [HtS1]; · iexact HtS1
    isplitr; · iexact HrS1
    isplitl [HtR1]; · iexact HtR1
    iexact HrR1
  iintro ⟨HcS1, HO⟩
  iapply (wp_fetch m c 1 2 1) $$ [Hc1 HK1 Hw1]
  · isplitl [Hc1]; · iexact Hc1
    isplitl [HK1]; · iexact HK1
    iexact Hw1
  iintro HF1
  iapply (wp_fetch_wait m c 0 2 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  rw [wp_ret]; imodintro
  iapply Hk
  isplitl [HO]; · iexact HO
  isplitl [HcS1]; · iexact HcS1
  isplitl [HF1]; · iexact HF1
  isplitl [HK0]; · iexact HK0
  isplitl [Hc0]; · iexact Hc0
  isplitl [Hw0]; · iexact Hw0
  iexact HX

/-- Part 7 of the body: the slab loaded from scratch slot 0, the product stored into send slot 2, and the slot's transfer to the device two places on. -/
theorem sub_7 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (W : Waits sig Unit)
    (fs2 : Buf (Elt F) ((sSlot 2).view.loc (c : Thread nD τ)))
    (Kt : (Σ' (v203 : BitVec 32) (c8_i32_173 : BitVec 32) (v204 : BitVec 1), BitVec 32) → sProp 𝕄) :
    iprop(cellInv ER (sched m) (K (c, sIx 2)) (sendCell c 2)
        ∗ cellInv ER (sched m) (K (peer c (shiftOf 2), rIx 2)) (recvCell (peer c (shiftOf 2)) 2)
        ∗ reached ER (sendCell c 2) 0
        ∗ reached ER (recvCell (peer c (shiftOf 2)) 2) 0
        ∗ kPts c 0 (slabBuf (wslab (ws m c) (peer c 2) 0))
        ∗ slotPts sM c 2 fs2
        ∗ owes (c : Thread nD τ) (O + rT c 2) W
        ∗ (∃ f, slotPts (F := F) rM (peer c (shiftOf 2)) 2 f)
        ∗ dutyTok ER (sendCell c 2) 0 0
        ∗ dutyTok ER (recvCell (peer c (shiftOf 2)) 2) 0 0)
      ⊢ iprop((∀ r, (owes (c : Thread nD τ) (O) W
            ∗ kPts c 0 (slabBuf (wslab (ws m c) (peer c 2) 0))
            ∗ cred (tallyAt (sendCell c 2) () N)) -∗ Kt r)
        -∗ wp frame (wpE (defs₀ (F := F)) 𝒱₀ (c : Thread nD τ) none) Set.univ (k0_part7 xM h0 wM h1 oM h2 kM h3 sM h4 rM h5 cc0_scratch3 cc0_scratch4 cc0_scratch5 c v2 (k0_pay4 (xs m c))) Kt) := by
  rw [k0_part7_eq_skeleton]; unfold k0_part7_skel
  simp only [Prog.lift, Prog.bind_op, Prog.bind_ret, Prog.pure_eq_ret]
  iintro ⟨#HiS2, #HiR2, #HrS2, #HrR2, HK0, HS2, HO, Hn2, HtS2, HtR2⟩ Hk
  iapply (wp_load_k c 0 (wslab (ws m c) (peer c 2) 0)) $$ HK0
  iintro HK0
  iapply (wp_load_s_dead c 2 fs2) $$ HS2
  iintro HS2
  iintro %_r2
  iapply (wp_store_s c 2 fs2 (k0_pay5 (k0_pay4 (xs m c)) (wslab (ws m c) (peer c 2) 0))) $$ HS2
  iintro HS2
  icases Hn2 with ⟨%fn2, Hn2⟩
  iapply (wp_send_slot m K c _ 2 (dev11_eq c) (slotBuf (sent m c 2)) fn2 (fun _ _ => rfl) O W) $$ [HS2 Hn2 HO HtS2 HtR2]
  · isplitr; · iexact HiS2
    isplitr; · iexact HiR2
    isplitl [HS2]; · iexact HS2
    isplitl [Hn2]; · iexact Hn2
    isplitl [HO]; · iexact HO
    isplitl [HtS2]; · iexact HtS2
    isplitr; · iexact HrS2
    isplitl [HtR2]; · iexact HtR2
    iexact HrR2
  iintro ⟨HcS2, HO⟩
  rw [wp_ret]; imodintro
  iapply Hk
  isplitl [HO]; · iexact HO
  isplitl [HK0]; · iexact HK0
  iexact HcS2

/-- Part 8 of the body: the next fetch into scratch slot 0 issued, the one into slot 1 awaited, and the product stored into send slot 3. -/
theorem sub_8 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v203 : BitVec 32) (c8 : BitVec 32) (v204 : BitVec 1) (c1 : BitVec 32)
    (O : CellTallies nD τ sig Unit)
    (hO : O ≤ O₀ c)
    (W : Waits sig Unit)
    (fs3 : Buf (Elt F) ((sSlot 3).view.loc (c : Thread nD τ)))
    (Kt : PUnit → sProp 𝕄) :
    iprop(levAts L lv
        ∗ semVal (copyCell c 0) 0
        ∗ (∃ f, kPts (F := F) c 0 f)
        ∗ wHalf m c 0
        ∗ owes (c : Thread nD τ) (O) W
        ∗ Fetching m c 1 2 1
        ∗ (xM.view.loc (c : Thread nD τ) ↦[xM.view.set]{fullShare} xs m c)
        ∗ slotPts sM c 3 fs3)
      ⊢ iprop(((owes (c : Thread nD τ) (O) (insert (.dma (copySem 1), ()) W)
            ∗ Fetching m c 0 3 0
            ∗ kPts c 1 (slabBuf (wslab (ws m c) (peer c 2) 1))
            ∗ semVal (copyCell c 1) 0
            ∗ wHalf m c 1
            ∗ (xM.view.loc (c : Thread nD τ) ↦[xM.view.set]{fullShare} xs m c)
            ∗ slotPts sM c 3 (slotBuf (sent m c 3))) -∗ Kt ⟨⟩)
        -∗ wp frame (wpE (defs₀ (F := F)) 𝒱₀ (c : Thread nD τ) none) Set.univ (k0_part8 xM h0 wM h1 oM h2 kM h3 sM h4 rM h5 cc0_scratch3 cc0_scratch4 cc0_scratch5 c v203 c8 v204 c1) Kt) := by
  rw [k0_part8_eq_skeleton]; unfold k0_part8_skel
  simp only [Prog.lift, Prog.bind_op, Prog.bind_ret, Prog.pure_eq_ret]
  iintro ⟨#Hlev, Hc0, HK0, Hw0, HO, HF1, HX, HS3⟩ Hk
  iapply (wp_fetch m c 0 3 0) $$ [Hc0 HK0 Hw0]
  · isplitl [Hc0]; · iexact Hc0
    isplitl [HK0]; · iexact HK0
    iexact Hw0
  iintro HF0
  iapply (wp_fetch_wait m c 1 2 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 2) 1)) $$ HK1
  iintro HK1
  iapply (wp_load_s_dead c 3 fs3) $$ HS3
  iintro HS3
  iintro %_r3
  iapply (wp_store_s c 3 fs3 (k0_pay6 (xs m c) (wslab (ws m c) (peer c 2) 1))) $$ HS3
  iintro HS3
  rw [wp_ret]; imodintro
  iapply Hk
  isplitl [HO]; · iexact HO
  isplitl [HF0]; · iexact HF0
  isplitl [HK1]; · iexact HK1
  isplitl [Hc1]; · iexact Hc1
  isplitl [Hw1]; · iexact Hw1
  isplitl [HX]; · iexact HX
  iexact HS3

/-- Part 9 of the body: the transfer of slot 3 to the device two places on. -/
theorem sub_9 (K : Dev nD × Fin 29 → ℕ) (c : Dev nD)
    (a0 : Memref sig .tc .vmem S512x4096 .f32) (h0 : a0.IsWhole) (a1 : Memref sig .tc .hbm S4096x8192 .f32) (h1 : a1.IsWhole)
    (a2 : Memref sig .tc .vmem S4096x1024 .f32) (h2 : a2.IsWhole) (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (O : CellTallies nD τ sig Unit) (W : Waits sig Unit) (Kt : (Σ' (v269 : BitVec 32), BitVec 32) → sProp 𝕄) :
    iprop(cellInv ER (sched m) (K (c, sIx 3)) (sendCell c 3)
        ∗ cellInv ER (sched m) (K (peer c (shiftOf 3), rIx 3)) (recvCell (peer c (shiftOf 3)) 3)
        ∗ reached ER (sendCell c 3) 0
        ∗ reached ER (recvCell (peer c (shiftOf 3)) 3) 0
        ∗ slotPts sM c 3 (slotBuf (sent m c 3))
        ∗ (∃ f, slotPts (F := F) rM (peer c (shiftOf 3)) 3 f)
        ∗ owes (c : Thread nD τ) (O + rT c 3) W
        ∗ dutyTok ER (sendCell c 3) 0 0
        ∗ dutyTok ER (recvCell (peer c (shiftOf 3)) 3) 0 0)
      ⊢ iprop((∀ r, (cred (tallyAt (sendCell c 3) () N) ∗ owes (c : Thread nD τ) O W) -∗ Kt r)
        -∗ wp frame (wpE (defs₀ (F := F)) 𝒱₀ (c : Thread nD τ) none) Set.univ (k0_part9 a0 h0 a1 h1 a2 h2 a3 h3 sM h4 rM h5 a6 cc0_scratch4 cc0_scratch5 c v2) Kt) := by
  rw [k0_part9_eq_skeleton]; unfold k0_part9_skel
  simp only [Prog.lift, Prog.bind_op, Prog.bind_ret, Prog.pure_eq_ret]
  iintro ⟨#HiS, #HiR, #HrS, #HrR, Hs, ⟨%fn, Hn⟩, HO, HtS, HtR⟩ Hk
  iapply (wp_send_slot m K c _ 3 (dev12_eq c) (slotBuf (sent m c 3)) fn (fun _ _ => rfl) O W) $$ [Hs Hn HO HtS HtR]
  · isplitr; · iexact HiS
    isplitr; · iexact HiR
    isplitl [Hs]; · iexact Hs
    isplitl [Hn]; · iexact Hn
    isplitl [HO]; · iexact HO
    isplitl [HtS]; · iexact HtS
    isplitr; · iexact HrS
    isplitl [HtR]; · iexact HtR
    iexact HrR
  iintro ⟨Hc, HO⟩
  rw [wp_ret]; imodintro
  iapply Hk
  isplitl [Hc]; · iexact Hc
  iexact HO

/-- Part 10 of the body: the next fetch into scratch slot 1 issued, the one into slot 0 awaited, and the product stored into send slot 4. -/
theorem sub_10 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v269 : BitVec 32) (c512 : BitVec 32)
    (O : CellTallies nD τ sig Unit)
    (hO : O ≤ O₀ c)
    (W : Waits sig Unit)
    (fs4 : Buf (Elt F) ((sSlot 4).view.loc (c : Thread nD τ)))
    (Kt : (Σ' (v294 : BitVec 32) (v295 : BitVec 32) (v296 : BitVec 1), BitVec 1) → sProp 𝕄) :
    iprop(levAts L lv
        ∗ semVal (copyCell c 1) 0
        ∗ (∃ f, kPts (F := F) c 1 f)
        ∗ wHalf m c 1
        ∗ owes (c : Thread nD τ) (O) W
        ∗ Fetching m c 0 3 0
        ∗ (xM.view.loc (c : Thread nD τ) ↦[xM.view.set]{fullShare} xs m c)
        ∗ slotPts sM c 4 fs4)
      ⊢ iprop((∀ r, (owes (c : Thread nD τ) (O) (insert (.dma (copySem 0), ()) W)
            ∗ Fetching m c 1 3 1
            ∗ kPts c 0 (slabBuf (wslab (ws m c) (peer c 3) 0))
            ∗ semVal (copyCell c 0) 0
            ∗ wHalf m c 0
            ∗ (xM.view.loc (c : Thread nD τ) ↦[xM.view.set]{fullShare} xs m c)
            ∗ slotPts sM c 4 (slotBuf (sent m c 4))) -∗ Kt r)
        -∗ wp frame (wpE (defs₀ (F := F)) 𝒱₀ (c : Thread nD τ) none) Set.univ (k0_part10 xM h0 wM h1 oM h2 kM h3 sM h4 rM h5 cc0_scratch3 cc0_scratch4 cc0_scratch5 c v2 v269 c512) Kt) := by
  rw [k0_part10_eq_skeleton]; unfold k0_part10_skel
  simp only [Prog.lift, Prog.bind_op, Prog.bind_ret, Prog.pure_eq_ret]
  iintro ⟨#Hlev, Hc1, HK1, Hw1, HO, HF0, HX, HS4⟩ Hk
  iapply (wp_fetch m c 1 3 1) $$ [Hc1 HK1 Hw1]
  · isplitl [Hc1]; · iexact Hc1
    isplitl [HK1]; · iexact HK1
    iexact Hw1
  iintro HF1
  iapply (wp_fetch_wait m c 0 3 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  iapply (wp_load_k c 0 (wslab (ws m c) (peer c 3) 0)) $$ HK0
  iintro HK0
  iapply (wp_load_s_dead c 4 fs4) $$ HS4
  iintro HS4
  iintro %_r4
  iapply (wp_store_s c 4 fs4 (k0_pay7 (xs m c) (wslab (ws m c) (peer c 3) 0))) $$ HS4
  iintro HS4
  rw [wp_ret]; imodintro
  iapply Hk
  isplitl [HO]; · iexact HO
  isplitl [HF1]; · iexact HF1
  isplitl [HK0]; · iexact HK0
  isplitl [Hc0]; · iexact Hc0
  isplitl [Hw0]; · iexact Hw0
  isplitl [HX]; · iexact HX
  iexact HS4

/-- Part 11 of the body: the transfer of slot 4 to the device three places on, and the next fetch into scratch slot 0. -/
theorem sub_11 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v294 : BitVec 32) (v295 : BitVec 32) (v296 v299 : BitVec 1)
    (O : CellTallies nD τ sig Unit)
    (W : Waits sig Unit)
    (Kt : PUnit → sProp 𝕄) :
    iprop(cellInv ER (sched m) (K (c, sIx 4)) (sendCell c 4)
        ∗ cellInv ER (sched m) (K (peer c (shiftOf 4), rIx 4)) (recvCell (peer c (shiftOf 4)) 4)
        ∗ reached ER (sendCell c 4) 0
        ∗ reached ER (recvCell (peer c (shiftOf 4)) 4) 0
        ∗ owes (c : Thread nD τ) (O + rT c 4) W
        ∗ slotPts sM c 4 (slotBuf (sent m c 4))
        ∗ (∃ f, slotPts (F := F) rM (peer c (shiftOf 4)) 4 f)
        ∗ dutyTok ER (sendCell c 4) 0 0
        ∗ dutyTok ER (recvCell (peer c (shiftOf 4)) 4) 0 0
        ∗ semVal (copyCell c 0) 0
        ∗ (∃ f, kPts (F := F) c 0 f)
        ∗ wHalf m c 0)
      ⊢ iprop(((owes (c : Thread nD τ) (O) W
            ∗ cred (tallyAt (sendCell c 4) () N)
            ∗ Fetching m c 0 4 0) -∗ Kt ⟨⟩)
        -∗ wp frame (wpE (defs₀ (F := F)) 𝒱₀ (c : Thread nD τ) none) Set.univ (k0_part11 xM h0 wM h1 oM h2 kM h3 sM h4 rM h5 cc0_scratch3 cc0_scratch4 cc0_scratch5 c v2 v294 v295 v296 v299) Kt) := by
  rw [k0_part11_eq_skeleton]; unfold k0_part11_skel
  simp only [Prog.lift, Prog.bind_op, Prog.bind_ret, Prog.pure_eq_ret]
  iintro ⟨#HiS4, #HiR4, #HrS4, #HrR4, HO, HS4, Hn4, HtS4, HtR4, Hc0, HK0, Hw0⟩ Hk
  icases Hn4 with ⟨%fn4, Hn4⟩
  iapply (wp_send_slot m K c _ 4 (dev13_eq c) (slotBuf (sent m c 4)) fn4 (fun _ _ => rfl) O W) $$ [HS4 Hn4 HO HtS4 HtR4]
  · isplitr; · iexact HiS4
    isplitr; · iexact HiR4
    isplitl [HS4]; · iexact HS4
    isplitl [Hn4]; · iexact Hn4
    isplitl [HO]; · iexact HO
    isplitl [HtS4]; · iexact HtS4
    isplitr; · iexact HrS4
    isplitl [HtR4]; · iexact HtR4
    iexact HrR4
  iintro ⟨HcS4, HO⟩
  iapply (wp_fetch m c 0 4 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HcS4]; · iexact HcS4
  iexact HF0

/-- Part 12 of the body: the fetch into scratch slot 1 awaited, and the product stored into send slot 5. -/
theorem sub_12 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (fs5 : Buf (Elt F) ((sSlot 5).view.loc (c : Thread nD τ)))
    (Kt : PUnit → sProp 𝕄) :
    iprop(levAts L lv
        ∗ owes (c : Thread nD τ) (O) W
        ∗ Fetching m c 1 3 1
        ∗ (xM.view.loc (c : Thread nD τ) ↦[xM.view.set]{fullShare} xs m c)
        ∗ slotPts sM c 5 fs5)
      ⊢ iprop(((owes (c : Thread nD τ) (O) (insert (.dma (copySem 1), ()) W)
            ∗ kPts c 1 (slabBuf (wslab (ws m c) (peer c 3) 1))
            ∗ semVal (copyCell c 1) 0
            ∗ wHalf m c 1
            ∗ (xM.view.loc (c : Thread nD τ) ↦[xM.view.set]{fullShare} xs m c)
            ∗ slotPts sM c 5 (slotBuf (sent m c 5))) -∗ Kt ⟨⟩)
        -∗ wp frame (wpE (defs₀ (F := F)) 𝒱₀ (c : Thread nD τ) none) Set.univ (k0_part12 xM h0 wM h1 oM h2 kM h3 sM h4 rM h5 cc0_scratch3 cc0_scratch4 cc0_scratch5 c v2) Kt) := by
  rw [k0_part12_eq_skeleton]; unfold k0_part12_skel
  simp only [Prog.lift, Prog.bind_op, Prog.bind_ret, Prog.pure_eq_ret]
  iintro ⟨#Hlev, HO, HF1, HX, HS5⟩ Hk
  iapply (wp_fetch_wait m c 1 3 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 3) 1)) $$ HK1
  iintro HK1
  iapply (wp_load_s_dead c 5 fs5) $$ HS5
  iintro HS5
  iintro %_r5
  iapply (wp_store_s c 5 fs5 (k0_pay8 (xs m c) (wslab (ws m c) (peer c 3) 1))) $$ HS5
  iintro HS5
  rw [wp_ret]; imodintro
  iapply Hk
  isplitl [HO]; · iexact HO
  isplitl [HK1]; · iexact HK1
  isplitl [Hc1]; · iexact Hc1
  isplitl [Hw1]; · iexact Hw1
  isplitl [HX]; · iexact HX
  iexact HS5

/-- Part 13 of the body: the transfer of slot 5, the next fetch into scratch slot 1, the fetch into slot 0 awaited, and the device's rows loaded. -/
theorem sub_13 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (Kt : FVec F S512x4096 .f32 → sProp 𝕄) :
    iprop(cellInv ER (sched m) (K (c, sIx 5)) (sendCell c 5)
        ∗ cellInv ER (sched m) (K (peer c (shiftOf 5), rIx 5)) (recvCell (peer c (shiftOf 5)) 5)
        ∗ reached ER (sendCell c 5) 0
        ∗ reached ER (recvCell (peer c (shiftOf 5)) 5) 0
        ∗ levAts L lv
        ∗ owes (c : Thread nD τ) (O + rT c 5) W
        ∗ slotPts sM c 5 (slotBuf (sent m c 5))
        ∗ (∃ f, slotPts (F := F) rM (peer c (shiftOf 5)) 5 f)
        ∗ dutyTok ER (sendCell c 5) 0 0
        ∗ dutyTok ER (recvCell (peer c (shiftOf 5)) 5) 0 0
        ∗ semVal (copyCell c 1) 0
        ∗ (∃ f, kPts (F := F) c 1 f)
        ∗ wHalf m c 1
        ∗ Fetching m c 0 4 0
        ∗ (xM.view.loc (c : Thread nD τ) ↦[xM.view.set]{fullShare} xs m c))
      ⊢ iprop(((owes (c : Thread nD τ) (O) (insert (.dma (copySem 0), ()) W)
            ∗ cred (tallyAt (sendCell c 5) () N)
            ∗ Fetching m c 1 4 1
            ∗ kPts c 0 (slabBuf (wslab (ws m c) (peer c 4) 0))
            ∗ semVal (copyCell c 0) 0
            ∗ wHalf m c 0
            ∗ (xM.view.loc (c : Thread nD τ) ↦[xM.view.set]{fullShare} xs m c)) -∗ Kt (k0_pay9 (xs m c)))
        -∗ wp frame (wpE (defs₀ (F := F)) 𝒱₀ (c : Thread nD τ) none) Set.univ (k0_part13 xM h0 wM h1 oM h2 kM h3 sM h4 rM h5 cc0_scratch3 cc0_scratch4 cc0_scratch5 c v2) Kt) := by
  rw [k0_part13_eq_skeleton]; unfold k0_part13_skel
  simp only [Prog.lift, Prog.bind_op, Prog.bind_ret, Prog.pure_eq_ret]
  iintro ⟨#HiS5, #HiR5, #HrS5, #HrR5, #Hlev, HO, HS5, Hn5, HtS5, HtR5, Hc1, HK1, Hw1, HF0, HX⟩ Hk
  icases Hn5 with ⟨%fn5, Hn5⟩
  iapply (wp_send_slot m K c _ 5 (dev14_eq c) (slotBuf (sent m c 5)) fn5 (fun _ _ => rfl) O W) $$ [HS5 Hn5 HO HtS5 HtR5]
  · isplitr; · iexact HiS5
    isplitr; · iexact HiR5
    isplitl [HS5]; · iexact HS5
    isplitl [Hn5]; · iexact Hn5
    isplitl [HO]; · iexact HO
    isplitl [HtS5]; · iexact HtS5
    isplitr; · iexact HrS5
    isplitl [HtR5]; · iexact HtR5
    iexact HrR5
  iintro ⟨HcS5, HO⟩
  iapply (wp_fetch m c 1 4 1) $$ [Hc1 HK1 Hw1]
  · isplitl [Hc1]; · iexact Hc1
    isplitl [HK1]; · iexact HK1
    iexact Hw1
  iintro HF1
  iapply (wp_fetch_wait m c 0 4 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  rw [wp_ret]; imodintro
  iapply Hk
  isplitl [HO]; · iexact HO
  isplitl [HcS5]; · iexact HcS5
  isplitl [HF1]; · iexact HF1
  isplitl [HK0]; · iexact HK0
  isplitl [Hc0]; · iexact Hc0
  isplitl [Hw0]; · iexact Hw0
  iexact HX

/-- Part 14 of the body: the slab loaded from scratch slot 0, the product stored into send slot 6, and the slot's transfer to the device four places on. -/
theorem sub_14 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (W : Waits sig Unit)
    (fs6 : Buf (Elt F) ((sSlot 6).view.loc (c : Thread nD τ)))
    (Kt : (Σ' (v423 : BitVec 32) (c8_i32_353 : BitVec 32) (v424 : BitVec 1), BitVec 32) → sProp 𝕄) :
    iprop(cellInv ER (sched m) (K (c, sIx 6)) (sendCell c 6)
        ∗ cellInv ER (sched m) (K (peer c (shiftOf 6), rIx 6)) (recvCell (peer c (shiftOf 6)) 6)
        ∗ reached ER (sendCell c 6) 0
        ∗ reached ER (recvCell (peer c (shiftOf 6)) 6) 0
        ∗ kPts c 0 (slabBuf (wslab (ws m c) (peer c 4) 0))
        ∗ slotPts sM c 6 fs6
        ∗ owes (c : Thread nD τ) (O + rT c 6) W
        ∗ (∃ f, slotPts (F := F) rM (peer c (shiftOf 6)) 6 f)
        ∗ dutyTok ER (sendCell c 6) 0 0
        ∗ dutyTok ER (recvCell (peer c (shiftOf 6)) 6) 0 0)
      ⊢ iprop((∀ r, (owes (c : Thread nD τ) (O) W
            ∗ kPts c 0 (slabBuf (wslab (ws m c) (peer c 4) 0))
            ∗ cred (tallyAt (sendCell c 6) () N)) -∗ Kt r)
        -∗ wp frame (wpE (defs₀ (F := F)) 𝒱₀ (c : Thread nD τ) none) Set.univ (k0_part14 xM h0 wM h1 oM h2 kM h3 sM h4 rM h5 cc0_scratch3 cc0_scratch4 cc0_scratch5 c v2 (k0_pay9 (xs m c))) Kt) := by
  rw [k0_part14_eq_skeleton]; unfold k0_part14_skel
  simp only [Prog.lift, Prog.bind_op, Prog.bind_ret, Prog.pure_eq_ret]
  iintro ⟨#HiS6, #HiR6, #HrS6, #HrR6, HK0, HS6, HO, Hn6, HtS6, HtR6⟩ Hk
  iapply (wp_load_k c 0 (wslab (ws m c) (peer c 4) 0)) $$ HK0
  iintro HK0
  iapply (wp_load_s_dead c 6 fs6) $$ HS6
  iintro HS6
  iintro %_r6
  iapply (wp_store_s c 6 fs6 (k0_pay10 (k0_pay9 (xs m c)) (wslab (ws m c) (peer c 4) 0))) $$ HS6
  iintro HS6
  icases Hn6 with ⟨%fn6, Hn6⟩
  iapply (wp_send_slot m K c _ 6 (dev15_eq c) (slotBuf (sent m c 6)) fn6 (fun _ _ => rfl) O W) $$ [HS6 Hn6 HO HtS6 HtR6]
  · isplitr; · iexact HiS6
    isplitr; · iexact HiR6
    isplitl [HS6]; · iexact HS6
    isplitl [Hn6]; · iexact Hn6
    isplitl [HO]; · iexact HO
    isplitl [HtS6]; · iexact HtS6
    isplitr; · iexact HrS6
    isplitl [HtR6]; · iexact HtR6
    iexact HrR6
  iintro ⟨HcS6, HO⟩
  rw [wp_ret]; imodintro
  iapply Hk
  isplitl [HO]; · iexact HO
  isplitl [HK0]; · iexact HK0
  iexact HcS6

/-- Part 15 of the body: the next fetch into scratch slot 0 issued, the one into slot 1 awaited, and the product stored into send slot 7. -/
theorem sub_15 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v423 : BitVec 32) (c8 : BitVec 32) (v424 : BitVec 1) (c1 : BitVec 32)
    (O : CellTallies nD τ sig Unit)
    (hO : O ≤ O₀ c)
    (W : Waits sig Unit)
    (fs7 : Buf (Elt F) ((sSlot 7).view.loc (c : Thread nD τ)))
    (Kt : PUnit → sProp 𝕄) :
    iprop(levAts L lv
        ∗ semVal (copyCell c 0) 0
        ∗ (∃ f, kPts (F := F) c 0 f)
        ∗ wHalf m c 0
        ∗ owes (c : Thread nD τ) (O) W
        ∗ Fetching m c 1 4 1
        ∗ (xM.view.loc (c : Thread nD τ) ↦[xM.view.set]{fullShare} xs m c)
        ∗ slotPts sM c 7 fs7)
      ⊢ iprop(((owes (c : Thread nD τ) (O) (insert (.dma (copySem 1), ()) W)
            ∗ Fetching m c 0 5 0
            ∗ kPts c 1 (slabBuf (wslab (ws m c) (peer c 4) 1))
            ∗ semVal (copyCell c 1) 0
            ∗ wHalf m c 1
            ∗ (xM.view.loc (c : Thread nD τ) ↦[xM.view.set]{fullShare} xs m c)
            ∗ slotPts sM c 7 (slotBuf (sent m c 7))) -∗ Kt ⟨⟩)
        -∗ wp frame (wpE (defs₀ (F := F)) 𝒱₀ (c : Thread nD τ) none) Set.univ (k0_part15 xM h0 wM h1 oM h2 kM h3 sM h4 rM h5 cc0_scratch3 cc0_scratch4 cc0_scratch5 c v423 c8 v424 c1) Kt) := by
  rw [k0_part15_eq_skeleton]; unfold k0_part15_skel
  simp only [Prog.lift, Prog.bind_op, Prog.bind_ret, Prog.pure_eq_ret]
  iintro ⟨#Hlev, Hc0, HK0, Hw0, HO, HF1, HX, HS7⟩ Hk
  iapply (wp_fetch m c 0 5 0) $$ [Hc0 HK0 Hw0]
  · isplitl [Hc0]; · iexact Hc0
    isplitl [HK0]; · iexact HK0
    iexact Hw0
  iintro HF0
  iapply (wp_fetch_wait m c 1 4 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 4) 1)) $$ HK1
  iintro HK1
  iapply (wp_load_s_dead c 7 fs7) $$ HS7
  iintro HS7
  iintro %_r7
  iapply (wp_store_s c 7 fs7 (k0_pay11 (xs m c) (wslab (ws m c) (peer c 4) 1))) $$ HS7
  iintro HS7
  rw [wp_ret]; imodintro
  iapply Hk
  isplitl [HO]; · iexact HO
  isplitl [HF0]; · iexact HF0
  isplitl [HK1]; · iexact HK1
  isplitl [Hc1]; · iexact Hc1
  isplitl [Hw1]; · iexact Hw1
  isplitl [HX]; · iexact HX
  iexact HS7

end Cert.KernelIdeal.A2A

end
-- ==== Proof.SubB.lean ====
/-
  The middle of a device's body, part by part: the transfers of slots 7 … 13, the fetches and waits of the weight
  slabs they are computed from, the device's own two blocks, and the wait on slot 0's send cell.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Facts
import proofs.«900797_g7700000000000798_dist_gemm_a2a_m4096_k4096_n8192_f32_relu_v7x_i8_1_alg».proof.Proof.Steps
import proofs.«900797_g7700000000000798_dist_gemm_a2a_m4096_k4096_n8192_f32_relu_v7x_i8_1_alg».proof.Proof.Slab
import proofs.«900797_g7700000000000798_dist_gemm_a2a_m4096_k4096_n8192_f32_relu_v7x_i8_1_alg».proof.Proof.Arrive
import proofs.«900797_g7700000000000798_dist_gemm_a2a_m4096_k4096_n8192_f32_relu_v7x_i8_1_alg».proof.Proof.Local
import proofs.«900797_g7700000000000798_dist_gemm_a2a_m4096_k4096_n8192_f32_relu_v7x_i8_1_alg».proof.Proof.Gen.KernelIdeal.Skeleton

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts -/

/-- Part 16 of the body: the transfer of slot 7. -/
theorem sub_16 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32), BitVec 32) → sProp 𝕄) :
    iprop(cellInv ER (sched m) (K (c, sIx 7)) (sendCell c 7)
        ∗ cellInv ER (sched m) (K (peer c (shiftOf 7), rIx 7)) (recvCell (peer c (shiftOf 7)) 7)
        ∗ slotPts sM c 7 (slotBuf (sent m c 7))
        ∗ (∃ f, slotPts (F := F) rM (peer c (shiftOf 7)) 7 f)
        ∗ owes (c : Thread nD τ) (O + rT c 7) W
        ∗ dutyTok ER (sendCell c 7) 0 0 ∗ reached ER (sendCell c 7) 0
        ∗ dutyTok ER (recvCell (peer c (shiftOf 7)) 7) 0 0 ∗ reached ER (recvCell (peer c (shiftOf 7)) 7) 0)
      ⊢ iprop((∀ r, (cred (tallyAt (sendCell c 7) () N) ∗ owes (c : Thread nD τ) O W) -∗ Kt r)
        -∗ wp frame (wpE (defs₀ (F := F)) 𝒱₀ (c : Thread nD τ) none) Set.univ (k0_part16 xM h0 wM h1 a2 h2 kM h3 sM h4 rM h5 cc0_scratch3 cc0_scratch4 cc0_scratch5 c v2) Kt) := by
  rw [k0_part16_eq_skeleton]; unfold k0_part16_skel
  simp only [Prog.lift, Prog.bind_op, Prog.bind_ret, Prog.pure_eq_ret]
  iintro ⟨#HiS, #HiR, Hs, ⟨%fn, Hn⟩, HO, HdS, #HrS, HdR, #HrR⟩ Hk
  iapply (wp_send_slot m K c _ 7 (dev16_eq c) (slotBuf (sent m c 7)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [HcS]; · iexact HcS
  iexact HO

/-- Part 17 of the body: the fetch of the next slab into scratch slot 1, the wait for the slab in slot 0, the product for
    slot 8 stored into the send buffer. -/
theorem sub_17 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v489 c512 : BitVec 32) (O : CellTallies nD τ sig Unit) (hO : O ≤ O₀ c) (W : Waits sig Unit) (Kt : (Σ' (_ : BitVec 32) (_ : BitVec 32) (_ : BitVec 1), BitVec 1) → sProp 𝕄) :
    iprop(semVal (copyCell c 1) 0 ∗ (∃ f, kPts (F := F) c 1 f) ∗ wHalf m c 1
        ∗ Fetching m c 0 5 0
        ∗ owes (c : Thread nD τ) O W ∗ levAts L lv
        ∗ (xM.view.loc (c : Thread nD τ) ↦[xM.view.set]{fullShare} xs m c)
        ∗ (∃ f, slotPts (F := F) sM c 8 f))
      ⊢ iprop((∀ r, (Fetching m c 1 5 1
            ∗ kPts c 0 (slabBuf (wslab (ws m c) (peer c 5) 0)) ∗ semVal (copyCell c 0) 0 ∗ wHalf m c 0
            ∗ owes (c : Thread nD τ) O (insert (.dma (copySem 0), ()) W)
            ∗ (xM.view.loc (c : Thread nD τ) ↦[xM.view.set]{fullShare} xs m c)
            ∗ slotPts sM c 8 (slotBuf (sent m c 8))) -∗ Kt r)
        -∗ wp frame (wpE (defs₀ (F := F)) 𝒱₀ (c : Thread nD τ) none) Set.univ (k0_part17 xM h0 wM h1 a2 h2 kM h3 sM h4 rM h5 cc0_scratch3 cc0_scratch4 cc0_scratch5 c v2 v489 c512) Kt) := by
  rw [k0_part17_eq_skeleton]; unfold k0_part17_skel
  simp only [Prog.lift, Prog.bind_op, Prog.bind_ret, Prog.pure_eq_ret]
  iintro ⟨Hv1, Hk1, Hw1, HF0, HO, #Hlev, Hx, ⟨%fs, Hs⟩⟩ Hk
  iapply (wp_fetch m c 1 5 1) $$ [Hv1 Hk1 Hw1]
  · isplitl [Hv1]; · iexact Hv1
    isplitl [Hk1]; · iexact Hk1
    iexact Hw1
  iintro HF1
  iapply (wp_fetch_wait m c 0 5 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  iapply (wp_load_k c 0 (wslab (ws m c) (peer c 5) 0)) $$ Hk0
  iintro Hk0
  iapply (wp_load_s_dead c 8 fs) $$ Hs
  iintro Hs %r
  iapply (wp_store_s c 8 fs (sent m c 8)) $$ Hs
  iintro Hs
  rw [wp_ret]; imodintro
  iapply Hk
  isplitl [HF1]; · iexact HF1
  isplitl [Hk0]; · iexact Hk0
  isplitl [Hv0]; · iexact Hv0
  isplitl [Hw0]; · iexact Hw0
  isplitl [HO]; · iexact HO
  isplitl [Hx]; · iexact Hx
  iexact Hs

/-- Part 18 of the body: the transfer of slot 8, the fetch of the next slab into scratch slot 0. -/
theorem sub_18 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v514 v515 : BitVec 32) (v516 v519 : BitVec 1) (O : CellTallies nD τ sig Unit) (W : Waits sig Unit) (Kt : PUnit → sProp 𝕄) :
    iprop(cellInv ER (sched m) (K (c, sIx 8)) (sendCell c 8)
        ∗ cellInv ER (sched m) (K (peer c (shiftOf 8), rIx 8)) (recvCell (peer c (shiftOf 8)) 8)
        ∗ slotPts sM c 8 (slotBuf (sent m c 8))
        ∗ (∃ f, slotPts (F := F) rM (peer c (shiftOf 8)) 8 f)
        ∗ owes (c : Thread nD τ) (O + rT c 8) W
        ∗ dutyTok ER (sendCell c 8) 0 0 ∗ reached ER (sendCell c 8) 0
        ∗ dutyTok ER (recvCell (peer c (shiftOf 8)) 8) 0 0 ∗ reached ER (recvCell (peer c (shiftOf 8)) 8) 0
        ∗ semVal (copyCell c 0) 0 ∗ (∃ f, kPts (F := F) c 0 f) ∗ wHalf m c 0)
      ⊢ iprop(((cred (tallyAt (sendCell c 8) () N) ∗ owes (c : Thread nD τ) O W ∗ Fetching m c 0 6 0) -∗ Kt ⟨⟩)
        -∗ wp frame (wpE (defs₀ (F := F)) 𝒱₀ (c : Thread nD τ) none) Set.univ (k0_part18 xM h0 wM h1 a2 h2 kM h3 sM h4 rM h5 cc0_scratch3 cc0_scratch4 cc0_scratch5 c v2 v514 v515 v516 v519) Kt) := by
  rw [k0_part18_eq_skeleton]; unfold k0_part18_skel
  simp only [Prog.lift, Prog.bind_op, Prog.bind_ret, Prog.pure_eq_ret]
  iintro ⟨#HiS, #HiR, Hs, ⟨%fn, Hn⟩, HO, HdS, #HrS, HdR, #HrR, Hv0, Hk0, Hw0⟩ Hk
  iapply (wp_send_slot m K c _ 8 (dev17_eq c) (slotBuf (sent m c 8)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 0 6 0) $$ [Hv0 Hk0 Hw0]
  · isplitl [Hv0]; · iexact Hv0
    isplitl [Hk0]; · iexact Hk0
    iexact Hw0
  iintro HF0
  rw [wp_ret]; imodintro
  iapply Hk
  isplitl [HcS]; · iexact HcS
  isplitl [HO]; · iexact HO
  iexact HF0

/-- Part 19 of the body: the wait for the slab in scratch slot 1, the product for slot 9 stored into the send buffer. -/
theorem sub_19 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : PUnit → sProp 𝕄) :
    iprop(Fetching m c 1 5 1
        ∗ owes (c : Thread nD τ) O W ∗ levAts L lv
        ∗ (xM.view.loc (c : Thread nD τ) ↦[xM.view.set]{fullShare} xs m c)
        ∗ (∃ f, slotPts (F := F) sM c 9 f))
      ⊢ iprop(((kPts c 1 (slabBuf (wslab (ws m c) (peer c 5) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 9 (slotBuf (sent m c 9))) -∗ Kt ⟨⟩)
        -∗ wp frame (wpE (defs₀ (F := F)) 𝒱₀ (c : Thread nD τ) none) Set.univ (k0_part19 xM h0 wM h1 a2 h2 kM h3 sM h4 rM h5 cc0_scratch3 cc0_scratch4 cc0_scratch5 c v2) Kt) := by
  rw [k0_part19_eq_skeleton]; unfold k0_part19_skel
  simp only [Prog.lift, Prog.bind_op, Prog.bind_ret, Prog.pure_eq_ret]
  iintro ⟨HF1, HO, #Hlev, Hx, ⟨%fs, Hs⟩⟩ Hk
  iapply (wp_fetch_wait m c 1 5 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 5) 1)) $$ Hk1
  iintro Hk1
  iapply (wp_load_s_dead c 9 fs) $$ Hs
  iintro Hs %r
  iapply (wp_store_s c 9 fs (sent m c 9)) $$ Hs
  iintro Hs
  rw [wp_ret]; imodintro
  iapply Hk
  isplitl [Hk1]; · iexact Hk1
  isplitl [Hv1]; · iexact Hv1
  isplitl [Hw1]; · iexact Hw1
  isplitl [HO]; · iexact HO
  isplitl [Hx]; · iexact Hx
  iexact Hs

/-- Part 20 of the body: the transfer of slot 9, the fetch of the next slab into scratch slot 1, the wait for the slab in
    slot 0, the load of the device's rows of x. -/
theorem sub_20 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : FVec F S512x4096 .f32 → sProp 𝕄) :
    iprop(cellInv ER (sched m) (K (c, sIx 9)) (sendCell c 9)
        ∗ cellInv ER (sched m) (K (peer c (shiftOf 9), rIx 9)) (recvCell (peer c (shiftOf 9)) 9)
        ∗ slotPts sM c 9 (slotBuf (sent m c 9))
        ∗ (∃ f, slotPts (F := F) rM (peer c (shiftOf 9)) 9 f)
        ∗ owes (c : Thread nD τ) (O + rT c 9) W
        ∗ dutyTok ER (sendCell c 9) 0 0 ∗ reached ER (sendCell c 9) 0
        ∗ dutyTok ER (recvCell (peer c (shiftOf 9)) 9) 0 0 ∗ reached ER (recvCell (peer c (shiftOf 9)) 9) 0
        ∗ semVal (copyCell c 1) 0 ∗ (∃ f, kPts (F := F) c 1 f) ∗ wHalf m c 1
        ∗ Fetching m c 0 6 0 ∗ levAts L lv
        ∗ (xM.view.loc (c : Thread nD τ) ↦[xM.view.set]{fullShare} xs m c))
      ⊢ iprop(((cred (tallyAt (sendCell c 9) () N) ∗ Fetching m c 1 6 1
            ∗ kPts c 0 (slabBuf (wslab (ws m c) (peer c 6) 0)) ∗ semVal (copyCell c 0) 0 ∗ wHalf m c 0
            ∗ owes (c : Thread nD τ) O (insert (.dma (copySem 0), ()) W)
            ∗ (xM.view.loc (c : Thread nD τ) ↦[xM.view.set]{fullShare} xs m c)) -∗ Kt (k0_pay14 (xs m c)))
        -∗ wp frame (wpE (defs₀ (F := F)) 𝒱₀ (c : Thread nD τ) none) Set.univ (k0_part20 xM h0 wM h1 a2 h2 kM h3 sM h4 rM h5 cc0_scratch3 cc0_scratch4 cc0_scratch5 c v2) Kt) := by
  rw [k0_part20_eq_skeleton]; unfold k0_part20_skel
  simp only [Prog.lift, Prog.bind_op, Prog.bind_ret, Prog.pure_eq_ret]
  iintro ⟨#HiS, #HiR, Hs, ⟨%fn, Hn⟩, HO, HdS, #HrS, HdR, #HrR, Hv1, Hk1, Hw1, HF0, #Hlev, Hx⟩ Hk
  iapply (wp_send_slot m K c _ 9 (dev18_eq c) (slotBuf (sent m c 9)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 1 6 1) $$ [Hv1 Hk1 Hw1]
  · isplitl [Hv1]; · iexact Hv1
    isplitl [Hk1]; · iexact Hk1
    iexact Hw1
  iintro HF1
  iapply (wp_fetch_wait m c 0 6 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  rw [wp_ret]; imodintro
  iapply Hk
  isplitl [HcS]; · iexact HcS
  isplitl [HF1]; · iexact HF1
  isplitl [Hk0]; · iexact Hk0
  isplitl [Hv0]; · iexact Hv0
  isplitl [Hw0]; · iexact Hw0
  isplitl [HO]; · iexact HO
  iexact Hx

/-- Part 21 of the body: the product for slot 10 stored into the send buffer, the transfer of slot 10. -/
theorem sub_21 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32) (_ : BitVec 32) (_ : BitVec 1), BitVec 32) → sProp 𝕄) :
    iprop(kPts c 0 (slabBuf (wslab (ws m c) (peer c 6) 0))
        ∗ (∃ f, slotPts (F := F) sM c 10 f)
        ∗ cellInv ER (sched m) (K (c, sIx 10)) (sendCell c 10)
        ∗ cellInv ER (sched m) (K (peer c (shiftOf 10), rIx 10)) (recvCell (peer c (shiftOf 10)) 10)
        ∗ (∃ f, slotPts (F := F) rM (peer c (shiftOf 10)) 10 f)
        ∗ owes (c : Thread nD τ) (O + rT c 10) W
        ∗ dutyTok ER (sendCell c 10) 0 0 ∗ reached ER (sendCell c 10) 0
        ∗ dutyTok ER (recvCell (peer c (shiftOf 10)) 10) 0 0 ∗ reached ER (recvCell (peer c (shiftOf 10)) 10) 0)
      ⊢ iprop((∀ r, (kPts c 0 (slabBuf (wslab (ws m c) (peer c 6) 0)) ∗ cred (tallyAt (sendCell c 10) () N) ∗ owes (c : Thread nD τ) O W) -∗ Kt r)
        -∗ wp frame (wpE (defs₀ (F := F)) 𝒱₀ (c : Thread nD τ) none) Set.univ (k0_part21 xM h0 wM h1 a2 h2 kM h3 sM h4 rM h5 cc0_scratch3 cc0_scratch4 cc0_scratch5 c v2 (k0_pay14 (xs m c))) Kt) := by
  rw [k0_part21_eq_skeleton]; unfold k0_part21_skel
  simp only [Prog.lift, Prog.bind_op, Prog.bind_ret, Prog.pure_eq_ret]
  iintro ⟨Hk0, ⟨%fs, Hs⟩, #HiS, #HiR, ⟨%fn, Hn⟩, HO, HdS, #HrS, HdR, #HrR⟩ Hk
  iapply (wp_load_k c 0 (wslab (ws m c) (peer c 6) 0)) $$ Hk0
  iintro Hk0
  iapply (wp_load_s_dead c 10 fs) $$ Hs
  iintro Hs %r
  iapply (wp_store_s c 10 fs (sent m c 10)) $$ Hs
  iintro Hs
  iapply (wp_send_slot m K c _ 10 (dev19_eq c) (slotBuf (sent m c 10)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [Hk0]; · iexact Hk0
  isplitl [HcS]; · iexact HcS
  iexact HO

/-- Part 22 of the body: the fetch of the next slab into scratch slot 0, the wait for the slab in slot 1, the product for
    slot 11 stored into the send buffer. -/
theorem sub_22 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v643 c8 : BitVec 32) (v644 : BitVec 1) (c1 : BitVec 32) (O : CellTallies nD τ sig Unit) (hO : O ≤ O₀ c) (W : Waits sig Unit) (Kt : PUnit → sProp 𝕄) :
    iprop(semVal (copyCell c 0) 0 ∗ (∃ f, kPts (F := F) c 0 f) ∗ wHalf m c 0
        ∗ Fetching m c 1 6 1
        ∗ owes (c : Thread nD τ) O W ∗ levAts L lv
        ∗ (xM.view.loc (c : Thread nD τ) ↦[xM.view.set]{fullShare} xs m c)
        ∗ (∃ f, slotPts (F := F) sM c 11 f))
      ⊢ iprop((∀ r, (Fetching m c 0 7 0
            ∗ kPts c 1 (slabBuf (wslab (ws m c) (peer c 6) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 11 (slotBuf (sent m c 11))) -∗ Kt r)
        -∗ wp frame (wpE (defs₀ (F := F)) 𝒱₀ (c : Thread nD τ) none) Set.univ (k0_part22 xM h0 wM h1 a2 h2 kM h3 sM h4 rM h5 cc0_scratch3 cc0_scratch4 cc0_scratch5 c v643 c8 v644 c1) Kt) := by
  rw [k0_part22_eq_skeleton]; unfold k0_part22_skel
  simp only [Prog.lift, Prog.bind_op, Prog.bind_ret, Prog.pure_eq_ret]
  iintro ⟨Hv0, Hk0, Hw0, HF1, HO, #Hlev, Hx, ⟨%fs, Hs⟩⟩ Hk
  iapply (wp_fetch m c 0 7 0) $$ [Hv0 Hk0 Hw0]
  · isplitl [Hv0]; · iexact Hv0
    isplitl [Hk0]; · iexact Hk0
    iexact Hw0
  iintro HF0
  iapply (wp_fetch_wait m c 1 6 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 6) 1)) $$ Hk1
  iintro Hk1
  iapply (wp_load_s_dead c 11 fs) $$ Hs
  iintro Hs %r
  iapply (wp_store_s c 11 fs (sent m c 11)) $$ Hs
  iintro Hs
  rw [wp_ret]; imodintro
  iapply Hk
  isplitl [HF0]; · iexact HF0
  isplitl [Hk1]; · iexact Hk1
  isplitl [Hv1]; · iexact Hv1
  isplitl [Hw1]; · iexact Hw1
  isplitl [HO]; · iexact HO
  isplitl [Hx]; · iexact Hx
  iexact Hs

/-- Part 23 of the body: the transfer of slot 11. -/
theorem sub_23 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32), BitVec 32) → sProp 𝕄) :
    iprop(cellInv ER (sched m) (K (c, sIx 11)) (sendCell c 11)
        ∗ cellInv ER (sched m) (K (peer c (shiftOf 11), rIx 11)) (recvCell (peer c (shiftOf 11)) 11)
        ∗ slotPts sM c 11 (slotBuf (sent m c 11))
        ∗ (∃ f, slotPts (F := F) rM (peer c (shiftOf 11)) 11 f)
        ∗ owes (c : Thread nD τ) (O + rT c 11) W
        ∗ dutyTok ER (sendCell c 11) 0 0 ∗ reached ER (sendCell c 11) 0
        ∗ dutyTok ER (recvCell (peer c (shiftOf 11)) 11) 0 0 ∗ reached ER (recvCell (peer c (shiftOf 11)) 11) 0)
      ⊢ iprop((∀ r, (cred (tallyAt (sendCell c 11) () N) ∗ owes (c : Thread nD τ) O W) -∗ Kt r)
        -∗ wp frame (wpE (defs₀ (F := F)) 𝒱₀ (c : Thread nD τ) none) Set.univ (k0_part23 xM h0 wM h1 a2 h2 kM h3 sM h4 rM h5 cc0_scratch3 cc0_scratch4 cc0_scratch5 c v2) Kt) := by
  rw [k0_part23_eq_skeleton]; unfold k0_part23_skel
  simp only [Prog.lift, Prog.bind_op, Prog.bind_ret, Prog.pure_eq_ret]
  iintro ⟨#HiS, #HiR, Hs, ⟨%fn, Hn⟩, HO, HdS, #HrS, HdR, #HrR⟩ Hk
  iapply (wp_send_slot m K c _ 11 (dev20_eq c) (slotBuf (sent m c 11)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [HcS]; · iexact HcS
  iexact HO

/-- Part 24 of the body: the fetch of the next slab into scratch slot 1, the wait for the slab in slot 0, the product for
    slot 12 stored into the send buffer. -/
theorem sub_24 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v709 c512 : BitVec 32) (O : CellTallies nD τ sig Unit) (hO : O ≤ O₀ c) (W : Waits sig Unit) (Kt : (Σ' (_ : BitVec 32) (_ : BitVec 32) (_ : BitVec 1), BitVec 1) → sProp 𝕄) :
    iprop(semVal (copyCell c 1) 0 ∗ (∃ f, kPts (F := F) c 1 f) ∗ wHalf m c 1
        ∗ Fetching m c 0 7 0
        ∗ owes (c : Thread nD τ) O W ∗ levAts L lv
        ∗ (xM.view.loc (c : Thread nD τ) ↦[xM.view.set]{fullShare} xs m c)
        ∗ (∃ f, slotPts (F := F) sM c 12 f))
      ⊢ iprop((∀ r, (Fetching m c 1 7 1
            ∗ kPts c 0 (slabBuf (wslab (ws m c) (peer c 7) 0)) ∗ semVal (copyCell c 0) 0 ∗ wHalf m c 0
            ∗ owes (c : Thread nD τ) O (insert (.dma (copySem 0), ()) W)
            ∗ (xM.view.loc (c : Thread nD τ) ↦[xM.view.set]{fullShare} xs m c)
            ∗ slotPts sM c 12 (slotBuf (sent m c 12))) -∗ Kt r)
        -∗ wp frame (wpE (defs₀ (F := F)) 𝒱₀ (c : Thread nD τ) none) Set.univ (k0_part24 xM h0 wM h1 a2 h2 kM h3 sM h4 rM h5 cc0_scratch3 cc0_scratch4 cc0_scratch5 c v2 v709 c512) Kt) := by
  rw [k0_part24_eq_skeleton]; unfold k0_part24_skel
  simp only [Prog.lift, Prog.bind_op, Prog.bind_ret, Prog.pure_eq_ret]
  iintro ⟨Hv1, Hk1, Hw1, HF0, HO, #Hlev, Hx, ⟨%fs, Hs⟩⟩ Hk
  iapply (wp_fetch m c 1 7 1) $$ [Hv1 Hk1 Hw1]
  · isplitl [Hv1]; · iexact Hv1
    isplitl [Hk1]; · iexact Hk1
    iexact Hw1
  iintro HF1
  iapply (wp_fetch_wait m c 0 7 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  iapply (wp_load_k c 0 (wslab (ws m c) (peer c 7) 0)) $$ Hk0
  iintro Hk0
  iapply (wp_load_s_dead c 12 fs) $$ Hs
  iintro Hs %r
  iapply (wp_store_s c 12 fs (sent m c 12)) $$ Hs
  iintro Hs
  rw [wp_ret]; imodintro
  iapply Hk
  isplitl [HF1]; · iexact HF1
  isplitl [Hk0]; · iexact Hk0
  isplitl [Hv0]; · iexact Hv0
  isplitl [Hw0]; · iexact Hw0
  isplitl [HO]; · iexact HO
  isplitl [Hx]; · iexact Hx
  iexact Hs

/-- Part 25 of the body: the transfer of slot 12, the fetch of the next slab into scratch slot 0. -/
theorem sub_25 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v734 v735 : BitVec 32) (v736 v739 : BitVec 1) (O : CellTallies nD τ sig Unit) (W : Waits sig Unit) (Kt : PUnit → sProp 𝕄) :
    iprop(cellInv ER (sched m) (K (c, sIx 12)) (sendCell c 12)
        ∗ cellInv ER (sched m) (K (peer c (shiftOf 12), rIx 12)) (recvCell (peer c (shiftOf 12)) 12)
        ∗ slotPts sM c 12 (slotBuf (sent m c 12))
        ∗ (∃ f, slotPts (F := F) rM (peer c (shiftOf 12)) 12 f)
        ∗ owes (c : Thread nD τ) (O + rT c 12) W
        ∗ dutyTok ER (sendCell c 12) 0 0 ∗ reached ER (sendCell c 12) 0
        ∗ dutyTok ER (recvCell (peer c (shiftOf 12)) 12) 0 0 ∗ reached ER (recvCell (peer c (shiftOf 12)) 12) 0
        ∗ semVal (copyCell c 0) 0 ∗ (∃ f, kPts (F := F) c 0 f) ∗ wHalf m c 0)
      ⊢ iprop(((cred (tallyAt (sendCell c 12) () N) ∗ owes (c : Thread nD τ) O W ∗ Fetching m c 0 0 0) -∗ Kt ⟨⟩)
        -∗ wp frame (wpE (defs₀ (F := F)) 𝒱₀ (c : Thread nD τ) none) Set.univ (k0_part25 xM h0 wM h1 a2 h2 kM h3 sM h4 rM h5 cc0_scratch3 cc0_scratch4 cc0_scratch5 c v2 v734 v735 v736 v739) Kt) := by
  rw [k0_part25_eq_skeleton]; unfold k0_part25_skel
  simp only [Prog.lift, Prog.bind_op, Prog.bind_ret, Prog.pure_eq_ret]
  iintro ⟨#HiS, #HiR, Hs, ⟨%fn, Hn⟩, HO, HdS, #HrS, HdR, #HrR, Hv0, Hk0, Hw0⟩ Hk
  iapply (wp_send_slot m K c _ 12 (dev21_eq c) (slotBuf (sent m c 12)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 0 0 0) $$ [Hv0 Hk0 Hw0]
  · isplitl [Hv0]; · iexact Hv0
    isplitl [Hk0]; · iexact Hk0
    iexact Hw0
  iintro HF0
  rw [wp_ret]; imodintro
  iapply Hk
  isplitl [HcS]; · iexact HcS
  isplitl [HO]; · iexact HO
  iexact HF0

/-- Part 26 of the body: the wait for the slab in scratch slot 1, the product for slot 13 stored into the send buffer. -/
theorem sub_26 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : PUnit → sProp 𝕄) :
    iprop(Fetching m c 1 7 1
        ∗ owes (c : Thread nD τ) O W ∗ levAts L lv
        ∗ (xM.view.loc (c : Thread nD τ) ↦[xM.view.set]{fullShare} xs m c)
        ∗ (∃ f, slotPts (F := F) sM c 13 f))
      ⊢ iprop(((kPts c 1 (slabBuf (wslab (ws m c) (peer c 7) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 13 (slotBuf (sent m c 13))) -∗ Kt ⟨⟩)
        -∗ wp frame (wpE (defs₀ (F := F)) 𝒱₀ (c : Thread nD τ) none) Set.univ (k0_part26 xM h0 wM h1 a2 h2 kM h3 sM h4 rM h5 cc0_scratch3 cc0_scratch4 cc0_scratch5 c v2) Kt) := by
  rw [k0_part26_eq_skeleton]; unfold k0_part26_skel
  simp only [Prog.lift, Prog.bind_op, Prog.bind_ret, Prog.pure_eq_ret]
  iintro ⟨HF1, HO, #Hlev, Hx, ⟨%fs, Hs⟩⟩ Hk
  iapply (wp_fetch_wait m c 1 7 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 7) 1)) $$ Hk1
  iintro Hk1
  iapply (wp_load_s_dead c 13 fs) $$ Hs
  iintro Hs %r
  iapply (wp_store_s c 13 fs (sent m c 13)) $$ Hs
  iintro Hs
  rw [wp_ret]; imodintro
  iapply Hk
  isplitl [Hk1]; · iexact Hk1
  isplitl [Hv1]; · iexact Hv1
  isplitl [Hw1]; · iexact Hw1
  isplitl [HO]; · iexact HO
  isplitl [Hx]; · iexact Hx
  iexact Hs

/-- Part 27 of the body: the transfer of slot 13, the fetch of the next slab into scratch slot 1, the wait for the slab in
    slot 0, the load of the device's rows of x. -/
theorem sub_27 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : FVec F S512x4096 .f32 → sProp 𝕄) :
    iprop(cellInv ER (sched m) (K (c, sIx 13)) (sendCell c 13)
        ∗ cellInv ER (sched m) (K (peer c (shiftOf 13), rIx 13)) (recvCell (peer c (shiftOf 13)) 13)
        ∗ slotPts sM c 13 (slotBuf (sent m c 13))
        ∗ (∃ f, slotPts (F := F) rM (peer c (shiftOf 13)) 13 f)
        ∗ owes (c : Thread nD τ) (O + rT c 13) W
        ∗ dutyTok ER (sendCell c 13) 0 0 ∗ reached ER (sendCell c 13) 0
        ∗ dutyTok ER (recvCell (peer c (shiftOf 13)) 13) 0 0 ∗ reached ER (recvCell (peer c (shiftOf 13)) 13) 0
        ∗ semVal (copyCell c 1) 0 ∗ (∃ f, kPts (F := F) c 1 f) ∗ wHalf m c 1
        ∗ Fetching m c 0 0 0 ∗ levAts L lv
        ∗ (xM.view.loc (c : Thread nD τ) ↦[xM.view.set]{fullShare} xs m c))
      ⊢ iprop(((cred (tallyAt (sendCell c 13) () N) ∗ Fetching m c 1 0 1
            ∗ kPts c 0 (slabBuf (wslab (ws m c) (peer c 0) 0)) ∗ semVal (copyCell c 0) 0 ∗ wHalf m c 0
            ∗ owes (c : Thread nD τ) O (insert (.dma (copySem 0), ()) W)
            ∗ (xM.view.loc (c : Thread nD τ) ↦[xM.view.set]{fullShare} xs m c)) -∗ Kt (k0_pay19 (xs m c)))
        -∗ wp frame (wpE (defs₀ (F := F)) 𝒱₀ (c : Thread nD τ) none) Set.univ (k0_part27 xM h0 wM h1 a2 h2 kM h3 sM h4 rM h5 cc0_scratch3 cc0_scratch4 cc0_scratch5 c v2) Kt) := by
  rw [k0_part27_eq_skeleton]; unfold k0_part27_skel
  simp only [Prog.lift, Prog.bind_op, Prog.bind_ret, Prog.pure_eq_ret]
  iintro ⟨#HiS, #HiR, Hs, ⟨%fn, Hn⟩, HO, HdS, #HrS, HdR, #HrR, Hv1, Hk1, Hw1, HF0, #Hlev, Hx⟩ Hk
  iapply (wp_send_slot m K c _ 13 (dev22_eq c) (slotBuf (sent m c 13)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 1 0 1) $$ [Hv1 Hk1 Hw1]
  · isplitl [Hv1]; · iexact Hv1
    isplitl [Hk1]; · iexact Hk1
    iexact Hw1
  iintro HF1
  iapply (wp_fetch_wait m c 0 0 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  rw [wp_ret]; imodintro
  iapply Hk
  isplitl [HcS]; · iexact HcS
  isplitl [HF1]; · iexact HF1
  isplitl [Hk0]; · iexact Hk0
  isplitl [Hv0]; · iexact Hv0
  isplitl [Hw0]; · iexact Hw0
  isplitl [HO]; · iexact HO
  iexact Hx

/-- Part 28 of the body: the device's own two blocks stored into the result buffer, the second after the wait for its slab;
    then the wait on slot 0's send cell. -/
theorem sub_28 (K : Dev nD × Fin 29 → ℕ) (c : Dev nD)
    {h0 : (xM : Memref sig .tc .vmem S512x4096 .f32).IsWhole} {h1 : (wM : Memref sig .tc .hbm S4096x8192 .f32).IsWhole}
    {h2 : (oM : Memref sig .tc .vmem S4096x1024 .f32).IsWhole} {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (W : Waits sig Unit) (fo : Buf (Elt F) (oM.view.loc (c : Thread nD τ))) (Kt : PUnit → sProp 𝕄) :
    iprop(kPts c 0 (slabBuf (wslab (ws m c) (peer c 0) 0))
        ∗ (oM.view.loc (c : Thread nD τ) ↦[oM.view.set]{fullShare} fo)
        ∗ Fetching m c 1 0 1
        ∗ owes (c : Thread nD τ) 0 W ∗ levAts L lv
        ∗ (xM.view.loc (c : Thread nD τ) ↦[xM.view.set]{fullShare} xs m c)
        ∗ cellInv ER (sched m) (K (c, sIx 0)) (sendCell c 0) ∗ cred (tallyAt (sendCell c 0) () N) ∗ atPos ER (sendCell c 0) 0 ∅ 0)
      ⊢ iprop(((kPts c 0 (slabBuf (wslab (ws m c) (peer c 0) 0))
            ∗ kPts c 1 (slabBuf (wslab (ws m c) (peer c 0) 1)) ∗ semVal (copyCell c 1) 0 ∗ wHalf m c 1
            ∗ (xM.view.loc (c : Thread nD τ) ↦[xM.view.set]{fullShare} xs m c)
            ∗ (oM.view.loc (c : Thread nD τ) ↦[oM.view.set]{fullShare} ((oM.access (Rect.unit (s := S4096x1024) (k0_off3 c) S512x512.size (k0_off3_inb c))).write (Elt F)
              ((oM.access (Rect.unit (s := S4096x1024) (k0_off2 c) S512x512.size (k0_off2_inb c))).write (Elt F) fo
                (k0_pay20 (k0_pay19 (xs m c)) (wslab (ws m c) (peer c 0) 0)) Finset.univ)
              (k0_pay21 (xs m c) (wslab (ws m c) (peer c 0) 1)) Finset.univ))
            ∗ owes (c : Thread nD τ) 0 (insert (.dma (sendSem 0), ()) (insert (.dma (copySem 1), ()) W))
            ∗ atPos ER (sendCell c 0) (0 + 1) ∅ 0
            ∗ (∃ f, slotPts (F := F) sM c 0 f)) -∗ Kt ⟨⟩)
        -∗ wp frame (wpE (defs₀ (F := F)) 𝒱₀ (c : Thread nD τ) none) Set.univ (k0_part28 xM h0 wM h1 oM h2 kM h3 sM h4 rM h5 cc0_scratch3 cc0_scratch4 cc0_scratch5 c v2 (k0_pay19 (xs m c))) Kt) := by
  rw [k0_part28_eq_skeleton]; unfold k0_part28_skel
  simp only [Prog.lift, Prog.bind_op, Prog.bind_ret, Prog.pure_eq_ret]
  iintro ⟨Hk0, Ho, HF1, HO, #Hlev, Hx, #HiS, HcS, HaS⟩ Hk
  iapply (wp_load_k c 0 (wslab (ws m c) (peer c 0) 0)) $$ Hk0
  iintro Hk0
  iapply (wp_swap_out c fo) $$ Ho
  iintro Ho
  iapply (wp_fetch_wait m c 1 0 1 0 zero_le W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 0) 1)) $$ Hk1
  iintro Hk1
  iapply (wp_swap_out c _) $$ Ho
  iintro Ho
  iapply (wp_wait_send_slot m K c 0 (insert (.dma (copySem 1), ()) W)) $$ [HcS HO HaS]
  · isplitr; · iexact HiS
    isplitl [HcS]; · iexact HcS
    isplitl [HO]; · iexact HO
    iexact HaS
  iintro ⟨HO, HaS, Hs0⟩
  rw [wp_ret]; imodintro
  iapply Hk
  isplitl [Hk0]; · iexact Hk0
  isplitl [Hk1]; · iexact Hk1
  isplitl [Hv1]; · iexact Hv1
  isplitl [Hw1]; · iexact Hw1
  isplitl [Hx]; · iexact Hx
  isplitl [Ho]; · iexact Ho
  isplitl [HO]; · iexact HO
  isplitl [HaS]; · iexact HaS
  iexact Hs0

/-- The result buffer as part 28 leaves it holds the specification's values on the device's own row block. -/
theorem own_blocks_run (c : Dev nD) (fo : Vec F S4096x1024 .f32) :
    ∀ i : S4096x1024.Idx, (i 0).val / 512 = c.val →
      ((oM.access (Rect.unit (s := S4096x1024) (k0_off3 c) S512x512.size (k0_off3_inb c))).write (Elt F)
              ((oM.access (Rect.unit (s := S4096x1024) (k0_off2 c) S512x512.size (k0_off2_inb c))).write (Elt F) fo
                (k0_pay20 (k0_pay19 (xs m c)) (wslab (ws m c) (peer c 0) 0)) Finset.univ)
              (k0_pay21 (xs m c) (wslab (ws m c) (peer c 0) 1)) Finset.univ) i = outC m c i := by
  rw [peer_zero, pay20_eq]
  exact own_blocks m c fo

end Cert.KernelIdeal.A2A

end
-- ==== Proof.OutRun.lean ====
/-
  The result staging buffer at the end of a device's body, as the run's steps leave it written: over whatever it held,
  the device's own two products at its own row block, then the fourteen received blocks, widened, at the row blocks of
  the devices that sent them, in slot order. It is the specification's array.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Facts

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- The result buffer as the run leaves it — the own blocks in the spelling of the step that stores them (the columns
    of the device zero places on; the first product through the two-stage payload), the fourteen widened blocks in slot
    order, the last in the spelling of the body's closing statements — is the specification's array, whatever the
    buffer held before. -/
theorem out_run (c : Dev nD) (fo : Vec F S4096x1024 .f32) :
    ((oM.access (Rect.unit (s := S4096x1024) (k0_off5 c 7#32) S512x512.size (k0_off5_inb c 6))).write (Elt F)
      ((oM.access (Rect.unit (s := S4096x1024) (k0_off4 c 7#32) S512x512.size (k0_off4_inb c 6))).write (Elt F)
      ((oM.access (Rect.unit (s := S4096x1024) (k0_off5 c 6#32) S512x512.size (k0_off5_inb c 5))).write (Elt F)
      ((oM.access (Rect.unit (s := S4096x1024) (k0_off4 c 6#32) S512x512.size (k0_off4_inb c 5))).write (Elt F)
      ((oM.access (Rect.unit (s := S4096x1024) (k0_off5 c 5#32) S512x512.size (k0_off5_inb c 4))).write (Elt F)
      ((oM.access (Rect.unit (s := S4096x1024) (k0_off4 c 5#32) S512x512.size (k0_off4_inb c 4))).write (Elt F)
      ((oM.access (Rect.unit (s := S4096x1024) (k0_off5 c 4#32) S512x512.size (k0_off5_inb c 3))).write (Elt F)
      ((oM.access (Rect.unit (s := S4096x1024) (k0_off4 c 4#32) S512x512.size (k0_off4_inb c 3))).write (Elt F)
      ((oM.access (Rect.unit (s := S4096x1024) (k0_off5 c 3#32) S512x512.size (k0_off5_inb c 2))).write (Elt F)
      ((oM.access (Rect.unit (s := S4096x1024) (k0_off4 c 3#32) S512x512.size (k0_off4_inb c 2))).write (Elt F)
      ((oM.access (Rect.unit (s := S4096x1024) (k0_off5 c 2#32) S512x512.size (k0_off5_inb c 1))).write (Elt F)
      ((oM.access (Rect.unit (s := S4096x1024) (k0_off4 c 2#32) S512x512.size (k0_off4_inb c 1))).write (Elt F)
      ((oM.access (Rect.unit (s := S4096x1024) (k0_off5 c 1#32) S512x512.size (k0_off5_inb c 0))).write (Elt F)
      ((oM.access (Rect.unit (s := S4096x1024) (k0_off4 c 1#32) S512x512.size (k0_off4_inb c 0))).write (Elt F)
      ((oM.access (Rect.unit (s := S4096x1024) (k0_off3 c) S512x512.size (k0_off3_inb c))).write (Elt F)
        ((oM.access (Rect.unit (s := S4096x1024) (k0_off2 c) S512x512.size (k0_off2_inb c))).write (Elt F) fo
          (k0_pay20 (k0_pay19 (xs m c)) (wslab (ws m c) (peer c 0) 0)) Finset.univ)
        (k0_pay21 (xs m c) (wslab (ws m c) (peer c 0) 1)) Finset.univ)
      (k0_pay1 (sent m (back c (shiftOf 0)) 0)) Finset.univ)
      (k0_pay1 (sent m (back c (shiftOf 1)) 1)) Finset.univ)
      (k0_pay1 (sent m (back c (shiftOf 2)) 2)) Finset.univ)
      (k0_pay1 (sent m (back c (shiftOf 3)) 3)) Finset.univ)
      (k0_pay1 (sent m (back c (shiftOf 4)) 4)) Finset.univ)
      (k0_pay1 (sent m (back c (shiftOf 5)) 5)) Finset.univ)
      (k0_pay1 (sent m (back c (shiftOf 6)) 6)) Finset.univ)
      (k0_pay1 (sent m (back c (shiftOf 7)) 7)) Finset.univ)
      (k0_pay1 (sent m (back c (shiftOf 8)) 8)) Finset.univ)
      (k0_pay1 (sent m (back c (shiftOf 9)) 9)) Finset.univ)
      (k0_pay1 (sent m (back c (shiftOf 10)) 10)) Finset.univ)
      (k0_pay1 (sent m (back c (shiftOf 11)) 11)) Finset.univ)
      (k0_pay1 (sent m (back c (shiftOf 12)) 12)) Finset.univ)
      (extf .f32 (shapeCast S512x512 (sent m (back c (shiftOf 13)) 13) shapeCasts_S1x512x512_S512x512) bitsLt_bf16_f32) Finset.univ)
      = outC m c := by
  refine out_final m c _ ?_
  rw [peer_zero, pay20_eq]
  exact own_blocks m c fo

end Cert.KernelIdeal.A2A

end
-- ==== Proof.Body.lean ====
/-
  One device's kernel body, stepped once at a symbolic device.
-/
import proofs.«900797_g7700000000000798_dist_gemm_a2a_m4096_k4096_n8192_f32_relu_v7x_i8_1_alg».proof.Proof.Proto
import proofs.«900797_g7700000000000798_dist_gemm_a2a_m4096_k4096_n8192_f32_relu_v7x_i8_1_alg».proof.Proof.Levels
import proofs.«900797_g7700000000000798_dist_gemm_a2a_m4096_k4096_n8192_f32_relu_v7x_i8_1_alg».proof.Proof.Gift
import proofs.«900797_g7700000000000798_dist_gemm_a2a_m4096_k4096_n8192_f32_relu_v7x_i8_1_alg».proof.Proof.Gen.KernelIdeal.Skeleton
import proofs.«900797_g7700000000000798_dist_gemm_a2a_m4096_k4096_n8192_f32_relu_v7x_i8_1_alg».proof.Proof.Facts
import proofs.«900797_g7700000000000798_dist_gemm_a2a_m4096_k4096_n8192_f32_relu_v7x_i8_1_alg».proof.Proof.Steps
import proofs.«900797_g7700000000000798_dist_gemm_a2a_m4096_k4096_n8192_f32_relu_v7x_i8_1_alg».proof.Proof.Slab
import proofs.«900797_g7700000000000798_dist_gemm_a2a_m4096_k4096_n8192_f32_relu_v7x_i8_1_alg».proof.Proof.Arrive
import proofs.«900797_g7700000000000798_dist_gemm_a2a_m4096_k4096_n8192_f32_relu_v7x_i8_1_alg».proof.Proof.Finish
import proofs.«900797_g7700000000000798_dist_gemm_a2a_m4096_k4096_n8192_f32_relu_v7x_i8_1_alg».proof.Proof.Local
import proofs.«900797_g7700000000000798_dist_gemm_a2a_m4096_k4096_n8192_f32_relu_v7x_i8_1_alg».proof.Proof.SubA
import proofs.«900797_g7700000000000798_dist_gemm_a2a_m4096_k4096_n8192_f32_relu_v7x_i8_1_alg».proof.Proof.SubB
import proofs.«900797_g7700000000000798_dist_gemm_a2a_m4096_k4096_n8192_f32_relu_v7x_i8_1_alg».proof.Proof.OutRun

noncomputable section

namespace Cert.KernelIdeal.A2A

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost names fixed. -/
def bodyPre (K : Dev nD × Fin 29 → ℕ) (c : Dev nD) : sProp 𝕄 :=
  iprop(((cellInv ER (sched m) (K (c, bIx)) (barCell c) ∗ ghost m K c) ∗ cred (tallyAt (barCell c) () 8) ∗ (bigSep Finset.univ fun v : Fin 14 => cred (tallyAt (recvCell c v) () N))
      ∗ levAts L lv ∗ semVal (copyCell c 0) 0 ∗ semVal (copyCell c 1) 0
      ∗ (((c : Thread nD τ).loc main_arg1) ↦{fullShare} ws m c))
    ∗ scratch (F := F) c
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (outC m c))

omit [FloatOps F] in
/-- A family over the eight devices, one by one. -/
theorem bigSep_D8 (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL (I := Dev nD) [0, 1, 2, 3, 4, 5, 6, 7] (by decide) (by decide) Φ
omit [FloatOps F] in
/-- A family over the fourteen slots, one by one. -/
theorem bigSep_V14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL (I := Fin 14) [0, 1, 2, 3, 4, 5, 6, 7, 8, 9, 10, 11, 12, 13] (by decide) (by decide) Φ

/-- A device holds, among the eight barrier cells' invariants, its own. -/
theorem ghost_own (K : Dev nD × Fin 29 → ℕ) (c : Dev nD) :
    ghost m K c ⊢ iprop(cellInv ER (sched m) (K (c, bIx)) (barCell c) ∗ ghost m K c) := by
  unfold ghost
  rw [bigSep_univ_at (fun k : Dev nD => iprop(cellInv ER (sched m) (K (k, bIx)) (barCell k) ∗ reached ER (barCell k) 0
          ∗ dutyTok ER (barCell k) 0 (dutyTo c k))) c]
  iintro ⟨⟨⟨#HI, Hr, Ht⟩, Hrest⟩, H2, H3⟩
  isplitr
  · iexact HI
  isplitl [Hr Ht Hrest]
  · isplitl [Hr Ht]
    · isplitr
      · iexact HI
      isplitl [Hr]
      · iexact Hr
      iexact Ht
    iexact Hrest
  isplitl [H2]
  · iexact H2
  iexact H3

set_option maxHeartbeats 4000000 in
/-- The body, part by part: each part's theorem applied in program order from the device's invariant. -/
theorem sound_body (K : Dev nD × Fin 29 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) wM (Memref.isWhole_whole _) oM (Memref.isWhole_whole _)
            kM (Memref.isWhole_whole _) sM (Memref.isWhole_whole _) rM (Memref.isWhole_whole _) cc0_scratch3 cc0_scratch4 cc0_scratch5) Kt := by
  unfold bodyPre scratch ghost
  rw [bigSep_D8, bigSep_V14, bigSep_V14]
  iintro ⟨⟨⟨⟨#HIbc, ⟨⟨#HIb0, #Hrb0, Htb0⟩, ⟨#HIb1, #Hrb1, Htb1⟩, ⟨#HIb2, #Hrb2, Htb2⟩, ⟨#HIb3, #Hrb3, Htb3⟩, ⟨#HIb4, #Hrb4, Htb4⟩, ⟨#HIb5, #Hrb5, Htb5⟩, ⟨#HIb6, #Hrb6, Htb6⟩, ⟨#HIb7, #Hrb7, Htb7⟩⟩, ⟨⟨#HIs0, #HIr0, #HIp0, Has0, Har0, #Hrs0, #Hrr0, #Hrp0, Hts0, Htp0⟩, ⟨#HIs1, #HIr1, #HIp1, Has1, Har1, #Hrs1, #Hrr1, #Hrp1, Hts1, Htp1⟩, ⟨#HIs2, #HIr2, #HIp2, Has2, Har2, #Hrs2, #Hrr2, #Hrp2, Hts2, Htp2⟩, ⟨#HIs3, #HIr3, #HIp3, Has3, Har3, #Hrs3, #Hrr3, #Hrp3, Hts3, Htp3⟩, ⟨#HIs4, #HIr4, #HIp4, Has4, Har4, #Hrs4, #Hrr4, #Hrp4, Hts4, Htp4⟩, ⟨#HIs5, #HIr5, #HIp5, Has5, Har5, #Hrs5, #Hrr5, #Hrp5, Hts5, Htp5⟩, ⟨#HIs6, #HIr6, #HIp6, Has6, Har6, #Hrs6, #Hrr6, #Hrp6, Hts6, Htp6⟩, ⟨#HIs7, #HIr7, #HIp7, Has7, Har7, #Hrs7, #Hrr7, #Hrp7, Hts7, Htp7⟩, ⟨#HIs8, #HIr8, #HIp8, Has8, Har8, #Hrs8, #Hrr8, #Hrp8, Hts8, Htp8⟩, ⟨#HIs9, #HIr9, #HIp9, Has9, Har9, #Hrs9, #Hrr9, #Hrp9, Hts9, Htp9⟩, ⟨#HIs10, #HIr10, #HIp10, Has10, Har10, #Hrs10, #Hrr10, #Hrp10, Hts10, Htp10⟩, ⟨#HIs11, #HIr11, #HIp11, Has11, Har11, #Hrs11, #Hrr11, #Hrp11, Hts11, Htp11⟩, ⟨#HIs12, #HIr12, #HIp12, Has12, Har12, #Hrs12, #Hrr12, #Hrp12, Hts12, Htp12⟩, ⟨#HIs13, #HIr13, #HIp13, Has13, Har13, #Hrs13, #Hrr13, #Hrp13, Hts13, Htp13⟩⟩, HatB⟩, HcB, ⟨Hcr0, Hcr1, Hcr2, Hcr3, Hcr4, Hcr5, Hcr6, Hcr7, Hcr8, Hcr9, Hcr10, Hcr11, Hcr12, Hcr13⟩, #Hlev, Hz0, Hz1, Hw⟩, ⟨⟨%fk, Hk⟩, ⟨%fs, Hs⟩, ⟨%fr, Hr⟩⟩,
    Ho, ⟨%d0, %g0, %hg0, Hx⟩, ⟨%d1, %g1, %hg1, Hout⟩⟩, Hkt⟩
  -- the staged x block is the device's rows
  have hx : g0 = xs m c := hg0.trans (x_before m c d0)
  subst hx
  -- what the device owes, as the explicit sum
  unfold Dat.owesAt Pipeline.owesWithin
  icases Ho with ⟨%W, %hW, HO⟩
  rw [show (dats m 0 c).owed t0_0.castSucc = O₀ c from rfl]
  -- the receive buffer as the eight barrier gifts
  ihave Hr14 := (slots_split rM (Memref.isWhole_whole _) c fr).1 $$ [Hr]
  · simp only [Memref.view_whole, View.set_whole]; iexact Hr
  have hex : ∀ v : Fin 14, (slotPts (F := F) rM c v fr : sProp 𝕄) ⊢ iprop(∃ f, slotPts (F := F) rM c v f) := fun v => by
    iintro H; iexists fr; iexact H
  have hm : (bigSep Finset.univ (fun v : Fin 14 => slotPts (F := F) rM c v fr) : sProp 𝕄) ⊢ bigSep Finset.univ fun v : Fin 14 => iprop(∃ f, slotPts (F := F) rM c v f) :=
    bigSep_mono (fun v _ => hex v)
  ihave Hr14' := hm $$ Hr14
  ihave Hgifts := (own_gifts c) $$ Hr14'
  ihave Hgifts' := (Entails.of_eq (bigSep_D8 (fun k : Dev nD => barPay (F := F) k (dutyTo c k)))) $$ Hgifts
  icases Hgifts' with ⟨Hg0, Hg1, Hg2, Hg3, Hg4, Hg5, Hg6, Hg7⟩
  -- the send buffer as its fourteen slots
  ihave Hs14 := (slots_split sM (Memref.isWhole_whole _) c fs).1 $$ [Hs]
  · simp only [Memref.view_whole, View.set_whole]; iexact Hs
  ihave Hs14' := (Entails.of_eq (bigSep_V14 (fun v : Fin 14 => slotPts (F := F) sM c v fs))) $$ Hs14
  icases Hs14' with ⟨Hs0, Hs1, Hs2, Hs3, Hs4, Hs5, Hs6, Hs7, Hs8, Hs9, Hs10, Hs11, Hs12, Hs13⟩
  -- the weight scratch as its two slots, the weights as two half shares
  ihave Hk2 := (k_split c fk).1 $$ [Hk]
  · simp only [Memref.view_whole, View.set_whole]; iexact Hk
  icases Hk2 with ⟨Hk0, Hk1⟩
  ihave Hw2 := (w_halve m c).1 $$ Hw
  icases Hw2 with ⟨Hw0, Hw1⟩
  -- the staging buffers through their memrefs
  ihave Hx := (Entails.of_eq (show ((((c : Thread nD τ).loc cc0_stg0_0) ↦{fullShare} xs m c : sProp 𝕄)) = (xM.view.loc (c : Thread nD τ) ↦[xM.view.set]{fullShare} xs m c) by simp only [Memref.view_whole, View.set_whole])) $$ Hx
  ihave Hout := (Entails.of_eq (oM_whole c g1).symm) $$ Hout
  -- the program as its parts in sequence
  rw [cc0_body_eq_skeleton]; unfold cc0_body_skel
  rw [k0_part43_eq_skeleton]; unfold k0_part43_skel
  rw [wp_bind]
  -- what is still owed after the first j transfers lies below the launch debt
  have hle0 : ((0 + rT c 13 + rT c 12 + rT c 11 + rT c 10 + rT c 9 + rT c 8 + rT c 7 + rT c 6 + rT c 5 + rT c 4 + rT c 3 + rT c 2 + rT c 1 + rT c 0) : CellTallies nD τ sig Unit) ≤ O₀ c := by
    show OR c ≤ O₀ c
    unfold O₀; exact le_add_right (le_add_right (le_add_right (le_add_right (le_add_right (le_add_right (le_add_right (le_add_right le_rfl)))))))
  have hle1 : ((0 + rT c 13 + rT c 12 + rT c 11 + rT c 10 + rT c 9 + rT c 8 + rT c 7 + rT c 6 + rT c 5 + rT c 4 + rT c 3 + rT c 2 + rT c 1) : CellTallies nD τ sig Unit) ≤ O₀ c := le_trans le_self_add hle0
  have hle2 : ((0 + rT c 13 + rT c 12 + rT c 11 + rT c 10 + rT c 9 + rT c 8 + rT c 7 + rT c 6 + rT c 5 + rT c 4 + rT c 3 + rT c 2) : CellTallies nD τ sig Unit) ≤ O₀ c := le_trans le_self_add hle1
  have hle3 : ((0 + rT c 13 + rT c 12 + rT c 11 + rT c 10 + rT c 9 + rT c 8 + rT c 7 + rT c 6 + rT c 5 + rT c 4 + rT c 3) : CellTallies nD τ sig Unit) ≤ O₀ c := le_trans le_self_add hle2
  have hle4 : ((0 + rT c 13 + rT c 12 + rT c 11 + rT c 10 + rT c 9 + rT c 8 + rT c 7 + rT c 6 + rT c 5 + rT c 4) : CellTallies nD τ sig Unit) ≤ O₀ c := le_trans le_self_add hle3
  have hle5 : ((0 + rT c 13 + rT c 12 + rT c 11 + rT c 10 + rT c 9 + rT c 8 + rT c 7 + rT c 6 + rT c 5) : CellTallies nD τ sig Unit) ≤ O₀ c := le_trans le_self_add hle4
  have hle6 : ((0 + rT c 13 + rT c 12 + rT c 11 + rT c 10 + rT c 9 + rT c 8 + rT c 7 + rT c 6) : CellTallies nD τ sig Unit) ≤ O₀ c := le_trans le_self_add hle5
  have hle7 : ((0 + rT c 13 + rT c 12 + rT c 11 + rT c 10 + rT c 9 + rT c 8 + rT c 7) : CellTallies nD τ sig Unit) ≤ O₀ c := le_trans le_self_add hle6
  have hle8 : ((0 + rT c 13 + rT c 12 + rT c 11 + rT c 10 + rT c 9 + rT c 8) : CellTallies nD τ sig Unit) ≤ O₀ c := le_trans le_self_add hle7
  have hle9 : ((0 + rT c 13 + rT c 12 + rT c 11 + rT c 10 + rT c 9) : CellTallies nD τ sig Unit) ≤ O₀ c := le_trans le_self_add hle8
  have hle10 : ((0 + rT c 13 + rT c 12 + rT c 11 + rT c 10) : CellTallies nD τ sig Unit) ≤ O₀ c := le_trans le_self_add hle9
  have hle11 : ((0 + rT c 13 + rT c 12 + rT c 11) : CellTallies nD τ sig Unit) ≤ O₀ c := le_trans le_self_add hle10
  have hle12 : ((0 + rT c 13 + rT c 12) : CellTallies nD τ sig Unit) ≤ O₀ c := le_trans le_self_add hle11
  have hle13 : ((0 + rT c 13) : CellTallies nD τ sig Unit) ≤ O₀ c := le_trans le_self_add hle12
  have hle14 : ((0) : CellTallies nD τ sig Unit) ≤ O₀ c := le_trans le_self_add hle13
  -- part 1
  rw [wp_bind]
  iapply (sub_1 m K c _ _ _ _ _ _ _ _ _ _ _ _ _ _ _ _ _) $$ [HO Htb0 Hg0 Htb1 Hg1 Htb2 Hg2 Htb3 Hg3 Htb4 Hg4 Htb5 Hg5 Htb6 Hg6]
  · isplitr; · iexact HIb0
    isplitr; · iexact Hrb0
    isplitr; · iexact HIb1
    isplitr; · iexact Hrb1
    isplitr; · iexact HIb2
    isplitr; · iexact Hrb2
    isplitr; · iexact HIb3
    isplitr; · iexact Hrb3
    isplitr; · iexact HIb4
    isplitr; · iexact Hrb4
    isplitr; · iexact HIb5
    isplitr; · iexact Hrb5
    isplitr; · iexact HIb6
    isplitr; · iexact Hrb6
    isplitl [HO]; · iexact HO
    isplitl [Htb0]; · iexact Htb0
    isplitl [Hg0]; · iexact Hg0
    isplitl [Htb1]; · iexact Htb1
    isplitl [Hg1]; · iexact Hg1
    isplitl [Htb2]; · iexact Htb2
    isplitl [Hg2]; · iexact Hg2
    isplitl [Htb3]; · iexact Htb3
    isplitl [Hg3]; · iexact Hg3
    isplitl [Htb4]; · iexact Htb4
    isplitl [Hg4]; · iexact Hg4
    isplitl [Htb5]; · iexact Htb5
    isplitl [Hg5]; · iexact Hg5
    isplitl [Htb6]; · iexact Htb6
    iexact Hg6
  iintro %v2_1 %v18_1 HO
  -- part 2
  try dsimp only
  rw [wp_bind]
  iapply (sub_2 m K c _ _ _ _) $$ [HO Htb7 Hg7 HcB HatB Hz0 Hk0 Hw0]
  · isplitr; · iexact HIb7
    isplitr; · iexact Hrb7
    isplitr; · iexact HIbc
    isplitr; · iexact Hlev
    isplitl [HO]; · iexact HO
    isplitl [Htb7]; · iexact Htb7
    isplitl [Hg7]; · iexact Hg7
    isplitl [HcB]; · iexact HcB
    isplitl [HatB]; · iexact HatB
    isplitl [Hz0]; · iexact Hz0
    isplitl [Hk0]; · (iexists _; iexact Hk0)
    iexact Hw0
  iintro %r_2 ⟨HO, HatB, HrB1, Hqs, Hf0⟩
  obtain ⟨r_2_0, r_2_1⟩ := r_2
  -- the barrier's payloads: the fourteen peer slots, one by one
  ihave Hqs' := (Entails.of_eq (bigSep_V14 (fun v : Fin 14 => iprop(∃ f, slotPts (F := F) rM (peer c (shiftOf v)) v f)))) $$ Hqs
  icases Hqs' with ⟨⟨%fq0, Hq0⟩, ⟨%fq1, Hq1⟩, ⟨%fq2, Hq2⟩, ⟨%fq3, Hq3⟩, ⟨%fq4, Hq4⟩, ⟨%fq5, Hq5⟩, ⟨%fq6, Hq6⟩, ⟨%fq7, Hq7⟩, ⟨%fq8, Hq8⟩, ⟨%fq9, Hq9⟩, ⟨%fq10, Hq10⟩, ⟨%fq11, Hq11⟩, ⟨%fq12, Hq12⟩, ⟨%fq13, Hq13⟩⟩
  -- part 3
  try dsimp only
  rw [wp_bind]
  iapply (sub_3 m K c _ _ _ (0 + rT c 13 + rT c 12 + rT c 11 + rT c 10 + rT c 9 + rT c 8 + rT c 7 + rT c 6 + rT c 5 + rT c 4 + rT c 3 + rT c 2 + rT c 1 + rT c 0) hle0 _ _ _) $$ [Hz1 Hk1 Hw1 HO Hf0 Hx Hs0]
  · isplitr; · iexact Hlev
    isplitl [Hz1]; · iexact Hz1
    isplitl [Hk1]; · (iexists _; iexact Hk1)
    isplitl [Hw1]; · iexact Hw1
    isplitl [HO]; · iexact HO
    isplitl [Hf0]; · iexact Hf0
    isplitl [Hx]; · iexact Hx
    iexact Hs0
  iintro %r_3 ⟨HO, Hf1, Hk0, Hz0, Hw0, Hx, Hs0⟩
  obtain ⟨r_3_0, r_3_1, r_3_2, r_3_3⟩ := r_3
  -- part 4
  try dsimp only
  rw [wp_bind]
  iapply (sub_4 m K c _ _ _ _ _ (0 + rT c 13 + rT c 12 + rT c 11 + rT c 10 + rT c 9 + rT c 8 + rT c 7 + rT c 6 + rT c 5 + rT c 4 + rT c 3 + rT c 2 + rT c 1) _ _) $$ [HO Hs0 Hq0 Hts0 Htp0 Hz0 Hk0 Hw0]
  · isplitr; · iexact HIs0
    isplitr; · iexact HIp0
    isplitr; · iexact Hrs0
    isplitr; · iexact Hrp0
    isplitl [HO]; · iexact HO
    isplitl [Hs0]; · iexact Hs0
    isplitl [Hq0]; · (iexists _; iexact Hq0)
    isplitl [Hts0]; · iexact Hts0
    isplitl [Htp0]; · iexact Htp0
    isplitl [Hz0]; · iexact Hz0
    isplitl [Hk0]; · (iexists _; iexact Hk0)
    iexact Hw0
  iintro ⟨HO, Hcs0, Hf0⟩
  -- part 5
  try dsimp only
  rw [wp_bind]
  iapply (sub_5 m K c _ (0 + rT c 13 + rT c 12 + rT c 11 + rT c 10 + rT c 9 + rT c 8 + rT c 7 + rT c 6 + rT c 5 + rT c 4 + rT c 3 + rT c 2 + rT c 1) hle1 _ _ _) $$ [HO Hf1 Hx Hs1]
  · isplitr; · iexact Hlev
    isplitl [HO]; · iexact HO
    isplitl [Hf1]; · iexact Hf1
    isplitl [Hx]; · iexact Hx
    iexact Hs1
  iintro ⟨HO, Hk1, Hz1, Hw1, Hx, Hs1⟩
  -- part 6
  try dsimp only
  rw [wp_bind]
  iapply (sub_6 m K c _ (0 + rT c 13 + rT c 12 + rT c 11 + rT c 10 + rT c 9 + rT c 8 + rT c 7 + rT c 6 + rT c 5 + rT c 4 + rT c 3 + rT c 2) hle2 _ _) $$ [HO Hs1 Hq1 Hts1 Htp1 Hz1 Hk1 Hw1 Hf0 Hx]
  · isplitr; · iexact HIs1
    isplitr; · iexact HIp1
    isplitr; · iexact Hrs1
    isplitr; · iexact Hrp1
    isplitr; · iexact Hlev
    isplitl [HO]; · iexact HO
    isplitl [Hs1]; · iexact Hs1
    isplitl [Hq1]; · (iexists _; iexact Hq1)
    isplitl [Hts1]; · iexact Hts1
    isplitl [Htp1]; · iexact Htp1
    isplitl [Hz1]; · iexact Hz1
    isplitl [Hk1]; · (iexists _; iexact Hk1)
    isplitl [Hw1]; · iexact Hw1
    isplitl [Hf0]; · iexact Hf0
    iexact Hx
  iintro ⟨HO, Hcs1, Hf1, Hk0, Hz0, Hw0, Hx⟩
  -- part 7
  try dsimp only
  rw [wp_bind]
  iapply (sub_7 m K c _ (0 + rT c 13 + rT c 12 + rT c 11 + rT c 10 + rT c 9 + rT c 8 + rT c 7 + rT c 6 + rT c 5 + rT c 4 + rT c 3) _ _ _) $$ [Hk0 Hs2 HO Hq2 Hts2 Htp2]
  · isplitr; · iexact HIs2
    isplitr; · iexact HIp2
    isplitr; · iexact Hrs2
    isplitr; · iexact Hrp2
    isplitl [Hk0]; · iexact Hk0
    isplitl [Hs2]; · iexact Hs2
    isplitl [HO]; · iexact HO
    isplitl [Hq2]; · (iexists _; iexact Hq2)
    isplitl [Hts2]; · iexact Hts2
    iexact Htp2
  iintro %r_7 ⟨HO, Hk0, Hcs2⟩
  obtain ⟨r_7_0, r_7_1, r_7_2, r_7_3⟩ := r_7
  -- part 8
  try dsimp only
  rw [wp_bind]
  iapply (sub_8 m K c _ _ _ _ (0 + rT c 13 + rT c 12 + rT c 11 + rT c 10 + rT c 9 + rT c 8 + rT c 7 + rT c 6 + rT c 5 + rT c 4 + rT c 3) hle3 _ _ _) $$ [Hz0 Hk0 Hw0 HO Hf1 Hx Hs3]
  · isplitr; · iexact Hlev
    isplitl [Hz0]; · iexact Hz0
    isplitl [Hk0]; · (iexists _; iexact Hk0)
    isplitl [Hw0]; · iexact Hw0
    isplitl [HO]; · iexact HO
    isplitl [Hf1]; · iexact Hf1
    isplitl [Hx]; · iexact Hx
    iexact Hs3
  iintro ⟨HO, Hf0, Hk1, Hz1, Hw1, Hx, Hs3⟩
  -- part 9
  try dsimp only
  rw [wp_bind]
  iapply (sub_9 m K c _ _ _ _ _ _ _ _ _ _ (0 + rT c 13 + rT c 12 + rT c 11 + rT c 10 + rT c 9 + rT c 8 + rT c 7 + rT c 6 + rT c 5 + rT c 4) _ _) $$ [Hs3 Hq3 HO Hts3 Htp3]
  · isplitr; · iexact HIs3
    isplitr; · iexact HIp3
    isplitr; · iexact Hrs3
    isplitr; · iexact Hrp3
    isplitl [Hs3]; · iexact Hs3
    isplitl [Hq3]; · (iexists _; iexact Hq3)
    isplitl [HO]; · iexact HO
    isplitl [Hts3]; · iexact Hts3
    iexact Htp3
  iintro %r_9 ⟨Hcs3, HO⟩
  obtain ⟨r_9_0, r_9_1⟩ := r_9
  -- part 10
  try dsimp only
  rw [wp_bind]
  iapply (sub_10 m K c _ _ _ (0 + rT c 13 + rT c 12 + rT c 11 + rT c 10 + rT c 9 + rT c 8 + rT c 7 + rT c 6 + rT c 5 + rT c 4) hle4 _ _ _) $$ [Hz1 Hk1 Hw1 HO Hf0 Hx Hs4]
  · isplitr; · iexact Hlev
    isplitl [Hz1]; · iexact Hz1
    isplitl [Hk1]; · (iexists _; iexact Hk1)
    isplitl [Hw1]; · iexact Hw1
    isplitl [HO]; · iexact HO
    isplitl [Hf0]; · iexact Hf0
    isplitl [Hx]; · iexact Hx
    iexact Hs4
  iintro %r_10 ⟨HO, Hf1, Hk0, Hz0, Hw0, Hx, Hs4⟩
  obtain ⟨r_10_0, r_10_1, r_10_2, r_10_3⟩ := r_10
  -- part 11
  try dsimp only
  rw [wp_bind]
  iapply (sub_11 m K c _ _ _ _ _ (0 + rT c 13 + rT c 12 + rT c 11 + rT c 10 + rT c 9 + rT c 8 + rT c 7 + rT c 6 + rT c 5) _ _) $$ [HO Hs4 Hq4 Hts4 Htp4 Hz0 Hk0 Hw0]
  · isplitr; · iexact HIs4
    isplitr; · iexact HIp4
    isplitr; · iexact Hrs4
    isplitr; · iexact Hrp4
    isplitl [HO]; · iexact HO
    isplitl [Hs4]; · iexact Hs4
    isplitl [Hq4]; · (iexists _; iexact Hq4)
    isplitl [Hts4]; · iexact Hts4
    isplitl [Htp4]; · iexact Htp4
    isplitl [Hz0]; · iexact Hz0
    isplitl [Hk0]; · (iexists _; iexact Hk0)
    iexact Hw0
  iintro ⟨HO, Hcs4, Hf0⟩
  -- part 12
  try dsimp only
  rw [wp_bind]
  iapply (sub_12 m K c _ (0 + rT c 13 + rT c 12 + rT c 11 + rT c 10 + rT c 9 + rT c 8 + rT c 7 + rT c 6 + rT c 5) hle5 _ _ _) $$ [HO Hf1 Hx Hs5]
  · isplitr; · iexact Hlev
    isplitl [HO]; · iexact HO
    isplitl [Hf1]; · iexact Hf1
    isplitl [Hx]; · iexact Hx
    iexact Hs5
  iintro ⟨HO, Hk1, Hz1, Hw1, Hx, Hs5⟩
  -- part 13
  try dsimp only
  rw [wp_bind]
  iapply (sub_13 m K c _ (0 + rT c 13 + rT c 12 + rT c 11 + rT c 10 + rT c 9 + rT c 8 + rT c 7 + rT c 6) hle6 _ _) $$ [HO Hs5 Hq5 Hts5 Htp5 Hz1 Hk1 Hw1 Hf0 Hx]
  · isplitr; · iexact HIs5
    isplitr; · iexact HIp5
    isplitr; · iexact Hrs5
    isplitr; · iexact Hrp5
    isplitr; · iexact Hlev
    isplitl [HO]; · iexact HO
    isplitl [Hs5]; · iexact Hs5
    isplitl [Hq5]; · (iexists _; iexact Hq5)
    isplitl [Hts5]; · iexact Hts5
    isplitl [Htp5]; · iexact Htp5
    isplitl [Hz1]; · iexact Hz1
    isplitl [Hk1]; · (iexists _; iexact Hk1)
    isplitl [Hw1]; · iexact Hw1
    isplitl [Hf0]; · iexact Hf0
    iexact Hx
  iintro ⟨HO, Hcs5, Hf1, Hk0, Hz0, Hw0, Hx⟩
  -- part 14
  try dsimp only
  rw [wp_bind]
  iapply (sub_14 m K c _ (0 + rT c 13 + rT c 12 + rT c 11 + rT c 10 + rT c 9 + rT c 8 + rT c 7) _ _ _) $$ [Hk0 Hs6 HO Hq6 Hts6 Htp6]
  · isplitr; · iexact HIs6
    isplitr; · iexact HIp6
    isplitr; · iexact Hrs6
    isplitr; · iexact Hrp6
    isplitl [Hk0]; · iexact Hk0
    isplitl [Hs6]; · iexact Hs6
    isplitl [HO]; · iexact HO
    isplitl [Hq6]; · (iexists _; iexact Hq6)
    isplitl [Hts6]; · iexact Hts6
    iexact Htp6
  iintro %r_14 ⟨HO, Hk0, Hcs6⟩
  obtain ⟨r_14_0, r_14_1, r_14_2, r_14_3⟩ := r_14
  -- part 15
  try dsimp only
  rw [wp_bind]
  iapply (sub_15 m K c _ _ _ _ (0 + rT c 13 + rT c 12 + rT c 11 + rT c 10 + rT c 9 + rT c 8 + rT c 7) hle7 _ _ _) $$ [Hz0 Hk0 Hw0 HO Hf1 Hx Hs7]
  · isplitr; · iexact Hlev
    isplitl [Hz0]; · iexact Hz0
    isplitl [Hk0]; · (iexists _; iexact Hk0)
    isplitl [Hw0]; · iexact Hw0
    isplitl [HO]; · iexact HO
    isplitl [Hf1]; · iexact Hf1
    isplitl [Hx]; · iexact Hx
    iexact Hs7
  iintro ⟨HO, Hf0, Hk1, Hz1, Hw1, Hx, Hs7⟩
  -- part 16
  try dsimp only
  rw [wp_bind]
  iapply (sub_16 m K c _ _ _ (0 + rT c 13 + rT c 12 + rT c 11 + rT c 10 + rT c 9 + rT c 8) _ _) $$ [Hs7 Hq7 HO Hts7 Htp7]
  · isplitr; · iexact HIs7
    isplitr; · iexact HIp7
    isplitl [Hs7]; · iexact Hs7
    isplitl [Hq7]; · (iexists _; iexact Hq7)
    isplitl [HO]; · iexact HO
    isplitl [Hts7]; · iexact Hts7
    isplitr; · iexact Hrs7
    isplitl [Htp7]; · iexact Htp7
    iexact Hrp7
  iintro %r_16 ⟨Hcs7, HO⟩
  obtain ⟨r_16_0, r_16_1⟩ := r_16
  -- part 17
  try dsimp only
  rw [wp_bind]
  iapply (sub_17 m K c _ _ _ _ _ (0 + rT c 13 + rT c 12 + rT c 11 + rT c 10 + rT c 9 + rT c 8) hle8 _ _) $$ [Hz1 Hk1 Hw1 Hf0 HO Hx Hs8]
  · isplitl [Hz1]; · iexact Hz1
    isplitl [Hk1]; · (iexists _; iexact Hk1)
    isplitl [Hw1]; · iexact Hw1
    isplitl [Hf0]; · iexact Hf0
    isplitl [HO]; · iexact HO
    isplitr; · iexact Hlev
    isplitl [Hx]; · iexact Hx
    (iexists _; iexact Hs8)
  iintro %r_17 ⟨Hf1, Hk0, Hz0, Hw0, HO, Hx, Hs8⟩
  obtain ⟨r_17_0, r_17_1, r_17_2, r_17_3⟩ := r_17
  -- part 18
  try dsimp only
  rw [wp_bind]
  iapply (sub_18 m K c _ _ _ _ _ _ _ (0 + rT c 13 + rT c 12 + rT c 11 + rT c 10 + rT c 9) _ _) $$ [Hs8 Hq8 HO Hts8 Htp8 Hz0 Hk0 Hw0]
  · isplitr; · iexact HIs8
    isplitr; · iexact HIp8
    isplitl [Hs8]; · iexact Hs8
    isplitl [Hq8]; · (iexists _; iexact Hq8)
    isplitl [HO]; · iexact HO
    isplitl [Hts8]; · iexact Hts8
    isplitr; · iexact Hrs8
    isplitl [Htp8]; · iexact Htp8
    isplitr; · iexact Hrp8
    isplitl [Hz0]; · iexact Hz0
    isplitl [Hk0]; · (iexists _; iexact Hk0)
    iexact Hw0
  iintro ⟨Hcs8, HO, Hf0⟩
  -- part 19
  try dsimp only
  rw [wp_bind]
  iapply (sub_19 m K c _ _ _ (0 + rT c 13 + rT c 12 + rT c 11 + rT c 10 + rT c 9) hle9 _ _) $$ [Hf1 HO Hx Hs9]
  · isplitl [Hf1]; · iexact Hf1
    isplitl [HO]; · iexact HO
    isplitr; · iexact Hlev
    isplitl [Hx]; · iexact Hx
    (iexists _; iexact Hs9)
  iintro ⟨Hk1, Hz1, Hw1, HO, Hx, Hs9⟩
  -- part 20
  try dsimp only
  rw [wp_bind]
  iapply (sub_20 m K c _ _ _ (0 + rT c 13 + rT c 12 + rT c 11 + rT c 10) hle10 _ _) $$ [Hs9 Hq9 HO Hts9 Htp9 Hz1 Hk1 Hw1 Hf0 Hx]
  · isplitr; · iexact HIs9
    isplitr; · iexact HIp9
    isplitl [Hs9]; · iexact Hs9
    isplitl [Hq9]; · (iexists _; iexact Hq9)
    isplitl [HO]; · iexact HO
    isplitl [Hts9]; · iexact Hts9
    isplitr; · iexact Hrs9
    isplitl [Htp9]; · iexact Htp9
    isplitr; · iexact Hrp9
    isplitl [Hz1]; · iexact Hz1
    isplitl [Hk1]; · (iexists _; iexact Hk1)
    isplitl [Hw1]; · iexact Hw1
    isplitl [Hf0]; · iexact Hf0
    isplitr; · iexact Hlev
    iexact Hx
  iintro ⟨Hcs9, Hf1, Hk0, Hz0, Hw0, HO, Hx⟩
  -- part 21
  try dsimp only
  rw [wp_bind]
  iapply (sub_21 m K c _ _ _ (0 + rT c 13 + rT c 12 + rT c 11) _ _) $$ [Hk0 Hs10 Hq10 HO Hts10 Htp10]
  · isplitl [Hk0]; · iexact Hk0
    isplitl [Hs10]; · (iexists _; iexact Hs10)
    isplitr; · iexact HIs10
    isplitr; · iexact HIp10
    isplitl [Hq10]; · (iexists _; iexact Hq10)
    isplitl [HO]; · iexact HO
    isplitl [Hts10]; · iexact Hts10
    isplitr; · iexact Hrs10
    isplitl [Htp10]; · iexact Htp10
    iexact Hrp10
  iintro %r_21 ⟨Hk0, Hcs10, HO⟩
  obtain ⟨r_21_0, r_21_1, r_21_2, r_21_3⟩ := r_21
  -- part 22
  try dsimp only
  rw [wp_bind]
  iapply (sub_22 m K c _ _ _ _ _ _ (0 + rT c 13 + rT c 12 + rT c 11) hle11 _ _) $$ [Hz0 Hk0 Hw0 Hf1 HO Hx Hs11]
  · isplitl [Hz0]; · iexact Hz0
    isplitl [Hk0]; · (iexists _; iexact Hk0)
    isplitl [Hw0]; · iexact Hw0
    isplitl [Hf1]; · iexact Hf1
    isplitl [HO]; · iexact HO
    isplitr; · iexact Hlev
    isplitl [Hx]; · iexact Hx
    (iexists _; iexact Hs11)
  iintro %r_22 ⟨Hf0, Hk1, Hz1, Hw1, HO, Hx, Hs11⟩
  -- part 23
  try dsimp only
  rw [wp_bind]
  iapply (sub_23 m K c _ _ _ (0 + rT c 13 + rT c 12) _ _) $$ [Hs11 Hq11 HO Hts11 Htp11]
  · isplitr; · iexact HIs11
    isplitr; · iexact HIp11
    isplitl [Hs11]; · iexact Hs11
    isplitl [Hq11]; · (iexists _; iexact Hq11)
    isplitl [HO]; · iexact HO
    isplitl [Hts11]; · iexact Hts11
    isplitr; · iexact Hrs11
    isplitl [Htp11]; · iexact Htp11
    iexact Hrp11
  iintro %r_23 ⟨Hcs11, HO⟩
  obtain ⟨r_23_0, r_23_1⟩ := r_23
  -- part 24
  try dsimp only
  rw [wp_bind]
  iapply (sub_24 m K c _ _ _ _ _ (0 + rT c 13 + rT c 12) hle12 _ _) $$ [Hz1 Hk1 Hw1 Hf0 HO Hx Hs12]
  · isplitl [Hz1]; · iexact Hz1
    isplitl [Hk1]; · (iexists _; iexact Hk1)
    isplitl [Hw1]; · iexact Hw1
    isplitl [Hf0]; · iexact Hf0
    isplitl [HO]; · iexact HO
    isplitr; · iexact Hlev
    isplitl [Hx]; · iexact Hx
    (iexists _; iexact Hs12)
  iintro %r_24 ⟨Hf1, Hk0, Hz0, Hw0, HO, Hx, Hs12⟩
  obtain ⟨r_24_0, r_24_1, r_24_2, r_24_3⟩ := r_24
  -- part 25
  try dsimp only
  rw [wp_bind]
  iapply (sub_25 m K c _ _ _ _ _ _ _ (0 + rT c 13) _ _) $$ [Hs12 Hq12 HO Hts12 Htp12 Hz0 Hk0 Hw0]
  · isplitr; · iexact HIs12
    isplitr; · iexact HIp12
    isplitl [Hs12]; · iexact Hs12
    isplitl [Hq12]; · (iexists _; iexact Hq12)
    isplitl [HO]; · iexact HO
    isplitl [Hts12]; · iexact Hts12
    isplitr; · iexact Hrs12
    isplitl [Htp12]; · iexact Htp12
    isplitr; · iexact Hrp12
    isplitl [Hz0]; · iexact Hz0
    isplitl [Hk0]; · (iexists _; iexact Hk0)
    iexact Hw0
  iintro ⟨Hcs12, HO, Hf0⟩
  -- part 26
  try dsimp only
  rw [wp_bind]
  iapply (sub_26 m K c _ _ _ (0 + rT c 13) hle13 _ _) $$ [Hf1 HO Hx Hs13]
  · isplitl [Hf1]; · iexact Hf1
    isplitl [HO]; · iexact HO
    isplitr; · iexact Hlev
    isplitl [Hx]; · iexact Hx
    (iexists _; iexact Hs13)
  iintro ⟨Hk1, Hz1, Hw1, HO, Hx, Hs13⟩
  -- part 27
  try dsimp only
  rw [wp_bind]
  iapply (sub_27 m K c _ _ _ (0) hle14 _ _) $$ [Hs13 Hq13 HO Hts13 Htp13 Hz1 Hk1 Hw1 Hf0 Hx]
  · isplitr; · iexact HIs13
    isplitr; · iexact HIp13
    isplitl [Hs13]; · iexact Hs13
    isplitl [Hq13]; · (iexists _; iexact Hq13)
    isplitl [HO]; · iexact HO
    isplitl [Hts13]; · iexact Hts13
    isplitr; · iexact Hrs13
    isplitl [Htp13]; · iexact Htp13
    isplitr; · iexact Hrp13
    isplitl [Hz1]; · iexact Hz1
    isplitl [Hk1]; · (iexists _; iexact Hk1)
    isplitl [Hw1]; · iexact Hw1
    isplitl [Hf0]; · iexact Hf0
    isplitr; · iexact Hlev
    iexact Hx
  iintro ⟨Hcs13, Hf1, Hk0, Hz0, Hw0, HO, Hx⟩
  -- part 28
  try dsimp only
  rw [wp_bind]
  iapply (sub_28 m K c _ _ _ _) $$ [Hk0 Hout Hf1 HO Hx Hcs0 Has0]
  · isplitl [Hk0]; · iexact Hk0
    isplitl [Hout]; · iexact Hout
    isplitl [Hf1]; · iexact Hf1
    isplitl [HO]; · iexact HO
    isplitr; · iexact Hlev
    isplitl [Hx]; · iexact Hx
    isplitr; · iexact HIs0
    isplitl [Hcs0]; · iexact Hcs0
    iexact Has0
  iintro ⟨Hk0, Hk1, Hz1, Hw1, Hx, Hout, HO, Has0, ⟨%fs0, Hs0⟩⟩
  -- part 29
  try dsimp only
  rw [wp_bind]
  iapply (arrive_29 m K c _ _ _ _ _ _ _ _ _ _ _) $$ [HO Hcr0 Har0 Hout]
  · isplitr; · iexact HIr0
    isplitl [HO]; · iexact HO
    isplitl [Hcr0]; · iexact Hcr0
    isplitl [Har0]; · iexact Har0
    iexact Hout
  iintro ⟨HO, Har0, Hrv0, Hout⟩
  -- part 30
  try dsimp only
  rw [wp_bind]
  iapply (arrive_30 m K c _ _ _ _ _ _ _ _ _ _ _) $$ [HO Hcs1 Has1 Hcr1 Har1 Hout]
  · isplitr; · iexact HIs1
    isplitr; · iexact HIr1
    isplitl [HO]; · iexact HO
    isplitl [Hcs1]; · iexact Hcs1
    isplitl [Has1]; · iexact Has1
    isplitl [Hcr1]; · iexact Hcr1
    isplitl [Har1]; · iexact Har1
    iexact Hout
  iintro ⟨HO, Has1, ⟨%fs1, Hs1⟩, Har1, Hrv1, Hout⟩
  -- part 31
  try dsimp only
  rw [wp_bind]
  iapply (arrive_31 m K c _ _ _ _ _ _ _ _ _ _ _) $$ [HO Hcs2 Has2 Hcr2 Har2 Hout]
  · isplitr; · iexact HIs2
    isplitr; · iexact HIr2
    isplitl [HO]; · iexact HO
    isplitl [Hcs2]; · iexact Hcs2
    isplitl [Has2]; · iexact Has2
    isplitl [Hcr2]; · iexact Hcr2
    isplitl [Har2]; · iexact Har2
    iexact Hout
  iintro ⟨HO, Has2, ⟨%fs2, Hs2⟩, Har2, Hrv2, Hout⟩
  -- part 32
  try dsimp only
  rw [wp_bind]
  iapply (arrive_32 m K c _ _ _ _ _ _ _ _ _ _) $$ [HO Hcs3 Has3 Hcr3 Har3]
  · isplitr; · iexact HIs3
    isplitr; · iexact HIr3
    isplitl [HO]; · iexact HO
    isplitl [Hcs3]; · iexact Hcs3
    isplitl [Has3]; · iexact Has3
    isplitl [Hcr3]; · iexact Hcr3
    iexact Har3
  iintro %w_32 ⟨HO, Has3, ⟨%fs3, Hs3⟩, Har3, Hrv3⟩
  -- part 33
  try dsimp only
  rw [wp_bind]
  iapply (arrive_33 m K c _ _ _ _ _ _ _ _ _ _ _ _ _) $$ [HO Hcs4 Has4 Hcr4 Har4 Hout]
  · isplitr; · iexact HIs4
    isplitr; · iexact HIr4
    isplitl [HO]; · iexact HO
    isplitl [Hcs4]; · iexact Hcs4
    isplitl [Has4]; · iexact Has4
    isplitl [Hcr4]; · iexact Hcr4
    isplitl [Har4]; · iexact Har4
    iexact Hout
  iintro %r_33 ⟨HO, Has4, ⟨%fs4, Hs4⟩, Har4, Hrv4, Hout⟩
  -- part 34
  try dsimp only
  rw [wp_bind]
  iapply (arrive_34 m K c _ _ _ _ _ _ _ _ _ _ _ _) $$ [HO Hrv4 Hcs5 Has5 Hout]
  · isplitr; · iexact HIs5
    isplitl [HO]; · iexact HO
    isplitl [Hrv4]; · iexact Hrv4
    isplitl [Hcs5]; · iexact Hcs5
    isplitl [Has5]; · iexact Has5
    iexact Hout
  iintro %r_34 ⟨HO, Hrv4, Has5, ⟨%fs5, Hs5⟩, Hout⟩
  -- part 35
  try dsimp only
  rw [wp_bind]
  iapply (arrive_35 m K c _ _ _ _ _ _ _ _ _ _ _ _) $$ [HO Hcr5 Har5 Hcs6 Has6 Hout]
  · isplitr; · iexact HIr5
    isplitr; · iexact HIs6
    isplitl [HO]; · iexact HO
    isplitl [Hcr5]; · iexact Hcr5
    isplitl [Har5]; · iexact Har5
    isplitl [Hcs6]; · iexact Hcs6
    isplitl [Has6]; · iexact Has6
    iexact Hout
  iintro %r_35 ⟨HO, Har5, Hrv5, Has6, ⟨%fs6, Hs6⟩, Hout⟩
  -- part 36
  try dsimp only
  rw [wp_bind]
  iapply (arrive_36 m K c _ _ _ _ _ _ _ _ _ _ _ _) $$ [HO Hcr6 Har6 Hcs7 Has7 Hout]
  · isplitr; · iexact HIr6
    isplitr; · iexact HIs7
    isplitl [HO]; · iexact HO
    isplitl [Hcr6]; · iexact Hcr6
    isplitl [Har6]; · iexact Har6
    isplitl [Hcs7]; · iexact Hcs7
    isplitl [Has7]; · iexact Has7
    iexact Hout
  iintro %r_36 ⟨HO, Har6, Hrv6, Has7, ⟨%fs7, Hs7⟩, Hout⟩
  obtain ⟨r_36_0, r_36_1, r_36_2⟩ := r_36
  -- part 37
  try dsimp only
  rw [wp_bind]
  iapply (arrive_37 m K c _ _ _ _ _ _ _ _ _ _ _ _ _ _) $$ [HO Hcr7 Har7 Hcs8 Has8 Hout]
  · isplitr; · iexact HIr7
    isplitr; · iexact HIs8
    isplitl [HO]; · iexact HO
    isplitl [Hcr7]; · iexact Hcr7
    isplitl [Har7]; · iexact Har7
    isplitl [Hcs8]; · iexact Hcs8
    isplitl [Has8]; · iexact Has8
    iexact Hout
  iintro %r_37 ⟨HO, Har7, Hrv7, Has8, ⟨%fs8, Hs8⟩, Hout⟩
  -- part 38
  try dsimp only
  rw [wp_bind]
  iapply (arrive_38 m K c _ _ _ _ _ _ _ _ _ _ _ _) $$ [HO Hcr8 Har8 Hcs9 Has9 Hout]
  · isplitr; · iexact HIr8
    isplitr; · iexact HIs9
    isplitl [HO]; · iexact HO
    isplitl [Hcr8]; · iexact Hcr8
    isplitl [Har8]; · iexact Har8
    isplitl [Hcs9]; · iexact Hcs9
    isplitl [Has9]; · iexact Has9
    iexact Hout
  iintro %r_38 ⟨HO, Har8, Hrv8, Has9, ⟨%fs9, Hs9⟩, Hout⟩
  obtain ⟨r_38_0, r_38_1, r_38_2, r_38_3⟩ := r_38
  -- part 39
  try dsimp only
  rw [wp_bind]
  iapply (arrive_39 m K c _ _ _ _ _ _ _ _ _ _ _ _ _ _ _) $$ [HO Hcr9 Har9 Hcs10 Has10 Hout]
  · isplitr; · iexact HIr9
    isplitr; · iexact HIs10
    isplitl [HO]; · iexact HO
    isplitl [Hcr9]; · iexact Hcr9
    isplitl [Har9]; · iexact Har9
    isplitl [Hcs10]; · iexact Hcs10
    isplitl [Has10]; · iexact Has10
    iexact Hout
  iintro %r_39 ⟨HO, Har9, Hrv9, Has10, ⟨%fs10, Hs10⟩, Hout⟩
  obtain ⟨r_39_0, r_39_1, r_39_2⟩ := r_39
  -- part 40
  try dsimp only
  rw [wp_bind]
  iapply (arrive_40 m K c _ _ _ _ _ _ _ _ _ _ _ _ _ _) $$ [HO Hcr10 Har10 Hcs11 Has11 Hout]
  · isplitr; · iexact HIr10
    isplitr; · iexact HIs11
    isplitl [HO]; · iexact HO
    isplitl [Hcr10]; · iexact Hcr10
    isplitl [Har10]; · iexact Har10
    isplitl [Hcs11]; · iexact Hcs11
    isplitl [Has11]; · iexact Has11
    iexact Hout
  iintro %r_40 ⟨HO, Har10, Hrv10, Has11, ⟨%fs11, Hs11⟩, Hout⟩
  obtain ⟨r_40_0, r_40_1, r_40_2⟩ := r_40
  -- part 41
  try dsimp only
  rw [wp_bind]
  iapply (arrive_41 m K c _ _ _ _ _ _ _ _ _ _ _ _ _ _) $$ [HO Hcr11 Har11 Hcs12 Has12 Hout]
  · isplitr; · iexact HIr11
    isplitr; · iexact HIs12
    isplitl [HO]; · iexact HO
    isplitl [Hcr11]; · iexact Hcr11
    isplitl [Har11]; · iexact Har11
    isplitl [Hcs12]; · iexact Hcs12
    isplitl [Has12]; · iexact Has12
    iexact Hout
  iintro ⟨HO, Har11, Hrv11, Has12, ⟨%fs12, Hs12⟩, Hout⟩
  -- part 42
  try dsimp only
  rw [wp_bind]
  iapply (arrive_42 m K c _ _ _ _ _ _ _ _ _ _ _) $$ [HO Hcr12 Har12 Hout]
  · isplitr; · iexact HIr12
    isplitl [HO]; · iexact HO
    isplitl [Hcr12]; · iexact Hcr12
    isplitl [Har12]; · iexact Har12
    iexact Hout
  iintro ⟨HO, Har12, Hrv12, Hout⟩
  -- the wait on slot 13's send cell, then the part's returned words
  try dsimp only
  try simp only [Prog.lift, Prog.bind_op, Prog.bind_ret, Prog.pure_eq_ret]
  iapply (wp_wait_send_slot m K c 13 _) $$ [Hcs13 HO Has13]
  · isplitr; · iexact HIs13
    isplitl [Hcs13]; · iexact Hcs13
    isplitl [HO]; · iexact HO
    iexact Has13
  iintro ⟨HO, Has13, ⟨%fs13', Hs13⟩⟩
  rw [wp_ret]; imodintro
  -- the last arrival: slot 13
  try dsimp only
  try simp only [Prog.lift, Prog.bind_op, Prog.bind_ret, Prog.pure_eq_ret]
  iapply (wp_wait_recv_slot m K c 13 _) $$ [Hcr13 HO Har13]
  · isplitr; · iexact HIr13
    isplitl [Hcr13]; · iexact Hcr13
    isplitl [HO]; · iexact HO
    iexact Har13
  iintro ⟨HO, Har13, Hrv13⟩
  iapply (wp_load_slot c 13 (sent m (back c (shiftOf 13)) 13)) $$ Hrv13
  iintro Hrv13
  iapply (wp_swap_out c _) $$ Hout
  iintro Hout
  rw [wp_ret]
  -- the weights and the weight scratch whole again
  ihave Hw := (w_halve m c).2 $$ [Hw0 Hw1]
  · isplitl [Hw0]; · iexact Hw0
    iexact Hw1
  ihave Hkj := (k_join c _ _) $$ [Hk0 Hk1]
  · isplitl [Hk0]; · iexact Hk0
    iexact Hk1
  icases Hkj with ⟨%fk', Hk⟩
  -- everything handed back: the own cells close, the scratch buffers rejoin, the result is the specification's
  imod (close_body m K c _ (xs m c) rfl fk' _ (out_run m c _) _ _ _ _ _ _ _ _ _ _ _ _ _ _ ) $$ [Has0 Har0 Has1 Har1 Has2 Har2 Has3 Har3 Has4 Har4 Has5 Har5 Has6 Har6 Has7 Har7 Has8 Har8 Has9 Har9 Has10 Har10 Has11 Har11 Has12 Har12 Has13 Har13 Hz0 Hz1 Hw Hk Hs0 Hs1 Hs2 Hs3 Hs4 Hs5 Hs6 Hs7 Hs8 Hs9 Hs10 Hs11 Hs12 Hs13 Hrv0 Hrv1 Hrv2 Hrv3 Hrv4 Hrv5 Hrv6 Hrv7 Hrv8 Hrv9 Hrv10 Hrv11 Hrv12 Hrv13 HO Hx Hout] with Hpost
  · isplitl [Has0 Har0 Has1 Har1 Has2 Har2 Has3 Har3 Has4 Har4 Has5 Har5 Has6 Har6 Has7 Har7 Has8 Har8 Has9 Har9 Has10 Har10 Has11 Har11 Has12 Har12 Has13 Har13]
    · isplitl [Has0 Har0]; · ((isplitr; · iexact HIs0); (isplitr; · iexact HIr0); (isplitl [Has0]; · iexact Has0); iexact Har0)
      isplitl [Has1 Har1]; · ((isplitr; · iexact HIs1); (isplitr; · iexact HIr1); (isplitl [Has1]; · iexact Has1); iexact Har1)
      isplitl [Has2 Har2]; · ((isplitr; · iexact HIs2); (isplitr; · iexact HIr2); (isplitl [Has2]; · iexact Has2); iexact Har2)
      isplitl [Has3 Har3]; · ((isplitr; · iexact HIs3); (isplitr; · iexact HIr3); (isplitl [Has3]; · iexact Has3); iexact Har3)
      isplitl [Has4 Har4]; · ((isplitr; · iexact HIs4); (isplitr; · iexact HIr4); (isplitl [Has4]; · iexact Has4); iexact Har4)
      isplitl [Has5 Har5]; · ((isplitr; · iexact HIs5); (isplitr; · iexact HIr5); (isplitl [Has5]; · iexact Has5); iexact Har5)
      isplitl [Has6 Har6]; · ((isplitr; · iexact HIs6); (isplitr; · iexact HIr6); (isplitl [Has6]; · iexact Has6); iexact Har6)
      isplitl [Has7 Har7]; · ((isplitr; · iexact HIs7); (isplitr; · iexact HIr7); (isplitl [Has7]; · iexact Has7); iexact Har7)
      isplitl [Has8 Har8]; · ((isplitr; · iexact HIs8); (isplitr; · iexact HIr8); (isplitl [Has8]; · iexact Has8); iexact Har8)
      isplitl [Has9 Har9]; · ((isplitr; · iexact HIs9); (isplitr; · iexact HIr9); (isplitl [Has9]; · iexact Has9); iexact Har9)
      isplitl [Has10 Har10]; · ((isplitr; · iexact HIs10); (isplitr; · iexact HIr10); (isplitl [Has10]; · iexact Has10); iexact Har10)
      isplitl [Has11 Har11]; · ((isplitr; · iexact HIs11); (isplitr; · iexact HIr11); (isplitl [Has11]; · iexact Has11); iexact Har11)
      isplitl [Has12 Har12]; · ((isplitr; · iexact HIs12); (isplitr; · iexact HIr12); (isplitl [Has12]; · iexact Has12); iexact Har12)
      (isplitr; · iexact HIs13); (isplitr; · iexact HIr13); (isplitl [Has13]; · iexact Has13); iexact Har13
    isplitl [Hz0]; · iexact Hz0
    isplitl [Hz1]; · iexact Hz1
    isplitl [Hw]; · iexact Hw
    isplitl [Hk]; · (simp only [Memref.view_whole, View.set_whole]; iexact Hk)
    isplitl [Hs0 Hs1 Hs2 Hs3 Hs4 Hs5 Hs6 Hs7 Hs8 Hs9 Hs10 Hs11 Hs12 Hs13]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      iexact Hs13
    isplitl [Hrv0 Hrv1 Hrv2 Hrv3 Hrv4 Hrv5 Hrv6 Hrv7 Hrv8 Hrv9 Hrv10 Hrv11 Hrv12 Hrv13]
    · isplitl [Hrv0]; · iexact Hrv0
      isplitl [Hrv1]; · iexact Hrv1
      isplitl [Hrv2]; · iexact Hrv2
      isplitl [Hrv3]; · iexact Hrv3
      isplitl [Hrv4]; · iexact Hrv4
      isplitl [Hrv5]; · iexact Hrv5
      isplitl [Hrv6]; · iexact Hrv6
      isplitl [Hrv7]; · iexact Hrv7
      isplitl [Hrv8]; · iexact Hrv8
      isplitl [Hrv9]; · iexact Hrv9
      isplitl [Hrv10]; · iexact Hrv10
      isplitl [Hrv11]; · iexact Hrv11
      isplitl [Hrv12]; · iexact Hrv12
      iexact Hrv13
    isplitl [HO]; · iexact HO
    isplitl [Hx]; · (simp only [Memref.view_whole, View.set_whole]; iexact Hx)
    iexact Hout
  imodintro
  iapply Hkt
  unfold bodyPost
  iexact Hpost

theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc
      ∗ (∃ d, stg c cc0_stg0_0 ((dats m 0 c).before (0 : Fin 2) t0_0 d))
      ∗ (∃ d, stg c cc0_stg1_0 ((dats m 0 c).before (1 : Fin 2) t0_0 d)))
    ⊢ wp frame (wpE (defs₀ (F := F)) 𝒱₀ c none) Set.univ
    (cc0_body xM (Memref.isWhole_whole _) wM (Memref.isWhole_whole _) oM (Memref.isWhole_whole _)
            kM (Memref.isWhole_whole _) sM (Memref.isWhole_whole _) rM (Memref.isWhole_whole _) cc0_scratch3 cc0_scratch4 cc0_scratch5) (fun _ => bodyPost m c)
  unfold Φ₀ start
  iintro ⟨⟨⟨⟨%K, Hg⟩, Hrest⟩, Hscr⟩, Ho, Hx, Hout⟩
  iapply (sound_body m K c fun _ => bodyPost m c)
  unfold bodyPre
  isplitr []
  · isplitl [Hg Hrest]
    · isplitl [Hg]; · (iapply (ghost_own m K c); iexact Hg)
      iexact Hrest
    isplitl [Hscr]; · iexact Hscr
    isplitl [Ho]; · iexact Ho
    isplitl [Hx] <;> iassumption
  · iintro H; iexact H

/-- info: 'Cert.KernelIdeal.A2A.body_obligation' depends on axioms: [propext, Classical.choice, Quot.sound] -/
#guard_msgs in #print axioms body_obligation

end Cert.KernelIdeal.A2A

end
-- ==== Proof.Bits.Spec.lean ====
/-
  What each device's result array holds when the kernel returns, entry by entry, as a function of every
  device's rows of `x` and copy of the weights.

  Device `c` ends with the 4096 × 1024 array whose rows [512·p, 512·p + 512) are device `p`'s 512 rows of `x`
  multiplied by the weights' columns [1024·c + 512·t, +512) (t = 0, 1 the half of the 1024 columns), then
  max(·, 0). The row block p = c is computed on the device itself and stays in f32; every other row block was
  computed on device `p`, rounded to bf16 for the wire and widened again on arrival.
-/
import proofs.«900797_g7700000000000798_dist_gemm_a2a_m4096_k4096_n8192_f32_relu_v7x_i8_1_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- Columns [1024·j + 512·t, +512) of a weight array, as the 1 × 4096 × 512 slab one sub-step multiplies by. -/
def wslab (W : Vec F S4096x8192 .f32) (j : Fin 8) (t : Fin 2) : Vec F S1x4096x512 .f32 :=
  fun i => W (ix2 (n0 := 4096) (n1 := 8192) ⟨(i 1).val, (i 1).isLt⟩
    ⟨1024 * j.val + 512 * t.val + (i 2).val, by
      have hj := j.isLt; have ht := t.isLt; have hq : (i 2).val < 512 := (i 2).isLt; omega⟩)

/-- Device `c`'s result array: entry (512·p + r, 512·t + q) is relu of row r of device p's `x` against column
    1024·c + 512·t + q of device p's weights; through bf16 unless p = c. -/
def outAt (X : Dev nD → Vec F S512x4096 .f32) (W : Dev nD → Vec F S4096x8192 .f32) (c : Dev nD) : Vec F S4096x1024 .f32 :=
  fun i =>
    have h0 : (i 0).val < 4096 := (i 0).isLt
    have h1 : (i 1).val < 1024 := (i 1).isLt
    let p : Fin 8 := ⟨(i 0).val / 512, by omega⟩
    let r : Fin 512 := ⟨(i 0).val % 512, Nat.mod_lt _ (by decide)⟩
    let t : Fin 2 := ⟨(i 1).val / 512, by omega⟩
    let q : Fin 512 := ⟨(i 1).val % 512, Nat.mod_lt _ (by decide)⟩
    if p = c then k0_pay21 (X c) (wslab (W c) c t) (ix2 r q)
    else k0_pay1 (k0_pay2 (X p) (wslab (W p) c t)) (ix2 r q)

end Cert.Kernel.Spec

end
-- ==== Proof.Bits.Proto.lean ====
/-
  The cross-device protocol of the fused matmul / all-to-all kernel on the mesh of eight devices, as data:
  which semaphore cells exist, who pays each, how much, and what each payment hands the cell's owner.

  Per device c:
  * ONE barrier cell (the runtime's barrier semaphore): every device d, c included, signals it one unit at
    kernel entry, and c waits for all eight. Device d's unit hands c the two receive slots of d that c will
    write into (none when d = c).
  * FOURTEEN send cells and FOURTEEN receive cells, slot v = 2 (s - 1) + t for the shift s = 1 … 7 and the
    column half t = 0, 1: c's transfer of slot v goes to device c + s (mod 8), credits c's send cell v when the
    source slot has been read and the target's receive cell v when the slot has been written. A send cell
    hands back the source slot; a receive cell hands its owner the slot holding what the sender computed.
  * TWO copy semaphores for the double-buffered fetch of weight columns: local, one transfer in flight on
    each at a time; they are no shared cells and have no duties here.
-/
import proofs.«900797_g7700000000000798_dist_gemm_a2a_m4096_k4096_n8192_f32_relu_v7x_i8_1_alg».proof.Proof.Bits.Spec
import proofs.«900797_g7700000000000798_dist_gemm_a2a_m4096_k4096_n8192_f32_relu_v7x_i8_1_alg».proof.Proof.Gen.Kernel.Launch
import proofs.«900797_g7700000000000798_dist_gemm_a2a_m4096_k4096_n8192_f32_relu_v7x_i8_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties named by Fin 8), the local transfers' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-! ## The mesh: who sends to whom -/

/-- The device s places after c on the ring of eight. -/
def peer (c : Dev nD) (s : Fin 8) : Dev nD := ⟨(c.val + s.val) % 8, Nat.mod_lt _ (by decide)⟩
/-- The device s places before c. -/
def back (c : Dev nD) (s : Fin 8) : Dev nD := ⟨(c.val + (8 - s.val)) % 8, Nat.mod_lt _ (by decide)⟩

theorem back_peer (c : Dev nD) (s : Fin 8) : back (peer c s) s = c := by revert c s; decide
theorem peer_back (c : Dev nD) (s : Fin 8) : peer (back c s) s = c := by revert c s; decide
theorem peer_zero (c : Dev nD) : peer c 0 = c := by revert c; decide

/-- The shift of slot v: slots 0,1 travel one device on, 2,3 two, … 12,13 seven. -/
def shiftOf (v : Fin 14) : Fin 8 := ⟨v.val / 2 + 1, by have := v.isLt; omega⟩
/-- The column half of slot v. -/
def halfOf (v : Fin 14) : Fin 2 := ⟨v.val % 2, Nat.mod_lt _ (by decide)⟩

/-! ## Semaphores and cells -/

abbrev barS : Sem sig := (SemArray.scalar (sig.barrier 0 rfl) : Sems sig S_).sem
abbrev copySem (i : Fin 2) : DmaSem sig := ⟨2 + i.val, by show 2 + i.val < 32; have := i.isLt; omega⟩
abbrev sendSem (v : Fin 14) : DmaSem sig := ⟨4 + v.val, by show 4 + v.val < 32; have := v.isLt; omega⟩
abbrev recvSem (v : Fin 14) : DmaSem sig := ⟨18 + v.val, by show 18 + v.val < 32; have := v.isLt; omega⟩

abbrev barCell (c : Dev nD) : GSem nD τ sig := ((c : Thread nD τ), .reg barS)
abbrev sendCell (c : Dev nD) (v : Fin 14) : GSem nD τ sig := ((c : Thread nD τ), .dma (sendSem v))
abbrev recvCell (c : Dev nD) (v : Fin 14) : GSem nD τ sig := ((c : Thread nD τ), .dma (recvSem v))
abbrev copyCell (c : Dev nD) (i : Fin 2) : GSem nD τ sig := ((c : Thread nD τ), .dma (copySem i))

/-! ## The buffers and their slots -/

abbrev xM : Memref sig .tc .vmem S512x4096 .f32 := Memref.whole cc0_stg0_0
abbrev oM : Memref sig .tc .vmem S4096x1024 .f32 := Memref.whole cc0_stg1_0
abbrev wM : Memref sig .tc .hbm S4096x8192 .f32 := Memref.whole main_arg1
abbrev kM : Memref sig .tc .vmem S2x4096x512 .f32 := Memref.whole cc0_scratch0
abbrev sM : Memref sig .tc .vmem S14x512x512 .bf16 := Memref.whole cc0_scratch1
abbrev rM : Memref sig .tc .vmem S14x512x512 .bf16 := Memref.whole cc0_scratch2

theorem inb_slot (v : Fin 14) : ∀ a, (![v.val, 0, 0] : Fin 3 → Nat) a + S1x512x512.size a ≤ S14x512x512.size a := by
  intro a; have := v.isLt; fin_cases a <;> simp <;> omega

/-- Slot v of a 14 × 512 × 512 buffer, as the 512 × 512 memref the transfers name. -/
abbrev slotOf (M : Memref sig .tc .vmem S14x512x512 .bf16) (v : Fin 14) : Memref sig .tc .vmem S512x512 .bf16 :=
  (M.slice (Rect.unit (s := S14x512x512) ![v.val, 0, 0] S1x512x512.size (inb_slot v)) (fun _ => rfl)).squeeze S512x512 squeezes_S1x512x512_S512x512

abbrev sSlot (v : Fin 14) : Memref sig .tc .vmem S512x512 .bf16 := slotOf sM v
abbrev rSlot (v : Fin 14) : Memref sig .tc .vmem S512x512 .bf16 := slotOf rM v

abbrev N : ℕ := (rSlot 0).view.dmaCredit

theorem N_pos : 0 < N := View.dmaCredit_pos _ (by decide)

/-! ## Contents -/

/-- Device c's 512 rows of x, and its copy of the weights, as launched. -/
def xs (c : Dev nD) : Vec F S512x4096 .f32 := m ((c : Thread nD τ).loc main_arg0)
def ws (c : Dev nD) : Vec F S4096x8192 .f32 := m ((c : Thread nD τ).loc main_arg1)

/-- What device c computes for its send slot v: relu of its rows against the weight columns of the device the
    slot travels to, in bf16. -/
def sent (c : Dev nD) (v : Fin 14) : FVec F S1x512x512 .bf16 :=
  k0_pay2 (xs m c) (wslab (ws m c) (peer c (shiftOf v)) (halfOf v))

/-- A 1 × 512 × 512 block read at every slot index alike: the contents of a 14-slot buffer that agree with the
    block on whichever slot is looked at. -/
def slotBuf (g : FVec F S1x512x512 .bf16) : Vec F S14x512x512 .bf16 :=
  fun i => g (ValueIdx.ix3 (n0 := 1) (n1 := 512) (n2 := 512) 0 ⟨(i 1).val, (i 1).isLt⟩ ⟨(i 2).val, (i 2).isLt⟩)

/-- Slot v of buffer M on device c, held whole at contents f. -/
def slotPts (M : Memref sig .tc .vmem S14x512x512 .bf16) (c : Dev nD) (v : Fin 14)
    (f : Buf (Elt F) ((slotOf M v).view.loc (c : Thread nD τ))) : sProp 𝕄 :=
  (slotOf M v).view.loc (c : Thread nD τ) ↦[(slotOf M v).view.set]{fullShare} f

omit [FloatOps F] in
instance slotPts_storable (M : Memref sig .tc .vmem S14x512x512 .bf16) (c : Dev nD) (v : Fin 14) (f) :
    BI.Storable (upEmb : UEmb _ 𝕄) (slotPts (F := F) M c v f) := by unfold slotPts; infer_instance

/-! ## Payloads -/

/-- The two receive slots a device hands the device d places before it at the barrier, for the shift d ≥ 1. -/
def slotLo (d : Fin 8) : Fin 14 := ⟨2 * (d.val - 1), by have := d.isLt; omega⟩
def slotHi (d : Fin 8) : Fin 14 := ⟨2 * (d.val - 1) + 1, by have := d.isLt; omega⟩

/-- Duty d of device c's barrier cell, paid by the device d places after c: its two receive slots for c's
    transfers at shift d; nothing when d = 0 (c's own unit). -/
def barPay (c : Dev nD) (d : Fin 8) : sProp 𝕄 :=
  if d.val = 0 then iprop(emp)
  else iprop((∃ f, slotPts rM (peer c d) (slotLo d) f) ∗ (∃ f, slotPts rM (peer c d) (slotHi d) f))

/-- A receive cell hands its owner the slot holding what the device shiftOf v places before it computed. -/
def recvPay (c : Dev nD) (v : Fin 14) : sProp 𝕄 := slotPts rM c v (slotBuf (sent m (back c (shiftOf v)) v))
/-- A send cell hands back the source slot. -/
def sendPay (c : Dev nD) (v : Fin 14) : sProp 𝕄 := iprop(∃ f, slotPts sM c v f)

/-! ## The schedule: one round -/

def sched : Rounds.Schedule (GSem nD τ sig) (Fin 8) 𝕄 where
  duties g r := if r = 0 ∧ g.1.2 = .tc then
      (match g.2 with
        | .reg _ => Finset.univ
        | .dma q => if 4 ≤ q.val then {0} else ∅)
    else ∅
  amount g _ _ := match g.2 with
    | .reg _ => 1
    | .dma _ => N
  payload g _ d := match g.2 with
    | .reg _ => barPay g.1.1 d
    | .dma q =>
      if h : 18 ≤ q.val then recvPay m g.1.1 ⟨q.val - 18, by have : q.val < 32 := q.isLt; omega⟩
      else if h' : 4 ≤ q.val then sendPay g.1.1 ⟨q.val - 4, by have : q.val < 32 := q.isLt; omega⟩
      else iprop(emp)
  amount_pos g _ _ _ := by
    cases g.2 with
    | reg _ => exact Nat.one_pos
    | dma _ => exact N_pos

instance sched_payload_storable (g : GSem nD τ sig) (r : ℕ) (d : Fin 8) :
    BI.Storable (upEmb : UEmb _ 𝕄) ((sched (F := F) m).payload g r d) := by
  obtain ⟨th, sm⟩ := g
  cases sm with
  | reg s => show BI.Storable upEmb (barPay th.1 d); unfold barPay; split <;> infer_instance
  | dma q =>
    show BI.Storable upEmb (if h : 18 ≤ q.val then recvPay m th.1 _ else if h' : 4 ≤ q.val then sendPay th.1 _ else iprop(emp))
    unfold recvPay sendPay
    (repeat' split) <;> infer_instance

/-! ## The schedule's tables -/

section Tables
variable (c : Dev nD) (v : Fin 14)

theorem duties_bar : (sched (F := F) m).duties (barCell c) 0 = Finset.univ := by dsimp only [sched]; exact if_pos ⟨rfl, rfl⟩
theorem duties_send : (sched (F := F) m).duties (sendCell c v) 0 = {0} := by
  dsimp only [sched]; rw [if_pos ⟨rfl, rfl⟩]; exact if_pos (by show 4 ≤ 4 + v.val; omega)
theorem duties_recv : (sched (F := F) m).duties (recvCell c v) 0 = {0} := by
  dsimp only [sched]; rw [if_pos ⟨rfl, rfl⟩]; exact if_pos (by show 4 ≤ 18 + v.val; omega)
theorem duties_later (g : GSem nD τ sig) : ∀ r, 1 ≤ r → (sched (F := F) m).duties g r = ∅ :=
  fun r hr => by dsimp only [sched]; rw [if_neg fun h => by omega]

theorem amount_bar (d : Fin 8) : (sched (F := F) m).amount (barCell c) 0 d = 1 := rfl
theorem amount_send (d : Fin 8) : (sched (F := F) m).amount (sendCell c v) 0 d = N := rfl
theorem amount_recv (d : Fin 8) : (sched (F := F) m).amount (recvCell c v) 0 d = N := rfl

theorem expect_bar : (sched (F := F) m).expect (barCell c) 0 = 8 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c v) 0 = N := by
  unfold Schedule.expect Schedule.amountOf; rw [duties_send, Finset.sum_singleton, amount_send]
theorem expect_recv : (sched (F := F) m).expect (recvCell c v) 0 = N := by
  unfold Schedule.expect Schedule.amountOf; rw [duties_recv, Finset.sum_singleton, amount_recv]

theorem payload_bar (d : Fin 8) : (sched (F := F) m).payload (barCell c) 0 d = barPay c d := rfl
theorem payload_send (d : Fin 8) : (sched (F := F) m).payload (sendCell c v) 0 d = sendPay c v := by
  dsimp only [sched]
  rw [dif_neg (by show ¬ 18 ≤ 4 + v.val; have := v.isLt; omega), dif_pos (by show 4 ≤ 4 + v.val; omega)]
  exact congrArg (sendPay c) (Fin.ext (by show 4 + v.val - 4 = v.val; omega))
theorem payload_recv (d : Fin 8) : (sched (F := F) m).payload (recvCell c v) 0 d = recvPay m c v := by
  dsimp only [sched]
  rw [dif_pos (by show 18 ≤ 18 + v.val; omega)]
  exact congrArg (recvPay m c) (Fin.ext (by show 18 + v.val - 18 = v.val; omega))

/-- The rest of a send or receive cell's round, no duty taken: its one payload. -/
theorem rest_send : bigSep ((sched (F := F) m).duties (sendCell c v) 0 \ ∅) (fun d => (sched (F := F) m).payload (sendCell c v) 0 d) = sendPay c v := by
  rw [Finset.sdiff_empty, duties_send, bigSep_singleton, payload_send]
theorem rest_recv : bigSep ((sched (F := F) m).duties (recvCell c v) 0 \ ∅) (fun d => (sched (F := F) m).payload (recvCell c v) 0 d) = recvPay m c v := by
  rw [Finset.sdiff_empty, duties_recv, bigSep_singleton, payload_recv]
/-- The rest of the barrier cell's round: every device's gift. -/
theorem rest_bar : bigSep ((sched (F := F) m).duties (barCell c) 0 \ ∅) (fun d => (sched (F := F) m).payload (barCell c) 0 d) = bigSep Finset.univ (barPay (F := F) c) := by
  rw [Finset.sdiff_empty, duties_bar]; rfl

end Tables

/-! ## What each device owes at launch; the levels -/

/-- The duty of device k's barrier cell that device c pays: c is that many places after k. -/
def dutyTo (c k : Dev nD) : Fin 8 := ⟨(c.val + (8 - k.val)) % 8, Nat.mod_lt _ (by decide)⟩
theorem peer_dutyTo (c k : Dev nD) : peer k (dutyTo c k) = c := by revert c k; decide

/-- The receive credit of slot v's transfer, owed to the device it travels to; one barrier unit owed to device k. -/
abbrev rT (c : Dev nD) (v : Fin 14) : CellTallies nD τ sig Unit := tallyAt (recvCell (peer c (shiftOf v)) v) () N
abbrev bT (k : Dev nD) : CellTallies nD τ sig Unit := tallyAt (barCell k) () 1

/-- After the barrier a device owes its fourteen transfers' receive credits; summed so that slot 0's, sent first, is
    the last summand, slot 1's the one before it, and so on. -/
def OR (c : Dev nD) : CellTallies nD τ sig Unit :=
  0 + rT c 13 + rT c 12 + rT c 11 + rT c 10 + rT c 9 + rT c 8 + rT c 7 + rT c 6 + rT c 5 + rT c 4 + rT c 3 + rT c 2 + rT c 1 + rT c 0
/-- At launch also one unit to every device's barrier cell, device 0's signalled first. -/
def O₀ (c : Dev nD) : CellTallies nD τ sig Unit :=
  OR c + bT 7 + bT 6 + bT 5 + bT 4 + bT 3 + bT 2 + bT 1 + bT 0

def L (g : GSem nD τ sig) : Finset Unit := if g.1.2 = .tc then {()} else ∅
/-- Barrier cells at level 1, receive cells at 2, everything else (staging, copy, send cells) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The names the cells' invariants were allocated at: per device, 0 the barrier cell, 1 + v send cell v, 15 + v receive cell v. -/
abbrev bIx : Fin 29 := 0
abbrev sIx (v : Fin 14) : Fin 29 := ⟨1 + v.val, by have := v.isLt; omega⟩
abbrev rIx (v : Fin 14) : Fin 29 := ⟨15 + v.val, by have := v.isLt; omega⟩

/-- What device c holds of the protocol's ghost state: every barrier cell's invariant, that it stands at round 0 and
    the token of the duty c pays on it; per slot v, the invariants of its own send and receive cell and of the receive
    cell its transfer credits, its positions on its own two, that the three stand at round 0, and the tokens of its send
    duty and of the arrival it pays; its position on its own barrier cell. -/
def ghost (K : Dev nD × Fin 29 → ℕ) (c : Dev nD) : sProp 𝕄 :=
  iprop((bigSep Finset.univ fun k : Dev nD => iprop(cellInv ER (sched m) (K (k, bIx)) (barCell k) ∗ reached ER (barCell k) 0
          ∗ dutyTok ER (barCell k) 0 (dutyTo c k)))
    ∗ (bigSep Finset.univ fun v : Fin 14 => iprop(cellInv ER (sched m) (K (c, sIx v)) (sendCell c v) ∗ cellInv ER (sched m) (K (c, rIx v)) (recvCell c v)
          ∗ cellInv ER (sched m) (K (peer c (shiftOf v), rIx v)) (recvCell (peer c (shiftOf v)) v)
          ∗ atPos ER (sendCell c v) 0 ∅ 0 ∗ atPos ER (recvCell c v) 0 ∅ 0
          ∗ reached ER (sendCell c v) 0 ∗ reached ER (recvCell c v) 0 ∗ reached ER (recvCell (peer c (shiftOf v)) v) 0
          ∗ dutyTok ER (sendCell c v) 0 0 ∗ dutyTok ER (recvCell (peer c (shiftOf v)) v) 0 0))
    ∗ atPos ER (barCell c) 0 ∅ 0)

/-- The kernel's own (scoped) semaphores, as the launch indexes them: the two copy semaphores, the fourteen send, the fourteen receive. -/
abbrev osem : Fin 30 → SemLoc sig := fun i => .dma ⟨2 + i.val, by show 2 + i.val < 32; have := i.isLt; omega⟩

/-- What device c's body starts from besides the scoped buffers: the ghost state at some names, the credit tokens of
    its barrier cell (eight units) and of its fourteen receive cells, the level facts, the two copy semaphores at
    zero, and its copy of the weights. -/
def start (c : Dev nD) : sProp 𝕄 :=
  iprop((∃ K, ghost m K c) ∗ cred (tallyAt (barCell c) () 8) ∗ (bigSep Finset.univ fun v : Fin 14 => cred (tallyAt (recvCell c v) () N))
    ∗ levAts L lv ∗ semVal (copyCell c 0) 0 ∗ semVal (copyCell c 1) 0
    ∗ (((c : Thread nD τ).loc main_arg1) ↦{fullShare} ws m c))

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- After the body: the scratch buffers, all thirty own semaphores back at zero, the weights untouched. -/
def Φ₁ (c : Dev nD) : sProp 𝕄 :=
  iprop(scratch c ∗ Pipeline.ownSems0 (Ix := Unit) (Name := ℕ) (U := UU) (Lvl := ℕ) (Val := Elt F) (τ := τ) osem c
    ∗ (((c : Thread nD τ).loc main_arg1) ↦{fullShare} ws m c))

/-! ## The pipeline's proof data -/

/-- The staged block of x: the whole array (no grid). -/
def xstg (c : Dev nD) : (cc0_stg0_0 : Ref sig .tc).ty.Contents (Elt F) :=
  (win0_0.blk (0 : Fin 1)).view.read (Elt F) (m ((c : Thread nD τ).loc main_arg0))

/-- The result staging buffer after the body: the specification's array. -/
def outC (c : Dev nD) : (cc0_stg1_0 : Ref sig .tc).ty.Contents (Elt F) := outAt (xs m) (ws m) c

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.Bits.Levels.lean ====
/-
  A wait is allowed below everything the waiter still owes: the copy, send and staging cells (level 0) under any part
  of what a device owes at launch, the barrier cell (level 1) under any part of the receive credits (level 2).
-/
import proofs.«900797_g7700000000000798_dist_gemm_a2a_m4096_k4096_n8192_f32_relu_v7x_i8_1_alg».proof.Proof.Bits.Proto

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A tally that is positive at a cell of a sum with a single-cell tally is positive there already in the other
    summand, or the cell is the single one. -/
theorem pos_add_tallyAt {A : CellTallies nD τ sig Unit} {g' g : GSem nD τ sig} {k : ℕ} {u : Unit}
    (h : 0 < (A + tallyAt g' () k) g u) : 0 < A g u ∨ g = g' := by
  rw [Pi.add_apply, Finsupp.add_apply, tallyAt_apply] at h
  by_cases hg : g = g'
  · exact Or.inr hg
  · rw [if_neg (fun h' => hg h'.1), Nat.add_zero] at h; exact Or.inl h

/-- Every cell a device owes after the barrier is the receive cell of one of its fourteen transfers. -/
theorem OR_pos {c : Dev nD} {g : GSem nD τ sig} {u : Unit} (h : 0 < OR c g u) :
    ∃ v : Fin 14, g = recvCell (peer c (shiftOf v)) v := by
  unfold OR at h
  rcases pos_add_tallyAt h with h | rfl; swap; exact ⟨0, rfl⟩
  rcases pos_add_tallyAt h with h | rfl; swap; exact ⟨1, rfl⟩
  rcases pos_add_tallyAt h with h | rfl; swap; exact ⟨2, rfl⟩
  rcases pos_add_tallyAt h with h | rfl; swap; exact ⟨3, rfl⟩
  rcases pos_add_tallyAt h with h | rfl; swap; exact ⟨4, rfl⟩
  rcases pos_add_tallyAt h with h | rfl; swap; exact ⟨5, rfl⟩
  rcases pos_add_tallyAt h with h | rfl; swap; exact ⟨6, rfl⟩
  rcases pos_add_tallyAt h with h | rfl; swap; exact ⟨7, rfl⟩
  rcases pos_add_tallyAt h with h | rfl; swap; exact ⟨8, rfl⟩
  rcases pos_add_tallyAt h with h | rfl; swap; exact ⟨9, rfl⟩
  rcases pos_add_tallyAt h with h | rfl; swap; exact ⟨10, rfl⟩
  rcases pos_add_tallyAt h with h | rfl; swap; exact ⟨11, rfl⟩
  rcases pos_add_tallyAt h with h | rfl; swap; exact ⟨12, rfl⟩
  rcases pos_add_tallyAt h with h | rfl; swap; exact ⟨13, rfl⟩
  exact absurd h (Nat.lt_irrefl 0)

/-- Every cell a device owes at launch is such a receive cell or some device's barrier cell. -/
theorem O₀_pos {c : Dev nD} {g : GSem nD τ sig} {u : Unit} (h : 0 < O₀ c g u) :
    (∃ v : Fin 14, g = recvCell (peer c (shiftOf v)) v) ∨ ∃ k : Dev nD, g = barCell k := by
  unfold O₀ at h
  rcases pos_add_tallyAt h with h | rfl; swap; exact Or.inr ⟨0, rfl⟩
  rcases pos_add_tallyAt h with h | rfl; swap; exact Or.inr ⟨1, rfl⟩
  rcases pos_add_tallyAt h with h | rfl; swap; exact Or.inr ⟨2, rfl⟩
  rcases pos_add_tallyAt h with h | rfl; swap; exact Or.inr ⟨3, rfl⟩
  rcases pos_add_tallyAt h with h | rfl; swap; exact Or.inr ⟨4, rfl⟩
  rcases pos_add_tallyAt h with h | rfl; swap; exact Or.inr ⟨5, rfl⟩
  rcases pos_add_tallyAt h with h | rfl; swap; exact Or.inr ⟨6, rfl⟩
  rcases pos_add_tallyAt h with h | rfl; swap; exact Or.inr ⟨7, rfl⟩
  exact Or.inl (OR_pos h)

theorem lv_bar (k : Dev nD) (u : Unit) : lv (barCell k) u = 1 := rfl
theorem lv_recv (k : Dev nD) (v : Fin 14) (u : Unit) : lv (recvCell k v) u = 2 := by
  dsimp only [lv]; exact if_pos (by show 18 ≤ 18 + v.val; omega)
theorem lv_low (c : Dev nD) (q : DmaSem sig) (hq : q.val < 18) (u : Unit) : lv ((c : Thread nD τ), .dma q) u = 0 := by
  dsimp only [lv]; exact if_neg (by omega)

/-- The copy, send and staging semaphores under the whole launch debt. -/
theorem mayWait_low_O₀ (c : Dev nD) (q : DmaSem sig) (hq : q.val < 18) :
    (levAts L lv : sProp 𝕄) ⊢ MayWait (c : Thread nD τ) (.dma q) () (O₀ c) :=
  MayOwe.of_cut (L := L) (lev := lv) 0
    (fun p hp => by rw [Finset.mem_singleton.mp hp, L_tc]; exact Finset.mem_singleton_self _)
    (fun g u hg => by
      rcases O₀_pos hg with ⟨v, rfl⟩ | ⟨k, rfl⟩ <;> (rw [L_tc]; exact Finset.mem_singleton_self _))
    (fun p hp => by rw [Finset.mem_singleton.mp hp, lv_low c q hq])
    (fun g u hg => by
      rcases O₀_pos hg with ⟨v, rfl⟩ | ⟨k, rfl⟩
      · rw [lv_recv]; decide
      · rw [lv_bar]; decide)

/-- The barrier cell under the whole of the receive credits. -/
theorem mayWait_bar_OR (c : Dev nD) :
    (levAts L lv : sProp 𝕄) ⊢ MayWait (c : Thread nD τ) (.reg barS) () (OR c) :=
  MayOwe.of_cut (L := L) (lev := lv) 1
    (fun p hp => by rw [Finset.mem_singleton.mp hp, L_tc]; exact Finset.mem_singleton_self _)
    (fun g u hg => by obtain ⟨v, rfl⟩ := OR_pos hg; rw [L_tc]; exact Finset.mem_singleton_self _)
    (fun p hp => by rw [Finset.mem_singleton.mp hp]; exact le_of_eq (lv_bar c ()))
    (fun g u hg => by obtain ⟨v, rfl⟩ := OR_pos hg; rw [lv_recv]; decide)

/-- Waiting on a copy, send or staging semaphore (any DMA semaphore below the receive ones) while owing any part of the
    launch debt: barrier units (level 1) and receive credits (level 2) all lie above level 0. -/
theorem mayWait_low (c : Dev nD) (q : DmaSem sig) (hq : q.val < 18) (O : CellTallies nD τ sig Unit) (hO : O ≤ O₀ c) :
    (levAts L lv : sProp 𝕄) ⊢ MayWait (c : Thread nD τ) (.dma q) () O :=
  (mayWait_low_O₀ c q hq).trans (MayOwe.mono (Finset.Subset.refl _) hO)

/-- Waiting on the barrier cell while owing any part of the receive credits. -/
theorem mayWait_bar (c : Dev nD) (O : CellTallies nD τ sig Unit) (hO : O ≤ OR c) :
    (levAts L lv : sProp 𝕄) ⊢ MayWait (c : Thread nD τ) (.reg barS) () O :=
  (mayWait_bar_OR c).trans (MayOwe.mono (Finset.Subset.refl _) hO)

end Cert.Kernel.A2A

end
-- ==== Proof.Bits.Launch.lean ====
/-
  The launch: every device's body proved, the whole mesh runs to the end with each result array at the specification's
  contents and both argument arrays unchanged.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells and duty tokens, indexed -/

/-- The semaphore of index k among a device's twenty-nine protocol cells: the barrier semaphore, then the
    fourteen send and the fourteen receive semaphores, which are the DMA semaphores 4 … 31 in order. -/
def csem (k : Fin 29) : SemLoc sig :=
  if k.val = 0 then .reg barS else .dma ⟨3 + k.val, by show 3 + k.val < 32; have := k.isLt; omega⟩

theorem csem_b : csem bIx = .reg barS := if_pos rfl
theorem csem_s (v : Fin 14) : csem (sIx v) = .dma (sendSem v) := by
  unfold csem; rw [if_neg (by show ¬ (1 + v.val = 0); omega)]
  exact congrArg SemLoc.dma (Fin.ext (by show 3 + (1 + v.val) = 4 + v.val; omega))
theorem csem_r (v : Fin 14) : csem (rIx v) = .dma (recvSem v) := by
  unfold csem; rw [if_neg (by show ¬ (15 + v.val = 0); omega)]
  exact congrArg SemLoc.dma (Fin.ext (by show 3 + (15 + v.val) = 18 + v.val; omega))

theorem csem_injective : Function.Injective csem := by
  intro k k' h
  unfold csem at h
  by_cases a : k.val = 0 <;> by_cases b : k'.val = 0
  · exact Fin.ext (a.trans b.symm)
  · rw [if_pos a, if_neg b] at h; cases h
  · rw [if_neg a, if_pos b] at h; cases h
  · rw [if_neg a, if_neg b] at h
    have e : 3 + k.val = 3 + k'.val := congrArg Fin.val (SemLoc.dma.inj h)
    exact Fin.ext (by omega)

def kcell (ck : Dev nD × Fin 29) : GSem nD τ sig := ((ck.1 : Thread nD τ), csem ck.2)

theorem kcell_b (c : Dev nD) : kcell (c, bIx) = barCell c := congrArg (Prod.mk _) csem_b
theorem kcell_s (c : Dev nD) (v : Fin 14) : kcell (c, sIx v) = sendCell c v := congrArg (Prod.mk _) (csem_s v)
theorem kcell_r (c : Dev nD) (v : Fin 14) : kcell (c, rIx v) = recvCell c v := congrArg (Prod.mk _) (csem_r v)

theorem kcell_injective : Function.Injective (kcell : Dev nD × Fin 29 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def ringCells : Finset (GSem nD τ sig) := Finset.univ.map ⟨kcell, kcell_injective⟩

/-- The index of a device's minted duty tokens: the eight duties of its barrier cell, the one duty of each send
    cell, the one duty of each receive cell. -/
abbrev TI : Type := Fin 8 ⊕ Fin 14 ⊕ Fin 14

def tokOf (cj : Dev nD × TI) : GSem nD τ sig × ℕ × Fin 8 := match cj.2 with
  | .inl d => (barCell cj.1, 0, d)
  | .inr (.inl v) => (sendCell cj.1 v, 0, 0)
  | .inr (.inr v) => (recvCell cj.1 v, 0, 0)

theorem tokOf_injective : Function.Injective (tokOf : Dev nD × TI → GSem nD τ sig × ℕ × Fin 8) := by
  rintro ⟨c, j⟩ ⟨c', j'⟩ h
  have h1 : c = c' := by
    have := congrArg (fun x : GSem nD τ sig × ℕ × Fin 8 => x.1.1.1) h
    rcases j with d | v | v <;> rcases j' with d' | v' | v' <;> exact this
  subst h1
  have hs := congrArg (fun x : GSem nD τ sig × ℕ × Fin 8 => x.1.2) h
  have hd := congrArg (fun x : GSem nD τ sig × ℕ × Fin 8 => x.2.2) h
  rcases j with d | v | v <;> rcases j' with d' | v' | v'
  · have e : d = d' := hd
    subst e; rfl
  · exact absurd hs (fun h' => by cases h')
  · exact absurd hs (fun h' => by cases h')
  · exact absurd hs (fun h' => by cases h')
  · have e : 4 + v.val = 4 + v'.val := congrArg Fin.val (SemLoc.dma.inj hs)
    have e' : v = v' := Fin.ext (by omega)
    subst e'; rfl
  · have e : 4 + v.val = 18 + v'.val := congrArg Fin.val (SemLoc.dma.inj hs)
    have := v.isLt; omega
  · exact absurd hs (fun h' => by cases h')
  · have e : 18 + v.val = 4 + v'.val := congrArg Fin.val (SemLoc.dma.inj hs)
    have := v'.isLt; omega
  · have e : 18 + v.val = 18 + v'.val := congrArg Fin.val (SemLoc.dma.inj hs)
    have e' : v = v' := Fin.ext (by omega)
    subst e'; rfl

def ringToks : Finset (GSem nD τ sig × ℕ × Fin 8) := Finset.univ.map ⟨tokOf, tokOf_injective⟩

/-- The launch element: the pipeline's cells and tokens, the protocol's, and nothing for the local transfers' counters. -/
def u₀ : UU :=
  (initOf (Pipeline.cells cfgs cellOf_inj) (Pipeline.launchToks cfgs cellOf_inj), (initOf ringCells ringToks, 1))

/-- The duty tokens of device c's own cells, as minted. -/
def toks (c : Dev nD) : sProp 𝕄 :=
  iprop((bigSep Finset.univ fun d : Fin 8 => dutyTok ER (barCell c) 0 d)
    ∗ (bigSep Finset.univ fun v : Fin 14 => dutyTok ER (sendCell c v) 0 0)
    ∗ (bigSep Finset.univ fun v : Fin 14 => dutyTok ER (recvCell c v) 0 0))

/-- What the launch element deals device c. -/
def G (c : Dev nD) : sProp 𝕄 :=
  iprop((bigSep Finset.univ fun k : Fin 29 => roundState ER (sched m) (kcell (c, k)) 0)
    ∗ (bigSep Finset.univ fun k : Fin 29 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Index types cut into their groups -/

/-- The twenty-nine cell indices: the barrier's, the fourteen send, the fourteen receive. -/
def e29 : (Unit ⊕ Fin 14 ⊕ Fin 14) ≃ Fin 29 where
  toFun := fun
    | .inl _ => bIx
    | .inr (.inl v) => sIx v
    | .inr (.inr v) => rIx v
  invFun k := if h : k.val = 0 then .inl () else if h' : k.val < 15 then .inr (.inl ⟨k.val - 1, by omega⟩)
    else .inr (.inr ⟨k.val - 15, by have := k.isLt; omega⟩)
  left_inv := by decide
  right_inv := by decide

/-- The thirty own semaphores: the two copy semaphores, the fourteen send, the fourteen receive. -/
def e30 : (Fin 2 ⊕ Fin 14 ⊕ Fin 14) ≃ Fin 30 where
  toFun := fun
    | .inl i => ⟨i.val, by have := i.isLt; omega⟩
    | .inr (.inl v) => ⟨2 + v.val, by have := v.isLt; omega⟩
    | .inr (.inr v) => ⟨16 + v.val, by have := v.isLt; omega⟩
  invFun k := if h : k.val < 2 then .inl ⟨k.val, h⟩ else if h' : k.val < 16 then .inr (.inl ⟨k.val - 2, by omega⟩)
    else .inr (.inr ⟨k.val - 16, by have := k.isLt; omega⟩)
  left_inv := by decide
  right_inv := by decide

theorem bigSep_fin29 {M : Type} [URA M] (Φ : Fin 29 → sProp M) :
    bigSep Finset.univ Φ = iprop(Φ bIx ∗ (bigSep Finset.univ fun v : Fin 14 => Φ (sIx v)) ∗ bigSep Finset.univ fun v : Fin 14 => Φ (rIx v)) := by
  rw [bigSep_univ_equiv e29 Φ, bigSep_univ_sum, bigSep_univ_sum, bigSep_univ_of_subsingleton ()]; rfl

/-- A device's twenty-nine cells, by kind. -/
theorem bigSep_cells {M : Type} [URA M] (c : Dev nD) (Φ : GSem nD τ sig → sProp M) :
    (bigSep Finset.univ fun k : Fin 29 => Φ (kcell (c, k)))
      = iprop(Φ (barCell c) ∗ (bigSep Finset.univ fun v : Fin 14 => Φ (sendCell c v)) ∗ bigSep Finset.univ fun v : Fin 14 => Φ (recvCell c v)) := by
  rw [bigSep_fin29 (fun k => Φ (kcell (c, k)))]
  simp only [kcell_b, kcell_s, kcell_r]

theorem osem_s (v : Fin 14) : osem (e30 (.inr (.inl v))) = .dma (sendSem v) :=
  congrArg SemLoc.dma (Fin.ext (by show 2 + (2 + v.val) = 4 + v.val; omega))
theorem osem_r (v : Fin 14) : osem (e30 (.inr (.inr v))) = .dma (recvSem v) :=
  congrArg SemLoc.dma (Fin.ext (by show 2 + (16 + v.val) = 18 + v.val; omega))

theorem ownSemFacts : Pipeline.OwnSemFacts cfg0.spec osem := by decide

/-- The kernel's own semaphores at zero: the two copy semaphores, the send cells, the receive cells. -/
theorem ownSems0_eq (c : Dev nD) : (Pipeline.ownSems0 (Ix := Unit) (Name := ℕ) (U := UU) (Lvl := ℕ) (Val := Elt F) (τ := τ) osem c : sProp 𝕄)
    = iprop((semVal (copyCell c 0) 0 ∗ semVal (copyCell c 1) 0) ∗ (bigSep Finset.univ fun v : Fin 14 => semVal (sendCell c v) 0)
        ∗ bigSep Finset.univ fun v : Fin 14 => semVal (recvCell c v) 0) := by
  unfold Pipeline.ownSems0
  rw [bigSep_univ_equiv e30 (fun i : Fin 30 => (semVal ((c.tc : Thread nD τ), osem i) 0 : sProp 𝕄)), bigSep_univ_sum, bigSep_univ_sum, bigSep_univ_two]
  simp only [osem_s, osem_r]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 29 => semVal (kcell (c, k)) 0) ∗ semVal (copyCell c 0) 0 ∗ semVal (copyCell c 1) 0) : sProp 𝕄) := by
  rw [ownSems0_eq, unscopedSems0_eq, bigSep_cells c (fun g => (semVal g 0 : sProp 𝕄))]
  iintro ⟨⟨⟨H0, H1⟩, HS, HV⟩, HB⟩
  isplitl [HB HS HV]
  · isplitl [HB]; · iexact HB
    isplitl [HS] <;> iassumption
  isplitl [H0] <;> iassumption

/-! ## The cells' invariants allocated, the tokens dealt -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c
          ∗ semVal (copyCell c 0) 0 ∗ semVal (copyCell c 1) 0) := by
  unfold G
  iintro ⟨Hos, Hus, Hst, Hat, Htok⟩
  ihave Hv := (sems0_eq (F := F) c) $$ [Hos Hus]
  · isplitl [Hos] <;> iassumption
  icases Hv with ⟨Hv, Hc0, Hc1⟩
  imod (show iprop((bigSep Finset.univ fun k : Fin 29 => semVal (kcell (c, k)) 0) ∗ bigSep Finset.univ fun k : Fin 29 => roundState ER (sched m) (kcell (c, k)) 0)
      ⊢ (|={Set.univ}=> bigSep Finset.univ fun k : Fin 29 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hc0] <;> iassumption

/-- Every cell's invariant, at the names K, and that every cell stands at round 0. -/
def records (K : Dev nD × Fin 29 → ℕ) : sProp 𝕄 :=
  iprop((bigSep Finset.univ fun ck : Dev nD × Fin 29 => cellInv ER (sched m) (K ck) (kcell ck))
    ∗ bigSep Finset.univ fun ck : Dev nD × Fin 29 => reached ER (kcell ck) 0)

instance records_persistent (K : Dev nD × Fin 29 → ℕ) : BI.Persistent (records m K) := by unfold records; infer_instance

theorem inv_at (K : Dev nD × Fin 29 → ℕ) (ck : Dev nD × Fin 29) : records m K ⊢ cellInv ER (sched m) (K ck) (kcell ck) := by
  unfold records; exact sep_elim_left.trans (bigSep_elim (Finset.mem_univ ck))
theorem reached_at (K : Dev nD × Fin 29 → ℕ) (ck : Dev nD × Fin 29) : records m K ⊢ reached ER (kcell ck) 0 := by
  unfold records; exact sep_elim_right.trans (bigSep_elim (Finset.mem_univ ck))

theorem inv_b (K : Dev nD × Fin 29 → ℕ) (k : Dev nD) : records m K ⊢ cellInv ER (sched m) (K (k, bIx)) (barCell k) := by
  have h := inv_at m K (k, bIx); rwa [kcell_b] at h
theorem inv_s (K : Dev nD × Fin 29 → ℕ) (k : Dev nD) (v : Fin 14) : records m K ⊢ cellInv ER (sched m) (K (k, sIx v)) (sendCell k v) := by
  have h := inv_at m K (k, sIx v); rwa [kcell_s] at h
theorem inv_r (K : Dev nD × Fin 29 → ℕ) (k : Dev nD) (v : Fin 14) : records m K ⊢ cellInv ER (sched m) (K (k, rIx v)) (recvCell k v) := by
  have h := inv_at m K (k, rIx v); rwa [kcell_r] at h
theorem reached_b (K : Dev nD × Fin 29 → ℕ) (k : Dev nD) : records m K ⊢ reached ER (barCell k) 0 := by
  have h := reached_at m K (k, bIx); rwa [kcell_b] at h
theorem reached_s (K : Dev nD × Fin 29 → ℕ) (k : Dev nD) (v : Fin 14) : records m K ⊢ reached ER (sendCell k v) 0 := by
  have h := reached_at m K (k, sIx v); rwa [kcell_s] at h
theorem reached_r (K : Dev nD × Fin 29 → ℕ) (k : Dev nD) (v : Fin 14) : records m K ⊢ reached ER (recvCell k v) 0 := by
  have h := reached_at m K (k, rIx v); rwa [kcell_r] at h

/-- The tokens of the duties device c pays: on every barrier cell the duty it is that many places after, its own
    send duties, the arrival on the receive cell each of its transfers credits. -/
def payToks (c : Dev nD) : sProp 𝕄 :=
  iprop((bigSep Finset.univ fun k : Dev nD => dutyTok ER (barCell k) 0 (dutyTo c k))
    ∗ (bigSep Finset.univ fun v : Fin 14 => dutyTok ER (sendCell c v) 0 0)
    ∗ (bigSep Finset.univ fun v : Fin 14 => dutyTok ER (recvCell (peer c (shiftOf v)) v) 0 0))

/-- What stays with device c: its positions on its own cells, the tokens of the duties it pays, its two copy semaphores. -/
def linear (c : Dev nD) : sProp 𝕄 :=
  iprop((bigSep Finset.univ fun k : Fin 29 => atPos ER (kcell (c, k)) 0 ∅ 0) ∗ payToks c ∗ semVal (copyCell c 0) 0 ∗ semVal (copyCell c 1) 0)

/-- What the global step makes of the launch element and the semaphores. -/
def G' (c : Dev nD) : sProp 𝕄 := iprop((∃ K, ghost m K c) ∗ semVal (copyCell c 0) 0 ∗ semVal (copyCell c 1) 0)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_bar (K : Dev nD × Fin 29 → ℕ) (c k : Dev nD) :
    iprop(records m K ∗ dutyTok ER (barCell k) 0 (dutyTo c k))
      ⊢ iprop(cellInv ER (sched m) (K (k, bIx)) (barCell k) ∗ reached ER (barCell k) 0 ∗ dutyTok ER (barCell k) 0 (dutyTo c k)) := by
  iintro ⟨#HR, Ht⟩
  isplitr; · iapply (inv_b m K k); iexact HR
  isplitr; · iapply (reached_b m K k); iexact HR
  iexact Ht

theorem ghost_slot (K : Dev nD × Fin 29 → ℕ) (c : Dev nD) (v : Fin 14) :
    iprop(records m K ∗ (atPos ER (sendCell c v) 0 ∅ 0 ∗ atPos ER (recvCell c v) 0 ∅ 0 ∗ dutyTok ER (sendCell c v) 0 0
        ∗ dutyTok ER (recvCell (peer c (shiftOf v)) v) 0 0))
      ⊢ iprop(cellInv ER (sched m) (K (c, sIx v)) (sendCell c v) ∗ cellInv ER (sched m) (K (c, rIx v)) (recvCell c v)
          ∗ cellInv ER (sched m) (K (peer c (shiftOf v), rIx v)) (recvCell (peer c (shiftOf v)) v)
          ∗ atPos ER (sendCell c v) 0 ∅ 0 ∗ atPos ER (recvCell c v) 0 ∅ 0
          ∗ reached ER (sendCell c v) 0 ∗ reached ER (recvCell c v) 0 ∗ reached ER (recvCell (peer c (shiftOf v)) v) 0
          ∗ dutyTok ER (sendCell c v) 0 0 ∗ dutyTok ER (recvCell (peer c (shiftOf v)) v) 0 0) := by
  iintro ⟨#HR, HaS, HaV, HtS, HtV⟩
  isplitr; · iapply (inv_s m K c v); iexact HR
  isplitr; · iapply (inv_r m K c v); iexact HR
  isplitr; · iapply (inv_r m K (peer c (shiftOf v)) v); iexact HR
  isplitl [HaS]; · iexact HaS
  isplitl [HaV]; · iexact HaV
  isplitr; · iapply (reached_s m K c v); iexact HR
  isplitr; · iapply (reached_r m K c v); iexact HR
  isplitr; · iapply (reached_r m K (peer c (shiftOf v)) v); iexact HR
  isplitl [HtS]; · iexact HtS
  iexact HtV

theorem ghost_intro (K : Dev nD × Fin 29 → ℕ) (c : Dev nD) : iprop(records m K ∗ linear c) ⊢ G' m c := by
  unfold linear payToks G'
  rw [bigSep_cells c (fun g => (atPos ER g 0 ∅ 0 : sProp 𝕄))]
  iintro ⟨#HR, ⟨HaB, HaS, HaV⟩, ⟨HtB, HtS, HtV⟩, Hc0, Hc1⟩
  isplitr [Hc0 Hc1]
  · iexists K
    unfold ghost
    isplitl [HtB]
    · iapply (bigSep_with_persistent (R := records m K) fun k _ => ghost_bar m K c k)
      isplitr; · iexact HR
      iexact HtB
    isplitr [HaB]
    · iapply (bigSep_with_persistent (R := records m K) fun v _ => ghost_slot m K c v)
      isplitr; · iexact HR
      rw [bigSep_sep', bigSep_sep', bigSep_sep']
      isplitl [HaS]; · iexact HaS
      isplitl [HaV]; · iexact HaV
      isplitl [HtS]; · iexact HtS
      iexact HtV
    iexact HaB
  isplitl [Hc0] <;> iassumption

/-! ## The tokens around the mesh -/

theorem dutyTo_peer (k : Dev nD) (d : Fin 8) : dutyTo (peer k d) k = d := by revert k d; decide

/-- For a barrier cell's owner k: the devices and the duties of the cell correspond, device c paying duty dutyTo c k. -/
def eDuty (k : Dev nD) : Dev nD ≃ Fin 8 := ⟨fun c => dutyTo c k, fun d => peer k d, fun c => peer_dutyTo c k, fun d => dutyTo_peer k d⟩
/-- Shifting by s places is a permutation of the devices. -/
def ePeer (s : Fin 8) : Dev nD ≃ Dev nD := ⟨fun c => peer c s, fun c => back c s, fun c => back_peer c s, fun c => peer_back c s⟩

/-- Every barrier cell's eight duty tokens, grouped by owner, are the same tokens grouped by payer. -/
theorem toks_bar : (bigSep Finset.univ fun c : Dev nD => bigSep Finset.univ fun d : Fin 8 => (dutyTok ER (barCell c) 0 d : sProp 𝕄))
    = bigSep Finset.univ fun c : Dev nD => bigSep Finset.univ fun k : Dev nD => dutyTok ER (barCell k) 0 (dutyTo c k) :=
  (bigSep_congr fun k _ => bigSep_univ_equiv (eDuty k) (fun d => (dutyTok ER (barCell k) 0 d : sProp 𝕄))).trans
    (bigSep_univ_comm (fun (k c : Dev nD) => (dutyTok ER (barCell k) 0 (dutyTo c k) : sProp 𝕄)))

/-- The receive cells' tokens, grouped by owner, are the same tokens grouped by the device whose transfer credits the cell. -/
theorem toks_recv : (bigSep Finset.univ fun c : Dev nD => bigSep Finset.univ fun v : Fin 14 => (dutyTok ER (recvCell c v) 0 0 : sProp 𝕄))
    = bigSep Finset.univ fun c : Dev nD => bigSep Finset.univ fun v : Fin 14 => dutyTok ER (recvCell (peer c (shiftOf v)) v) 0 0 :=
  (bigSep_univ_comm (fun (c : Dev nD) (v : Fin 14) => (dutyTok ER (recvCell c v) 0 0 : sProp 𝕄))).trans
    ((bigSep_congr fun v _ => bigSep_univ_equiv (ePeer (shiftOf v)) (fun c => (dutyTok ER (recvCell c v) 0 0 : sProp 𝕄))).trans
      (bigSep_univ_comm (fun (v : Fin 14) (c : Dev nD) => (dutyTok ER (recvCell (peer c (shiftOf v)) v) 0 0 : sProp 𝕄))))

theorem toks_around : (bigSep Finset.univ fun c : Dev nD => (toks c : sProp 𝕄)) ⊢ bigSep Finset.univ fun c : Dev nD => payToks c := by
  unfold toks payToks
  rw [bigSep_sep', bigSep_sep', bigSep_sep', bigSep_sep', toks_bar, toks_recv]
  all_goals exact .rfl

theorem regroup :
    (bigSep Finset.univ fun c : Dev nD => iprop((bigSep Finset.univ fun k : Fin 29 => iprop(∃ κ : ℕ, cellInv ER (sched m) κ (kcell (c, k))))
          ∗ (bigSep Finset.univ fun k : Fin 29 => iprop(atPos ER (kcell (c, k)) 0 ∅ 0 ∗ reached ER (kcell (c, k)) 0)) ∗ toks c
          ∗ semVal (copyCell c 0) 0 ∗ semVal (copyCell c 1) 0) : sProp 𝕄)
      ⊢ bigSep Finset.univ (G' m) := by
  rw [bigSep_sep', bigSep_sep', bigSep_sep', bigSep_sep', ← bigSep_univ_prod (fun ck : Dev nD × Fin 29 => iprop(∃ κ : ℕ, cellInv ER (sched m) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok, Hc0, Hc1⟩
  ihave HK := (BI.bigSep_exists_pi Finset.univ (fun (ck : Dev nD × Fin 29) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep', bigSep_sep']
    isplitl [Hat]; · iexact Hat
    isplitl [Htk]; · iexact Htk
    isplitl [Hc0] <;> iassumption

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {v v' : Fin 14} : Iff (recvCell a v = recvCell b v') (a = b ∧ v = v') := by
  constructor
  · intro h
    have h1 : a = b := congrArg (fun g : GSem nD τ sig => g.1.1) h
    have h2 : 18 + v.val = 18 + v'.val := congrArg Fin.val (SemLoc.dma.inj (congrArg Prod.snd h))
    exact ⟨h1, Fin.ext (by omega)⟩
  · rintro ⟨rfl, rfl⟩; rfl
theorem bar_ne_recv (a b : Dev nD) (v : Fin 14) : barCell a ≠ recvCell b v := fun h => by cases congrArg Prod.snd h
theorem recv_ne_bar (a b : Dev nD) (v : Fin 14) : recvCell b v ≠ barCell a := fun h => by cases congrArg Prod.snd h

theorem peer_eq_iff (c d : Dev nD) (s : Fin 8) : Iff (c = peer d s) (d = back c s) := by revert c d s; decide

/-- A sum with a single-cell tally, read at a cell. -/
theorem add_tallyAt_apply (A : CellTallies nD τ sig Unit) (g' g : GSem nD τ sig) (k : ℕ) :
    (A + tallyAt g' () k) g () = A g () + (if g = g' then k else 0) := by
  rw [Pi.add_apply, Finsupp.add_apply, tallyAt_apply]
  by_cases h : g = g'
  · rw [if_pos ⟨h, rfl⟩, if_pos h]
  · rw [if_neg (fun h' => h h'.1), if_neg h]

/-- No receive credit is owed to a barrier cell. -/
theorem OR_bar (d c : Dev nD) : OR d (barCell c) () = 0 := by
  have hz : ∀ (k : Dev nD) (v : Fin 14), (if barCell c = recvCell k v then N else 0) = 0 := fun k v => if_neg (bar_ne_recv c k v)
  unfold OR
  simp only [add_tallyAt_apply, hz]
  rfl

/-- Every device owes every barrier cell one unit. -/
theorem owed_bar (d c : Dev nD) : O₀ d (barCell c) () = 1 := by
  unfold O₀
  simp only [add_tallyAt_apply, OR_bar, bar_eq_iff]
  revert c; decide

/-- A receive cell is owed its slot's credit by the one device whose transfer lands there. -/
theorem owed_recv (d c : Dev nD) (v : Fin 14) : O₀ d (recvCell c v) () = if d = back c (shiftOf v) then N else 0 := by
  have hz : ∀ k : Dev nD, (if recvCell c v = barCell k then 1 else 0) = 0 := fun k => if_neg (recv_ne_bar k c v)
  unfold O₀ OR
  simp only [add_tallyAt_apply, hz, recv_eq_iff, ← peer_eq_iff c d (shiftOf v)]
  generalize N = n
  fin_cases v <;> simp <;> rfl

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ,
    Fintype.card_fin, smul_eq_mul]
  rfl

theorem launch_recv (c : Dev nD) (v : Fin 14) :
    tallyOn (recvCell c v) (launchCredit (Pipeline.owing O₀) 0 (recvCell c v)) = (tallyAt (recvCell c v) () N : CellTallies nD τ sig Unit) := by
  unfold tallyAt; refine congrArg _ (Finsupp.ext fun u => ?_); cases u
  rw [Pipeline.launchCredit_owing, Finsupp.single_eq_same, Finset.sum_congr rfl fun d _ => owed_recv d c v,
    Finset.sum_ite_eq' Finset.univ (back c (shiftOf v)) fun _ => N, if_pos (Finset.mem_univ _)]

/-- The receive semaphores among a device's semaphores. -/
def recvEmb : Fin 14 ↪ SemLoc sig :=
  ⟨fun v => .dma (recvSem v), fun v v' h => by
    have e : 18 + v.val = 18 + v'.val := congrArg Fin.val (SemLoc.dma.inj h)
    exact Fin.ext (by omega)⟩

/-- Of the launch's credit tokens a device takes those of its barrier cell (eight units) and of its fourteen receive cells. -/
theorem creds (c : Dev nD) :
    (Pipeline.launchCred O₀ c : sProp 𝕄) ⊢ iprop(cred (tallyAt (barCell c) () 8) ∗ bigSep Finset.univ fun v : Fin 14 => cred (tallyAt (recvCell c v) () N)) := by
  unfold Pipeline.launchCred
  rw [bigSep_univ_at _ (SemLoc.reg barS), launch_bar]
  refine sep_mono_right ?_
  refine (bigSep_subset (t := Finset.univ.map recvEmb) ?_).trans ?_
  · intro sm hsm
    obtain ⟨v, -, rfl⟩ := Finset.mem_map.mp hsm
    exact Finset.mem_erase.mpr ⟨fun h => (by cases h), Finset.mem_univ _⟩
  · rw [bigSep_map]
    exact Entails.of_eq (bigSep_congr fun v _ => congrArg cred (launch_recv c v))

/-! ## The launch theorem's side conditions -/

theorem share_eq (c : Dev nD) (w : Fin cfg0.W) : (dats m 0 c).share w = fullShare := by unfold Dat.share; split <;> rfl

/-- What the launch hands a device makes its starting resources: the weights' array among the unscoped buffers, the
    levels, the credit tokens of its barrier and receive cells, the ghost state and the two copy semaphores. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  icases Hc with ⟨H8, HN⟩
  unfold G'
  icases HG with ⟨HG, Hc0, Hc1⟩
  imodintro
  unfold start ws
  isplitl
  · isplitl [HG]; · iexact HG
    isplitl [H8]; · iexact H8
    isplitl [HN]; · iexact HN
    isplitl [Hlev]; · iexact Hlev
    isplitl [Hc0]; · iexact Hc0
    isplitl [Hc1]; · iexact Hc1
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N)
      ⊢ iprop((((c : Thread nD τ).loc main_arg1) ↦{fullShare} ws m c) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hos, Hw⟩
  isplitl [Hw]; · iexact Hw
  isplitl [Hos]; · iexact Hos
  iexact Hr

/-- The pipeline's two staging semaphores lie below everything a device owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact le_refl _
      · exact zero_le)

/-! ## The arrays after the run -/

/-- The result array after the run: the one write-back, of what the body left in the result staging buffer. -/
theorem final_out (c : Dev nD) : (dats (F := F) m 0 c).arrAt (1 : Fin 2) cfg0.N = outC m c := by
  have ho : ((cfg0.win (1 : Fin 2)).blk t0_0).view.read (Elt F) ((dats (F := F) m 0 c).arrAt (1 : Fin 2) cfg0.N)
      = (dats (F := F) m 0 c).flushed (1 : Fin 2) t0_0 := by
    rw [show cfg0.N = (t0_0 : Fin cfg0.N).val + 1 from rfl, (dats (F := F) m 0 c).arrAt_succ (1 : Fin 2) t0_0, flush0_1 t0_0, if_pos rfl]
    exact View.read_write_univ _ _
  have hz : (fun a => (win0_1.index t0_0) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

/-- The array of x is never written. -/
theorem final_x (c : Dev nD) : (dats (F := F) m 0 c).arrAt (0 : Fin 2) cfg0.N = m ((c : Thread nD τ).loc main_arg0) :=
  (dats (F := F) m 0 c).arrAt_in (0 : Fin 2) rfl _

/-- What every final state satisfies. -/
def QC : PUnit × MemSt nD τ sig (Elt F) → Prop := fun r => ∀ c : Dev nD,
  r.2.mem ((c.tc : Thread nD τ).loc main_v1) = outC m c
  ∧ r.2.mem ((c.tc : Thread nD τ).loc main_arg0) = m ((c.tc : Thread nD τ).loc main_arg0)
  ∧ r.2.mem ((c.tc : Thread nD τ).loc main_arg1) = m ((c.tc : Thread nD τ).loc main_arg1)

theorem run_main (hbody : ∀ c : Dev nD, BodyObligation (dats (F := F) m 0 c) (defs₀ (F := F)) 𝒱₀ () Set.univ) :
    θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring m) $$ HR with HG
      imodintro
      isplitl [HP] <;> iassumption)
    (hglob := glob m)
    (hA := fun _ _ => rfl) (hpf := fun _ k => k.elim0)
    (X := start m) (Y := fun c => iprop(((c : Thread nD τ).loc main_arg1) ↦{fullShare} ws m c)) (Z := fun _ => iprop(emp))
    (hX := start_intro m ρ) (hin := phi0_intro m) (hout := phi1_exit m)
    (QY := fun c s => s.mem ((c : Thread nD τ).loc main_arg1) = m ((c : Thread nD τ).loc main_arg1))
    (hY := fun c s' => by
      iintro ⟨HY, -, HSI⟩
      icombine HSI HY gives %hx
      imodintro
      isplitr; · ipureintro; exact Buf.eq_of_forall_mem_univ hx
      iexact HSI)
    (hQ := fun s h c => ⟨((h c).1 1).trans (final_out m c), ((h c).1 0).trans (final_x m c), (h c).2.2⟩)

end Cert.Kernel.A2A

end
-- ==== Proof.Bits.Gift.lean ====
/-
  The receive buffer as fourteen slots, and the slots as barrier gifts: what a device hands each peer when it signals the
  peer's barrier cell, and what the eight units it waits for hand it.
-/
import proofs.«900797_g7700000000000798_dist_gemm_a2a_m4096_k4096_n8192_f32_relu_v7x_i8_1_alg».proof.Proof.Bits.Proto

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot v in the buffer's 14 × 512 × 512 index space: first coordinate v, the other two free. -/
abbrev slotRect (v : Fin 14) : Rect S14x512x512 := Rect.unit (s := S14x512x512) ![v.val, 0, 0] S1x512x512.size (inb_slot v)

/-- The buffer elements under slot v of M, as elements of M's own location. -/
def slotSet (M : Memref sig .tc .vmem S14x512x512 .bf16) (c : Dev nD) (v : Fin 14) : Finset (Idx (M.view.loc (c : Thread nD τ))) :=
  (slotOf M v).view.set

/-- They are the image of the slot's rectangle under the buffer's placement. -/
theorem slotSet_eq (M : Memref sig .tc .vmem S14x512x512 .bf16) (c : Dev nD) (v : Fin 14) :
    slotSet M c v = (slotRect v).set.map M.view.emb := by
  show ((M.view.slice (slotRect v)).reshape S512x512 _).set = _
  rw [View.set_reshape, View.set_slice]

/-- An index lies in slot v's rectangle exactly when its first coordinate is v. -/
theorem mem_slotRect (v : Fin 14) (i : S14x512x512.Idx) : i ∈ (slotRect v).set ↔ (i 0).val = v.val := by
  rw [Rect.mem_set_unit]
  have h1 : (i 1).val < 512 := (i 1).isLt
  have h2 : (i 2).val < 512 := (i 2).isLt
  constructor
  · intro h
    have h0 := h 0
    simp at h0
    omega
  · intro h a
    fin_cases a <;> simp <;> omega

/-- Different slots share no element. -/
theorem slotSet_disjoint (M : Memref sig .tc .vmem S14x512x512 .bf16) (c : Dev nD) {v v' : Fin 14} (h : v ≠ v') :
    Disjoint (slotSet M c v) (slotSet M c v') := by
  rw [slotSet_eq, slotSet_eq, Finset.disjoint_map]
  refine Finset.disjoint_left.mpr fun i hi hi' => h (Fin.ext ?_)
  rw [← (mem_slotRect v i).mp hi, ← (mem_slotRect v' i).mp hi']

/-- Every element under the buffer is under exactly the slot its first coordinate names. -/
theorem slotSet_cover (M : Memref sig .tc .vmem S14x512x512 .bf16) (c : Dev nD) :
    (M.view.set : Finset (Idx (M.view.loc (c : Thread nD τ)))) = Finset.univ.biUnion (slotSet M c) := by
  ext x
  constructor
  · intro hx
    obtain ⟨i, -, rfl⟩ := Finset.mem_map.mp hx
    have h0 : (i 0).val < 14 := (i 0).isLt
    refine Finset.mem_biUnion.mpr ⟨⟨(i 0).val, h0⟩, Finset.mem_univ _, ?_⟩
    rw [slotSet_eq]
    exact Finset.mem_map_of_mem _ ((mem_slotRect _ i).mpr rfl)
  · intro hx
    obtain ⟨v, -, hv⟩ := Finset.mem_biUnion.mp hx
    rw [slotSet_eq] at hv
    obtain ⟨i, -, rfl⟩ := Finset.mem_map.mp hv
    exact Finset.mem_map_of_mem _ (Finset.mem_univ i)

/-- A whole 14-slot buffer held at contents f is its fourteen slots, each held at f. -/
theorem slots_split (M : Memref sig .tc .vmem S14x512x512 .bf16) (hM : M.IsWhole) (c : Dev nD) (f : Buf (Elt F) (M.view.loc (c : Thread nD τ))) :
    (M.view.loc (c : Thread nD τ) ↦[M.view.set]{fullShare} f : sProp 𝕄) ⊣⊢ bigSep Finset.univ fun v : Fin 14 => slotPts M c v f := by
  rw [slotSet_cover M c, pointsTo_biUnion Finset.univ (slotSet M c) fun v _ v' _ h => slotSet_disjoint M c h]
  exact ⟨Entails.of_eq rfl, Entails.of_eq rfl⟩

/-- Fourteen slots held at whatever contents are the buffer whole at some contents. -/
theorem slots_join (M : Memref sig .tc .vmem S14x512x512 .bf16) (hM : M.IsWhole) (c : Dev nD) (fv : Fin 14 → Buf (Elt F) (M.view.loc (c : Thread nD τ))) :
    (bigSep Finset.univ fun v : Fin 14 => slotPts M c v (fv v) : sProp 𝕄) ⊢ iprop(∃ f, M.view.loc (c : Thread nD τ) ↦[M.view.set]{fullShare} f) := by
  refine (show _ ⊢ (iprop(∃ g, ⌜∀ t ∈ Finset.univ, ∀ i ∈ slotSet M c t, g i = fv t i⌝
      ∗ M.view.loc (c : Thread nD τ) ↦[Finset.univ.biUnion (slotSet M c)]{fullShare} g) : sProp 𝕄) from
    pointsTo_biUnion_join Finset.univ (slotSet M c) fv (fv 0) fun v _ v' _ h => slotSet_disjoint M c h).trans ?_
  rw [← slotSet_cover M c]
  iintro ⟨%g, %hg, H⟩
  iexists g
  iexact H

/-- The eight duties of one barrier cell against the fourteen slots: duty 0 hands nothing, duty d ≥ 1 the two slots
    2 (d - 1) and 2 (d - 1) + 1, whose shift is d; so a family over the slots, indexed also by the slot's shift, is the
    same family grouped by duty. -/
theorem gifts_eq (Ψ : Fin 8 → Fin 14 → sProp 𝕄) :
    (bigSep Finset.univ fun d : Fin 8 => if d.val = 0 then (BI.emp : sProp 𝕄) else BI.sep (Ψ d (slotLo d)) (Ψ d (slotHi d)))
      = bigSep Finset.univ fun v : Fin 14 => Ψ (shiftOf v) v := by
  rw [bigSep_univ_eq_bigSepL [0, 1, 2, 3, 4, 5, 6, 7] (by decide) (by decide),
    bigSep_univ_eq_bigSepL [0, 1, 2, 3, 4, 5, 6, 7, 8, 9, 10, 11, 12, 13] (by decide) (by decide)]
  show BI.sep (BI.emp : sProp 𝕄) (BI.sep (BI.sep (Ψ 1 0) (Ψ 1 1)) (BI.sep (BI.sep (Ψ 2 2) (Ψ 2 3)) (BI.sep (BI.sep (Ψ 3 4) (Ψ 3 5))
      (BI.sep (BI.sep (Ψ 4 6) (Ψ 4 7)) (BI.sep (BI.sep (Ψ 5 8) (Ψ 5 9)) (BI.sep (BI.sep (Ψ 6 10) (Ψ 6 11)) (BI.sep (Ψ 7 12) (Ψ 7 13))))))))
    = BI.sep (Ψ 1 0) (BI.sep (Ψ 1 1) (BI.sep (Ψ 2 2) (BI.sep (Ψ 2 3) (BI.sep (Ψ 3 4) (BI.sep (Ψ 3 5) (BI.sep (Ψ 4 6) (BI.sep (Ψ 4 7)
      (BI.sep (Ψ 5 8) (BI.sep (Ψ 5 9) (BI.sep (Ψ 6 10) (BI.sep (Ψ 6 11) (BI.sep (Ψ 7 12) (Ψ 7 13)))))))))))))
  rw [equiv_iff.mp emp_sep]
  ac_rfl

/-- The device d places before c, as a renaming of the eight devices by the duty c pays on each one's barrier cell. -/
def dutyEquiv (c : Dev nD) : Fin 8 ≃ Dev nD where
  toFun d := back c d
  invFun k := dutyTo c k
  left_inv d := by revert c d; decide
  right_inv k := by revert c k; decide

/-- A device's fourteen receive slots, regrouped by the device each pair goes to: device k gets the duty-(dutyTo c k)
    payload of ITS barrier cell. -/
theorem own_gifts (c : Dev nD) :
    (bigSep Finset.univ fun v : Fin 14 => iprop(∃ f, slotPts (F := F) rM c v f) : sProp 𝕄)
      ⊢ bigSep Finset.univ fun k : Dev nD => barPay (F := F) k (dutyTo c k) := by
  have e : ∀ d : Fin 8, barPay (F := F) (dutyEquiv c d) (dutyTo c (dutyEquiv c d))
      = if d.val = 0 then (BI.emp : sProp 𝕄)
        else BI.sep (iprop(∃ f, slotPts (F := F) rM c (slotLo d) f)) (iprop(∃ f, slotPts (F := F) rM c (slotHi d) f)) := by
    intro d
    rw [show dutyTo c (dutyEquiv c d) = d from (dutyEquiv c).left_inv d]
    show barPay (F := F) (back c d) d = _
    unfold barPay
    rw [peer_back]
    rfl
  refine Entails.of_eq ?_
  rw [bigSep_univ_equiv (dutyEquiv c) (fun k : Dev nD => barPay (F := F) k (dutyTo c k)),
    bigSep_congr (s := Finset.univ) fun d _ => e d,
    gifts_eq (fun _ v => iprop(∃ f, slotPts (F := F) rM c v f))]

/-- The eight payloads of a device's barrier cell are, slot by slot, the receive slot v of the device shiftOf v places on. -/
theorem got_gifts (c : Dev nD) :
    (bigSep Finset.univ (barPay (F := F) c) : sProp 𝕄)
      ⊢ bigSep Finset.univ fun v : Fin 14 => iprop(∃ f, slotPts (F := F) rM (peer c (shiftOf v)) v f) := by
  exact Entails.of_eq (gifts_eq (fun d v => iprop(∃ f, slotPts (F := F) rM (peer c d) v f)))

end Cert.Kernel.A2A

end
-- ==== Proof.Bits.Facts.lean ====
/-
  Pure facts about one device's body: the closed forms of the printed device and offset chains over the mesh of
  eight, and what the slot, slab and result views read and write.
-/
import proofs.«900797_g7700000000000798_dist_gemm_a2a_m4096_k4096_n8192_f32_relu_v7x_i8_1_alg».proof.Proof.Bits.Proto
import Idealize.ShloMosaic.Lib.Pipeline.Value

set_option Elab.async false

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device chains in closed form

  The barrier's eight signals address the devices 0 … 7 in turn; the transfer of slot v addresses the device
  v / 2 + 1 places on (the chain computes (c + s) mod 8 in words). -/

@[sl_canon] theorem dev1_eq : (⟨k0_dev1, k0_dev1_lt⟩ : Dev nD) = 0 := Fin.ext k0_dev1_eq
@[sl_canon] theorem dev2_eq : (⟨k0_dev2, k0_dev2_lt⟩ : Dev nD) = 1 := Fin.ext k0_dev2_eq
@[sl_canon] theorem dev3_eq : (⟨k0_dev3, k0_dev3_lt⟩ : Dev nD) = 2 := Fin.ext k0_dev3_eq
@[sl_canon] theorem dev4_eq : (⟨k0_dev4, k0_dev4_lt⟩ : Dev nD) = 3 := Fin.ext k0_dev4_eq
@[sl_canon] theorem dev5_eq : (⟨k0_dev5, k0_dev5_lt⟩ : Dev nD) = 4 := Fin.ext k0_dev5_eq
@[sl_canon] theorem dev6_eq : (⟨k0_dev6, k0_dev6_lt⟩ : Dev nD) = 5 := Fin.ext k0_dev6_eq
@[sl_canon] theorem dev7_eq : (⟨k0_dev7, k0_dev7_lt⟩ : Dev nD) = 6 := Fin.ext k0_dev7_eq
@[sl_canon] theorem dev8_eq : (⟨k0_dev8, k0_dev8_lt⟩ : Dev nD) = 7 := Fin.ext k0_dev8_eq

@[sl_canon] theorem dev9_eq (c : Dev nD) : (⟨k0_dev9 c, k0_dev9_lt c⟩ : Dev nD) = peer c 1 := by revert c; decide +kernel
@[sl_canon] theorem dev10_eq (c : Dev nD) : (⟨k0_dev10 c, k0_dev10_lt c⟩ : Dev nD) = peer c 1 := by revert c; decide +kernel
@[sl_canon] theorem dev11_eq (c : Dev nD) : (⟨k0_dev11 c, k0_dev11_lt c⟩ : Dev nD) = peer c 2 := by revert c; decide +kernel
@[sl_canon] theorem dev12_eq (c : Dev nD) : (⟨k0_dev12 c, k0_dev12_lt c⟩ : Dev nD) = peer c 2 := by revert c; decide +kernel
@[sl_canon] theorem dev13_eq (c : Dev nD) : (⟨k0_dev13 c, k0_dev13_lt c⟩ : Dev nD) = peer c 3 := by revert c; decide +kernel
@[sl_canon] theorem dev14_eq (c : Dev nD) : (⟨k0_dev14 c, k0_dev14_lt c⟩ : Dev nD) = peer c 3 := by revert c; decide +kernel
@[sl_canon] theorem dev15_eq (c : Dev nD) : (⟨k0_dev15 c, k0_dev15_lt c⟩ : Dev nD) = peer c 4 := by revert c; decide +kernel
@[sl_canon] theorem dev16_eq (c : Dev nD) : (⟨k0_dev16 c, k0_dev16_lt c⟩ : Dev nD) = peer c 4 := by revert c; decide +kernel
@[sl_canon] theorem dev17_eq (c : Dev nD) : (⟨k0_dev17 c, k0_dev17_lt c⟩ : Dev nD) = peer c 5 := by revert c; decide +kernel
@[sl_canon] theorem dev18_eq (c : Dev nD) : (⟨k0_dev18 c, k0_dev18_lt c⟩ : Dev nD) = peer c 5 := by revert c; decide +kernel
@[sl_canon] theorem dev19_eq (c : Dev nD) : (⟨k0_dev19 c, k0_dev19_lt c⟩ : Dev nD) = peer c 6 := by revert c; decide +kernel
@[sl_canon] theorem dev20_eq (c : Dev nD) : (⟨k0_dev20 c, k0_dev20_lt c⟩ : Dev nD) = peer c 6 := by revert c; decide +kernel
@[sl_canon] theorem dev21_eq (c : Dev nD) : (⟨k0_dev21 c, k0_dev21_lt c⟩ : Dev nD) = peer c 7 := by revert c; decide +kernel
@[sl_canon] theorem dev22_eq (c : Dev nD) : (⟨k0_dev22 c, k0_dev22_lt c⟩ : Dev nD) = peer c 7 := by revert c; decide +kernel

/-- The transfer of slot v addresses the device shiftOf v places on. -/
theorem shiftOf_lit : shiftOf 0 = 1 ∧ shiftOf 1 = 1 ∧ shiftOf 2 = 2 ∧ shiftOf 3 = 2 ∧ shiftOf 4 = 3 ∧ shiftOf 5 = 3 ∧ shiftOf 6 = 4
    ∧ shiftOf 7 = 4 ∧ shiftOf 8 = 5 ∧ shiftOf 9 = 5 ∧ shiftOf 10 = 6 ∧ shiftOf 11 = 6 ∧ shiftOf 12 = 7 ∧ shiftOf 13 = 7 := by decide

/-! ## The offset chains in closed form -/

/-- The weight columns a fetch reads: those of the device s places on, half t. -/
theorem off1_eq (c : Dev nD) (s : Fin 8) (t : Fin 2) :
    k0_off1 c (BitVec.ofNat 32 s.val) (BitVec.ofNat 32 (512 * t.val)) = ![0, 1024 * (peer c s).val + 512 * t.val] := by
  revert c s t; decide +kernel

/-- The rows a received block is stored at: those of the device s places back. -/
theorem off4_eq (c : Dev nD) (s : Fin 8) : k0_off4 c (BitVec.ofNat 32 s.val) = ![512 * (back c s).val, 0] := by
  revert c s; decide +kernel
theorem off5_eq (c : Dev nD) (s : Fin 8) : k0_off5 c (BitVec.ofNat 32 s.val) = ![512 * (back c s).val, 512] := by
  revert c s; decide +kernel

/-- The shifts and halves as the printed words spell them. -/
theorem back_val (c : Dev nD) (s : Fin 8) : (back c s).val = (c.val + (8 - s.val)) % 8 := rfl
theorem peer_val (c : Dev nD) (s : Fin 8) : (peer c s).val = (c.val + s.val) % 8 := rfl

theorem off1_0_0 (c : Dev nD) : k0_off1 c 0#32 0#32 = ![0, 1024 * (peer c 0).val] := off1_eq c 0 0
theorem off1_0_1 (c : Dev nD) : k0_off1 c 0#32 512#32 = ![0, 1024 * (peer c 0).val + 512] := off1_eq c 0 1
theorem off1_1_0 (c : Dev nD) : k0_off1 c 1#32 0#32 = ![0, 1024 * (peer c 1).val] := off1_eq c 1 0
theorem off1_1_1 (c : Dev nD) : k0_off1 c 1#32 512#32 = ![0, 1024 * (peer c 1).val + 512] := off1_eq c 1 1
theorem off1_2_0 (c : Dev nD) : k0_off1 c 2#32 0#32 = ![0, 1024 * (peer c 2).val] := off1_eq c 2 0
theorem off1_2_1 (c : Dev nD) : k0_off1 c 2#32 512#32 = ![0, 1024 * (peer c 2).val + 512] := off1_eq c 2 1
theorem off1_3_0 (c : Dev nD) : k0_off1 c 3#32 0#32 = ![0, 1024 * (peer c 3).val] := off1_eq c 3 0
theorem off1_3_1 (c : Dev nD) : k0_off1 c 3#32 512#32 = ![0, 1024 * (peer c 3).val + 512] := off1_eq c 3 1
theorem off1_4_0 (c : Dev nD) : k0_off1 c 4#32 0#32 = ![0, 1024 * (peer c 4).val] := off1_eq c 4 0
theorem off1_4_1 (c : Dev nD) : k0_off1 c 4#32 512#32 = ![0, 1024 * (peer c 4).val + 512] := off1_eq c 4 1
theorem off1_5_0 (c : Dev nD) : k0_off1 c 5#32 0#32 = ![0, 1024 * (peer c 5).val] := off1_eq c 5 0
theorem off1_5_1 (c : Dev nD) : k0_off1 c 5#32 512#32 = ![0, 1024 * (peer c 5).val + 512] := off1_eq c 5 1
theorem off1_6_0 (c : Dev nD) : k0_off1 c 6#32 0#32 = ![0, 1024 * (peer c 6).val] := off1_eq c 6 0
theorem off1_6_1 (c : Dev nD) : k0_off1 c 6#32 512#32 = ![0, 1024 * (peer c 6).val + 512] := off1_eq c 6 1
theorem off1_7_0 (c : Dev nD) : k0_off1 c 7#32 0#32 = ![0, 1024 * (peer c 7).val] := off1_eq c 7 0
theorem off1_7_1 (c : Dev nD) : k0_off1 c 7#32 512#32 = ![0, 1024 * (peer c 7).val + 512] := off1_eq c 7 1

theorem off4_1 (c : Dev nD) : k0_off4 c 1#32 = ![512 * (back c 1).val, 0] := off4_eq c 1
theorem off5_1 (c : Dev nD) : k0_off5 c 1#32 = ![512 * (back c 1).val, 512] := off5_eq c 1
theorem off4_2 (c : Dev nD) : k0_off4 c 2#32 = ![512 * (back c 2).val, 0] := off4_eq c 2
theorem off5_2 (c : Dev nD) : k0_off5 c 2#32 = ![512 * (back c 2).val, 512] := off5_eq c 2
theorem off4_3 (c : Dev nD) : k0_off4 c 3#32 = ![512 * (back c 3).val, 0] := off4_eq c 3
theorem off5_3 (c : Dev nD) : k0_off5 c 3#32 = ![512 * (back c 3).val, 512] := off5_eq c 3
theorem off4_4 (c : Dev nD) : k0_off4 c 4#32 = ![512 * (back c 4).val, 0] := off4_eq c 4
theorem off5_4 (c : Dev nD) : k0_off5 c 4#32 = ![512 * (back c 4).val, 512] := off5_eq c 4
theorem off4_5 (c : Dev nD) : k0_off4 c 5#32 = ![512 * (back c 5).val, 0] := off4_eq c 5
theorem off5_5 (c : Dev nD) : k0_off5 c 5#32 = ![512 * (back c 5).val, 512] := off5_eq c 5
theorem off4_6 (c : Dev nD) : k0_off4 c 6#32 = ![512 * (back c 6).val, 0] := off4_eq c 6
theorem off5_6 (c : Dev nD) : k0_off5 c 6#32 = ![512 * (back c 6).val, 512] := off5_eq c 6
theorem off4_7 (c : Dev nD) : k0_off4 c 7#32 = ![512 * (back c 7).val, 0] := off4_eq c 7
theorem off5_7 (c : Dev nD) : k0_off5 c 7#32 = ![512 * (back c 7).val, 512] := off5_eq c 7

/-- The offsets' closed forms, as instances. -/
instance closedOff_k0_off1_0_0 (c : Dev nD) : ClosedOff (k0_off1 c 0#32 0#32) := ⟨![0, 1024 * (peer c 0).val], off1_0_0 c⟩
instance closedOff_k0_off1_0_1 (c : Dev nD) : ClosedOff (k0_off1 c 0#32 512#32) := ⟨![0, 1024 * (peer c 0).val + 512], off1_0_1 c⟩
instance closedOff_k0_off1_1_0 (c : Dev nD) : ClosedOff (k0_off1 c 1#32 0#32) := ⟨![0, 1024 * (peer c 1).val], off1_1_0 c⟩
instance closedOff_k0_off1_1_1 (c : Dev nD) : ClosedOff (k0_off1 c 1#32 512#32) := ⟨![0, 1024 * (peer c 1).val + 512], off1_1_1 c⟩
instance closedOff_k0_off1_2_0 (c : Dev nD) : ClosedOff (k0_off1 c 2#32 0#32) := ⟨![0, 1024 * (peer c 2).val], off1_2_0 c⟩
instance closedOff_k0_off1_2_1 (c : Dev nD) : ClosedOff (k0_off1 c 2#32 512#32) := ⟨![0, 1024 * (peer c 2).val + 512], off1_2_1 c⟩
instance closedOff_k0_off1_3_0 (c : Dev nD) : ClosedOff (k0_off1 c 3#32 0#32) := ⟨![0, 1024 * (peer c 3).val], off1_3_0 c⟩
instance closedOff_k0_off1_3_1 (c : Dev nD) : ClosedOff (k0_off1 c 3#32 512#32) := ⟨![0, 1024 * (peer c 3).val + 512], off1_3_1 c⟩
instance closedOff_k0_off1_4_0 (c : Dev nD) : ClosedOff (k0_off1 c 4#32 0#32) := ⟨![0, 1024 * (peer c 4).val], off1_4_0 c⟩
instance closedOff_k0_off1_4_1 (c : Dev nD) : ClosedOff (k0_off1 c 4#32 512#32) := ⟨![0, 1024 * (peer c 4).val + 512], off1_4_1 c⟩
instance closedOff_k0_off1_5_0 (c : Dev nD) : ClosedOff (k0_off1 c 5#32 0#32) := ⟨![0, 1024 * (peer c 5).val], off1_5_0 c⟩
instance closedOff_k0_off1_5_1 (c : Dev nD) : ClosedOff (k0_off1 c 5#32 512#32) := ⟨![0, 1024 * (peer c 5).val + 512], off1_5_1 c⟩
instance closedOff_k0_off1_6_0 (c : Dev nD) : ClosedOff (k0_off1 c 6#32 0#32) := ⟨![0, 1024 * (peer c 6).val], off1_6_0 c⟩
instance closedOff_k0_off1_6_1 (c : Dev nD) : ClosedOff (k0_off1 c 6#32 512#32) := ⟨![0, 1024 * (peer c 6).val + 512], off1_6_1 c⟩
instance closedOff_k0_off1_7_0 (c : Dev nD) : ClosedOff (k0_off1 c 7#32 0#32) := ⟨![0, 1024 * (peer c 7).val], off1_7_0 c⟩
instance closedOff_k0_off1_7_1 (c : Dev nD) : ClosedOff (k0_off1 c 7#32 512#32) := ⟨![0, 1024 * (peer c 7).val + 512], off1_7_1 c⟩
instance closedOff_k0_off4_1 (c : Dev nD) : ClosedOff (k0_off4 c 1#32) := ⟨![512 * (back c 1).val, 0], off4_1 c⟩
instance closedOff_k0_off5_1 (c : Dev nD) : ClosedOff (k0_off5 c 1#32) := ⟨![512 * (back c 1).val, 512], off5_1 c⟩
instance closedOff_k0_off4_2 (c : Dev nD) : ClosedOff (k0_off4 c 2#32) := ⟨![512 * (back c 2).val, 0], off4_2 c⟩
instance closedOff_k0_off5_2 (c : Dev nD) : ClosedOff (k0_off5 c 2#32) := ⟨![512 * (back c 2).val, 512], off5_2 c⟩
instance closedOff_k0_off4_3 (c : Dev nD) : ClosedOff (k0_off4 c 3#32) := ⟨![512 * (back c 3).val, 0], off4_3 c⟩
instance closedOff_k0_off5_3 (c : Dev nD) : ClosedOff (k0_off5 c 3#32) := ⟨![512 * (back c 3).val, 512], off5_3 c⟩
instance closedOff_k0_off4_4 (c : Dev nD) : ClosedOff (k0_off4 c 4#32) := ⟨![512 * (back c 4).val, 0], off4_4 c⟩
instance closedOff_k0_off5_4 (c : Dev nD) : ClosedOff (k0_off5 c 4#32) := ⟨![512 * (back c 4).val, 512], off5_4 c⟩
instance closedOff_k0_off4_5 (c : Dev nD) : ClosedOff (k0_off4 c 5#32) := ⟨![512 * (back c 5).val, 0], off4_5 c⟩
instance closedOff_k0_off5_5 (c : Dev nD) : ClosedOff (k0_off5 c 5#32) := ⟨![512 * (back c 5).val, 512], off5_5 c⟩
instance closedOff_k0_off4_6 (c : Dev nD) : ClosedOff (k0_off4 c 6#32) := ⟨![512 * (back c 6).val, 0], off4_6 c⟩
instance closedOff_k0_off5_6 (c : Dev nD) : ClosedOff (k0_off5 c 6#32) := ⟨![512 * (back c 6).val, 512], off5_6 c⟩
instance closedOff_k0_off4_7 (c : Dev nD) : ClosedOff (k0_off4 c 7#32) := ⟨![512 * (back c 7).val, 0], off4_7 c⟩
instance closedOff_k0_off5_7 (c : Dev nD) : ClosedOff (k0_off5 c 7#32) := ⟨![512 * (back c 7).val, 512], off5_7 c⟩

/-! ## The payloads: one product in bf16, one in f32, one widening

  The printed body names each sub-step's value separately; they are the same three functions. -/

theorem pay3_eq (x : Vec F S512x4096 .f32) (w : Vec F S1x4096x512 .f32) : k0_pay3 x w = k0_pay2 x w := rfl
theorem pay6_eq (x : Vec F S512x4096 .f32) (w : Vec F S1x4096x512 .f32) : k0_pay6 x w = k0_pay2 x w := rfl
theorem pay7_eq (x : Vec F S512x4096 .f32) (w : Vec F S1x4096x512 .f32) : k0_pay7 x w = k0_pay2 x w := rfl
theorem pay8_eq (x : Vec F S512x4096 .f32) (w : Vec F S1x4096x512 .f32) : k0_pay8 x w = k0_pay2 x w := rfl
theorem pay11_eq (x : Vec F S512x4096 .f32) (w : Vec F S1x4096x512 .f32) : k0_pay11 x w = k0_pay2 x w := rfl
theorem pay12_eq (x : Vec F S512x4096 .f32) (w : Vec F S1x4096x512 .f32) : k0_pay12 x w = k0_pay2 x w := rfl
theorem pay13_eq (x : Vec F S512x4096 .f32) (w : Vec F S1x4096x512 .f32) : k0_pay13 x w = k0_pay2 x w := rfl
theorem pay16_eq (x : Vec F S512x4096 .f32) (w : Vec F S1x4096x512 .f32) : k0_pay16 x w = k0_pay2 x w := rfl
theorem pay17_eq (x : Vec F S512x4096 .f32) (w : Vec F S1x4096x512 .f32) : k0_pay17 x w = k0_pay2 x w := rfl
theorem pay18_eq (x : Vec F S512x4096 .f32) (w : Vec F S1x4096x512 .f32) : k0_pay18 x w = k0_pay2 x w := rfl
theorem pay5_eq (x : Vec F S512x4096 .f32) (w : Vec F S1x4096x512 .f32) : k0_pay5 (k0_pay4 x) w = k0_pay2 x w := rfl
theorem pay10_eq (x : Vec F S512x4096 .f32) (w : Vec F S1x4096x512 .f32) : k0_pay10 (k0_pay9 x) w = k0_pay2 x w := rfl
theorem pay15_eq (x : Vec F S512x4096 .f32) (w : Vec F S1x4096x512 .f32) : k0_pay15 (k0_pay14 x) w = k0_pay2 x w := rfl
theorem pay20_eq (x : Vec F S512x4096 .f32) (w : Vec F S1x4096x512 .f32) : k0_pay20 (k0_pay19 x) w = k0_pay21 x w := rfl
theorem pay22_eq (g : Vec F S1x512x512 .bf16) : k0_pay22 g = k0_pay1 g := rfl
theorem pay23_eq (g : Vec F S1x512x512 .bf16) : k0_pay23 g = k0_pay1 g := rfl
theorem pay24_eq (g : Vec F S1x512x512 .bf16) : k0_pay24 g = k0_pay1 g := rfl
theorem pay25_eq (g : Vec F S1x512x512 .bf16) : k0_pay25 g = k0_pay1 g := rfl
theorem pay26_eq (g : Vec F S1x512x512 .bf16) : k0_pay26 g = k0_pay1 g := rfl
theorem pay27_eq (g : Vec F S1x512x512 .bf16) : k0_pay27 g = k0_pay1 g := rfl
theorem pay28_eq (g : Vec F S1x512x512 .bf16) : k0_pay28 g = k0_pay1 g := rfl
theorem pay29_eq (g : Vec F S1x512x512 .bf16) : k0_pay29 g = k0_pay1 g := rfl
theorem pay30_eq (g : Vec F S1x512x512 .bf16) : k0_pay30 g = k0_pay1 g := rfl
theorem pay31_eq (g : Vec F S1x512x512 .bf16) : k0_pay31 g = k0_pay1 g := rfl
theorem pay32_eq (g : Vec F S1x512x512 .bf16) : k0_pay32 g = k0_pay1 g := rfl
theorem pay33_eq (g : Vec F S1x512x512 .bf16) : k0_pay33 g = k0_pay1 g := rfl
theorem pay34_eq (g : Vec F S1x512x512 .bf16) : k0_pay34 g = k0_pay1 g := rfl

/-! ## Where a slot's elements sit

  Slot v of a fourteen-slot buffer, viewed 512 × 512, holds index (a, b) at the buffer's (v, a, b). -/

open Idealize.ShloMosaic.ValueIdx in
/-- Dropping the unit axis: index (a, b) of 512 × 512 is index (0, a, b) of 1 × 512 × 512. -/
theorem squeeze_idx (h : S512x512.numel = S1x512x512.numel) (x : S512x512.Idx) :
    Shape.reshapeEquiv h x = (ix3 (n0 := 1) (n1 := 512) (n2 := 512) 0 (x 0) (x 1) : S1x512x512.Idx) := by
  apply Shape.reshapeEquiv_eq_of_rowMajor
  rw [Shape.rowMajor_val_three, Shape.rowMajor_val_two]
  show ((0 : ℕ) * 512 + (x 0).val) * 512 + (x 1).val = (x 0).val * 512 + (x 1).val
  omega

open Idealize.ShloMosaic.ValueIdx in
/-- The unit rectangle at slot v places (0, a, b) at (v, a, b). -/
theorem slotRect_emb (v : Fin 14) (inb) (y : S1x512x512.Idx) :
    (Rect.unit (s := S14x512x512) ![v.val, 0, 0] S1x512x512.size inb).emb y
      = (ix3 (n0 := 14) (n1 := 512) (n2 := 512) v ⟨(y 1).val, (y 1).isLt⟩ ⟨(y 2).val, (y 2).isLt⟩ : S14x512x512.Idx) := by
  have h0 : (y 0).val = 0 := by have := (y 0).isLt; change (y 0).val < 1 at this; omega
  funext a
  apply Fin.ext
  rw [Rect.emb_apply]
  match a with
  | ⟨0, _⟩ => show v.val + 1 * (y 0).val = v.val; omega
  | ⟨1, _⟩ => show 0 + 1 * (y 1).val = (y 1).val; omega
  | ⟨2, _⟩ => show 0 + 1 * (y 2).val = (y 2).val; omega

open Idealize.ShloMosaic.ValueIdx in
/-- Slot v of the send buffer: index x of its 512 × 512 view is the buffer's (v, x 0, x 1). -/
theorem sSlot_emb (v : Fin 14) (x : S512x512.Idx) :
    ((sSlot v).view.emb x : S14x512x512.Idx) = ix3 (n0 := 14) (n1 := 512) (n2 := 512) v (x 0) (x 1) := by
  show (Rect.unit (s := S14x512x512) ![v.val, 0, 0] S1x512x512.size (inb_slot v)).emb (Shape.reshapeEquiv _ x) = _
  rw [squeeze_idx, slotRect_emb]; rfl

open Idealize.ShloMosaic.ValueIdx in
/-- The same of the receive buffer. -/
theorem rSlot_emb (v : Fin 14) (x : S512x512.Idx) :
    ((rSlot v).view.emb x : S14x512x512.Idx) = ix3 (n0 := 14) (n1 := 512) (n2 := 512) v (x 0) (x 1) := by
  show (Rect.unit (s := S14x512x512) ![v.val, 0, 0] S1x512x512.size (inb_slot v)).emb (Shape.reshapeEquiv _ x) = _
  rw [squeeze_idx, slotRect_emb]; rfl

open Idealize.ShloMosaic.ValueIdx in
/-- A block read at every slot alike, at (v, a, b), is the block at (0, a, b). -/
theorem slotBuf_ix3 (g : FVec F S1x512x512 .bf16) (v : Fin 14) (a b : Fin 512) :
    slotBuf g (ix3 (n0 := 14) (n1 := 512) (n2 := 512) v a b) = g (ix3 (n0 := 1) (n1 := 512) (n2 := 512) 0 a b) := rfl

/-! ## What a landing, a store and a load of a slot do -/

/-- The transfer of slot v lands the sender's block: where the sender's slot holds the block g, the target's
    slot, whatever it held, holds g after the write. -/
theorem slot_landing (v : Fin 14) (g : FVec F S1x512x512 .bf16)
    (fd : (rSlot v).view.ty.Contents (Elt F)) (fs : (sSlot v).view.ty.Contents (Elt F))
    (hfs : ∀ i ∈ (sSlot v).view.set, fs i = slotBuf g i) :
    ∀ i ∈ (rSlot v).view.set,
      ((rSlot v).view.write (Elt F) fd ((sSlot v).view.read (Elt F) fs) Finset.univ) i = slotBuf g i := by
  intro i hi
  obtain ⟨x, rfl⟩ := View.exists_emb_of_mem_set _ hi
  rw [View.write_emb_of_mem _ _ (Finset.mem_univ x), View.read_apply, hfs _ ((sSlot v).view.emb_mem_set x)]
  rw [cast_cast, cast_eq]
  exact (congrArg (slotBuf g) (sSlot_emb v x)).trans (congrArg (slotBuf g) (rSlot_emb v x)).symm

open Idealize.ShloMosaic.ValueIdx in
/-- A store of the block g through the unit rectangle at slot v leaves the send buffer holding g on slot v. -/
theorem slot_store (v : Fin 14) (inb) (f : sM.view.ty.Contents (Elt F)) (g : FVec F S1x512x512 .bf16) :
    ∀ i ∈ (sSlot v).view.set,
      ((sM.access (Rect.unit (s := S14x512x512) ![v.val, 0, 0] S1x512x512.size inb)).write (Elt F) f g Finset.univ) i = slotBuf g i := by
  intro i hi
  obtain ⟨x, rfl⟩ := View.exists_emb_of_mem_set _ hi
  have hx : ((sSlot v).view.emb x : S14x512x512.Idx)
      = (sM.access (Rect.unit (s := S14x512x512) ![v.val, 0, 0] S1x512x512.size inb)).emb
          (ix3 (n0 := 1) (n1 := 512) (n2 := 512) 0 (x 0) (x 1)) := by
    rw [sSlot_emb]
    show _ = (Rect.unit (s := S14x512x512) ![v.val, 0, 0] S1x512x512.size inb).emb _
    rw [slotRect_emb]; rfl
  rw [hx, View.write_emb_of_mem _ _ (Finset.mem_univ _), ← hx, sSlot_emb, cast_eq]
  rfl

open Idealize.ShloMosaic.ValueIdx in
/-- A load through the unit rectangle at slot v reads, at (0, a, b), the receive buffer's (v, a, b). -/
theorem rM_readAt_slot (v : Fin 14) (inb) (f : Vec F S14x512x512 .bf16) (y : S1x512x512.Idx) :
    rM.view.readAt (Elt F) (Rect.unit (s := S14x512x512) ![v.val, 0, 0] S1x512x512.size inb).toLoadRect f y
      = f (ix3 (n0 := 14) (n1 := 512) (n2 := 512) v ⟨(y 1).val, (y 1).isLt⟩ ⟨(y 2).val, (y 2).isLt⟩) := by
  rw [View.readAt_apply, View.read_apply, cast_eq]
  exact congrArg f (slotRect_emb v inb y)

open Idealize.ShloMosaic.ValueIdx in
/-- An index of 1 × 512 × 512 is (0, its second, its third coordinate). -/
theorem eq_ix3_unit (y : S1x512x512.Idx) :
    y = (ix3 (n0 := 1) (n1 := 512) (n2 := 512) 0 ⟨(y 1).val, (y 1).isLt⟩ ⟨(y 2).val, (y 2).isLt⟩ : S1x512x512.Idx) := by
  have h0 : (y 0).val = 0 := by have := (y 0).isLt; change (y 0).val < 1 at this; omega
  funext a
  match a with
  | ⟨0, _⟩ => exact Fin.ext h0
  | ⟨1, _⟩ => rfl
  | ⟨2, _⟩ => rfl

/-- A load through the unit rectangle at slot v of a receive buffer that holds the block g at every slot reads g. -/
theorem slot_load (v : Fin 14) (inb) (g : FVec F S1x512x512 .bf16) :
    rM.view.readAt (Elt F) (Rect.unit (s := S14x512x512) ![v.val, 0, 0] S1x512x512.size inb).toLoadRect (slotBuf g) = g := by
  funext y
  rw [rM_readAt_slot, slotBuf_ix3]
  exact congrArg g (eq_ix3_unit y).symm

open Idealize.ShloMosaic.ValueIdx in
/-- The same of any contents that agree with the block on slot v. -/
theorem slot_load_of (v : Fin 14) (inb) (g : FVec F S1x512x512 .bf16) (f : Vec F S14x512x512 .bf16)
    (hf : ∀ i ∈ (rSlot v).view.set, f i = slotBuf g i) :
    rM.view.readAt (Elt F) (Rect.unit (s := S14x512x512) ![v.val, 0, 0] S1x512x512.size inb).toLoadRect f = g := by
  rw [← slot_load v inb g]
  funext y
  rw [rM_readAt_slot, rM_readAt_slot]
  apply hf
  have h := (rSlot v).view.emb_mem_set (ix2 (n0 := 512) (n1 := 512) ⟨(y 1).val, (y 1).isLt⟩ ⟨(y 2).val, (y 2).isLt⟩)
  rw [rSlot_emb] at h
  exact h

/-! ## The weight slab

  A fetch copies columns [1024 j + 512 t, + 512) of the weights into one of the two 4096 × 512 scratch slots;
  the slot read back as a 1 × 4096 × 512 block is the slab of the specification. -/

open Idealize.ShloMosaic.ValueIdx in
/-- Dropping the unit axis: index (a, b) of 4096 × 512 is index (0, a, b) of 1 × 4096 × 512. -/
theorem squeezeK_idx (h : S4096x512.numel = S1x4096x512.numel) (x : S4096x512.Idx) :
    Shape.reshapeEquiv h x = (ix3 (n0 := 1) (n1 := 4096) (n2 := 512) 0 (x 0) (x 1) : S1x4096x512.Idx) := by
  apply Shape.reshapeEquiv_eq_of_rowMajor
  rw [Shape.rowMajor_val_three, Shape.rowMajor_val_two]
  show ((0 : ℕ) * 4096 + (x 0).val) * 512 + (x 1).val = (x 0).val * 512 + (x 1).val
  omega

open Idealize.ShloMosaic.ValueIdx in
/-- The unit rectangle at scratch slot i places (0, a, b) at (i, a, b). -/
theorem slabRect_emb (i : Fin 2) (inb) (y : S1x4096x512.Idx) :
    (Rect.unit (s := S2x4096x512) ![i.val, 0, 0] S1x4096x512.size inb).emb y
      = (ix3 (n0 := 2) (n1 := 4096) (n2 := 512) i ⟨(y 1).val, (y 1).isLt⟩ ⟨(y 2).val, (y 2).isLt⟩ : S2x4096x512.Idx) := by
  have h0 : (y 0).val = 0 := by have := (y 0).isLt; change (y 0).val < 1 at this; omega
  funext a
  apply Fin.ext
  rw [Rect.emb_apply]
  match a with
  | ⟨0, _⟩ => show i.val + 1 * (y 0).val = i.val; omega
  | ⟨1, _⟩ => show 0 + 1 * (y 1).val = (y 1).val; omega
  | ⟨2, _⟩ => show 0 + 1 * (y 2).val = (y 2).val; omega

/-- The rectangle of 512 weight columns from column k places (a, b) at (a, k + b). -/
theorem wRect_emb_val {off : Fin 2 → ℕ} {k : ℕ} (hoff : off = ![0, k]) (inb) (x : S4096x512.Idx) :
    (((Rect.unit (s := S4096x8192) off S4096x512.size inb).emb x 0).val = (x 0).val)
    ∧ (((Rect.unit (s := S4096x8192) off S4096x512.size inb).emb x 1).val = k + (x 1).val) := by
  subst hoff
  refine ⟨?_, ?_⟩
  · rw [Rect.emb_apply]; show 0 + 1 * (x 0).val = (x 0).val; omega
  · rw [Rect.emb_apply]; show k + 1 * (x 1).val = k + (x 1).val; omega

open Idealize.ShloMosaic.ValueIdx in
/-- Scratch slot i after columns [1024 j + 512 t, + 512) of W were copied into it, read back as a block: the slab. -/
theorem slab_read (i : Fin 2) (j : Fin 8) (t : Fin 2) {off : Fin 2 → ℕ} (hoff : off = ![0, 1024 * j.val + 512 * t.val])
    (inbW) (inbK) (inbK') (fd : Vec F S2x4096x512 .f32) (W : Vec F S4096x8192 .f32) :
    kM.view.readAt (Elt F) (Rect.unit (s := S2x4096x512) ![i.val, 0, 0] S1x4096x512.size inbK').toLoadRect
      (((kM.slice (Rect.unit (s := S2x4096x512) ![i.val, 0, 0] S1x4096x512.size inbK) (fun _ => rfl)).squeeze S4096x512
          squeezes_S1x4096x512_S4096x512).view.write (Elt F) fd
        ((wM.slice (Rect.unit (s := S4096x8192) off S4096x512.size inbW) (fun _ => rfl)).view.read (Elt F) W) Finset.univ)
      = wslab W j t := by
  funext y
  rw [View.readAt_apply, View.read_apply, cast_eq]
  have hy : (kM.view.emb ((Rect.unit (s := S2x4096x512) ![i.val, 0, 0] S1x4096x512.size inbK').toLoadRect.idx y) : S2x4096x512.Idx)
      = ((kM.slice (Rect.unit (s := S2x4096x512) ![i.val, 0, 0] S1x4096x512.size inbK) (fun _ => rfl)).squeeze S4096x512
          squeezes_S1x4096x512_S4096x512).view.emb (ix2 (n0 := 4096) (n1 := 512) ⟨(y 1).val, (y 1).isLt⟩ ⟨(y 2).val, (y 2).isLt⟩) := by
    show (Rect.unit (s := S2x4096x512) ![i.val, 0, 0] S1x4096x512.size inbK').emb y
      = (Rect.unit (s := S2x4096x512) ![i.val, 0, 0] S1x4096x512.size inbK).emb (Shape.reshapeEquiv _ _)
    rw [squeezeK_idx, slabRect_emb, slabRect_emb]
  rw [hy, View.write_emb_of_mem _ _ (Finset.mem_univ _), cast_eq, View.read_apply, cast_eq]
  obtain ⟨h0, h1⟩ := wRect_emb_val hoff inbW (ix2 (n0 := 4096) (n1 := 512) ⟨(y 1).val, (y 1).isLt⟩ ⟨(y 2).val, (y 2).isLt⟩)
  unfold wslab
  refine congrArg W (funext fun a => Fin.ext ?_)
  match a with
  | ⟨0, _⟩ => exact h0
  | ⟨1, _⟩ => exact h1

/-! ## The result buffer

  Device c's 4096 × 1024 result array is tiled by sixteen 512 × 512 blocks: rows 512 c hold its own two products in
  f32; rows 512 p, for p the device s places back (s = 1 … 7), hold the two blocks p sent, widened. -/

/-- What the transfer of slot v carries to device c: the block the device shiftOf v places back computed against
    c's columns. -/
theorem sent_back (c : Dev nD) (v : Fin 14) :
    sent m (back c (shiftOf v)) v
      = k0_pay2 (xs m (back c (shiftOf v))) (wslab (ws m (back c (shiftOf v))) c (halfOf v)) := by
  unfold sent; rw [peer_back]

theorem back_ne (c : Dev nD) (s : Fin 8) (hs : s ≠ 0) : back c s ≠ c := by revert c s; decide

/-- Every device is some number of places back from c; c itself only at zero places. -/
theorem exists_back (c p : Dev nD) : ∃ s : Fin 8, back c s = p ∧ (s = 0 ↔ p = c) := by revert c p; decide

/-- A 512 × 512 rectangle of the result array from row r, column k places (a, b) at (r + a, k + b). -/
theorem outRect_emb_val {off : Fin 2 → ℕ} {r k : ℕ} (hoff : off = ![r, k]) (inb) (x : S512x512.Idx) :
    (((Rect.unit (s := S4096x1024) off S512x512.size inb).emb x 0).val = r + (x 0).val)
    ∧ (((Rect.unit (s := S4096x1024) off S512x512.size inb).emb x 1).val = k + (x 1).val) := by
  subst hoff
  refine ⟨?_, ?_⟩
  · rw [Rect.emb_apply]; show r + 1 * (x 0).val = r + (x 0).val; omega
  · rw [Rect.emb_apply]; show k + 1 * (x 1).val = k + (x 1).val; omega

open Idealize.ShloMosaic.ValueIdx in
/-- The specification's array on the device's own row block. -/
theorem outAt_own (X : Dev nD → Vec F S512x4096 .f32) (W : Dev nD → Vec F S4096x8192 .f32) (c : Dev nD) (t : Fin 2)
    (i : S4096x1024.Idx) (x : S512x512.Idx)
    (h0 : (i 0).val = 512 * c.val + (x 0).val) (h1 : (i 1).val = 512 * t.val + (x 1).val) :
    outAt X W c i = k0_pay21 (X c) (wslab (W c) c t) x := by
  have hx0 : (x 0).val < 512 := (x 0).isLt
  have hx1 : (x 1).val < 512 := (x 1).isLt
  have hp : (⟨(i 0).val / 512, by have := (i 0).isLt; change (i 0).val < 4096 at this; omega⟩ : Fin 8) = c := Fin.ext (by show (i 0).val / 512 = c.val; omega)
  have ht : (⟨(i 1).val / 512, by have := (i 1).isLt; change (i 1).val < 1024 at this; omega⟩ : Fin 2) = t := Fin.ext (by show (i 1).val / 512 = t.val; omega)
  have hr : (ix2 (n0 := 512) (n1 := 512) ⟨(i 0).val % 512, Nat.mod_lt _ (by decide)⟩ ⟨(i 1).val % 512, Nat.mod_lt _ (by decide)⟩ : S512x512.Idx) = x := by
    funext a
    match a with
    | ⟨0, _⟩ => exact Fin.ext (by show (i 0).val % 512 = (x 0).val; omega)
    | ⟨1, _⟩ => exact Fin.ext (by show (i 1).val % 512 = (x 1).val; omega)
  show (if (⟨(i 0).val / 512, _⟩ : Fin 8) = c then k0_pay21 (X c) (wslab (W c) c ⟨(i 1).val / 512, _⟩) (ix2 ⟨(i 0).val % 512, _⟩ ⟨(i 1).val % 512, _⟩) else _) = _
  rw [if_pos hp, ht, hr]

open Idealize.ShloMosaic.ValueIdx in
/-- The specification's array on the row block of another device p. -/
theorem outAt_recv (X : Dev nD → Vec F S512x4096 .f32) (W : Dev nD → Vec F S4096x8192 .f32) (c p : Dev nD) (hpc : p ≠ c) (t : Fin 2)
    (i : S4096x1024.Idx) (x : S512x512.Idx)
    (h0 : (i 0).val = 512 * p.val + (x 0).val) (h1 : (i 1).val = 512 * t.val + (x 1).val) :
    outAt X W c i = k0_pay1 (k0_pay2 (X p) (wslab (W p) c t)) x := by
  have hx0 : (x 0).val < 512 := (x 0).isLt
  have hx1 : (x 1).val < 512 := (x 1).isLt
  have hp : (⟨(i 0).val / 512, by have := (i 0).isLt; change (i 0).val < 4096 at this; omega⟩ : Fin 8) = p := Fin.ext (by show (i 0).val / 512 = p.val; omega)
  have ht : (⟨(i 1).val / 512, by have := (i 1).isLt; change (i 1).val < 1024 at this; omega⟩ : Fin 2) = t := Fin.ext (by show (i 1).val / 512 = t.val; omega)
  have hr : (ix2 (n0 := 512) (n1 := 512) ⟨(i 0).val % 512, Nat.mod_lt _ (by decide)⟩ ⟨(i 1).val % 512, Nat.mod_lt _ (by decide)⟩ : S512x512.Idx) = x := by
    funext a
    match a with
    | ⟨0, _⟩ => exact Fin.ext (by show (i 0).val % 512 = (x 0).val; omega)
    | ⟨1, _⟩ => exact Fin.ext (by show (i 1).val % 512 = (x 1).val; omega)
  show (if (⟨(i 0).val / 512, _⟩ : Fin 8) = c then _ else k0_pay1 (k0_pay2 (X ⟨(i 0).val / 512, _⟩) (wslab (W ⟨(i 0).val / 512, _⟩) c ⟨(i 1).val / 512, _⟩)) (ix2 ⟨(i 0).val % 512, _⟩ ⟨(i 1).val % 512, _⟩)) = _
  rw [if_neg (by rw [hp]; exact hpc), hp, ht, hr]

open Idealize.ShloMosaic.ValueIdx in
/-- A block stored at rows 512 c, columns 512 t holding the device's own product is the specification's there. -/
theorem own_piece (c : Dev nD) (t : Fin 2) {off : Fin 2 → ℕ} (hoff : off = ![512 * c.val, 512 * t.val]) (inb) (x : S512x512.Idx) :
    k0_pay21 (xs m c) (wslab (ws m c) c t) x
      = outC m c ((Rect.unit (s := S4096x1024) off S512x512.size inb).emb x) := by
  obtain ⟨h0, h1⟩ := outRect_emb_val hoff inb x
  exact (outAt_own (xs m) (ws m) c t _ x h0 h1).symm

/-- A block stored at rows 512 p, columns 512 t, p the device s ≠ 0 places back, holding what p sent, widened, is the
    specification's there. -/
theorem recv_piece (c : Dev nD) (s : Fin 8) (hs : s ≠ 0) (t : Fin 2) {off : Fin 2 → ℕ}
    (hoff : off = ![512 * (back c s).val, 512 * t.val]) (inb) (x : S512x512.Idx) :
    k0_pay1 (k0_pay2 (xs m (back c s)) (wslab (ws m (back c s)) c t)) x
      = outC m c ((Rect.unit (s := S4096x1024) off S512x512.size inb).emb x) := by
  obtain ⟨h0, h1⟩ := outRect_emb_val hoff inb x
  exact (outAt_recv (xs m) (ws m) c (back c s) (back_ne c s hs) t _ x h0 h1).symm

/-- Fourteen blocks — for every shift s ≠ 0 the two of the device s places back — cover the result array off the
    device's own row block. -/
theorem out_cover (c : Dev nD) (L : List (View.Piece (Elt F) S4096x1024 .f32))
    (hL : ∀ s : Fin 8, s ≠ 0 → ∀ t : Fin 2, ∃ p ∈ L, ∃ inb, p.1 = Rect.unit (s := S4096x1024) ![512 * (back c s).val, 512 * t.val] S512x512.size inb) :
    ∀ y : S4096x1024.Idx, (y 0).val / 512 ≠ c.val → ∃ p ∈ L, y ∈ p.1.set := by
  intro y hyc
  have hy0 : (y 0).val < 4096 := (y 0).isLt
  have hy1 : (y 1).val < 1024 := (y 1).isLt
  obtain ⟨s, hs, hs0⟩ := exists_back c ⟨(y 0).val / 512, by show (y 0).val / 512 < 8; omega⟩
  have hsne : s ≠ 0 := fun h => hyc (congrArg Fin.val (hs0.mp h))
  obtain ⟨p, hp, inb, hr⟩ := hL s hsne ⟨(y 1).val / 512, by omega⟩
  refine ⟨p, hp, ?_⟩
  rw [hr, Rect.mem_set_unit]
  have hsv : (back c s).val = (y 0).val / 512 := congrArg Fin.val hs
  intro a
  match a with
  | ⟨0, _⟩ =>
    show 512 * (back c s).val ≤ (y 0).val ∧ (y 0).val < 512 * (back c s).val + 512
    omega
  | ⟨1, _⟩ =>
    show 512 * ((y 1).val / 512) ≤ (y 1).val ∧ (y 1).val < 512 * ((y 1).val / 512) + 512
    omega

/-- Stores into the result buffer, each holding the specification's values under its rectangle, over contents that are
    the specification's wherever no store reaches, leave the specification's array. -/
theorem out_assemble (c : Dev nD) (fo : Vec F S4096x1024 .f32) (L : List (View.Piece (Elt F) S4096x1024 .f32))
    (hpieces : ∀ p ∈ L, ∀ x : p.1.shape.Idx, p.2 x = outC m c (p.1.emb x))
    (hrest : ∀ y : S4096x1024.Idx, (∀ p ∈ L, y ∉ p.1.set) → fo y = outC m c y) :
    oM.view.writes (Elt F) fo L = outC m c := by
  funext y
  by_cases h : ∃ p ∈ L, y ∈ p.1.set
  · exact View.read_writes_apply_of_pieces oM.view fo (outC m c) L hpieces y h
  · have h' : ∀ p ∈ L, y ∉ p.1.set := fun p hp hy => h ⟨p, hp, hy⟩
    exact (View.read_writes_apply_of_forall_not_mem oM.view fo y L h').trans (hrest y h')

/-- An element some store covers, after stores into the result buffer that all agree with one array, holds that array's value. -/
theorem oM_writes_apply_of_pieces (f : Vec F S4096x1024 .f32) (G : Vec F S4096x1024 .f32) (L : List (View.Piece (Elt F) S4096x1024 .f32))
    (hpieces : ∀ p ∈ L, ∀ x : p.1.shape.Idx, p.2 x = G (p.1.emb x)) (y : S4096x1024.Idx) (hc : ∃ p ∈ L, y ∈ p.1.set) :
    oM.view.writes (Elt F) f L y = G y :=
  View.read_writes_apply_of_pieces oM.view f G L hpieces y hc

/-- The device's own two products, stored at its own row block over any contents, make that row block the
    specification's. The offsets are any equal to the closed forms. -/
theorem own_blocks_aux (c : Dev nD) (f : Vec F S4096x1024 .f32) {o2 o3 : Fin 2 → ℕ}
    (inb2 : ∀ a, o2 a + S512x512.size a ≤ S4096x1024.size a) (inb3 : ∀ a, o3 a + S512x512.size a ≤ S4096x1024.size a)
    (h2 : o2 = ![512 * c.val, 0]) (h3 : o3 = ![512 * c.val, 512]) :
    ∀ i : S4096x1024.Idx, (i 0).val / 512 = c.val →
      oM.view.writes (Elt F) f
        [(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] i
        = outC m c i := by
  intro i hi
  have hi0 : (i 0).val < 4096 := (i 0).isLt
  have hi1 : (i 1).val < 1024 := (i 1).isLt
  have hpieces : ∀ p ∈ ([(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] : List (View.Piece (Elt F) S4096x1024 .f32)), ∀ x : p.1.shape.Idx, p.2 x = outC m c (p.1.emb x) := by
    intro p hp x
    simp only [List.mem_cons, List.not_mem_nil, _root_.or_false] at hp
    rcases hp with rfl | rfl
    · exact own_piece m c 1 h3 inb3 x
    · exact own_piece m c 0 h2 inb2 x
  have hcov : ∃ p ∈ ([(⟨Rect.unit (s := S4096x1024) o3 S512x512.size inb3, k0_pay21 (xs m c) (wslab (ws m c) c 1)⟩ : View.Piece (Elt F) S4096x1024 .f32),
         (⟨Rect.unit (s := S4096x1024) o2 S512x512.size inb2, k0_pay21 (xs m c) (wslab (ws m c) c 0)⟩ : View.Piece (Elt F) S4096x1024 .f32)] : List (View.Piece (Elt F) S4096x1024 .f32)), i ∈ p.1.set := by
    subst h2 h3
    by_cases ht : (i 1).val < 512
    · refine ⟨_, .tail _ (.head _), ?_⟩
      rw [Rect.mem_set_unit]
      intro a
      match a with
      | ⟨0, _⟩ => show 512 * c.val ≤ (i 0).val ∧ (i 0).val < 512 * c.val + 512; omega
      | ⟨1, _⟩ => show 0 ≤ (i 1).val ∧ (i 1).val < 0 + 512; omega
    · refine ⟨_, .head _, ?_⟩
      rw [Rect.mem_set_unit]
      intro a
      match a with
      | ⟨0, _⟩ => show 512 * c.val ≤ (i 0).val ∧ (i 0).val < 512 * c.val + 512; omega
      | ⟨1, _⟩ => show 512 ≤ (i 1).val ∧ (i 1).val < 512 + 512; omega
  exact oM_writes_apply_of_pieces f (outC m c) _ hpieces i hcov

/-- The same at the printed offsets. -/
theorem own_blocks (c : Dev nD) (f : Vec F S4096x1024 .f32) :
    ∀ i : S4096x1024.Idx, (i 0).val / 512 = c.val →
      ((oM.access (Rect.unit (s := S4096x1024) (k0_off3 c) S512x512.size (k0_off3_inb c))).write (Elt F)
        ((oM.access (Rect.unit (s := S4096x1024) (k0_off2 c) S512x512.size (k0_off2_inb c))).write (Elt F) f
          (k0_pay21 (xs m c) (wslab (ws m c) c 0)) Finset.univ)
        (k0_pay21 (xs m c) (wslab (ws m c) c 1)) Finset.univ) i = outC m c i :=
  own_blocks_aux m c f (k0_off2_inb c) (k0_off3_inb c) (k0_off2_eq c) (k0_off3_eq c)

/-- The fourteen stores of the received blocks — for each shift s = 1 … 7 the two widened blocks of the device s places
    back, at rows 512 (back c s) — over contents that are the specification's on the device's own row block, leave the
    specification's array; the last store heads the list. The offsets and payloads are any equal to the closed forms. -/
theorem out_final_aux (c : Dev nD) (fo : Vec F S4096x1024 .f32)
    (hown : ∀ i : S4096x1024.Idx, (i 0).val / 512 = c.val → fo i = outC m c i)
    {o2 o3 o4 o5 o6 o7 o8 o9 o10 o11 o12 o13 o14 o15 : Fin 2 → ℕ}
    (inb2 : ∀ a, o2 a + S512x512.size a ≤ S4096x1024.size a)
    (inb3 : ∀ a, o3 a + S512x512.size a ≤ S4096x1024.size a)
    (inb4 : ∀ a, o4 a + S512x512.size a ≤ S4096x1024.size a)
    (inb5 : ∀ a, o5 a + S512x512.size a ≤ S4096x1024.size a)
    (inb6 : ∀ a, o6 a + S512x512.size a ≤ S4096x1024.size a)
    (inb7 : ∀ a, o7 a + S512x512.size a ≤ S4096x1024.size a)
    (inb8 : ∀ a, o8 a + S512x512.size a ≤ S4096x1024.size a)
    (inb9 : ∀ a, o9 a + S512x512.size a ≤ S4096x1024.size a)
    (inb10 : ∀ a, o10 a + S512x512.size a ≤ S4096x1024.size a)
    (inb11 : ∀ a, o11 a + S512x512.size a ≤ S4096x1024.size a)
    (inb12 : ∀ a, o12 a + S512x512.size a ≤ S4096x1024.size a)
    (inb13 : ∀ a, o13 a + S512x512.size a ≤ S4096x1024.size a)
    (inb14 : ∀ a, o14 a + S512x512.size a ≤ S4096x1024.size a)
    (inb15 : ∀ a, o15 a + S512x512.size a ≤ S4096x1024.size a)
    {w2 w3 w4 w5 w6 w7 w8 w9 w10 w11 w12 w13 w14 w15 : FVec F S512x512 .f32}
    (ho2 : o2 = ![512 * (back c 1).val, 0])
    (ho3 : o3 = ![512 * (back c 1).val, 512])
    (ho4 : o4 = ![512 * (back c 2).val, 0])
    (ho5 : o5 = ![512 * (back c 2).val, 512])
    (ho6 : o6 = ![512 * (back c 3).val, 0])
    (ho7 : o7 = ![512 * (back c 3).val, 512])
    (ho8 : o8 = ![512 * (back c 4).val, 0])
    (ho9 : o9 = ![512 * (back c 4).val, 512])
    (ho10 : o10 = ![512 * (back c 5).val, 0])
    (ho11 : o11 = ![512 * (back c 5).val, 512])
    (ho12 : o12 = ![512 * (back c 6).val, 0])
    (ho13 : o13 = ![512 * (back c 6).val, 512])
    (ho14 : o14 = ![512 * (back c 7).val, 0])
    (ho15 : o15 = ![512 * (back c 7).val, 512])
    (hw2 : w2 = k0_pay1 (sent m (back c (shiftOf 0)) 0))
    (hw3 : w3 = k0_pay1 (sent m (back c (shiftOf 1)) 1))
    (hw4 : w4 = k0_pay1 (sent m (back c (shiftOf 2)) 2))
    (hw5 : w5 = k0_pay1 (sent m (back c (shiftOf 3)) 3))
    (hw6 : w6 = k0_pay1 (sent m (back c (shiftOf 4)) 4))
    (hw7 : w7 = k0_pay1 (sent m (back c (shiftOf 5)) 5))
    (hw8 : w8 = k0_pay1 (sent m (back c (shiftOf 6)) 6))
    (hw9 : w9 = k0_pay1 (sent m (back c (shiftOf 7)) 7))
    (hw10 : w10 = k0_pay1 (sent m (back c (shiftOf 8)) 8))
    (hw11 : w11 = k0_pay1 (sent m (back c (shiftOf 9)) 9))
    (hw12 : w12 = k0_pay1 (sent m (back c (shiftOf 10)) 10))
    (hw13 : w13 = k0_pay1 (sent m (back c (shiftOf 11)) 11))
    (hw14 : w14 = k0_pay1 (sent m (back c (shiftOf 12)) 12))
    (hw15 : w15 = k0_pay1 (sent m (back c (shiftOf 13)) 13)) :
    oM.view.writes (Elt F) fo
      [(⟨Rect.unit (s := S4096x1024) o15 S512x512.size inb15, w15⟩ : View.Piece (Elt F) S4096x1024 .f32),
       (⟨Rect.unit (s := S4096x1024) o14 S512x512.size inb14, w14⟩ : View.Piece (Elt F) S4096x1024 .f32),
       (⟨Rect.unit (s := S4096x1024) o13 S512x512.size inb13, w13⟩ : View.Piece (Elt F) S4096x1024 .f32),
       (⟨Rect.unit (s := S4096x1024) o12 S512x512.size inb12, w12⟩ : View.Piece (Elt F) S4096x1024 .f32),
       (⟨Rect.unit (s := S4096x1024) o11 S512x512.size inb11, w11⟩ : View.Piece (Elt F) S4096x1024 .f32),
       (⟨Rect.unit (s := S4096x1024) o10 S512x512.size inb10, w10⟩ : View.Piece (Elt F) S4096x1024 .f32),
       (⟨Rect.unit (s := S4096x1024) o9 S512x512.size inb9, w9⟩ : View.Piece (Elt F) S4096x1024 .f32),
       (⟨Rect.unit (s := S4096x1024) o8 S512x512.size inb8, w8⟩ : View.Piece (Elt F) S4096x1024 .f32),
       (⟨Rect.unit (s := S4096x1024) o7 S512x512.size inb7, w7⟩ : View.Piece (Elt F) S4096x1024 .f32),
       (⟨Rect.unit (s := S4096x1024) o6 S512x512.size inb6, w6⟩ : View.Piece (Elt F) S4096x1024 .f32),
       (⟨Rect.unit (s := S4096x1024) o5 S512x512.size inb5, w5⟩ : View.Piece (Elt F) S4096x1024 .f32),
       (⟨Rect.unit (s := S4096x1024) o4 S512x512.size inb4, w4⟩ : View.Piece (Elt F) S4096x1024 .f32),
       (⟨Rect.unit (s := S4096x1024) o3 S512x512.size inb3, w3⟩ : View.Piece (Elt F) S4096x1024 .f32),
       (⟨Rect.unit (s := S4096x1024) o2 S512x512.size inb2, w2⟩ : View.Piece (Elt F) S4096x1024 .f32)]
      = outC m c := by
  apply out_assemble
  · intro p hp x
    simp only [List.mem_cons, List.not_mem_nil, _root_.or_false] at hp
    subst hw2
    subst hw3
    subst hw4
    subst hw5
    subst hw6
    subst hw7
    subst hw8
    subst hw9
    subst hw10
    subst hw11
    subst hw12
    subst hw13
    subst hw14
    subst hw15
    rcases hp with rfl | rfl | rfl | rfl | rfl | rfl | rfl | rfl | rfl | rfl | rfl | rfl | rfl | rfl
    · exact (congrArg (fun g => k0_pay1 g x) (sent_back m c 13)).trans (recv_piece m c (shiftOf 13) (by decide) (halfOf 13) ho15 inb15 x)
    · exact (congrArg (fun g => k0_pay1 g x) (sent_back m c 12)).trans (recv_piece m c (shiftOf 12) (by decide) (halfOf 12) ho14 inb14 x)
    · exact (congrArg (fun g => k0_pay1 g x) (sent_back m c 11)).trans (recv_piece m c (shiftOf 11) (by decide) (halfOf 11) ho13 inb13 x)
    · exact (congrArg (fun g => k0_pay1 g x) (sent_back m c 10)).trans (recv_piece m c (shiftOf 10) (by decide) (halfOf 10) ho12 inb12 x)
    · exact (congrArg (fun g => k0_pay1 g x) (sent_back m c 9)).trans (recv_piece m c (shiftOf 9) (by decide) (halfOf 9) ho11 inb11 x)
    · exact (congrArg (fun g => k0_pay1 g x) (sent_back m c 8)).trans (recv_piece m c (shiftOf 8) (by decide) (halfOf 8) ho10 inb10 x)
    · exact (congrArg (fun g => k0_pay1 g x) (sent_back m c 7)).trans (recv_piece m c (shiftOf 7) (by decide) (halfOf 7) ho9 inb9 x)
    · exact (congrArg (fun g => k0_pay1 g x) (sent_back m c 6)).trans (recv_piece m c (shiftOf 6) (by decide) (halfOf 6) ho8 inb8 x)
    · exact (congrArg (fun g => k0_pay1 g x) (sent_back m c 5)).trans (recv_piece m c (shiftOf 5) (by decide) (halfOf 5) ho7 inb7 x)
    · exact (congrArg (fun g => k0_pay1 g x) (sent_back m c 4)).trans (recv_piece m c (shiftOf 4) (by decide) (halfOf 4) ho6 inb6 x)
    · exact (congrArg (fun g => k0_pay1 g x) (sent_back m c 3)).trans (recv_piece m c (shiftOf 3) (by decide) (halfOf 3) ho5 inb5 x)
    · exact (congrArg (fun g => k0_pay1 g x) (sent_back m c 2)).trans (recv_piece m c (shiftOf 2) (by decide) (halfOf 2) ho4 inb4 x)
    · exact (congrArg (fun g => k0_pay1 g x) (sent_back m c 1)).trans (recv_piece m c (shiftOf 1) (by decide) (halfOf 1) ho3 inb3 x)
    · exact (congrArg (fun g => k0_pay1 g x) (sent_back m c 0)).trans (recv_piece m c (shiftOf 0) (by decide) (halfOf 0) ho2 inb2 x)
  · intro y hy
    refine hown y (Classical.byContradiction fun hne => ?_)
    refine absurd (out_cover (F := F) c _ (fun s hs t => ?_) y hne) (fun h => h.elim fun p hp => hy p hp.1 hp.2)
    subst ho2
    subst ho3
    subst ho4
    subst ho5
    subst ho6
    subst ho7
    subst ho8
    subst ho9
    subst ho10
    subst ho11
    subst ho12
    subst ho13
    subst ho14
    subst ho15
    fin_cases s <;> fin_cases t
    · exact absurd rfl hs
    · exact absurd rfl hs
    · exact ⟨⟨Rect.unit _ S512x512.size inb2, w2⟩, (.tail _ (.tail _ (.tail _ (.tail _ (.tail _ (.tail _ (.tail _ (.tail _ (.tail _ (.tail _ (.tail _ (.tail _ (.tail _ (.head _)))))))))))))), inb2, rfl⟩
    · exact ⟨⟨Rect.unit _ S512x512.size inb3, w3⟩, (.tail _ (.tail _ (.tail _ (.tail _ (.tail _ (.tail _ (.tail _ (.tail _ (.tail _ (.tail _ (.tail _ (.tail _ (.head _))))))))))))), inb3, rfl⟩
    · exact ⟨⟨Rect.unit _ S512x512.size inb4, w4⟩, (.tail _ (.tail _ (.tail _ (.tail _ (.tail _ (.tail _ (.tail _ (.tail _ (.tail _ (.tail _ (.tail _ (.head _)))))))))))), inb4, rfl⟩
    · exact ⟨⟨Rect.unit _ S512x512.size inb5, w5⟩, (.tail _ (.tail _ (.tail _ (.tail _ (.tail _ (.tail _ (.tail _ (.tail _ (.tail _ (.tail _ (.head _))))))))))), inb5, rfl⟩
    · exact ⟨⟨Rect.unit _ S512x512.size inb6, w6⟩, (.tail _ (.tail _ (.tail _ (.tail _ (.tail _ (.tail _ (.tail _ (.tail _ (.tail _ (.head _)))))))))), inb6, rfl⟩
    · exact ⟨⟨Rect.unit _ S512x512.size inb7, w7⟩, (.tail _ (.tail _ (.tail _ (.tail _ (.tail _ (.tail _ (.tail _ (.tail _ (.head _))))))))), inb7, rfl⟩
    · exact ⟨⟨Rect.unit _ S512x512.size inb8, w8⟩, (.tail _ (.tail _ (.tail _ (.tail _ (.tail _ (.tail _ (.tail _ (.head _)))))))), inb8, rfl⟩
    · exact ⟨⟨Rect.unit _ S512x512.size inb9, w9⟩, (.tail _ (.tail _ (.tail _ (.tail _ (.tail _ (.tail _ (.head _))))))), inb9, rfl⟩
    · exact ⟨⟨Rect.unit _ S512x512.size inb10, w10⟩, (.tail _ (.tail _ (.tail _ (.tail _ (.tail _ (.head _)))))), inb10, rfl⟩
    · exact ⟨⟨Rect.unit _ S512x512.size inb11, w11⟩, (.tail _ (.tail _ (.tail _ (.tail _ (.head _))))), inb11, rfl⟩
    · exact ⟨⟨Rect.unit _ S512x512.size inb12, w12⟩, (.tail _ (.tail _ (.tail _ (.head _)))), inb12, rfl⟩
    · exact ⟨⟨Rect.unit _ S512x512.size inb13, w13⟩, (.tail _ (.tail _ (.head _))), inb13, rfl⟩
    · exact ⟨⟨Rect.unit _ S512x512.size inb14, w14⟩, (.tail _ (.head _)), inb14, rfl⟩
    · exact ⟨⟨Rect.unit _ S512x512.size inb15, w15⟩, (.head _), inb15, rfl⟩

/-- The same at the printed offsets and payloads, as nested writes: slot 0's block stored first, slot 13's last. -/
theorem out_final (c : Dev nD) (fo : Vec F S4096x1024 .f32)
    (hown : ∀ i : S4096x1024.Idx, (i 0).val / 512 = c.val → fo i = outC m c i) :
    ((oM.access (Rect.unit (s := S4096x1024) (k0_off5 c 7#32) S512x512.size (k0_off5_inb c 6))).write (Elt F)
      ((oM.access (Rect.unit (s := S4096x1024) (k0_off4 c 7#32) S512x512.size (k0_off4_inb c 6))).write (Elt F)
      ((oM.access (Rect.unit (s := S4096x1024) (k0_off5 c 6#32) S512x512.size (k0_off5_inb c 5))).write (Elt F)
      ((oM.access (Rect.unit (s := S4096x1024) (k0_off4 c 6#32) S512x512.size (k0_off4_inb c 5))).write (Elt F)
      ((oM.access (Rect.unit (s := S4096x1024) (k0_off5 c 5#32) S512x512.size (k0_off5_inb c 4))).write (Elt F)
      ((oM.access (Rect.unit (s := S4096x1024) (k0_off4 c 5#32) S512x512.size (k0_off4_inb c 4))).write (Elt F)
      ((oM.access (Rect.unit (s := S4096x1024) (k0_off5 c 4#32) S512x512.size (k0_off5_inb c 3))).write (Elt F)
      ((oM.access (Rect.unit (s := S4096x1024) (k0_off4 c 4#32) S512x512.size (k0_off4_inb c 3))).write (Elt F)
      ((oM.access (Rect.unit (s := S4096x1024) (k0_off5 c 3#32) S512x512.size (k0_off5_inb c 2))).write (Elt F)
      ((oM.access (Rect.unit (s := S4096x1024) (k0_off4 c 3#32) S512x512.size (k0_off4_inb c 2))).write (Elt F)
      ((oM.access (Rect.unit (s := S4096x1024) (k0_off5 c 2#32) S512x512.size (k0_off5_inb c 1))).write (Elt F)
      ((oM.access (Rect.unit (s := S4096x1024) (k0_off4 c 2#32) S512x512.size (k0_off4_inb c 1))).write (Elt F)
      ((oM.access (Rect.unit (s := S4096x1024) (k0_off5 c 1#32) S512x512.size (k0_off5_inb c 0))).write (Elt F)
      ((oM.access (Rect.unit (s := S4096x1024) (k0_off4 c 1#32) S512x512.size (k0_off4_inb c 0))).write (Elt F)
      fo
      (k0_pay1 (sent m (back c (shiftOf 0)) 0)) Finset.univ)
      (k0_pay1 (sent m (back c (shiftOf 1)) 1)) Finset.univ)
      (k0_pay1 (sent m (back c (shiftOf 2)) 2)) Finset.univ)
      (k0_pay1 (sent m (back c (shiftOf 3)) 3)) Finset.univ)
      (k0_pay1 (sent m (back c (shiftOf 4)) 4)) Finset.univ)
      (k0_pay1 (sent m (back c (shiftOf 5)) 5)) Finset.univ)
      (k0_pay1 (sent m (back c (shiftOf 6)) 6)) Finset.univ)
      (k0_pay1 (sent m (back c (shiftOf 7)) 7)) Finset.univ)
      (k0_pay1 (sent m (back c (shiftOf 8)) 8)) Finset.univ)
      (k0_pay1 (sent m (back c (shiftOf 9)) 9)) Finset.univ)
      (k0_pay1 (sent m (back c (shiftOf 10)) 10)) Finset.univ)
      (k0_pay1 (sent m (back c (shiftOf 11)) 11)) Finset.univ)
      (k0_pay1 (sent m (back c (shiftOf 12)) 12)) Finset.univ)
      (k0_pay1 (sent m (back c (shiftOf 13)) 13)) Finset.univ)
      = outC m c :=
  out_final_aux m c fo hown
    (k0_off4_inb c 0) (k0_off5_inb c 0) (k0_off4_inb c 1) (k0_off5_inb c 1) (k0_off4_inb c 2) (k0_off5_inb c 2) (k0_off4_inb c 3) (k0_off5_inb c 3) (k0_off4_inb c 4) (k0_off5_inb c 4) (k0_off4_inb c 5) (k0_off5_inb c 5) (k0_off4_inb c 6) (k0_off5_inb c 6)
    (off4_1 c) (off5_1 c) (off4_2 c) (off5_2 c) (off4_3 c) (off5_3 c) (off4_4 c) (off5_4 c) (off4_5 c) (off5_5 c) (off4_6 c) (off5_6 c) (off4_7 c) (off5_7 c)
    rfl rfl rfl rfl rfl rfl rfl rfl rfl rfl rfl rfl rfl rfl

/-! ## Two fetches read disjoint columns of the weights -/

theorem peer_inj (c : Dev nD) (s s' : Fin 8) (h : peer c s = peer c s') : s = s' := by revert c s s'; decide

/-- Two 512-column rectangles of the weights starting 512 or more apart share no element. -/
theorem wRect_disjoint {off off' : Fin 2 → ℕ} {k k' : ℕ} (hoff : off = ![0, k]) (hoff' : off' = ![0, k'])
    (inb : ∀ a, off a + S4096x512.size a ≤ S4096x8192.size a) (inb' : ∀ a, off' a + S4096x512.size a ≤ S4096x8192.size a)
    (hk : k + 512 ≤ k' ∨ k' + 512 ≤ k) :
    Disjoint (wM.slice (Rect.unit (s := S4096x8192) off S4096x512.size inb) (fun _ => rfl)).view.set
      (wM.slice (Rect.unit (s := S4096x8192) off' S4096x512.size inb') (fun _ => rfl)).view.set := by
  subst hoff hoff'
  show Disjoint ((View.whole main_arg1).slice (Rect.unit (s := S4096x8192) ![0, k] S4096x512.size inb)).set
    ((View.whole main_arg1).slice (Rect.unit (s := S4096x8192) ![0, k'] S4096x512.size inb')).set
  rw [View.set_slice_whole, View.set_slice_whole]
  exact Rect.unit_disjoint 1 hk

/-- The fetches of different (shift, half) read disjoint columns. -/
theorem wslice_disjoint (c : Dev nD) (s s' : Fin 8) (t t' : Fin 2) (h : s ≠ s' ∨ t ≠ t') :
    Disjoint (wM.slice (Rect.unit (s := S4096x8192) (k0_off1 c (BitVec.ofNat 32 s.val) (BitVec.ofNat 32 (512 * t.val))) S4096x512.size (k0_off1_inb c s t)) (fun _ => rfl)).view.set
      (wM.slice (Rect.unit (s := S4096x8192) (k0_off1 c (BitVec.ofNat 32 s'.val) (BitVec.ofNat 32 (512 * t'.val))) S4096x512.size (k0_off1_inb c s' t')) (fun _ => rfl)).view.set := by
  refine wRect_disjoint (off1_eq c s t) (off1_eq c s' t') _ _ ?_
  have hp : (peer c s).val < 8 := (peer c s).isLt
  have hp' : (peer c s').val < 8 := (peer c s').isLt
  have ht : t.val < 2 := t.isLt
  have ht' : t'.val < 2 := t'.isLt
  by_cases hs : s = s'
  · subst hs
    have htt : t.val ≠ t'.val := fun e => h.elim (fun h => h rfl) (fun h => h (Fin.ext e))
    omega
  · have hpp : (peer c s).val ≠ (peer c s').val := fun e => hs (peer_inj c s s' (Fin.ext e))
    omega

theorem wslice_disj_1 (c : Dev nD) :
    Disjoint (wM.slice (Rect.unit (s := S4096x8192) (k0_off1 c 2#32 0#32) S4096x512.size (k0_off1_inb c 2 0)) (fun _ => rfl)).view.set
      (wM.slice (Rect.unit (s := S4096x8192) (k0_off1 c 1#32 512#32) S4096x512.size (k0_off1_inb c 1 1)) (fun _ => rfl)).view.set :=
  wslice_disjoint c 2 1 0 1 (by decide)
theorem wslice_disj_2 (c : Dev nD) :
    Disjoint (wM.slice (Rect.unit (s := S4096x8192) (k0_off1 c 3#32 0#32) S4096x512.size (k0_off1_inb c 3 0)) (fun _ => rfl)).view.set
      (wM.slice (Rect.unit (s := S4096x8192) (k0_off1 c 2#32 512#32) S4096x512.size (k0_off1_inb c 2 1)) (fun _ => rfl)).view.set :=
  wslice_disjoint c 3 2 0 1 (by decide)
theorem wslice_disj_3 (c : Dev nD) :
    Disjoint (wM.slice (Rect.unit (s := S4096x8192) (k0_off1 c 4#32 0#32) S4096x512.size (k0_off1_inb c 4 0)) (fun _ => rfl)).view.set
      (wM.slice (Rect.unit (s := S4096x8192) (k0_off1 c 3#32 512#32) S4096x512.size (k0_off1_inb c 3 1)) (fun _ => rfl)).view.set :=
  wslice_disjoint c 4 3 0 1 (by decide)
theorem wslice_disj_4 (c : Dev nD) :
    Disjoint (wM.slice (Rect.unit (s := S4096x8192) (k0_off1 c 5#32 0#32) S4096x512.size (k0_off1_inb c 5 0)) (fun _ => rfl)).view.set
      (wM.slice (Rect.unit (s := S4096x8192) (k0_off1 c 4#32 512#32) S4096x512.size (k0_off1_inb c 4 1)) (fun _ => rfl)).view.set :=
  wslice_disjoint c 5 4 0 1 (by decide)
theorem wslice_disj_5 (c : Dev nD) :
    Disjoint (wM.slice (Rect.unit (s := S4096x8192) (k0_off1 c 6#32 0#32) S4096x512.size (k0_off1_inb c 6 0)) (fun _ => rfl)).view.set
      (wM.slice (Rect.unit (s := S4096x8192) (k0_off1 c 5#32 512#32) S4096x512.size (k0_off1_inb c 5 1)) (fun _ => rfl)).view.set :=
  wslice_disjoint c 6 5 0 1 (by decide)
theorem wslice_disj_6 (c : Dev nD) :
    Disjoint (wM.slice (Rect.unit (s := S4096x8192) (k0_off1 c 7#32 0#32) S4096x512.size (k0_off1_inb c 7 0)) (fun _ => rfl)).view.set
      (wM.slice (Rect.unit (s := S4096x8192) (k0_off1 c 6#32 512#32) S4096x512.size (k0_off1_inb c 6 1)) (fun _ => rfl)).view.set :=
  wslice_disjoint c 7 6 0 1 (by decide)
theorem wslice_disj_7 (c : Dev nD) :
    Disjoint (wM.slice (Rect.unit (s := S4096x8192) (k0_off1 c 0#32 0#32) S4096x512.size (k0_off1_inb c 0 0)) (fun _ => rfl)).view.set
      (wM.slice (Rect.unit (s := S4096x8192) (k0_off1 c 7#32 512#32) S4096x512.size (k0_off1_inb c 7 1)) (fun _ => rfl)).view.set :=
  wslice_disjoint c 0 7 0 1 (by decide)
theorem wslice_disj_same_0 (c : Dev nD) :
    Disjoint (wM.slice (Rect.unit (s := S4096x8192) (k0_off1 c 0#32 512#32) S4096x512.size (k0_off1_inb c 0 1)) (fun _ => rfl)).view.set
      (wM.slice (Rect.unit (s := S4096x8192) (k0_off1 c 0#32 0#32) S4096x512.size (k0_off1_inb c 0 0)) (fun _ => rfl)).view.set :=
  wslice_disjoint c 0 0 1 0 (by decide)
theorem wslice_disj_same_1 (c : Dev nD) :
    Disjoint (wM.slice (Rect.unit (s := S4096x8192) (k0_off1 c 1#32 512#32) S4096x512.size (k0_off1_inb c 1 1)) (fun _ => rfl)).view.set
      (wM.slice (Rect.unit (s := S4096x8192) (k0_off1 c 1#32 0#32) S4096x512.size (k0_off1_inb c 1 0)) (fun _ => rfl)).view.set :=
  wslice_disjoint c 1 1 1 0 (by decide)
theorem wslice_disj_same_2 (c : Dev nD) :
    Disjoint (wM.slice (Rect.unit (s := S4096x8192) (k0_off1 c 2#32 512#32) S4096x512.size (k0_off1_inb c 2 1)) (fun _ => rfl)).view.set
      (wM.slice (Rect.unit (s := S4096x8192) (k0_off1 c 2#32 0#32) S4096x512.size (k0_off1_inb c 2 0)) (fun _ => rfl)).view.set :=
  wslice_disjoint c 2 2 1 0 (by decide)
theorem wslice_disj_same_3 (c : Dev nD) :
    Disjoint (wM.slice (Rect.unit (s := S4096x8192) (k0_off1 c 3#32 512#32) S4096x512.size (k0_off1_inb c 3 1)) (fun _ => rfl)).view.set
      (wM.slice (Rect.unit (s := S4096x8192) (k0_off1 c 3#32 0#32) S4096x512.size (k0_off1_inb c 3 0)) (fun _ => rfl)).view.set :=
  wslice_disjoint c 3 3 1 0 (by decide)
theorem wslice_disj_same_4 (c : Dev nD) :
    Disjoint (wM.slice (Rect.unit (s := S4096x8192) (k0_off1 c 4#32 512#32) S4096x512.size (k0_off1_inb c 4 1)) (fun _ => rfl)).view.set
      (wM.slice (Rect.unit (s := S4096x8192) (k0_off1 c 4#32 0#32) S4096x512.size (k0_off1_inb c 4 0)) (fun _ => rfl)).view.set :=
  wslice_disjoint c 4 4 1 0 (by decide)
theorem wslice_disj_same_5 (c : Dev nD) :
    Disjoint (wM.slice (Rect.unit (s := S4096x8192) (k0_off1 c 5#32 512#32) S4096x512.size (k0_off1_inb c 5 1)) (fun _ => rfl)).view.set
      (wM.slice (Rect.unit (s := S4096x8192) (k0_off1 c 5#32 0#32) S4096x512.size (k0_off1_inb c 5 0)) (fun _ => rfl)).view.set :=
  wslice_disjoint c 5 5 1 0 (by decide)
theorem wslice_disj_same_6 (c : Dev nD) :
    Disjoint (wM.slice (Rect.unit (s := S4096x8192) (k0_off1 c 6#32 512#32) S4096x512.size (k0_off1_inb c 6 1)) (fun _ => rfl)).view.set
      (wM.slice (Rect.unit (s := S4096x8192) (k0_off1 c 6#32 0#32) S4096x512.size (k0_off1_inb c 6 0)) (fun _ => rfl)).view.set :=
  wslice_disjoint c 6 6 1 0 (by decide)
theorem wslice_disj_same_7 (c : Dev nD) :
    Disjoint (wM.slice (Rect.unit (s := S4096x8192) (k0_off1 c 7#32 512#32) S4096x512.size (k0_off1_inb c 7 1)) (fun _ => rfl)).view.set
      (wM.slice (Rect.unit (s := S4096x8192) (k0_off1 c 7#32 0#32) S4096x512.size (k0_off1_inb c 7 0)) (fun _ => rfl)).view.set :=
  wslice_disjoint c 7 7 1 0 (by decide)

/-! ## The device's rows of x as the body finds them -/

/-- The staged block of x is the device's rows: the window is the whole array. -/
theorem xstg_eq (c : Dev nD) : xstg m c = xs m c := by
  funext x
  unfold xstg xs
  rw [View.read_apply, cast_eq]
  refine congrArg (m ((c : Thread nD τ).loc main_arg0)) (funext fun a => Fin.ext ?_)
  exact Window.rect_emb_val_of_index_zero win0_0 (0 : Fin 1) a rfl x

/-- What the staging buffer of x holds when the body runs: the device's rows, whatever it held before the fetch. -/
theorem x_before (c : Dev nD) (d) : (dats (F := F) m 0 c).before (0 : Fin 2) t0_0 d = xs m c := by
  unfold Dat.before
  rw [if_pos (fetch0_0 t0_0)]
  exact xstg_eq m c

/-- A load of the whole staging buffer of x reads its contents. -/
theorem x_readAt (f : Vec F S512x4096 .f32) :
    View.readAt (Elt F) xM.view (Rect.unit (s := S512x4096) ![0, 0] S512x4096.size inb_S512x4096_S512x4096_0_0).toLoadRect f = f :=
  Memref.readAt_unit_zero (Elt F) cc0_stg0_0 (funext fun a => by fin_cases a <;> rfl) _ f

/-- The block g stored at slot v last, after any earlier stores, leaves the send buffer holding g on slot v. -/
theorem slot_store_writes (v : Fin 14) (inb) (f : sM.view.ty.Contents (Elt F)) (g : FVec F S1x512x512 .bf16)
    (L : List (View.Piece (Elt F) S14x512x512 .bf16)) :
    ∀ i ∈ (sSlot v).view.set,
      (sM.view.writes (Elt F) f ((⟨Rect.unit (s := S14x512x512) ![v.val, 0, 0] S1x512x512.size inb, g⟩ : View.Piece (Elt F) S14x512x512 .bf16) :: L)) i
        = slotBuf g i :=
  slot_store v inb (sM.view.writes (Elt F) f L) g

end Cert.Kernel.A2A

end
-- ==== Proof.Bits.Steps.lean ====
/-
  The rounds rules at this protocol's cells: the barrier signal and the barrier wait, the transfer of one slot, and the
  waits on a slot's send cell and receive cell, each with the schedule's side conditions discharged from the tables, so
  that a step of the body at one of these operations is a single application.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Facts

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

/-- The credit a wait on a slot consumes is the slot's, whichever of the two buffers it names. -/
theorem credit_sSlot (v : Fin 14) : (sSlot v).view.dmaCredit = N := rfl
theorem credit_rSlot (v : Fin 14) : (rSlot v).view.dmaCredit = N := rfl

/-- The signal of one unit to device k's barrier cell, paying the duty dutyTo c k with its payload. -/
theorem wp_signal_bar (K : Dev nD × Fin 29 → ℕ) (c k dst : Dev nD) (hdst : dst = k)
    {α : Type} {Q : α → sProp 𝕄} {cont : PUnit → Prog (TpuEff nD τ sig (Elt F) Λ₀ .tc) α}
    (O : CellTallies nD τ sig Unit) (W : Waits sig Unit) :
    iprop(cellInv ER (sched m) (K (k, bIx)) (barCell k) ∗ owes (c : Thread nD τ) (O + bT k) W ∗ dutyTok ER (barCell k) 0 (dutyTo c k)
        ∗ barPay (F := F) k (dutyTo c k) ∗ reached ER (barCell k) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (dst : Thread nD τ) barS 1) cont) Q) := by
  subst hdst
  exact Rounds.wp_signal 𝒱₀ ER (sched m) (c : Thread nD τ) none (dst := (dst : Thread nD τ)) (sem := barS) (r := 0) (d := dutyTo c dst)
    (κ := K (dst, bIx)) (by rw [duties_bar]; exact Finset.mem_univ _) (amount_bar m dst _) () O rfl

/-- The wait for the eight units of the own barrier cell, owing the fourteen receive credits: every slot a transfer will
    write into comes with it. -/
theorem wp_wait_bar (K : Dev nD × Fin 29 → ℕ) (c : Dev nD)
    {α : Type} {Q : α → sProp 𝕄} {cont : PUnit → Prog (TpuEff nD τ sig (Elt F) Λ₀ .tc) α}
    (W : Waits sig Unit) :
    iprop(cellInv ER (sched m) (K (c, bIx)) (barCell c) ∗ cred (tallyAt (barCell c) () 8) ∗ owes (c : Thread nD τ) (OR c) W ∗ levAts L lv
        ∗ atPos ER (barCell c) 0 ∅ 0)
      ⊢ iprop(((owes (c : Thread nD τ) (OR c) (insert (.reg barS, ()) W) ∗ atPos ER (barCell c) (0 + 1) ∅ 0 ∗ reached ER (barCell c) (0 + 1)
              ∗ bigSep Finset.univ fun v : Fin 14 => iprop(∃ f, slotPts (F := F) rM (peer c (shiftOf v)) v f))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS 8) cont) Q) := by
  iintro ⟨Hg, Hc, HO, #Hlev, Hat⟩ Hk
  iapply (Rounds.wp_wait_rest_token 𝒱₀ ER (sched m) (c : Thread nD τ) none (κ := K (c, bIx))
      (wpE_semWait_eq 𝒱₀ (c : Thread nD τ) none Set.univ) (Set.mem_univ _) () (O := OR c) (W := W) (R := 0) (m := 0) (T := ∅)
      (by rw [expect_bar])) $$ [Hg Hc HO Hat]
  · isplitl [Hg]; · iexact Hg
    isplitl [Hc]; · iexact Hc
    isplitl [HO]; · iexact HO
    isplitr; · iapply (mayWait_bar_OR c); iexact Hlev
    iexact Hat
  iintro ⟨HO, Hat, Hr, Hpay⟩
  ihave Hp := (Entails.of_eq (rest_bar m c)) $$ Hpay
  ihave Hs := (got_gifts c) $$ Hp
  iapply Hk
  isplitl [HO]; · iexact HO
  isplitl [Hat]; · iexact Hat
  isplitl [Hr]; · iexact Hr
  iexact Hs

/-! ## The waits on a slot's two cells -/

/-- The wait on the send cell of slot v, nothing owed: the source slot comes back. -/
theorem wp_wait_send_slot (K : Dev nD × Fin 29 → ℕ) (c : Dev nD) (v : Fin 14)
    {hsrc : (rSlot v).view.WordExact} {hdst : (sSlot v).view.WordExact}
    {α : Type} {Q : α → sProp 𝕄} {cont : PUnit → Prog (TpuEff nD τ sig (Elt F) Λ₀ .tc) α}
    (W : Waits sig Unit) :
    iprop(cellInv ER (sched m) (K (c, sIx v)) (sendCell c v) ∗ cred (tallyAt (sendCell c v) () N) ∗ owes (c : Thread nD τ) 0 W
        ∗ atPos ER (sendCell c v) 0 ∅ 0)
      ⊢ iprop(((owes (c : Thread nD τ) 0 (insert (.dma (sendSem v), ()) W) ∗ atPos ER (sendCell c v) (0 + 1) ∅ 0
              ∗ ∃ f, slotPts (F := F) sM c v f)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendSem v) (rSlot v) (sSlot v) hsrc hdst) cont) Q) := by
  iintro ⟨Hg, Hc, HO, Hat⟩ Hk
  iapply (Rounds.wp_wait_rest_token 𝒱₀ ER (sched m) (c : Thread nD τ) none (κ := K (c, sIx v))
      (wpE_waitDma2_eq 𝒱₀ (c : Thread nD τ) none Set.univ) (Set.mem_univ _) () (O := 0) (W := W) (R := 0) (m := 0) (T := ∅)
      (by rw [Nat.zero_add, expect_send])) $$ [Hg Hc HO Hat]
  · isplitl [Hg]; · iexact Hg
    isplitl [Hc]; · iexact Hc
    isplitl [HO]; · iexact HO
    isplitr; · rw [MayWait_zero]; iempintro
    iexact Hat
  iintro ⟨HO, Hat, -, Hpay⟩
  ihave Hp := (Entails.of_eq (rest_send m c v)) $$ Hpay
  iapply Hk
  isplitl [HO]; · iexact HO
  isplitl [Hat]; · iexact Hat
  unfold sendPay
  iexact Hp

/-- The same while still owing any part of the launch debt: the send cells lie below all of it. -/
theorem wp_wait_send_slot_owing (K : Dev nD × Fin 29 → ℕ) (c : Dev nD) (v : Fin 14)
    {hsrc : (rSlot v).view.WordExact} {hdst : (sSlot v).view.WordExact}
    {α : Type} {Q : α → sProp 𝕄} {cont : PUnit → Prog (TpuEff nD τ sig (Elt F) Λ₀ .tc) α}
    (O : CellTallies nD τ sig Unit) (hO : O ≤ O₀ c) (W : Waits sig Unit) :
    iprop(cellInv ER (sched m) (K (c, sIx v)) (sendCell c v) ∗ cred (tallyAt (sendCell c v) () N) ∗ owes (c : Thread nD τ) O W ∗ levAts L lv
        ∗ atPos ER (sendCell c v) 0 ∅ 0)
      ⊢ iprop(((owes (c : Thread nD τ) O (insert (.dma (sendSem v), ()) W) ∗ atPos ER (sendCell c v) (0 + 1) ∅ 0
              ∗ ∃ f, slotPts (F := F) sM c v f)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendSem v) (rSlot v) (sSlot v) hsrc hdst) cont) Q) := by
  iintro ⟨Hg, Hc, HO, #Hlev, Hat⟩ Hk
  iapply (Rounds.wp_wait_rest_token 𝒱₀ ER (sched m) (c : Thread nD τ) none (κ := K (c, sIx v))
      (wpE_waitDma2_eq 𝒱₀ (c : Thread nD τ) none Set.univ) (Set.mem_univ _) () (O := O) (W := W) (R := 0) (m := 0) (T := ∅)
      (by rw [Nat.zero_add, expect_send])) $$ [Hg Hc HO Hat]
  · isplitl [Hg]; · iexact Hg
    isplitl [Hc]; · iexact Hc
    isplitl [HO]; · iexact HO
    isplitr; · iapply (mayWait_low c (sendSem v) (by show 4 + v.val < 18; have := v.isLt; omega) O hO); iexact Hlev
    iexact Hat
  iintro ⟨HO, Hat, -, Hpay⟩
  ihave Hp := (Entails.of_eq (rest_send m c v)) $$ Hpay
  iapply Hk
  isplitl [HO]; · iexact HO
  isplitl [Hat]; · iexact Hat
  unfold sendPay
  iexact Hp

/-- The wait on the receive cell of slot v, nothing owed: the slot comes holding what the device shiftOf v places before
    computed for it. -/
theorem wp_wait_recv_slot (K : Dev nD × Fin 29 → ℕ) (c : Dev nD) (v : Fin 14)
    {hsrc : (sSlot v).view.WordExact} {hdst : (rSlot v).view.WordExact}
    {α : Type} {Q : α → sProp 𝕄} {cont : PUnit → Prog (TpuEff nD τ sig (Elt F) Λ₀ .tc) α}
    (W : Waits sig Unit) :
    iprop(cellInv ER (sched m) (K (c, rIx v)) (recvCell c v) ∗ cred (tallyAt (recvCell c v) () N) ∗ owes (c : Thread nD τ) 0 W
        ∗ atPos ER (recvCell c v) 0 ∅ 0)
      ⊢ iprop(((owes (c : Thread nD τ) 0 (insert (.dma (recvSem v), ()) W) ∗ atPos ER (recvCell c v) (0 + 1) ∅ 0
              ∗ slotPts rM c v (slotBuf (sent m (back c (shiftOf v)) v)))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvSem v) (sSlot v) (rSlot v) hsrc hdst) cont) Q) := by
  iintro ⟨Hg, Hc, HO, Hat⟩ Hk
  iapply (Rounds.wp_wait_rest_token 𝒱₀ ER (sched m) (c : Thread nD τ) none (κ := K (c, rIx v))
      (wpE_waitDma2_eq 𝒱₀ (c : Thread nD τ) none Set.univ) (Set.mem_univ _) () (O := 0) (W := W) (R := 0) (m := 0) (T := ∅)
      (by rw [Nat.zero_add, expect_recv])) $$ [Hg Hc HO Hat]
  · isplitl [Hg]; · iexact Hg
    isplitl [Hc]; · iexact Hc
    isplitl [HO]; · iexact HO
    isplitr; · rw [MayWait_zero]; iempintro
    iexact Hat
  iintro ⟨HO, Hat, -, Hpay⟩
  ihave Hp := (Entails.of_eq (rest_recv m c v)) $$ Hpay
  iapply Hk
  isplitl [HO]; · iexact HO
  isplitl [Hat]; · iexact Hat
  unfold recvPay
  iexact Hp

/-! ## The transfer of one slot -/

/-- The transfer of slot v to the device shiftOf v places on, given what lands there: the send cell's duty is paid with
    the source slot, the target's receive cell's with the slot written. -/
theorem wp_send_slot_of (K : Dev nD × Fin 29 → ℕ) (c n : Dev nD) (v : Fin 14) (hn : n = peer c (shiftOf v))
    {hsc : (rSlot v : Memref sig (Dev.tc n : Thread nD τ).2.kind .vmem S512x512 .bf16).view.ref.isScScratch = false}
    {hsrc : (sSlot v).view.WordExact} {hdst : (rSlot v).view.WordExact}
    {hsem : DmaTarget.Typed .vmem (.dma (recvSem v)) (.remote (Dev.tc n : Thread nD τ) (rSlot v) (.dma (sendSem v)) hsc)}
    {α : Type} {Q : α → sProp 𝕄} {cont : PUnit → Prog (TpuEff nD τ sig (Elt F) Λ₀ .tc) α}
    (fs : Buf (Elt F) ((sSlot v).view.loc (c : Thread nD τ))) (fn : Buf (Elt F) ((rSlot v).view.loc (peer c (shiftOf v) : Thread nD τ)))
    (hland : ∀ i ∈ (rSlot v).view.set, (rSlot v).view.write (Elt F) fn ((sSlot v).view.read (Elt F) fs) Finset.univ i = slotBuf (sent m c v) i)
    (O : CellTallies nD τ sig Unit) (W : Waits sig Unit) :
    iprop(cellInv ER (sched m) (K (c, sIx v)) (sendCell c v) ∗ cellInv ER (sched m) (K (peer c (shiftOf v), rIx v)) (recvCell (peer c (shiftOf v)) v)
        ∗ slotPts sM c v fs ∗ slotPts rM (peer c (shiftOf v)) v fn
        ∗ owes (c : Thread nD τ) (O + rT c v) W
        ∗ dutyTok ER (sendCell c v) 0 0 ∗ reached ER (sendCell c v) 0
        ∗ dutyTok ER (recvCell (peer c (shiftOf v)) v) 0 0 ∗ reached ER (recvCell (peer c (shiftOf v)) v) 0)
      ⊢ iprop(((cred (tallyAt (sendCell c v) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (sSlot v) (.remote (Dev.tc n : Thread nD τ) (rSlot v) (.dma (sendSem v)) hsc) (.dma (recvSem v)) hsrc hdst hsem) cont) Q) := by
  subst hn
  unfold slotPts
  exact Rounds.wp_send_pointsTo 𝒱₀ ER (sched m) (c : Thread nD τ) none (κ₁ := K (c, sIx v)) (κ₂ := K (peer c (shiftOf v), rIx v))
    (r₁ := 0) (r₂ := 0) (d₁ := 0) (d₂ := 0) (fs := fs) (fd := fn)
    (by rw [duties_send]; exact Finset.mem_singleton_self _) (by rw [duties_recv]; exact Finset.mem_singleton_self _)
    () () N rfl (amount_send m c v 0) (amount_recv m (peer c (shiftOf v)) v 0) O rfl (W := W)
    (by rw [payload_send]; unfold sendPay slotPts; iintro H; iexists fs; iexact H)
    (by rw [payload_recv]; unfold recvPay slotPts; rw [back_peer]; exact Entails.of_eq (pointsTo_congr hland))

/-- The transfer of slot v when the source slot holds, on its elements, what the device computed for it. -/
theorem wp_send_slot (K : Dev nD × Fin 29 → ℕ) (c n : Dev nD) (v : Fin 14) (hn : n = peer c (shiftOf v))
    {hsc : (rSlot v : Memref sig (Dev.tc n : Thread nD τ).2.kind .vmem S512x512 .bf16).view.ref.isScScratch = false}
    {hsrc : (sSlot v).view.WordExact} {hdst : (rSlot v).view.WordExact}
    {hsem : DmaTarget.Typed .vmem (.dma (recvSem v)) (.remote (Dev.tc n : Thread nD τ) (rSlot v) (.dma (sendSem v)) hsc)}
    {α : Type} {Q : α → sProp 𝕄} {cont : PUnit → Prog (TpuEff nD τ sig (Elt F) Λ₀ .tc) α}
    (fs : Buf (Elt F) ((sSlot v).view.loc (c : Thread nD τ))) (fn : Buf (Elt F) ((rSlot v).view.loc (peer c (shiftOf v) : Thread nD τ)))
    (hfs : ∀ i ∈ (sSlot v).view.set, fs i = slotBuf (sent m c v) i)
    (O : CellTallies nD τ sig Unit) (W : Waits sig Unit) :
    iprop(cellInv ER (sched m) (K (c, sIx v)) (sendCell c v) ∗ cellInv ER (sched m) (K (peer c (shiftOf v), rIx v)) (recvCell (peer c (shiftOf v)) v)
        ∗ slotPts sM c v fs ∗ slotPts rM (peer c (shiftOf v)) v fn
        ∗ owes (c : Thread nD τ) (O + rT c v) W
        ∗ dutyTok ER (sendCell c v) 0 0 ∗ reached ER (sendCell c v) 0
        ∗ dutyTok ER (recvCell (peer c (shiftOf v)) v) 0 0 ∗ reached ER (recvCell (peer c (shiftOf v)) v) 0)
      ⊢ iprop(((cred (tallyAt (sendCell c v) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (sSlot v) (.remote (Dev.tc n : Thread nD τ) (rSlot v) (.dma (sendSem v)) hsc) (.dma (recvSem v)) hsrc hdst hsem) cont) Q) :=
  wp_send_slot_of m K c n v hn fs fn (slot_landing v (sent m c v) fn fs hfs) O W

/-! ## The barrier's two operations with their amounts spelt as the printed words -/

theorem wp_signal_bar_word (K : Dev nD × Fin 29 → ℕ) (c k dst : Dev nD) (hdst : dst = k)
    {α : Type} {Q : α → sProp 𝕄} {cont : PUnit → Prog (TpuEff nD τ sig (Elt F) Λ₀ .tc) α}
    (O : CellTallies nD τ sig Unit) (W : Waits sig Unit) :
    iprop(cellInv ER (sched m) (K (k, bIx)) (barCell k) ∗ owes (c : Thread nD τ) (O + bT k) W ∗ dutyTok ER (barCell k) 0 (dutyTo c k)
        ∗ barPay (F := F) k (dutyTo c k) ∗ reached ER (barCell k) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (dst : Thread nD τ) barS (1#32).toNat) cont) Q) :=
  wp_signal_bar m K c k dst hdst O W

theorem wp_wait_bar_word (K : Dev nD × Fin 29 → ℕ) (c : Dev nD)
    {α : Type} {Q : α → sProp 𝕄} {cont : PUnit → Prog (TpuEff nD τ sig (Elt F) Λ₀ .tc) α}
    (W : Waits sig Unit) :
    iprop(cellInv ER (sched m) (K (c, bIx)) (barCell c) ∗ cred (tallyAt (barCell c) () 8) ∗ owes (c : Thread nD τ) (OR c) W ∗ levAts L lv
        ∗ atPos ER (barCell c) 0 ∅ 0)
      ⊢ iprop(((owes (c : Thread nD τ) (OR c) (insert (.reg barS, ()) W) ∗ atPos ER (barCell c) (0 + 1) ∅ 0 ∗ reached ER (barCell c) (0 + 1)
              ∗ bigSep Finset.univ fun v : Fin 14 => iprop(∃ f, slotPts (F := F) rM (peer c (shiftOf v)) v f))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (8#32).toNat) cont) Q) :=
  wp_wait_bar m K c W

end Cert.Kernel.A2A

end
-- ==== Proof.Bits.Slab.lean ====
/-
  Pure facts about the two weight-slab slots and the launch debt that the run of one sub-step of the body uses: a device
  that still owes its receive credits owes part of its launch debt; a load of one scratch slot sees nothing of a write
  through the other; and so the slab a sub-step loads is the specification's, although the copy of the NEXT slab into the
  other slot was issued before the wait for this one.
-/
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Facts

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The debt after the barrier is part of the launch debt -/

/-- What a device owes after the barrier, its fourteen receive credits, is part of what it owes at launch. -/
theorem OR_le_O₀ (c : Dev nD) : OR c ≤ O₀ c := by
  unfold O₀
  iterate 8 (refine le_trans ?_ le_self_add)
  exact le_rfl

/-! ## The two slots of the weight scratch -/

open Idealize.ShloMosaic.ValueIdx in
/-- A load of scratch slot i reads nothing of a write through scratch slot i' ≠ i: the load's elements have first
    coordinate i, the write's i'. -/
theorem slab_read_under (i i' : Fin 2) (hne : i ≠ i') (inbK') (inbK1) (g : Vec F S2x4096x512 .f32) (p : S4096x512.Idx → Elt F .f32) :
    kM.view.readAt (Elt F) (Rect.unit (s := S2x4096x512) ![i.val, 0, 0] S1x4096x512.size inbK').toLoadRect
      (((kM.slice (Rect.unit (s := S2x4096x512) ![i'.val, 0, 0] S1x4096x512.size inbK1) (fun _ => rfl)).squeeze S4096x512
          squeezes_S1x4096x512_S4096x512).view.write (Elt F) g p Finset.univ)
    = kM.view.readAt (Elt F) (Rect.unit (s := S2x4096x512) ![i.val, 0, 0] S1x4096x512.size inbK').toLoadRect g := by
  funext y
  rw [View.readAt_apply, View.read_apply, View.readAt_apply, View.read_apply, cast_eq, cast_eq]
  refine View.write_of_not_mem _ _ _ ?_
  rw [View.setOn_univ]
  intro hmem
  obtain ⟨x, hx⟩ := View.exists_emb_of_mem_set _ hmem
  have h1 : (kM.view.emb ((Rect.unit (s := S2x4096x512) ![i.val, 0, 0] S1x4096x512.size inbK').toLoadRect.idx y) : S2x4096x512.Idx)
      = (Rect.unit (s := S2x4096x512) ![i.val, 0, 0] S1x4096x512.size inbK').emb y := rfl
  have h2 : (((kM.slice (Rect.unit (s := S2x4096x512) ![i'.val, 0, 0] S1x4096x512.size inbK1) (fun _ => rfl)).squeeze S4096x512
          squeezes_S1x4096x512_S4096x512).view.emb x : S2x4096x512.Idx)
      = (Rect.unit (s := S2x4096x512) ![i'.val, 0, 0] S1x4096x512.size inbK1).emb (Shape.reshapeEquiv _ x) := rfl
  rw [h1, slabRect_emb] at hx
  rw [h2, squeezeK_idx, slabRect_emb] at hx
  have h0 := congrArg (fun j : S2x4096x512.Idx => (j 0).val) hx
  exact hne (Fin.ext h0.symm)

/-- Scratch slot i after columns [1024 j + 512 t, + 512) of W were copied into it, read back as a block while a later
    write through the other slot i' sits over it: the slab all the same. -/
theorem slab_read_next (i i' : Fin 2) (hne : i ≠ i') (j : Fin 8) (t : Fin 2) {off : Fin 2 → ℕ} (hoff : off = ![0, 1024 * j.val + 512 * t.val])
    (inbW) (inbK) (inbK') (inbK1) (fd : Vec F S2x4096x512 .f32) (W : Vec F S4096x8192 .f32) (p : S4096x512.Idx → Elt F .f32) :
    kM.view.readAt (Elt F) (Rect.unit (s := S2x4096x512) ![i.val, 0, 0] S1x4096x512.size inbK').toLoadRect
      (((kM.slice (Rect.unit (s := S2x4096x512) ![i'.val, 0, 0] S1x4096x512.size inbK1) (fun _ => rfl)).squeeze S4096x512
          squeezes_S1x4096x512_S4096x512).view.write (Elt F)
        (((kM.slice (Rect.unit (s := S2x4096x512) ![i.val, 0, 0] S1x4096x512.size inbK) (fun _ => rfl)).squeeze S4096x512
            squeezes_S1x4096x512_S4096x512).view.write (Elt F) fd
          (ReadAs.same.apply ((wM.slice (Rect.unit (s := S4096x8192) off S4096x512.size inbW) (fun _ => rfl)).view.read (Elt F) W))
          Finset.univ)
        p Finset.univ)
      = wslab W j t :=
  (slab_read_under i i' hne inbK' inbK1 _ p).trans (slab_read i j t hoff inbW inbK inbK' fd W)

/-- The first sub-step's slab: slot 0 holds the columns of the device one place on, half 0, under the copy of half 1
    into slot 1. -/
theorem slab_read_1_0 (c : Dev nD) (fk : Vec F S2x4096x512 .f32) (p : S4096x512.Idx → Elt F .f32) (inbK') (inbK0) (inbK1) :
    kM.view.readAt (Elt F) (Rect.unit (s := S2x4096x512) ![0, 0, 0] S1x4096x512.size inbK').toLoadRect
      (((kM.slice (Rect.unit (s := S2x4096x512) ![1, 0, 0] S1x4096x512.size inbK1) (fun _ => rfl)).squeeze S4096x512
          squeezes_S1x4096x512_S4096x512).view.write (Elt F)
        (((kM.slice (Rect.unit (s := S2x4096x512) ![0, 0, 0] S1x4096x512.size inbK0) (fun _ => rfl)).squeeze S4096x512
            squeezes_S1x4096x512_S4096x512).view.write (Elt F) fk
          (ReadAs.same.apply ((wM.slice (Rect.unit (s := S4096x8192) (k0_off1 c 1#32 0#32) S4096x512.size (k0_off1_inb c 1 0)) (fun _ => rfl)).view.read (Elt F) (ws m c)))
          Finset.univ)
        p Finset.univ)
    = wslab (ws m c) (peer c 1) 0 :=
  slab_read_next (0 : Fin 2) (1 : Fin 2) (by decide) (peer c 1) (0 : Fin 2) (off1_eq c 1 0) _ inbK0 inbK' inbK1 fk (ws m c) p

end Cert.Kernel.A2A

end
-- ==== Proof.Bits.Arrive.lean ====
/-
  The fourteen arrivals at the end of a device's body: for each slot, the wait on its send cell (the source slot comes
  back), the wait on its receive cell (the slot comes holding the sender's block), the load of the block, and its
  store, widened, into the rows of the result that belong to the sender.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Facts
import proofs.«900797_g7700000000000798_dist_gemm_a2a_m4096_k4096_n8192_f32_relu_v7x_i8_1_alg».proof.Proof.Bits.Steps
import proofs.«900797_g7700000000000798_dist_gemm_a2a_m4096_k4096_n8192_f32_relu_v7x_i8_1_alg».proof.Proof.Gen.Kernel.Skeleton

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two memory steps of an arrival -/

/-- The elements a load of slot v's rectangle reads are the slot's. -/
theorem load_slot_subset (v : Fin 14) (inb : ∀ a, (![v.val, 0, 0] : Fin 3 → Nat) a + S1x512x512.size a ≤ S14x512x512.size a) :
    rM.view.setOn (Rect.unit (s := S14x512x512) ![v.val, 0, 0] S1x512x512.size inb).toLoadRect.set ⊆ (rSlot v).view.set :=
  Finset.Subset.trans (Finset.Subset.refl _) (le_of_eq (slotSet_eq rM (0 : Dev nD) v).symm)

/-- The load of slot v of the receive buffer, the slot held at a block read at every slot alike: the block. -/
theorem wp_load_slot (c : Dev nD) (v : Fin 14) {inb : ∀ a, (![v.val, 0, 0] : Fin 3 → Nat) a + S1x512x512.size a ≤ S14x512x512.size a}
    {hl : rM.view.LoadsAt (Rect.unit (s := S14x512x512) ![v.val, 0, 0] S1x512x512.size inb).toLoadRect}
    {α : Type} {Q : α → sProp 𝕄}
    {k : ((Rect.unit (s := S14x512x512) ![v.val, 0, 0] S1x512x512.size inb).toLoadRect.shape.Idx → Elt F .bf16) → Prog (TpuEff nD τ sig (Elt F) Λ₀ .tc) α}
    (g : FVec F S1x512x512 .bf16) :
    (slotPts rM c v (slotBuf g) : sProp 𝕄)
      ⊢ iprop((slotPts rM c v (slotBuf g) -∗ wp frame (wpE (defs₀ (F := F)) 𝒱₀ (c : Thread nD τ) none) Set.univ (k g) Q)
          -∗ wp frame (wpE (defs₀ (F := F)) 𝒱₀ (c : Thread nD τ) none) Set.univ (.op (.load rM (Rect.unit (s := S14x512x512) ![v.val, 0, 0] S1x512x512.size inb).toLoadRect hl) k) Q) := by
  unfold slotPts
  have h := wp_load (Q := Q) (Γ := .empty) 𝒱₀ (c : Thread nD τ) none Set.univ (defs := defs₀ (F := F)) (m := rM) (hl := hl) (k := k)
    (S := ((rSlot v).view.set : Finset (Idx (rM.view.loc (c : Thread nD τ))))) (q := fullShare) (f := slotBuf g) (load_slot_subset v inb)
  rw [slot_load v inb g] at h
  exact h

/-- The swap into the result: the load of a rectangle of the result staging buffer (its value unused) and the store of a
    block there, the buffer held whole. -/
theorem wp_swap_out (c : Dev nD) {r : Rect S4096x1024} {hl : oM.view.LoadsAt r.toLoadRect} {w : r.shape.Idx → Elt F .f32}
    {hx : (oM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (fo : Buf (Elt F) (oM.view.loc (c : Thread nD τ))) :
    (oM.view.loc (c : Thread nD τ) ↦[oM.view.set]{fullShare} fo : sProp 𝕄)
      ⊢ iprop(((oM.view.loc (c : Thread nD τ) ↦[oM.view.set]{fullShare} ((oM.access r).write (Elt F) fo w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.load oM r.toLoadRect hl) fun _ => .op (.store oM r w Finset.univ hx hm) k) Q) := by
  have h1 := wp_load (Q := Q) (Γ := .empty) 𝒱₀ (c : Thread nD τ) none Set.univ (defs := defs₀ (F := F)) (m := oM) (r := r.toLoadRect) (hl := hl)
    (k := fun _ => .op (.store oM r w Finset.univ hx hm) k)
    (S := (oM.view.set : Finset (Idx (oM.view.loc (c : Thread nD τ))))) (q := fullShare) (f := fo) (View.setOn_subset_set _ _)
  have h2 := wp_store (Q := Q) (Γ := .empty) 𝒱₀ (c : Thread nD τ) none Set.univ (defs := defs₀ (F := F)) (m := oM) (r := r) (w := w) (Mk := Finset.univ)
    (hx := hx) (hm := hm) (k := k)
    (S := (oM.view.set : Finset (Idx ((oM.access r).loc (c : Thread nD τ))))) (f := fo)
    ((View.setOn_subset_set _ _).trans (View.set_slice_subset _ _))
  iintro Ho Hk
  iapply h1 $$ Ho
  iintro Ho
  iapply h2 $$ Ho
  iexact Hk

/-! ## The parts -/

/-- Part 29 of the body: the wait on slot 0's receive cell, the load of slot 0's block, its store into the result. -/
theorem arrive_29 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, rIx 0)) (recvCell c 0)
        ∗ owes (c : Thread nD τ) 0 W
        ∗ cred (tallyAt (recvCell c 0) () N)
        ∗ atPos ER (recvCell c 0) 0 ∅ 0
        ∗ (oM.view.loc (c : Thread nD τ) ↦[oM.view.set]{fullShare} fo))
      ⊢ iprop(((owes (c : Thread nD τ) 0 (insert (.dma (recvSem 0), ()) (W))
            ∗ atPos ER (recvCell c 0) (0 + 1) ∅ 0
            ∗ slotPts rM c 0 (slotBuf (sent m (back c (shiftOf 0)) 0))
            ∗ (oM.view.loc (c : Thread nD τ) ↦[oM.view.set]{fullShare}
                ((oM.access (Rect.unit (s := S4096x1024) (k0_off4 c 1#32) S512x512.size (k0_off4_inb c 0))).write (Elt F) fo (k0_pay1 (sent m (back c (shiftOf 0)) 0)) Finset.univ)))
          -∗ Kt ⟨⟩)
        -∗ wp frame (wpE (defs₀ (F := F)) 𝒱₀ (c : Thread nD τ) none) Set.univ (k0_part29 a0 h0 a1 h1 oM h2 a3 h3 sM h4 rM h5 a6 cc0_scratch4 cc0_scratch5 c v2) Kt) := by
  rw [k0_part29_eq_skeleton]; unfold k0_part29_skel
  simp only [Prog.lift, Prog.bind_op, Prog.bind_ret, Prog.pure_eq_ret]
  iintro ⟨#HiR0, HO, HcR0, HaR0, Ho⟩ Hk
  iapply (wp_wait_recv_slot m K c 0 (W)) $$ [HcR0 HO HaR0]
  · isplitr; · iexact HiR0
    isplitl [HcR0]; · iexact HcR0
    isplitl [HO]; · iexact HO
    iexact HaR0
  iintro ⟨HO, HaR0, Hr0⟩
  iapply (wp_load_slot c 0 (sent m (back c (shiftOf 0)) 0)) $$ Hr0
  iintro Hr0
  iapply (wp_swap_out c fo) $$ Ho
  iintro Ho
  rw [wp_ret]; imodintro
  iapply Hk
  isplitl [HO]; · iexact HO
  isplitl [HaR0]; · iexact HaR0
  isplitl [Hr0]; · iexact Hr0
  iexact Ho

/-- Part 30 of the body: the wait on slot 1's send cell, the wait on slot 1's receive cell, the load of slot 1's block, its store into the result. -/
theorem arrive_30 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, sIx 1)) (sendCell c 1)
        ∗ cellInv ER (sched m) (K (c, rIx 1)) (recvCell c 1)
        ∗ owes (c : Thread nD τ) 0 W
        ∗ cred (tallyAt (sendCell c 1) () N)
        ∗ atPos ER (sendCell c 1) 0 ∅ 0
        ∗ cred (tallyAt (recvCell c 1) () N)
        ∗ atPos ER (recvCell c 1) 0 ∅ 0
        ∗ (oM.view.loc (c : Thread nD τ) ↦[oM.view.set]{fullShare} fo))
      ⊢ iprop(((owes (c : Thread nD τ) 0 (insert (.dma (recvSem 1), ()) (insert (.dma (sendSem 1), ()) (W)))
            ∗ atPos ER (sendCell c 1) (0 + 1) ∅ 0
            ∗ (∃ f, slotPts (F := F) sM c 1 f)
            ∗ atPos ER (recvCell c 1) (0 + 1) ∅ 0
            ∗ slotPts rM c 1 (slotBuf (sent m (back c (shiftOf 1)) 1))
            ∗ (oM.view.loc (c : Thread nD τ) ↦[oM.view.set]{fullShare}
                ((oM.access (Rect.unit (s := S4096x1024) (k0_off5 c 1#32) S512x512.size (k0_off5_inb c 0))).write (Elt F) fo (k0_pay1 (sent m (back c (shiftOf 1)) 1)) Finset.univ)))
          -∗ Kt ⟨⟩)
        -∗ wp frame (wpE (defs₀ (F := F)) 𝒱₀ (c : Thread nD τ) none) Set.univ (k0_part30 a0 h0 a1 h1 oM h2 a3 h3 sM h4 rM h5 a6 cc0_scratch4 cc0_scratch5 c v2) Kt) := by
  rw [k0_part30_eq_skeleton]; unfold k0_part30_skel
  simp only [Prog.lift, Prog.bind_op, Prog.bind_ret, Prog.pure_eq_ret]
  iintro ⟨#HiS1, #HiR1, HO, HcS1, HaS1, HcR1, HaR1, Ho⟩ Hk
  iapply (wp_wait_send_slot m K c 1 (W)) $$ [HcS1 HO HaS1]
  · isplitr; · iexact HiS1
    isplitl [HcS1]; · iexact HcS1
    isplitl [HO]; · iexact HO
    iexact HaS1
  iintro ⟨HO, HaS1, Hs1⟩
  iapply (wp_wait_recv_slot m K c 1 (insert (.dma (sendSem 1), ()) (W))) $$ [HcR1 HO HaR1]
  · isplitr; · iexact HiR1
    isplitl [HcR1]; · iexact HcR1
    isplitl [HO]; · iexact HO
    iexact HaR1
  iintro ⟨HO, HaR1, Hr1⟩
  iapply (wp_load_slot c 1 (sent m (back c (shiftOf 1)) 1)) $$ Hr1
  iintro Hr1
  iapply (wp_swap_out c fo) $$ Ho
  iintro Ho
  rw [wp_ret]; imodintro
  iapply Hk
  isplitl [HO]; · iexact HO
  isplitl [HaS1]; · iexact HaS1
  isplitl [Hs1]; · iexact Hs1
  isplitl [HaR1]; · iexact HaR1
  isplitl [Hr1]; · iexact Hr1
  iexact Ho

/-- Part 31 of the body: the wait on slot 2's send cell, the wait on slot 2's receive cell, the load of slot 2's block, its store into the result. -/
theorem arrive_31 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, sIx 2)) (sendCell c 2)
        ∗ cellInv ER (sched m) (K (c, rIx 2)) (recvCell c 2)
        ∗ owes (c : Thread nD τ) 0 W
        ∗ cred (tallyAt (sendCell c 2) () N)
        ∗ atPos ER (sendCell c 2) 0 ∅ 0
        ∗ cred (tallyAt (recvCell c 2) () N)
        ∗ atPos ER (recvCell c 2) 0 ∅ 0
        ∗ (oM.view.loc (c : Thread nD τ) ↦[oM.view.set]{fullShare} fo))
      ⊢ iprop(((owes (c : Thread nD τ) 0 (insert (.dma (recvSem 2), ()) (insert (.dma (sendSem 2), ()) (W)))
            ∗ atPos ER (sendCell c 2) (0 + 1) ∅ 0
            ∗ (∃ f, slotPts (F := F) sM c 2 f)
            ∗ atPos ER (recvCell c 2) (0 + 1) ∅ 0
            ∗ slotPts rM c 2 (slotBuf (sent m (back c (shiftOf 2)) 2))
            ∗ (oM.view.loc (c : Thread nD τ) ↦[oM.view.set]{fullShare}
                ((oM.access (Rect.unit (s := S4096x1024) (k0_off4 c 2#32) S512x512.size (k0_off4_inb c 1))).write (Elt F) fo (k0_pay1 (sent m (back c (shiftOf 2)) 2)) Finset.univ)))
          -∗ Kt ⟨⟩)
        -∗ wp frame (wpE (defs₀ (F := F)) 𝒱₀ (c : Thread nD τ) none) Set.univ (k0_part31 a0 h0 a1 h1 oM h2 a3 h3 sM h4 rM h5 a6 cc0_scratch4 cc0_scratch5 c v2) Kt) := by
  rw [k0_part31_eq_skeleton]; unfold k0_part31_skel
  simp only [Prog.lift, Prog.bind_op, Prog.bind_ret, Prog.pure_eq_ret]
  iintro ⟨#HiS2, #HiR2, HO, HcS2, HaS2, HcR2, HaR2, Ho⟩ Hk
  iapply (wp_wait_send_slot m K c 2 (W)) $$ [HcS2 HO HaS2]
  · isplitr; · iexact HiS2
    isplitl [HcS2]; · iexact HcS2
    isplitl [HO]; · iexact HO
    iexact HaS2
  iintro ⟨HO, HaS2, Hs2⟩
  iapply (wp_wait_recv_slot m K c 2 (insert (.dma (sendSem 2), ()) (W))) $$ [HcR2 HO HaR2]
  · isplitr; · iexact HiR2
    isplitl [HcR2]; · iexact HcR2
    isplitl [HO]; · iexact HO
    iexact HaR2
  iintro ⟨HO, HaR2, Hr2⟩
  iapply (wp_load_slot c 2 (sent m (back c (shiftOf 2)) 2)) $$ Hr2
  iintro Hr2
  iapply (wp_swap_out c fo) $$ Ho
  iintro Ho
  rw [wp_ret]; imodintro
  iapply Hk
  isplitl [HO]; · iexact HO
  isplitl [HaS2]; · iexact HaS2
  isplitl [Hs2]; · iexact Hs2
  isplitl [HaR2]; · iexact HaR2
  isplitl [Hr2]; · iexact Hr2
  iexact Ho

/-- Part 32 of the body: the wait on slot 3's send cell, the wait on slot 3's receive cell, the load of slot 3's block. -/
theorem arrive_32 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (Kt : (Σ' (_ : FVec F S512x512 .f32), BitVec 32) → sProp 𝕄) :
    iprop(cellInv ER (sched m) (K (c, sIx 3)) (sendCell c 3)
        ∗ cellInv ER (sched m) (K (c, rIx 3)) (recvCell c 3)
        ∗ owes (c : Thread nD τ) 0 W
        ∗ cred (tallyAt (sendCell c 3) () N)
        ∗ atPos ER (sendCell c 3) 0 ∅ 0
        ∗ cred (tallyAt (recvCell c 3) () N)
        ∗ atPos ER (recvCell c 3) 0 ∅ 0)
      ⊢ iprop((∀ w : BitVec 32, (owes (c : Thread nD τ) 0 (insert (.dma (recvSem 3), ()) (insert (.dma (sendSem 3), ()) (W)))
            ∗ atPos ER (sendCell c 3) (0 + 1) ∅ 0
            ∗ (∃ f, slotPts (F := F) sM c 3 f)
            ∗ atPos ER (recvCell c 3) (0 + 1) ∅ 0
            ∗ slotPts rM c 3 (slotBuf (sent m (back c (shiftOf 3)) 3)))
          -∗ Kt ⟨k0_pay1 (sent m (back c (shiftOf 3)) 3), w⟩)
        -∗ wp frame (wpE (defs₀ (F := F)) 𝒱₀ (c : Thread nD τ) none) Set.univ (k0_part32 a0 h0 a1 h1 oM h2 a3 h3 sM h4 rM h5 a6 cc0_scratch4 cc0_scratch5 v2) Kt) := by
  rw [k0_part32_eq_skeleton]; unfold k0_part32_skel
  simp only [Prog.lift, Prog.bind_op, Prog.bind_ret, Prog.pure_eq_ret]
  iintro ⟨#HiS3, #HiR3, HO, HcS3, HaS3, HcR3, HaR3⟩ Hk
  iapply (wp_wait_send_slot m K c 3 (W)) $$ [HcS3 HO HaS3]
  · isplitr; · iexact HiS3
    isplitl [HcS3]; · iexact HcS3
    isplitl [HO]; · iexact HO
    iexact HaS3
  iintro ⟨HO, HaS3, Hs3⟩
  iapply (wp_wait_recv_slot m K c 3 (insert (.dma (sendSem 3), ()) (W))) $$ [HcR3 HO HaR3]
  · isplitr; · iexact HiR3
    isplitl [HcR3]; · iexact HcR3
    isplitl [HO]; · iexact HO
    iexact HaR3
  iintro ⟨HO, HaR3, Hr3⟩
  iapply (wp_load_slot c 3 (sent m (back c (shiftOf 3)) 3)) $$ Hr3
  iintro Hr3
  rw [wp_ret, pay25_eq]; imodintro
  iapply Hk
  isplitl [HO]; · iexact HO
  isplitl [HaS3]; · iexact HaS3
  isplitl [Hs3]; · iexact Hs3
  isplitl [HaR3]; · iexact HaR3
  iexact Hr3

/-- Part 33 of the body: the store of the block handed in into the result, the wait on slot 4's send cell, the wait on slot 4's receive cell. -/
theorem arrive_33 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (v976 : FVec F S512x512 .f32) (v977 : BitVec 32) (W : Waits sig Unit) (fo : Buf (Elt F) (oM.view.loc (c : Thread nD τ))) (Kt : BitVec 32 → sProp 𝕄) :
    iprop(cellInv ER (sched m) (K (c, sIx 4)) (sendCell c 4)
        ∗ cellInv ER (sched m) (K (c, rIx 4)) (recvCell c 4)
        ∗ owes (c : Thread nD τ) 0 W
        ∗ cred (tallyAt (sendCell c 4) () N)
        ∗ atPos ER (sendCell c 4) 0 ∅ 0
        ∗ cred (tallyAt (recvCell c 4) () N)
        ∗ atPos ER (recvCell c 4) 0 ∅ 0
        ∗ (oM.view.loc (c : Thread nD τ) ↦[oM.view.set]{fullShare} fo))
      ⊢ iprop((∀ r : BitVec 32, (owes (c : Thread nD τ) 0 (insert (.dma (recvSem 4), ()) (insert (.dma (sendSem 4), ()) (W)))
            ∗ atPos ER (sendCell c 4) (0 + 1) ∅ 0
            ∗ (∃ f, slotPts (F := F) sM c 4 f)
            ∗ atPos ER (recvCell c 4) (0 + 1) ∅ 0
            ∗ slotPts rM c 4 (slotBuf (sent m (back c (shiftOf 4)) 4))
            ∗ (oM.view.loc (c : Thread nD τ) ↦[oM.view.set]{fullShare}
                ((oM.access (Rect.unit (s := S4096x1024) (k0_off5 c 2#32) S512x512.size (k0_off5_inb c 1))).write (Elt F) fo v976 Finset.univ)))
          -∗ Kt r)
        -∗ wp frame (wpE (defs₀ (F := F)) 𝒱₀ (c : Thread nD τ) none) Set.univ (k0_part33 a0 h0 a1 h1 oM h2 a3 h3 sM h4 rM h5 a6 cc0_scratch4 cc0_scratch5 c v2 v976 v977) Kt) := by
  rw [k0_part33_eq_skeleton]; unfold k0_part33_skel
  simp only [Prog.lift, Prog.bind_op, Prog.bind_ret, Prog.pure_eq_ret]
  iintro ⟨#HiS4, #HiR4, HO, HcS4, HaS4, HcR4, HaR4, Ho⟩ Hk
  iapply (wp_swap_out c fo) $$ Ho
  iintro Ho
  iapply (wp_wait_send_slot m K c 4 (W)) $$ [HcS4 HO HaS4]
  · isplitr; · iexact HiS4
    isplitl [HcS4]; · iexact HcS4
    isplitl [HO]; · iexact HO
    iexact HaS4
  iintro ⟨HO, HaS4, Hs4⟩
  iapply (wp_wait_recv_slot m K c 4 (insert (.dma (sendSem 4), ()) (W))) $$ [HcR4 HO HaR4]
  · isplitr; · iexact HiR4
    isplitl [HcR4]; · iexact HcR4
    isplitl [HO]; · iexact HO
    iexact HaR4
  iintro ⟨HO, HaR4, Hr4⟩
  rw [wp_ret]; imodintro
  iapply Hk
  isplitl [HO]; · iexact HO
  isplitl [HaS4]; · iexact HaS4
  isplitl [Hs4]; · iexact Hs4
  isplitl [HaR4]; · iexact HaR4
  isplitl [Hr4]; · iexact Hr4
  iexact Ho

/-- Part 34 of the body: the load of slot 4's block, its store into the result, the wait on slot 5's send cell. -/
theorem arrive_34 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : BitVec 32 → sProp 𝕄) :
    iprop(cellInv ER (sched m) (K (c, sIx 5)) (sendCell c 5)
        ∗ owes (c : Thread nD τ) 0 W
        ∗ slotPts rM c 4 (slotBuf (sent m (back c (shiftOf 4)) 4))
        ∗ cred (tallyAt (sendCell c 5) () N)
        ∗ atPos ER (sendCell c 5) 0 ∅ 0
        ∗ (oM.view.loc (c : Thread nD τ) ↦[oM.view.set]{fullShare} fo))
      ⊢ iprop((∀ r : BitVec 32, (owes (c : Thread nD τ) 0 (insert (.dma (sendSem 5), ()) (W))
            ∗ slotPts rM c 4 (slotBuf (sent m (back c (shiftOf 4)) 4))
            ∗ atPos ER (sendCell c 5) (0 + 1) ∅ 0
            ∗ (∃ f, slotPts (F := F) sM c 5 f)
            ∗ (oM.view.loc (c : Thread nD τ) ↦[oM.view.set]{fullShare}
                ((oM.access (Rect.unit (s := S4096x1024) (k0_off4 c 3#32) S512x512.size (k0_off4_inb c 2))).write (Elt F) fo (k0_pay1 (sent m (back c (shiftOf 4)) 4)) Finset.univ)))
          -∗ Kt r)
        -∗ wp frame (wpE (defs₀ (F := F)) 𝒱₀ (c : Thread nD τ) none) Set.univ (k0_part34 a0 h0 a1 h1 oM h2 a3 h3 sM h4 rM h5 a6 cc0_scratch4 cc0_scratch5 c v2 w1) Kt) := by
  rw [k0_part34_eq_skeleton]; unfold k0_part34_skel
  simp only [Prog.lift, Prog.bind_op, Prog.bind_ret, Prog.pure_eq_ret]
  iintro ⟨#HiS5, HO, Hr4, HcS5, HaS5, Ho⟩ Hk
  iapply (wp_load_slot c 4 (sent m (back c (shiftOf 4)) 4)) $$ Hr4
  iintro Hr4
  iapply (wp_swap_out c fo) $$ Ho
  iintro Ho
  iapply (wp_wait_send_slot m K c 5 (W)) $$ [HcS5 HO HaS5]
  · isplitr; · iexact HiS5
    isplitl [HcS5]; · iexact HcS5
    isplitl [HO]; · iexact HO
    iexact HaS5
  iintro ⟨HO, HaS5, Hs5⟩
  rw [wp_ret]; imodintro
  iapply Hk
  isplitl [HO]; · iexact HO
  isplitl [Hr4]; · iexact Hr4
  isplitl [HaS5]; · iexact HaS5
  isplitl [Hs5]; · iexact Hs5
  iexact Ho

/-- Part 35 of the body: the wait on slot 5's receive cell, the load of slot 5's block, its store into the result, the wait on slot 6's send cell. -/
theorem arrive_35 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : BitVec 32 → sProp 𝕄) :
    iprop(cellInv ER (sched m) (K (c, rIx 5)) (recvCell c 5)
        ∗ cellInv ER (sched m) (K (c, sIx 6)) (sendCell c 6)
        ∗ owes (c : Thread nD τ) 0 W
        ∗ cred (tallyAt (recvCell c 5) () N)
        ∗ atPos ER (recvCell c 5) 0 ∅ 0
        ∗ cred (tallyAt (sendCell c 6) () N)
        ∗ atPos ER (sendCell c 6) 0 ∅ 0
        ∗ (oM.view.loc (c : Thread nD τ) ↦[oM.view.set]{fullShare} fo))
      ⊢ iprop((∀ r : BitVec 32, (owes (c : Thread nD τ) 0 (insert (.dma (sendSem 6), ()) (insert (.dma (recvSem 5), ()) (W)))
            ∗ atPos ER (recvCell c 5) (0 + 1) ∅ 0
            ∗ slotPts rM c 5 (slotBuf (sent m (back c (shiftOf 5)) 5))
            ∗ atPos ER (sendCell c 6) (0 + 1) ∅ 0
            ∗ (∃ f, slotPts (F := F) sM c 6 f)
            ∗ (oM.view.loc (c : Thread nD τ) ↦[oM.view.set]{fullShare}
                ((oM.access (Rect.unit (s := S4096x1024) (k0_off5 c 3#32) S512x512.size (k0_off5_inb c 2))).write (Elt F) fo (k0_pay1 (sent m (back c (shiftOf 5)) 5)) Finset.univ)))
          -∗ Kt r)
        -∗ wp frame (wpE (defs₀ (F := F)) 𝒱₀ (c : Thread nD τ) none) Set.univ (k0_part35 a0 h0 a1 h1 oM h2 a3 h3 sM h4 rM h5 a6 cc0_scratch4 cc0_scratch5 c v2 w1) Kt) := by
  rw [k0_part35_eq_skeleton]; unfold k0_part35_skel
  simp only [Prog.lift, Prog.bind_op, Prog.bind_ret, Prog.pure_eq_ret]
  iintro ⟨#HiR5, #HiS6, HO, HcR5, HaR5, HcS6, HaS6, Ho⟩ Hk
  iapply (wp_wait_recv_slot m K c 5 (W)) $$ [HcR5 HO HaR5]
  · isplitr; · iexact HiR5
    isplitl [HcR5]; · iexact HcR5
    isplitl [HO]; · iexact HO
    iexact HaR5
  iintro ⟨HO, HaR5, Hr5⟩
  iapply (wp_load_slot c 5 (sent m (back c (shiftOf 5)) 5)) $$ Hr5
  iintro Hr5
  iapply (wp_swap_out c fo) $$ Ho
  iintro Ho
  iapply (wp_wait_send_slot m K c 6 (insert (.dma (recvSem 5), ()) (W))) $$ [HcS6 HO HaS6]
  · isplitr; · iexact HiS6
    isplitl [HcS6]; · iexact HcS6
    isplitl [HO]; · iexact HO
    iexact HaS6
  iintro ⟨HO, HaS6, Hs6⟩
  rw [wp_ret]; imodintro
  iapply Hk
  isplitl [HO]; · iexact HO
  isplitl [HaR5]; · iexact HaR5
  isplitl [Hr5]; · iexact Hr5
  isplitl [HaS6]; · iexact HaS6
  isplitl [Hs6]; · iexact Hs6
  iexact Ho

/-- Part 36 of the body: the wait on slot 6's receive cell, the load of slot 6's block, its store into the result, the wait on slot 7's send cell. -/
theorem arrive_36 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : (Σ' (_ : BitVec 32) (_ : BitVec 32), BitVec 32) → sProp 𝕄) :
    iprop(cellInv ER (sched m) (K (c, rIx 6)) (recvCell c 6)
        ∗ cellInv ER (sched m) (K (c, sIx 7)) (sendCell c 7)
        ∗ owes (c : Thread nD τ) 0 W
        ∗ cred (tallyAt (recvCell c 6) () N)
        ∗ atPos ER (recvCell c 6) 0 ∅ 0
        ∗ cred (tallyAt (sendCell c 7) () N)
        ∗ atPos ER (sendCell c 7) 0 ∅ 0
        ∗ (oM.view.loc (c : Thread nD τ) ↦[oM.view.set]{fullShare} fo))
      ⊢ iprop((∀ r : (Σ' (_ : BitVec 32) (_ : BitVec 32), BitVec 32), (owes (c : Thread nD τ) 0 (insert (.dma (sendSem 7), ()) (insert (.dma (recvSem 6), ()) (W)))
            ∗ atPos ER (recvCell c 6) (0 + 1) ∅ 0
            ∗ slotPts rM c 6 (slotBuf (sent m (back c (shiftOf 6)) 6))
            ∗ atPos ER (sendCell c 7) (0 + 1) ∅ 0
            ∗ (∃ f, slotPts (F := F) sM c 7 f)
            ∗ (oM.view.loc (c : Thread nD τ) ↦[oM.view.set]{fullShare}
                ((oM.access (Rect.unit (s := S4096x1024) (k0_off4 c 4#32) S512x512.size (k0_off4_inb c 3))).write (Elt F) fo (k0_pay1 (sent m (back c (shiftOf 6)) 6)) Finset.univ)))
          -∗ Kt r)
        -∗ wp frame (wpE (defs₀ (F := F)) 𝒱₀ (c : Thread nD τ) none) Set.univ (k0_part36 a0 h0 a1 h1 oM h2 a3 h3 sM h4 rM h5 a6 cc0_scratch4 cc0_scratch5 c v2 w1) Kt) := by
  rw [k0_part36_eq_skeleton]; unfold k0_part36_skel
  simp only [Prog.lift, Prog.bind_op, Prog.bind_ret, Prog.pure_eq_ret]
  iintro ⟨#HiR6, #HiS7, HO, HcR6, HaR6, HcS7, HaS7, Ho⟩ Hk
  iapply (wp_wait_recv_slot m K c 6 (W)) $$ [HcR6 HO HaR6]
  · isplitr; · iexact HiR6
    isplitl [HcR6]; · iexact HcR6
    isplitl [HO]; · iexact HO
    iexact HaR6
  iintro ⟨HO, HaR6, Hr6⟩
  iapply (wp_load_slot c 6 (sent m (back c (shiftOf 6)) 6)) $$ Hr6
  iintro Hr6
  iapply (wp_swap_out c fo) $$ Ho
  iintro Ho
  iapply (wp_wait_send_slot m K c 7 (insert (.dma (recvSem 6), ()) (W))) $$ [HcS7 HO HaS7]
  · isplitr; · iexact HiS7
    isplitl [HcS7]; · iexact HcS7
    isplitl [HO]; · iexact HO
    iexact HaS7
  iintro ⟨HO, HaS7, Hs7⟩
  rw [wp_ret]; imodintro
  iapply Hk
  isplitl [HO]; · iexact HO
  isplitl [HaR6]; · iexact HaR6
  isplitl [Hr6]; · iexact Hr6
  isplitl [HaS7]; · iexact HaS7
  isplitl [Hs7]; · iexact Hs7
  iexact Ho

/-- Part 37 of the body: the wait on slot 7's receive cell, the load of slot 7's block, its store into the result, the wait on slot 8's send cell. -/
theorem arrive_37 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 32) (W : Waits sig Unit) (fo : Buf (Elt F) (oM.view.loc (c : Thread nD τ))) (Kt : BitVec 32 → sProp 𝕄) :
    iprop(cellInv ER (sched m) (K (c, rIx 7)) (recvCell c 7)
        ∗ cellInv ER (sched m) (K (c, sIx 8)) (sendCell c 8)
        ∗ owes (c : Thread nD τ) 0 W
        ∗ cred (tallyAt (recvCell c 7) () N)
        ∗ atPos ER (recvCell c 7) 0 ∅ 0
        ∗ cred (tallyAt (sendCell c 8) () N)
        ∗ atPos ER (sendCell c 8) 0 ∅ 0
        ∗ (oM.view.loc (c : Thread nD τ) ↦[oM.view.set]{fullShare} fo))
      ⊢ iprop((∀ r : BitVec 32, (owes (c : Thread nD τ) 0 (insert (.dma (sendSem 8), ()) (insert (.dma (recvSem 7), ()) (W)))
            ∗ atPos ER (recvCell c 7) (0 + 1) ∅ 0
            ∗ slotPts rM c 7 (slotBuf (sent m (back c (shiftOf 7)) 7))
            ∗ atPos ER (sendCell c 8) (0 + 1) ∅ 0
            ∗ (∃ f, slotPts (F := F) sM c 8 f)
            ∗ (oM.view.loc (c : Thread nD τ) ↦[oM.view.set]{fullShare}
                ((oM.access (Rect.unit (s := S4096x1024) (k0_off5 c 4#32) S512x512.size (k0_off5_inb c 3))).write (Elt F) fo (k0_pay1 (sent m (back c (shiftOf 7)) 7)) Finset.univ)))
          -∗ Kt r)
        -∗ wp frame (wpE (defs₀ (F := F)) 𝒱₀ (c : Thread nD τ) none) Set.univ (k0_part37 a0 h0 a1 h1 oM h2 a3 h3 sM h4 rM h5 a6 cc0_scratch4 cc0_scratch5 c v2 w1 w2 w3) Kt) := by
  rw [k0_part37_eq_skeleton]; unfold k0_part37_skel
  simp only [Prog.lift, Prog.bind_op, Prog.bind_ret, Prog.pure_eq_ret]
  iintro ⟨#HiR7, #HiS8, HO, HcR7, HaR7, HcS8, HaS8, Ho⟩ Hk
  iapply (wp_wait_recv_slot m K c 7 (W)) $$ [HcR7 HO HaR7]
  · isplitr; · iexact HiR7
    isplitl [HcR7]; · iexact HcR7
    isplitl [HO]; · iexact HO
    iexact HaR7
  iintro ⟨HO, HaR7, Hr7⟩
  iapply (wp_load_slot c 7 (sent m (back c (shiftOf 7)) 7)) $$ Hr7
  iintro Hr7
  iapply (wp_swap_out c fo) $$ Ho
  iintro Ho
  iapply (wp_wait_send_slot m K c 8 (insert (.dma (recvSem 7), ()) (W))) $$ [HcS8 HO HaS8]
  · isplitr; · iexact HiS8
    isplitl [HcS8]; · iexact HcS8
    isplitl [HO]; · iexact HO
    iexact HaS8
  iintro ⟨HO, HaS8, Hs8⟩
  rw [wp_ret]; imodintro
  iapply Hk
  isplitl [HO]; · iexact HO
  isplitl [HaR7]; · iexact HaR7
  isplitl [Hr7]; · iexact Hr7
  isplitl [HaS8]; · iexact HaS8
  isplitl [Hs8]; · iexact Hs8
  iexact Ho

/-- Part 38 of the body: the wait on slot 8's receive cell, the load of slot 8's block, its store into the result, the wait on slot 9's send cell. -/
theorem arrive_38 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (W : Waits sig Unit) (fo : Buf (Elt F) (oM.view.loc (c : Thread nD τ))) (Kt : (Σ' (_ : BitVec 32) (_ : BitVec 32) (_ : BitVec 1), BitVec 1) → sProp 𝕄) :
    iprop(cellInv ER (sched m) (K (c, rIx 8)) (recvCell c 8)
        ∗ cellInv ER (sched m) (K (c, sIx 9)) (sendCell c 9)
        ∗ owes (c : Thread nD τ) 0 W
        ∗ cred (tallyAt (recvCell c 8) () N)
        ∗ atPos ER (recvCell c 8) 0 ∅ 0
        ∗ cred (tallyAt (sendCell c 9) () N)
        ∗ atPos ER (sendCell c 9) 0 ∅ 0
        ∗ (oM.view.loc (c : Thread nD τ) ↦[oM.view.set]{fullShare} fo))
      ⊢ iprop((∀ r : (Σ' (_ : BitVec 32) (_ : BitVec 32) (_ : BitVec 1), BitVec 1), (owes (c : Thread nD τ) 0 (insert (.dma (sendSem 9), ()) (insert (.dma (recvSem 8), ()) (W)))
            ∗ atPos ER (recvCell c 8) (0 + 1) ∅ 0
            ∗ slotPts rM c 8 (slotBuf (sent m (back c (shiftOf 8)) 8))
            ∗ atPos ER (sendCell c 9) (0 + 1) ∅ 0
            ∗ (∃ f, slotPts (F := F) sM c 9 f)
            ∗ (oM.view.loc (c : Thread nD τ) ↦[oM.view.set]{fullShare}
                ((oM.access (Rect.unit (s := S4096x1024) (k0_off4 c 5#32) S512x512.size (k0_off4_inb c 4))).write (Elt F) fo (k0_pay1 (sent m (back c (shiftOf 8)) 8)) Finset.univ)))
          -∗ Kt r)
        -∗ wp frame (wpE (defs₀ (F := F)) 𝒱₀ (c : Thread nD τ) none) Set.univ (k0_part38 a0 h0 a1 h1 oM h2 a3 h3 sM h4 rM h5 a6 cc0_scratch4 cc0_scratch5 c v2 w1) Kt) := by
  rw [k0_part38_eq_skeleton]; unfold k0_part38_skel
  simp only [Prog.lift, Prog.bind_op, Prog.bind_ret, Prog.pure_eq_ret]
  iintro ⟨#HiR8, #HiS9, HO, HcR8, HaR8, HcS9, HaS9, Ho⟩ Hk
  iapply (wp_wait_recv_slot m K c 8 (W)) $$ [HcR8 HO HaR8]
  · isplitr; · iexact HiR8
    isplitl [HcR8]; · iexact HcR8
    isplitl [HO]; · iexact HO
    iexact HaR8
  iintro ⟨HO, HaR8, Hr8⟩
  iapply (wp_load_slot c 8 (sent m (back c (shiftOf 8)) 8)) $$ Hr8
  iintro Hr8
  iapply (wp_swap_out c fo) $$ Ho
  iintro Ho
  iapply (wp_wait_send_slot m K c 9 (insert (.dma (recvSem 8), ()) (W))) $$ [HcS9 HO HaS9]
  · isplitr; · iexact HiS9
    isplitl [HcS9]; · iexact HcS9
    isplitl [HO]; · iexact HO
    iexact HaS9
  iintro ⟨HO, HaS9, Hs9⟩
  rw [wp_ret]; imodintro
  iapply Hk
  isplitl [HO]; · iexact HO
  isplitl [HaR8]; · iexact HaR8
  isplitl [Hr8]; · iexact Hr8
  isplitl [HaS9]; · iexact HaS9
  isplitl [Hs9]; · iexact Hs9
  iexact Ho

/-- Part 39 of the body: the wait on slot 9's receive cell, the load of slot 9's block, its store into the result, the wait on slot 10's send cell. -/
theorem arrive_39 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (w4 : BitVec 1) (W : Waits sig Unit) (fo : Buf (Elt F) (oM.view.loc (c : Thread nD τ))) (Kt : (Σ' (_ : BitVec 32) (_ : BitVec 32), BitVec 1) → sProp 𝕄) :
    iprop(cellInv ER (sched m) (K (c, rIx 9)) (recvCell c 9)
        ∗ cellInv ER (sched m) (K (c, sIx 10)) (sendCell c 10)
        ∗ owes (c : Thread nD τ) 0 W
        ∗ cred (tallyAt (recvCell c 9) () N)
        ∗ atPos ER (recvCell c 9) 0 ∅ 0
        ∗ cred (tallyAt (sendCell c 10) () N)
        ∗ atPos ER (sendCell c 10) 0 ∅ 0
        ∗ (oM.view.loc (c : Thread nD τ) ↦[oM.view.set]{fullShare} fo))
      ⊢ iprop((∀ r : (Σ' (_ : BitVec 32) (_ : BitVec 32), BitVec 1), (owes (c : Thread nD τ) 0 (insert (.dma (sendSem 10), ()) (insert (.dma (recvSem 9), ()) (W)))
            ∗ atPos ER (recvCell c 9) (0 + 1) ∅ 0
            ∗ slotPts rM c 9 (slotBuf (sent m (back c (shiftOf 9)) 9))
            ∗ atPos ER (sendCell c 10) (0 + 1) ∅ 0
            ∗ (∃ f, slotPts (F := F) sM c 10 f)
            ∗ (oM.view.loc (c : Thread nD τ) ↦[oM.view.set]{fullShare}
                ((oM.access (Rect.unit (s := S4096x1024) (k0_off5 c 5#32) S512x512.size (k0_off5_inb c 4))).write (Elt F) fo (k0_pay1 (sent m (back c (shiftOf 9)) 9)) Finset.univ)))
          -∗ Kt r)
        -∗ wp frame (wpE (defs₀ (F := F)) 𝒱₀ (c : Thread nD τ) none) Set.univ (k0_part39 a0 h0 a1 h1 oM h2 a3 h3 sM h4 rM h5 a6 cc0_scratch4 cc0_scratch5 c v2 w1 w2 w3 w4) Kt) := by
  rw [k0_part39_eq_skeleton]; unfold k0_part39_skel
  simp only [Prog.lift, Prog.bind_op, Prog.bind_ret, Prog.pure_eq_ret]
  iintro ⟨#HiR9, #HiS10, HO, HcR9, HaR9, HcS10, HaS10, Ho⟩ Hk
  iapply (wp_wait_recv_slot m K c 9 (W)) $$ [HcR9 HO HaR9]
  · isplitr; · iexact HiR9
    isplitl [HcR9]; · iexact HcR9
    isplitl [HO]; · iexact HO
    iexact HaR9
  iintro ⟨HO, HaR9, Hr9⟩
  iapply (wp_load_slot c 9 (sent m (back c (shiftOf 9)) 9)) $$ Hr9
  iintro Hr9
  iapply (wp_swap_out c fo) $$ Ho
  iintro Ho
  iapply (wp_wait_send_slot m K c 10 (insert (.dma (recvSem 9), ()) (W))) $$ [HcS10 HO HaS10]
  · isplitr; · iexact HiS10
    isplitl [HcS10]; · iexact HcS10
    isplitl [HO]; · iexact HO
    iexact HaS10
  iintro ⟨HO, HaS10, Hs10⟩
  rw [wp_ret]; imodintro
  iapply Hk
  isplitl [HO]; · iexact HO
  isplitl [HaR9]; · iexact HaR9
  isplitl [Hr9]; · iexact Hr9
  isplitl [HaS10]; · iexact HaS10
  isplitl [Hs10]; · iexact Hs10
  iexact Ho

/-- Part 40 of the body: the wait on slot 10's receive cell, the load of slot 10's block, its store into the result, the wait on slot 11's send cell. -/
theorem arrive_40 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (W : Waits sig Unit) (fo : Buf (Elt F) (oM.view.loc (c : Thread nD τ))) (Kt : (Σ' (_ : BitVec 32) (_ : BitVec 32), BitVec 1) → sProp 𝕄) :
    iprop(cellInv ER (sched m) (K (c, rIx 10)) (recvCell c 10)
        ∗ cellInv ER (sched m) (K (c, sIx 11)) (sendCell c 11)
        ∗ owes (c : Thread nD τ) 0 W
        ∗ cred (tallyAt (recvCell c 10) () N)
        ∗ atPos ER (recvCell c 10) 0 ∅ 0
        ∗ cred (tallyAt (sendCell c 11) () N)
        ∗ atPos ER (sendCell c 11) 0 ∅ 0
        ∗ (oM.view.loc (c : Thread nD τ) ↦[oM.view.set]{fullShare} fo))
      ⊢ iprop((∀ r : (Σ' (_ : BitVec 32) (_ : BitVec 32), BitVec 1), (owes (c : Thread nD τ) 0 (insert (.dma (sendSem 11), ()) (insert (.dma (recvSem 10), ()) (W)))
            ∗ atPos ER (recvCell c 10) (0 + 1) ∅ 0
            ∗ slotPts rM c 10 (slotBuf (sent m (back c (shiftOf 10)) 10))
            ∗ atPos ER (sendCell c 11) (0 + 1) ∅ 0
            ∗ (∃ f, slotPts (F := F) sM c 11 f)
            ∗ (oM.view.loc (c : Thread nD τ) ↦[oM.view.set]{fullShare}
                ((oM.access (Rect.unit (s := S4096x1024) (k0_off4 c 6#32) S512x512.size (k0_off4_inb c 5))).write (Elt F) fo (k0_pay1 (sent m (back c (shiftOf 10)) 10)) Finset.univ)))
          -∗ Kt r)
        -∗ wp frame (wpE (defs₀ (F := F)) 𝒱₀ (c : Thread nD τ) none) Set.univ (k0_part40 a0 h0 a1 h1 oM h2 a3 h3 sM h4 rM h5 a6 cc0_scratch4 cc0_scratch5 c v2 w1 w2 w3) Kt) := by
  rw [k0_part40_eq_skeleton]; unfold k0_part40_skel
  simp only [Prog.lift, Prog.bind_op, Prog.bind_ret, Prog.pure_eq_ret]
  iintro ⟨#HiR10, #HiS11, HO, HcR10, HaR10, HcS11, HaS11, Ho⟩ Hk
  iapply (wp_wait_recv_slot m K c 10 (W)) $$ [HcR10 HO HaR10]
  · isplitr; · iexact HiR10
    isplitl [HcR10]; · iexact HcR10
    isplitl [HO]; · iexact HO
    iexact HaR10
  iintro ⟨HO, HaR10, Hr10⟩
  iapply (wp_load_slot c 10 (sent m (back c (shiftOf 10)) 10)) $$ Hr10
  iintro Hr10
  iapply (wp_swap_out c fo) $$ Ho
  iintro Ho
  iapply (wp_wait_send_slot m K c 11 (insert (.dma (recvSem 10), ()) (W))) $$ [HcS11 HO HaS11]
  · isplitr; · iexact HiS11
    isplitl [HcS11]; · iexact HcS11
    isplitl [HO]; · iexact HO
    iexact HaS11
  iintro ⟨HO, HaS11, Hs11⟩
  rw [wp_ret]; imodintro
  iapply Hk
  isplitl [HO]; · iexact HO
  isplitl [HaR10]; · iexact HaR10
  isplitl [Hr10]; · iexact Hr10
  isplitl [HaS11]; · iexact HaS11
  isplitl [Hs11]; · iexact Hs11
  iexact Ho

/-- Part 41 of the body: the wait on slot 11's receive cell, the load of slot 11's block, its store into the result, the wait on slot 12's send cell. -/
theorem arrive_41 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (w1 : BitVec 32) (w2 : BitVec 32) (w3 : BitVec 1) (W : Waits sig Unit) (fo : Buf (Elt F) (oM.view.loc (c : Thread nD τ))) (Kt : PUnit → sProp 𝕄) :
    iprop(cellInv ER (sched m) (K (c, rIx 11)) (recvCell c 11)
        ∗ cellInv ER (sched m) (K (c, sIx 12)) (sendCell c 12)
        ∗ owes (c : Thread nD τ) 0 W
        ∗ cred (tallyAt (recvCell c 11) () N)
        ∗ atPos ER (recvCell c 11) 0 ∅ 0
        ∗ cred (tallyAt (sendCell c 12) () N)
        ∗ atPos ER (sendCell c 12) 0 ∅ 0
        ∗ (oM.view.loc (c : Thread nD τ) ↦[oM.view.set]{fullShare} fo))
      ⊢ iprop(((owes (c : Thread nD τ) 0 (insert (.dma (sendSem 12), ()) (insert (.dma (recvSem 11), ()) (W)))
            ∗ atPos ER (recvCell c 11) (0 + 1) ∅ 0
            ∗ slotPts rM c 11 (slotBuf (sent m (back c (shiftOf 11)) 11))
            ∗ atPos ER (sendCell c 12) (0 + 1) ∅ 0
            ∗ (∃ f, slotPts (F := F) sM c 12 f)
            ∗ (oM.view.loc (c : Thread nD τ) ↦[oM.view.set]{fullShare}
                ((oM.access (Rect.unit (s := S4096x1024) (k0_off5 c 6#32) S512x512.size (k0_off5_inb c 5))).write (Elt F) fo (k0_pay1 (sent m (back c (shiftOf 11)) 11)) Finset.univ)))
          -∗ Kt ⟨⟩)
        -∗ wp frame (wpE (defs₀ (F := F)) 𝒱₀ (c : Thread nD τ) none) Set.univ (k0_part41 a0 h0 a1 h1 oM h2 a3 h3 sM h4 rM h5 a6 cc0_scratch4 cc0_scratch5 c v2 w1 w2 w3) Kt) := by
  rw [k0_part41_eq_skeleton]; unfold k0_part41_skel
  simp only [Prog.lift, Prog.bind_op, Prog.bind_ret, Prog.pure_eq_ret]
  iintro ⟨#HiR11, #HiS12, HO, HcR11, HaR11, HcS12, HaS12, Ho⟩ Hk
  iapply (wp_wait_recv_slot m K c 11 (W)) $$ [HcR11 HO HaR11]
  · isplitr; · iexact HiR11
    isplitl [HcR11]; · iexact HcR11
    isplitl [HO]; · iexact HO
    iexact HaR11
  iintro ⟨HO, HaR11, Hr11⟩
  iapply (wp_load_slot c 11 (sent m (back c (shiftOf 11)) 11)) $$ Hr11
  iintro Hr11
  iapply (wp_swap_out c fo) $$ Ho
  iintro Ho
  iapply (wp_wait_send_slot m K c 12 (insert (.dma (recvSem 11), ()) (W))) $$ [HcS12 HO HaS12]
  · isplitr; · iexact HiS12
    isplitl [HcS12]; · iexact HcS12
    isplitl [HO]; · iexact HO
    iexact HaS12
  iintro ⟨HO, HaS12, Hs12⟩
  rw [wp_ret]; imodintro
  iapply Hk
  isplitl [HO]; · iexact HO
  isplitl [HaR11]; · iexact HaR11
  isplitl [Hr11]; · iexact Hr11
  isplitl [HaS12]; · iexact HaS12
  isplitl [Hs12]; · iexact Hs12
  iexact Ho

/-- Part 42 of the body: the wait on slot 12's receive cell, the load of slot 12's block, its store into the result. -/
theorem arrive_42 (K : Dev nD × Fin 29 → ℕ) (c : Dev nD)
    (a0 : Memref sig .tc .vmem S512x4096 .f32) (h0 : a0.IsWhole) (a1 : Memref sig .tc .hbm S4096x8192 .f32) (h1 : a1.IsWhole)
    {h2 : (oM : Memref sig .tc .vmem S4096x1024 .f32).IsWhole} (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (W : Waits sig Unit) (fo : Buf (Elt F) (oM.view.loc (c : Thread nD τ))) (Kt : PUnit → sProp 𝕄) :
    iprop(cellInv ER (sched m) (K (c, rIx 12)) (recvCell c 12)
        ∗ owes (c : Thread nD τ) 0 W
        ∗ cred (tallyAt (recvCell c 12) () N)
        ∗ atPos ER (recvCell c 12) 0 ∅ 0
        ∗ (oM.view.loc (c : Thread nD τ) ↦[oM.view.set]{fullShare} fo))
      ⊢ iprop(((owes (c : Thread nD τ) 0 (insert (.dma (recvSem 12), ()) (W))
            ∗ atPos ER (recvCell c 12) (0 + 1) ∅ 0
            ∗ slotPts rM c 12 (slotBuf (sent m (back c (shiftOf 12)) 12))
            ∗ (oM.view.loc (c : Thread nD τ) ↦[oM.view.set]{fullShare}
                ((oM.access (Rect.unit (s := S4096x1024) (k0_off4 c 7#32) S512x512.size (k0_off4_inb c 6))).write (Elt F) fo (k0_pay1 (sent m (back c (shiftOf 12)) 12)) Finset.univ)))
          -∗ Kt ⟨⟩)
        -∗ wp frame (wpE (defs₀ (F := F)) 𝒱₀ (c : Thread nD τ) none) Set.univ (k0_part42 a0 h0 a1 h1 oM h2 a3 h3 sM h4 rM h5 a6 cc0_scratch4 cc0_scratch5 c v2) Kt) := by
  rw [k0_part42_eq_skeleton]; unfold k0_part42_skel
  simp only [Prog.lift, Prog.bind_op, Prog.bind_ret, Prog.pure_eq_ret]
  iintro ⟨#HiR12, HO, HcR12, HaR12, Ho⟩ Hk
  iapply (wp_wait_recv_slot m K c 12 (W)) $$ [HcR12 HO HaR12]
  · isplitr; · iexact HiR12
    isplitl [HcR12]; · iexact HcR12
    isplitl [HO]; · iexact HO
    iexact HaR12
  iintro ⟨HO, HaR12, Hr12⟩
  iapply (wp_load_slot c 12 (sent m (back c (shiftOf 12)) 12)) $$ Hr12
  iintro Hr12
  iapply (wp_swap_out c fo) $$ Ho
  iintro Ho
  rw [wp_ret]; imodintro
  iapply Hk
  isplitl [HO]; · iexact HO
  isplitl [HaR12]; · iexact HaR12
  isplitl [Hr12]; · iexact Hr12
  iexact Ho

end Cert.Kernel.A2A

end
-- ==== Proof.Bits.Close.lean ====
/-
  The end of a device's body: its fourteen send cells and fourteen receive cells, each past its one round with nothing
  taken, are closed, which gives their counters back at zero; with the two copy semaphores, already at zero, these are the
  thirty semaphores of its own that the launch wants back.
-/
import proofs.«900797_g7700000000000798_dist_gemm_a2a_m4096_k4096_n8192_f32_relu_v7x_i8_1_alg».proof.Proof.Bits.Proto

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The thirty own semaphores as the launch indexes them: the two copy semaphores first, then the fourteen send, then the
    fourteen receive semaphores. -/
def ownIx : Fin 2 ⊕ (Fin 14 ⊕ Fin 14) ≃ Fin 30 where
  toFun
    | .inl i => ⟨i.val, by have := i.isLt; omega⟩
    | .inr (.inl v) => ⟨2 + v.val, by have := v.isLt; omega⟩
    | .inr (.inr v) => ⟨16 + v.val, by have := v.isLt; omega⟩
  invFun k :=
    if h : k.val < 2 then .inl ⟨k.val, h⟩
    else if h' : k.val < 16 then .inr (.inl ⟨k.val - 2, by omega⟩)
    else .inr (.inr ⟨k.val - 16, by have := k.isLt; omega⟩)
  left_inv := by decide
  right_inv := by decide

theorem osem_send (v : Fin 14) : osem (ownIx (.inr (.inl v))) = .dma (sendSem v) :=
  congrArg SemLoc.dma (Fin.ext (by show 2 + (2 + v.val) = 4 + v.val; omega))
theorem osem_recv (v : Fin 14) : osem (ownIx (.inr (.inr v))) = .dma (recvSem v) :=
  congrArg SemLoc.dma (Fin.ext (by show 2 + (16 + v.val) = 18 + v.val; omega))

/-- A device's thirty own semaphores at zero are its two copy semaphores, its send cells and its receive cells at zero. -/
theorem ownSems0_split (c : Dev nD) :
    (Pipeline.ownSems0 (Ix := Unit) (Name := ℕ) (U := UU) (Lvl := ℕ) (Val := Elt F) (τ := τ) osem c : sProp 𝕄)
      = iprop((semVal (copyCell c 0) 0 ∗ semVal (copyCell c 1) 0)
          ∗ (bigSep Finset.univ fun v : Fin 14 => semVal (sendCell c v) 0) ∗ bigSep Finset.univ fun v : Fin 14 => semVal (recvCell c v) 0) := by
  unfold Pipeline.ownSems0
  rw [bigSep_univ_equiv ownIx (fun k : Fin 30 => (semVal (((c : Dev nD).tc : Thread nD τ), osem k) 0 : sProp 𝕄)),
    bigSep_univ_sum, bigSep_univ_sum, bigSep_univ_two]
  simp only [osem_send, osem_recv]
  rfl

/-- One slot's send and receive cell closed. -/
theorem close_slot (K : Dev nD × Fin 29 → ℕ) (c : Dev nD) (v : Fin 14) :
    iprop(cellInv ER (sched m) (K (c, sIx v)) (sendCell c v) ∗ cellInv ER (sched m) (K (c, rIx v)) (recvCell c v)
        ∗ atPos ER (sendCell c v) 1 ∅ 0 ∗ atPos ER (recvCell c v) 1 ∅ 0)
      ⊢ |={Set.univ}=> (iprop(semVal (sendCell c v) 0 ∗ semVal (recvCell c v) 0) : sProp 𝕄) := by
  iintro ⟨HiS, HiR, HaS, HaR⟩
  imod (Rounds.cell_close ER (sched m) (Set.mem_univ (K (c, sIx v))) (fun h => h) (R := 1) (duties_later m (sendCell c v))) $$ [HiS HaS] with HzS
  · isplitl [HiS]; · iexact HiS
    iexact HaS
  imod (Rounds.cell_close ER (sched m) (Set.mem_univ (K (c, rIx v))) (fun h => h) (R := 1) (duties_later m (recvCell c v))) $$ [HiR HaR] with HzR
  · isplitl [HiR]; · iexact HiR
    iexact HaR
  imodintro
  isplitl [HzS]; · iexact HzS
  iexact HzR

/-- All twenty-eight cells closed under one update; with the copy semaphores, the thirty own semaphores at zero. -/
theorem close_own (K : Dev nD × Fin 29 → ℕ) (c : Dev nD) :
    iprop((bigSep Finset.univ fun v : Fin 14 => iprop(cellInv ER (sched m) (K (c, sIx v)) (sendCell c v) ∗ cellInv ER (sched m) (K (c, rIx v)) (recvCell c v)
              ∗ atPos ER (sendCell c v) 1 ∅ 0 ∗ atPos ER (recvCell c v) 1 ∅ 0))
        ∗ semVal (copyCell c 0) 0 ∗ semVal (copyCell c 1) 0)
      ⊢ |={Set.univ}=> (Pipeline.ownSems0 (Ix := Unit) (Name := ℕ) (U := UU) (Lvl := ℕ) (Val := Elt F) (τ := τ) osem c : sProp 𝕄) := by
  have hall : (bigSep Finset.univ fun v : Fin 14 => iprop(cellInv ER (sched m) (K (c, sIx v)) (sendCell c v) ∗ cellInv ER (sched m) (K (c, rIx v)) (recvCell c v)
        ∗ atPos ER (sendCell c v) 1 ∅ 0 ∗ atPos ER (recvCell c v) 1 ∅ 0) : sProp 𝕄)
      ⊢ |={Set.univ}=> iprop((bigSep Finset.univ fun v : Fin 14 => semVal (sendCell c v) 0) ∗ bigSep Finset.univ fun v : Fin 14 => semVal (recvCell c v) 0) := by
    rw [← bigSep_sep']
    exact (bigSep_mono (s := Finset.univ) fun v _ => close_slot m K c v).trans (bigSep_fupd Finset.univ _)
  rw [ownSems0_split]
  iintro ⟨H, Hc0, Hc1⟩
  imod hall $$ H with ⟨HS, HR⟩
  imodintro
  isplitl [Hc0 Hc1]
  · isplitl [Hc0]; · iexact Hc0
    iexact Hc1
  isplitl [HS]; · iexact HS
  iexact HR

/-- The same with the round spelt as the step past round 0. -/
theorem close_own' (K : Dev nD × Fin 29 → ℕ) (c : Dev nD) :
    iprop((bigSep Finset.univ fun v : Fin 14 => iprop(cellInv ER (sched m) (K (c, sIx v)) (sendCell c v) ∗ cellInv ER (sched m) (K (c, rIx v)) (recvCell c v)
              ∗ atPos ER (sendCell c v) (0 + 1) ∅ 0 ∗ atPos ER (recvCell c v) (0 + 1) ∅ 0))
        ∗ semVal (copyCell c 0) 0 ∗ semVal (copyCell c 1) 0)
      ⊢ |={Set.univ}=> (Pipeline.ownSems0 (Ix := Unit) (Name := ℕ) (U := UU) (Lvl := ℕ) (Val := Elt F) (τ := τ) osem c : sProp 𝕄) :=
  close_own m K c

end Cert.Kernel.A2A

end
-- ==== Proof.Bits.Finish.lean ====
/-
  After the last arrival: the twenty-eight own cells are closed, the fourteen send slots and the fourteen receive slots
  are joined back into their two buffers, and with the slab buffer, the two copy semaphores and the weights this is what
  the launch wants back from a device's body.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Close
import proofs.«900797_g7700000000000798_dist_gemm_a2a_m4096_k4096_n8192_f32_relu_v7x_i8_1_alg».proof.Proof.Bits.Facts

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over the fourteen slots, written out. -/
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- Fourteen slots, each held at some contents, are the buffer whole at some contents. -/
theorem slots_join_ex (M : Memref sig .tc .vmem S14x512x512 .bf16) (hM : M.IsWhole) (c : Dev nD) :
    (bigSep Finset.univ fun v : Fin 14 => iprop(∃ f, slotPts (F := F) M c v f) : sProp 𝕄)
      ⊢ iprop(∃ f, M.view.loc (c : Thread nD τ) ↦[M.view.set]{fullShare} f) := by
  refine (bigSep_exists_pi Finset.univ
    (fun (v : Fin 14) (f : Buf (Elt F) (M.view.loc (c : Thread nD τ))) => slotPts (F := F) M c v f)).trans ?_
  iintro ⟨%fv, H⟩
  iapply (slots_join M hM c fv)
  iexact H

/-- The two slot buffers, whole at some contents, as the launch names them. -/
theorem sM_whole (c : Dev nD) (f : Buf (Elt F) (sM.view.loc (c : Thread nD τ))) :
    (sM.view.loc (c : Thread nD τ) ↦[sM.view.set]{fullShare} f : sProp 𝕄) = (((c : Thread nD τ).loc cc0_scratch1) ↦{fullShare} f) := by
  rw [show (sM : Memref sig .tc .vmem S14x512x512 .bf16).view.set = Finset.univ from View.set_whole _]
theorem rM_whole (c : Dev nD) (f : Buf (Elt F) (rM.view.loc (c : Thread nD τ))) :
    (rM.view.loc (c : Thread nD τ) ↦[rM.view.set]{fullShare} f : sProp 𝕄) = (((c : Thread nD τ).loc cc0_scratch2) ↦{fullShare} f) := by
  rw [show (rM : Memref sig .tc .vmem S14x512x512 .bf16).view.set = Finset.univ from View.set_whole _]
theorem oM_whole (c : Dev nD) (f : Buf (Elt F) (oM.view.loc (c : Thread nD τ))) :
    (oM.view.loc (c : Thread nD τ) ↦[oM.view.set]{fullShare} f : sProp 𝕄) = (((c : Thread nD τ).loc cc0_stg1_0) ↦{fullShare} f) := by
  rw [show (oM : Memref sig .tc .vmem S4096x1024 .f32).view.set = Finset.univ from View.set_whole _]

/-- What a device's body hands back: from every slot's two cells past their round, the slots themselves, the two copy
    semaphores at zero, the slab buffer and the weights. -/
theorem close_phi1 (K : Dev nD × Fin 29 → ℕ) (c : Dev nD) (fk : Buf (Elt F) ((c : Thread nD τ).loc cc0_scratch0)) :
    iprop((bigSep Finset.univ fun v : Fin 14 => iprop(cellInv ER (sched m) (K (c, sIx v)) (sendCell c v) ∗ cellInv ER (sched m) (K (c, rIx v)) (recvCell c v)
              ∗ atPos ER (sendCell c v) (0 + 1) ∅ 0 ∗ atPos ER (recvCell c v) (0 + 1) ∅ 0))
        ∗ (bigSep Finset.univ fun v : Fin 14 => iprop(∃ f, slotPts (F := F) sM c v f))
        ∗ (bigSep Finset.univ fun v : Fin 14 => iprop(∃ f, slotPts (F := F) rM c v f))
        ∗ semVal (copyCell c 0) 0 ∗ semVal (copyCell c 1) 0
        ∗ (((c : Thread nD τ).loc cc0_scratch0) ↦{fullShare} fk)
        ∗ (((c : Thread nD τ).loc main_arg1) ↦{fullShare} ws m c))
      ⊢ |={Set.univ}=> (Φ₁ m c : sProp 𝕄) := by
  unfold Φ₁ scratch
  iintro ⟨Hcells, HsS, HsR, Hc0, Hc1, Hk, Hw⟩
  imod (close_own' m K c) $$ [Hcells Hc0 Hc1] with Hown
  · isplitl [Hcells]; · iexact Hcells
    isplitl [Hc0]; · iexact Hc0
    iexact Hc1
  ihave Hs := (slots_join_ex sM (Memref.isWhole_whole _) c) $$ HsS
  icases Hs with ⟨%fs, Hs⟩
  ihave Hr := (slots_join_ex rM (Memref.isWhole_whole _) c) $$ HsR
  icases Hr with ⟨%fr, Hr⟩
  ihave Hs := (Entails.of_eq (sM_whole c fs)) $$ Hs
  ihave Hr := (Entails.of_eq (rM_whole c fr)) $$ Hr
  imodintro
  isplitl [Hk Hs Hr]
  · isplitl [Hk]; · iexists fk; iexact Hk
    isplitl [Hs]; · iexists fs; iexact Hs
    iexists fr; iexact Hr
  isplitl [Hown]; · iexact Hown
  iexact Hw

/-- Owing nothing is what the launch asks of a device after its body. -/
theorem owesAt_done (c : Dev nD) (W : Waits sig Unit) :
    (owes (c : Thread nD τ) 0 W : sProp 𝕄) ⊢ (dats (F := F) m 0 c).owesAt () t0_0.succ := by
  unfold Dat.owesAt Pipeline.owesWithin
  rw [show (dats (F := F) m 0 c).owed t0_0.succ = 0 from rfl]
  iintro HO
  iexists W
  isplitr; · ipureintro; exact fun _ _ => Or.inl trivial
  iexact HO

/-- The closing entailment of a device's body after the last arrival. -/
theorem close_body (K : Dev nD × Fin 29 → ℕ) (c : Dev nD) (W : Waits sig Unit)
    (g0 : Buf (Elt F) (xM.view.loc (c : Thread nD τ))) (hx : g0 = xs m c)
    (fk : Buf (Elt F) (kM.view.loc (c : Thread nD τ)))
    (fo : Buf (Elt F) (oM.view.loc (c : Thread nD τ))) (hfo : fo = outC m c)
    (fsv0 : Buf (Elt F) (sM.view.loc (c : Thread nD τ))) (fsv1 : Buf (Elt F) (sM.view.loc (c : Thread nD τ))) (fsv2 : Buf (Elt F) (sM.view.loc (c : Thread nD τ))) (fsv3 : Buf (Elt F) (sM.view.loc (c : Thread nD τ))) (fsv4 : Buf (Elt F) (sM.view.loc (c : Thread nD τ))) (fsv5 : Buf (Elt F) (sM.view.loc (c : Thread nD τ))) (fsv6 : Buf (Elt F) (sM.view.loc (c : Thread nD τ))) (fsv7 : Buf (Elt F) (sM.view.loc (c : Thread nD τ))) (fsv8 : Buf (Elt F) (sM.view.loc (c : Thread nD τ))) (fsv9 : Buf (Elt F) (sM.view.loc (c : Thread nD τ))) (fsv10 : Buf (Elt F) (sM.view.loc (c : Thread nD τ))) (fsv11 : Buf (Elt F) (sM.view.loc (c : Thread nD τ))) (fsv12 : Buf (Elt F) (sM.view.loc (c : Thread nD τ))) (fsv13 : Buf (Elt F) (sM.view.loc (c : Thread nD τ))) :
    iprop(((cellInv ER (sched m) (K (c, sIx 0)) (sendCell c 0) ∗ cellInv ER (sched m) (K (c, rIx 0)) (recvCell c 0) ∗ atPos ER (sendCell c 0) (0 + 1) ∅ 0 ∗ atPos ER (recvCell c 0) (0 + 1) ∅ 0)
        ∗ (cellInv ER (sched m) (K (c, sIx 1)) (sendCell c 1) ∗ cellInv ER (sched m) (K (c, rIx 1)) (recvCell c 1) ∗ atPos ER (sendCell c 1) (0 + 1) ∅ 0 ∗ atPos ER (recvCell c 1) (0 + 1) ∅ 0)
        ∗ (cellInv ER (sched m) (K (c, sIx 2)) (sendCell c 2) ∗ cellInv ER (sched m) (K (c, rIx 2)) (recvCell c 2) ∗ atPos ER (sendCell c 2) (0 + 1) ∅ 0 ∗ atPos ER (recvCell c 2) (0 + 1) ∅ 0)
        ∗ (cellInv ER (sched m) (K (c, sIx 3)) (sendCell c 3) ∗ cellInv ER (sched m) (K (c, rIx 3)) (recvCell c 3) ∗ atPos ER (sendCell c 3) (0 + 1) ∅ 0 ∗ atPos ER (recvCell c 3) (0 + 1) ∅ 0)
        ∗ (cellInv ER (sched m) (K (c, sIx 4)) (sendCell c 4) ∗ cellInv ER (sched m) (K (c, rIx 4)) (recvCell c 4) ∗ atPos ER (sendCell c 4) (0 + 1) ∅ 0 ∗ atPos ER (recvCell c 4) (0 + 1) ∅ 0)
        ∗ (cellInv ER (sched m) (K (c, sIx 5)) (sendCell c 5) ∗ cellInv ER (sched m) (K (c, rIx 5)) (recvCell c 5) ∗ atPos ER (sendCell c 5) (0 + 1) ∅ 0 ∗ atPos ER (recvCell c 5) (0 + 1) ∅ 0)
        ∗ (cellInv ER (sched m) (K (c, sIx 6)) (sendCell c 6) ∗ cellInv ER (sched m) (K (c, rIx 6)) (recvCell c 6) ∗ atPos ER (sendCell c 6) (0 + 1) ∅ 0 ∗ atPos ER (recvCell c 6) (0 + 1) ∅ 0)
        ∗ (cellInv ER (sched m) (K (c, sIx 7)) (sendCell c 7) ∗ cellInv ER (sched m) (K (c, rIx 7)) (recvCell c 7) ∗ atPos ER (sendCell c 7) (0 + 1) ∅ 0 ∗ atPos ER (recvCell c 7) (0 + 1) ∅ 0)
        ∗ (cellInv ER (sched m) (K (c, sIx 8)) (sendCell c 8) ∗ cellInv ER (sched m) (K (c, rIx 8)) (recvCell c 8) ∗ atPos ER (sendCell c 8) (0 + 1) ∅ 0 ∗ atPos ER (recvCell c 8) (0 + 1) ∅ 0)
        ∗ (cellInv ER (sched m) (K (c, sIx 9)) (sendCell c 9) ∗ cellInv ER (sched m) (K (c, rIx 9)) (recvCell c 9) ∗ atPos ER (sendCell c 9) (0 + 1) ∅ 0 ∗ atPos ER (recvCell c 9) (0 + 1) ∅ 0)
        ∗ (cellInv ER (sched m) (K (c, sIx 10)) (sendCell c 10) ∗ cellInv ER (sched m) (K (c, rIx 10)) (recvCell c 10) ∗ atPos ER (sendCell c 10) (0 + 1) ∅ 0 ∗ atPos ER (recvCell c 10) (0 + 1) ∅ 0)
        ∗ (cellInv ER (sched m) (K (c, sIx 11)) (sendCell c 11) ∗ cellInv ER (sched m) (K (c, rIx 11)) (recvCell c 11) ∗ atPos ER (sendCell c 11) (0 + 1) ∅ 0 ∗ atPos ER (recvCell c 11) (0 + 1) ∅ 0)
        ∗ (cellInv ER (sched m) (K (c, sIx 12)) (sendCell c 12) ∗ cellInv ER (sched m) (K (c, rIx 12)) (recvCell c 12) ∗ atPos ER (sendCell c 12) (0 + 1) ∅ 0 ∗ atPos ER (recvCell c 12) (0 + 1) ∅ 0)
        ∗ (cellInv ER (sched m) (K (c, sIx 13)) (sendCell c 13) ∗ cellInv ER (sched m) (K (c, rIx 13)) (recvCell c 13) ∗ atPos ER (sendCell c 13) (0 + 1) ∅ 0 ∗ atPos ER (recvCell c 13) (0 + 1) ∅ 0))
      ∗ semVal (copyCell c 0) 0 ∗ semVal (copyCell c 1) 0
      ∗ (wM.view.loc (c : Thread nD τ) ↦{fullShare} ws m c)
      ∗ (kM.view.loc (c : Thread nD τ) ↦{fullShare} fk)
      ∗ (slotPts sM c 0 fsv0 ∗ slotPts sM c 1 fsv1 ∗ slotPts sM c 2 fsv2 ∗ slotPts sM c 3 fsv3 ∗ slotPts sM c 4 fsv4 ∗ slotPts sM c 5 fsv5 ∗ slotPts sM c 6 fsv6 ∗ slotPts sM c 7 fsv7 ∗ slotPts sM c 8 fsv8 ∗ slotPts sM c 9 fsv9 ∗ slotPts sM c 10 fsv10 ∗ slotPts sM c 11 fsv11 ∗ slotPts sM c 12 fsv12 ∗ slotPts sM c 13 fsv13)
      ∗ (slotPts rM c 0 (slotBuf (sent m (back c (shiftOf 0)) 0)) ∗ slotPts rM c 1 (slotBuf (sent m (back c (shiftOf 1)) 1)) ∗ slotPts rM c 2 (slotBuf (sent m (back c (shiftOf 2)) 2)) ∗ slotPts rM c 3 (slotBuf (sent m (back c (shiftOf 3)) 3)) ∗ slotPts rM c 4 (slotBuf (sent m (back c (shiftOf 4)) 4)) ∗ slotPts rM c 5 (slotBuf (sent m (back c (shiftOf 5)) 5)) ∗ slotPts rM c 6 (slotBuf (sent m (back c (shiftOf 6)) 6)) ∗ slotPts rM c 7 (slotBuf (sent m (back c (shiftOf 7)) 7)) ∗ slotPts rM c 8 (slotBuf (sent m (back c (shiftOf 8)) 8)) ∗ slotPts rM c 9 (slotBuf (sent m (back c (shiftOf 9)) 9)) ∗ slotPts rM c 10 (slotBuf (sent m (back c (shiftOf 10)) 10)) ∗ slotPts rM c 11 (slotBuf (sent m (back c (shiftOf 11)) 11)) ∗ slotPts rM c 12 (slotBuf (sent m (back c (shiftOf 12)) 12)) ∗ slotPts rM c 13 (slotBuf (sent m (back c (shiftOf 13)) 13)))
      ∗ owes (c : Thread nD τ) 0 W
      ∗ (xM.view.loc (c : Thread nD τ) ↦{fullShare} g0)
      ∗ (oM.view.loc (c : Thread nD τ) ↦[oM.view.set]{fullShare} fo))
    ⊢ iprop(|={Set.univ}=> (Φ₁ m c ∗ (dats m 0 c).owesAt () t0_0.succ
        ∗ (∃ f : Buf (Elt F) ((c : Thread nD τ).loc cc0_stg0_0), ⌜f = xstg m c⌝ ∗ (((c : Thread nD τ).loc cc0_stg0_0) ↦{fullShare} f))
        ∗ (∃ f : Buf (Elt F) ((c : Thread nD τ).loc cc0_stg1_0), ⌜f = outC m c⌝ ∗ (((c : Thread nD τ).loc cc0_stg1_0) ↦{fullShare} f)))) := by
  subst hx hfo
  have h := close_phi1 m K c fk
  rw [bigSep_fin14, bigSep_fin14, bigSep_fin14] at h
  iintro ⟨HG, Hc0, Hc1, Hw, Hk, ⟨S0, S1, S2, S3, S4, S5, S6, S7, S8, S9, S10, S11, S12, S13⟩, ⟨R0, R1, R2, R3, R4, R5, R6, R7, R8, R9, R10, R11, R12, R13⟩, HO, Hx, Ho⟩
  imod h $$ [HG Hc0 Hc1 Hw Hk S0 S1 S2 S3 S4 S5 S6 S7 S8 S9 S10 S11 S12 S13 R0 R1 R2 R3 R4 R5 R6 R7 R8 R9 R10 R11 R12 R13] with HΦ
  · isplitl [HG]; · iexact HG
    isplitl [S0 S1 S2 S3 S4 S5 S6 S7 S8 S9 S10 S11 S12 S13]
    ·
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      isplitl [S12]; · iexists _; iexact S12
      iexists _; iexact S13
    isplitl [R0 R1 R2 R3 R4 R5 R6 R7 R8 R9 R10 R11 R12 R13]
    ·
      isplitl [R0]; · iexists _; iexact R0
      isplitl [R1]; · iexists _; iexact R1
      isplitl [R2]; · iexists _; iexact R2
      isplitl [R3]; · iexists _; iexact R3
      isplitl [R4]; · iexists _; iexact R4
      isplitl [R5]; · iexists _; iexact R5
      isplitl [R6]; · iexists _; iexact R6
      isplitl [R7]; · iexists _; iexact R7
      isplitl [R8]; · iexists _; iexact R8
      isplitl [R9]; · iexists _; iexact R9
      isplitl [R10]; · iexists _; iexact R10
      isplitl [R11]; · iexists _; iexact R11
      isplitl [R12]; · iexists _; iexact R12
      iexists _; iexact R13
    isplitl [Hc0]; · iexact Hc0
    isplitl [Hc1]; · iexact Hc1
    isplitl [Hk]; · iexact Hk
    iexact Hw
  ihave HO := (owesAt_done m c W) $$ HO
  ihave Ho := (Entails.of_eq (oM_whole c (outC m c))) $$ Ho
  imodintro
  isplitl [HΦ]; · iexact HΦ
  isplitl [HO]; · iexact HO
  isplitl [Hx]
  · iexists (xs m c)
    isplitr; · ipureintro; exact (xstg_eq m c).symm
    iexact Hx
  iexists (outC m c)
  isplitr; · ipureintro; rfl
  iexact Ho

end Cert.Kernel.A2A

end
-- ==== Proof.Bits.Local.lean ====
/-
  The local effects of a device's body over slot hypotheses: the fetch of a slab of weight columns into one of the two
  scratch slots and its wait, the loads of the x block and of a slab, and the dead load and the store of a send slot.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Facts
import proofs.«900797_g7700000000000798_dist_gemm_a2a_m4096_k4096_n8192_f32_relu_v7x_i8_1_alg».proof.Proof.Bits.Steps
import proofs.«900797_g7700000000000798_dist_gemm_a2a_m4096_k4096_n8192_f32_relu_v7x_i8_1_alg».proof.Proof.Bits.Slab

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is still owed after the first transfers -/

/-- The receive credits of the last n slots, slot 13's first. -/
def owedTop (c : Dev nD) : ℕ → CellTallies nD τ sig Unit
  | 0 => 0
  | n + 1 => owedTop c n + rT c ⟨13 - n, by omega⟩

/-- What a device still owes when the transfers of slots 0 … k - 1 have been issued. -/
def owedAfter (c : Dev nD) (k : ℕ) : CellTallies nD τ sig Unit := owedTop c (14 - k)

theorem owedAfter_zero (c : Dev nD) : owedAfter c 0 = OR c := by
  rfl
theorem owedAfter_last (c : Dev nD) : owedAfter c 14 = 0 := rfl
theorem owedAfter_step (c : Dev nD) (v : Fin 14) : owedAfter c v.val = owedAfter c (v.val + 1) + rT c v := by
  fin_cases v <;> rfl
theorem owedAfter_le (c : Dev nD) (k : ℕ) : owedAfter c k ≤ O₀ c := by
  have mono : ∀ n k', owedTop c n ≤ owedTop c (n + k') := by
    intro n k'
    induction k' with
    | zero => exact le_rfl
    | succ k' ih => exact ih.trans (show owedTop c (n + k') ≤ owedTop c (n + k') + rT c ⟨13 - (n + k'), by omega⟩ from le_self_add)
  have h14 : owedTop c (14 - k) ≤ owedTop c 14 := by
    have := mono (14 - k) (14 - (14 - k))
    rwa [show 14 - k + (14 - (14 - k)) = 14 by omega] at this
  exact h14.trans ((le_of_eq (owedAfter_zero c)).trans (OR_le_O₀ c))

/-! ## The two scratch slots of weight columns -/

theorem inb_kslot (i : Fin 2) : ∀ a, (![i.val, 0, 0] : Fin 3 → Nat) a + S1x4096x512.size a ≤ S2x4096x512.size a := by
  intro a; have := i.isLt; fin_cases a <;> simp <;> omega

/-- Slot i of the 2 × 4096 × 512 scratch buffer, as the 4096 × 512 memref the fetches name. -/
abbrev kSlot (i : Fin 2) : Memref sig .tc .vmem S4096x512 .f32 :=
  (kM.slice (Rect.unit (s := S2x4096x512) ![i.val, 0, 0] S1x4096x512.size (inb_kslot i)) (fun _ => rfl)).squeeze S4096x512 squeezes_S1x4096x512_S4096x512

/-- Scratch slot i on device c, held whole at contents f. -/
def kPts (c : Dev nD) (i : Fin 2) (f : Buf (Elt F) ((kSlot i).view.loc (c : Thread nD τ))) : sProp 𝕄 :=
  (kSlot i).view.loc (c : Thread nD τ) ↦[(kSlot i).view.set]{fullShare} f

/-- A 1 × 4096 × 512 block read at either slot index alike. -/
def slabBuf (g : Vec F S1x4096x512 .f32) : Vec F S2x4096x512 .f32 :=
  fun j => g (ValueIdx.ix3 (n0 := 1) (n1 := 4096) (n2 := 512) 0 ⟨(j 1).val, (j 1).isLt⟩ ⟨(j 2).val, (j 2).isLt⟩)

/-! ## The weights: the columns a fetch reads, and the two half shares -/

/-- The 512 weight columns of the device s places on, half t, as the memref a fetch names. -/
abbrev wCols (c : Dev nD) (s : Fin 8) (t : Fin 2) : Memref sig .tc .hbm S4096x512 .f32 :=
  wM.slice (Rect.unit (s := S4096x8192) (k0_off1 c (BitVec.ofNat 32 s.val) (BitVec.ofNat 32 (512 * t.val))) S4096x512.size (k0_off1_inb c s t)) (fun _ => rfl)

/-- The share of the weights the fetch into scratch slot i reads with: the two slots' fetches never compete. -/
def half (i : Fin 2) : PosShare TreeShare := if i.val = 0 then fullShare.left else fullShare.right

/-- The device's copy of the weights at the share of slot i's fetches. -/
def wHalf (c : Dev nD) (i : Fin 2) : sProp 𝕄 := wM.view.loc (c : Thread nD τ) ↦[wM.view.set]{half i} ws m c

theorem w_halve (c : Dev nD) :
    ((((c : Thread nD τ).loc main_arg1) ↦{fullShare} ws m c) : sProp 𝕄) ⊣⊢ iprop(wHalf m c 0 ∗ wHalf m c 1) := by
  unfold wHalf
  rw [show (wM : Memref sig .tc .hbm S4096x8192 .f32).view.set = Finset.univ from View.set_whole _,
    show half 0 = fullShare.left from if_pos rfl, show half 1 = fullShare.right from if_neg (by decide)]
  exact pointsTo_share (PosShare.mem_left_op_right fullShare)

/-- The credit of a fetch: the scratch slot's. -/
abbrev Nk : ℕ := (kSlot 0).view.dmaCredit

/-- What the issue of the fetch of columns (s, t) into scratch slot i leaves: the transfer in flight, to deliver the slot
    holding the slab and the columns' share back, and the rest of the weights at that share. -/
def Fetching (c : Dev nD) (i : Fin 2) (s : Fin 8) (t : Fin 2) : sProp 𝕄 :=
  iprop(Transfers.Flight countersEmb (c : Thread nD τ) (.dma (copySem i)) () Nk
      iprop(kPts c i (slabBuf (wslab (ws m c) (peer c s) t))
        ∗ ((wCols c s t).view.loc (c : Thread nD τ) ↦[(wCols c s t).view.set]{half i} ws m c))
    ∗ (wM.view.loc (c : Thread nD τ) ↦[wM.view.set \ (wCols c s t).view.set]{half i} ws m c))

open Idealize.ShloMosaic.ValueIdx in
/-- Scratch slot i's placement: (a, b) of 4096 × 512 sits at (i, a, b). -/
theorem kSlot_emb (i : Fin 2) (x : S4096x512.Idx) :
    ((kSlot i).view.emb x : S2x4096x512.Idx) = ix3 (n0 := 2) (n1 := 4096) (n2 := 512) i (x 0) (x 1) := by
  show (Rect.unit (s := S2x4096x512) ![i.val, 0, 0] S1x4096x512.size (inb_kslot i)).emb (Shape.reshapeEquiv _ x) = _
  rw [squeezeK_idx, slabRect_emb]; rfl

open Idealize.ShloMosaic.ValueIdx in
/-- Any contents of the scratch buffer are, on slot i, the block a load of slot i reads, placed back. -/
theorem kSlot_eq_readAt (i : Fin 2) (Fc : Vec F S2x4096x512 .f32) :
    ∀ j ∈ (kSlot i).view.set, Fc j
      = slabBuf (kM.view.readAt (Elt F) (Rect.unit (s := S2x4096x512) ![i.val, 0, 0] S1x4096x512.size (inb_kslot i)).toLoadRect Fc) j := by
  intro j hj
  obtain ⟨x, rfl⟩ := View.exists_emb_of_mem_set _ hj
  have hx := kSlot_emb i x
  show Fc ((kSlot i).view.emb x) = _
  rw [hx]
  show Fc _ = kM.view.readAt (Elt F) (Rect.unit (s := S2x4096x512) ![i.val, 0, 0] S1x4096x512.size (inb_kslot i)).toLoadRect Fc
    (ix3 (n0 := 1) (n1 := 4096) (n2 := 512) 0 (x 0) (x 1))
  rw [View.readAt_apply, View.read_apply, cast_eq]
  exact (congrArg Fc (slabRect_emb i (inb_kslot i) (ix3 (n0 := 1) (n1 := 4096) (n2 := 512) 0 (x 0) (x 1)))).symm

/-- The fetch of columns (s, t) lands the slab of the device s places on, half t, in scratch slot i, whatever the slot held. -/
theorem kslab_landing (c : Dev nD) (i : Fin 2) (s : Fin 8) (t : Fin 2) (fd : Buf (Elt F) ((kSlot i).view.loc (c : Thread nD τ))) :
    ∀ j ∈ (kSlot i).view.set,
      (kSlot i).view.write (Elt F) fd ((wCols c s t).view.read (Elt F) (ws m c)) Finset.univ j
        = slabBuf (wslab (ws m c) (peer c s) t) j := by
  intro j hj
  refine (kSlot_eq_readAt i _ j hj).trans ?_
  rw [slab_read i (peer c s) t (off1_eq c s t) (k0_off1_inb c s t) (inb_kslot i) (inb_kslot i) fd (ws m c)]

open Idealize.ShloMosaic.ValueIdx in
/-- A load through the unit rectangle at scratch slot i reads, at (0, a, b), the buffer's (i, a, b). -/
theorem kM_readAt_slot (i : Fin 2) (inb) (f : Vec F S2x4096x512 .f32) (y : S1x4096x512.Idx) :
    kM.view.readAt (Elt F) (Rect.unit (s := S2x4096x512) ![i.val, 0, 0] S1x4096x512.size inb).toLoadRect f y
      = f (ix3 (n0 := 2) (n1 := 4096) (n2 := 512) i ⟨(y 1).val, (y 1).isLt⟩ ⟨(y 2).val, (y 2).isLt⟩) := by
  rw [View.readAt_apply, View.read_apply, cast_eq]
  exact congrArg f (slabRect_emb i inb y)

open Idealize.ShloMosaic.ValueIdx in
/-- An index of 1 × 4096 × 512 is (0, its second, its third coordinate). -/
theorem eq_ix3_unitK (y : S1x4096x512.Idx) :
    y = (ix3 (n0 := 1) (n1 := 4096) (n2 := 512) 0 ⟨(y 1).val, (y 1).isLt⟩ ⟨(y 2).val, (y 2).isLt⟩ : S1x4096x512.Idx) := by
  have h0 : (y 0).val = 0 := by have := (y 0).isLt; change (y 0).val < 1 at this; omega
  funext a
  match a with
  | ⟨0, _⟩ => exact Fin.ext h0
  | ⟨1, _⟩ => rfl
  | ⟨2, _⟩ => rfl

/-- A load of scratch slot i of a buffer that holds the block g at either slot reads g. -/
theorem slab_load (i : Fin 2) (inb) (g : Vec F S1x4096x512 .f32) :
    kM.view.readAt (Elt F) (Rect.unit (s := S2x4096x512) ![i.val, 0, 0] S1x4096x512.size inb).toLoadRect (slabBuf g) = g := by
  funext y
  rw [kM_readAt_slot]
  exact congrArg g (eq_ix3_unitK y).symm

/-! ## The scratch buffer as its two slots -/

/-- The rectangle of scratch slot i. -/
abbrev kRect (i : Fin 2) : Rect S2x4096x512 := Rect.unit (s := S2x4096x512) ![i.val, 0, 0] S1x4096x512.size (inb_kslot i)

/-- The buffer elements under scratch slot i, as elements of the buffer's own location. -/
def kSet (c : Dev nD) (i : Fin 2) : Finset (Idx (kM.view.loc (c : Thread nD τ))) := (kSlot i).view.set

theorem kSet_eq (c : Dev nD) (i : Fin 2) : kSet c i = (kRect i).set.map kM.view.emb := by
  show ((kM.view.slice (kRect i)).reshape S4096x512 _).set = _
  rw [View.set_reshape, View.set_slice]

theorem mem_kRect (i : Fin 2) (y : S2x4096x512.Idx) : y ∈ (kRect i).set ↔ (y 0).val = i.val := by
  rw [Rect.mem_set_unit]
  have h1 : (y 1).val < 4096 := (y 1).isLt
  have h2 : (y 2).val < 512 := (y 2).isLt
  constructor
  · intro h
    have h0 := h 0
    simp at h0
    omega
  · intro h a
    fin_cases a <;> simp <;> omega

theorem kSet_disjoint (c : Dev nD) {i i' : Fin 2} (h : i ≠ i') : Disjoint (kSet c i) (kSet c i') := by
  rw [kSet_eq, kSet_eq, Finset.disjoint_map]
  refine Finset.disjoint_left.mpr fun y hy hy' => h (Fin.ext ?_)
  rw [← (mem_kRect i y).mp hy, ← (mem_kRect i' y).mp hy']

theorem kSet_cover (c : Dev nD) :
    (kM.view.set : Finset (Idx (kM.view.loc (c : Thread nD τ)))) = Finset.univ.biUnion (kSet c) := by
  ext x
  constructor
  · intro hx
    obtain ⟨y, -, rfl⟩ := Finset.mem_map.mp hx
    have h0 : (y 0).val < 2 := (y 0).isLt
    refine Finset.mem_biUnion.mpr ⟨⟨(y 0).val, h0⟩, Finset.mem_univ _, ?_⟩
    rw [kSet_eq]
    exact Finset.mem_map_of_mem _ ((mem_kRect _ y).mpr rfl)
  · intro hx
    obtain ⟨i, -, hi⟩ := Finset.mem_biUnion.mp hx
    rw [kSet_eq] at hi
    obtain ⟨y, -, rfl⟩ := Finset.mem_map.mp hi
    exact Finset.mem_map_of_mem _ (Finset.mem_univ y)

/-- The elements a load of scratch slot i's rectangle reads are the slot's. -/
theorem load_kslot_subset (i : Fin 2) (inb : ∀ a, (![i.val, 0, 0] : Fin 3 → Nat) a + S1x4096x512.size a ≤ S2x4096x512.size a) :
    kM.view.setOn (Rect.unit (s := S2x4096x512) ![i.val, 0, 0] S1x4096x512.size inb).toLoadRect.set ⊆ (kSlot i).view.set :=
  le_of_eq (kSet_eq (0 : Dev nD) i).symm

/-- The elements a load or a store of send slot v's rectangle touches are the slot's. -/
theorem load_sslot_subset (v : Fin 14) (inb : ∀ a, (![v.val, 0, 0] : Fin 3 → Nat) a + S1x512x512.size a ≤ S14x512x512.size a) :
    sM.view.setOn (Rect.unit (s := S14x512x512) ![v.val, 0, 0] S1x512x512.size inb).toLoadRect.set ⊆ (sSlot v).view.set :=
  le_of_eq (slotSet_eq sM (0 : Dev nD) v).symm

/-- The scratch buffer held whole is its two slots. -/
theorem k_split (c : Dev nD) (f : Buf (Elt F) (kM.view.loc (c : Thread nD τ))) :
    (kM.view.loc (c : Thread nD τ) ↦[kM.view.set]{fullShare} f : sProp 𝕄) ⊣⊢ iprop(kPts c 0 f ∗ kPts c 1 f) := by
  rw [kSet_cover c, pointsTo_biUnion Finset.univ (kSet c) fun i _ i' _ h => kSet_disjoint c h, bigSep_fin_two]
  exact ⟨Entails.of_eq rfl, Entails.of_eq rfl⟩

/-- Two slots at whatever contents are the scratch buffer whole at some contents. -/
theorem k_join (c : Dev nD) (f0 f1 : Buf (Elt F) (kM.view.loc (c : Thread nD τ))) :
    (iprop(kPts c 0 f0 ∗ kPts c 1 f1) : sProp 𝕄) ⊢ iprop(∃ f, kM.view.loc (c : Thread nD τ) ↦[kM.view.set]{fullShare} f) := by
  have hj : (bigSep Finset.univ fun i : Fin 2 => (kM.view.loc (c : Thread nD τ) ↦[kSet c i]{fullShare} (if i.val = 0 then f0 else f1)) : sProp 𝕄)
      ⊢ iprop(∃ g, ⌜∀ t ∈ Finset.univ, ∀ j ∈ kSet c t, g j = (if t.val = 0 then f0 else f1) j⌝
          ∗ kM.view.loc (c : Thread nD τ) ↦[Finset.univ.biUnion (kSet c)]{fullShare} g) :=
    pointsTo_biUnion_join Finset.univ (kSet c) (fun i : Fin 2 => if i.val = 0 then f0 else f1) f0 fun i _ i' _ h => kSet_disjoint c h
  rw [bigSep_univ_two, ← kSet_cover c] at hj
  iintro ⟨H0, H1⟩
  ihave H := hj $$ [H0 H1]
  · isplitl [H0]; · unfold kPts; iexact H0
    unfold kPts; iexact H1
  icases H with ⟨%g, %hg, H⟩
  iexists g
  iexact H

/-! ## The wrappers -/

/-- (L1) The fetch of columns (s, t) into scratch slot i, its semaphore at zero. -/
theorem wp_fetch (c : Dev nD) (i : Fin 2) (s : Fin 8) (t : Fin 2)
    {hsrc : (wCols c s t).view.WordExact} {hdst : (kSlot i).view.WordExact}
    {hsem : DmaTarget.Typed .hbm (.dma (copySem i)) (.here (kSlot i) : DmaTarget nD τ sig .tc .vmem S4096x512 .f32)}
    {α : Type} {Q : α → sProp 𝕄} {cont : PUnit → Prog (TpuEff nD τ sig (Elt F) Λ₀ .tc) α} :
    iprop(semVal (copyCell c i) 0 ∗ (∃ f, kPts (F := F) c i f) ∗ wHalf m c i)
      ⊢ iprop((Fetching m c i s t -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (wCols c s t) (.here (kSlot i)) (.dma (copySem i)) hsrc hdst hsem) cont) Q) := by
  unfold Fetching wHalf
  iintro ⟨Hv, ⟨%fd, Hd⟩, Hw⟩ Hk
  ihave Hw' := (pointsTo_split_subset (S := wM.view.set) (I := ((wCols c s t).view.set : Finset (Idx (wM.view.loc (c : Thread nD τ)))))
    (View.set_slice_subset _ _)).1 $$ Hw
  icases Hw' with ⟨Hs, Hrest⟩
  iapply (Transfers.wp_dmaLocal countersEmb 𝒱₀ (c : Thread nD τ) none (src := wCols c s t) (via := .same) (dst := kSlot i) (q := half i)
      (fs := ws m c) (fd := fd) (Sd := (kSlot i).view.set) () Nk rfl (View.dmaCredit_pos _ (by decide)) subset_rfl) $$ [Hs Hd Hv]
  · isplitl [Hs]; · iexact Hs
    isplitl [Hd]; · unfold kPts; iexact Hd
    iexact Hv
  iintro Hf
  iapply Hk
  isplitl [Hf]
  · iapply (Transfers.Flight_mono countersEmb (c : Thread nD τ) (sep_mono_left (Entails.of_eq (pointsTo_congr (kslab_landing m c i s t fd))))) $$ Hf
  iexact Hrest

/-- (L2) The wait for that fetch, owing any part of the launch debt: the slot holds the slab. -/
theorem wp_fetch_wait (c : Dev nD) (i : Fin 2) (s : Fin 8) (t : Fin 2)
    {hsrc : (wCols c s t).view.WordExact} {hdst : (kSlot i).view.WordExact}
    {α : Type} {Q : α → sProp 𝕄} {cont : PUnit → Prog (TpuEff nD τ sig (Elt F) Λ₀ .tc) α}
    (O : CellTallies nD τ sig Unit) (hO : O ≤ O₀ c) (W : Waits sig Unit) :
    iprop(Fetching m c i s t ∗ owes (c : Thread nD τ) O W ∗ levAts L lv)
      ⊢ iprop(((kPts c i (slabBuf (wslab (ws m c) (peer c s) t)) ∗ semVal (copyCell c i) 0 ∗ wHalf m c i
              ∗ owes (c : Thread nD τ) O (insert (.dma (copySem i), ()) W)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (copySem i) (wCols c s t) (kSlot i) hsrc hdst) cont) Q) := by
  unfold Fetching
  iintro ⟨⟨Hf, Hrest⟩, HO, #Hlev⟩ Hk
  have hw := Transfers.wp_waitLocalO (Q := Q) countersEmb 𝒱₀ (c : Thread nD τ) none (defs := defs₀ (F := F)) (sem := copySem i)
    (srcw := wCols c s t) (dstw := kSlot i) (hsrc := hsrc) (hdst := hdst) (k := cont) () (N := Nk) rfl
    (D := iprop(kPts c i (slabBuf (wslab (ws m c) (peer c s) t))
        ∗ ((wCols c s t).view.loc (c : Thread nD τ) ↦[(wCols c s t).view.set]{half i} ws m c))) (O := O) (W := W)
  iapply hw $$ [Hf HO]
  · isplitl [Hf]; · iexact Hf
    isplitl [HO]; · iexact HO
    iapply (mayWait_low c (copySem i) (by show 2 + i.val < 18; have := i.isLt; omega) O hO); iexact Hlev
  iintro ⟨⟨Hsl, Hs⟩, Hv, HO⟩
  iapply Hk
  isplitl [Hsl]; · iexact Hsl
  isplitl [Hv]; · iexact Hv
  isplitl [Hs Hrest]
  · unfold wHalf
    iapply (pointsTo_split_subset (S := wM.view.set) (I := ((wCols c s t).view.set : Finset (Idx (wM.view.loc (c : Thread nD τ)))))
      (View.set_slice_subset _ _)).2
    isplitl [Hs]; · iexact Hs
    iexact Hrest
  iexact HO

/-- (L3) The load of the staged x block, whole. -/
theorem wp_load_x (c : Dev nD)
    {hl : xM.view.LoadsAt (Rect.unit (s := S512x4096) ![0, 0] S512x4096.size inb_S512x4096_S512x4096_0_0).toLoadRect}
    {α : Type} {Q : α → sProp 𝕄}
    {cont : ((Rect.unit (s := S512x4096) ![0, 0] S512x4096.size inb_S512x4096_S512x4096_0_0).toLoadRect.shape.Idx → Elt F .f32) → Prog (TpuEff nD τ sig (Elt F) Λ₀ .tc) α}
    (f : Vec F S512x4096 .f32) :
    (xM.view.loc (c : Thread nD τ) ↦[xM.view.set]{fullShare} f : sProp 𝕄)
      ⊢ iprop(((xM.view.loc (c : Thread nD τ) ↦[xM.view.set]{fullShare} f) -∗ wp frame (wpE (defs₀ (F := F)) 𝒱₀ (c : Thread nD τ) none) Set.univ (cont f) Q)
          -∗ wp frame (wpE (defs₀ (F := F)) 𝒱₀ (c : Thread nD τ) none) Set.univ (.op (.load xM (Rect.unit (s := S512x4096) ![0, 0] S512x4096.size inb_S512x4096_S512x4096_0_0).toLoadRect hl) cont) Q) := by
  have h := wp_load (Q := Q) (Γ := .empty) 𝒱₀ (c : Thread nD τ) none Set.univ (defs := defs₀ (F := F)) (m := xM) (hl := hl) (k := cont)
    (S := (xM.view.set : Finset (Idx (xM.view.loc (c : Thread nD τ))))) (q := fullShare) (f := f) (View.setOn_subset_set _ _)
  rw [x_readAt f] at h
  exact h

/-- (L4) The load of scratch slot i, held at a block read at either slot alike: the block. -/
theorem wp_load_k (c : Dev nD) (i : Fin 2) {inb : ∀ a, (![i.val, 0, 0] : Fin 3 → Nat) a + S1x4096x512.size a ≤ S2x4096x512.size a}
    {hl : kM.view.LoadsAt (Rect.unit (s := S2x4096x512) ![i.val, 0, 0] S1x4096x512.size inb).toLoadRect}
    {α : Type} {Q : α → sProp 𝕄}
    {cont : ((Rect.unit (s := S2x4096x512) ![i.val, 0, 0] S1x4096x512.size inb).toLoadRect.shape.Idx → Elt F .f32) → Prog (TpuEff nD τ sig (Elt F) Λ₀ .tc) α}
    (g : Vec F S1x4096x512 .f32) :
    (kPts c i (slabBuf g) : sProp 𝕄)
      ⊢ iprop((kPts c i (slabBuf g) -∗ wp frame (wpE (defs₀ (F := F)) 𝒱₀ (c : Thread nD τ) none) Set.univ (cont g) Q)
          -∗ wp frame (wpE (defs₀ (F := F)) 𝒱₀ (c : Thread nD τ) none) Set.univ (.op (.load kM (Rect.unit (s := S2x4096x512) ![i.val, 0, 0] S1x4096x512.size inb).toLoadRect hl) cont) Q) := by
  unfold kPts
  have h := wp_load (Q := Q) (Γ := .empty) 𝒱₀ (c : Thread nD τ) none Set.univ (defs := defs₀ (F := F)) (m := kM) (hl := hl) (k := cont)
    (S := ((kSlot i).view.set : Finset (Idx (kM.view.loc (c : Thread nD τ))))) (q := fullShare) (f := slabBuf g) (load_kslot_subset i inb)
  rw [slab_load i inb g] at h
  exact h

/-- (L5) The dead load of send slot v (the swap's): whatever it reads. -/
theorem wp_load_s_dead (c : Dev nD) (v : Fin 14) {inb : ∀ a, (![v.val, 0, 0] : Fin 3 → Nat) a + S1x512x512.size a ≤ S14x512x512.size a}
    {hl : sM.view.LoadsAt (Rect.unit (s := S14x512x512) ![v.val, 0, 0] S1x512x512.size inb).toLoadRect}
    {α : Type} {Q : α → sProp 𝕄}
    {cont : ((Rect.unit (s := S14x512x512) ![v.val, 0, 0] S1x512x512.size inb).toLoadRect.shape.Idx → Elt F .bf16) → Prog (TpuEff nD τ sig (Elt F) Λ₀ .tc) α}
    (f : Buf (Elt F) ((sSlot v).view.loc (c : Thread nD τ))) :
    (slotPts sM c v f : sProp 𝕄)
      ⊢ iprop((slotPts sM c v f -∗ ∀ r, wp frame (wpE (defs₀ (F := F)) 𝒱₀ (c : Thread nD τ) none) Set.univ (cont r) Q)
          -∗ wp frame (wpE (defs₀ (F := F)) 𝒱₀ (c : Thread nD τ) none) Set.univ (.op (.load sM (Rect.unit (s := S14x512x512) ![v.val, 0, 0] S1x512x512.size inb).toLoadRect hl) cont) Q) := by
  unfold slotPts
  have h := wp_load (Q := Q) (Γ := .empty) 𝒱₀ (c : Thread nD τ) none Set.univ (defs := defs₀ (F := F)) (m := sM) (hl := hl) (k := cont)
    (S := ((sSlot v).view.set : Finset (Idx (sM.view.loc (c : Thread nD τ))))) (q := fullShare) (f := f) (load_sslot_subset v inb)
  iintro Hs Hk
  iapply h $$ Hs
  iintro Hs
  ihave Hk' := Hk $$ Hs
  iapply Hk'

/-- (L6) The store of a block into send slot v: the slot holds it. -/
theorem wp_store_s (c : Dev nD) (v : Fin 14) {inb : ∀ a, (![v.val, 0, 0] : Fin 3 → Nat) a + S1x512x512.size a ≤ S14x512x512.size a}
    {hx : (sM.access (Rect.unit (s := S14x512x512) ![v.val, 0, 0] S1x512x512.size inb)).Stores Finset.univ}
    {hm : (Finset.univ : Finset (Rect.unit (s := S14x512x512) ![v.val, 0, 0] S1x512x512.size inb).shape.Idx) = Finset.univ ∨ ∀ a, (Rect.unit (s := S14x512x512) ![v.val, 0, 0] S1x512x512.size inb).stride a = 1}
    {α : Type} {Q : α → sProp 𝕄} {cont : PUnit → Prog (TpuEff nD τ sig (Elt F) Λ₀ .tc) α}
    (f : Buf (Elt F) ((sSlot v).view.loc (c : Thread nD τ))) (g : FVec F S1x512x512 .bf16) :
    (slotPts sM c v f : sProp 𝕄)
      ⊢ iprop((slotPts sM c v (slotBuf g) -∗ wp frame (wpE (defs₀ (F := F)) 𝒱₀ (c : Thread nD τ) none) Set.univ (cont ⟨⟩) Q)
          -∗ wp frame (wpE (defs₀ (F := F)) 𝒱₀ (c : Thread nD τ) none) Set.univ (.op (.store sM (Rect.unit (s := S14x512x512) ![v.val, 0, 0] S1x512x512.size inb) g Finset.univ hx hm) cont) Q) := by
  unfold slotPts
  have h := wp_store (Q := Q) (Γ := .empty) 𝒱₀ (c : Thread nD τ) none Set.univ (defs := defs₀ (F := F)) (m := sM)
    (r := Rect.unit (s := S14x512x512) ![v.val, 0, 0] S1x512x512.size inb) (w := g) (Mk := Finset.univ) (hx := hx) (hm := hm) (k := cont)
    (S := ((sSlot v).view.set : Finset (Idx ((sM.access (Rect.unit (s := S14x512x512) ![v.val, 0, 0] S1x512x512.size inb)).loc (c : Thread nD τ)))))
    (f := f) (by rw [View.setOn_univ]; exact le_of_eq ((View.set_slice _ _).trans (slotSet_eq sM (0 : Dev nD) v).symm))
  iintro Hs Hk
  iapply h $$ Hs
  iintro Hs
  iapply Hk
  ihave Hs := (Entails.of_eq (pointsTo_congr (slot_store v inb f g))) $$ Hs
  iexact Hs

end Cert.Kernel.A2A

end
-- ==== Proof.Bits.SubA.lean ====
/-
  The first fifteen parts of a device's body, each as a step from what it touches to what it leaves: the entry barrier
  (the eight signals and the wait for eight), the first fetch of weight columns, and the sub-steps that follow — the next
  fetch issued, the current one awaited, the product of the device's rows with the fetched columns stored into a send
  slot, the slot's transfer to the device it is for.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Facts
import proofs.«900797_g7700000000000798_dist_gemm_a2a_m4096_k4096_n8192_f32_relu_v7x_i8_1_alg».proof.Proof.Bits.Steps
import proofs.«900797_g7700000000000798_dist_gemm_a2a_m4096_k4096_n8192_f32_relu_v7x_i8_1_alg».proof.Proof.Bits.Slab
import proofs.«900797_g7700000000000798_dist_gemm_a2a_m4096_k4096_n8192_f32_relu_v7x_i8_1_alg».proof.Proof.Bits.Arrive
import proofs.«900797_g7700000000000798_dist_gemm_a2a_m4096_k4096_n8192_f32_relu_v7x_i8_1_alg».proof.Proof.Bits.Local
import proofs.«900797_g7700000000000798_dist_gemm_a2a_m4096_k4096_n8192_f32_relu_v7x_i8_1_alg».proof.Proof.Gen.Kernel.Skeleton

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts -/

/-- Part 1 of the body: the device reads which one it is, then signals one unit to the barrier cells of the devices
    0 … 6, paying on each the duty it is that many places after, with the two receive slots it hands that device. -/
theorem sub_1 (K : Dev nD × Fin 29 → ℕ) (c : Dev nD)
    (a0 : Memref sig .tc .vmem S512x4096 .f32) (h0 : a0.IsWhole) (a1 : Memref sig .tc .hbm S4096x8192 .f32) (h1 : a1.IsWhole)
    (a2 : Memref sig .tc .vmem S4096x1024 .f32) (h2 : a2.IsWhole) (a3 : Memref sig .tc .vmem S2x4096x512 .f32) (h3 : a3.IsWhole)
    (a4 : Memref sig .tc .vmem S14x512x512 .bf16) (h4 : a4.IsWhole) (a5 : Memref sig .tc .vmem S14x512x512 .bf16) (h5 : a5.IsWhole)
    (a6 : DmaSems sig S2) (a7 : DmaSems sig S14) (a8 : DmaSems sig S14)
    (W : Waits sig Unit) (Kt : (Σ' (d0 : Dev nD) (v2 : BitVec 32) (v3 : Sems sig S_), BitVec 32) → sProp 𝕄) :
    iprop(cellInv ER (sched m) (K (0, bIx)) (barCell 0) ∗ reached ER (barCell 0) 0
        ∗ cellInv ER (sched m) (K (1, bIx)) (barCell 1) ∗ reached ER (barCell 1) 0
        ∗ cellInv ER (sched m) (K (2, bIx)) (barCell 2) ∗ reached ER (barCell 2) 0
        ∗ cellInv ER (sched m) (K (3, bIx)) (barCell 3) ∗ reached ER (barCell 3) 0
        ∗ cellInv ER (sched m) (K (4, bIx)) (barCell 4) ∗ reached ER (barCell 4) 0
        ∗ cellInv ER (sched m) (K (5, bIx)) (barCell 5) ∗ reached ER (barCell 5) 0
        ∗ cellInv ER (sched m) (K (6, bIx)) (barCell 6) ∗ reached ER (barCell 6) 0
        ∗ owes (c : Thread nD τ) (O₀ c) W
        ∗ dutyTok ER (barCell 0) 0 (dutyTo c 0) ∗ barPay (F := F) 0 (dutyTo c 0)
        ∗ dutyTok ER (barCell 1) 0 (dutyTo c 1) ∗ barPay (F := F) 1 (dutyTo c 1)
        ∗ dutyTok ER (barCell 2) 0 (dutyTo c 2) ∗ barPay (F := F) 2 (dutyTo c 2)
        ∗ dutyTok ER (barCell 3) 0 (dutyTo c 3) ∗ barPay (F := F) 3 (dutyTo c 3)
        ∗ dutyTok ER (barCell 4) 0 (dutyTo c 4) ∗ barPay (F := F) 4 (dutyTo c 4)
        ∗ dutyTok ER (barCell 5) 0 (dutyTo c 5) ∗ barPay (F := F) 5 (dutyTo c 5)
        ∗ dutyTok ER (barCell 6) 0 (dutyTo c 6) ∗ barPay (F := F) 6 (dutyTo c 6))
      ⊢ iprop((∀ v2 v18, owes (c : Thread nD τ) (OR c + bT 7) W -∗ Kt ⟨c, v2, SemArray.scalar (sig.barrier 0 rfl), v18⟩)
        -∗ wp frame (wpE (defs₀ (F := F)) 𝒱₀ (c : Thread nD τ) none) Set.univ (k0_part1 a0 h0 a1 h1 a2 h2 a3 h3 a4 h4 a5 h5 a6 a7 a8) Kt) := by
  rw [k0_part1_eq_skeleton]; unfold k0_part1_skel
  simp only [semSignalWord, Prog.lift, Prog.bind_op, Prog.bind_ret, Prog.pure_eq_ret, wp_deviceId]
  iintro ⟨#Hi0, #Hr0, #Hi1, #Hr1, #Hi2, #Hr2, #Hi3, #Hr3, #Hi4, #Hr4, #Hi5, #Hr5, #Hi6, #Hr6, HO, Ht0, Hp0, Ht1, Hp1, Ht2, Hp2, Ht3, Hp3, Ht4, Hp4, Ht5, Hp5, Ht6, Hp6⟩ Hk
  unfold O₀
  iapply (wp_signal_bar_word m K c 0 _ dev1_eq (OR c + bT 7 + bT 6 + bT 5 + bT 4 + bT 3 + bT 2 + bT 1) W) $$ [HO Ht0 Hp0]
  · isplitr; · iexact Hi0
    isplitl [HO]; · iexact HO
    isplitl [Ht0]; · iexact Ht0
    isplitl [Hp0]; · iexact Hp0
    iexact Hr0
  iintro HO
  iapply (wp_signal_bar_word m K c 1 _ dev2_eq (OR c + bT 7 + bT 6 + bT 5 + bT 4 + bT 3 + bT 2) W) $$ [HO Ht1 Hp1]
  · isplitr; · iexact Hi1
    isplitl [HO]; · iexact HO
    isplitl [Ht1]; · iexact Ht1
    isplitl [Hp1]; · iexact Hp1
    iexact Hr1
  iintro HO
  iapply (wp_signal_bar_word m K c 2 _ dev3_eq (OR c + bT 7 + bT 6 + bT 5 + bT 4 + bT 3) W) $$ [HO Ht2 Hp2]
  · isplitr; · iexact Hi2
    isplitl [HO]; · iexact HO
    isplitl [Ht2]; · iexact Ht2
    isplitl [Hp2]; · iexact Hp2
    iexact Hr2
  iintro HO
  iapply (wp_signal_bar_word m K c 3 _ dev4_eq (OR c + bT 7 + bT 6 + bT 5 + bT 4) W) $$ [HO Ht3 Hp3]
  · isplitr; · iexact Hi3
    isplitl [HO]; · iexact HO
    isplitl [Ht3]; · iexact Ht3
    isplitl [Hp3]; · iexact Hp3
    iexact Hr3
  iintro HO
  iapply (wp_signal_bar_word m K c 4 _ dev5_eq (OR c + bT 7 + bT 6 + bT 5) W) $$ [HO Ht4 Hp4]
  · isplitr; · iexact Hi4
    isplitl [HO]; · iexact HO
    isplitl [Ht4]; · iexact Ht4
    isplitl [Hp4]; · iexact Hp4
    iexact Hr4
  iintro HO
  iapply (wp_signal_bar_word m K c 5 _ dev6_eq (OR c + bT 7 + bT 6) W) $$ [HO Ht5 Hp5]
  · isplitr; · iexact Hi5
    isplitl [HO]; · iexact HO
    isplitl [Ht5]; · iexact Ht5
    isplitl [Hp5]; · iexact Hp5
    iexact Hr5
  iintro HO
  iapply (wp_signal_bar_word m K c 6 _ dev7_eq (OR c + bT 7) W) $$ [HO Ht6 Hp6]
  · isplitr; · iexact Hi6
    isplitl [HO]; · iexact HO
    isplitl [Ht6]; · iexact Ht6
    isplitl [Hp6]; · iexact Hp6
    iexact Hr6
  iintro HO
  rw [wp_ret]; imodintro
  iapply Hk
  iexact HO

/-- Part 2 of the body: the eighth signal, to device 7's barrier cell; the wait for the eight units of the device's own,
    which hand it the receive slot of every transfer it will make; and the first fetch, of the first half of the columns
    of the device one place on, into scratch slot 0. -/
theorem sub_2 (K : Dev nD × Fin 29 → ℕ) (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 v18 : BitVec 32) (W : Waits sig Unit) (Kt : (Σ' (v49 : BitVec 32), BitVec 32) → sProp 𝕄) :
    iprop(cellInv ER (sched m) (K (7, bIx)) (barCell 7) ∗ reached ER (barCell 7) 0
        ∗ cellInv ER (sched m) (K (c, bIx)) (barCell c)
        ∗ levAts L lv
        ∗ owes (c : Thread nD τ) (OR c + bT 7) W
        ∗ dutyTok ER (barCell 7) 0 (dutyTo c 7) ∗ barPay (F := F) 7 (dutyTo c 7)
        ∗ cred (tallyAt (barCell c) () 8)
        ∗ atPos ER (barCell c) 0 ∅ 0
        ∗ semVal (copyCell c 0) 0
        ∗ (∃ f, kPts (F := F) c 0 f)
        ∗ wHalf m c 0)
      ⊢ iprop((∀ r, (owes (c : Thread nD τ) (OR c) (insert (.reg barS, ()) W)
            ∗ atPos ER (barCell c) (0 + 1) ∅ 0
            ∗ reached ER (barCell c) (0 + 1)
            ∗ (bigSep Finset.univ fun v : Fin 14 => iprop(∃ f, slotPts (F := F) rM (peer c (shiftOf v)) v f))
            ∗ Fetching m c 0 1 0) -∗ Kt r)
        -∗ wp frame (wpE (defs₀ (F := F)) 𝒱₀ (c : Thread nD τ) none) Set.univ (k0_part2 xM h0 wM h1 oM h2 kM h3 sM h4 rM h5 cc0_scratch3 cc0_scratch4 cc0_scratch5 c v2 (SemArray.scalar (sig.barrier 0 rfl)) v18) Kt) := by
  rw [k0_part2_eq_skeleton]; unfold k0_part2_skel
  simp only [semSignalWord, semWaitWord, Prog.lift, Prog.bind_op, Prog.bind_ret, Prog.pure_eq_ret]
  iintro ⟨#Hi7, #Hr7, #HiB, #Hlev, HO, Ht7, Hp7, HcB, HaB, Hc0, HK0, Hw0⟩ Hk
  iapply (wp_signal_bar_word m K c 7 _ dev8_eq (OR c) W) $$ [HO Ht7 Hp7]
  · isplitr; · iexact Hi7
    isplitl [HO]; · iexact HO
    isplitl [Ht7]; · iexact Ht7
    isplitl [Hp7]; · iexact Hp7
    iexact Hr7
  iintro HO
  iapply (wp_wait_bar_word m K c W) $$ [HcB HO HaB]
  · isplitr; · iexact HiB
    isplitl [HcB]; · iexact HcB
    isplitl [HO]; · iexact HO
    isplitr; · iexact Hlev
    iexact HaB
  iintro ⟨HO, HaB, HrB, Hsl⟩
  iapply (wp_fetch m c 0 1 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HaB]; · iexact HaB
  isplitl [HrB]; · iexact HrB
  isplitl [Hsl]; · iexact Hsl
  iexact HF0

/-- Part 3 of the body: the fetch of the second half of the columns of the device one place on is issued, the fetch of the first half awaited, and the product of the device's rows with it stored into send slot 0. -/
theorem sub_3 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v49 : BitVec 32) (c512 : BitVec 32)
    (O : CellTallies nD τ sig Unit)
    (hO : O ≤ O₀ c)
    (W : Waits sig Unit)
    (fs0 : Buf (Elt F) ((sSlot 0).view.loc (c : Thread nD τ)))
    (Kt : (Σ' (v74 : BitVec 32) (v75 : BitVec 32) (v76 : BitVec 1), BitVec 1) → sProp 𝕄) :
    iprop(levAts L lv
        ∗ semVal (copyCell c 1) 0
        ∗ (∃ f, kPts (F := F) c 1 f)
        ∗ wHalf m c 1
        ∗ owes (c : Thread nD τ) (O) W
        ∗ Fetching m c 0 1 0
        ∗ (xM.view.loc (c : Thread nD τ) ↦[xM.view.set]{fullShare} xs m c)
        ∗ slotPts sM c 0 fs0)
      ⊢ iprop((∀ r, (owes (c : Thread nD τ) (O) (insert (.dma (copySem 0), ()) W)
            ∗ Fetching m c 1 1 1
            ∗ kPts c 0 (slabBuf (wslab (ws m c) (peer c 1) 0))
            ∗ semVal (copyCell c 0) 0
            ∗ wHalf m c 0
            ∗ (xM.view.loc (c : Thread nD τ) ↦[xM.view.set]{fullShare} xs m c)
            ∗ slotPts sM c 0 (slotBuf (sent m c 0))) -∗ Kt r)
        -∗ wp frame (wpE (defs₀ (F := F)) 𝒱₀ (c : Thread nD τ) none) Set.univ (k0_part3 xM h0 wM h1 oM h2 kM h3 sM h4 rM h5 cc0_scratch3 cc0_scratch4 cc0_scratch5 c v2 v49 c512) Kt) := by
  rw [k0_part3_eq_skeleton]; unfold k0_part3_skel
  simp only [Prog.lift, Prog.bind_op, Prog.bind_ret, Prog.pure_eq_ret]
  iintro ⟨#Hlev, Hc1, HK1, Hw1, HO, HF0, HX, HS0⟩ Hk
  iapply (wp_fetch m c 1 1 1) $$ [Hc1 HK1 Hw1]
  · isplitl [Hc1]; · iexact Hc1
    isplitl [HK1]; · iexact HK1
    iexact Hw1
  iintro HF1
  iapply (wp_fetch_wait m c 0 1 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  iapply (wp_load_k c 0 (wslab (ws m c) (peer c 1) 0)) $$ HK0
  iintro HK0
  iapply (wp_load_s_dead c 0 fs0) $$ HS0
  iintro HS0
  iintro %_r0
  iapply (wp_store_s c 0 fs0 (k0_pay2 (xs m c) (wslab (ws m c) (peer c 1) 0))) $$ HS0
  iintro HS0
  rw [wp_ret]; imodintro
  iapply Hk
  isplitl [HO]; · iexact HO
  isplitl [HF1]; · iexact HF1
  isplitl [HK0]; · iexact HK0
  isplitl [Hc0]; · iexact Hc0
  isplitl [Hw0]; · iexact Hw0
  isplitl [HX]; · iexact HX
  iexact HS0

/-- Part 4 of the body: the transfer of slot 0 to the device one place on, and the next fetch into scratch slot 0. -/
theorem sub_4 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v74 : BitVec 32) (v75 : BitVec 32) (v76 v79 : BitVec 1)
    (O : CellTallies nD τ sig Unit)
    (W : Waits sig Unit)
    (Kt : PUnit → sProp 𝕄) :
    iprop(cellInv ER (sched m) (K (c, sIx 0)) (sendCell c 0)
        ∗ cellInv ER (sched m) (K (peer c (shiftOf 0), rIx 0)) (recvCell (peer c (shiftOf 0)) 0)
        ∗ reached ER (sendCell c 0) 0
        ∗ reached ER (recvCell (peer c (shiftOf 0)) 0) 0
        ∗ owes (c : Thread nD τ) (O + rT c 0) W
        ∗ slotPts sM c 0 (slotBuf (sent m c 0))
        ∗ (∃ f, slotPts (F := F) rM (peer c (shiftOf 0)) 0 f)
        ∗ dutyTok ER (sendCell c 0) 0 0
        ∗ dutyTok ER (recvCell (peer c (shiftOf 0)) 0) 0 0
        ∗ semVal (copyCell c 0) 0
        ∗ (∃ f, kPts (F := F) c 0 f)
        ∗ wHalf m c 0)
      ⊢ iprop(((owes (c : Thread nD τ) (O) W
            ∗ cred (tallyAt (sendCell c 0) () N)
            ∗ Fetching m c 0 2 0) -∗ Kt ⟨⟩)
        -∗ wp frame (wpE (defs₀ (F := F)) 𝒱₀ (c : Thread nD τ) none) Set.univ (k0_part4 xM h0 wM h1 oM h2 kM h3 sM h4 rM h5 cc0_scratch3 cc0_scratch4 cc0_scratch5 c v2 v74 v75 v76 v79) Kt) := by
  rw [k0_part4_eq_skeleton]; unfold k0_part4_skel
  simp only [Prog.lift, Prog.bind_op, Prog.bind_ret, Prog.pure_eq_ret]
  iintro ⟨#HiS0, #HiR0, #HrS0, #HrR0, HO, HS0, Hn0, HtS0, HtR0, Hc0, HK0, Hw0⟩ Hk
  icases Hn0 with ⟨%fn0, Hn0⟩
  iapply (wp_send_slot m K c _ 0 (dev9_eq c) (slotBuf (sent m c 0)) fn0 (fun _ _ => rfl) O W) $$ [HS0 Hn0 HO HtS0 HtR0]
  · isplitr; · iexact HiS0
    isplitr; · iexact HiR0
    isplitl [HS0]; · iexact HS0
    isplitl [Hn0]; · iexact Hn0
    isplitl [HO]; · iexact HO
    isplitl [HtS0]; · iexact HtS0
    isplitr; · iexact HrS0
    isplitl [HtR0]; · iexact HtR0
    iexact HrR0
  iintro ⟨HcS0, HO⟩
  iapply (wp_fetch m c 0 2 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HcS0]; · iexact HcS0
  iexact HF0

/-- Part 5 of the body: the fetch into scratch slot 1 awaited, and the product stored into send slot 1. -/
theorem sub_5 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (fs1 : Buf (Elt F) ((sSlot 1).view.loc (c : Thread nD τ)))
    (Kt : PUnit → sProp 𝕄) :
    iprop(levAts L lv
        ∗ owes (c : Thread nD τ) (O) W
        ∗ Fetching m c 1 1 1
        ∗ (xM.view.loc (c : Thread nD τ) ↦[xM.view.set]{fullShare} xs m c)
        ∗ slotPts sM c 1 fs1)
      ⊢ iprop(((owes (c : Thread nD τ) (O) (insert (.dma (copySem 1), ()) W)
            ∗ kPts c 1 (slabBuf (wslab (ws m c) (peer c 1) 1))
            ∗ semVal (copyCell c 1) 0
            ∗ wHalf m c 1
            ∗ (xM.view.loc (c : Thread nD τ) ↦[xM.view.set]{fullShare} xs m c)
            ∗ slotPts sM c 1 (slotBuf (sent m c 1))) -∗ Kt ⟨⟩)
        -∗ wp frame (wpE (defs₀ (F := F)) 𝒱₀ (c : Thread nD τ) none) Set.univ (k0_part5 xM h0 wM h1 oM h2 kM h3 sM h4 rM h5 cc0_scratch3 cc0_scratch4 cc0_scratch5 c v2) Kt) := by
  rw [k0_part5_eq_skeleton]; unfold k0_part5_skel
  simp only [Prog.lift, Prog.bind_op, Prog.bind_ret, Prog.pure_eq_ret]
  iintro ⟨#Hlev, HO, HF1, HX, HS1⟩ Hk
  iapply (wp_fetch_wait m c 1 1 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 1) 1)) $$ HK1
  iintro HK1
  iapply (wp_load_s_dead c 1 fs1) $$ HS1
  iintro HS1
  iintro %_r1
  iapply (wp_store_s c 1 fs1 (k0_pay3 (xs m c) (wslab (ws m c) (peer c 1) 1))) $$ HS1
  iintro HS1
  rw [wp_ret]; imodintro
  iapply Hk
  isplitl [HO]; · iexact HO
  isplitl [HK1]; · iexact HK1
  isplitl [Hc1]; · iexact Hc1
  isplitl [Hw1]; · iexact Hw1
  isplitl [HX]; · iexact HX
  iexact HS1

/-- Part 6 of the body: the transfer of slot 1, the next fetch into scratch slot 1, the fetch into slot 0 awaited, and the device's rows loaded. -/
theorem sub_6 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (Kt : FVec F S512x4096 .f32 → sProp 𝕄) :
    iprop(cellInv ER (sched m) (K (c, sIx 1)) (sendCell c 1)
        ∗ cellInv ER (sched m) (K (peer c (shiftOf 1), rIx 1)) (recvCell (peer c (shiftOf 1)) 1)
        ∗ reached ER (sendCell c 1) 0
        ∗ reached ER (recvCell (peer c (shiftOf 1)) 1) 0
        ∗ levAts L lv
        ∗ owes (c : Thread nD τ) (O + rT c 1) W
        ∗ slotPts sM c 1 (slotBuf (sent m c 1))
        ∗ (∃ f, slotPts (F := F) rM (peer c (shiftOf 1)) 1 f)
        ∗ dutyTok ER (sendCell c 1) 0 0
        ∗ dutyTok ER (recvCell (peer c (shiftOf 1)) 1) 0 0
        ∗ semVal (copyCell c 1) 0
        ∗ (∃ f, kPts (F := F) c 1 f)
        ∗ wHalf m c 1
        ∗ Fetching m c 0 2 0
        ∗ (xM.view.loc (c : Thread nD τ) ↦[xM.view.set]{fullShare} xs m c))
      ⊢ iprop(((owes (c : Thread nD τ) (O) (insert (.dma (copySem 0), ()) W)
            ∗ cred (tallyAt (sendCell c 1) () N)
            ∗ Fetching m c 1 2 1
            ∗ kPts c 0 (slabBuf (wslab (ws m c) (peer c 2) 0))
            ∗ semVal (copyCell c 0) 0
            ∗ wHalf m c 0
            ∗ (xM.view.loc (c : Thread nD τ) ↦[xM.view.set]{fullShare} xs m c)) -∗ Kt (k0_pay4 (xs m c)))
        -∗ wp frame (wpE (defs₀ (F := F)) 𝒱₀ (c : Thread nD τ) none) Set.univ (k0_part6 xM h0 wM h1 oM h2 kM h3 sM h4 rM h5 cc0_scratch3 cc0_scratch4 cc0_scratch5 c v2) Kt) := by
  rw [k0_part6_eq_skeleton]; unfold k0_part6_skel
  simp only [Prog.lift, Prog.bind_op, Prog.bind_ret, Prog.pure_eq_ret]
  iintro ⟨#HiS1, #HiR1, #HrS1, #HrR1, #Hlev, HO, HS1, Hn1, HtS1, HtR1, Hc1, HK1, Hw1, HF0, HX⟩ Hk
  icases Hn1 with ⟨%fn1, Hn1⟩
  iapply (wp_send_slot m K c _ 1 (dev10_eq c) (slotBuf (sent m c 1)) fn1 (fun _ _ => rfl) O W) $$ [HS1 Hn1 HO HtS1 HtR1]
  · isplitr; · iexact HiS1
    isplitr; · iexact HiR1
    isplitl [HS1]; · iexact HS1
    isplitl [Hn1]; · iexact Hn1
    isplitl [HO]; · iexact HO
    isplitl [HtS1]; · iexact HtS1
    isplitr; · iexact HrS1
    isplitl [HtR1]; · iexact HtR1
    iexact HrR1
  iintro ⟨HcS1, HO⟩
  iapply (wp_fetch m c 1 2 1) $$ [Hc1 HK1 Hw1]
  · isplitl [Hc1]; · iexact Hc1
    isplitl [HK1]; · iexact HK1
    iexact Hw1
  iintro HF1
  iapply (wp_fetch_wait m c 0 2 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  rw [wp_ret]; imodintro
  iapply Hk
  isplitl [HO]; · iexact HO
  isplitl [HcS1]; · iexact HcS1
  isplitl [HF1]; · iexact HF1
  isplitl [HK0]; · iexact HK0
  isplitl [Hc0]; · iexact Hc0
  isplitl [Hw0]; · iexact Hw0
  iexact HX

/-- Part 7 of the body: the slab loaded from scratch slot 0, the product stored into send slot 2, and the slot's transfer to the device two places on. -/
theorem sub_7 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (W : Waits sig Unit)
    (fs2 : Buf (Elt F) ((sSlot 2).view.loc (c : Thread nD τ)))
    (Kt : (Σ' (v203 : BitVec 32) (c8_i32_173 : BitVec 32) (v204 : BitVec 1), BitVec 32) → sProp 𝕄) :
    iprop(cellInv ER (sched m) (K (c, sIx 2)) (sendCell c 2)
        ∗ cellInv ER (sched m) (K (peer c (shiftOf 2), rIx 2)) (recvCell (peer c (shiftOf 2)) 2)
        ∗ reached ER (sendCell c 2) 0
        ∗ reached ER (recvCell (peer c (shiftOf 2)) 2) 0
        ∗ kPts c 0 (slabBuf (wslab (ws m c) (peer c 2) 0))
        ∗ slotPts sM c 2 fs2
        ∗ owes (c : Thread nD τ) (O + rT c 2) W
        ∗ (∃ f, slotPts (F := F) rM (peer c (shiftOf 2)) 2 f)
        ∗ dutyTok ER (sendCell c 2) 0 0
        ∗ dutyTok ER (recvCell (peer c (shiftOf 2)) 2) 0 0)
      ⊢ iprop((∀ r, (owes (c : Thread nD τ) (O) W
            ∗ kPts c 0 (slabBuf (wslab (ws m c) (peer c 2) 0))
            ∗ cred (tallyAt (sendCell c 2) () N)) -∗ Kt r)
        -∗ wp frame (wpE (defs₀ (F := F)) 𝒱₀ (c : Thread nD τ) none) Set.univ (k0_part7 xM h0 wM h1 oM h2 kM h3 sM h4 rM h5 cc0_scratch3 cc0_scratch4 cc0_scratch5 c v2 (k0_pay4 (xs m c))) Kt) := by
  rw [k0_part7_eq_skeleton]; unfold k0_part7_skel
  simp only [Prog.lift, Prog.bind_op, Prog.bind_ret, Prog.pure_eq_ret]
  iintro ⟨#HiS2, #HiR2, #HrS2, #HrR2, HK0, HS2, HO, Hn2, HtS2, HtR2⟩ Hk
  iapply (wp_load_k c 0 (wslab (ws m c) (peer c 2) 0)) $$ HK0
  iintro HK0
  iapply (wp_load_s_dead c 2 fs2) $$ HS2
  iintro HS2
  iintro %_r2
  iapply (wp_store_s c 2 fs2 (k0_pay5 (k0_pay4 (xs m c)) (wslab (ws m c) (peer c 2) 0))) $$ HS2
  iintro HS2
  icases Hn2 with ⟨%fn2, Hn2⟩
  iapply (wp_send_slot m K c _ 2 (dev11_eq c) (slotBuf (sent m c 2)) fn2 (fun _ _ => rfl) O W) $$ [HS2 Hn2 HO HtS2 HtR2]
  · isplitr; · iexact HiS2
    isplitr; · iexact HiR2
    isplitl [HS2]; · iexact HS2
    isplitl [Hn2]; · iexact Hn2
    isplitl [HO]; · iexact HO
    isplitl [HtS2]; · iexact HtS2
    isplitr; · iexact HrS2
    isplitl [HtR2]; · iexact HtR2
    iexact HrR2
  iintro ⟨HcS2, HO⟩
  rw [wp_ret]; imodintro
  iapply Hk
  isplitl [HO]; · iexact HO
  isplitl [HK0]; · iexact HK0
  iexact HcS2

/-- Part 8 of the body: the next fetch into scratch slot 0 issued, the one into slot 1 awaited, and the product stored into send slot 3. -/
theorem sub_8 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v203 : BitVec 32) (c8 : BitVec 32) (v204 : BitVec 1) (c1 : BitVec 32)
    (O : CellTallies nD τ sig Unit)
    (hO : O ≤ O₀ c)
    (W : Waits sig Unit)
    (fs3 : Buf (Elt F) ((sSlot 3).view.loc (c : Thread nD τ)))
    (Kt : PUnit → sProp 𝕄) :
    iprop(levAts L lv
        ∗ semVal (copyCell c 0) 0
        ∗ (∃ f, kPts (F := F) c 0 f)
        ∗ wHalf m c 0
        ∗ owes (c : Thread nD τ) (O) W
        ∗ Fetching m c 1 2 1
        ∗ (xM.view.loc (c : Thread nD τ) ↦[xM.view.set]{fullShare} xs m c)
        ∗ slotPts sM c 3 fs3)
      ⊢ iprop(((owes (c : Thread nD τ) (O) (insert (.dma (copySem 1), ()) W)
            ∗ Fetching m c 0 3 0
            ∗ kPts c 1 (slabBuf (wslab (ws m c) (peer c 2) 1))
            ∗ semVal (copyCell c 1) 0
            ∗ wHalf m c 1
            ∗ (xM.view.loc (c : Thread nD τ) ↦[xM.view.set]{fullShare} xs m c)
            ∗ slotPts sM c 3 (slotBuf (sent m c 3))) -∗ Kt ⟨⟩)
        -∗ wp frame (wpE (defs₀ (F := F)) 𝒱₀ (c : Thread nD τ) none) Set.univ (k0_part8 xM h0 wM h1 oM h2 kM h3 sM h4 rM h5 cc0_scratch3 cc0_scratch4 cc0_scratch5 c v203 c8 v204 c1) Kt) := by
  rw [k0_part8_eq_skeleton]; unfold k0_part8_skel
  simp only [Prog.lift, Prog.bind_op, Prog.bind_ret, Prog.pure_eq_ret]
  iintro ⟨#Hlev, Hc0, HK0, Hw0, HO, HF1, HX, HS3⟩ Hk
  iapply (wp_fetch m c 0 3 0) $$ [Hc0 HK0 Hw0]
  · isplitl [Hc0]; · iexact Hc0
    isplitl [HK0]; · iexact HK0
    iexact Hw0
  iintro HF0
  iapply (wp_fetch_wait m c 1 2 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 2) 1)) $$ HK1
  iintro HK1
  iapply (wp_load_s_dead c 3 fs3) $$ HS3
  iintro HS3
  iintro %_r3
  iapply (wp_store_s c 3 fs3 (k0_pay6 (xs m c) (wslab (ws m c) (peer c 2) 1))) $$ HS3
  iintro HS3
  rw [wp_ret]; imodintro
  iapply Hk
  isplitl [HO]; · iexact HO
  isplitl [HF0]; · iexact HF0
  isplitl [HK1]; · iexact HK1
  isplitl [Hc1]; · iexact Hc1
  isplitl [Hw1]; · iexact Hw1
  isplitl [HX]; · iexact HX
  iexact HS3

/-- Part 9 of the body: the transfer of slot 3 to the device two places on. -/
theorem sub_9 (K : Dev nD × Fin 29 → ℕ) (c : Dev nD)
    (a0 : Memref sig .tc .vmem S512x4096 .f32) (h0 : a0.IsWhole) (a1 : Memref sig .tc .hbm S4096x8192 .f32) (h1 : a1.IsWhole)
    (a2 : Memref sig .tc .vmem S4096x1024 .f32) (h2 : a2.IsWhole) (a3 : Memref sig .tc .vmem S2x4096x512 .f32) (h3 : a3.IsWhole)
    {h4 : (sM : Memref sig .tc .vmem S14x512x512 .bf16).IsWhole} {h5 : (rM : Memref sig .tc .vmem S14x512x512 .bf16).IsWhole} (a6 : DmaSems sig S2)
    (v2 : BitVec 32) (O : CellTallies nD τ sig Unit) (W : Waits sig Unit) (Kt : (Σ' (v269 : BitVec 32), BitVec 32) → sProp 𝕄) :
    iprop(cellInv ER (sched m) (K (c, sIx 3)) (sendCell c 3)
        ∗ cellInv ER (sched m) (K (peer c (shiftOf 3), rIx 3)) (recvCell (peer c (shiftOf 3)) 3)
        ∗ reached ER (sendCell c 3) 0
        ∗ reached ER (recvCell (peer c (shiftOf 3)) 3) 0
        ∗ slotPts sM c 3 (slotBuf (sent m c 3))
        ∗ (∃ f, slotPts (F := F) rM (peer c (shiftOf 3)) 3 f)
        ∗ owes (c : Thread nD τ) (O + rT c 3) W
        ∗ dutyTok ER (sendCell c 3) 0 0
        ∗ dutyTok ER (recvCell (peer c (shiftOf 3)) 3) 0 0)
      ⊢ iprop((∀ r, (cred (tallyAt (sendCell c 3) () N) ∗ owes (c : Thread nD τ) O W) -∗ Kt r)
        -∗ wp frame (wpE (defs₀ (F := F)) 𝒱₀ (c : Thread nD τ) none) Set.univ (k0_part9 a0 h0 a1 h1 a2 h2 a3 h3 sM h4 rM h5 a6 cc0_scratch4 cc0_scratch5 c v2) Kt) := by
  rw [k0_part9_eq_skeleton]; unfold k0_part9_skel
  simp only [Prog.lift, Prog.bind_op, Prog.bind_ret, Prog.pure_eq_ret]
  iintro ⟨#HiS, #HiR, #HrS, #HrR, Hs, ⟨%fn, Hn⟩, HO, HtS, HtR⟩ Hk
  iapply (wp_send_slot m K c _ 3 (dev12_eq c) (slotBuf (sent m c 3)) fn (fun _ _ => rfl) O W) $$ [Hs Hn HO HtS HtR]
  · isplitr; · iexact HiS
    isplitr; · iexact HiR
    isplitl [Hs]; · iexact Hs
    isplitl [Hn]; · iexact Hn
    isplitl [HO]; · iexact HO
    isplitl [HtS]; · iexact HtS
    isplitr; · iexact HrS
    isplitl [HtR]; · iexact HtR
    iexact HrR
  iintro ⟨Hc, HO⟩
  rw [wp_ret]; imodintro
  iapply Hk
  isplitl [Hc]; · iexact Hc
  iexact HO

/-- Part 10 of the body: the next fetch into scratch slot 1 issued, the one into slot 0 awaited, and the product stored into send slot 4. -/
theorem sub_10 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v269 : BitVec 32) (c512 : BitVec 32)
    (O : CellTallies nD τ sig Unit)
    (hO : O ≤ O₀ c)
    (W : Waits sig Unit)
    (fs4 : Buf (Elt F) ((sSlot 4).view.loc (c : Thread nD τ)))
    (Kt : (Σ' (v294 : BitVec 32) (v295 : BitVec 32) (v296 : BitVec 1), BitVec 1) → sProp 𝕄) :
    iprop(levAts L lv
        ∗ semVal (copyCell c 1) 0
        ∗ (∃ f, kPts (F := F) c 1 f)
        ∗ wHalf m c 1
        ∗ owes (c : Thread nD τ) (O) W
        ∗ Fetching m c 0 3 0
        ∗ (xM.view.loc (c : Thread nD τ) ↦[xM.view.set]{fullShare} xs m c)
        ∗ slotPts sM c 4 fs4)
      ⊢ iprop((∀ r, (owes (c : Thread nD τ) (O) (insert (.dma (copySem 0), ()) W)
            ∗ Fetching m c 1 3 1
            ∗ kPts c 0 (slabBuf (wslab (ws m c) (peer c 3) 0))
            ∗ semVal (copyCell c 0) 0
            ∗ wHalf m c 0
            ∗ (xM.view.loc (c : Thread nD τ) ↦[xM.view.set]{fullShare} xs m c)
            ∗ slotPts sM c 4 (slotBuf (sent m c 4))) -∗ Kt r)
        -∗ wp frame (wpE (defs₀ (F := F)) 𝒱₀ (c : Thread nD τ) none) Set.univ (k0_part10 xM h0 wM h1 oM h2 kM h3 sM h4 rM h5 cc0_scratch3 cc0_scratch4 cc0_scratch5 c v2 v269 c512) Kt) := by
  rw [k0_part10_eq_skeleton]; unfold k0_part10_skel
  simp only [Prog.lift, Prog.bind_op, Prog.bind_ret, Prog.pure_eq_ret]
  iintro ⟨#Hlev, Hc1, HK1, Hw1, HO, HF0, HX, HS4⟩ Hk
  iapply (wp_fetch m c 1 3 1) $$ [Hc1 HK1 Hw1]
  · isplitl [Hc1]; · iexact Hc1
    isplitl [HK1]; · iexact HK1
    iexact Hw1
  iintro HF1
  iapply (wp_fetch_wait m c 0 3 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  iapply (wp_load_k c 0 (wslab (ws m c) (peer c 3) 0)) $$ HK0
  iintro HK0
  iapply (wp_load_s_dead c 4 fs4) $$ HS4
  iintro HS4
  iintro %_r4
  iapply (wp_store_s c 4 fs4 (k0_pay7 (xs m c) (wslab (ws m c) (peer c 3) 0))) $$ HS4
  iintro HS4
  rw [wp_ret]; imodintro
  iapply Hk
  isplitl [HO]; · iexact HO
  isplitl [HF1]; · iexact HF1
  isplitl [HK0]; · iexact HK0
  isplitl [Hc0]; · iexact Hc0
  isplitl [Hw0]; · iexact Hw0
  isplitl [HX]; · iexact HX
  iexact HS4

/-- Part 11 of the body: the transfer of slot 4 to the device three places on, and the next fetch into scratch slot 0. -/
theorem sub_11 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32) (v294 : BitVec 32) (v295 : BitVec 32) (v296 v299 : BitVec 1)
    (O : CellTallies nD τ sig Unit)
    (W : Waits sig Unit)
    (Kt : PUnit → sProp 𝕄) :
    iprop(cellInv ER (sched m) (K (c, sIx 4)) (sendCell c 4)
        ∗ cellInv ER (sched m) (K (peer c (shiftOf 4), rIx 4)) (recvCell (peer c (shiftOf 4)) 4)
        ∗ reached ER (sendCell c 4) 0
        ∗ reached ER (recvCell (peer c (shiftOf 4)) 4) 0
        ∗ owes (c : Thread nD τ) (O + rT c 4) W
        ∗ slotPts sM c 4 (slotBuf (sent m c 4))
        ∗ (∃ f, slotPts (F := F) rM (peer c (shiftOf 4)) 4 f)
        ∗ dutyTok ER (sendCell c 4) 0 0
        ∗ dutyTok ER (recvCell (peer c (shiftOf 4)) 4) 0 0
        ∗ semVal (copyCell c 0) 0
        ∗ (∃ f, kPts (F := F) c 0 f)
        ∗ wHalf m c 0)
      ⊢ iprop(((owes (c : Thread nD τ) (O) W
            ∗ cred (tallyAt (sendCell c 4) () N)
            ∗ Fetching m c 0 4 0) -∗ Kt ⟨⟩)
        -∗ wp frame (wpE (defs₀ (F := F)) 𝒱₀ (c : Thread nD τ) none) Set.univ (k0_part11 xM h0 wM h1 oM h2 kM h3 sM h4 rM h5 cc0_scratch3 cc0_scratch4 cc0_scratch5 c v2 v294 v295 v296 v299) Kt) := by
  rw [k0_part11_eq_skeleton]; unfold k0_part11_skel
  simp only [Prog.lift, Prog.bind_op, Prog.bind_ret, Prog.pure_eq_ret]
  iintro ⟨#HiS4, #HiR4, #HrS4, #HrR4, HO, HS4, Hn4, HtS4, HtR4, Hc0, HK0, Hw0⟩ Hk
  icases Hn4 with ⟨%fn4, Hn4⟩
  iapply (wp_send_slot m K c _ 4 (dev13_eq c) (slotBuf (sent m c 4)) fn4 (fun _ _ => rfl) O W) $$ [HS4 Hn4 HO HtS4 HtR4]
  · isplitr; · iexact HiS4
    isplitr; · iexact HiR4
    isplitl [HS4]; · iexact HS4
    isplitl [Hn4]; · iexact Hn4
    isplitl [HO]; · iexact HO
    isplitl [HtS4]; · iexact HtS4
    isplitr; · iexact HrS4
    isplitl [HtR4]; · iexact HtR4
    iexact HrR4
  iintro ⟨HcS4, HO⟩
  iapply (wp_fetch m c 0 4 0) $$ [Hc0 HK0 Hw0]
  · isplitl [Hc0]; · iexact Hc0
    isplitl [HK0]; · iexact HK0
    iexact Hw0
  iintro HF0
  rw [wp_ret]; imodintro
  iapply Hk
  isplitl [HO]; · iexact HO
  isplitl [HcS4]; · iexact HcS4
  iexact HF0

/-- Part 12 of the body: the fetch into scratch slot 1 awaited, and the product stored into send slot 5. -/
theorem sub_12 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (fs5 : Buf (Elt F) ((sSlot 5).view.loc (c : Thread nD τ)))
    (Kt : PUnit → sProp 𝕄) :
    iprop(levAts L lv
        ∗ owes (c : Thread nD τ) (O) W
        ∗ Fetching m c 1 3 1
        ∗ (xM.view.loc (c : Thread nD τ) ↦[xM.view.set]{fullShare} xs m c)
        ∗ slotPts sM c 5 fs5)
      ⊢ iprop(((owes (c : Thread nD τ) (O) (insert (.dma (copySem 1), ()) W)
            ∗ kPts c 1 (slabBuf (wslab (ws m c) (peer c 3) 1))
            ∗ semVal (copyCell c 1) 0
            ∗ wHalf m c 1
            ∗ (xM.view.loc (c : Thread nD τ) ↦[xM.view.set]{fullShare} xs m c)
            ∗ slotPts sM c 5 (slotBuf (sent m c 5))) -∗ Kt ⟨⟩)
        -∗ wp frame (wpE (defs₀ (F := F)) 𝒱₀ (c : Thread nD τ) none) Set.univ (k0_part12 xM h0 wM h1 oM h2 kM h3 sM h4 rM h5 cc0_scratch3 cc0_scratch4 cc0_scratch5 c v2) Kt) := by
  rw [k0_part12_eq_skeleton]; unfold k0_part12_skel
  simp only [Prog.lift, Prog.bind_op, Prog.bind_ret, Prog.pure_eq_ret]
  iintro ⟨#Hlev, HO, HF1, HX, HS5⟩ Hk
  iapply (wp_fetch_wait m c 1 3 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 3) 1)) $$ HK1
  iintro HK1
  iapply (wp_load_s_dead c 5 fs5) $$ HS5
  iintro HS5
  iintro %_r5
  iapply (wp_store_s c 5 fs5 (k0_pay8 (xs m c) (wslab (ws m c) (peer c 3) 1))) $$ HS5
  iintro HS5
  rw [wp_ret]; imodintro
  iapply Hk
  isplitl [HO]; · iexact HO
  isplitl [HK1]; · iexact HK1
  isplitl [Hc1]; · iexact Hc1
  isplitl [Hw1]; · iexact Hw1
  isplitl [HX]; · iexact HX
  iexact HS5

/-- Part 13 of the body: the transfer of slot 5, the next fetch into scratch slot 1, the fetch into slot 0 awaited, and the device's rows loaded. -/
theorem sub_13 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (hO : O ≤ O₀ c)
    (W : Waits sig Unit)
    (Kt : FVec F S512x4096 .f32 → sProp 𝕄) :
    iprop(cellInv ER (sched m) (K (c, sIx 5)) (sendCell c 5)
        ∗ cellInv ER (sched m) (K (peer c (shiftOf 5), rIx 5)) (recvCell (peer c (shiftOf 5)) 5)
        ∗ reached ER (sendCell c 5) 0
        ∗ reached ER (recvCell (peer c (shiftOf 5)) 5) 0
        ∗ levAts L lv
        ∗ owes (c : Thread nD τ) (O + rT c 5) W
        ∗ slotPts sM c 5 (slotBuf (sent m c 5))
        ∗ (∃ f, slotPts (F := F) rM (peer c (shiftOf 5)) 5 f)
        ∗ dutyTok ER (sendCell c 5) 0 0
        ∗ dutyTok ER (recvCell (peer c (shiftOf 5)) 5) 0 0
        ∗ semVal (copyCell c 1) 0
        ∗ (∃ f, kPts (F := F) c 1 f)
        ∗ wHalf m c 1
        ∗ Fetching m c 0 4 0
        ∗ (xM.view.loc (c : Thread nD τ) ↦[xM.view.set]{fullShare} xs m c))
      ⊢ iprop(((owes (c : Thread nD τ) (O) (insert (.dma (copySem 0), ()) W)
            ∗ cred (tallyAt (sendCell c 5) () N)
            ∗ Fetching m c 1 4 1
            ∗ kPts c 0 (slabBuf (wslab (ws m c) (peer c 4) 0))
            ∗ semVal (copyCell c 0) 0
            ∗ wHalf m c 0
            ∗ (xM.view.loc (c : Thread nD τ) ↦[xM.view.set]{fullShare} xs m c)) -∗ Kt (k0_pay9 (xs m c)))
        -∗ wp frame (wpE (defs₀ (F := F)) 𝒱₀ (c : Thread nD τ) none) Set.univ (k0_part13 xM h0 wM h1 oM h2 kM h3 sM h4 rM h5 cc0_scratch3 cc0_scratch4 cc0_scratch5 c v2) Kt) := by
  rw [k0_part13_eq_skeleton]; unfold k0_part13_skel
  simp only [Prog.lift, Prog.bind_op, Prog.bind_ret, Prog.pure_eq_ret]
  iintro ⟨#HiS5, #HiR5, #HrS5, #HrR5, #Hlev, HO, HS5, Hn5, HtS5, HtR5, Hc1, HK1, Hw1, HF0, HX⟩ Hk
  icases Hn5 with ⟨%fn5, Hn5⟩
  iapply (wp_send_slot m K c _ 5 (dev14_eq c) (slotBuf (sent m c 5)) fn5 (fun _ _ => rfl) O W) $$ [HS5 Hn5 HO HtS5 HtR5]
  · isplitr; · iexact HiS5
    isplitr; · iexact HiR5
    isplitl [HS5]; · iexact HS5
    isplitl [Hn5]; · iexact Hn5
    isplitl [HO]; · iexact HO
    isplitl [HtS5]; · iexact HtS5
    isplitr; · iexact HrS5
    isplitl [HtR5]; · iexact HtR5
    iexact HrR5
  iintro ⟨HcS5, HO⟩
  iapply (wp_fetch m c 1 4 1) $$ [Hc1 HK1 Hw1]
  · isplitl [Hc1]; · iexact Hc1
    isplitl [HK1]; · iexact HK1
    iexact Hw1
  iintro HF1
  iapply (wp_fetch_wait m c 0 4 0 O hO W) $$ [HF0 HO]
  · isplitl [HF0]; · iexact HF0
    isplitl [HO]; · iexact HO
    iexact Hlev
  iintro ⟨HK0, Hc0, Hw0, HO⟩
  iapply (wp_load_x c (xs m c)) $$ HX
  iintro HX
  rw [wp_ret]; imodintro
  iapply Hk
  isplitl [HO]; · iexact HO
  isplitl [HcS5]; · iexact HcS5
  isplitl [HF1]; · iexact HF1
  isplitl [HK0]; · iexact HK0
  isplitl [Hc0]; · iexact Hc0
  isplitl [Hw0]; · iexact Hw0
  iexact HX

/-- Part 14 of the body: the slab loaded from scratch slot 0, the product stored into send slot 6, and the slot's transfer to the device four places on. -/
theorem sub_14 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v2 : BitVec 32)
    (O : CellTallies nD τ sig Unit)
    (W : Waits sig Unit)
    (fs6 : Buf (Elt F) ((sSlot 6).view.loc (c : Thread nD τ)))
    (Kt : (Σ' (v423 : BitVec 32) (c8_i32_353 : BitVec 32) (v424 : BitVec 1), BitVec 32) → sProp 𝕄) :
    iprop(cellInv ER (sched m) (K (c, sIx 6)) (sendCell c 6)
        ∗ cellInv ER (sched m) (K (peer c (shiftOf 6), rIx 6)) (recvCell (peer c (shiftOf 6)) 6)
        ∗ reached ER (sendCell c 6) 0
        ∗ reached ER (recvCell (peer c (shiftOf 6)) 6) 0
        ∗ kPts c 0 (slabBuf (wslab (ws m c) (peer c 4) 0))
        ∗ slotPts sM c 6 fs6
        ∗ owes (c : Thread nD τ) (O + rT c 6) W
        ∗ (∃ f, slotPts (F := F) rM (peer c (shiftOf 6)) 6 f)
        ∗ dutyTok ER (sendCell c 6) 0 0
        ∗ dutyTok ER (recvCell (peer c (shiftOf 6)) 6) 0 0)
      ⊢ iprop((∀ r, (owes (c : Thread nD τ) (O) W
            ∗ kPts c 0 (slabBuf (wslab (ws m c) (peer c 4) 0))
            ∗ cred (tallyAt (sendCell c 6) () N)) -∗ Kt r)
        -∗ wp frame (wpE (defs₀ (F := F)) 𝒱₀ (c : Thread nD τ) none) Set.univ (k0_part14 xM h0 wM h1 oM h2 kM h3 sM h4 rM h5 cc0_scratch3 cc0_scratch4 cc0_scratch5 c v2 (k0_pay9 (xs m c))) Kt) := by
  rw [k0_part14_eq_skeleton]; unfold k0_part14_skel
  simp only [Prog.lift, Prog.bind_op, Prog.bind_ret, Prog.pure_eq_ret]
  iintro ⟨#HiS6, #HiR6, #HrS6, #HrR6, HK0, HS6, HO, Hn6, HtS6, HtR6⟩ Hk
  iapply (wp_load_k c 0 (wslab (ws m c) (peer c 4) 0)) $$ HK0
  iintro HK0
  iapply (wp_load_s_dead c 6 fs6) $$ HS6
  iintro HS6
  iintro %_r6
  iapply (wp_store_s c 6 fs6 (k0_pay10 (k0_pay9 (xs m c)) (wslab (ws m c) (peer c 4) 0))) $$ HS6
  iintro HS6
  icases Hn6 with ⟨%fn6, Hn6⟩
  iapply (wp_send_slot m K c _ 6 (dev15_eq c) (slotBuf (sent m c 6)) fn6 (fun _ _ => rfl) O W) $$ [HS6 Hn6 HO HtS6 HtR6]
  · isplitr; · iexact HiS6
    isplitr; · iexact HiR6
    isplitl [HS6]; · iexact HS6
    isplitl [Hn6]; · iexact Hn6
    isplitl [HO]; · iexact HO
    isplitl [HtS6]; · iexact HtS6
    isplitr; · iexact HrS6
    isplitl [HtR6]; · iexact HtR6
    iexact HrR6
  iintro ⟨HcS6, HO⟩
  rw [wp_ret]; imodintro
  iapply Hk
  isplitl [HO]; · iexact HO
  isplitl [HK0]; · iexact HK0
  iexact HcS6

/-- Part 15 of the body: the next fetch into scratch slot 0 issued, the one into slot 1 awaited, and the product stored into send slot 7. -/
theorem sub_15 (K : Dev nD × Fin 29 → ℕ)
    (c : Dev nD)
    {h0 : (xM : Memref sig .tc .vmem S512x4096 .f32).IsWhole} {h1 : (wM : Memref sig .tc .hbm S4096x8192 .f32).IsWhole} {h2 : (oM : Memref sig .tc .vmem S4096x1024 .f32).IsWhole}
    {h3 : (kM : Memref sig .tc .vmem S2x4096x512 .f32).IsWhole} {h4 : (sM : Memref sig .tc .vmem S14x512x512 .bf16).IsWhole} {h5 : (rM : Memref sig .tc .vmem S14x512x512 .bf16).IsWhole}
    (v423 : BitVec 32) (c8 : BitVec 32) (v424 : BitVec 1) (c1 : BitVec 32)
    (O : CellTallies nD τ sig Unit)
    (hO : O ≤ O₀ c)
    (W : Waits sig Unit)
    (fs7 : Buf (Elt F) ((sSlot 7).view.loc (c : Thread nD τ)))
    (Kt : PUnit → sProp 𝕄) :
    iprop(levAts L lv
        ∗ semVal (copyCell c 0) 0
        ∗ (∃ f, kPts (F := F) c 0 f)
        ∗ wHalf m c 0
        ∗ owes (c : Thread nD τ) (O) W
        ∗ Fetching m c 1 4 1
        ∗ (xM.view.loc (c : Thread nD τ) ↦[xM.view.set]{fullShare} xs m c)
        ∗ slotPts sM c 7 fs7)
      ⊢ iprop(((owes (c : Thread nD τ) (O) (insert (.dma (copySem 1), ()) W)
            ∗ Fetching m c 0 5 0
            ∗ kPts c 1 (slabBuf (wslab (ws m c) (peer c 4) 1))
            ∗ semVal (copyCell c 1) 0
            ∗ wHalf m c 1
            ∗ (xM.view.loc (c : Thread nD τ) ↦[xM.view.set]{fullShare} xs m c)
            ∗ slotPts sM c 7 (slotBuf (sent m c 7))) -∗ Kt ⟨⟩)
        -∗ wp frame (wpE (defs₀ (F := F)) 𝒱₀ (c : Thread nD τ) none) Set.univ (k0_part15 xM h0 wM h1 oM h2 kM h3 sM h4 rM h5 cc0_scratch3 cc0_scratch4 cc0_scratch5 c v423 c8 v424 c1) Kt) := by
  rw [k0_part15_eq_skeleton]; unfold k0_part15_skel
  simp only [Prog.lift, Prog.bind_op, Prog.bind_ret, Prog.pure_eq_ret]
  iintro ⟨#Hlev, Hc0, HK0, Hw0, HO, HF1, HX, HS7⟩ Hk
  iapply (wp_fetch m c 0 5 0) $$ [Hc0 HK0 Hw0]
  · isplitl [Hc0]; · iexact Hc0
    isplitl [HK0]; · iexact HK0
    iexact Hw0
  iintro HF0
  iapply (wp_fetch_wait m c 1 4 1 O hO W) $$ [HF1 HO]
  · isplitl [HF1]; · iexact HF1
    isplitl [HO]; · iexact HO
    iexact Hlev
  iintro ⟨HK1, Hc1, Hw1, HO⟩
  iapply (wp_load_x c (xs m c)) $$ HX
  iintro HX
  iapply (wp_load_k c 1 (wslab (ws m c) (peer c 4) 1)) $$ HK1
  iintro HK1
  iapply (wp_load_s_dead c 7 fs7) $$ HS7
  iintro HS7
  iintro %_r7
  iapply (wp_store_s c 7 fs7 (k0_pay11 (xs m c) (wslab (ws m c) (peer c 4) 1))) $$ HS7
  iintro HS7
  rw [wp_ret]; imodintro
  iapply Hk
  isplitl [HO]; · iexact HO
  isplitl [HF0]; · iexact HF0
  isplitl [HK1]; · iexact HK1
  isplitl [Hc1]; · iexact Hc1
  isplitl [Hw1]; · iexact Hw1
  isplitl [HX]; · iexact HX
  iexact HS7

end Cert.Kernel.A2A

end
-- ==== Proof.Bits.SubB.lean ====
/-
  The middle of a device's body, part by part: the transfers of slots 7 … 13, the fetches and waits of the weight
  slabs they are computed from, the device's own two blocks, and the wait on slot 0's send cell.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Bits.Facts
import proofs.«900797_g7700000000000798_dist_gemm_a2a_m4096_k4096_n8192_f32_relu_v7x_i8_1_alg».proof.Proof.Bits.Steps
import proofs.«900797_g7700000000000798_dist_gemm_a2a_m4096_k4096_n8192_f32_relu_v7x_i8_1_alg».proof.Proof.Bits.Slab
import proofs.«900797_g7700000000000798_dist_gemm_a2a_m4096_k4096_n8192_f32_relu_v7x_i8_1_alg».proof.Proof.Bits.Arrive
import proofs.«900797_g7700000000000798_dist_gemm_a2a_m4096_k4096_n8192_f32_relu_v7x_i8_1_alg».proof.Proof.Bits.Local
import proofs.«900797_g7700000000000798_dist_gemm_a2a_m4096_k4096_n8192_f32_relu_v7x_i8_1_alg».proof.Proof.Gen.Kernel.Skeleton

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts -/

/-- Part 16 of the body: the transfer of slot 7. -/
theorem sub_16 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32), BitVec 32) → sProp 𝕄) :
    iprop(cellInv ER (sched m) (K (c, sIx 7)) (sendCell c 7)
        ∗ cellInv ER (sched m) (K (peer c (shiftOf 7), rIx 7)) (recvCell (peer c (shiftOf 7)) 7)
        ∗ slotPts sM c 7 (slotBuf (sent m c 7))
        ∗ (∃ f, slotPts (F := F) rM (peer c (shiftOf 7)) 7 f)
        ∗ owes (c : Thread nD τ) (O + rT c 7) W
        ∗ dutyTok ER (sendCell c 7) 0 0 ∗ reached ER (sendCell c 7) 0
        ∗ dutyTok ER (recvCell (peer c (shiftOf 7)) 7) 0 0 ∗ reached ER (recvCell (peer c (shiftOf 7)) 7) 0)
      ⊢ iprop((∀ r, (cred (tallyAt (sendCell c 7) () N) ∗ owes (c : Thread nD τ) O W) -∗ Kt r)
        -∗ wp frame (wpE (defs₀ (F := F)) 𝒱₀ (c : Thread nD τ) none) Set.univ (k0_part16 xM h0 wM h1 a2 h2 kM h3 sM h4 rM h5 cc0_scratch3 cc0_scratch4 cc0_scratch5 c v2) Kt) := by
  rw [k0_part16_eq_skeleton]; unfold k0_part16_skel
  simp only [Prog.lift, Prog.bind_op, Prog.bind_ret, Prog.pure_eq_ret]
  iintro ⟨#HiS, #HiR, Hs, ⟨%fn, Hn⟩, HO, HdS, #HrS, HdR, #HrR⟩ Hk
  iapply (wp_send_slot m K c _ 7 (dev16_eq c) (slotBuf (sent m c 7)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [HcS]; · iexact HcS
  iexact HO

/-- Part 17 of the body: the fetch of the next slab into scratch slot 1, the wait for the slab in slot 0, the product for
    slot 8 stored into the send buffer. -/
theorem sub_17 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v489 c512 : BitVec 32) (O : CellTallies nD τ sig Unit) (hO : O ≤ O₀ c) (W : Waits sig Unit) (Kt : (Σ' (_ : BitVec 32) (_ : BitVec 32) (_ : BitVec 1), BitVec 1) → sProp 𝕄) :
    iprop(semVal (copyCell c 1) 0 ∗ (∃ f, kPts (F := F) c 1 f) ∗ wHalf m c 1
        ∗ Fetching m c 0 5 0
        ∗ owes (c : Thread nD τ) O W ∗ levAts L lv
        ∗ (xM.view.loc (c : Thread nD τ) ↦[xM.view.set]{fullShare} xs m c)
        ∗ (∃ f, slotPts (F := F) sM c 8 f))
      ⊢ iprop((∀ r, (Fetching m c 1 5 1
            ∗ kPts c 0 (slabBuf (wslab (ws m c) (peer c 5) 0)) ∗ semVal (copyCell c 0) 0 ∗ wHalf m c 0
            ∗ owes (c : Thread nD τ) O (insert (.dma (copySem 0), ()) W)
            ∗ (xM.view.loc (c : Thread nD τ) ↦[xM.view.set]{fullShare} xs m c)
            ∗ slotPts sM c 8 (slotBuf (sent m c 8))) -∗ Kt r)
        -∗ wp frame (wpE (defs₀ (F := F)) 𝒱₀ (c : Thread nD τ) none) Set.univ (k0_part17 xM h0 wM h1 a2 h2 kM h3 sM h4 rM h5 cc0_scratch3 cc0_scratch4 cc0_scratch5 c v2 v489 c512) Kt) := by
  rw [k0_part17_eq_skeleton]; unfold k0_part17_skel
  simp only [Prog.lift, Prog.bind_op, Prog.bind_ret, Prog.pure_eq_ret]
  iintro ⟨Hv1, Hk1, Hw1, HF0, HO, #Hlev, Hx, ⟨%fs, Hs⟩⟩ Hk
  iapply (wp_fetch m c 1 5 1) $$ [Hv1 Hk1 Hw1]
  · isplitl [Hv1]; · iexact Hv1
    isplitl [Hk1]; · iexact Hk1
    iexact Hw1
  iintro HF1
  iapply (wp_fetch_wait m c 0 5 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  iapply (wp_load_k c 0 (wslab (ws m c) (peer c 5) 0)) $$ Hk0
  iintro Hk0
  iapply (wp_load_s_dead c 8 fs) $$ Hs
  iintro Hs %r
  iapply (wp_store_s c 8 fs (sent m c 8)) $$ Hs
  iintro Hs
  rw [wp_ret]; imodintro
  iapply Hk
  isplitl [HF1]; · iexact HF1
  isplitl [Hk0]; · iexact Hk0
  isplitl [Hv0]; · iexact Hv0
  isplitl [Hw0]; · iexact Hw0
  isplitl [HO]; · iexact HO
  isplitl [Hx]; · iexact Hx
  iexact Hs

/-- Part 18 of the body: the transfer of slot 8, the fetch of the next slab into scratch slot 0. -/
theorem sub_18 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v514 v515 : BitVec 32) (v516 v519 : BitVec 1) (O : CellTallies nD τ sig Unit) (W : Waits sig Unit) (Kt : PUnit → sProp 𝕄) :
    iprop(cellInv ER (sched m) (K (c, sIx 8)) (sendCell c 8)
        ∗ cellInv ER (sched m) (K (peer c (shiftOf 8), rIx 8)) (recvCell (peer c (shiftOf 8)) 8)
        ∗ slotPts sM c 8 (slotBuf (sent m c 8))
        ∗ (∃ f, slotPts (F := F) rM (peer c (shiftOf 8)) 8 f)
        ∗ owes (c : Thread nD τ) (O + rT c 8) W
        ∗ dutyTok ER (sendCell c 8) 0 0 ∗ reached ER (sendCell c 8) 0
        ∗ dutyTok ER (recvCell (peer c (shiftOf 8)) 8) 0 0 ∗ reached ER (recvCell (peer c (shiftOf 8)) 8) 0
        ∗ semVal (copyCell c 0) 0 ∗ (∃ f, kPts (F := F) c 0 f) ∗ wHalf m c 0)
      ⊢ iprop(((cred (tallyAt (sendCell c 8) () N) ∗ owes (c : Thread nD τ) O W ∗ Fetching m c 0 6 0) -∗ Kt ⟨⟩)
        -∗ wp frame (wpE (defs₀ (F := F)) 𝒱₀ (c : Thread nD τ) none) Set.univ (k0_part18 xM h0 wM h1 a2 h2 kM h3 sM h4 rM h5 cc0_scratch3 cc0_scratch4 cc0_scratch5 c v2 v514 v515 v516 v519) Kt) := by
  rw [k0_part18_eq_skeleton]; unfold k0_part18_skel
  simp only [Prog.lift, Prog.bind_op, Prog.bind_ret, Prog.pure_eq_ret]
  iintro ⟨#HiS, #HiR, Hs, ⟨%fn, Hn⟩, HO, HdS, #HrS, HdR, #HrR, Hv0, Hk0, Hw0⟩ Hk
  iapply (wp_send_slot m K c _ 8 (dev17_eq c) (slotBuf (sent m c 8)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 0 6 0) $$ [Hv0 Hk0 Hw0]
  · isplitl [Hv0]; · iexact Hv0
    isplitl [Hk0]; · iexact Hk0
    iexact Hw0
  iintro HF0
  rw [wp_ret]; imodintro
  iapply Hk
  isplitl [HcS]; · iexact HcS
  isplitl [HO]; · iexact HO
  iexact HF0

/-- Part 19 of the body: the wait for the slab in scratch slot 1, the product for slot 9 stored into the send buffer. -/
theorem sub_19 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : PUnit → sProp 𝕄) :
    iprop(Fetching m c 1 5 1
        ∗ owes (c : Thread nD τ) O W ∗ levAts L lv
        ∗ (xM.view.loc (c : Thread nD τ) ↦[xM.view.set]{fullShare} xs m c)
        ∗ (∃ f, slotPts (F := F) sM c 9 f))
      ⊢ iprop(((kPts c 1 (slabBuf (wslab (ws m c) (peer c 5) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 9 (slotBuf (sent m c 9))) -∗ Kt ⟨⟩)
        -∗ wp frame (wpE (defs₀ (F := F)) 𝒱₀ (c : Thread nD τ) none) Set.univ (k0_part19 xM h0 wM h1 a2 h2 kM h3 sM h4 rM h5 cc0_scratch3 cc0_scratch4 cc0_scratch5 c v2) Kt) := by
  rw [k0_part19_eq_skeleton]; unfold k0_part19_skel
  simp only [Prog.lift, Prog.bind_op, Prog.bind_ret, Prog.pure_eq_ret]
  iintro ⟨HF1, HO, #Hlev, Hx, ⟨%fs, Hs⟩⟩ Hk
  iapply (wp_fetch_wait m c 1 5 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 5) 1)) $$ Hk1
  iintro Hk1
  iapply (wp_load_s_dead c 9 fs) $$ Hs
  iintro Hs %r
  iapply (wp_store_s c 9 fs (sent m c 9)) $$ Hs
  iintro Hs
  rw [wp_ret]; imodintro
  iapply Hk
  isplitl [Hk1]; · iexact Hk1
  isplitl [Hv1]; · iexact Hv1
  isplitl [Hw1]; · iexact Hw1
  isplitl [HO]; · iexact HO
  isplitl [Hx]; · iexact Hx
  iexact Hs

/-- Part 20 of the body: the transfer of slot 9, the fetch of the next slab into scratch slot 1, the wait for the slab in
    slot 0, the load of the device's rows of x. -/
theorem sub_20 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : FVec F S512x4096 .f32 → sProp 𝕄) :
    iprop(cellInv ER (sched m) (K (c, sIx 9)) (sendCell c 9)
        ∗ cellInv ER (sched m) (K (peer c (shiftOf 9), rIx 9)) (recvCell (peer c (shiftOf 9)) 9)
        ∗ slotPts sM c 9 (slotBuf (sent m c 9))
        ∗ (∃ f, slotPts (F := F) rM (peer c (shiftOf 9)) 9 f)
        ∗ owes (c : Thread nD τ) (O + rT c 9) W
        ∗ dutyTok ER (sendCell c 9) 0 0 ∗ reached ER (sendCell c 9) 0
        ∗ dutyTok ER (recvCell (peer c (shiftOf 9)) 9) 0 0 ∗ reached ER (recvCell (peer c (shiftOf 9)) 9) 0
        ∗ semVal (copyCell c 1) 0 ∗ (∃ f, kPts (F := F) c 1 f) ∗ wHalf m c 1
        ∗ Fetching m c 0 6 0 ∗ levAts L lv
        ∗ (xM.view.loc (c : Thread nD τ) ↦[xM.view.set]{fullShare} xs m c))
      ⊢ iprop(((cred (tallyAt (sendCell c 9) () N) ∗ Fetching m c 1 6 1
            ∗ kPts c 0 (slabBuf (wslab (ws m c) (peer c 6) 0)) ∗ semVal (copyCell c 0) 0 ∗ wHalf m c 0
            ∗ owes (c : Thread nD τ) O (insert (.dma (copySem 0), ()) W)
            ∗ (xM.view.loc (c : Thread nD τ) ↦[xM.view.set]{fullShare} xs m c)) -∗ Kt (k0_pay14 (xs m c)))
        -∗ wp frame (wpE (defs₀ (F := F)) 𝒱₀ (c : Thread nD τ) none) Set.univ (k0_part20 xM h0 wM h1 a2 h2 kM h3 sM h4 rM h5 cc0_scratch3 cc0_scratch4 cc0_scratch5 c v2) Kt) := by
  rw [k0_part20_eq_skeleton]; unfold k0_part20_skel
  simp only [Prog.lift, Prog.bind_op, Prog.bind_ret, Prog.pure_eq_ret]
  iintro ⟨#HiS, #HiR, Hs, ⟨%fn, Hn⟩, HO, HdS, #HrS, HdR, #HrR, Hv1, Hk1, Hw1, HF0, #Hlev, Hx⟩ Hk
  iapply (wp_send_slot m K c _ 9 (dev18_eq c) (slotBuf (sent m c 9)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 1 6 1) $$ [Hv1 Hk1 Hw1]
  · isplitl [Hv1]; · iexact Hv1
    isplitl [Hk1]; · iexact Hk1
    iexact Hw1
  iintro HF1
  iapply (wp_fetch_wait m c 0 6 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  rw [wp_ret]; imodintro
  iapply Hk
  isplitl [HcS]; · iexact HcS
  isplitl [HF1]; · iexact HF1
  isplitl [Hk0]; · iexact Hk0
  isplitl [Hv0]; · iexact Hv0
  isplitl [Hw0]; · iexact Hw0
  isplitl [HO]; · iexact HO
  iexact Hx

/-- Part 21 of the body: the product for slot 10 stored into the send buffer, the transfer of slot 10. -/
theorem sub_21 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32) (_ : BitVec 32) (_ : BitVec 1), BitVec 32) → sProp 𝕄) :
    iprop(kPts c 0 (slabBuf (wslab (ws m c) (peer c 6) 0))
        ∗ (∃ f, slotPts (F := F) sM c 10 f)
        ∗ cellInv ER (sched m) (K (c, sIx 10)) (sendCell c 10)
        ∗ cellInv ER (sched m) (K (peer c (shiftOf 10), rIx 10)) (recvCell (peer c (shiftOf 10)) 10)
        ∗ (∃ f, slotPts (F := F) rM (peer c (shiftOf 10)) 10 f)
        ∗ owes (c : Thread nD τ) (O + rT c 10) W
        ∗ dutyTok ER (sendCell c 10) 0 0 ∗ reached ER (sendCell c 10) 0
        ∗ dutyTok ER (recvCell (peer c (shiftOf 10)) 10) 0 0 ∗ reached ER (recvCell (peer c (shiftOf 10)) 10) 0)
      ⊢ iprop((∀ r, (kPts c 0 (slabBuf (wslab (ws m c) (peer c 6) 0)) ∗ cred (tallyAt (sendCell c 10) () N) ∗ owes (c : Thread nD τ) O W) -∗ Kt r)
        -∗ wp frame (wpE (defs₀ (F := F)) 𝒱₀ (c : Thread nD τ) none) Set.univ (k0_part21 xM h0 wM h1 a2 h2 kM h3 sM h4 rM h5 cc0_scratch3 cc0_scratch4 cc0_scratch5 c v2 (k0_pay14 (xs m c))) Kt) := by
  rw [k0_part21_eq_skeleton]; unfold k0_part21_skel
  simp only [Prog.lift, Prog.bind_op, Prog.bind_ret, Prog.pure_eq_ret]
  iintro ⟨Hk0, ⟨%fs, Hs⟩, #HiS, #HiR, ⟨%fn, Hn⟩, HO, HdS, #HrS, HdR, #HrR⟩ Hk
  iapply (wp_load_k c 0 (wslab (ws m c) (peer c 6) 0)) $$ Hk0
  iintro Hk0
  iapply (wp_load_s_dead c 10 fs) $$ Hs
  iintro Hs %r
  iapply (wp_store_s c 10 fs (sent m c 10)) $$ Hs
  iintro Hs
  iapply (wp_send_slot m K c _ 10 (dev19_eq c) (slotBuf (sent m c 10)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [Hk0]; · iexact Hk0
  isplitl [HcS]; · iexact HcS
  iexact HO

/-- Part 22 of the body: the fetch of the next slab into scratch slot 0, the wait for the slab in slot 1, the product for
    slot 11 stored into the send buffer. -/
theorem sub_22 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v643 c8 : BitVec 32) (v644 : BitVec 1) (c1 : BitVec 32) (O : CellTallies nD τ sig Unit) (hO : O ≤ O₀ c) (W : Waits sig Unit) (Kt : PUnit → sProp 𝕄) :
    iprop(semVal (copyCell c 0) 0 ∗ (∃ f, kPts (F := F) c 0 f) ∗ wHalf m c 0
        ∗ Fetching m c 1 6 1
        ∗ owes (c : Thread nD τ) O W ∗ levAts L lv
        ∗ (xM.view.loc (c : Thread nD τ) ↦[xM.view.set]{fullShare} xs m c)
        ∗ (∃ f, slotPts (F := F) sM c 11 f))
      ⊢ iprop((∀ r, (Fetching m c 0 7 0
            ∗ kPts c 1 (slabBuf (wslab (ws m c) (peer c 6) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 11 (slotBuf (sent m c 11))) -∗ Kt r)
        -∗ wp frame (wpE (defs₀ (F := F)) 𝒱₀ (c : Thread nD τ) none) Set.univ (k0_part22 xM h0 wM h1 a2 h2 kM h3 sM h4 rM h5 cc0_scratch3 cc0_scratch4 cc0_scratch5 c v643 c8 v644 c1) Kt) := by
  rw [k0_part22_eq_skeleton]; unfold k0_part22_skel
  simp only [Prog.lift, Prog.bind_op, Prog.bind_ret, Prog.pure_eq_ret]
  iintro ⟨Hv0, Hk0, Hw0, HF1, HO, #Hlev, Hx, ⟨%fs, Hs⟩⟩ Hk
  iapply (wp_fetch m c 0 7 0) $$ [Hv0 Hk0 Hw0]
  · isplitl [Hv0]; · iexact Hv0
    isplitl [Hk0]; · iexact Hk0
    iexact Hw0
  iintro HF0
  iapply (wp_fetch_wait m c 1 6 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 6) 1)) $$ Hk1
  iintro Hk1
  iapply (wp_load_s_dead c 11 fs) $$ Hs
  iintro Hs %r
  iapply (wp_store_s c 11 fs (sent m c 11)) $$ Hs
  iintro Hs
  rw [wp_ret]; imodintro
  iapply Hk
  isplitl [HF0]; · iexact HF0
  isplitl [Hk1]; · iexact Hk1
  isplitl [Hv1]; · iexact Hv1
  isplitl [Hw1]; · iexact Hw1
  isplitl [HO]; · iexact HO
  isplitl [Hx]; · iexact Hx
  iexact Hs

/-- Part 23 of the body: the transfer of slot 11. -/
theorem sub_23 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (W : Waits sig Unit) (Kt : (Σ' (_ : BitVec 32), BitVec 32) → sProp 𝕄) :
    iprop(cellInv ER (sched m) (K (c, sIx 11)) (sendCell c 11)
        ∗ cellInv ER (sched m) (K (peer c (shiftOf 11), rIx 11)) (recvCell (peer c (shiftOf 11)) 11)
        ∗ slotPts sM c 11 (slotBuf (sent m c 11))
        ∗ (∃ f, slotPts (F := F) rM (peer c (shiftOf 11)) 11 f)
        ∗ owes (c : Thread nD τ) (O + rT c 11) W
        ∗ dutyTok ER (sendCell c 11) 0 0 ∗ reached ER (sendCell c 11) 0
        ∗ dutyTok ER (recvCell (peer c (shiftOf 11)) 11) 0 0 ∗ reached ER (recvCell (peer c (shiftOf 11)) 11) 0)
      ⊢ iprop((∀ r, (cred (tallyAt (sendCell c 11) () N) ∗ owes (c : Thread nD τ) O W) -∗ Kt r)
        -∗ wp frame (wpE (defs₀ (F := F)) 𝒱₀ (c : Thread nD τ) none) Set.univ (k0_part23 xM h0 wM h1 a2 h2 kM h3 sM h4 rM h5 cc0_scratch3 cc0_scratch4 cc0_scratch5 c v2) Kt) := by
  rw [k0_part23_eq_skeleton]; unfold k0_part23_skel
  simp only [Prog.lift, Prog.bind_op, Prog.bind_ret, Prog.pure_eq_ret]
  iintro ⟨#HiS, #HiR, Hs, ⟨%fn, Hn⟩, HO, HdS, #HrS, HdR, #HrR⟩ Hk
  iapply (wp_send_slot m K c _ 11 (dev20_eq c) (slotBuf (sent m c 11)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  rw [wp_ret]; imodintro
  iapply Hk
  isplitl [HcS]; · iexact HcS
  iexact HO

/-- Part 24 of the body: the fetch of the next slab into scratch slot 1, the wait for the slab in slot 0, the product for
    slot 12 stored into the send buffer. -/
theorem sub_24 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v709 c512 : BitVec 32) (O : CellTallies nD τ sig Unit) (hO : O ≤ O₀ c) (W : Waits sig Unit) (Kt : (Σ' (_ : BitVec 32) (_ : BitVec 32) (_ : BitVec 1), BitVec 1) → sProp 𝕄) :
    iprop(semVal (copyCell c 1) 0 ∗ (∃ f, kPts (F := F) c 1 f) ∗ wHalf m c 1
        ∗ Fetching m c 0 7 0
        ∗ owes (c : Thread nD τ) O W ∗ levAts L lv
        ∗ (xM.view.loc (c : Thread nD τ) ↦[xM.view.set]{fullShare} xs m c)
        ∗ (∃ f, slotPts (F := F) sM c 12 f))
      ⊢ iprop((∀ r, (Fetching m c 1 7 1
            ∗ kPts c 0 (slabBuf (wslab (ws m c) (peer c 7) 0)) ∗ semVal (copyCell c 0) 0 ∗ wHalf m c 0
            ∗ owes (c : Thread nD τ) O (insert (.dma (copySem 0), ()) W)
            ∗ (xM.view.loc (c : Thread nD τ) ↦[xM.view.set]{fullShare} xs m c)
            ∗ slotPts sM c 12 (slotBuf (sent m c 12))) -∗ Kt r)
        -∗ wp frame (wpE (defs₀ (F := F)) 𝒱₀ (c : Thread nD τ) none) Set.univ (k0_part24 xM h0 wM h1 a2 h2 kM h3 sM h4 rM h5 cc0_scratch3 cc0_scratch4 cc0_scratch5 c v2 v709 c512) Kt) := by
  rw [k0_part24_eq_skeleton]; unfold k0_part24_skel
  simp only [Prog.lift, Prog.bind_op, Prog.bind_ret, Prog.pure_eq_ret]
  iintro ⟨Hv1, Hk1, Hw1, HF0, HO, #Hlev, Hx, ⟨%fs, Hs⟩⟩ Hk
  iapply (wp_fetch m c 1 7 1) $$ [Hv1 Hk1 Hw1]
  · isplitl [Hv1]; · iexact Hv1
    isplitl [Hk1]; · iexact Hk1
    iexact Hw1
  iintro HF1
  iapply (wp_fetch_wait m c 0 7 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  iapply (wp_load_k c 0 (wslab (ws m c) (peer c 7) 0)) $$ Hk0
  iintro Hk0
  iapply (wp_load_s_dead c 12 fs) $$ Hs
  iintro Hs %r
  iapply (wp_store_s c 12 fs (sent m c 12)) $$ Hs
  iintro Hs
  rw [wp_ret]; imodintro
  iapply Hk
  isplitl [HF1]; · iexact HF1
  isplitl [Hk0]; · iexact Hk0
  isplitl [Hv0]; · iexact Hv0
  isplitl [Hw0]; · iexact Hw0
  isplitl [HO]; · iexact HO
  isplitl [Hx]; · iexact Hx
  iexact Hs

/-- Part 25 of the body: the transfer of slot 12, the fetch of the next slab into scratch slot 0. -/
theorem sub_25 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 v734 v735 : BitVec 32) (v736 v739 : BitVec 1) (O : CellTallies nD τ sig Unit) (W : Waits sig Unit) (Kt : PUnit → sProp 𝕄) :
    iprop(cellInv ER (sched m) (K (c, sIx 12)) (sendCell c 12)
        ∗ cellInv ER (sched m) (K (peer c (shiftOf 12), rIx 12)) (recvCell (peer c (shiftOf 12)) 12)
        ∗ slotPts sM c 12 (slotBuf (sent m c 12))
        ∗ (∃ f, slotPts (F := F) rM (peer c (shiftOf 12)) 12 f)
        ∗ owes (c : Thread nD τ) (O + rT c 12) W
        ∗ dutyTok ER (sendCell c 12) 0 0 ∗ reached ER (sendCell c 12) 0
        ∗ dutyTok ER (recvCell (peer c (shiftOf 12)) 12) 0 0 ∗ reached ER (recvCell (peer c (shiftOf 12)) 12) 0
        ∗ semVal (copyCell c 0) 0 ∗ (∃ f, kPts (F := F) c 0 f) ∗ wHalf m c 0)
      ⊢ iprop(((cred (tallyAt (sendCell c 12) () N) ∗ owes (c : Thread nD τ) O W ∗ Fetching m c 0 0 0) -∗ Kt ⟨⟩)
        -∗ wp frame (wpE (defs₀ (F := F)) 𝒱₀ (c : Thread nD τ) none) Set.univ (k0_part25 xM h0 wM h1 a2 h2 kM h3 sM h4 rM h5 cc0_scratch3 cc0_scratch4 cc0_scratch5 c v2 v734 v735 v736 v739) Kt) := by
  rw [k0_part25_eq_skeleton]; unfold k0_part25_skel
  simp only [Prog.lift, Prog.bind_op, Prog.bind_ret, Prog.pure_eq_ret]
  iintro ⟨#HiS, #HiR, Hs, ⟨%fn, Hn⟩, HO, HdS, #HrS, HdR, #HrR, Hv0, Hk0, Hw0⟩ Hk
  iapply (wp_send_slot m K c _ 12 (dev21_eq c) (slotBuf (sent m c 12)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 0 0 0) $$ [Hv0 Hk0 Hw0]
  · isplitl [Hv0]; · iexact Hv0
    isplitl [Hk0]; · iexact Hk0
    iexact Hw0
  iintro HF0
  rw [wp_ret]; imodintro
  iapply Hk
  isplitl [HcS]; · iexact HcS
  isplitl [HO]; · iexact HO
  iexact HF0

/-- Part 26 of the body: the wait for the slab in scratch slot 1, the product for slot 13 stored into the send buffer. -/
theorem sub_26 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : PUnit → sProp 𝕄) :
    iprop(Fetching m c 1 7 1
        ∗ owes (c : Thread nD τ) O W ∗ levAts L lv
        ∗ (xM.view.loc (c : Thread nD τ) ↦[xM.view.set]{fullShare} xs m c)
        ∗ (∃ f, slotPts (F := F) sM c 13 f))
      ⊢ iprop(((kPts c 1 (slabBuf (wslab (ws m c) (peer c 7) 1)) ∗ semVal (copyCell c 1) 0 ∗ wHalf m c 1
            ∗ owes (c : Thread nD τ) O (insert (.dma (copySem 1), ()) W)
            ∗ (xM.view.loc (c : Thread nD τ) ↦[xM.view.set]{fullShare} xs m c)
            ∗ slotPts sM c 13 (slotBuf (sent m c 13))) -∗ Kt ⟨⟩)
        -∗ wp frame (wpE (defs₀ (F := F)) 𝒱₀ (c : Thread nD τ) none) Set.univ (k0_part26 xM h0 wM h1 a2 h2 kM h3 sM h4 rM h5 cc0_scratch3 cc0_scratch4 cc0_scratch5 c v2) Kt) := by
  rw [k0_part26_eq_skeleton]; unfold k0_part26_skel
  simp only [Prog.lift, Prog.bind_op, Prog.bind_ret, Prog.pure_eq_ret]
  iintro ⟨HF1, HO, #Hlev, Hx, ⟨%fs, Hs⟩⟩ Hk
  iapply (wp_fetch_wait m c 1 7 1 O hO W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 7) 1)) $$ Hk1
  iintro Hk1
  iapply (wp_load_s_dead c 13 fs) $$ Hs
  iintro Hs %r
  iapply (wp_store_s c 13 fs (sent m c 13)) $$ Hs
  iintro Hs
  rw [wp_ret]; imodintro
  iapply Hk
  isplitl [Hk1]; · iexact Hk1
  isplitl [Hv1]; · iexact Hv1
  isplitl [Hw1]; · iexact Hw1
  isplitl [HO]; · iexact HO
  isplitl [Hx]; · iexact Hx
  iexact Hs

/-- Part 27 of the body: the transfer of slot 13, the fetch of the next slab into scratch slot 1, the wait for the slab in
    slot 0, the load of the device's rows of x. -/
theorem sub_27 (K : Dev nD × Fin 29 → ℕ) (c : Dev nD)
    {h0 : (xM : Memref sig .tc .vmem S512x4096 .f32).IsWhole} {h1 : (wM : Memref sig .tc .hbm S4096x8192 .f32).IsWhole}
    (a2 : Memref sig .tc .vmem S4096x1024 .f32) (h2 : a2.IsWhole) {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (O : CellTallies nD τ sig Unit) (hO : O ≤ O₀ c) (W : Waits sig Unit) (Kt : FVec F S512x4096 .f32 → sProp 𝕄) :
    iprop(cellInv ER (sched m) (K (c, sIx 13)) (sendCell c 13)
        ∗ cellInv ER (sched m) (K (peer c (shiftOf 13), rIx 13)) (recvCell (peer c (shiftOf 13)) 13)
        ∗ slotPts sM c 13 (slotBuf (sent m c 13))
        ∗ (∃ f, slotPts (F := F) rM (peer c (shiftOf 13)) 13 f)
        ∗ owes (c : Thread nD τ) (O + rT c 13) W
        ∗ dutyTok ER (sendCell c 13) 0 0 ∗ reached ER (sendCell c 13) 0
        ∗ dutyTok ER (recvCell (peer c (shiftOf 13)) 13) 0 0 ∗ reached ER (recvCell (peer c (shiftOf 13)) 13) 0
        ∗ semVal (copyCell c 1) 0 ∗ (∃ f, kPts (F := F) c 1 f) ∗ wHalf m c 1
        ∗ Fetching m c 0 0 0 ∗ levAts L lv
        ∗ (xM.view.loc (c : Thread nD τ) ↦[xM.view.set]{fullShare} xs m c))
      ⊢ iprop(((cred (tallyAt (sendCell c 13) () N) ∗ Fetching m c 1 0 1
            ∗ kPts c 0 (slabBuf (wslab (ws m c) (peer c 0) 0)) ∗ semVal (copyCell c 0) 0 ∗ wHalf m c 0
            ∗ owes (c : Thread nD τ) O (insert (.dma (copySem 0), ()) W)
            ∗ (xM.view.loc (c : Thread nD τ) ↦[xM.view.set]{fullShare} xs m c)) -∗ Kt (k0_pay19 (xs m c)))
        -∗ wp frame (wpE (defs₀ (F := F)) 𝒱₀ (c : Thread nD τ) none) Set.univ (k0_part27 xM h0 wM h1 a2 h2 kM h3 sM h4 rM h5 cc0_scratch3 cc0_scratch4 cc0_scratch5 c v2) Kt) := by
  rw [k0_part27_eq_skeleton]; unfold k0_part27_skel
  simp only [Prog.lift, Prog.bind_op, Prog.bind_ret, Prog.pure_eq_ret]
  iintro ⟨#HiS, #HiR, Hs, ⟨%fn, Hn⟩, HO, HdS, #HrS, HdR, #HrR, Hv1, Hk1, Hw1, HF0, #Hlev, Hx⟩ Hk
  iapply (wp_send_slot m K c _ 13 (dev22_eq c) (slotBuf (sent m c 13)) fn (fun _ _ => rfl) O W) $$ [Hs Hn HO HdS HdR]
  · isplitr; · iexact HiS
    isplitr; · iexact HiR
    isplitl [Hs]; · iexact Hs
    isplitl [Hn]; · iexact Hn
    isplitl [HO]; · iexact HO
    isplitl [HdS]; · iexact HdS
    isplitr; · iexact HrS
    isplitl [HdR]; · iexact HdR
    iexact HrR
  iintro ⟨HcS, HO⟩
  iapply (wp_fetch m c 1 0 1) $$ [Hv1 Hk1 Hw1]
  · isplitl [Hv1]; · iexact Hv1
    isplitl [Hk1]; · iexact Hk1
    iexact Hw1
  iintro HF1
  iapply (wp_fetch_wait m c 0 0 0 O hO W) $$ [HF0 HO]
  · isplitl [HF0]; · iexact HF0
    isplitl [HO]; · iexact HO
    iexact Hlev
  iintro ⟨Hk0, Hv0, Hw0, HO⟩
  iapply (wp_load_x c (xs m c)) $$ Hx
  iintro Hx
  rw [wp_ret]; imodintro
  iapply Hk
  isplitl [HcS]; · iexact HcS
  isplitl [HF1]; · iexact HF1
  isplitl [Hk0]; · iexact Hk0
  isplitl [Hv0]; · iexact Hv0
  isplitl [Hw0]; · iexact Hw0
  isplitl [HO]; · iexact HO
  iexact Hx

/-- Part 28 of the body: the device's own two blocks stored into the result buffer, the second after the wait for its slab;
    then the wait on slot 0's send cell. -/
theorem sub_28 (K : Dev nD × Fin 29 → ℕ) (c : Dev nD)
    {h0 : (xM : Memref sig .tc .vmem S512x4096 .f32).IsWhole} {h1 : (wM : Memref sig .tc .hbm S4096x8192 .f32).IsWhole}
    {h2 : (oM : Memref sig .tc .vmem S4096x1024 .f32).IsWhole} {h3 : (kM : Memref sig .tc .vmem S2x4096x512 .f32).IsWhole}
    {h4 : (sM : Memref sig .tc .vmem S14x512x512 .bf16).IsWhole} {h5 : (rM : Memref sig .tc .vmem S14x512x512 .bf16).IsWhole}
    (v2 : BitVec 32) (W : Waits sig Unit) (fo : Buf (Elt F) (oM.view.loc (c : Thread nD τ))) (Kt : PUnit → sProp 𝕄) :
    iprop(kPts c 0 (slabBuf (wslab (ws m c) (peer c 0) 0))
        ∗ (oM.view.loc (c : Thread nD τ) ↦[oM.view.set]{fullShare} fo)
        ∗ Fetching m c 1 0 1
        ∗ owes (c : Thread nD τ) 0 W ∗ levAts L lv
        ∗ (xM.view.loc (c : Thread nD τ) ↦[xM.view.set]{fullShare} xs m c)
        ∗ cellInv ER (sched m) (K (c, sIx 0)) (sendCell c 0) ∗ cred (tallyAt (sendCell c 0) () N) ∗ atPos ER (sendCell c 0) 0 ∅ 0)
      ⊢ iprop(((kPts c 0 (slabBuf (wslab (ws m c) (peer c 0) 0))
            ∗ kPts c 1 (slabBuf (wslab (ws m c) (peer c 0) 1)) ∗ semVal (copyCell c 1) 0 ∗ wHalf m c 1
            ∗ (xM.view.loc (c : Thread nD τ) ↦[xM.view.set]{fullShare} xs m c)
            ∗ (oM.view.loc (c : Thread nD τ) ↦[oM.view.set]{fullShare} ((oM.access (Rect.unit (s := S4096x1024) (k0_off3 c) S512x512.size (k0_off3_inb c))).write (Elt F)
              ((oM.access (Rect.unit (s := S4096x1024) (k0_off2 c) S512x512.size (k0_off2_inb c))).write (Elt F) fo
                (k0_pay20 (k0_pay19 (xs m c)) (wslab (ws m c) (peer c 0) 0)) Finset.univ)
              (k0_pay21 (xs m c) (wslab (ws m c) (peer c 0) 1)) Finset.univ))
            ∗ owes (c : Thread nD τ) 0 (insert (.dma (sendSem 0), ()) (insert (.dma (copySem 1), ()) W))
            ∗ atPos ER (sendCell c 0) (0 + 1) ∅ 0
            ∗ (∃ f, slotPts (F := F) sM c 0 f)) -∗ Kt ⟨⟩)
        -∗ wp frame (wpE (defs₀ (F := F)) 𝒱₀ (c : Thread nD τ) none) Set.univ (k0_part28 xM h0 wM h1 oM h2 kM h3 sM h4 rM h5 cc0_scratch3 cc0_scratch4 cc0_scratch5 c v2 (k0_pay19 (xs m c))) Kt) := by
  rw [k0_part28_eq_skeleton]; unfold k0_part28_skel
  simp only [Prog.lift, Prog.bind_op, Prog.bind_ret, Prog.pure_eq_ret]
  iintro ⟨Hk0, Ho, HF1, HO, #Hlev, Hx, #HiS, HcS, HaS⟩ Hk
  iapply (wp_load_k c 0 (wslab (ws m c) (peer c 0) 0)) $$ Hk0
  iintro Hk0
  iapply (wp_swap_out c fo) $$ Ho
  iintro Ho
  iapply (wp_fetch_wait m c 1 0 1 0 zero_le W) $$ [HF1 HO]
  · isplitl [HF1]; · iexact HF1
    isplitl [HO]; · iexact HO
    iexact Hlev
  iintro ⟨Hk1, Hv1, Hw1, HO⟩
  iapply (wp_load_x c (xs m c)) $$ Hx
  iintro Hx
  iapply (wp_load_k c 1 (wslab (ws m c) (peer c 0) 1)) $$ Hk1
  iintro Hk1
  iapply (wp_swap_out c _) $$ Ho
  iintro Ho
  iapply (wp_wait_send_slot m K c 0 (insert (.dma (copySem 1), ()) W)) $$ [HcS HO HaS]
  · isplitr; · iexact HiS
    isplitl [HcS]; · iexact HcS
    isplitl [HO]; · iexact HO
    iexact HaS
  iintro ⟨HO, HaS, Hs0⟩
  rw [wp_ret]; imodintro
  iapply Hk
  isplitl [Hk0]; · iexact Hk0
  isplitl [Hk1]; · iexact Hk1
  isplitl [Hv1]; · iexact Hv1
  isplitl [Hw1]; · iexact Hw1
  isplitl [Hx]; · iexact Hx
  isplitl [Ho]; · iexact Ho
  isplitl [HO]; · iexact HO
  isplitl [HaS]; · iexact HaS
  iexact Hs0

/-- The result buffer as part 28 leaves it holds the specification's values on the device's own row block. -/
theorem own_blocks_run (c : Dev nD) (fo : Vec F S4096x1024 .f32) :
    ∀ i : S4096x1024.Idx, (i 0).val / 512 = c.val →
      ((oM.access (Rect.unit (s := S4096x1024) (k0_off3 c) S512x512.size (k0_off3_inb c))).write (Elt F)
              ((oM.access (Rect.unit (s := S4096x1024) (k0_off2 c) S512x512.size (k0_off2_inb c))).write (Elt F) fo
                (k0_pay20 (k0_pay19 (xs m c)) (wslab (ws m c) (peer c 0) 0)) Finset.univ)
              (k0_pay21 (xs m c) (wslab (ws m c) (peer c 0) 1)) Finset.univ) i = outC m c i := by
  rw [peer_zero, pay20_eq]
  exact own_blocks m c fo

end Cert.Kernel.A2A

end
-- ==== Proof.Bits.OutRun.lean ====
/-
  The result staging buffer at the end of a device's body, as the run's steps leave it written: over whatever it held,
  the device's own two products at its own row block, then the fourteen received blocks, widened, at the row blocks of
  the devices that sent them, in slot order. It is the specification's array.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Facts

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- The result buffer as the run leaves it — the own blocks in the spelling of the step that stores them (the columns
    of the device zero places on; the first product through the two-stage payload), the fourteen widened blocks in slot
    order, the last in the spelling of the body's closing statements — is the specification's array, whatever the
    buffer held before. -/
theorem out_run (c : Dev nD) (fo : Vec F S4096x1024 .f32) :
    ((oM.access (Rect.unit (s := S4096x1024) (k0_off5 c 7#32) S512x512.size (k0_off5_inb c 6))).write (Elt F)
      ((oM.access (Rect.unit (s := S4096x1024) (k0_off4 c 7#32) S512x512.size (k0_off4_inb c 6))).write (Elt F)
      ((oM.access (Rect.unit (s := S4096x1024) (k0_off5 c 6#32) S512x512.size (k0_off5_inb c 5))).write (Elt F)
      ((oM.access (Rect.unit (s := S4096x1024) (k0_off4 c 6#32) S512x512.size (k0_off4_inb c 5))).write (Elt F)
      ((oM.access (Rect.unit (s := S4096x1024) (k0_off5 c 5#32) S512x512.size (k0_off5_inb c 4))).write (Elt F)
      ((oM.access (Rect.unit (s := S4096x1024) (k0_off4 c 5#32) S512x512.size (k0_off4_inb c 4))).write (Elt F)
      ((oM.access (Rect.unit (s := S4096x1024) (k0_off5 c 4#32) S512x512.size (k0_off5_inb c 3))).write (Elt F)
      ((oM.access (Rect.unit (s := S4096x1024) (k0_off4 c 4#32) S512x512.size (k0_off4_inb c 3))).write (Elt F)
      ((oM.access (Rect.unit (s := S4096x1024) (k0_off5 c 3#32) S512x512.size (k0_off5_inb c 2))).write (Elt F)
      ((oM.access (Rect.unit (s := S4096x1024) (k0_off4 c 3#32) S512x512.size (k0_off4_inb c 2))).write (Elt F)
      ((oM.access (Rect.unit (s := S4096x1024) (k0_off5 c 2#32) S512x512.size (k0_off5_inb c 1))).write (Elt F)
      ((oM.access (Rect.unit (s := S4096x1024) (k0_off4 c 2#32) S512x512.size (k0_off4_inb c 1))).write (Elt F)
      ((oM.access (Rect.unit (s := S4096x1024) (k0_off5 c 1#32) S512x512.size (k0_off5_inb c 0))).write (Elt F)
      ((oM.access (Rect.unit (s := S4096x1024) (k0_off4 c 1#32) S512x512.size (k0_off4_inb c 0))).write (Elt F)
      ((oM.access (Rect.unit (s := S4096x1024) (k0_off3 c) S512x512.size (k0_off3_inb c))).write (Elt F)
        ((oM.access (Rect.unit (s := S4096x1024) (k0_off2 c) S512x512.size (k0_off2_inb c))).write (Elt F) fo
          (k0_pay20 (k0_pay19 (xs m c)) (wslab (ws m c) (peer c 0) 0)) Finset.univ)
        (k0_pay21 (xs m c) (wslab (ws m c) (peer c 0) 1)) Finset.univ)
      (k0_pay1 (sent m (back c (shiftOf 0)) 0)) Finset.univ)
      (k0_pay1 (sent m (back c (shiftOf 1)) 1)) Finset.univ)
      (k0_pay1 (sent m (back c (shiftOf 2)) 2)) Finset.univ)
      (k0_pay1 (sent m (back c (shiftOf 3)) 3)) Finset.univ)
      (k0_pay1 (sent m (back c (shiftOf 4)) 4)) Finset.univ)
      (k0_pay1 (sent m (back c (shiftOf 5)) 5)) Finset.univ)
      (k0_pay1 (sent m (back c (shiftOf 6)) 6)) Finset.univ)
      (k0_pay1 (sent m (back c (shiftOf 7)) 7)) Finset.univ)
      (k0_pay1 (sent m (back c (shiftOf 8)) 8)) Finset.univ)
      (k0_pay1 (sent m (back c (shiftOf 9)) 9)) Finset.univ)
      (k0_pay1 (sent m (back c (shiftOf 10)) 10)) Finset.univ)
      (k0_pay1 (sent m (back c (shiftOf 11)) 11)) Finset.univ)
      (k0_pay1 (sent m (back c (shiftOf 12)) 12)) Finset.univ)
      (extf .f32 (shapeCast S512x512 (sent m (back c (shiftOf 13)) 13) shapeCasts_S1x512x512_S512x512) bitsLt_bf16_f32) Finset.univ)
      = outC m c := by
  refine out_final m c _ ?_
  rw [peer_zero, pay20_eq]
  exact own_blocks m c fo

end Cert.Kernel.A2A

end
-- ==== Proof.Bits.Body.lean ====
/-
  One device's kernel body, stepped once at a symbolic device.
-/
import proofs.«900797_g7700000000000798_dist_gemm_a2a_m4096_k4096_n8192_f32_relu_v7x_i8_1_alg».proof.Proof.Bits.Proto
import proofs.«900797_g7700000000000798_dist_gemm_a2a_m4096_k4096_n8192_f32_relu_v7x_i8_1_alg».proof.Proof.Bits.Levels
import proofs.«900797_g7700000000000798_dist_gemm_a2a_m4096_k4096_n8192_f32_relu_v7x_i8_1_alg».proof.Proof.Bits.Gift
import proofs.«900797_g7700000000000798_dist_gemm_a2a_m4096_k4096_n8192_f32_relu_v7x_i8_1_alg».proof.Proof.Gen.Kernel.Skeleton
import proofs.«900797_g7700000000000798_dist_gemm_a2a_m4096_k4096_n8192_f32_relu_v7x_i8_1_alg».proof.Proof.Bits.Facts
import proofs.«900797_g7700000000000798_dist_gemm_a2a_m4096_k4096_n8192_f32_relu_v7x_i8_1_alg».proof.Proof.Bits.Steps
import proofs.«900797_g7700000000000798_dist_gemm_a2a_m4096_k4096_n8192_f32_relu_v7x_i8_1_alg».proof.Proof.Bits.Slab
import proofs.«900797_g7700000000000798_dist_gemm_a2a_m4096_k4096_n8192_f32_relu_v7x_i8_1_alg».proof.Proof.Bits.Arrive
import proofs.«900797_g7700000000000798_dist_gemm_a2a_m4096_k4096_n8192_f32_relu_v7x_i8_1_alg».proof.Proof.Bits.Finish
import proofs.«900797_g7700000000000798_dist_gemm_a2a_m4096_k4096_n8192_f32_relu_v7x_i8_1_alg».proof.Proof.Bits.Local
import proofs.«900797_g7700000000000798_dist_gemm_a2a_m4096_k4096_n8192_f32_relu_v7x_i8_1_alg».proof.Proof.Bits.SubA
import proofs.«900797_g7700000000000798_dist_gemm_a2a_m4096_k4096_n8192_f32_relu_v7x_i8_1_alg».proof.Proof.Bits.SubB
import proofs.«900797_g7700000000000798_dist_gemm_a2a_m4096_k4096_n8192_f32_relu_v7x_i8_1_alg».proof.Proof.Bits.OutRun

noncomputable section

namespace Cert.Kernel.A2A

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost names fixed. -/
def bodyPre (K : Dev nD × Fin 29 → ℕ) (c : Dev nD) : sProp 𝕄 :=
  iprop(((cellInv ER (sched m) (K (c, bIx)) (barCell c) ∗ ghost m K c) ∗ cred (tallyAt (barCell c) () 8) ∗ (bigSep Finset.univ fun v : Fin 14 => cred (tallyAt (recvCell c v) () N))
      ∗ levAts L lv ∗ semVal (copyCell c 0) 0 ∗ semVal (copyCell c 1) 0
      ∗ (((c : Thread nD τ).loc main_arg1) ↦{fullShare} ws m c))
    ∗ scratch (F := F) c
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (outC m c))

omit [FloatOps F] in
/-- A family over the eight devices, one by one. -/
theorem bigSep_D8 (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL (I := Dev nD) [0, 1, 2, 3, 4, 5, 6, 7] (by decide) (by decide) Φ
omit [FloatOps F] in
/-- A family over the fourteen slots, one by one. -/
theorem bigSep_V14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL (I := Fin 14) [0, 1, 2, 3, 4, 5, 6, 7, 8, 9, 10, 11, 12, 13] (by decide) (by decide) Φ

/-- A device holds, among the eight barrier cells' invariants, its own. -/
theorem ghost_own (K : Dev nD × Fin 29 → ℕ) (c : Dev nD) :
    ghost m K c ⊢ iprop(cellInv ER (sched m) (K (c, bIx)) (barCell c) ∗ ghost m K c) := by
  unfold ghost
  rw [bigSep_univ_at (fun k : Dev nD => iprop(cellInv ER (sched m) (K (k, bIx)) (barCell k) ∗ reached ER (barCell k) 0
          ∗ dutyTok ER (barCell k) 0 (dutyTo c k))) c]
  iintro ⟨⟨⟨#HI, Hr, Ht⟩, Hrest⟩, H2, H3⟩
  isplitr
  · iexact HI
  isplitl [Hr Ht Hrest]
  · isplitl [Hr Ht]
    · isplitr
      · iexact HI
      isplitl [Hr]
      · iexact Hr
      iexact Ht
    iexact Hrest
  isplitl [H2]
  · iexact H2
  iexact H3

set_option maxHeartbeats 4000000 in
/-- The body, part by part: each part's theorem applied in program order from the device's invariant. -/
theorem sound_body (K : Dev nD × Fin 29 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) wM (Memref.isWhole_whole _) oM (Memref.isWhole_whole _)
            kM (Memref.isWhole_whole _) sM (Memref.isWhole_whole _) rM (Memref.isWhole_whole _) cc0_scratch3 cc0_scratch4 cc0_scratch5) Kt := by
  unfold bodyPre scratch ghost
  rw [bigSep_D8, bigSep_V14, bigSep_V14]
  iintro ⟨⟨⟨⟨#HIbc, ⟨⟨#HIb0, #Hrb0, Htb0⟩, ⟨#HIb1, #Hrb1, Htb1⟩, ⟨#HIb2, #Hrb2, Htb2⟩, ⟨#HIb3, #Hrb3, Htb3⟩, ⟨#HIb4, #Hrb4, Htb4⟩, ⟨#HIb5, #Hrb5, Htb5⟩, ⟨#HIb6, #Hrb6, Htb6⟩, ⟨#HIb7, #Hrb7, Htb7⟩⟩, ⟨⟨#HIs0, #HIr0, #HIp0, Has0, Har0, #Hrs0, #Hrr0, #Hrp0, Hts0, Htp0⟩, ⟨#HIs1, #HIr1, #HIp1, Has1, Har1, #Hrs1, #Hrr1, #Hrp1, Hts1, Htp1⟩, ⟨#HIs2, #HIr2, #HIp2, Has2, Har2, #Hrs2, #Hrr2, #Hrp2, Hts2, Htp2⟩, ⟨#HIs3, #HIr3, #HIp3, Has3, Har3, #Hrs3, #Hrr3, #Hrp3, Hts3, Htp3⟩, ⟨#HIs4, #HIr4, #HIp4, Has4, Har4, #Hrs4, #Hrr4, #Hrp4, Hts4, Htp4⟩, ⟨#HIs5, #HIr5, #HIp5, Has5, Har5, #Hrs5, #Hrr5, #Hrp5, Hts5, Htp5⟩, ⟨#HIs6, #HIr6, #HIp6, Has6, Har6, #Hrs6, #Hrr6, #Hrp6, Hts6, Htp6⟩, ⟨#HIs7, #HIr7, #HIp7, Has7, Har7, #Hrs7, #Hrr7, #Hrp7, Hts7, Htp7⟩, ⟨#HIs8, #HIr8, #HIp8, Has8, Har8, #Hrs8, #Hrr8, #Hrp8, Hts8, Htp8⟩, ⟨#HIs9, #HIr9, #HIp9, Has9, Har9, #Hrs9, #Hrr9, #Hrp9, Hts9, Htp9⟩, ⟨#HIs10, #HIr10, #HIp10, Has10, Har10, #Hrs10, #Hrr10, #Hrp10, Hts10, Htp10⟩, ⟨#HIs11, #HIr11, #HIp11, Has11, Har11, #Hrs11, #Hrr11, #Hrp11, Hts11, Htp11⟩, ⟨#HIs12, #HIr12, #HIp12, Has12, Har12, #Hrs12, #Hrr12, #Hrp12, Hts12, Htp12⟩, ⟨#HIs13, #HIr13, #HIp13, Has13, Har13, #Hrs13, #Hrr13, #Hrp13, Hts13, Htp13⟩⟩, HatB⟩, HcB, ⟨Hcr0, Hcr1, Hcr2, Hcr3, Hcr4, Hcr5, Hcr6, Hcr7, Hcr8, Hcr9, Hcr10, Hcr11, Hcr12, Hcr13⟩, #Hlev, Hz0, Hz1, Hw⟩, ⟨⟨%fk, Hk⟩, ⟨%fs, Hs⟩, ⟨%fr, Hr⟩⟩,
    Ho, ⟨%d0, %g0, %hg0, Hx⟩, ⟨%d1, %g1, %hg1, Hout⟩⟩, Hkt⟩
  -- the staged x block is the device's rows
  have hx : g0 = xs m c := hg0.trans (x_before m c d0)
  subst hx
  -- what the device owes, as the explicit sum
  unfold Dat.owesAt Pipeline.owesWithin
  icases Ho with ⟨%W, %hW, HO⟩
  rw [show (dats m 0 c).owed t0_0.castSucc = O₀ c from rfl]
  -- the receive buffer as the eight barrier gifts
  ihave Hr14 := (slots_split rM (Memref.isWhole_whole _) c fr).1 $$ [Hr]
  · simp only [Memref.view_whole, View.set_whole]; iexact Hr
  have hex : ∀ v : Fin 14, (slotPts (F := F) rM c v fr : sProp 𝕄) ⊢ iprop(∃ f, slotPts (F := F) rM c v f) := fun v => by
    iintro H; iexists fr; iexact H
  have hm : (bigSep Finset.univ (fun v : Fin 14 => slotPts (F := F) rM c v fr) : sProp 𝕄) ⊢ bigSep Finset.univ fun v : Fin 14 => iprop(∃ f, slotPts (F := F) rM c v f) :=
    bigSep_mono (fun v _ => hex v)
  ihave Hr14' := hm $$ Hr14
  ihave Hgifts := (own_gifts c) $$ Hr14'
  ihave Hgifts' := (Entails.of_eq (bigSep_D8 (fun k : Dev nD => barPay (F := F) k (dutyTo c k)))) $$ Hgifts
  icases Hgifts' with ⟨Hg0, Hg1, Hg2, Hg3, Hg4, Hg5, Hg6, Hg7⟩
  -- the send buffer as its fourteen slots
  ihave Hs14 := (slots_split sM (Memref.isWhole_whole _) c fs).1 $$ [Hs]
  · simp only [Memref.view_whole, View.set_whole]; iexact Hs
  ihave Hs14' := (Entails.of_eq (bigSep_V14 (fun v : Fin 14 => slotPts (F := F) sM c v fs))) $$ Hs14
  icases Hs14' with ⟨Hs0, Hs1, Hs2, Hs3, Hs4, Hs5, Hs6, Hs7, Hs8, Hs9, Hs10, Hs11, Hs12, Hs13⟩
  -- the weight scratch as its two slots, the weights as two half shares
  ihave Hk2 := (k_split c fk).1 $$ [Hk]
  · simp only [Memref.view_whole, View.set_whole]; iexact Hk
  icases Hk2 with ⟨Hk0, Hk1⟩
  ihave Hw2 := (w_halve m c).1 $$ Hw
  icases Hw2 with ⟨Hw0, Hw1⟩
  -- the staging buffers through their memrefs
  ihave Hx := (Entails.of_eq (show ((((c : Thread nD τ).loc cc0_stg0_0) ↦{fullShare} xs m c : sProp 𝕄)) = (xM.view.loc (c : Thread nD τ) ↦[xM.view.set]{fullShare} xs m c) by simp only [Memref.view_whole, View.set_whole])) $$ Hx
  ihave Hout := (Entails.of_eq (oM_whole c g1).symm) $$ Hout
  -- the program as its parts in sequence
  rw [cc0_body_eq_skeleton]; unfold cc0_body_skel
  rw [k0_part43_eq_skeleton]; unfold k0_part43_skel
  rw [wp_bind]
  -- what is still owed after the first j transfers lies below the launch debt
  have hle0 : ((0 + rT c 13 + rT c 12 + rT c 11 + rT c 10 + rT c 9 + rT c 8 + rT c 7 + rT c 6 + rT c 5 + rT c 4 + rT c 3 + rT c 2 + rT c 1 + rT c 0) : CellTallies nD τ sig Unit) ≤ O₀ c := by
    show OR c ≤ O₀ c
    unfold O₀; exact le_add_right (le_add_right (le_add_right (le_add_right (le_add_right (le_add_right (le_add_right (le_add_right le_rfl)))))))
  have hle1 : ((0 + rT c 13 + rT c 12 + rT c 11 + rT c 10 + rT c 9 + rT c 8 + rT c 7 + rT c 6 + rT c 5 + rT c 4 + rT c 3 + rT c 2 + rT c 1) : CellTallies nD τ sig Unit) ≤ O₀ c := le_trans le_self_add hle0
  have hle2 : ((0 + rT c 13 + rT c 12 + rT c 11 + rT c 10 + rT c 9 + rT c 8 + rT c 7 + rT c 6 + rT c 5 + rT c 4 + rT c 3 + rT c 2) : CellTallies nD τ sig Unit) ≤ O₀ c := le_trans le_self_add hle1
  have hle3 : ((0 + rT c 13 + rT c 12 + rT c 11 + rT c 10 + rT c 9 + rT c 8 + rT c 7 + rT c 6 + rT c 5 + rT c 4 + rT c 3) : CellTallies nD τ sig Unit) ≤ O₀ c := le_trans le_self_add hle2
  have hle4 : ((0 + rT c 13 + rT c 12 + rT c 11 + rT c 10 + rT c 9 + rT c 8 + rT c 7 + rT c 6 + rT c 5 + rT c 4) : CellTallies nD τ sig Unit) ≤ O₀ c := le_trans le_self_add hle3
  have hle5 : ((0 + rT c 13 + rT c 12 + rT c 11 + rT c 10 + rT c 9 + rT c 8 + rT c 7 + rT c 6 + rT c 5) : CellTallies nD τ sig Unit) ≤ O₀ c := le_trans le_self_add hle4
  have hle6 : ((0 + rT c 13 + rT c 12 + rT c 11 + rT c 10 + rT c 9 + rT c 8 + rT c 7 + rT c 6) : CellTallies nD τ sig Unit) ≤ O₀ c := le_trans le_self_add hle5
  have hle7 : ((0 + rT c 13 + rT c 12 + rT c 11 + rT c 10 + rT c 9 + rT c 8 + rT c 7) : CellTallies nD τ sig Unit) ≤ O₀ c := le_trans le_self_add hle6
  have hle8 : ((0 + rT c 13 + rT c 12 + rT c 11 + rT c 10 + rT c 9 + rT c 8) : CellTallies nD τ sig Unit) ≤ O₀ c := le_trans le_self_add hle7
  have hle9 : ((0 + rT c 13 + rT c 12 + rT c 11 + rT c 10 + rT c 9) : CellTallies nD τ sig Unit) ≤ O₀ c := le_trans le_self_add hle8
  have hle10 : ((0 + rT c 13 + rT c 12 + rT c 11 + rT c 10) : CellTallies nD τ sig Unit) ≤ O₀ c := le_trans le_self_add hle9
  have hle11 : ((0 + rT c 13 + rT c 12 + rT c 11) : CellTallies nD τ sig Unit) ≤ O₀ c := le_trans le_self_add hle10
  have hle12 : ((0 + rT c 13 + rT c 12) : CellTallies nD τ sig Unit) ≤ O₀ c := le_trans le_self_add hle11
  have hle13 : ((0 + rT c 13) : CellTallies nD τ sig Unit) ≤ O₀ c := le_trans le_self_add hle12
  have hle14 : ((0) : CellTallies nD τ sig Unit) ≤ O₀ c := le_trans le_self_add hle13
  -- part 1
  rw [wp_bind]
  iapply (sub_1 m K c _ _ _ _ _ _ _ _ _ _ _ _ _ _ _ _ _) $$ [HO Htb0 Hg0 Htb1 Hg1 Htb2 Hg2 Htb3 Hg3 Htb4 Hg4 Htb5 Hg5 Htb6 Hg6]
  · isplitr; · iexact HIb0
    isplitr; · iexact Hrb0
    isplitr; · iexact HIb1
    isplitr; · iexact Hrb1
    isplitr; · iexact HIb2
    isplitr; · iexact Hrb2
    isplitr; · iexact HIb3
    isplitr; · iexact Hrb3
    isplitr; · iexact HIb4
    isplitr; · iexact Hrb4
    isplitr; · iexact HIb5
    isplitr; · iexact Hrb5
    isplitr; · iexact HIb6
    isplitr; · iexact Hrb6
    isplitl [HO]; · iexact HO
    isplitl [Htb0]; · iexact Htb0
    isplitl [Hg0]; · iexact Hg0
    isplitl [Htb1]; · iexact Htb1
    isplitl [Hg1]; · iexact Hg1
    isplitl [Htb2]; · iexact Htb2
    isplitl [Hg2]; · iexact Hg2
    isplitl [Htb3]; · iexact Htb3
    isplitl [Hg3]; · iexact Hg3
    isplitl [Htb4]; · iexact Htb4
    isplitl [Hg4]; · iexact Hg4
    isplitl [Htb5]; · iexact Htb5
    isplitl [Hg5]; · iexact Hg5
    isplitl [Htb6]; · iexact Htb6
    iexact Hg6
  iintro %v2_1 %v18_1 HO
  -- part 2
  try dsimp only
  rw [wp_bind]
  iapply (sub_2 m K c _ _ _ _) $$ [HO Htb7 Hg7 HcB HatB Hz0 Hk0 Hw0]
  · isplitr; · iexact HIb7
    isplitr; · iexact Hrb7
    isplitr; · iexact HIbc
    isplitr; · iexact Hlev
    isplitl [HO]; · iexact HO
    isplitl [Htb7]; · iexact Htb7
    isplitl [Hg7]; · iexact Hg7
    isplitl [HcB]; · iexact HcB
    isplitl [HatB]; · iexact HatB
    isplitl [Hz0]; · iexact Hz0
    isplitl [Hk0]; · (iexists _; iexact Hk0)
    iexact Hw0
  iintro %r_2 ⟨HO, HatB, HrB1, Hqs, Hf0⟩
  obtain ⟨r_2_0, r_2_1⟩ := r_2
  -- the barrier's payloads: the fourteen peer slots, one by one
  ihave Hqs' := (Entails.of_eq (bigSep_V14 (fun v : Fin 14 => iprop(∃ f, slotPts (F := F) rM (peer c (shiftOf v)) v f)))) $$ Hqs
  icases Hqs' with ⟨⟨%fq0, Hq0⟩, ⟨%fq1, Hq1⟩, ⟨%fq2, Hq2⟩, ⟨%fq3, Hq3⟩, ⟨%fq4, Hq4⟩, ⟨%fq5, Hq5⟩, ⟨%fq6, Hq6⟩, ⟨%fq7, Hq7⟩, ⟨%fq8, Hq8⟩, ⟨%fq9, Hq9⟩, ⟨%fq10, Hq10⟩, ⟨%fq11, Hq11⟩, ⟨%fq12, Hq12⟩, ⟨%fq13, Hq13⟩⟩
  -- part 3
  try dsimp only
  rw [wp_bind]
  iapply (sub_3 m K c _ _ _ (0 + rT c 13 + rT c 12 + rT c 11 + rT c 10 + rT c 9 + rT c 8 + rT c 7 + rT c 6 + rT c 5 + rT c 4 + rT c 3 + rT c 2 + rT c 1 + rT c 0) hle0 _ _ _) $$ [Hz1 Hk1 Hw1 HO Hf0 Hx Hs0]
  · isplitr; · iexact Hlev
    isplitl [Hz1]; · iexact Hz1
    isplitl [Hk1]; · (iexists _; iexact Hk1)
    isplitl [Hw1]; · iexact Hw1
    isplitl [HO]; · iexact HO
    isplitl [Hf0]; · iexact Hf0
    isplitl [Hx]; · iexact Hx
    iexact Hs0
  iintro %r_3 ⟨HO, Hf1, Hk0, Hz0, Hw0, Hx, Hs0⟩
  obtain ⟨r_3_0, r_3_1, r_3_2, r_3_3⟩ := r_3
  -- part 4
  try dsimp only
  rw [wp_bind]
  iapply (sub_4 m K c _ _ _ _ _ (0 + rT c 13 + rT c 12 + rT c 11 + rT c 10 + rT c 9 + rT c 8 + rT c 7 + rT c 6 + rT c 5 + rT c 4 + rT c 3 + rT c 2 + rT c 1) _ _) $$ [HO Hs0 Hq0 Hts0 Htp0 Hz0 Hk0 Hw0]
  · isplitr; · iexact HIs0
    isplitr; · iexact HIp0
    isplitr; · iexact Hrs0
    isplitr; · iexact Hrp0
    isplitl [HO]; · iexact HO
    isplitl [Hs0]; · iexact Hs0
    isplitl [Hq0]; · (iexists _; iexact Hq0)
    isplitl [Hts0]; · iexact Hts0
    isplitl [Htp0]; · iexact Htp0
    isplitl [Hz0]; · iexact Hz0
    isplitl [Hk0]; · (iexists _; iexact Hk0)
    iexact Hw0
  iintro ⟨HO, Hcs0, Hf0⟩
  -- part 5
  try dsimp only
  rw [wp_bind]
  iapply (sub_5 m K c _ (0 + rT c 13 + rT c 12 + rT c 11 + rT c 10 + rT c 9 + rT c 8 + rT c 7 + rT c 6 + rT c 5 + rT c 4 + rT c 3 + rT c 2 + rT c 1) hle1 _ _ _) $$ [HO Hf1 Hx Hs1]
  · isplitr; · iexact Hlev
    isplitl [HO]; · iexact HO
    isplitl [Hf1]; · iexact Hf1
    isplitl [Hx]; · iexact Hx
    iexact Hs1
  iintro ⟨HO, Hk1, Hz1, Hw1, Hx, Hs1⟩
  -- part 6
  try dsimp only
  rw [wp_bind]
  iapply (sub_6 m K c _ (0 + rT c 13 + rT c 12 + rT c 11 + rT c 10 + rT c 9 + rT c 8 + rT c 7 + rT c 6 + rT c 5 + rT c 4 + rT c 3 + rT c 2) hle2 _ _) $$ [HO Hs1 Hq1 Hts1 Htp1 Hz1 Hk1 Hw1 Hf0 Hx]
  · isplitr; · iexact HIs1
    isplitr; · iexact HIp1
    isplitr; · iexact Hrs1
    isplitr; · iexact Hrp1
    isplitr; · iexact Hlev
    isplitl [HO]; · iexact HO
    isplitl [Hs1]; · iexact Hs1
    isplitl [Hq1]; · (iexists _; iexact Hq1)
    isplitl [Hts1]; · iexact Hts1
    isplitl [Htp1]; · iexact Htp1
    isplitl [Hz1]; · iexact Hz1
    isplitl [Hk1]; · (iexists _; iexact Hk1)
    isplitl [Hw1]; · iexact Hw1
    isplitl [Hf0]; · iexact Hf0
    iexact Hx
  iintro ⟨HO, Hcs1, Hf1, Hk0, Hz0, Hw0, Hx⟩
  -- part 7
  try dsimp only
  rw [wp_bind]
  iapply (sub_7 m K c _ (0 + rT c 13 + rT c 12 + rT c 11 + rT c 10 + rT c 9 + rT c 8 + rT c 7 + rT c 6 + rT c 5 + rT c 4 + rT c 3) _ _ _) $$ [Hk0 Hs2 HO Hq2 Hts2 Htp2]
  · isplitr; · iexact HIs2
    isplitr; · iexact HIp2
    isplitr; · iexact Hrs2
    isplitr; · iexact Hrp2
    isplitl [Hk0]; · iexact Hk0
    isplitl [Hs2]; · iexact Hs2
    isplitl [HO]; · iexact HO
    isplitl [Hq2]; · (iexists _; iexact Hq2)
    isplitl [Hts2]; · iexact Hts2
    iexact Htp2
  iintro %r_7 ⟨HO, Hk0, Hcs2⟩
  obtain ⟨r_7_0, r_7_1, r_7_2, r_7_3⟩ := r_7
  -- part 8
  try dsimp only
  rw [wp_bind]
  iapply (sub_8 m K c _ _ _ _ (0 + rT c 13 + rT c 12 + rT c 11 + rT c 10 + rT c 9 + rT c 8 + rT c 7 + rT c 6 + rT c 5 + rT c 4 + rT c 3) hle3 _ _ _) $$ [Hz0 Hk0 Hw0 HO Hf1 Hx Hs3]
  · isplitr; · iexact Hlev
    isplitl [Hz0]; · iexact Hz0
    isplitl [Hk0]; · (iexists _; iexact Hk0)
    isplitl [Hw0]; · iexact Hw0
    isplitl [HO]; · iexact HO
    isplitl [Hf1]; · iexact Hf1
    isplitl [Hx]; · iexact Hx
    iexact Hs3
  iintro ⟨HO, Hf0, Hk1, Hz1, Hw1, Hx, Hs3⟩
  -- part 9
  try dsimp only
  rw [wp_bind]
  iapply (sub_9 m K c _ _ _ _ _ _ _ _ _ _ (0 + rT c 13 + rT c 12 + rT c 11 + rT c 10 + rT c 9 + rT c 8 + rT c 7 + rT c 6 + rT c 5 + rT c 4) _ _) $$ [Hs3 Hq3 HO Hts3 Htp3]
  · isplitr; · iexact HIs3
    isplitr; · iexact HIp3
    isplitr; · iexact Hrs3
    isplitr; · iexact Hrp3
    isplitl [Hs3]; · iexact Hs3
    isplitl [Hq3]; · (iexists _; iexact Hq3)
    isplitl [HO]; · iexact HO
    isplitl [Hts3]; · iexact Hts3
    iexact Htp3
  iintro %r_9 ⟨Hcs3, HO⟩
  obtain ⟨r_9_0, r_9_1⟩ := r_9
  -- part 10
  try dsimp only
  rw [wp_bind]
  iapply (sub_10 m K c _ _ _ (0 + rT c 13 + rT c 12 + rT c 11 + rT c 10 + rT c 9 + rT c 8 + rT c 7 + rT c 6 + rT c 5 + rT c 4) hle4 _ _ _) $$ [Hz1 Hk1 Hw1 HO Hf0 Hx Hs4]
  · isplitr; · iexact Hlev
    isplitl [Hz1]; · iexact Hz1
    isplitl [Hk1]; · (iexists _; iexact Hk1)
    isplitl [Hw1]; · iexact Hw1
    isplitl [HO]; · iexact HO
    isplitl [Hf0]; · iexact Hf0
    isplitl [Hx]; · iexact Hx
    iexact Hs4
  iintro %r_10 ⟨HO, Hf1, Hk0, Hz0, Hw0, Hx, Hs4⟩
  obtain ⟨r_10_0, r_10_1, r_10_2, r_10_3⟩ := r_10
  -- part 11
  try dsimp only
  rw [wp_bind]
  iapply (sub_11 m K c _ _ _ _ _ (0 + rT c 13 + rT c 12 + rT c 11 + rT c 10 + rT c 9 + rT c 8 + rT c 7 + rT c 6 + rT c 5) _ _) $$ [HO Hs4 Hq4 Hts4 Htp4 Hz0 Hk0 Hw0]
  · isplitr; · iexact HIs4
    isplitr; · iexact HIp4
    isplitr; · iexact Hrs4
    isplitr; · iexact Hrp4
    isplitl [HO]; · iexact HO
    isplitl [Hs4]; · iexact Hs4
    isplitl [Hq4]; · (iexists _; iexact Hq4)
    isplitl [Hts4]; · iexact Hts4
    isplitl [Htp4]; · iexact Htp4
    isplitl [Hz0]; · iexact Hz0
    isplitl [Hk0]; · (iexists _; iexact Hk0)
    iexact Hw0
  iintro ⟨HO, Hcs4, Hf0⟩
  -- part 12
  try dsimp only
  rw [wp_bind]
  iapply (sub_12 m K c _ (0 + rT c 13 + rT c 12 + rT c 11 + rT c 10 + rT c 9 + rT c 8 + rT c 7 + rT c 6 + rT c 5) hle5 _ _ _) $$ [HO Hf1 Hx Hs5]
  · isplitr; · iexact Hlev
    isplitl [HO]; · iexact HO
    isplitl [Hf1]; · iexact Hf1
    isplitl [Hx]; · iexact Hx
    iexact Hs5
  iintro ⟨HO, Hk1, Hz1, Hw1, Hx, Hs5⟩
  -- part 13
  try dsimp only
  rw [wp_bind]
  iapply (sub_13 m K c _ (0 + rT c 13 + rT c 12 + rT c 11 + rT c 10 + rT c 9 + rT c 8 + rT c 7 + rT c 6) hle6 _ _) $$ [HO Hs5 Hq5 Hts5 Htp5 Hz1 Hk1 Hw1 Hf0 Hx]
  · isplitr; · iexact HIs5
    isplitr; · iexact HIp5
    isplitr; · iexact Hrs5
    isplitr; · iexact Hrp5
    isplitr; · iexact Hlev
    isplitl [HO]; · iexact HO
    isplitl [Hs5]; · iexact Hs5
    isplitl [Hq5]; · (iexists _; iexact Hq5)
    isplitl [Hts5]; · iexact Hts5
    isplitl [Htp5]; · iexact Htp5
    isplitl [Hz1]; · iexact Hz1
    isplitl [Hk1]; · (iexists _; iexact Hk1)
    isplitl [Hw1]; · iexact Hw1
    isplitl [Hf0]; · iexact Hf0
    iexact Hx
  iintro ⟨HO, Hcs5, Hf1, Hk0, Hz0, Hw0, Hx⟩
  -- part 14
  try dsimp only
  rw [wp_bind]
  iapply (sub_14 m K c _ (0 + rT c 13 + rT c 12 + rT c 11 + rT c 10 + rT c 9 + rT c 8 + rT c 7) _ _ _) $$ [Hk0 Hs6 HO Hq6 Hts6 Htp6]
  · isplitr; · iexact HIs6
    isplitr; · iexact HIp6
    isplitr; · iexact Hrs6
    isplitr; · iexact Hrp6
    isplitl [Hk0]; · iexact Hk0
    isplitl [Hs6]; · iexact Hs6
    isplitl [HO]; · iexact HO
    isplitl [Hq6]; · (iexists _; iexact Hq6)
    isplitl [Hts6]; · iexact Hts6
    iexact Htp6
  iintro %r_14 ⟨HO, Hk0, Hcs6⟩
  obtain ⟨r_14_0, r_14_1, r_14_2, r_14_3⟩ := r_14
  -- part 15
  try dsimp only
  rw [wp_bind]
  iapply (sub_15 m K c _ _ _ _ (0 + rT c 13 + rT c 12 + rT c 11 + rT c 10 + rT c 9 + rT c 8 + rT c 7) hle7 _ _ _) $$ [Hz0 Hk0 Hw0 HO Hf1 Hx Hs7]
  · isplitr; · iexact Hlev
    isplitl [Hz0]; · iexact Hz0
    isplitl [Hk0]; · (iexists _; iexact Hk0)
    isplitl [Hw0]; · iexact Hw0
    isplitl [HO]; · iexact HO
    isplitl [Hf1]; · iexact Hf1
    isplitl [Hx]; · iexact Hx
    iexact Hs7
  iintro ⟨HO, Hf0, Hk1, Hz1, Hw1, Hx, Hs7⟩
  -- part 16
  try dsimp only
  rw [wp_bind]
  iapply (sub_16 m K c _ _ _ (0 + rT c 13 + rT c 12 + rT c 11 + rT c 10 + rT c 9 + rT c 8) _ _) $$ [Hs7 Hq7 HO Hts7 Htp7]
  · isplitr; · iexact HIs7
    isplitr; · iexact HIp7
    isplitl [Hs7]; · iexact Hs7
    isplitl [Hq7]; · (iexists _; iexact Hq7)
    isplitl [HO]; · iexact HO
    isplitl [Hts7]; · iexact Hts7
    isplitr; · iexact Hrs7
    isplitl [Htp7]; · iexact Htp7
    iexact Hrp7
  iintro %r_16 ⟨Hcs7, HO⟩
  obtain ⟨r_16_0, r_16_1⟩ := r_16
  -- part 17
  try dsimp only
  rw [wp_bind]
  iapply (sub_17 m K c _ _ _ _ _ (0 + rT c 13 + rT c 12 + rT c 11 + rT c 10 + rT c 9 + rT c 8) hle8 _ _) $$ [Hz1 Hk1 Hw1 Hf0 HO Hx Hs8]
  · isplitl [Hz1]; · iexact Hz1
    isplitl [Hk1]; · (iexists _; iexact Hk1)
    isplitl [Hw1]; · iexact Hw1
    isplitl [Hf0]; · iexact Hf0
    isplitl [HO]; · iexact HO
    isplitr; · iexact Hlev
    isplitl [Hx]; · iexact Hx
    (iexists _; iexact Hs8)
  iintro %r_17 ⟨Hf1, Hk0, Hz0, Hw0, HO, Hx, Hs8⟩
  obtain ⟨r_17_0, r_17_1, r_17_2, r_17_3⟩ := r_17
  -- part 18
  try dsimp only
  rw [wp_bind]
  iapply (sub_18 m K c _ _ _ _ _ _ _ (0 + rT c 13 + rT c 12 + rT c 11 + rT c 10 + rT c 9) _ _) $$ [Hs8 Hq8 HO Hts8 Htp8 Hz0 Hk0 Hw0]
  · isplitr; · iexact HIs8
    isplitr; · iexact HIp8
    isplitl [Hs8]; · iexact Hs8
    isplitl [Hq8]; · (iexists _; iexact Hq8)
    isplitl [HO]; · iexact HO
    isplitl [Hts8]; · iexact Hts8
    isplitr; · iexact Hrs8
    isplitl [Htp8]; · iexact Htp8
    isplitr; · iexact Hrp8
    isplitl [Hz0]; · iexact Hz0
    isplitl [Hk0]; · (iexists _; iexact Hk0)
    iexact Hw0
  iintro ⟨Hcs8, HO, Hf0⟩
  -- part 19
  try dsimp only
  rw [wp_bind]
  iapply (sub_19 m K c _ _ _ (0 + rT c 13 + rT c 12 + rT c 11 + rT c 10 + rT c 9) hle9 _ _) $$ [Hf1 HO Hx Hs9]
  · isplitl [Hf1]; · iexact Hf1
    isplitl [HO]; · iexact HO
    isplitr; · iexact Hlev
    isplitl [Hx]; · iexact Hx
    (iexists _; iexact Hs9)
  iintro ⟨Hk1, Hz1, Hw1, HO, Hx, Hs9⟩
  -- part 20
  try dsimp only
  rw [wp_bind]
  iapply (sub_20 m K c _ _ _ (0 + rT c 13 + rT c 12 + rT c 11 + rT c 10) hle10 _ _) $$ [Hs9 Hq9 HO Hts9 Htp9 Hz1 Hk1 Hw1 Hf0 Hx]
  · isplitr; · iexact HIs9
    isplitr; · iexact HIp9
    isplitl [Hs9]; · iexact Hs9
    isplitl [Hq9]; · (iexists _; iexact Hq9)
    isplitl [HO]; · iexact HO
    isplitl [Hts9]; · iexact Hts9
    isplitr; · iexact Hrs9
    isplitl [Htp9]; · iexact Htp9
    isplitr; · iexact Hrp9
    isplitl [Hz1]; · iexact Hz1
    isplitl [Hk1]; · (iexists _; iexact Hk1)
    isplitl [Hw1]; · iexact Hw1
    isplitl [Hf0]; · iexact Hf0
    isplitr; · iexact Hlev
    iexact Hx
  iintro ⟨Hcs9, Hf1, Hk0, Hz0, Hw0, HO, Hx⟩
  -- part 21
  try dsimp only
  rw [wp_bind]
  iapply (sub_21 m K c _ _ _ (0 + rT c 13 + rT c 12 + rT c 11) _ _) $$ [Hk0 Hs10 Hq10 HO Hts10 Htp10]
  · isplitl [Hk0]; · iexact Hk0
    isplitl [Hs10]; · (iexists _; iexact Hs10)
    isplitr; · iexact HIs10
    isplitr; · iexact HIp10
    isplitl [Hq10]; · (iexists _; iexact Hq10)
    isplitl [HO]; · iexact HO
    isplitl [Hts10]; · iexact Hts10
    isplitr; · iexact Hrs10
    isplitl [Htp10]; · iexact Htp10
    iexact Hrp10
  iintro %r_21 ⟨Hk0, Hcs10, HO⟩
  obtain ⟨r_21_0, r_21_1, r_21_2, r_21_3⟩ := r_21
  -- part 22
  try dsimp only
  rw [wp_bind]
  iapply (sub_22 m K c _ _ _ _ _ _ (0 + rT c 13 + rT c 12 + rT c 11) hle11 _ _) $$ [Hz0 Hk0 Hw0 Hf1 HO Hx Hs11]
  · isplitl [Hz0]; · iexact Hz0
    isplitl [Hk0]; · (iexists _; iexact Hk0)
    isplitl [Hw0]; · iexact Hw0
    isplitl [Hf1]; · iexact Hf1
    isplitl [HO]; · iexact HO
    isplitr; · iexact Hlev
    isplitl [Hx]; · iexact Hx
    (iexists _; iexact Hs11)
  iintro %r_22 ⟨Hf0, Hk1, Hz1, Hw1, HO, Hx, Hs11⟩
  -- part 23
  try dsimp only
  rw [wp_bind]
  iapply (sub_23 m K c _ _ _ (0 + rT c 13 + rT c 12) _ _) $$ [Hs11 Hq11 HO Hts11 Htp11]
  · isplitr; · iexact HIs11
    isplitr; · iexact HIp11
    isplitl [Hs11]; · iexact Hs11
    isplitl [Hq11]; · (iexists _; iexact Hq11)
    isplitl [HO]; · iexact HO
    isplitl [Hts11]; · iexact Hts11
    isplitr; · iexact Hrs11
    isplitl [Htp11]; · iexact Htp11
    iexact Hrp11
  iintro %r_23 ⟨Hcs11, HO⟩
  obtain ⟨r_23_0, r_23_1⟩ := r_23
  -- part 24
  try dsimp only
  rw [wp_bind]
  iapply (sub_24 m K c _ _ _ _ _ (0 + rT c 13 + rT c 12) hle12 _ _) $$ [Hz1 Hk1 Hw1 Hf0 HO Hx Hs12]
  · isplitl [Hz1]; · iexact Hz1
    isplitl [Hk1]; · (iexists _; iexact Hk1)
    isplitl [Hw1]; · iexact Hw1
    isplitl [Hf0]; · iexact Hf0
    isplitl [HO]; · iexact HO
    isplitr; · iexact Hlev
    isplitl [Hx]; · iexact Hx
    (iexists _; iexact Hs12)
  iintro %r_24 ⟨Hf1, Hk0, Hz0, Hw0, HO, Hx, Hs12⟩
  obtain ⟨r_24_0, r_24_1, r_24_2, r_24_3⟩ := r_24
  -- part 25
  try dsimp only
  rw [wp_bind]
  iapply (sub_25 m K c _ _ _ _ _ _ _ (0 + rT c 13) _ _) $$ [Hs12 Hq12 HO Hts12 Htp12 Hz0 Hk0 Hw0]
  · isplitr; · iexact HIs12
    isplitr; · iexact HIp12
    isplitl [Hs12]; · iexact Hs12
    isplitl [Hq12]; · (iexists _; iexact Hq12)
    isplitl [HO]; · iexact HO
    isplitl [Hts12]; · iexact Hts12
    isplitr; · iexact Hrs12
    isplitl [Htp12]; · iexact Htp12
    isplitr; · iexact Hrp12
    isplitl [Hz0]; · iexact Hz0
    isplitl [Hk0]; · (iexists _; iexact Hk0)
    iexact Hw0
  iintro ⟨Hcs12, HO, Hf0⟩
  -- part 26
  try dsimp only
  rw [wp_bind]
  iapply (sub_26 m K c _ _ _ (0 + rT c 13) hle13 _ _) $$ [Hf1 HO Hx Hs13]
  · isplitl [Hf1]; · iexact Hf1
    isplitl [HO]; · iexact HO
    isplitr; · iexact Hlev
    isplitl [Hx]; · iexact Hx
    (iexists _; iexact Hs13)
  iintro ⟨Hk1, Hz1, Hw1, HO, Hx, Hs13⟩
  -- part 27
  try dsimp only
  rw [wp_bind]
  iapply (sub_27 m K c _ _ _ (0) hle14 _ _) $$ [Hs13 Hq13 HO Hts13 Htp13 Hz1 Hk1 Hw1 Hf0 Hx]
  · isplitr; · iexact HIs13
    isplitr; · iexact HIp13
    isplitl [Hs13]; · iexact Hs13
    isplitl [Hq13]; · (iexists _; iexact Hq13)
    isplitl [HO]; · iexact HO
    isplitl [Hts13]; · iexact Hts13
    isplitr; · iexact Hrs13
    isplitl [Htp13]; · iexact Htp13
    isplitr; · iexact Hrp13
    isplitl [Hz1]; · iexact Hz1
    isplitl [Hk1]; · (iexists _; iexact Hk1)
    isplitl [Hw1]; · iexact Hw1
    isplitl [Hf0]; · iexact Hf0
    isplitr; · iexact Hlev
    iexact Hx
  iintro ⟨Hcs13, Hf1, Hk0, Hz0, Hw0, HO, Hx⟩
  -- part 28
  try dsimp only
  rw [wp_bind]
  iapply (sub_28 m K c _ _ _ _) $$ [Hk0 Hout Hf1 HO Hx Hcs0 Has0]
  · isplitl [Hk0]; · iexact Hk0
    isplitl [Hout]; · iexact Hout
    isplitl [Hf1]; · iexact Hf1
    isplitl [HO]; · iexact HO
    isplitr; · iexact Hlev
    isplitl [Hx]; · iexact Hx
    isplitr; · iexact HIs0
    isplitl [Hcs0]; · iexact Hcs0
    iexact Has0
  iintro ⟨Hk0, Hk1, Hz1, Hw1, Hx, Hout, HO, Has0, ⟨%fs0, Hs0⟩⟩
  -- part 29
  try dsimp only
  rw [wp_bind]
  iapply (arrive_29 m K c _ _ _ _ _ _ _ _ _ _ _) $$ [HO Hcr0 Har0 Hout]
  · isplitr; · iexact HIr0
    isplitl [HO]; · iexact HO
    isplitl [Hcr0]; · iexact Hcr0
    isplitl [Har0]; · iexact Har0
    iexact Hout
  iintro ⟨HO, Har0, Hrv0, Hout⟩
  -- part 30
  try dsimp only
  rw [wp_bind]
  iapply (arrive_30 m K c _ _ _ _ _ _ _ _ _ _ _) $$ [HO Hcs1 Has1 Hcr1 Har1 Hout]
  · isplitr; · iexact HIs1
    isplitr; · iexact HIr1
    isplitl [HO]; · iexact HO
    isplitl [Hcs1]; · iexact Hcs1
    isplitl [Has1]; · iexact Has1
    isplitl [Hcr1]; · iexact Hcr1
    isplitl [Har1]; · iexact Har1
    iexact Hout
  iintro ⟨HO, Has1, ⟨%fs1, Hs1⟩, Har1, Hrv1, Hout⟩
  -- part 31
  try dsimp only
  rw [wp_bind]
  iapply (arrive_31 m K c _ _ _ _ _ _ _ _ _ _ _) $$ [HO Hcs2 Has2 Hcr2 Har2 Hout]
  · isplitr; · iexact HIs2
    isplitr; · iexact HIr2
    isplitl [HO]; · iexact HO
    isplitl [Hcs2]; · iexact Hcs2
    isplitl [Has2]; · iexact Has2
    isplitl [Hcr2]; · iexact Hcr2
    isplitl [Har2]; · iexact Har2
    iexact Hout
  iintro ⟨HO, Has2, ⟨%fs2, Hs2⟩, Har2, Hrv2, Hout⟩
  -- part 32
  try dsimp only
  rw [wp_bind]
  iapply (arrive_32 m K c _ _ _ _ _ _ _ _ _ _) $$ [HO Hcs3 Has3 Hcr3 Har3]
  · isplitr; · iexact HIs3
    isplitr; · iexact HIr3
    isplitl [HO]; · iexact HO
    isplitl [Hcs3]; · iexact Hcs3
    isplitl [Has3]; · iexact Has3
    isplitl [Hcr3]; · iexact Hcr3
    iexact Har3
  iintro %w_32 ⟨HO, Has3, ⟨%fs3, Hs3⟩, Har3, Hrv3⟩
  -- part 33
  try dsimp only
  rw [wp_bind]
  iapply (arrive_33 m K c _ _ _ _ _ _ _ _ _ _ _ _ _) $$ [HO Hcs4 Has4 Hcr4 Har4 Hout]
  · isplitr; · iexact HIs4
    isplitr; · iexact HIr4
    isplitl [HO]; · iexact HO
    isplitl [Hcs4]; · iexact Hcs4
    isplitl [Has4]; · iexact Has4
    isplitl [Hcr4]; · iexact Hcr4
    isplitl [Har4]; · iexact Har4
    iexact Hout
  iintro %r_33 ⟨HO, Has4, ⟨%fs4, Hs4⟩, Har4, Hrv4, Hout⟩
  -- part 34
  try dsimp only
  rw [wp_bind]
  iapply (arrive_34 m K c _ _ _ _ _ _ _ _ _ _ _ _) $$ [HO Hrv4 Hcs5 Has5 Hout]
  · isplitr; · iexact HIs5
    isplitl [HO]; · iexact HO
    isplitl [Hrv4]; · iexact Hrv4
    isplitl [Hcs5]; · iexact Hcs5
    isplitl [Has5]; · iexact Has5
    iexact Hout
  iintro %r_34 ⟨HO, Hrv4, Has5, ⟨%fs5, Hs5⟩, Hout⟩
  -- part 35
  try dsimp only
  rw [wp_bind]
  iapply (arrive_35 m K c _ _ _ _ _ _ _ _ _ _ _ _) $$ [HO Hcr5 Har5 Hcs6 Has6 Hout]
  · isplitr; · iexact HIr5
    isplitr; · iexact HIs6
    isplitl [HO]; · iexact HO
    isplitl [Hcr5]; · iexact Hcr5
    isplitl [Har5]; · iexact Har5
    isplitl [Hcs6]; · iexact Hcs6
    isplitl [Has6]; · iexact Has6
    iexact Hout
  iintro %r_35 ⟨HO, Har5, Hrv5, Has6, ⟨%fs6, Hs6⟩, Hout⟩
  -- part 36
  try dsimp only
  rw [wp_bind]
  iapply (arrive_36 m K c _ _ _ _ _ _ _ _ _ _ _ _) $$ [HO Hcr6 Har6 Hcs7 Has7 Hout]
  · isplitr; · iexact HIr6
    isplitr; · iexact HIs7
    isplitl [HO]; · iexact HO
    isplitl [Hcr6]; · iexact Hcr6
    isplitl [Har6]; · iexact Har6
    isplitl [Hcs7]; · iexact Hcs7
    isplitl [Has7]; · iexact Has7
    iexact Hout
  iintro %r_36 ⟨HO, Har6, Hrv6, Has7, ⟨%fs7, Hs7⟩, Hout⟩
  obtain ⟨r_36_0, r_36_1, r_36_2⟩ := r_36
  -- part 37
  try dsimp only
  rw [wp_bind]
  iapply (arrive_37 m K c _ _ _ _ _ _ _ _ _ _ _ _ _ _) $$ [HO Hcr7 Har7 Hcs8 Has8 Hout]
  · isplitr; · iexact HIr7
    isplitr; · iexact HIs8
    isplitl [HO]; · iexact HO
    isplitl [Hcr7]; · iexact Hcr7
    isplitl [Har7]; · iexact Har7
    isplitl [Hcs8]; · iexact Hcs8
    isplitl [Has8]; · iexact Has8
    iexact Hout
  iintro %r_37 ⟨HO, Har7, Hrv7, Has8, ⟨%fs8, Hs8⟩, Hout⟩
  -- part 38
  try dsimp only
  rw [wp_bind]
  iapply (arrive_38 m K c _ _ _ _ _ _ _ _ _ _ _ _) $$ [HO Hcr8 Har8 Hcs9 Has9 Hout]
  · isplitr; · iexact HIr8
    isplitr; · iexact HIs9
    isplitl [HO]; · iexact HO
    isplitl [Hcr8]; · iexact Hcr8
    isplitl [Har8]; · iexact Har8
    isplitl [Hcs9]; · iexact Hcs9
    isplitl [Has9]; · iexact Has9
    iexact Hout
  iintro %r_38 ⟨HO, Har8, Hrv8, Has9, ⟨%fs9, Hs9⟩, Hout⟩
  obtain ⟨r_38_0, r_38_1, r_38_2, r_38_3⟩ := r_38
  -- part 39
  try dsimp only
  rw [wp_bind]
  iapply (arrive_39 m K c _ _ _ _ _ _ _ _ _ _ _ _ _ _ _) $$ [HO Hcr9 Har9 Hcs10 Has10 Hout]
  · isplitr; · iexact HIr9
    isplitr; · iexact HIs10
    isplitl [HO]; · iexact HO
    isplitl [Hcr9]; · iexact Hcr9
    isplitl [Har9]; · iexact Har9
    isplitl [Hcs10]; · iexact Hcs10
    isplitl [Has10]; · iexact Has10
    iexact Hout
  iintro %r_39 ⟨HO, Har9, Hrv9, Has10, ⟨%fs10, Hs10⟩, Hout⟩
  obtain ⟨r_39_0, r_39_1, r_39_2⟩ := r_39
  -- part 40
  try dsimp only
  rw [wp_bind]
  iapply (arrive_40 m K c _ _ _ _ _ _ _ _ _ _ _ _ _ _) $$ [HO Hcr10 Har10 Hcs11 Has11 Hout]
  · isplitr; · iexact HIr10
    isplitr; · iexact HIs11
    isplitl [HO]; · iexact HO
    isplitl [Hcr10]; · iexact Hcr10
    isplitl [Har10]; · iexact Har10
    isplitl [Hcs11]; · iexact Hcs11
    isplitl [Has11]; · iexact Has11
    iexact Hout
  iintro %r_40 ⟨HO, Har10, Hrv10, Has11, ⟨%fs11, Hs11⟩, Hout⟩
  obtain ⟨r_40_0, r_40_1, r_40_2⟩ := r_40
  -- part 41
  try dsimp only
  rw [wp_bind]
  iapply (arrive_41 m K c _ _ _ _ _ _ _ _ _ _ _ _ _ _) $$ [HO Hcr11 Har11 Hcs12 Has12 Hout]
  · isplitr; · iexact HIr11
    isplitr; · iexact HIs12
    isplitl [HO]; · iexact HO
    isplitl [Hcr11]; · iexact Hcr11
    isplitl [Har11]; · iexact Har11
    isplitl [Hcs12]; · iexact Hcs12
    isplitl [Has12]; · iexact Has12
    iexact Hout
  iintro ⟨HO, Har11, Hrv11, Has12, ⟨%fs12, Hs12⟩, Hout⟩
  -- part 42
  try dsimp only
  rw [wp_bind]
  iapply (arrive_42 m K c _ _ _ _ _ _ _ _ _ _ _) $$ [HO Hcr12 Har12 Hout]
  · isplitr; · iexact HIr12
    isplitl [HO]; · iexact HO
    isplitl [Hcr12]; · iexact Hcr12
    isplitl [Har12]; · iexact Har12
    iexact Hout
  iintro ⟨HO, Har12, Hrv12, Hout⟩
  -- the wait on slot 13's send cell, then the part's returned words
  try dsimp only
  try simp only [Prog.lift, Prog.bind_op, Prog.bind_ret, Prog.pure_eq_ret]
  iapply (wp_wait_send_slot m K c 13 _) $$ [Hcs13 HO Has13]
  · isplitr; · iexact HIs13
    isplitl [Hcs13]; · iexact Hcs13
    isplitl [HO]; · iexact HO
    iexact Has13
  iintro ⟨HO, Has13, ⟨%fs13', Hs13⟩⟩
  rw [wp_ret]; imodintro
  -- the last arrival: slot 13
  try dsimp only
  try simp only [Prog.lift, Prog.bind_op, Prog.bind_ret, Prog.pure_eq_ret]
  iapply (wp_wait_recv_slot m K c 13 _) $$ [Hcr13 HO Har13]
  · isplitr; · iexact HIr13
    isplitl [Hcr13]; · iexact Hcr13
    isplitl [HO]; · iexact HO
    iexact Har13
  iintro ⟨HO, Har13, Hrv13⟩
  iapply (wp_load_slot c 13 (sent m (back c (shiftOf 13)) 13)) $$ Hrv13
  iintro Hrv13
  iapply (wp_swap_out c _) $$ Hout
  iintro Hout
  rw [wp_ret]
  -- the weights and the weight scratch whole again
  ihave Hw := (w_halve m c).2 $$ [Hw0 Hw1]
  · isplitl [Hw0]; · iexact Hw0
    iexact Hw1
  ihave Hkj := (k_join c _ _) $$ [Hk0 Hk1]
  · isplitl [Hk0]; · iexact Hk0
    iexact Hk1
  icases Hkj with ⟨%fk', Hk⟩
  -- everything handed back: the own cells close, the scratch buffers rejoin, the result is the specification's
  imod (close_body m K c _ (xs m c) rfl fk' _ (out_run m c _) _ _ _ _ _ _ _ _ _ _ _ _ _ _ ) $$ [Has0 Har0 Has1 Har1 Has2 Har2 Has3 Har3 Has4 Har4 Has5 Har5 Has6 Har6 Has7 Har7 Has8 Har8 Has9 Har9 Has10 Har10 Has11 Har11 Has12 Har12 Has13 Har13 Hz0 Hz1 Hw Hk Hs0 Hs1 Hs2 Hs3 Hs4 Hs5 Hs6 Hs7 Hs8 Hs9 Hs10 Hs11 Hs12 Hs13 Hrv0 Hrv1 Hrv2 Hrv3 Hrv4 Hrv5 Hrv6 Hrv7 Hrv8 Hrv9 Hrv10 Hrv11 Hrv12 Hrv13 HO Hx Hout] with Hpost
  · isplitl [Has0 Har0 Has1 Har1 Has2 Har2 Has3 Har3 Has4 Har4 Has5 Har5 Has6 Har6 Has7 Har7 Has8 Har8 Has9 Har9 Has10 Har10 Has11 Har11 Has12 Har12 Has13 Har13]
    · isplitl [Has0 Har0]; · ((isplitr; · iexact HIs0); (isplitr; · iexact HIr0); (isplitl [Has0]; · iexact Has0); iexact Har0)
      isplitl [Has1 Har1]; · ((isplitr; · iexact HIs1); (isplitr; · iexact HIr1); (isplitl [Has1]; · iexact Has1); iexact Har1)
      isplitl [Has2 Har2]; · ((isplitr; · iexact HIs2); (isplitr; · iexact HIr2); (isplitl [Has2]; · iexact Has2); iexact Har2)
      isplitl [Has3 Har3]; · ((isplitr; · iexact HIs3); (isplitr; · iexact HIr3); (isplitl [Has3]; · iexact Has3); iexact Har3)
      isplitl [Has4 Har4]; · ((isplitr; · iexact HIs4); (isplitr; · iexact HIr4); (isplitl [Has4]; · iexact Has4); iexact Har4)
      isplitl [Has5 Har5]; · ((isplitr; · iexact HIs5); (isplitr; · iexact HIr5); (isplitl [Has5]; · iexact Has5); iexact Har5)
      isplitl [Has6 Har6]; · ((isplitr; · iexact HIs6); (isplitr; · iexact HIr6); (isplitl [Has6]; · iexact Has6); iexact Har6)
      isplitl [Has7 Har7]; · ((isplitr; · iexact HIs7); (isplitr; · iexact HIr7); (isplitl [Has7]; · iexact Has7); iexact Har7)
      isplitl [Has8 Har8]; · ((isplitr; · iexact HIs8); (isplitr; · iexact HIr8); (isplitl [Has8]; · iexact Has8); iexact Har8)
      isplitl [Has9 Har9]; · ((isplitr; · iexact HIs9); (isplitr; · iexact HIr9); (isplitl [Has9]; · iexact Has9); iexact Har9)
      isplitl [Has10 Har10]; · ((isplitr; · iexact HIs10); (isplitr; · iexact HIr10); (isplitl [Has10]; · iexact Has10); iexact Har10)
      isplitl [Has11 Har11]; · ((isplitr; · iexact HIs11); (isplitr; · iexact HIr11); (isplitl [Has11]; · iexact Has11); iexact Har11)
      isplitl [Has12 Har12]; · ((isplitr; · iexact HIs12); (isplitr; · iexact HIr12); (isplitl [Has12]; · iexact Has12); iexact Har12)
      (isplitr; · iexact HIs13); (isplitr; · iexact HIr13); (isplitl [Has13]; · iexact Has13); iexact Har13
    isplitl [Hz0]; · iexact Hz0
    isplitl [Hz1]; · iexact Hz1
    isplitl [Hw]; · iexact Hw
    isplitl [Hk]; · (simp only [Memref.view_whole, View.set_whole]; iexact Hk)
    isplitl [Hs0 Hs1 Hs2 Hs3 Hs4 Hs5 Hs6 Hs7 Hs8 Hs9 Hs10 Hs11 Hs12 Hs13]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      iexact Hs13
    isplitl [Hrv0 Hrv1 Hrv2 Hrv3 Hrv4 Hrv5 Hrv6 Hrv7 Hrv8 Hrv9 Hrv10 Hrv11 Hrv12 Hrv13]
    · isplitl [Hrv0]; · iexact Hrv0
      isplitl [Hrv1]; · iexact Hrv1
      isplitl [Hrv2]; · iexact Hrv2
      isplitl [Hrv3]; · iexact Hrv3
      isplitl [Hrv4]; · iexact Hrv4
      isplitl [Hrv5]; · iexact Hrv5
      isplitl [Hrv6]; · iexact Hrv6
      isplitl [Hrv7]; · iexact Hrv7
      isplitl [Hrv8]; · iexact Hrv8
      isplitl [Hrv9]; · iexact Hrv9
      isplitl [Hrv10]; · iexact Hrv10
      isplitl [Hrv11]; · iexact Hrv11
      isplitl [Hrv12]; · iexact Hrv12
      iexact Hrv13
    isplitl [HO]; · iexact HO
    isplitl [Hx]; · (simp only [Memref.view_whole, View.set_whole]; iexact Hx)
    iexact Hout
  imodintro
  iapply Hkt
  unfold bodyPost
  iexact Hpost

theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc
      ∗ (∃ d, stg c cc0_stg0_0 ((dats m 0 c).before (0 : Fin 2) t0_0 d))
      ∗ (∃ d, stg c cc0_stg1_0 ((dats m 0 c).before (1 : Fin 2) t0_0 d)))
    ⊢ wp frame (wpE (defs₀ (F := F)) 𝒱₀ c none) Set.univ
    (cc0_body xM (Memref.isWhole_whole _) wM (Memref.isWhole_whole _) oM (Memref.isWhole_whole _)
            kM (Memref.isWhole_whole _) sM (Memref.isWhole_whole _) rM (Memref.isWhole_whole _) cc0_scratch3 cc0_scratch4 cc0_scratch5) (fun _ => bodyPost m c)
  unfold Φ₀ start
  iintro ⟨⟨⟨⟨%K, Hg⟩, Hrest⟩, Hscr⟩, Ho, Hx, Hout⟩
  iapply (sound_body m K c fun _ => bodyPost m c)
  unfold bodyPre
  isplitr []
  · isplitl [Hg Hrest]
    · isplitl [Hg]; · (iapply (ghost_own m K c); iexact Hg)
      iexact Hrest
    isplitl [Hscr]; · iexact Hscr
    isplitl [Ho]; · iexact Ho
    isplitl [Hx] <;> iassumption
  · iintro H; iexact H

/-- info: 'Cert.Kernel.A2A.body_obligation' depends on axioms: [propext, Classical.choice, Quot.sound] -/
#guard_msgs in #print axioms body_obligation

end Cert.Kernel.A2A

end
-- ==== Proof.RefSide.lean ====
/-
  The reference's side: its run read back, one operation at a time, and the value each device's result
  array is specified to hold shown to be that device's block of columns of the reference's result.
-/
import proofs.«900797_g7700000000000798_dist_gemm_a2a_m4096_k4096_n8192_f32_relu_v7x_i8_1_alg».proof.Proof.Spec
import proofs.«900797_g7700000000000798_dist_gemm_a2a_m4096_k4096_n8192_f32_relu_v7x_i8_1_alg».proof.Proof.Gen.ReferenceIdeal.Read
import proofs.«900797_g7700000000000798_dist_gemm_a2a_m4096_k4096_n8192_f32_relu_v7x_i8_1_alg».proof.Proof.Gen.Pre_finite_inputs_ReferenceIdeal
import proofs.«900797_g7700000000000798_dist_gemm_a2a_m4096_k4096_n8192_f32_relu_v7x_i8_1_alg».proof.Defs
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

/-! ## The kernel's two payloads at an entry -/

namespace Cert.KernelIdeal.PayAt

open Idealize.ShloMosaic Idealize.ShloMosaic.ValueIdx Cert.KernelIdeal Cert.KernelIdeal.Gen Cert.KernelIdeal.Spec

/-- The left operand of the product is read at the result's row … -/
theorem lhs_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- … and the contracted coordinate; -/
theorem lhs_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- the right operand at the contracted coordinate … -/
theorem rhs_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- … and the result's column. -/
theorem rhs_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- A 512 × 4096 array times a 4096 × 512 array into a zero accumulator: entry (r, q) is the sum over k of
    a[r, k] · b[k, q]. -/
theorem matmul_at (a : FVec Ideal S512x4096 .f32) (b : FVec Ideal S4096x512 .f32) (r q : Fin 512) :
    matmul (F := Ideal) dot_S512x4096_S4096x512_S512x512_1_0_0_1_n_n none a b (constant (F := Ideal) S512x512 .f32 0x00000000#32) (ix2 r q)
      = ∑ k : Fin 4096, a (ix2 r k) * b (ix2 k q) := by
  simp only [matmul]
  rw [Ideal.matmul_constant_zero_apply, ← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 r q) ((ValueIdx.contrEquiv1 dot_S512x4096_S4096x512_S512x512_1_0_0_1_n_n 4096 rfl rfl).symm k) = ix2 r k := funext fun a => Fin.ext (by
    match a with
    | ⟨0, _⟩ => exact lhs_0 _ _
    | ⟨1, _⟩ => exact (lhs_1 _ _).trans hk)
  have er : dot_S512x4096_S4096x512_S512x512_1_0_0_1_n_n.rhsIdx (ix2 r q) ((ValueIdx.contrEquiv1 dot_S512x4096_S4096x512_S512x512_1_0_0_1_n_n 4096 rfl rfl).symm k) = ix2 k q := funext fun a => Fin.ext (by
    match a with
    | ⟨0, _⟩ => exact (rhs_0 _ _).trans hk
    | ⟨1, _⟩ => exact rhs_1 _ _)
  rw [el, er]

end Cert.KernelIdeal.PayAt

namespace Cert.KernelIdeal.PayAt

open Idealize.ShloMosaic Idealize.ShloMosaic.ValueIdx Cert.KernelIdeal Cert.KernelIdeal.Gen Cert.KernelIdeal.Spec

/-- The rectified product of 512 rows against a 512-column slab of the weights, entry (r, q):
    max (∑ k, x[r, k] · w[0, k, q], 0). -/
def relu (x : Vec Ideal S512x4096 .f32) (w : Vec Ideal S1x4096x512 .f32) (r q : Fin 512) : EReal :=
  max (∑ k : Fin 4096, x (ix2 r k) * w (ix3 (0 : Fin 1) k q)) (Ideal.ofBits .f32 0x00000000#32)

/-- The block a device keeps for itself is the rectified product, entry by entry. -/
theorem pay21_at (x : Vec Ideal S512x4096 .f32) (w : Vec Ideal S1x4096x512 .f32) (r q : Fin 512) :
    k0_pay21 (F := Ideal) x w (ix2 r q) = relu x w r q := by
  unfold k0_pay21 relu
  rw [maximumf_apply, matmul_at, broadcast_apply, shapeCast_self]
  simp only [shapeCast_1ab_ab_apply]
  rfl

/-- A block computed for another device is the same rectified product: rounding to the wire's format and widening
    back change nothing at the ideal values, and the two casts only add and drop a unit axis. -/
theorem pay1_pay2_at (x : Vec Ideal S512x4096 .f32) (w : Vec Ideal S1x4096x512 .f32) (r q : Fin 512) :
    k0_pay1 (F := Ideal) (k0_pay2 (F := Ideal) x w) (ix2 r q) = relu x w r q := by
  unfold k0_pay1 k0_pay2 relu
  rw [extf_apply, shapeCast_1ab_ab_apply, shapeCast_ab_1ab_apply, truncf_apply, maximumf_apply, matmul_at, broadcast_apply,
    shapeCast_self]
  simp only [shapeCast_1ab_ab_apply]
  rfl

end Cert.KernelIdeal.PayAt

/-! ## The reference's result, and each device's block of it -/

namespace Cert.ReferenceIdeal.RefValue

open Idealize.ShloMosaic Idealize.ShloMosaic.ValueIdx Idealize.SL.Sem Cert.ReferenceIdeal

/-- the reference's result array as a function of its two argument arrays -/
abbrev refOut (X : (⟨Cert.ReferenceIdeal.S4096x4096, .f32⟩ : BufTy).Contents (Elt Ideal)) (W : (⟨Cert.ReferenceIdeal.S4096x8192, .f32⟩ : BufTy).Contents (Elt Ideal)) : (⟨Cert.ReferenceIdeal.S4096x8192, .f32⟩ : BufTy).Contents (Elt Ideal) := Cert.ReferenceIdeal.Read.val_main_v2 (F := Ideal) X W

/-- The reference's result at entry j = (a, b): max (∑ k, X[a, k] · W[k, b], 0). -/
theorem refOut_at (X : (⟨Cert.ReferenceIdeal.S4096x4096, .f32⟩ : BufTy).Contents (Elt Ideal)) (W : (⟨Cert.ReferenceIdeal.S4096x8192, .f32⟩ : BufTy).Contents (Elt Ideal)) (j : S4096x8192.Idx) :
    refOut X W j = max (∑ k : Fin 4096, X (Read.lidx_main_v0 j k) * W (Read.ridx_main_v0 j k)) (Ideal.ofBits .f32 0x00000000#32) := by
  show Read.val_main_v2 (F := Ideal) X W j = _
  rw [Read.val_main_v2_apply, Read.val_main_v0_apply, Read.val_main_v1_apply, Read.val_main_cst_apply]
  rfl

/-- Rows [512·p, 512·p + 512) of X against columns [1024·c + 512·t, +512) of W, rectified, at (r, q), is the
    reference's entry (512·p + r, 1024·c + 512·t + q). -/
theorem relu_block (X : (⟨Cert.ReferenceIdeal.S4096x4096, .f32⟩ : BufTy).Contents (Elt Ideal)) (W : (⟨Cert.ReferenceIdeal.S4096x8192, .f32⟩ : BufTy).Contents (Elt Ideal))
    (c p : Fin 8) (r : Fin 512) (t : Fin 2) (q : Fin 512) (J : S4096x8192.Idx)
    (hr : (J 0).val = 512 * p.val + r.val) (hq : (J 1).val = 1024 * c.val + 512 * t.val + q.val) :
    Cert.KernelIdeal.PayAt.relu (Layout.block ⟨2, ![512, 4096]⟩ ⟨2, ![4096, 4096]⟩ 0 8 p X) (Cert.KernelIdeal.Spec.wslab W c t) r q
      = max (∑ k : Fin 4096, X (Read.lidx_main_v0 J k) * W (Read.ridx_main_v0 J k)) (Ideal.ofBits .f32 0x00000000#32) := by
  unfold Cert.KernelIdeal.PayAt.relu
  congr 1
  refine Finset.sum_congr rfl fun k _ => ?_
  have eX : (Layout.block ⟨2, ![512, 4096]⟩ ⟨2, ![4096, 4096]⟩ 0 8 p X) (ix2 r k) = X (Read.lidx_main_v0 J k) := by
    rw [Layout.block_apply]
    refine congrArg X (funext fun a => Fin.ext ?_)
    match a with
    | ⟨0, _⟩ => show p.val * 512 + r.val = (J 0).val; omega
    | ⟨1, _⟩ => rfl
  have eW : Cert.KernelIdeal.Spec.wslab W c t (ix3 (0 : Fin 1) k q) = W (Read.ridx_main_v0 J k) := by
    unfold Cert.KernelIdeal.Spec.wslab
    refine congrArg W (funext fun a => Fin.ext ?_)
    match a with
    | ⟨0, _⟩ => rfl
    | ⟨1, _⟩ => show 1024 * c.val + 512 * t.val + q.val = (J 1).val; omega
  rw [eX, eW]

/-- What device c's result array is specified to hold, from device p's 512 rows of X and the shared weights, is
    block c (of 8, along the columns) of the reference's result. Whether a row block was computed on c itself or
    arrived through the wire's format makes no difference at the ideal values. -/
theorem outAt_eq_block (X : (⟨Cert.ReferenceIdeal.S4096x4096, .f32⟩ : BufTy).Contents (Elt Ideal)) (W : (⟨Cert.ReferenceIdeal.S4096x8192, .f32⟩ : BufTy).Contents (Elt Ideal)) (c : Dev Cert.KernelIdeal.nD) :
    Cert.KernelIdeal.Spec.outAt (F := Ideal) (fun p => Layout.block ⟨2, ![512, 4096]⟩ ⟨2, ![4096, 4096]⟩ 0 8 p X) (fun _ => W) c
      = Layout.block ⟨2, ![4096, 1024]⟩ ⟨2, ![4096, 8192]⟩ 1 8 c (refOut X W) := by
  funext i
  have h0 : (i 0).val < 4096 := (i 0).isLt
  have h1 : (i 1).val < 1024 := (i 1).isLt
  rw [Layout.block_apply, refOut_at]
  unfold Cert.KernelIdeal.Spec.outAt
  simp only []
  split_ifs with hp
  · rw [Cert.KernelIdeal.PayAt.pay21_at]
    have hc : (i 0).val / 512 = c.val := congrArg Fin.val hp
    exact relu_block X W c c _ _ _ _
      (show (i 0).val = 512 * c.val + (i 0).val % 512 by omega)
      (show c.val * 1024 + (i 1).val = 1024 * c.val + 512 * ((i 1).val / 512) + (i 1).val % 512 by omega)
  · rw [Cert.KernelIdeal.PayAt.pay1_pay2_at]
    exact relu_block X W c ⟨(i 0).val / 512, by omega⟩ _ _ _ _
      (show (i 0).val = 512 * ((i 0).val / 512) + (i 0).val % 512 by omega)
      (show c.val * 1024 + (i 1).val = 1024 * c.val + 512 * ((i 1).val / 512) + (i 1).val % 512 by omega)

end Cert.ReferenceIdeal.RefValue

/-! ## The reference's run -/

namespace Cert.ReferenceIdeal.RefValue

open Idealize.ShloMosaic Idealize.SL.Sem Cert.ReferenceIdeal

/-- The reference runs and leaves its two arguments as they were: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The reference runs, its result ends as `refOut` of its two argument arrays, and the arguments end unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2)
            = refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (Cert.ReferenceIdeal.Read.val_main_v2_eq (F := Ideal) _ _), (h 0).2⟩)
    (Cert.ReferenceIdeal.Value.run (F := Ideal) m' g')

end Cert.ReferenceIdeal.RefValue

end
-- ==== Proof.lean ====
/-
  The kernel on the mesh of eight devices computes, device by device, its block of relu (x · w).

  Device c holds 512 rows of x and a full copy of w, and must end holding columns [1024 c, 1024 c + 1024) of the
  4096 × 8192 array relu (x · w). Each device multiplies its rows by the columns of every device, keeps the block that
  is its own and sends the other fourteen half-blocks, rounded to bf16, into the receive slots of the devices they
  belong to, after an entry barrier in which every device signals every device once; it then widens what it receives
  and lays the blocks out by the sender's row block. So device c ends with rows [512 p, 512 p + 512) computed by
  device p from ITS rows of x and the weights' columns of device c: entry by entry the reference's sum of products
  followed by max (·, 0) — over the extended reals the bf16 round trip is the identity, and nothing is distributed or
  cancelled, so no finiteness is used.

  The frames: every fair interleaving of the eight threads terminates because each wait sits below everything its
  waiter still owes (barrier cells below receive cells, copy and send cells below both), nothing faults, and the
  argument arrays are only read. The idealization rewrote no operation, so there is nothing to preserve.
-/
import proofs.«900797_g7700000000000798_dist_gemm_a2a_m4096_k4096_n8192_f32_relu_v7x_i8_1_alg».proof.Defs
import proofs.«900797_g7700000000000798_dist_gemm_a2a_m4096_k4096_n8192_f32_relu_v7x_i8_1_alg».proof.Proof.Gen.Kernel
import proofs.«900797_g7700000000000798_dist_gemm_a2a_m4096_k4096_n8192_f32_relu_v7x_i8_1_alg».proof.Proof.Gen.KernelIdeal
import proofs.«900797_g7700000000000798_dist_gemm_a2a_m4096_k4096_n8192_f32_relu_v7x_i8_1_alg».proof.Proof.Gen.ReferenceIdeal
import proofs.«900797_g7700000000000798_dist_gemm_a2a_m4096_k4096_n8192_f32_relu_v7x_i8_1_alg».proof.Proof.Gen.Pre_finite_inputs_Kernel
import proofs.«900797_g7700000000000798_dist_gemm_a2a_m4096_k4096_n8192_f32_relu_v7x_i8_1_alg».proof.Proof.Gen.Pre_finite_inputs_ReferenceIdeal
import proofs.«900797_g7700000000000798_dist_gemm_a2a_m4096_k4096_n8192_f32_relu_v7x_i8_1_alg».proof.Proof.Launch
import proofs.«900797_g7700000000000798_dist_gemm_a2a_m4096_k4096_n8192_f32_relu_v7x_i8_1_alg».proof.Proof.Body
import proofs.«900797_g7700000000000798_dist_gemm_a2a_m4096_k4096_n8192_f32_relu_v7x_i8_1_alg».proof.Proof.Bits.Launch
import proofs.«900797_g7700000000000798_dist_gemm_a2a_m4096_k4096_n8192_f32_relu_v7x_i8_1_alg».proof.Proof.Bits.Body
import proofs.«900797_g7700000000000798_dist_gemm_a2a_m4096_k4096_n8192_f32_relu_v7x_i8_1_alg».proof.Proof.RefSide
import Idealize.ShloMosaic.Adequacy
import Idealize.ShloMosaic.Init

noncomputable section

namespace Cert.Proof

open Idealize.ShloMosaic Idealize.SL.Sem

/-- The word-level kernel runs to the end on every device and leaves x and w as they were: the mesh's run with the
    result's contents dropped. -/
theorem frame_k [Cert.Kernel.Facts] [Cert.Pre_finite_inputs_Kernel.Facts] : Cert.frame_Kernel := fun m ρ _ =>
  (θ_run (Cert.Kernel.defs (F := Bits)) _ _).mono (fun _ h c => (h c).2)
    (Cert.Kernel.A2A.run_main (F := Bits) m ρ (Cert.Kernel.A2A.body_obligation (F := Bits) m))

/-- The same of the idealized kernel. -/
theorem frame_ki [Cert.KernelIdeal.Facts] [Cert.Pre_finite_inputs_Kernel.Facts] : Cert.frame_KernelIdeal := fun m ρ _ =>
  (θ_run (Cert.KernelIdeal.defs (F := Ideal)) _ _).mono (fun _ h c => (h c).2)
    (Cert.KernelIdeal.A2A.run_main (F := Ideal) m ρ (Cert.KernelIdeal.A2A.body_obligation (F := Ideal) m))

/-- Over the extended reals device c's result is block c of the reference's: the mesh's run names the result, each
    device's rows of x are its block of the reference's x and its weights the reference's, and entry by entry the two
    are one sum of products under one max. -/
theorem algebraic [Cert.KernelIdeal.Facts] [Cert.ReferenceIdeal.Facts] [Cert.Pre_finite_inputs_Kernel.Facts] :
    Cert.algebraic_KernelIdeal_ReferenceIdeal := by
  intro m ρ m' ρ' _ hagree
  refine ⟨_, ?_, Cert.ReferenceIdeal.RefValue.ref_run m' ρ'⟩
  refine (θ_run (Cert.KernelIdeal.defs (F := Ideal)) _ _).mono (fun _ h c => ⟨(h c).1.trans ?_, (h c).2.1, (h c).2.2⟩)
    (Cert.KernelIdeal.A2A.run_main (F := Ideal) m ρ (Cert.KernelIdeal.A2A.body_obligation (F := Ideal) m))
  have hx : Cert.KernelIdeal.A2A.xs m = fun p => Layout.block ⟨2, ![512, 4096]⟩ ⟨2, ![4096, 4096]⟩ 0 8 p
      (m' (((0 : Dev Cert.ReferenceIdeal.nD).tc : Thread Cert.ReferenceIdeal.nD Cert.ReferenceIdeal.τ).loc Cert.ReferenceIdeal.main_arg0)) :=
    funext fun p => (hagree p).1
  have hw : Cert.KernelIdeal.A2A.ws m = fun _ =>
      m' (((0 : Dev Cert.ReferenceIdeal.nD).tc : Thread Cert.ReferenceIdeal.nD Cert.ReferenceIdeal.τ).loc Cert.ReferenceIdeal.main_arg1) :=
    funext fun p => (hagree p).2
  show Cert.KernelIdeal.Spec.outAt (Cert.KernelIdeal.A2A.xs m) (Cert.KernelIdeal.A2A.ws m) c = _
  rw [hx, hw]
  exact Cert.ReferenceIdeal.RefValue.outAt_eq_block _ _ c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.ReferenceIdeal.RefValue.frame_ri, trivial, algebraic⟩

end Cert.Proof

end
